-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S528x128 .f32 .bf16
  ∧ IdealRules.truncf_extf.Statement Cert.KernelIdeal.S528x128 .f32 .bf16
  ∧ IdealRules.truncf_extf.Statement Cert.KernelIdeal.S528x128 .f32 .bf16
  ∧ IdealRules.truncf_extf.Statement Cert.KernelIdeal.S528x128 .f32 .bf16
  ∧ IdealRules.truncf_extf.Statement Cert.KernelIdeal.S528x128 .f32 .bf16
  ∧ IdealRules.truncf_extf.Statement Cert.KernelIdeal.S528x128 .f32 .bf16
  ∧ IdealRules.truncf_extf.Statement Cert.KernelIdeal.S528x128 .f32 .bf16
  ∧ IdealRules.truncf_extf.Statement Cert.KernelIdeal.S528x128 .f32 .bf16

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v144)) (v1 : (c : Dev Cert.KernelIdeal.nD) → Buf (Elt Ideal) ((c.tc : Thread Cert.KernelIdeal.nD Cert.KernelIdeal.τ).loc Cert.KernelIdeal.main_v153)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v164)) (v4 : (c : Dev Cert.KernelIdeal.nD) → Buf (Elt Ideal) ((c.tc : Thread Cert.KernelIdeal.nD Cert.KernelIdeal.τ).loc Cert.KernelIdeal.main_v172)) (v5 : (c : Dev Cert.KernelIdeal.nD) → Buf (Elt Ideal) ((c.tc : Thread Cert.KernelIdeal.nD Cert.KernelIdeal.τ).loc Cert.KernelIdeal.main_v216)) (v6 : (c : Dev Cert.KernelIdeal.nD) → Buf (Elt Ideal) ((c.tc : Thread Cert.KernelIdeal.nD Cert.KernelIdeal.τ).loc Cert.KernelIdeal.main_v174)) (v7 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_v153) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v164) = v3 c
          ∧ r.2.mem ((c.tc : Thread Cert.KernelIdeal.nD Cert.KernelIdeal.τ).loc Cert.KernelIdeal.main_v172) = v4 c
          ∧ r.2.mem ((c.tc : Thread Cert.KernelIdeal.nD Cert.KernelIdeal.τ).loc Cert.KernelIdeal.main_v216) = v5 c
          ∧ r.2.mem ((c.tc : Thread Cert.KernelIdeal.nD Cert.KernelIdeal.τ).loc Cert.KernelIdeal.main_v174) = v6 c
          ∧ r.2.mem ((c.tc : Thread Cert.KernelIdeal.nD Cert.KernelIdeal.τ).loc Cert.KernelIdeal.main_v213) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_v153) = v4 c
          ∧ r.2.mem ((c.tc : Thread Cert.ReferenceIdeal.nD Cert.ReferenceIdeal.τ).loc Cert.ReferenceIdeal.main_v210) = v5 c
          ∧ r.2.mem ((c.tc : Thread Cert.ReferenceIdeal.nD Cert.ReferenceIdeal.τ).loc Cert.ReferenceIdeal.main_v155) = v6 c
          ∧ r.2.mem ((c.tc : Thread Cert.ReferenceIdeal.nD Cert.ReferenceIdeal.τ).loc Cert.ReferenceIdeal.main_v207) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S65536 : Shape := ⟨1, ![65536]⟩
abbrev S512 : Shape := ⟨1, ![512]⟩
abbrev S512x256 : Shape := ⟨2, ![512, 256]⟩
abbrev S_ : Shape := ⟨0, ![]⟩

class Facts : Prop where

variable [Facts]

def fn {F : FTy → Type} [FloatOps F] (main_arg0 : IVec S65536 32) (main_arg1 : IVec S512 32) (main_arg2 : IVec S512x256 32) (main_arg3 : IVec S65536 32) : IVec S_ 1 :=
  let main_c : IVec S_ 1 := constantI S_ 1 1#1
  main_c
-- ==== Kernel.lean ====
abbrev S65536 : Shape := ⟨1, ![65536]⟩
abbrev S512 : Shape := ⟨1, ![512]⟩
abbrev S512x256 : Shape := ⟨2, ![512, 256]⟩
abbrev S_ : Shape := ⟨0, ![]⟩
abbrev S1x65536 : Shape := ⟨2, ![1, 65536]⟩
abbrev S128x128 : Shape := ⟨2, ![128, 128]⟩
abbrev S528x1 : Shape := ⟨2, ![528, 1]⟩
abbrev S1x1024 : Shape := ⟨2, ![1, 1024]⟩
abbrev S528x128 : Shape := ⟨2, ![528, 128]⟩
abbrev S1x128 : Shape := ⟨2, ![1, 128]⟩
abbrev S128 : Shape := ⟨1, ![128]⟩
abbrev S513x1 : Shape := ⟨2, ![513, 1]⟩
abbrev S513 : Shape := ⟨1, ![513]⟩
abbrev S512x1 : Shape := ⟨2, ![512, 1]⟩
abbrev S65536x1 : Shape := ⟨2, ![65536, 1]⟩
abbrev S256 : Shape := ⟨1, ![256]⟩
abbrev S1x256 : Shape := ⟨2, ![1, 256]⟩
abbrev S512x256x1 : Shape := ⟨3, ![512, 256, 1]⟩
abbrev S512x256x2 : Shape := ⟨3, ![512, 256, 2]⟩
abbrev S65536x2 : Shape := ⟨2, ![65536, 2]⟩
abbrev S1 : Shape := ⟨1, ![1]⟩

abbrev nBuf : Space → Nat
  | .hbm => 417
  | .vmem => 7
  | .smem => 0
  | _ => 0

abbrev hbmTy0_0 (i : Nat) : BufTy := match i % 128 with
  | 0 => ⟨S65536, .i32⟩
  | 1 => ⟨S512, .i32⟩
  | 2 => ⟨S512x256, .i32⟩
  | 3 => ⟨S65536, .i32⟩
  | 4 => ⟨S_, .i32⟩
  | 5 => ⟨S65536, .i32⟩
  | 6 => ⟨S65536, .i1⟩
  | 7 => ⟨S_, .i32⟩
  | 8 => ⟨S_, .i32⟩
  | 9 => ⟨S65536, .i32⟩
  | 10 => ⟨S65536, .i32⟩
  | 11 => ⟨S_, .i32⟩
  | 12 => ⟨S65536, .i32⟩
  | 13 => ⟨S65536, .i1⟩
  | 14 => ⟨S_, .i32⟩
  | 15 => ⟨S65536, .i32⟩
  | 16 => ⟨S65536, .i32⟩
  | 17 => ⟨S1x65536, .i32⟩
  | 18 => ⟨S_, .bf16⟩
  | 19 => ⟨S128x128, .bf16⟩
  | 20 => ⟨S128x128, .i32⟩
  | 21 => ⟨S_, .i32⟩
  | 22 => ⟨S128x128, .i32⟩
  | 23 => ⟨S128x128, .i32⟩
  | 24 => ⟨S128x128, .i32⟩
  | 25 => ⟨S128x128, .i1⟩
  | 26 => ⟨S_, .bf16⟩
  | 27 => ⟨S128x128, .bf16⟩
  | 28 => ⟨S128x128, .bf16⟩
  | 29 => ⟨S1x65536, .i32⟩
  | 30 => ⟨S528x1, .f32⟩
  | 31 => ⟨S65536, .i32⟩
  | 32 => ⟨S513x1, .f32⟩
  | 33 => ⟨S513, .f32⟩
  | 34 => ⟨S513, .i32⟩
  | 35 => ⟨S513, .i32⟩
  | 36 => ⟨S_, .i32⟩
  | 37 => ⟨S513, .i32⟩
  | 38 => ⟨S513, .i1⟩
  | 39 => ⟨S_, .i32⟩
  | 40 => ⟨S513, .i32⟩
  | 41 => ⟨S513, .i32⟩
  | 42 => ⟨S513, .i32⟩
  | 43 => ⟨S512, .i32⟩
  | 44 => ⟨S_, .i32⟩
  | 45 => ⟨S512, .i32⟩
  | 46 => ⟨S512, .i1⟩
  | 47 => ⟨S_, .i32⟩
  | 48 => ⟨S512, .i32⟩
  | 49 => ⟨S512, .i32⟩
  | 50 => ⟨S_, .i32⟩
  | 51 => ⟨S512, .i32⟩
  | 52 => ⟨S512, .i1⟩
  | 53 => ⟨S_, .i32⟩
  | 54 => ⟨S512, .i32⟩
  | 55 => ⟨S512, .i1⟩
  | 56 => ⟨S512, .i1⟩
  | 57 => ⟨S_, .i32⟩
  | 58 => ⟨S_, .i32⟩
  | 59 => ⟨S512, .i32⟩
  | 60 => ⟨S512, .i32⟩
  | 61 => ⟨S_, .i32⟩
  | 62 => ⟨S512, .i32⟩
  | 63 => ⟨S512, .i1⟩
  | 64 => ⟨S_, .i32⟩
  | 65 => ⟨S512, .i32⟩
  | 66 => ⟨S512, .i32⟩
  | 67 => ⟨S512, .i32⟩
  | 68 => ⟨S512x1, .i32⟩
  | 69 => ⟨S512, .i32⟩
  | 70 => ⟨S_, .i32⟩
  | 71 => ⟨S_, .i32⟩
  | 72 => ⟨S512, .i32⟩
  | 73 => ⟨S512, .i32⟩
  | 74 => ⟨S_, .i32⟩
  | 75 => ⟨S512, .i32⟩
  | 76 => ⟨S512, .i1⟩
  | 77 => ⟨S_, .i32⟩
  | 78 => ⟨S_, .i32⟩
  | 79 => ⟨S512, .i32⟩
  | 80 => ⟨S512, .i32⟩
  | 81 => ⟨S512, .i32⟩
  | 82 => ⟨S512, .i32⟩
  | 83 => ⟨S_, .i32⟩
  | 84 => ⟨S512, .i32⟩
  | 85 => ⟨S512, .i1⟩
  | 86 => ⟨S_, .i32⟩
  | 87 => ⟨S512, .i32⟩
  | 88 => ⟨S512, .i32⟩
  | 89 => ⟨S_, .i32⟩
  | 90 => ⟨S512, .i32⟩
  | 91 => ⟨S512, .i32⟩
  | 92 => ⟨S_, .i32⟩
  | 93 => ⟨S512, .i32⟩
  | 94 => ⟨S512, .i32⟩
  | 95 => ⟨S_, .i32⟩
  | 96 => ⟨S_, .i32⟩
  | 97 => ⟨S512, .i32⟩
  | 98 => ⟨S512, .i32⟩
  | 99 => ⟨S512, .i32⟩
  | 100 => ⟨S_, .i32⟩
  | 101 => ⟨S512, .i32⟩
  | 102 => ⟨S512, .i1⟩
  | 103 => ⟨S512, .i32⟩
  | 104 => ⟨S512, .i32⟩
  | 105 => ⟨S_, .i32⟩
  | 106 => ⟨S512, .i32⟩
  | 107 => ⟨S512, .i1⟩
  | 108 => ⟨S512, .i1⟩
  | 109 => ⟨S_, .i32⟩
  | 110 => ⟨S512, .i32⟩
  | 111 => ⟨S512, .i32⟩
  | 112 => ⟨S512, .i32⟩
  | 113 => ⟨S_, .i32⟩
  | 114 => ⟨S512, .i32⟩
  | 115 => ⟨S512, .i32⟩
  | 116 => ⟨S_, .i32⟩
  | 117 => ⟨S512, .i32⟩
  | 118 => ⟨S512, .i32⟩
  | 119 => ⟨S_, .i32⟩
  | 120 => ⟨S_, .i32⟩
  | 121 => ⟨S512, .i32⟩
  | 122 => ⟨S512, .i32⟩
  | 123 => ⟨S512, .i32⟩
  | 124 => ⟨S_, .i32⟩
  | 125 => ⟨S512, .i32⟩
  | 126 => ⟨S512, .i1⟩
  | 127 => ⟨S512, .i32⟩
  | _ => ⟨S65536, .i32⟩

abbrev hbmTy0_1 (i : Nat) : BufTy := match i % 128 with
  | 0 => ⟨S512, .i32⟩
  | 1 => ⟨S_, .i32⟩
  | 2 => ⟨S512, .i32⟩
  | 3 => ⟨S512, .i1⟩
  | 4 => ⟨S512, .i1⟩
  | 5 => ⟨S_, .i32⟩
  | 6 => ⟨S512, .i32⟩
  | 7 => ⟨S512, .i32⟩
  | 8 => ⟨S512, .i32⟩
  | 9 => ⟨S_, .i32⟩
  | 10 => ⟨S512, .i32⟩
  | 11 => ⟨S512, .i1⟩
  | 12 => ⟨S_, .i32⟩
  | 13 => ⟨S512, .i32⟩
  | 14 => ⟨S512, .i32⟩
  | 15 => ⟨S512, .i32⟩
  | 16 => ⟨S512x1, .i32⟩
  | 17 => ⟨S512, .i32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S512x1, .i32⟩
  | 26 => ⟨S512, .i32⟩
  | 27 => ⟨S512, .i32⟩
  | 28 => ⟨S_, .i32⟩
  | 29 => ⟨S512, .i32⟩
  | 30 => ⟨S512, .i32⟩
  | 31 => ⟨S_, .i32⟩
  | 32 => ⟨S_, .i32⟩
  | 33 => ⟨S512, .i32⟩
  | 34 => ⟨S512, .i32⟩
  | 35 => ⟨S_, .i32⟩
  | 36 => ⟨S_, .i32⟩
  | 37 => ⟨S512, .i32⟩
  | 38 => ⟨S512, .i32⟩
  | 39 => ⟨S65536, .i32⟩
  | 40 => ⟨S_, .i32⟩
  | 41 => ⟨S65536, .i32⟩
  | 42 => ⟨S65536, .i1⟩
  | 43 => ⟨S65536, .i32⟩
  | 44 => ⟨S_, .i32⟩
  | 45 => ⟨S_, .i32⟩
  | 46 => ⟨S_, .i32⟩
  | 47 => ⟨S_, .i32⟩
  | 48 => ⟨S65536, .i32⟩
  | 49 => ⟨S_, .i32⟩
  | 50 => ⟨S65536, .i32⟩
  | 51 => ⟨S65536, .i32⟩
  | 52 => ⟨S_, .i32⟩
  | 53 => ⟨S65536, .i32⟩
  | 54 => ⟨S65536, .i32⟩
  | 55 => ⟨S_, .i32⟩
  | 56 => ⟨S_, .i32⟩
  | 57 => ⟨S65536, .i32⟩
  | 58 => ⟨S_, .i32⟩
  | 59 => ⟨S65536, .i32⟩
  | 60 => ⟨S65536, .i32⟩
  | 61 => ⟨S65536, .i32⟩
  | 62 => ⟨S65536, .i32⟩
  | 63 => ⟨S65536, .i32⟩
  | 64 => ⟨S_, .i32⟩
  | 65 => ⟨S65536, .i32⟩
  | 66 => ⟨S_, .i32⟩
  | 67 => ⟨S65536, .i32⟩
  | 68 => ⟨S65536, .i1⟩
  | 69 => ⟨S_, .i32⟩
  | 70 => ⟨S65536, .i32⟩
  | 71 => ⟨S65536, .i32⟩
  | 72 => ⟨S65536, .i32⟩
  | 73 => ⟨S65536x1, .i32⟩
  | 74 => ⟨S65536, .i32⟩
  | 75 => ⟨S256, .i32⟩
  | 76 => ⟨S1x256, .i32⟩
  | 77 => ⟨S512x1, .i1⟩
  | 78 => ⟨S512x1, .i32⟩
  | 79 => ⟨S512x256, .i32⟩
  | 80 => ⟨S512x256, .i32⟩
  | 81 => ⟨S512x256, .i1⟩
  | 82 => ⟨S512x256, .i1⟩
  | 83 => ⟨S512x256, .i1⟩
  | 84 => ⟨S512x1, .i32⟩
  | 85 => ⟨S512x256, .i32⟩
  | 86 => ⟨S512x256, .i32⟩
  | 87 => ⟨S512x256, .i1⟩
  | 88 => ⟨S512x256, .i1⟩
  | 89 => ⟨S512x1, .i32⟩
  | 90 => ⟨S512x256, .i32⟩
  | 91 => ⟨S512x256, .i32⟩
  | 92 => ⟨S512x256, .i32⟩
  | 93 => ⟨S512x1, .i32⟩
  | 94 => ⟨S512x256, .i32⟩
  | 95 => ⟨S512x256, .i32⟩
  | 96 => ⟨S_, .i32⟩
  | 97 => ⟨S_, .i32⟩
  | 98 => ⟨S512x256, .i32⟩
  | 99 => ⟨S512x256, .i32⟩
  | 100 => ⟨S_, .i32⟩
  | 101 => ⟨S512x256, .i32⟩
  | 102 => ⟨S512x256, .i1⟩
  | 103 => ⟨S_, .i32⟩
  | 104 => ⟨S512x256, .i32⟩
  | 105 => ⟨S512x256, .i32⟩
  | 106 => ⟨S512x256, .i32⟩
  | 107 => ⟨S512x256x1, .i32⟩
  | 108 => ⟨S512x256, .i32⟩
  | 109 => ⟨S512x1, .i32⟩
  | 110 => ⟨S_, .i32⟩
  | 111 => ⟨S_, .i32⟩
  | 112 => ⟨S512x256, .i32⟩
  | 113 => ⟨S512x256, .i32⟩
  | 114 => ⟨S512x256, .i32⟩
  | 115 => ⟨S512x256, .i32⟩
  | 116 => ⟨S_, .i32⟩
  | 117 => ⟨S512x256, .i32⟩
  | 118 => ⟨S512x256, .i1⟩
  | 119 => ⟨S_, .i32⟩
  | 120 => ⟨S512x256, .i32⟩
  | 121 => ⟨S512x256, .i32⟩
  | 122 => ⟨S512x256, .i32⟩
  | 123 => ⟨S_, .i32⟩
  | 124 => ⟨S512x256, .i32⟩
  | 125 => ⟨S512x256, .i1⟩
  | 126 => ⟨S_, .i32⟩
  | 127 => ⟨S512x256, .i32⟩
  | _ => ⟨S65536, .i32⟩

abbrev hbmTy0_2 (i : Nat) : BufTy := match i % 128 with
  | 0 => ⟨S512x256, .i32⟩
  | 1 => ⟨S512x256, .i32⟩
  | 2 => ⟨S512x256x1, .i32⟩
  | 3 => ⟨S512x256x1, .i32⟩
  | 4 => ⟨S512x256x2, .i32⟩
  | 5 => ⟨S512x256, .i32⟩
  | 6 => ⟨S_, .i32⟩
  | 7 => ⟨S_, .i32⟩
  | 8 => ⟨S512x256, .i32⟩
  | 9 => ⟨S512x256, .i32⟩
  | 10 => ⟨S_, .i32⟩
  | 11 => ⟨S512x256, .i32⟩
  | 12 => ⟨S512x256, .i1⟩
  | 13 => ⟨S_, .i32⟩
  | 14 => ⟨S512x256, .i32⟩
  | 15 => ⟨S512x256, .i32⟩
  | 16 => ⟨S512x256, .i32⟩
  | 17 => ⟨S512x256x1, .i32⟩
  | 18 => ⟨S_, .i32⟩
  | 19 => ⟨S512x256, .i32⟩
  | 20 => ⟨S65536, .i32⟩
  | 21 => ⟨S_, .i32⟩
  | 22 => ⟨S512, .i32⟩
  | 23 => ⟨S512, .i1⟩
  | 24 => ⟨S512x1, .i1⟩
  | 25 => ⟨S_, .i32⟩
  | 26 => ⟨S512, .i32⟩
  | 27 => ⟨S512, .i1⟩
  | 28 => ⟨S_, .i32⟩
  | 29 => ⟨S512, .i32⟩
  | 30 => ⟨S512, .i32⟩
  | 31 => ⟨S512, .i32⟩
  | 32 => ⟨S512x1, .i32⟩
  | 33 => ⟨S512x256, .i32⟩
  | 34 => ⟨S_, .i32⟩
  | 35 => ⟨S512x256, .i1⟩
  | 36 => ⟨S512x256, .i32⟩
  | 37 => ⟨S512x256, .i32⟩
  | 38 => ⟨S_, .i32⟩
  | 39 => ⟨S512, .i32⟩
  | 40 => ⟨S512, .i1⟩
  | 41 => ⟨S_, .i32⟩
  | 42 => ⟨S512, .i32⟩
  | 43 => ⟨S512, .i32⟩
  | 44 => ⟨S512, .i32⟩
  | 45 => ⟨S512x1, .i32⟩
  | 46 => ⟨S512, .i32⟩
  | 47 => ⟨S_, .i32⟩
  | 48 => ⟨S512, .i32⟩
  | 49 => ⟨S512, .i32⟩
  | 50 => ⟨S512, .i32⟩
  | 51 => ⟨S_, .i32⟩
  | 52 => ⟨S_, .i32⟩
  | 53 => ⟨S_, .i32⟩
  | 54 => ⟨S512, .i32⟩
  | 55 => ⟨S512, .i1⟩
  | 56 => ⟨S_, .i32⟩
  | 57 => ⟨S_, .i32⟩
  | 58 => ⟨S512, .i32⟩
  | 59 => ⟨S512, .i32⟩
  | 60 => ⟨S_, .i32⟩
  | 61 => ⟨S65536, .i32⟩
  | 62 => ⟨S65536, .i1⟩
  | 63 => ⟨S_, .i32⟩
  | 64 => ⟨S_, .i32⟩
  | 65 => ⟨S65536, .i32⟩
  | 66 => ⟨S65536, .i32⟩
  | 67 => ⟨S_, .i32⟩
  | 68 => ⟨S65536, .i32⟩
  | 69 => ⟨S65536, .i1⟩
  | 70 => ⟨S_, .i32⟩
  | 71 => ⟨S65536, .i32⟩
  | 72 => ⟨S65536, .i32⟩
  | 73 => ⟨S65536, .i32⟩
  | 74 => ⟨S65536x1, .i32⟩
  | 75 => ⟨S65536, .i32⟩
  | 76 => ⟨S65536, .i32⟩
  | 77 => ⟨S_, .i32⟩
  | 78 => ⟨S_, .i32⟩
  | 79 => ⟨S65536, .i32⟩
  | 80 => ⟨S65536, .i32⟩
  | 81 => ⟨S65536, .i32⟩
  | 82 => ⟨S_, .i32⟩
  | 83 => ⟨S65536, .i32⟩
  | 84 => ⟨S65536, .i1⟩
  | 85 => ⟨S65536, .i32⟩
  | 86 => ⟨S65536, .i32⟩
  | 87 => ⟨S_, .i32⟩
  | 88 => ⟨S65536, .i32⟩
  | 89 => ⟨S65536, .i1⟩
  | 90 => ⟨S65536, .i1⟩
  | 91 => ⟨S_, .i32⟩
  | 92 => ⟨S65536, .i32⟩
  | 93 => ⟨S65536, .i32⟩
  | 94 => ⟨S65536, .i32⟩
  | 95 => ⟨S_, .i32⟩
  | 96 => ⟨S_, .i32⟩
  | 97 => ⟨S_, .i32⟩
  | 98 => ⟨S65536, .i32⟩
  | 99 => ⟨S65536, .i32⟩
  | 100 => ⟨S_, .i32⟩
  | 101 => ⟨S65536, .i32⟩
  | 102 => ⟨S65536, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S65536, .i32⟩
  | 110 => ⟨S65536, .i32⟩
  | 111 => ⟨S_, .i32⟩
  | 112 => ⟨S65536, .i32⟩
  | 113 => ⟨S65536, .i1⟩
  | 114 => ⟨S_, .i32⟩
  | 115 => ⟨S65536, .i32⟩
  | 116 => ⟨S65536, .i1⟩
  | 117 => ⟨S_, .i32⟩
  | 118 => ⟨S_, .i1⟩
  | 119 => ⟨S65536, .i1⟩
  | 120 => ⟨S65536, .i1⟩
  | 121 => ⟨S65536, .i1⟩
  | 122 => ⟨S65536, .i32⟩
  | 123 => ⟨S65536, .i32⟩
  | 124 => ⟨S65536, .i32⟩
  | 125 => ⟨S_, .i32⟩
  | 126 => ⟨S65536, .i32⟩
  | 127 => ⟨S65536, .i1⟩
  | _ => ⟨S65536, .i32⟩

abbrev hbmTy0_3 (i : Nat) : BufTy := match i % 128 with
  | 0 => ⟨S_, .i32⟩
  | 1 => ⟨S65536, .i32⟩
  | 2 => ⟨S65536, .i32⟩
  | 3 => ⟨S65536, .i32⟩
  | 4 => ⟨S_, .i32⟩
  | 5 => ⟨S65536, .i32⟩
  | 6 => ⟨S65536, .i1⟩
  | 7 => ⟨S_, .i32⟩
  | 8 => ⟨S65536, .i32⟩
  | 9 => ⟨S65536, .i32⟩
  | 10 => ⟨S65536, .i32⟩
  | 11 => ⟨S65536x1, .i32⟩
  | 12 => ⟨S65536x1, .i32⟩
  | 13 => ⟨S65536x2, .i32⟩
  | 14 => ⟨S65536, .i32⟩
  | 15 => ⟨S_, .i32⟩
  | 16 => ⟨S65536, .i32⟩
  | 17 => ⟨S65536, .i1⟩
  | 18 => ⟨S65536, .i1⟩
  | 19 => ⟨S65536, .i1⟩
  | 20 => ⟨S_, .i32⟩
  | 21 => ⟨S65536, .i32⟩
  | 22 => ⟨S65536, .i32⟩
  | 23 => ⟨S65536, .i32⟩
  | 24 => ⟨S_, .i32⟩
  | 25 => ⟨S65536, .i32⟩
  | 26 => ⟨S65536, .i32⟩
  | 27 => ⟨S_, .i32⟩
  | 28 => ⟨S1, .i32⟩
  | 29 => ⟨S_, .i32⟩
  | 30 => ⟨S_, .i32⟩
  | 31 => ⟨S512, .i32⟩
  | 32 => ⟨S513, .i32⟩
  | _ => ⟨S65536, .i32⟩

abbrev hbmTy (i : Nat) : BufTy := match i / 128 with
  | 0 => hbmTy0_0 i
  | 1 => hbmTy0_1 i
  | 2 => hbmTy0_2 i
  | 3 => hbmTy0_3 i
  | _ => ⟨S65536, .i32⟩

abbrev bufTy : (tb : Table) → Fin (tcTables nBuf tb) → BufTy
  | .hbm, ⟨i, _⟩ => hbmTy i
  | .local _ .vmem, ⟨0, _⟩ => ⟨S1x1024, .i32⟩
  | .local _ .vmem, ⟨1, _⟩ => ⟨S1x1024, .i32⟩
  | .local _ .vmem, ⟨2, _⟩ => ⟨S128x128, .bf16⟩
  | .local _ .vmem, ⟨3, _⟩ => ⟨S1x1024, .i32⟩
  | .local _ .vmem, ⟨4, _⟩ => ⟨S1x1024, .i32⟩
  | .local _ .vmem, ⟨5, _⟩ => ⟨S528x1, .f32⟩
  | .local _ .vmem, ⟨6, _⟩ => ⟨S528x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_call2_v0 : Ref sig .tc := ⟨.hbm, 20, rfl⟩
abbrev main_call2_c : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_cst : Ref sig .tc := ⟨.hbm, 26, rfl⟩
abbrev main_call2_v5 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_call3_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_call5_v0 : Ref sig .tc := ⟨.hbm, 48, rfl⟩
abbrev main_v22 : Ref sig .tc := ⟨.hbm, 49, rfl⟩
abbrev main_c_7 : Ref sig .tc := ⟨.hbm, 50, rfl⟩
abbrev main_v23 : Ref sig .tc := ⟨.hbm, 51, rfl⟩
abbrev main_v24 : Ref sig .tc := ⟨.hbm, 52, rfl⟩
abbrev main_c_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_9 : Ref sig .tc := ⟨.hbm, 57, rfl⟩
abbrev main_call6_v0 : Ref sig .tc := ⟨.hbm, 58, rfl⟩
abbrev main_call6_v1 : Ref sig .tc := ⟨.hbm, 59, rfl⟩
abbrev main_v28 : Ref sig .tc := ⟨.hbm, 60, rfl⟩
abbrev main_c_10 : Ref sig .tc := ⟨.hbm, 61, rfl⟩
abbrev main_v29 : Ref sig .tc := ⟨.hbm, 62, rfl⟩
abbrev main_v30 : Ref sig .tc := ⟨.hbm, 63, rfl⟩
abbrev main_c_11 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_c_12 : Ref sig .tc := ⟨.hbm, 70, rfl⟩
abbrev main_call7_v0 : Ref sig .tc := ⟨.hbm, 71, rfl⟩
abbrev main_call7_v1 : Ref sig .tc := ⟨.hbm, 72, rfl⟩
abbrev main_v36 : Ref sig .tc := ⟨.hbm, 73, rfl⟩
abbrev main_c_13 : Ref sig .tc := ⟨.hbm, 74, rfl⟩
abbrev main_v37 : Ref sig .tc := ⟨.hbm, 75, rfl⟩
abbrev main_v38 : Ref sig .tc := ⟨.hbm, 76, rfl⟩
abbrev main_c_14 : Ref sig .tc := ⟨.hbm, 77, rfl⟩
abbrev main_call8_v0 : Ref sig .tc := ⟨.hbm, 78, rfl⟩
abbrev main_call8_v1 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_c_15 : Ref sig .tc := ⟨.hbm, 83, rfl⟩
abbrev main_v42 : Ref sig .tc := ⟨.hbm, 84, rfl⟩
abbrev main_v43 : Ref sig .tc := ⟨.hbm, 85, rfl⟩
abbrev main_c_16 : Ref sig .tc := ⟨.hbm, 86, rfl⟩
abbrev main_call9_v0 : Ref sig .tc := ⟨.hbm, 87, rfl⟩
abbrev main_v44 : Ref sig .tc := ⟨.hbm, 88, rfl⟩
abbrev main_c_17 : Ref sig .tc := ⟨.hbm, 89, rfl⟩
abbrev main_v45 : Ref sig .tc := ⟨.hbm, 90, rfl⟩
abbrev main_v46 : Ref sig .tc := ⟨.hbm, 91, rfl⟩
abbrev main_c_18 : Ref sig .tc := ⟨.hbm, 92, rfl⟩
abbrev main_v47 : Ref sig .tc := ⟨.hbm, 93, rfl⟩
abbrev main_v48 : Ref sig .tc := ⟨.hbm, 94, rfl⟩
abbrev main_c_19 : Ref sig .tc := ⟨.hbm, 95, rfl⟩
abbrev main_call10_v0 : Ref sig .tc := ⟨.hbm, 96, rfl⟩
abbrev main_call10_v1 : Ref sig .tc := ⟨.hbm, 97, rfl⟩
abbrev main_call10_v2 : Ref sig .tc := ⟨.hbm, 98, rfl⟩
abbrev main_call10_v3 : Ref sig .tc := ⟨.hbm, 99, rfl⟩
abbrev main_call10_v4 : Ref sig .tc := ⟨.hbm, 100, rfl⟩
abbrev main_call10_v5 : Ref sig .tc := ⟨.hbm, 101, rfl⟩
abbrev main_call10_v6 : Ref sig .tc := ⟨.hbm, 102, rfl⟩
abbrev main_call10_v7 : Ref sig .tc := ⟨.hbm, 103, rfl⟩
abbrev main_call10_v8 : Ref sig .tc := ⟨.hbm, 104, rfl⟩
abbrev main_call10_c : Ref sig .tc := ⟨.hbm, 105, rfl⟩
abbrev main_call10_v9 : Ref sig .tc := ⟨.hbm, 106, rfl⟩
abbrev main_call10_v10 : Ref sig .tc := ⟨.hbm, 107, rfl⟩
abbrev main_call10_v11 : Ref sig .tc := ⟨.hbm, 108, rfl⟩
abbrev main_call10_c_0 : Ref sig .tc := ⟨.hbm, 109, rfl⟩
abbrev main_call10_v12 : Ref sig .tc := ⟨.hbm, 110, rfl⟩
abbrev main_call10_v13 : Ref sig .tc := ⟨.hbm, 111, rfl⟩
abbrev main_v49 : Ref sig .tc := ⟨.hbm, 112, rfl⟩
abbrev main_c_20 : Ref sig .tc := ⟨.hbm, 113, rfl⟩
abbrev main_v50 : Ref sig .tc := ⟨.hbm, 114, rfl⟩
abbrev main_v51 : Ref sig .tc := ⟨.hbm, 115, rfl⟩
abbrev main_c_21 : Ref sig .tc := ⟨.hbm, 116, rfl⟩
abbrev main_v52 : Ref sig .tc := ⟨.hbm, 117, rfl⟩
abbrev main_v53 : Ref sig .tc := ⟨.hbm, 118, rfl⟩
abbrev main_c_22 : Ref sig .tc := ⟨.hbm, 119, rfl⟩
abbrev main_call11_v0 : Ref sig .tc := ⟨.hbm, 120, rfl⟩
abbrev main_call11_v1 : Ref sig .tc := ⟨.hbm, 121, rfl⟩
abbrev main_call11_v2 : Ref sig .tc := ⟨.hbm, 122, rfl⟩
abbrev main_call11_v3 : Ref sig .tc := ⟨.hbm, 123, rfl⟩
abbrev main_call11_v4 : Ref sig .tc := ⟨.hbm, 124, rfl⟩
abbrev main_call11_v5 : Ref sig .tc := ⟨.hbm, 125, rfl⟩
abbrev main_call11_v6 : Ref sig .tc := ⟨.hbm, 126, rfl⟩
abbrev main_call11_v7 : Ref sig .tc := ⟨.hbm, 127, rfl⟩
abbrev main_call11_v8 : Ref sig .tc := ⟨.hbm, 128, rfl⟩
abbrev main_call11_c : Ref sig .tc := ⟨.hbm, 129, rfl⟩
abbrev main_call11_v9 : Ref sig .tc := ⟨.hbm, 130, rfl⟩
abbrev main_call11_v10 : Ref sig .tc := ⟨.hbm, 131, rfl⟩
abbrev main_call11_v11 : Ref sig .tc := ⟨.hbm, 132, rfl⟩
abbrev main_call11_c_0 : Ref sig .tc := ⟨.hbm, 133, rfl⟩
abbrev main_call11_v12 : Ref sig .tc := ⟨.hbm, 134, rfl⟩
abbrev main_call11_v13 : Ref sig .tc := ⟨.hbm, 135, rfl⟩
abbrev main_v54 : Ref sig .tc := ⟨.hbm, 136, rfl⟩
abbrev main_c_23 : Ref sig .tc := ⟨.hbm, 137, rfl⟩
abbrev main_v55 : Ref sig .tc := ⟨.hbm, 138, rfl⟩
abbrev main_v56 : Ref sig .tc := ⟨.hbm, 139, rfl⟩
abbrev main_c_24 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_c_25 : Ref sig .tc := ⟨.hbm, 146, rfl⟩
abbrev main_v62 : Ref sig .tc := ⟨.hbm, 147, rfl⟩
abbrev main_v63 : Ref sig .tc := ⟨.hbm, 148, rfl⟩
abbrev main_c_26 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_c_27 : Ref sig .tc := ⟨.hbm, 156, rfl⟩
abbrev main_v70 : Ref sig .tc := ⟨.hbm, 157, rfl⟩
abbrev main_v71 : Ref sig .tc := ⟨.hbm, 158, rfl⟩
abbrev main_c_28 : Ref sig .tc := ⟨.hbm, 159, rfl⟩
abbrev main_call12_v0 : Ref sig .tc := ⟨.hbm, 160, rfl⟩
abbrev main_call12_v1 : Ref sig .tc := ⟨.hbm, 161, rfl⟩
abbrev main_v72 : Ref sig .tc := ⟨.hbm, 162, rfl⟩
abbrev main_call13_call0_c : Ref sig .tc := ⟨.hbm, 163, rfl⟩
abbrev main_call13_call0_v0 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_c_29 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_c_30 : Ref sig .tc := ⟨.hbm, 172, rfl⟩
abbrev main_v79 : Ref sig .tc := ⟨.hbm, 173, rfl⟩
abbrev main_call14_call0_c : Ref sig .tc := ⟨.hbm, 174, rfl⟩
abbrev main_call14_call0_v0 : Ref sig .tc := ⟨.hbm, 175, rfl⟩
abbrev main_v80 : Ref sig .tc := ⟨.hbm, 176, rfl⟩
abbrev main_c_31 : Ref sig .tc := ⟨.hbm, 177, rfl⟩
abbrev main_v81 : Ref sig .tc := ⟨.hbm, 178, rfl⟩
abbrev main_v82 : Ref sig .tc := ⟨.hbm, 179, rfl⟩
abbrev main_c_32 : Ref sig .tc := ⟨.hbm, 180, rfl⟩
abbrev main_v83 : Ref sig .tc := ⟨.hbm, 181, rfl⟩
abbrev main_v84 : Ref sig .tc := ⟨.hbm, 182, rfl⟩
abbrev main_call15_call0_c : Ref sig .tc := ⟨.hbm, 183, rfl⟩
abbrev main_call15_call0_v0 : Ref sig .tc := ⟨.hbm, 184, rfl⟩
abbrev main_v85 : Ref sig .tc := ⟨.hbm, 185, rfl⟩
abbrev main_c_33 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_c_34 : Ref sig .tc := ⟨.hbm, 192, rfl⟩
abbrev main_v91 : Ref sig .tc := ⟨.hbm, 193, rfl⟩
abbrev main_c_35 : Ref sig .tc := ⟨.hbm, 194, rfl⟩
abbrev main_v92 : Ref sig .tc := ⟨.hbm, 195, rfl⟩
abbrev main_v93 : Ref sig .tc := ⟨.hbm, 196, rfl⟩
abbrev main_c_36 : Ref sig .tc := ⟨.hbm, 197, rfl⟩
abbrev main_v94 : Ref sig .tc := ⟨.hbm, 198, rfl⟩
abbrev main_v95 : Ref sig .tc := ⟨.hbm, 199, rfl⟩
abbrev main_v96 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_c_37 : Ref sig .tc := ⟨.hbm, 224, rfl⟩
abbrev main_call17_v0 : Ref sig .tc := ⟨.hbm, 225, rfl⟩
abbrev main_call17_v1 : Ref sig .tc := ⟨.hbm, 226, rfl⟩
abbrev main_v120 : Ref sig .tc := ⟨.hbm, 227, rfl⟩
abbrev main_c_38 : Ref sig .tc := ⟨.hbm, 228, rfl⟩
abbrev main_v121 : Ref sig .tc := ⟨.hbm, 229, rfl⟩
abbrev main_v122 : Ref sig .tc := ⟨.hbm, 230, rfl⟩
abbrev main_c_39 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_v128 : Ref sig .tc := ⟨.hbm, 237, rfl⟩
abbrev main_c_40 : Ref sig .tc := ⟨.hbm, 238, rfl⟩
abbrev main_call18_v0 : Ref sig .tc := ⟨.hbm, 239, rfl⟩
abbrev main_call18_v1 : Ref sig .tc := ⟨.hbm, 240, rfl⟩
abbrev main_call18_v2 : Ref sig .tc := ⟨.hbm, 241, rfl⟩
abbrev main_v129 : Ref sig .tc := ⟨.hbm, 242, rfl⟩
abbrev main_v130 : Ref sig .tc := ⟨.hbm, 243, rfl⟩
abbrev main_c_41 : Ref sig .tc := ⟨.hbm, 244, rfl⟩
abbrev main_v131 : Ref sig .tc := ⟨.hbm, 245, rfl⟩
abbrev main_v132 : Ref sig .tc := ⟨.hbm, 246, rfl⟩
abbrev main_c_42 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_c_43 : Ref sig .tc := ⟨.hbm, 251, rfl⟩
abbrev main_v136 : Ref sig .tc := ⟨.hbm, 252, rfl⟩
abbrev main_v137 : Ref sig .tc := ⟨.hbm, 253, rfl⟩
abbrev main_c_44 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_v143 : Ref sig .tc := ⟨.hbm, 260, rfl⟩
abbrev main_v144 : Ref sig .tc := ⟨.hbm, 261, rfl⟩
abbrev main_c_45 : Ref sig .tc := ⟨.hbm, 262, rfl⟩
abbrev main_call19_v0 : Ref sig .tc := ⟨.hbm, 263, rfl⟩
abbrev main_call19_v1 : Ref sig .tc := ⟨.hbm, 264, rfl⟩
abbrev main_v145 : Ref sig .tc := ⟨.hbm, 265, rfl⟩
abbrev main_c_46 : Ref sig .tc := ⟨.hbm, 266, rfl⟩
abbrev main_v146 : Ref sig .tc := ⟨.hbm, 267, rfl⟩
abbrev main_v147 : Ref sig .tc := ⟨.hbm, 268, rfl⟩
abbrev main_c_47 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_c_48 : Ref sig .tc := ⟨.hbm, 274, rfl⟩
abbrev main_v152 : Ref sig .tc := ⟨.hbm, 275, rfl⟩
abbrev main_v153 : Ref sig .tc := ⟨.hbm, 276, rfl⟩
abbrev main_c_49 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_c_50 : Ref sig .tc := ⟨.hbm, 281, rfl⟩
abbrev main_v157 : Ref sig .tc := ⟨.hbm, 282, rfl⟩
abbrev main_v158 : Ref sig .tc := ⟨.hbm, 283, rfl⟩
abbrev main_c_51 : Ref sig .tc := ⟨.hbm, 284, rfl⟩
abbrev main_v159 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_v163 : Ref sig .tc := ⟨.hbm, 289, rfl⟩
abbrev main_c_52 : Ref sig .tc := ⟨.hbm, 290, rfl⟩
abbrev main_call20_v0 : Ref sig .tc := ⟨.hbm, 291, rfl⟩
abbrev main_call20_v1 : Ref sig .tc := ⟨.hbm, 292, rfl⟩
abbrev main_v164 : Ref sig .tc := ⟨.hbm, 293, rfl⟩
abbrev main_c_53 : Ref sig .tc := ⟨.hbm, 294, rfl⟩
abbrev main_v165 : Ref sig .tc := ⟨.hbm, 295, rfl⟩
abbrev main_v166 : Ref sig .tc := ⟨.hbm, 296, rfl⟩
abbrev main_c_54 : Ref sig .tc := ⟨.hbm, 297, rfl⟩
abbrev main_v167 : Ref sig .tc := ⟨.hbm, 298, rfl⟩
abbrev main_v168 : Ref sig .tc := ⟨.hbm, 299, rfl⟩
abbrev main_v169 : Ref sig .tc := ⟨.hbm, 300, rfl⟩
abbrev main_v170 : Ref sig .tc := ⟨.hbm, 301, rfl⟩
abbrev main_v171 : Ref sig .tc := ⟨.hbm, 302, rfl⟩
abbrev main_c_55 : Ref sig .tc := ⟨.hbm, 303, rfl⟩
abbrev main_call21_v0 : Ref sig .tc := ⟨.hbm, 304, rfl⟩
abbrev main_v172 : Ref sig .tc := ⟨.hbm, 305, rfl⟩
abbrev main_v173 : Ref sig .tc := ⟨.hbm, 306, rfl⟩
abbrev main_c_56 : Ref sig .tc := ⟨.hbm, 307, rfl⟩
abbrev main_v174 : Ref sig .tc := ⟨.hbm, 308, rfl⟩
abbrev main_c_57 : Ref sig .tc := ⟨.hbm, 309, rfl⟩
abbrev main_v175 : Ref sig .tc := ⟨.hbm, 310, rfl⟩
abbrev main_v176 : Ref sig .tc := ⟨.hbm, 311, rfl⟩
abbrev main_c_58 : Ref sig .tc := ⟨.hbm, 312, rfl⟩
abbrev main_call22_v0 : Ref sig .tc := ⟨.hbm, 313, rfl⟩
abbrev main_call22_v1 : Ref sig .tc := ⟨.hbm, 314, rfl⟩
abbrev main_v177 : Ref sig .tc := ⟨.hbm, 315, rfl⟩
abbrev main_c_59 : Ref sig .tc := ⟨.hbm, 316, rfl⟩
abbrev main_v178 : Ref sig .tc := ⟨.hbm, 317, rfl⟩
abbrev main_v179 : Ref sig .tc := ⟨.hbm, 318, rfl⟩
abbrev main_c_60 : Ref sig .tc := ⟨.hbm, 319, rfl⟩
abbrev main_call23_v0 : Ref sig .tc := ⟨.hbm, 320, rfl⟩
abbrev main_call23_v1 : Ref sig .tc := ⟨.hbm, 321, rfl⟩
abbrev main_v180 : Ref sig .tc := ⟨.hbm, 322, rfl⟩
abbrev main_c_61 : Ref sig .tc := ⟨.hbm, 323, rfl⟩
abbrev main_v181 : Ref sig .tc := ⟨.hbm, 324, rfl⟩
abbrev main_v182 : Ref sig .tc := ⟨.hbm, 325, rfl⟩
abbrev main_c_62 : Ref sig .tc := ⟨.hbm, 326, rfl⟩
abbrev main_v183 : Ref sig .tc := ⟨.hbm, 327, rfl⟩
abbrev main_v184 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_c_63 : Ref sig .tc := ⟨.hbm, 333, rfl⟩
abbrev main_call24_v0 : Ref sig .tc := ⟨.hbm, 334, rfl⟩
abbrev main_call24_v1 : Ref sig .tc := ⟨.hbm, 335, rfl⟩
abbrev main_call24_v2 : Ref sig .tc := ⟨.hbm, 336, rfl⟩
abbrev main_call24_v3 : Ref sig .tc := ⟨.hbm, 337, rfl⟩
abbrev main_call24_v4 : Ref sig .tc := ⟨.hbm, 338, rfl⟩
abbrev main_call24_v5 : Ref sig .tc := ⟨.hbm, 339, rfl⟩
abbrev main_call24_v6 : Ref sig .tc := ⟨.hbm, 340, rfl⟩
abbrev main_call24_v7 : Ref sig .tc := ⟨.hbm, 341, rfl⟩
abbrev main_call24_v8 : Ref sig .tc := ⟨.hbm, 342, rfl⟩
abbrev main_call24_c : Ref sig .tc := ⟨.hbm, 343, rfl⟩
abbrev main_call24_v9 : Ref sig .tc := ⟨.hbm, 344, rfl⟩
abbrev main_call24_v10 : Ref sig .tc := ⟨.hbm, 345, rfl⟩
abbrev main_call24_v11 : Ref sig .tc := ⟨.hbm, 346, rfl⟩
abbrev main_call24_c_0 : Ref sig .tc := ⟨.hbm, 347, rfl⟩
abbrev main_call24_v12 : Ref sig .tc := ⟨.hbm, 348, rfl⟩
abbrev main_call24_v13 : Ref sig .tc := ⟨.hbm, 349, rfl⟩
abbrev main_v189 : Ref sig .tc := ⟨.hbm, 350, rfl⟩
abbrev main_c_64 : Ref sig .tc := ⟨.hbm, 351, rfl⟩
abbrev main_c_65 : Ref sig .tc := ⟨.hbm, 352, rfl⟩
abbrev main_call25_v0 : Ref sig .tc := ⟨.hbm, 353, rfl⟩
abbrev main_call25_v1 : Ref sig .tc := ⟨.hbm, 354, rfl⟩
abbrev main_call25_v2 : Ref sig .tc := ⟨.hbm, 355, rfl⟩
abbrev main_call25_v3 : Ref sig .tc := ⟨.hbm, 356, rfl⟩
abbrev main_call25_v4 : Ref sig .tc := ⟨.hbm, 357, rfl⟩
abbrev main_v190 : Ref sig .tc := ⟨.hbm, 358, rfl⟩
abbrev main_c_66 : Ref sig .tc := ⟨.hbm, 359, rfl⟩
abbrev main_call26_v0 : Ref sig .tc := ⟨.hbm, 360, rfl⟩
abbrev main_call26_c : Ref sig .tc := ⟨.hbm, 361, rfl⟩
abbrev main_call26_v1 : Ref sig .tc := ⟨.hbm, 362, rfl⟩
abbrev main_call26_c_0 : Ref sig .tc := ⟨.hbm, 363, rfl⟩
abbrev main_call26_v2 : Ref sig .tc := ⟨.hbm, 364, rfl⟩
abbrev main_call26_v3 : Ref sig .tc := ⟨.hbm, 365, rfl⟩
abbrev main_call26_v4 : Ref sig .tc := ⟨.hbm, 366, rfl⟩
abbrev main_call26_c_1 : Ref sig .tc := ⟨.hbm, 367, rfl⟩
abbrev main_call26_v5 : Ref sig .tc := ⟨.hbm, 368, rfl⟩
abbrev main_call26_v6 : Ref sig .tc := ⟨.hbm, 369, rfl⟩
abbrev main_call26_c_2 : Ref sig .tc := ⟨.hbm, 370, rfl⟩
abbrev main_call26_v7 : Ref sig .tc := ⟨.hbm, 371, rfl⟩
abbrev main_call26_v8 : Ref sig .tc := ⟨.hbm, 372, rfl⟩
abbrev main_call26_c_3 : Ref sig .tc := ⟨.hbm, 373, rfl⟩
abbrev main_call26_v9 : Ref sig .tc := ⟨.hbm, 374, rfl⟩
abbrev main_call26_v10 : Ref sig .tc := ⟨.hbm, 375, rfl⟩
abbrev main_call26_v11 : Ref sig .tc := ⟨.hbm, 376, rfl⟩
abbrev main_call26_v12 : Ref sig .tc := ⟨.hbm, 377, rfl⟩
abbrev main_call26_v13 : Ref sig .tc := ⟨.hbm, 378, rfl⟩
abbrev main_call26_v14 : Ref sig .tc := ⟨.hbm, 379, rfl⟩
abbrev main_v191 : Ref sig .tc := ⟨.hbm, 380, rfl⟩
abbrev main_c_67 : Ref sig .tc := ⟨.hbm, 381, rfl⟩
abbrev main_v192 : Ref sig .tc := ⟨.hbm, 382, rfl⟩
abbrev main_v193 : Ref sig .tc := ⟨.hbm, 383, rfl⟩
abbrev main_c_68 : Ref sig .tc := ⟨.hbm, 384, rfl⟩
abbrev main_v194 : Ref sig .tc := ⟨.hbm, 385, rfl⟩
abbrev main_v195 : Ref sig .tc := ⟨.hbm, 386, rfl⟩
abbrev main_v196 : Ref sig .tc := ⟨.hbm, 387, rfl⟩
abbrev main_c_69 : Ref sig .tc := ⟨.hbm, 388, rfl⟩
abbrev main_v197 : Ref sig .tc := ⟨.hbm, 389, rfl⟩
abbrev main_v198 : Ref sig .tc := ⟨.hbm, 390, rfl⟩
abbrev main_c_70 : Ref sig .tc := ⟨.hbm, 391, rfl⟩
abbrev main_v199 : Ref sig .tc := ⟨.hbm, 392, rfl⟩
abbrev main_v200 : Ref sig .tc := ⟨.hbm, 393, rfl⟩
abbrev main_v201 : Ref sig .tc := ⟨.hbm, 394, rfl⟩
abbrev main_v202 : Ref sig .tc := ⟨.hbm, 395, rfl⟩
abbrev main_v203 : Ref sig .tc := ⟨.hbm, 396, rfl⟩
abbrev main_v204 : Ref sig .tc := ⟨.hbm, 397, rfl⟩
abbrev main_v205 : Ref sig .tc := ⟨.hbm, 398, rfl⟩
abbrev main_c_71 : Ref sig .tc := ⟨.hbm, 399, rfl⟩
abbrev main_v206 : Ref sig .tc := ⟨.hbm, 400, rfl⟩
abbrev main_v207 : Ref sig .tc := ⟨.hbm, 401, rfl⟩
abbrev main_v208 : Ref sig .tc := ⟨.hbm, 402, rfl⟩
abbrev main_v209 : Ref sig .tc := ⟨.hbm, 403, rfl⟩
abbrev main_c_72 : Ref sig .tc := ⟨.hbm, 404, rfl⟩
abbrev main_v210 : Ref sig .tc := ⟨.hbm, 405, rfl⟩
abbrev main_v211 : Ref sig .tc := ⟨.hbm, 406, rfl⟩
abbrev main_v212 : Ref sig .tc := ⟨.hbm, 407, rfl⟩
abbrev main_c_73 : Ref sig .tc := ⟨.hbm, 408, rfl⟩
abbrev main_call27_v0 : Ref sig .tc := ⟨.hbm, 409, rfl⟩
abbrev main_v213 : Ref sig .tc := ⟨.hbm, 410, rfl⟩
abbrev main_c_74 : Ref sig .tc := ⟨.hbm, 411, rfl⟩
abbrev main_v214 : Ref sig .tc := ⟨.hbm, 412, rfl⟩
abbrev main_call28_call0_c : Ref sig .tc := ⟨.hbm, 413, rfl⟩
abbrev main_call28_call0_v0 : Ref sig .tc := ⟨.hbm, 414, rfl⟩
abbrev main_v215 : Ref sig .tc := ⟨.hbm, 415, rfl⟩
abbrev main_v216 : Ref sig .tc := ⟨.hbm, 416, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_mult1 : BitVec 32 :=
  let c0_i32_1 : BitVec 32 := 0#32
  let c128_i32 : BitVec 32 := 128#32
  let v5 : BitVec 32 := Scalar.muli c0_i32_1 c128_i32
  v5
def k0_off1 (c0_i32_1 : BitVec 32) : Fin 2 → Nat :=
  let c0 : Index := 0#32
  let c128_i32 : BitVec 32 := 128#32
  let v5 : BitVec 32 := Scalar.muli c0_i32_1 c128_i32
  let v6 : BitVec 32 := v5
  let v7 : Index := Scalar.indexCast v6
  ![0, v7.toNat]
def k0_mult2 : BitVec 32 :=
  let c1_i32 : BitVec 32 := 1#32
  let c128_i32_10 : BitVec 32 := 128#32
  let v36 : BitVec 32 := Scalar.muli c1_i32 c128_i32_10
  v36
def k0_mult3 : BitVec 32 :=
  let c2_i32 : BitVec 32 := 2#32
  let c128_i32_20 : BitVec 32 := 128#32
  let v67 : BitVec 32 := Scalar.muli c2_i32 c128_i32_20
  v67
def k0_mult4 : BitVec 32 :=
  let c3_i32 : BitVec 32 := 3#32
  let c128_i32_30 : BitVec 32 := 128#32
  let v98 : BitVec 32 := Scalar.muli c3_i32 c128_i32_30
  v98
def k0_mult5 : BitVec 32 :=
  let c4_i32 : BitVec 32 := 4#32
  let c128_i32_40 : BitVec 32 := 128#32
  let v129 : BitVec 32 := Scalar.muli c4_i32 c128_i32_40
  v129
def k0_mult6 : BitVec 32 :=
  let c5_i32 : BitVec 32 := 5#32
  let c128_i32_50 : BitVec 32 := 128#32
  let v160 : BitVec 32 := Scalar.muli c5_i32 c128_i32_50
  v160
def k0_mult7 : BitVec 32 :=
  let c6_i32 : BitVec 32 := 6#32
  let c128_i32_60 : BitVec 32 := 128#32
  let v191 : BitVec 32 := Scalar.muli c6_i32 c128_i32_60
  v191
def k0_mult8 : BitVec 32 :=
  let c7_i32 : BitVec 32 := 7#32
  let c128_i32_70 : BitVec 32 := 128#32
  let v222 : BitVec 32 := Scalar.muli c7_i32 c128_i32_70
  v222
def k0_cond2 (i : grid0.Coords) : BitVec 1 :=
  let arg0 : BitVec 32 := BitVec.ofNat 32 (i 0).val
  let c63_i32 : BitVec 32 := 63#32
  let v258 : BitVec 1 := Scalar.cmpi .eq arg0 c63_i32
  let v259 : BitVec 32 := Scalar.extui v258
  let c0_i32_84 : BitVec 32 := 0#32
  let v260 : BitVec 1 := Scalar.cmpi .ne v259 c0_i32_84
  v260

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S528x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S65536 : S_.BroadcastsInDim S65536 (![] : Fin 0 → Fin S65536.rank)
  shapeCasts_S65536_S1x65536 : S65536.ShapeCasts S1x65536
  bcast_S_S128x128 : S_.BroadcastsInDim S128x128 (![] : Fin 0 → Fin S128x128.rank)
  inb_S528x1_S528x1_0_0 : ∀ a, (![0, 0] : Fin 2 → Nat) a + S528x1.size a ≤ S528x1.size a
  h_S528x1 : 0 < S528x1.numel
  shapeCasts_S528x1_S528x1 : S528x1.ShapeCasts S528x1
  iota_S528x128_d0_w32 : S528x128.Iotas .tc 32 [0]
  h_S1x128 : 0 < S1x128.numel
  shapeCasts_S1x128_S128 : S1x128.ShapeCasts S128
  shapeCasts_S128_S1x128 : S128.ShapeCasts S1x128
  shapeCasts_S1x128_S1x128 : S1x128.ShapeCasts S1x128
  broadcasts_S1x128_S528x128 : S1x128.Broadcasts S528x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S528x1_S528x128 : S528x1.Broadcasts S528x128
  reduces_S528x128_S128 : S528x128.Reduces [0] S128
  slices_S528x128_o0_127_S528x1 : S528x128.Slices ![0, 127] S528x1
  shapeCasts_S1x65536_S65536 : S1x65536.ShapeCasts S65536
  slices_S528x1_S513x1_0_0 : S528x1.Slices ![0, 0] S513x1
  shapeCasts_S513x1_S513 : S513x1.ShapeCasts S513
  bcast_S_S513 : S_.BroadcastsInDim S513 (![] : Fin 0 → Fin S513.rank)
  slices_S513_S512_0 : S513.Slices ![0] S512
  bcast_S_S512 : S_.BroadcastsInDim S512 (![] : Fin 0 → Fin S512.rank)
  bcast_S512_S512x1_0 : S512.BroadcastsInDim S512x1 (![0] : Fin 1 → Fin S512x1.rank)
  bcast_S_S_ : S_.BroadcastsInDim S_ (![] : Fin 0 → Fin S_.rank)
  reduceWindows_S512_S512_w512s1p511_0 : S512.ReduceWindows (![512] : Fin 1 → Nat) ![1] ![511] ![0] S512
  h_S_ : 0 < S_.numel
  reducesTo_S65536_S_d0 : S65536.ReducesTo [0] S_
  reduceWindows_S65536_S65536_w65536s1p65535_0 : S65536.ReduceWindows (![65536] : Fin 1 → Nat) ![1] ![65535] ![0] S65536
  bcast_S65536_S65536x1_0 : S65536.BroadcastsInDim S65536x1 (![0] : Fin 1 → Fin S65536x1.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S512x1_S512x256_0_1 : S512x1.BroadcastsInDim S512x256 (![0, 1] : Fin 2 → Fin S512x256.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  concatenates_S512x256x1_S512x256x1_S512x256x2_d2 : Shape.Concatenates [S512x256x1, S512x256x1] S512x256x2 2
  reducesTo_S512_S_d0 : S512.ReducesTo [0] S_
  concatenates_S65536x1_S65536x1_S65536x2_d1 : Shape.Concatenates [S65536x1, S65536x1] S65536x2 1
  bcast_S_S1 : S_.BroadcastsInDim S1 (![] : Fin 0 → Fin S1.rank)
  concatenates_S1_S512_S513_d0 : Shape.Concatenates [S1, S512] S513 0
  dot_S528x128_S128x128_S528x128_1_0_0_1_n_n_wf : DotDims.WF S528x128 S128x128 S528x128 [1] [0] [0] [1] [] []
  gather_S513_S512x1_S512_n_0_n_n_0_1_1_wf : GatherDims.WF S513 S512x1 S512 [] [0] [] [0] [] 1 ![1]
  gather_S512_S512x1_S512_n_0_n_n_0_1_1_wf : GatherDims.WF S512 S512x1 S512 [] [0] [] [0] [] 1 ![1]
  scatter_S65536_S65536x1_S65536_n_0_0_1_wf : ScatterDims.WF S65536 S65536x1 S65536 [] [0] [0] 1
  gather_S65536_S512x256x1_S512x256_n_0_n_n_0_2_1_wf : GatherDims.WF S65536 S512x256x1 S512x256 [] [0] [] [0] [] 2 ![1]
  scatter_S512x256_S512x256x2_S512x256_n_01_01_2_wf : ScatterDims.WF S512x256 S512x256x2 S512x256 [] [0, 1] [0, 1] 2
  scatter_S65536_S512x256x1_S512x256_n_0_0_2_wf : ScatterDims.WF S65536 S512x256x1 S512x256 [] [0] [0] 2
  gather_S512x256_S512x1_S512x256_1_0_n_n_0_1_1256_wf : GatherDims.WF S512x256 S512x1 S512x256 [1] [0] [] [0] [] 1 ![1, 256]
  gather_S512_S65536x1_S65536_n_0_n_n_0_1_1_wf : GatherDims.WF S512 S65536x1 S65536 [] [0] [] [0] [] 1 ![1]
  gather_S512x256_S65536x2_S65536_n_01_n_n_01_1_11_wf : GatherDims.WF S512x256 S65536x2 S65536 [] [0, 1] [] [0, 1] [] 1 ![1, 1]
  hrank0 : 0 < grid0.rank
  k0_mult1_dvd : 128 ∣ k0_mult1.toNat
  k0_off1_inb : ∀ (r : Fin 8), ∀ a, (k0_off1 (BitVec.ofNat 32 r.val)) a + S1x128.size a ≤ S1x1024.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x65536.size a
  hwx0_0 : ∀ i : grid0.Coords, EltTy.bits .i32 = 32 ∨ (Rect.block (s := S1x65536) S1x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x65536.size a
  hwx0_2 : ∀ i : grid0.Coords, EltTy.bits .i32 = 32 ∨ (Rect.block (s := S1x65536) S1x1024.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S528x1.size a ≤ S528x1.size a
  hwx0_3 : ∀ i : grid0.Coords, EltTy.bits .f32 = 32 ∨ (Rect.block (s := S528x1) S528x1.size (cc0_transform_3 i) (hinb0_3 i)).WholeWords (EltTy.packing .f32)

variable [Facts₀]

def dot_S528x128_S128x128_S528x128_1_0_0_1_n_n : DotDims S528x128 S128x128 S528x128 where
  lhsContracting := [1]
  rhsContracting := [0]
  lhsNonContracting := [0]
  rhsNonContracting := [1]
  lhsBatch := []
  rhsBatch := []
  wf := dot_S528x128_S128x128_S528x128_1_0_0_1_n_n_wf
def comparator_i32_d0 : BitVec 32 → BitVec 32 → BitVec 1 :=
  fun l r =>
    let v1 := IntOp.cmpi .slt l r
    v1
def gather_S513_S512x1_S512_n_0_n_n_0_1_1 : GatherDims S513 S512x1 S512 where
  offsetDims := []
  collapsedSliceDims := [0]
  operandBatchingDims := []
  startIndicesBatchingDims := []
  startIndexMap := [0]
  indexVectorDim := 1
  sliceSizes := ![1]
  wf := gather_S513_S512x1_S512_n_0_n_n_0_1_1_wf
def gather_S512_S512x1_S512_n_0_n_n_0_1_1 : GatherDims S512 S512x1 S512 where
  offsetDims := []
  collapsedSliceDims := [0]
  operandBatchingDims := []
  startIndicesBatchingDims := []
  startIndexMap := [0]
  indexVectorDim := 1
  sliceSizes := ![1]
  wf := gather_S512_S512x1_S512_n_0_n_n_0_1_1_wf
def scatter_S65536_S65536x1_S65536_n_0_0_1 : ScatterDims S65536 S65536x1 S65536 where
  updateWindowDims := []
  insertedWindowDims := [0]
  scatterDimsToOperandDims := [0]
  indexVectorDim := 1
  wf := scatter_S65536_S65536x1_S65536_n_0_0_1_wf
def gather_S65536_S512x256x1_S512x256_n_0_n_n_0_2_1 : GatherDims S65536 S512x256x1 S512x256 where
  offsetDims := []
  collapsedSliceDims := [0]
  operandBatchingDims := []
  startIndicesBatchingDims := []
  startIndexMap := [0]
  indexVectorDim := 2
  sliceSizes := ![1]
  wf := gather_S65536_S512x256x1_S512x256_n_0_n_n_0_2_1_wf
def scatter_S512x256_S512x256x2_S512x256_n_01_01_2 : ScatterDims S512x256 S512x256x2 S512x256 where
  updateWindowDims := []
  insertedWindowDims := [0, 1]
  scatterDimsToOperandDims := [0, 1]
  indexVectorDim := 2
  wf := scatter_S512x256_S512x256x2_S512x256_n_01_01_2_wf
def scatter_S65536_S512x256x1_S512x256_n_0_0_2 : ScatterDims S65536 S512x256x1 S512x256 where
  updateWindowDims := []
  insertedWindowDims := [0]
  scatterDimsToOperandDims := [0]
  indexVectorDim := 2
  wf := scatter_S65536_S512x256x1_S512x256_n_0_0_2_wf
def gather_S512x256_S512x1_S512x256_1_0_n_n_0_1_1256 : GatherDims S512x256 S512x1 S512x256 where
  offsetDims := [1]
  collapsedSliceDims := [0]
  operandBatchingDims := []
  startIndicesBatchingDims := []
  startIndexMap := [0]
  indexVectorDim := 1
  sliceSizes := ![1, 256]
  wf := gather_S512x256_S512x1_S512x256_1_0_n_n_0_1_1256_wf
def gather_S512_S65536x1_S65536_n_0_n_n_0_1_1 : GatherDims S512 S65536x1 S65536 where
  offsetDims := []
  collapsedSliceDims := [0]
  operandBatchingDims := []
  startIndicesBatchingDims := []
  startIndexMap := [0]
  indexVectorDim := 1
  sliceSizes := ![1]
  wf := gather_S512_S65536x1_S65536_n_0_n_n_0_1_1_wf
def gather_S512x256_S65536x2_S65536_n_01_n_n_01_1_11 : GatherDims S512x256 S65536x2 S65536 where
  offsetDims := []
  collapsedSliceDims := [0, 1]
  operandBatchingDims := []
  startIndicesBatchingDims := []
  startIndexMap := [0, 1]
  indexVectorDim := 1
  sliceSizes := ![1, 1]
  wf := gather_S512x256_S65536x2_S65536_n_01_n_n_01_1_11_wf

abbrev win0_0 : Pipeline.Window sig grid0 :=
  Pipeline.Window.ofSpec (Memref.whole main_v6) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9_0) S1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9_1) S528x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536 : Shape := ⟨1, ![65536]⟩
abbrev S512 : Shape := ⟨1, ![512]⟩
abbrev S512x256 : Shape := ⟨2, ![512, 256]⟩
abbrev S_ : Shape := ⟨0, ![]⟩
abbrev S513 : Shape := ⟨1, ![513]⟩
abbrev S65536x1 : Shape := ⟨2, ![65536, 1]⟩
abbrev S512x1 : Shape := ⟨2, ![512, 1]⟩
abbrev S256 : Shape := ⟨1, ![256]⟩
abbrev S1x256 : Shape := ⟨2, ![1, 256]⟩
abbrev S512x256x1 : Shape := ⟨3, ![512, 256, 1]⟩
abbrev S512x256x2 : Shape := ⟨3, ![512, 256, 2]⟩
abbrev S1x513 : Shape := ⟨2, ![1, 513]⟩
abbrev S65536x513 : Shape := ⟨2, ![65536, 513]⟩
abbrev S65536x1x1 : Shape := ⟨3, ![65536, 1, 1]⟩
abbrev S1 : Shape := ⟨1, ![1]⟩
abbrev S1x1x1 : Shape := ⟨3, ![1, 1, 1]⟩
abbrev S65536x2 : Shape := ⟨2, ![65536, 2]⟩

abbrev nBuf : Space → Nat
  | .hbm => 414
  | .vmem => 0
  | .smem => 0
  | _ => 0

abbrev hbmTy0_0 (i : Nat) : BufTy := match i % 128 with
  | 0 => ⟨S65536, .i32⟩
  | 1 => ⟨S512, .i32⟩
  | 2 => ⟨S512x256, .i32⟩
  | 3 => ⟨S65536, .i32⟩
  | 4 => ⟨S_, .i32⟩
  | 5 => ⟨S_, .i32⟩
  | 6 => ⟨S65536, .i32⟩
  | 7 => ⟨S65536, .i1⟩
  | 8 => ⟨S_, .i32⟩
  | 9 => ⟨S_, .i32⟩
  | 10 => ⟨S65536, .i32⟩
  | 11 => ⟨S65536, .i32⟩
  | 12 => ⟨S_, .i32⟩
  | 13 => ⟨S513, .i32⟩
  | 14 => ⟨S_, .i32⟩
  | 15 => ⟨S65536, .i32⟩
  | 16 => ⟨S65536, .i1⟩
  | 17 => ⟨S_, .i32⟩
  | 18 => ⟨S65536, .i32⟩
  | 19 => ⟨S65536, .i32⟩
  | 20 => ⟨S65536, .i32⟩
  | 21 => ⟨S65536x1, .i32⟩
  | 22 => ⟨S_, .i32⟩
  | 23 => ⟨S65536, .i32⟩
  | 24 => ⟨S513, .i32⟩
  | 25 => ⟨S513, .i32⟩
  | 26 => ⟨S_, .i32⟩
  | 27 => ⟨S513, .i32⟩
  | 28 => ⟨S513, .i1⟩
  | 29 => ⟨S_, .i32⟩
  | 30 => ⟨S513, .i32⟩
  | 31 => ⟨S513, .i32⟩
  | 32 => ⟨S513, .i32⟩
  | 33 => ⟨S512, .i32⟩
  | 34 => ⟨S_, .i32⟩
  | 35 => ⟨S512, .i32⟩
  | 36 => ⟨S512, .i1⟩
  | 37 => ⟨S512, .i32⟩
  | 38 => ⟨S512, .i32⟩
  | 39 => ⟨S_, .i32⟩
  | 40 => ⟨S512, .i32⟩
  | 41 => ⟨S512, .i1⟩
  | 42 => ⟨S_, .i32⟩
  | 43 => ⟨S512, .i32⟩
  | 44 => ⟨S512, .i1⟩
  | 45 => ⟨S512, .i1⟩
  | 46 => ⟨S_, .i32⟩
  | 47 => ⟨S_, .i32⟩
  | 48 => ⟨S512, .i32⟩
  | 49 => ⟨S512, .i32⟩
  | 50 => ⟨S_, .i32⟩
  | 51 => ⟨S512, .i32⟩
  | 52 => ⟨S512, .i1⟩
  | 53 => ⟨S_, .i32⟩
  | 54 => ⟨S512, .i32⟩
  | 55 => ⟨S512, .i32⟩
  | 56 => ⟨S512, .i32⟩
  | 57 => ⟨S512x1, .i32⟩
  | 58 => ⟨S512, .i32⟩
  | 59 => ⟨S_, .i32⟩
  | 60 => ⟨S_, .i32⟩
  | 61 => ⟨S512, .i32⟩
  | 62 => ⟨S512, .i32⟩
  | 63 => ⟨S_, .i32⟩
  | 64 => ⟨S512, .i32⟩
  | 65 => ⟨S512, .i1⟩
  | 66 => ⟨S_, .i32⟩
  | 67 => ⟨S_, .i32⟩
  | 68 => ⟨S512, .i32⟩
  | 69 => ⟨S512, .i32⟩
  | 70 => ⟨S512, .i32⟩
  | 71 => ⟨S512, .i32⟩
  | 72 => ⟨S_, .i32⟩
  | 73 => ⟨S512, .i32⟩
  | 74 => ⟨S512, .i1⟩
  | 75 => ⟨S512, .i32⟩
  | 76 => ⟨S512, .i32⟩
  | 77 => ⟨S_, .i32⟩
  | 78 => ⟨S512, .i32⟩
  | 79 => ⟨S512, .i32⟩
  | 80 => ⟨S_, .i32⟩
  | 81 => ⟨S512, .i32⟩
  | 82 => ⟨S512, .i32⟩
  | 83 => ⟨S_, .i32⟩
  | 84 => ⟨S_, .i32⟩
  | 85 => ⟨S512, .i32⟩
  | 86 => ⟨S512, .i32⟩
  | 87 => ⟨S512, .i32⟩
  | 88 => ⟨S_, .i32⟩
  | 89 => ⟨S512, .i32⟩
  | 90 => ⟨S512, .i1⟩
  | 91 => ⟨S512, .i32⟩
  | 92 => ⟨S512, .i32⟩
  | 93 => ⟨S_, .i32⟩
  | 94 => ⟨S512, .i32⟩
  | 95 => ⟨S512, .i1⟩
  | 96 => ⟨S512, .i1⟩
  | 97 => ⟨S_, .i32⟩
  | 98 => ⟨S512, .i32⟩
  | 99 => ⟨S512, .i32⟩
  | 100 => ⟨S512, .i32⟩
  | 101 => ⟨S_, .i32⟩
  | 102 => ⟨S512, .i32⟩
  | 103 => ⟨S512, .i32⟩
  | 104 => ⟨S_, .i32⟩
  | 105 => ⟨S512, .i32⟩
  | 106 => ⟨S512, .i32⟩
  | 107 => ⟨S_, .i32⟩
  | 108 => ⟨S_, .i32⟩
  | 109 => ⟨S512, .i32⟩
  | 110 => ⟨S512, .i32⟩
  | 111 => ⟨S512, .i32⟩
  | 112 => ⟨S_, .i32⟩
  | 113 => ⟨S512, .i32⟩
  | 114 => ⟨S512, .i1⟩
  | 115 => ⟨S512, .i32⟩
  | 116 => ⟨S512, .i32⟩
  | 117 => ⟨S_, .i32⟩
  | 118 => ⟨S512, .i32⟩
  | 119 => ⟨S512, .i1⟩
  | 120 => ⟨S512, .i1⟩
  | 121 => ⟨S_, .i32⟩
  | 122 => ⟨S512, .i32⟩
  | 123 => ⟨S512, .i32⟩
  | 124 => ⟨S512, .i32⟩
  | 125 => ⟨S_, .i32⟩
  | 126 => ⟨S512, .i32⟩
  | 127 => ⟨S512, .i1⟩
  | _ => ⟨S65536, .i32⟩

abbrev hbmTy0_1 (i : Nat) : BufTy := match i % 128 with
  | 0 => ⟨S_, .i32⟩
  | 1 => ⟨S512, .i32⟩
  | 2 => ⟨S512, .i32⟩
  | 3 => ⟨S512, .i32⟩
  | 4 => ⟨S512x1, .i32⟩
  | 5 => ⟨S512, .i32⟩
  | 6 => ⟨S_, .i32⟩
  | 7 => ⟨S512, .i32⟩
  | 8 => ⟨S512, .i1⟩
  | 9 => ⟨S_, .i32⟩
  | 10 => ⟨S512, .i32⟩
  | 11 => ⟨S512, .i32⟩
  | 12 => ⟨S512, .i32⟩
  | 13 => ⟨S512x1, .i32⟩
  | 14 => ⟨S512, .i32⟩
  | 15 => ⟨S512, .i32⟩
  | 16 => ⟨S_, .i32⟩
  | 17 => ⟨S512, .i32⟩
  | 18 => ⟨S512, .i32⟩
  | 19 => ⟨S_, .i32⟩
  | 20 => ⟨S_, .i32⟩
  | 21 => ⟨S512, .i32⟩
  | 22 => ⟨S512, .i32⟩
  | 23 => ⟨S_, .i32⟩
  | 24 => ⟨S_, .i32⟩
  | 25 => ⟨S512, .i32⟩
  | 26 => ⟨S512, .i32⟩
  | 27 => ⟨S65536, .i32⟩
  | 28 => ⟨S_, .i32⟩
  | 29 => ⟨S65536, .i32⟩
  | 30 => ⟨S65536, .i1⟩
  | 31 => ⟨S_, .i32⟩
  | 32 => ⟨S65536, .i32⟩
  | 33 => ⟨S65536, .i32⟩
  | 34 => ⟨S65536, .i32⟩
  | 35 => ⟨S65536, .i32⟩
  | 36 => ⟨S65536, .i32⟩
  | 37 => ⟨S65536, .i32⟩
  | 38 => ⟨S256, .i32⟩
  | 39 => ⟨S1x256, .i32⟩
  | 40 => ⟨S512x1, .i1⟩
  | 41 => ⟨S512x1, .i32⟩
  | 42 => ⟨S512x256, .i32⟩
  | 43 => ⟨S512x256, .i32⟩
  | 44 => ⟨S512x256, .i1⟩
  | 45 => ⟨S512x256, .i1⟩
  | 46 => ⟨S512x256, .i1⟩
  | 47 => ⟨S512x1, .i32⟩
  | 48 => ⟨S512x256, .i32⟩
  | 49 => ⟨S512x256, .i32⟩
  | 50 => ⟨S512x256, .i1⟩
  | 51 => ⟨S512x256, .i1⟩
  | 52 => ⟨S512x1, .i32⟩
  | 53 => ⟨S512x256, .i32⟩
  | 54 => ⟨S512x256, .i32⟩
  | 55 => ⟨S512x256, .i32⟩
  | 56 => ⟨S512x1, .i32⟩
  | 57 => ⟨S512x256, .i32⟩
  | 58 => ⟨S512x256, .i32⟩
  | 59 => ⟨S_, .i32⟩
  | 60 => ⟨S_, .i32⟩
  | 61 => ⟨S512x256, .i32⟩
  | 62 => ⟨S512x256, .i32⟩
  | 63 => ⟨S_, .i32⟩
  | 64 => ⟨S512x256, .i32⟩
  | 65 => ⟨S512x256, .i1⟩
  | 66 => ⟨S_, .i32⟩
  | 67 => ⟨S512x256, .i32⟩
  | 68 => ⟨S512x256, .i32⟩
  | 69 => ⟨S512x256, .i32⟩
  | 70 => ⟨S512x256x1, .i32⟩
  | 71 => ⟨S512x256, .i32⟩
  | 72 => ⟨S512x1, .i32⟩
  | 73 => ⟨S_, .i32⟩
  | 74 => ⟨S_, .i32⟩
  | 75 => ⟨S512x256, .i32⟩
  | 76 => ⟨S512x256, .i32⟩
  | 77 => ⟨S512x256, .i32⟩
  | 78 => ⟨S512x256, .i32⟩
  | 79 => ⟨S_, .i32⟩
  | 80 => ⟨S512x256, .i32⟩
  | 81 => ⟨S512x256, .i1⟩
  | 82 => ⟨S_, .i32⟩
  | 83 => ⟨S512x256, .i32⟩
  | 84 => ⟨S512x256, .i32⟩
  | 85 => ⟨S512x256, .i32⟩
  | 86 => ⟨S_, .i32⟩
  | 87 => ⟨S512x256, .i32⟩
  | 88 => ⟨S512x256, .i1⟩
  | 89 => ⟨S_, .i32⟩
  | 90 => ⟨S512x256, .i32⟩
  | 91 => ⟨S512x256, .i32⟩
  | 92 => ⟨S512x256, .i32⟩
  | 93 => ⟨S512x256x1, .i32⟩
  | 94 => ⟨S512x256x1, .i32⟩
  | 95 => ⟨S512x256x2, .i32⟩
  | 96 => ⟨S512x256, .i32⟩
  | 97 => ⟨S_, .i32⟩
  | 98 => ⟨S_, .i32⟩
  | 99 => ⟨S512x256, .i32⟩
  | 100 => ⟨S512x256, .i32⟩
  | 101 => ⟨S_, .i32⟩
  | 102 => ⟨S512x256, .i32⟩
  | 103 => ⟨S512x256, .i1⟩
  | 104 => ⟨S_, .i32⟩
  | 105 => ⟨S512x256, .i32⟩
  | 106 => ⟨S512x256, .i32⟩
  | 107 => ⟨S512x256, .i32⟩
  | 108 => ⟨S512x256x1, .i32⟩
  | 109 => ⟨S_, .i32⟩
  | 110 => ⟨S512x256, .i32⟩
  | 111 => ⟨S65536, .i32⟩
  | 112 => ⟨S_, .i32⟩
  | 113 => ⟨S512, .i32⟩
  | 114 => ⟨S512, .i1⟩
  | 115 => ⟨S512x1, .i1⟩
  | 116 => ⟨S_, .i32⟩
  | 117 => ⟨S512, .i32⟩
  | 118 => ⟨S512, .i1⟩
  | 119 => ⟨S_, .i32⟩
  | 120 => ⟨S512, .i32⟩
  | 121 => ⟨S512, .i32⟩
  | 122 => ⟨S512, .i32⟩
  | 123 => ⟨S512x1, .i32⟩
  | 124 => ⟨S512x256, .i32⟩
  | 125 => ⟨S512x256, .i1⟩
  | 126 => ⟨S512x256, .i32⟩
  | 127 => ⟨S512x256, .i32⟩
  | _ => ⟨S65536, .i32⟩

abbrev hbmTy0_2 (i : Nat) : BufTy := match i % 128 with
  | 0 => ⟨S_, .i32⟩
  | 1 => ⟨S512, .i32⟩
  | 2 => ⟨S512, .i1⟩
  | 3 => ⟨S_, .i32⟩
  | 4 => ⟨S512, .i32⟩
  | 5 => ⟨S512, .i32⟩
  | 6 => ⟨S512, .i32⟩
  | 7 => ⟨S512x1, .i32⟩
  | 8 => ⟨S512, .i32⟩
  | 9 => ⟨S512, .i32⟩
  | 10 => ⟨S512, .i32⟩
  | 11 => ⟨S512, .i32⟩
  | 12 => ⟨S_, .i32⟩
  | 13 => ⟨S_, .i32⟩
  | 14 => ⟨S65536x1, .i32⟩
  | 15 => ⟨S513, .i32⟩
  | 16 => ⟨S1x513, .i32⟩
  | 17 => ⟨S65536x513, .i32⟩
  | 18 => ⟨S65536x513, .i32⟩
  | 19 => ⟨S65536x513, .i1⟩
  | 20 => ⟨S65536x513, .i32⟩
  | 21 => ⟨S_, .i32⟩
  | 22 => ⟨S_, .i32⟩
  | 23 => ⟨S65536x513, .i32⟩
  | 24 => ⟨S65536x1, .i32⟩
  | 25 => ⟨S_, .i32⟩
  | 26 => ⟨S65536x1, .i32⟩
  | 27 => ⟨S65536x1, .i1⟩
  | 28 => ⟨S_, .i32⟩
  | 29 => ⟨S65536x1, .i32⟩
  | 30 => ⟨S65536x1, .i32⟩
  | 31 => ⟨S65536x1, .i32⟩
  | 32 => ⟨S65536x1x1, .i32⟩
  | 33 => ⟨S1, .i32⟩
  | 34 => ⟨S_, .i32⟩
  | 35 => ⟨S65536x1x1, .i32⟩
  | 36 => ⟨S65536x1x1, .i1⟩
  | 37 => ⟨S1x1x1, .i32⟩
  | 38 => ⟨S65536x1x1, .i32⟩
  | 39 => ⟨S65536x1x1, .i1⟩
  | 40 => ⟨S65536x1x1, .i1⟩
  | 41 => ⟨S_, .i1⟩
  | 42 => ⟨S65536x1, .i1⟩
  | 43 => ⟨S65536x1, .i32⟩
  | 44 => ⟨S_, .i32⟩
  | 45 => ⟨S65536x1, .i32⟩
  | 46 => ⟨S65536x1, .i32⟩
  | 47 => ⟨S65536, .i32⟩
  | 48 => ⟨S_, .i32⟩
  | 49 => ⟨S65536, .i32⟩
  | 50 => ⟨S65536, .i32⟩
  | 51 => ⟨S_, .i32⟩
  | 52 => ⟨S512, .i32⟩
  | 53 => ⟨S512, .i1⟩
  | 54 => ⟨S_, .i32⟩
  | 55 => ⟨S_, .i32⟩
  | 56 => ⟨S512, .i32⟩
  | 57 => ⟨S512, .i32⟩
  | 58 => ⟨S_, .i32⟩
  | 59 => ⟨S65536, .i32⟩
  | 60 => ⟨S65536, .i1⟩
  | 61 => ⟨S_, .i32⟩
  | 62 => ⟨S_, .i32⟩
  | 63 => ⟨S65536, .i32⟩
  | 64 => ⟨S65536, .i32⟩
  | 65 => ⟨S_, .i32⟩
  | 66 => ⟨S65536, .i32⟩
  | 67 => ⟨S65536, .i1⟩
  | 68 => ⟨S_, .i32⟩
  | 69 => ⟨S65536, .i32⟩
  | 70 => ⟨S65536, .i32⟩
  | 71 => ⟨S65536, .i32⟩
  | 72 => ⟨S65536x1, .i32⟩
  | 73 => ⟨S65536, .i32⟩
  | 74 => ⟨S65536, .i32⟩
  | 75 => ⟨S_, .i32⟩
  | 76 => ⟨S_, .i32⟩
  | 77 => ⟨S65536, .i32⟩
  | 78 => ⟨S65536, .i32⟩
  | 79 => ⟨S65536, .i32⟩
  | 80 => ⟨S_, .i32⟩
  | 81 => ⟨S65536, .i32⟩
  | 82 => ⟨S65536, .i1⟩
  | 83 => ⟨S65536, .i32⟩
  | 84 => ⟨S65536, .i32⟩
  | 85 => ⟨S_, .i32⟩
  | 86 => ⟨S65536, .i32⟩
  | 87 => ⟨S65536, .i1⟩
  | 88 => ⟨S65536, .i1⟩
  | 89 => ⟨S_, .i32⟩
  | 90 => ⟨S65536, .i32⟩
  | 91 => ⟨S65536, .i32⟩
  | 92 => ⟨S65536, .i32⟩
  | 93 => ⟨S_, .i32⟩
  | 94 => ⟨S_, .i32⟩
  | 95 => ⟨S_, .i32⟩
  | 96 => ⟨S65536, .i32⟩
  | 97 => ⟨S65536, .i32⟩
  | 98 => ⟨S_, .i32⟩
  | 99 => ⟨S65536, .i32⟩
  | 100 => ⟨S65536, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S65536, .i32⟩
  | 108 => ⟨S65536, .i32⟩
  | 109 => ⟨S_, .i32⟩
  | 110 => ⟨S65536, .i32⟩
  | 111 => ⟨S65536, .i1⟩
  | 112 => ⟨S_, .i32⟩
  | 113 => ⟨S65536, .i32⟩
  | 114 => ⟨S65536, .i1⟩
  | 115 => ⟨S_, .i32⟩
  | 116 => ⟨S_, .i1⟩
  | 117 => ⟨S65536, .i1⟩
  | 118 => ⟨S65536, .i1⟩
  | 119 => ⟨S65536, .i1⟩
  | 120 => ⟨S65536, .i32⟩
  | 121 => ⟨S65536, .i32⟩
  | 122 => ⟨S65536, .i32⟩
  | 123 => ⟨S_, .i32⟩
  | 124 => ⟨S65536, .i32⟩
  | 125 => ⟨S65536, .i1⟩
  | 126 => ⟨S_, .i32⟩
  | 127 => ⟨S65536, .i32⟩
  | _ => ⟨S65536, .i32⟩

abbrev hbmTy0_3 (i : Nat) : BufTy := match i % 128 with
  | 0 => ⟨S65536, .i32⟩
  | 1 => ⟨S65536, .i32⟩
  | 2 => ⟨S_, .i32⟩
  | 3 => ⟨S65536, .i32⟩
  | 4 => ⟨S65536, .i1⟩
  | 5 => ⟨S_, .i32⟩
  | 6 => ⟨S65536, .i32⟩
  | 7 => ⟨S65536, .i32⟩
  | 8 => ⟨S65536, .i32⟩
  | 9 => ⟨S65536x1, .i32⟩
  | 10 => ⟨S65536x1, .i32⟩
  | 11 => ⟨S65536x2, .i32⟩
  | 12 => ⟨S65536, .i32⟩
  | 13 => ⟨S_, .i32⟩
  | 14 => ⟨S65536, .i32⟩
  | 15 => ⟨S65536, .i1⟩
  | 16 => ⟨S65536, .i1⟩
  | 17 => ⟨S65536, .i1⟩
  | 18 => ⟨S_, .i32⟩
  | 19 => ⟨S65536, .i32⟩
  | 20 => ⟨S65536, .i32⟩
  | 21 => ⟨S65536, .i32⟩
  | 22 => ⟨S65536, .i32⟩
  | 23 => ⟨S65536, .i32⟩
  | 24 => ⟨S_, .i32⟩
  | 25 => ⟨S1, .i32⟩
  | 26 => ⟨S_, .i32⟩
  | 27 => ⟨S_, .i32⟩
  | 28 => ⟨S512, .i32⟩
  | 29 => ⟨S513, .i32⟩
  | _ => ⟨S65536, .i32⟩

abbrev hbmTy (i : Nat) : BufTy := match i / 128 with
  | 0 => hbmTy0_0 i
  | 1 => hbmTy0_1 i
  | 2 => hbmTy0_2 i
  | 3 => hbmTy0_3 i
  | _ => ⟨S65536, .i32⟩

abbrev bufTy : (tb : Table) → Fin (tcTables nBuf tb) → BufTy
  | .hbm, ⟨i, _⟩ => hbmTy i
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_c_2 : Ref sig .tc := ⟨.hbm, 12, rfl⟩
abbrev main_v3 : Ref sig .tc := ⟨.hbm, 13, rfl⟩
abbrev main_c_3 : Ref sig .tc := ⟨.hbm, 14, rfl⟩
abbrev main_v4 : Ref sig .tc := ⟨.hbm, 15, rfl⟩
abbrev main_v5 : Ref sig .tc := ⟨.hbm, 16, rfl⟩
abbrev main_c_4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_8 : Ref sig .tc := ⟨.hbm, 34, rfl⟩
abbrev main_v18 : Ref sig .tc := ⟨.hbm, 35, rfl⟩
abbrev main_v19 : Ref sig .tc := ⟨.hbm, 36, rfl⟩
abbrev main_call3_v0 : Ref sig .tc := ⟨.hbm, 37, rfl⟩
abbrev main_v20 : Ref sig .tc := ⟨.hbm, 38, rfl⟩
abbrev main_c_9 : Ref sig .tc := ⟨.hbm, 39, rfl⟩
abbrev main_v21 : Ref sig .tc := ⟨.hbm, 40, rfl⟩
abbrev main_v22 : Ref sig .tc := ⟨.hbm, 41, rfl⟩
abbrev main_c_10 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_11 : Ref sig .tc := ⟨.hbm, 46, rfl⟩
abbrev main_call4_v0 : Ref sig .tc := ⟨.hbm, 47, rfl⟩
abbrev main_call4_v1 : Ref sig .tc := ⟨.hbm, 48, rfl⟩
abbrev main_v26 : Ref sig .tc := ⟨.hbm, 49, rfl⟩
abbrev main_c_12 : Ref sig .tc := ⟨.hbm, 50, rfl⟩
abbrev main_v27 : Ref sig .tc := ⟨.hbm, 51, rfl⟩
abbrev main_v28 : Ref sig .tc := ⟨.hbm, 52, rfl⟩
abbrev main_c_13 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_14 : Ref sig .tc := ⟨.hbm, 59, rfl⟩
abbrev main_call5_v0 : Ref sig .tc := ⟨.hbm, 60, rfl⟩
abbrev main_call5_v1 : Ref sig .tc := ⟨.hbm, 61, rfl⟩
abbrev main_v34 : Ref sig .tc := ⟨.hbm, 62, rfl⟩
abbrev main_c_15 : Ref sig .tc := ⟨.hbm, 63, rfl⟩
abbrev main_v35 : Ref sig .tc := ⟨.hbm, 64, rfl⟩
abbrev main_v36 : Ref sig .tc := ⟨.hbm, 65, rfl⟩
abbrev main_c_16 : Ref sig .tc := ⟨.hbm, 66, rfl⟩
abbrev main_call6_v0 : Ref sig .tc := ⟨.hbm, 67, rfl⟩
abbrev main_call6_v1 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_17 : Ref sig .tc := ⟨.hbm, 72, rfl⟩
abbrev main_v40 : Ref sig .tc := ⟨.hbm, 73, rfl⟩
abbrev main_v41 : Ref sig .tc := ⟨.hbm, 74, rfl⟩
abbrev main_call7_v0 : Ref sig .tc := ⟨.hbm, 75, rfl⟩
abbrev main_v42 : Ref sig .tc := ⟨.hbm, 76, rfl⟩
abbrev main_c_18 : Ref sig .tc := ⟨.hbm, 77, rfl⟩
abbrev main_v43 : Ref sig .tc := ⟨.hbm, 78, rfl⟩
abbrev main_v44 : Ref sig .tc := ⟨.hbm, 79, rfl⟩
abbrev main_c_19 : Ref sig .tc := ⟨.hbm, 80, rfl⟩
abbrev main_v45 : Ref sig .tc := ⟨.hbm, 81, rfl⟩
abbrev main_v46 : Ref sig .tc := ⟨.hbm, 82, rfl⟩
abbrev main_c_20 : Ref sig .tc := ⟨.hbm, 83, rfl⟩
abbrev main_call8_v0 : Ref sig .tc := ⟨.hbm, 84, rfl⟩
abbrev main_call8_v1 : Ref sig .tc := ⟨.hbm, 85, rfl⟩
abbrev main_call8_v2 : Ref sig .tc := ⟨.hbm, 86, rfl⟩
abbrev main_call8_v3 : Ref sig .tc := ⟨.hbm, 87, rfl⟩
abbrev main_call8_v4 : Ref sig .tc := ⟨.hbm, 88, rfl⟩
abbrev main_call8_v5 : Ref sig .tc := ⟨.hbm, 89, rfl⟩
abbrev main_call8_v6 : Ref sig .tc := ⟨.hbm, 90, rfl⟩
abbrev main_call8_v7 : Ref sig .tc := ⟨.hbm, 91, rfl⟩
abbrev main_call8_v8 : Ref sig .tc := ⟨.hbm, 92, rfl⟩
abbrev main_call8_c : Ref sig .tc := ⟨.hbm, 93, rfl⟩
abbrev main_call8_v9 : Ref sig .tc := ⟨.hbm, 94, rfl⟩
abbrev main_call8_v10 : Ref sig .tc := ⟨.hbm, 95, rfl⟩
abbrev main_call8_v11 : Ref sig .tc := ⟨.hbm, 96, rfl⟩
abbrev main_call8_c_0 : Ref sig .tc := ⟨.hbm, 97, rfl⟩
abbrev main_call8_v12 : Ref sig .tc := ⟨.hbm, 98, rfl⟩
abbrev main_call8_v13 : Ref sig .tc := ⟨.hbm, 99, rfl⟩
abbrev main_v47 : Ref sig .tc := ⟨.hbm, 100, rfl⟩
abbrev main_c_21 : Ref sig .tc := ⟨.hbm, 101, rfl⟩
abbrev main_v48 : Ref sig .tc := ⟨.hbm, 102, rfl⟩
abbrev main_v49 : Ref sig .tc := ⟨.hbm, 103, rfl⟩
abbrev main_c_22 : Ref sig .tc := ⟨.hbm, 104, rfl⟩
abbrev main_v50 : Ref sig .tc := ⟨.hbm, 105, rfl⟩
abbrev main_v51 : Ref sig .tc := ⟨.hbm, 106, rfl⟩
abbrev main_c_23 : Ref sig .tc := ⟨.hbm, 107, rfl⟩
abbrev main_call9_v0 : Ref sig .tc := ⟨.hbm, 108, rfl⟩
abbrev main_call9_v1 : Ref sig .tc := ⟨.hbm, 109, rfl⟩
abbrev main_call9_v2 : Ref sig .tc := ⟨.hbm, 110, rfl⟩
abbrev main_call9_v3 : Ref sig .tc := ⟨.hbm, 111, rfl⟩
abbrev main_call9_v4 : Ref sig .tc := ⟨.hbm, 112, rfl⟩
abbrev main_call9_v5 : Ref sig .tc := ⟨.hbm, 113, rfl⟩
abbrev main_call9_v6 : Ref sig .tc := ⟨.hbm, 114, rfl⟩
abbrev main_call9_v7 : Ref sig .tc := ⟨.hbm, 115, rfl⟩
abbrev main_call9_v8 : Ref sig .tc := ⟨.hbm, 116, rfl⟩
abbrev main_call9_c : Ref sig .tc := ⟨.hbm, 117, rfl⟩
abbrev main_call9_v9 : Ref sig .tc := ⟨.hbm, 118, rfl⟩
abbrev main_call9_v10 : Ref sig .tc := ⟨.hbm, 119, rfl⟩
abbrev main_call9_v11 : Ref sig .tc := ⟨.hbm, 120, rfl⟩
abbrev main_call9_c_0 : Ref sig .tc := ⟨.hbm, 121, rfl⟩
abbrev main_call9_v12 : Ref sig .tc := ⟨.hbm, 122, rfl⟩
abbrev main_call9_v13 : Ref sig .tc := ⟨.hbm, 123, rfl⟩
abbrev main_v52 : Ref sig .tc := ⟨.hbm, 124, rfl⟩
abbrev main_c_24 : Ref sig .tc := ⟨.hbm, 125, rfl⟩
abbrev main_v53 : Ref sig .tc := ⟨.hbm, 126, rfl⟩
abbrev main_v54 : Ref sig .tc := ⟨.hbm, 127, rfl⟩
abbrev main_c_25 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_c_26 : Ref sig .tc := ⟨.hbm, 134, rfl⟩
abbrev main_v60 : Ref sig .tc := ⟨.hbm, 135, rfl⟩
abbrev main_v61 : Ref sig .tc := ⟨.hbm, 136, rfl⟩
abbrev main_c_27 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_c_28 : Ref sig .tc := ⟨.hbm, 144, rfl⟩
abbrev main_v68 : Ref sig .tc := ⟨.hbm, 145, rfl⟩
abbrev main_v69 : Ref sig .tc := ⟨.hbm, 146, rfl⟩
abbrev main_c_29 : Ref sig .tc := ⟨.hbm, 147, rfl⟩
abbrev main_call10_v0 : Ref sig .tc := ⟨.hbm, 148, rfl⟩
abbrev main_call10_v1 : Ref sig .tc := ⟨.hbm, 149, rfl⟩
abbrev main_v70 : Ref sig .tc := ⟨.hbm, 150, rfl⟩
abbrev main_call11_call0_c : Ref sig .tc := ⟨.hbm, 151, rfl⟩
abbrev main_call11_call0_v0 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_c_30 : Ref sig .tc := ⟨.hbm, 156, rfl⟩
abbrev main_v74 : Ref sig .tc := ⟨.hbm, 157, rfl⟩
abbrev main_v75 : Ref sig .tc := ⟨.hbm, 158, rfl⟩
abbrev main_c_31 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_call13_v0 : Ref sig .tc := ⟨.hbm, 163, rfl⟩
abbrev main_call13_v1_0 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_c_32 : Ref sig .tc := ⟨.hbm, 187, rfl⟩
abbrev main_call14_v0 : Ref sig .tc := ⟨.hbm, 188, rfl⟩
abbrev main_call14_v1 : Ref sig .tc := ⟨.hbm, 189, rfl⟩
abbrev main_v101 : Ref sig .tc := ⟨.hbm, 190, rfl⟩
abbrev main_c_33 : Ref sig .tc := ⟨.hbm, 191, rfl⟩
abbrev main_v102 : Ref sig .tc := ⟨.hbm, 192, rfl⟩
abbrev main_v103 : Ref sig .tc := ⟨.hbm, 193, rfl⟩
abbrev main_c_34 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_c_35 : Ref sig .tc := ⟨.hbm, 201, rfl⟩
abbrev main_call15_v0 : Ref sig .tc := ⟨.hbm, 202, rfl⟩
abbrev main_call15_v1 : Ref sig .tc := ⟨.hbm, 203, rfl⟩
abbrev main_call15_v2 : Ref sig .tc := ⟨.hbm, 204, rfl⟩
abbrev main_v110 : Ref sig .tc := ⟨.hbm, 205, rfl⟩
abbrev main_v111 : Ref sig .tc := ⟨.hbm, 206, rfl⟩
abbrev main_c_36 : Ref sig .tc := ⟨.hbm, 207, rfl⟩
abbrev main_v112 : Ref sig .tc := ⟨.hbm, 208, rfl⟩
abbrev main_v113 : Ref sig .tc := ⟨.hbm, 209, rfl⟩
abbrev main_c_37 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_c_38 : Ref sig .tc := ⟨.hbm, 214, rfl⟩
abbrev main_v117 : Ref sig .tc := ⟨.hbm, 215, rfl⟩
abbrev main_v118 : Ref sig .tc := ⟨.hbm, 216, rfl⟩
abbrev main_c_39 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_c_40 : Ref sig .tc := ⟨.hbm, 225, rfl⟩
abbrev main_call16_v0 : Ref sig .tc := ⟨.hbm, 226, rfl⟩
abbrev main_call16_v1 : Ref sig .tc := ⟨.hbm, 227, rfl⟩
abbrev main_v126 : Ref sig .tc := ⟨.hbm, 228, rfl⟩
abbrev main_c_41 : Ref sig .tc := ⟨.hbm, 229, rfl⟩
abbrev main_v127 : Ref sig .tc := ⟨.hbm, 230, rfl⟩
abbrev main_v128 : Ref sig .tc := ⟨.hbm, 231, rfl⟩
abbrev main_c_42 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_c_43 : Ref sig .tc := ⟨.hbm, 237, rfl⟩
abbrev main_v133 : Ref sig .tc := ⟨.hbm, 238, rfl⟩
abbrev main_v134 : Ref sig .tc := ⟨.hbm, 239, rfl⟩
abbrev main_c_44 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_c_45 : Ref sig .tc := ⟨.hbm, 244, rfl⟩
abbrev main_v138 : Ref sig .tc := ⟨.hbm, 245, rfl⟩
abbrev main_v139 : Ref sig .tc := ⟨.hbm, 246, rfl⟩
abbrev main_c_46 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_call17_v0 : Ref sig .tc := ⟨.hbm, 253, rfl⟩
abbrev main_call17_v1 : Ref sig .tc := ⟨.hbm, 254, rfl⟩
abbrev main_v145 : Ref sig .tc := ⟨.hbm, 255, rfl⟩
abbrev main_c_47 : Ref sig .tc := ⟨.hbm, 256, rfl⟩
abbrev main_v146 : Ref sig .tc := ⟨.hbm, 257, rfl⟩
abbrev main_v147 : Ref sig .tc := ⟨.hbm, 258, rfl⟩
abbrev main_c_48 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_call18_v0 : Ref sig .tc := ⟨.hbm, 265, rfl⟩
abbrev main_v153 : Ref sig .tc := ⟨.hbm, 266, rfl⟩
abbrev main_v154 : Ref sig .tc := ⟨.hbm, 267, rfl⟩
abbrev main_c_49 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_call19_call0_c : Ref sig .tc := ⟨.hbm, 277, rfl⟩
abbrev main_call19_call0_v0 : Ref sig .tc := ⟨.hbm, 278, rfl⟩
abbrev main_v163 : Ref sig .tc := ⟨.hbm, 279, rfl⟩
abbrev main_v164 : Ref sig .tc := ⟨.hbm, 280, rfl⟩
abbrev main_call20_c : Ref sig .tc := ⟨.hbm, 281, rfl⟩
abbrev main_call20_v0 : Ref sig .tc := ⟨.hbm, 282, rfl⟩
abbrev main_call20_v1 : Ref sig .tc := ⟨.hbm, 283, rfl⟩
abbrev main_call20_c_0 : Ref sig .tc := ⟨.hbm, 284, rfl⟩
abbrev main_call20_v2 : Ref sig .tc := ⟨.hbm, 285, rfl⟩
abbrev main_call20_v3 : Ref sig .tc := ⟨.hbm, 286, rfl⟩
abbrev main_call20_v4 : Ref sig .tc := ⟨.hbm, 287, rfl⟩
abbrev main_call20_v5 : Ref sig .tc := ⟨.hbm, 288, rfl⟩
abbrev main_call20_c_1 : Ref sig .tc := ⟨.hbm, 289, rfl⟩
abbrev main_call20_c_2 : Ref sig .tc := ⟨.hbm, 290, rfl⟩
abbrev main_call20_v6 : Ref sig .tc := ⟨.hbm, 291, rfl⟩
abbrev main_call20_v7 : Ref sig .tc := ⟨.hbm, 292, rfl⟩
abbrev main_call20_v8 : Ref sig .tc := ⟨.hbm, 293, rfl⟩
abbrev main_call20_v9 : Ref sig .tc := ⟨.hbm, 294, rfl⟩
abbrev main_call20_v10 : Ref sig .tc := ⟨.hbm, 295, rfl⟩
abbrev main_call20_v11 : Ref sig .tc := ⟨.hbm, 296, rfl⟩
abbrev main_call20_c_3 : Ref sig .tc := ⟨.hbm, 297, rfl⟩
abbrev main_call20_v12 : Ref sig .tc := ⟨.hbm, 298, rfl⟩
abbrev main_call20_v13 : Ref sig .tc := ⟨.hbm, 299, rfl⟩
abbrev main_call20_c_4 : Ref sig .tc := ⟨.hbm, 300, rfl⟩
abbrev main_call20_v14 : Ref sig .tc := ⟨.hbm, 301, rfl⟩
abbrev main_v165 : Ref sig .tc := ⟨.hbm, 302, rfl⟩
abbrev main_v166 : Ref sig .tc := ⟨.hbm, 303, rfl⟩
abbrev main_c_50 : Ref sig .tc := ⟨.hbm, 304, rfl⟩
abbrev main_v167 : Ref sig .tc := ⟨.hbm, 305, rfl⟩
abbrev main_v168 : Ref sig .tc := ⟨.hbm, 306, rfl⟩
abbrev main_c_51 : Ref sig .tc := ⟨.hbm, 307, rfl⟩
abbrev main_v169 : Ref sig .tc := ⟨.hbm, 308, rfl⟩
abbrev main_v170 : Ref sig .tc := ⟨.hbm, 309, rfl⟩
abbrev main_c_52 : Ref sig .tc := ⟨.hbm, 310, rfl⟩
abbrev main_call21_v0 : Ref sig .tc := ⟨.hbm, 311, rfl⟩
abbrev main_call21_v1 : Ref sig .tc := ⟨.hbm, 312, rfl⟩
abbrev main_v171 : Ref sig .tc := ⟨.hbm, 313, rfl⟩
abbrev main_c_53 : Ref sig .tc := ⟨.hbm, 314, rfl⟩
abbrev main_v172 : Ref sig .tc := ⟨.hbm, 315, rfl⟩
abbrev main_v173 : Ref sig .tc := ⟨.hbm, 316, rfl⟩
abbrev main_c_54 : Ref sig .tc := ⟨.hbm, 317, rfl⟩
abbrev main_call22_v0 : Ref sig .tc := ⟨.hbm, 318, rfl⟩
abbrev main_call22_v1 : Ref sig .tc := ⟨.hbm, 319, rfl⟩
abbrev main_v174 : Ref sig .tc := ⟨.hbm, 320, rfl⟩
abbrev main_c_55 : Ref sig .tc := ⟨.hbm, 321, rfl⟩
abbrev main_v175 : Ref sig .tc := ⟨.hbm, 322, rfl⟩
abbrev main_v176 : Ref sig .tc := ⟨.hbm, 323, rfl⟩
abbrev main_c_56 : Ref sig .tc := ⟨.hbm, 324, rfl⟩
abbrev main_v177 : Ref sig .tc := ⟨.hbm, 325, rfl⟩
abbrev main_v178 : Ref sig .tc := ⟨.hbm, 326, rfl⟩
abbrev main_v179 : Ref sig .tc := ⟨.hbm, 327, rfl⟩
abbrev main_v180 : Ref sig .tc := ⟨.hbm, 328, rfl⟩
abbrev main_v181 : Ref sig .tc := ⟨.hbm, 329, rfl⟩
abbrev main_v182 : Ref sig .tc := ⟨.hbm, 330, rfl⟩
abbrev main_c_57 : Ref sig .tc := ⟨.hbm, 331, rfl⟩
abbrev main_call23_v0 : Ref sig .tc := ⟨.hbm, 332, rfl⟩
abbrev main_call23_v1 : Ref sig .tc := ⟨.hbm, 333, rfl⟩
abbrev main_call23_v2 : Ref sig .tc := ⟨.hbm, 334, rfl⟩
abbrev main_call23_v3 : Ref sig .tc := ⟨.hbm, 335, rfl⟩
abbrev main_call23_v4 : Ref sig .tc := ⟨.hbm, 336, rfl⟩
abbrev main_call23_v5 : Ref sig .tc := ⟨.hbm, 337, rfl⟩
abbrev main_call23_v6 : Ref sig .tc := ⟨.hbm, 338, rfl⟩
abbrev main_call23_v7 : Ref sig .tc := ⟨.hbm, 339, rfl⟩
abbrev main_call23_v8 : Ref sig .tc := ⟨.hbm, 340, rfl⟩
abbrev main_call23_c : Ref sig .tc := ⟨.hbm, 341, rfl⟩
abbrev main_call23_v9 : Ref sig .tc := ⟨.hbm, 342, rfl⟩
abbrev main_call23_v10 : Ref sig .tc := ⟨.hbm, 343, rfl⟩
abbrev main_call23_v11 : Ref sig .tc := ⟨.hbm, 344, rfl⟩
abbrev main_call23_c_0 : Ref sig .tc := ⟨.hbm, 345, rfl⟩
abbrev main_call23_v12 : Ref sig .tc := ⟨.hbm, 346, rfl⟩
abbrev main_call23_v13 : Ref sig .tc := ⟨.hbm, 347, rfl⟩
abbrev main_v183 : Ref sig .tc := ⟨.hbm, 348, rfl⟩
abbrev main_c_58 : Ref sig .tc := ⟨.hbm, 349, rfl⟩
abbrev main_c_59 : Ref sig .tc := ⟨.hbm, 350, rfl⟩
abbrev main_call24_v0 : Ref sig .tc := ⟨.hbm, 351, rfl⟩
abbrev main_call24_v1 : Ref sig .tc := ⟨.hbm, 352, rfl⟩
abbrev main_call24_v2 : Ref sig .tc := ⟨.hbm, 353, rfl⟩
abbrev main_call24_v3 : Ref sig .tc := ⟨.hbm, 354, rfl⟩
abbrev main_call24_v4 : Ref sig .tc := ⟨.hbm, 355, rfl⟩
abbrev main_v184 : Ref sig .tc := ⟨.hbm, 356, rfl⟩
abbrev main_c_60 : Ref sig .tc := ⟨.hbm, 357, rfl⟩
abbrev main_call25_v0 : Ref sig .tc := ⟨.hbm, 358, rfl⟩
abbrev main_call25_c : Ref sig .tc := ⟨.hbm, 359, rfl⟩
abbrev main_call25_v1 : Ref sig .tc := ⟨.hbm, 360, rfl⟩
abbrev main_call25_c_0 : Ref sig .tc := ⟨.hbm, 361, rfl⟩
abbrev main_call25_v2 : Ref sig .tc := ⟨.hbm, 362, rfl⟩
abbrev main_call25_v3 : Ref sig .tc := ⟨.hbm, 363, rfl⟩
abbrev main_call25_v4 : Ref sig .tc := ⟨.hbm, 364, rfl⟩
abbrev main_call25_c_1 : Ref sig .tc := ⟨.hbm, 365, rfl⟩
abbrev main_call25_v5 : Ref sig .tc := ⟨.hbm, 366, rfl⟩
abbrev main_call25_v6 : Ref sig .tc := ⟨.hbm, 367, rfl⟩
abbrev main_call25_c_2 : Ref sig .tc := ⟨.hbm, 368, rfl⟩
abbrev main_call25_v7 : Ref sig .tc := ⟨.hbm, 369, rfl⟩
abbrev main_call25_v8 : Ref sig .tc := ⟨.hbm, 370, rfl⟩
abbrev main_call25_c_3 : Ref sig .tc := ⟨.hbm, 371, rfl⟩
abbrev main_call25_v9 : Ref sig .tc := ⟨.hbm, 372, rfl⟩
abbrev main_call25_v10 : Ref sig .tc := ⟨.hbm, 373, rfl⟩
abbrev main_call25_v11 : Ref sig .tc := ⟨.hbm, 374, rfl⟩
abbrev main_call25_v12 : Ref sig .tc := ⟨.hbm, 375, rfl⟩
abbrev main_call25_v13 : Ref sig .tc := ⟨.hbm, 376, rfl⟩
abbrev main_call25_v14 : Ref sig .tc := ⟨.hbm, 377, rfl⟩
abbrev main_v185 : Ref sig .tc := ⟨.hbm, 378, rfl⟩
abbrev main_c_61 : Ref sig .tc := ⟨.hbm, 379, rfl⟩
abbrev main_v186 : Ref sig .tc := ⟨.hbm, 380, rfl⟩
abbrev main_v187 : Ref sig .tc := ⟨.hbm, 381, rfl⟩
abbrev main_c_62 : Ref sig .tc := ⟨.hbm, 382, rfl⟩
abbrev main_v188 : Ref sig .tc := ⟨.hbm, 383, rfl⟩
abbrev main_v189 : Ref sig .tc := ⟨.hbm, 384, rfl⟩
abbrev main_v190 : Ref sig .tc := ⟨.hbm, 385, rfl⟩
abbrev main_c_63 : Ref sig .tc := ⟨.hbm, 386, rfl⟩
abbrev main_v191 : Ref sig .tc := ⟨.hbm, 387, rfl⟩
abbrev main_v192 : Ref sig .tc := ⟨.hbm, 388, rfl⟩
abbrev main_c_64 : Ref sig .tc := ⟨.hbm, 389, rfl⟩
abbrev main_v193 : Ref sig .tc := ⟨.hbm, 390, rfl⟩
abbrev main_v194 : Ref sig .tc := ⟨.hbm, 391, rfl⟩
abbrev main_v195 : Ref sig .tc := ⟨.hbm, 392, rfl⟩
abbrev main_v196 : Ref sig .tc := ⟨.hbm, 393, rfl⟩
abbrev main_v197 : Ref sig .tc := ⟨.hbm, 394, rfl⟩
abbrev main_v198 : Ref sig .tc := ⟨.hbm, 395, rfl⟩
abbrev main_v199 : Ref sig .tc := ⟨.hbm, 396, rfl⟩
abbrev main_c_65 : Ref sig .tc := ⟨.hbm, 397, rfl⟩
abbrev main_v200 : Ref sig .tc := ⟨.hbm, 398, rfl⟩
abbrev main_v201 : Ref sig .tc := ⟨.hbm, 399, rfl⟩
abbrev main_v202 : Ref sig .tc := ⟨.hbm, 400, rfl⟩
abbrev main_v203 : Ref sig .tc := ⟨.hbm, 401, rfl⟩
abbrev main_c_66 : Ref sig .tc := ⟨.hbm, 402, rfl⟩
abbrev main_v204 : Ref sig .tc := ⟨.hbm, 403, rfl⟩
abbrev main_v205 : Ref sig .tc := ⟨.hbm, 404, rfl⟩
abbrev main_v206 : Ref sig .tc := ⟨.hbm, 405, rfl⟩
abbrev main_call26_v0 : Ref sig .tc := ⟨.hbm, 406, rfl⟩
abbrev main_v207 : Ref sig .tc := ⟨.hbm, 407, rfl⟩
abbrev main_c_67 : Ref sig .tc := ⟨.hbm, 408, rfl⟩
abbrev main_v208 : Ref sig .tc := ⟨.hbm, 409, rfl⟩
abbrev main_call27_call0_c : Ref sig .tc := ⟨.hbm, 410, rfl⟩
abbrev main_call27_call0_v0 : Ref sig .tc := ⟨.hbm, 411, rfl⟩
abbrev main_v209 : Ref sig .tc := ⟨.hbm, 412, rfl⟩
abbrev main_v210 : Ref sig .tc := ⟨.hbm, 413, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S513 : S_.BroadcastsInDim S513 (![] : Fin 0 → Fin S513.rank)
  bcast_S65536_S65536x1_0 : S65536.BroadcastsInDim S65536x1 (![0] : Fin 1 → Fin S65536x1.rank)
  slices_S513_S512_0 : S513.Slices ![0] S512
  bcast_S_S512 : S_.BroadcastsInDim S512 (![] : Fin 0 → Fin S512.rank)
  bcast_S512_S512x1_0 : S512.BroadcastsInDim S512x1 (![0] : Fin 1 → Fin S512x1.rank)
  bcast_S_S_ : S_.BroadcastsInDim S_ (![] : Fin 0 → Fin S_.rank)
  reduceWindows_S512_S512_w512s1p511_0 : S512.ReduceWindows (![512] : Fin 1 → Nat) ![1] ![511] ![0] S512
  h_S_ : 0 < S_.numel
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S512x1_S512x256_0_1 : S512x1.BroadcastsInDim S512x256 (![0, 1] : Fin 2 → Fin S512x256.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  concatenates_S512x256x1_S512x256x1_S512x256x2_d2 : Shape.Concatenates [S512x256x1, S512x256x1] S512x256x2 2
  natLt_1_32 : 1 < 32
  reducesTo_S512_S_d0 : S512.ReducesTo [0] S_
  bcast_S513_S1x513_1 : S513.BroadcastsInDim S1x513 (![1] : Fin 1 → Fin S1x513.rank)
  bcast_S65536x1_S65536x513_0_1 : S65536x1.BroadcastsInDim S65536x513 (![0, 1] : Fin 2 → Fin S65536x513.rank)
  bcast_S1x513_S65536x513_0_1 : S1x513.BroadcastsInDim S65536x513 (![0, 1] : Fin 2 → Fin S65536x513.rank)
  reduceWindows_S65536x513_S65536x513_w65536s1p65535_0_w1s1p0_0 : S65536x513.ReduceWindows (![65536, 1] : Fin 2 → Nat) ![1, 1] ![65535, 0] ![0, 0] S65536x513
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  concatenates_S65536x1_S65536x1_S65536x2_d1 : Shape.Concatenates [S65536x1, S65536x1] S65536x2 1
  bcast_S_S1 : S_.BroadcastsInDim S1 (![] : Fin 0 → Fin S1.rank)
  concatenates_S1_S512_S513_d0 : Shape.Concatenates [S1, S512] S513 0
  scatter_S513_S65536x1_S65536_n_0_0_1_wf : ScatterDims.WF S513 S65536x1 S65536 [] [0] [0] 1
  gather_S513_S512x1_S512_n_0_n_n_0_1_1_wf : GatherDims.WF S513 S512x1 S512 [] [0] [] [0] [] 1 ![1]
  gather_S512_S512x1_S512_n_0_n_n_0_1_1_wf : GatherDims.WF S512 S512x1 S512 [] [0] [] [0] [] 1 ![1]
  gather_S65536_S512x256x1_S512x256_n_0_n_n_0_2_1_wf : GatherDims.WF S65536 S512x256x1 S512x256 [] [0] [] [0] [] 2 ![1]
  scatter_S512x256_S512x256x2_S512x256_n_01_01_2_wf : ScatterDims.WF S512x256 S512x256x2 S512x256 [] [0, 1] [0, 1] 2
  scatter_S65536_S512x256x1_S512x256_n_0_0_2_wf : ScatterDims.WF S65536 S512x256x1 S512x256 [] [0] [0] 2
  gather_S512x256_S512x1_S512x256_1_0_n_n_0_1_1256_wf : GatherDims.WF S512x256 S512x1 S512x256 [1] [0] [] [0] [] 1 ![1, 256]
  gather_S65536x513_S65536x1x1_S65536x1_n_1_0_0_1_2_11_wf : GatherDims.WF S65536x513 S65536x1x1 S65536x1 [] [1] [0] [1] [0] 2 ![1, 1]
  gather_S512_S65536x1_S65536_n_0_n_n_0_1_1_wf : GatherDims.WF S512 S65536x1 S65536 [] [0] [] [0] [] 1 ![1]
  gather_S512x256_S65536x2_S65536_n_01_n_n_01_1_11_wf : GatherDims.WF S512x256 S65536x2 S65536 [] [0, 1] [] [0, 1] [] 1 ![1, 1]

variable [Facts₀]

def scatter_S513_S65536x1_S65536_n_0_0_1 : ScatterDims S513 S65536x1 S65536 where
  updateWindowDims := []
  insertedWindowDims := [0]
  scatterDimsToOperandDims := [0]
  indexVectorDim := 1
  wf := scatter_S513_S65536x1_S65536_n_0_0_1_wf
def comparator_i32_d0 : BitVec 32 → BitVec 32 → BitVec 1 :=
  fun l r =>
    let v1 := IntOp.cmpi .slt l r
    v1
def gather_S513_S512x1_S512_n_0_n_n_0_1_1 : GatherDims S513 S512x1 S512 where
  offsetDims := []
  collapsedSliceDims := [0]
  operandBatchingDims := []
  startIndicesBatchingDims := []
  startIndexMap := [0]
  indexVectorDim := 1
  sliceSizes := ![1]
  wf := gather_S513_S512x1_S512_n_0_n_n_0_1_1_wf
def gather_S512_S512x1_S512_n_0_n_n_0_1_1 : GatherDims S512 S512x1 S512 where
  offsetDims := []
  collapsedSliceDims := [0]
  operandBatchingDims := []
  startIndicesBatchingDims := []
  startIndexMap := [0]
  indexVectorDim := 1
  sliceSizes := ![1]
  wf := gather_S512_S512x1_S512_n_0_n_n_0_1_1_wf
def comparator_i32_i32_d0 : BitVec 32 × BitVec 32 → BitVec 32 × BitVec 32 → BitVec 1 :=
  fun l r =>
    let v2 := IntOp.cmpi .slt l.1 r.1
    v2
def gather_S65536_S512x256x1_S512x256_n_0_n_n_0_2_1 : GatherDims S65536 S512x256x1 S512x256 where
  offsetDims := []
  collapsedSliceDims := [0]
  operandBatchingDims := []
  startIndicesBatchingDims := []
  startIndexMap := [0]
  indexVectorDim := 2
  sliceSizes := ![1]
  wf := gather_S65536_S512x256x1_S512x256_n_0_n_n_0_2_1_wf
def scatter_S512x256_S512x256x2_S512x256_n_01_01_2 : ScatterDims S512x256 S512x256x2 S512x256 where
  updateWindowDims := []
  insertedWindowDims := [0, 1]
  scatterDimsToOperandDims := [0, 1]
  indexVectorDim := 2
  wf := scatter_S512x256_S512x256x2_S512x256_n_01_01_2_wf
def scatter_S65536_S512x256x1_S512x256_n_0_0_2 : ScatterDims S65536 S512x256x1 S512x256 where
  updateWindowDims := []
  insertedWindowDims := [0]
  scatterDimsToOperandDims := [0]
  indexVectorDim := 2
  wf := scatter_S65536_S512x256x1_S512x256_n_0_0_2_wf
def gather_S512x256_S512x1_S512x256_1_0_n_n_0_1_1256 : GatherDims S512x256 S512x1 S512x256 where
  offsetDims := [1]
  collapsedSliceDims := [0]
  operandBatchingDims := []
  startIndicesBatchingDims := []
  startIndexMap := [0]
  indexVectorDim := 1
  sliceSizes := ![1, 256]
  wf := gather_S512x256_S512x1_S512x256_1_0_n_n_0_1_1256_wf
def gather_S65536x513_S65536x1x1_S65536x1_n_1_0_0_1_2_11 : GatherDims S65536x513 S65536x1x1 S65536x1 where
  offsetDims := []
  collapsedSliceDims := [1]
  operandBatchingDims := [0]
  startIndicesBatchingDims := [0]
  startIndexMap := [1]
  indexVectorDim := 2
  sliceSizes := ![1, 1]
  wf := gather_S65536x513_S65536x1x1_S65536x1_n_1_0_0_1_2_11_wf
def gather_S512_S65536x1_S65536_n_0_n_n_0_1_1 : GatherDims S512 S65536x1 S65536 where
  offsetDims := []
  collapsedSliceDims := [0]
  operandBatchingDims := []
  startIndicesBatchingDims := []
  startIndexMap := [0]
  indexVectorDim := 1
  sliceSizes := ![1]
  wf := gather_S512_S65536x1_S65536_n_0_n_n_0_1_1_wf
def gather_S512x256_S65536x2_S65536_n_01_n_n_01_1_11 : GatherDims S512x256 S65536x2 S65536 where
  offsetDims := []
  collapsedSliceDims := [0, 1]
  operandBatchingDims := []
  startIndicesBatchingDims := []
  startIndexMap := [0, 1]
  indexVectorDim := 1
  sliceSizes := ![1, 1]
  wf := gather_S512x256_S65536x2_S65536_n_01_n_n_01_1_11_wf

class Facts : Prop extends Facts₀ where

variable [Facts]
-- ==== Proof.KI.Tail.lean ====
import proofs.«408099_j23811298689264_3_alg».proof.Proof.Gen.KernelIdeal.Launch
import Idealize.ShloMosaic.Lib.Pipeline.FrameSuffix

/-!
  The host operations of @main around its one region: six stretches before it, fifty-one after it.

  What the frame run with a continuation asks of them: @main is the earlier stretches, the region, the later stretches
  (`main_around`); every operation touches TensorCore references only, the later ones within the windows' arrays and the
  buffers that bypass the region (`pre_sub`, `tail_sub`); none leaves a buffer undetermined (`pre_fresh`, `tail_fresh`);
  no later operation writes one of the four arrays (`tail_keep`): each operation writes exactly its result reference, and
  no result after the region is `main_v6`, `main_v8`, `main_v9_0` or `main_v9_1`. From these, @main reduces to the
  region continued by the later stretches, at the contents the earlier ones leave (`hmain`). By the same comparison of
  result references no operation, before or after the region, writes an argument of @main (`pre_keep_args`,
  `tail_keep_args`).
-/

set_option maxRecDepth 4096

noncomputable section

namespace Cert.KernelIdeal.Hand

open Cert.KernelIdeal Cert.KernelIdeal.Gen Idealize.ShloMosaic Idealize.ShloMosaic.TcCoe Idealize.SL.Sem

variable {F : FTy → Type} [FloatOps F]

/-- The stretches of host operations before the region, in order. -/
abbrev preOpss : List (List (HloOp τ sig (Elt F))) := [hostOps0, hostOps0_1, hostOps0_2, hostOps0_3, hostOps0_4, hostOps0_5]

/-- The stretches of host operations after the region, in order. -/
abbrev tailOpss : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18, hostOps1_19,
   hostOps1_20, hostOps1_21, hostOps1_22, hostOps1_23, hostOps1_24, hostOps1_25, hostOps1_26, hostOps1_27, hostOps1_28, hostOps1_29,
   hostOps1_30, hostOps1_31, hostOps1_32, hostOps1_33, hostOps1_34, hostOps1_35, hostOps1_36, hostOps1_37, hostOps1_38, hostOps1_39,
   hostOps1_40, hostOps1_41, hostOps1_42, hostOps1_43, hostOps1_44, hostOps1_45, hostOps1_46, hostOps1_47, hostOps1_48, hostOps1_49,
   hostOps1_50]

/-! ## @main around the region -/

/-- @main is the earlier stretches, the region, the later stretches: the chain of its items, the two lists of
    stretches mapped and appended. -/
theorem main_around (c : Dev nD) : main (F := F) c
    = Pipeline.chain (preOpss.map StableHlo.seq ++ [Prog.lift (.customCall (Pipeline.entry 0) ())] ++ tailOpss.map StableHlo.seq) :=
  main_chain c

/-! ## One operation: what it leaves alone -/

/-- The four arrays of the pipeline's windows: the two operands and the two results of the region. -/
abbrev arrs : List (Ref sig .tc) := [main_v6, main_v8, main_v9_0, main_v9_1]

/-- The four arguments of @main. -/
abbrev args : List (Ref sig .tc) := [main_arg0, main_arg1, main_arg2, main_arg3]

/-- Every window's array is one of the four. -/
theorem arrRef_mem : ∀ w, Pipeline.arrRef (cfgs 0).spec w ∈ arrs := by decide

/-- An operation determines what it writes, and writes no buffer of the references `G`. -/
structure Quiet (G : List (Ref sig .tc)) (op : HloOp τ sig (Elt F)) : Prop where
  fresh : op.fresh = ∅
  keep : ∀ b ∈ G, Proc.devRef (τ := τ) .tc b ∉ op.writes

/-- An operation that determines what it writes and whose one written buffer is the reference `y`, which is not in
    `G`: were the buffer of a reference of `G` written it would be `y`'s, and distinct references are distinct buffers. -/
theorem quiet_of {G : List (Ref sig .tc)} {op : HloOp τ sig (Elt F)} (y : Ref sig .tc) (hf : op.fresh = ∅)
    (hw : op.writes = {Proc.devRef .tc y}) (hy : y ∉ G) : Quiet G op :=
  ⟨hf, fun b hb h => by
    rw [hw, Finset.mem_singleton] at h
    exact hy (Proc.devRef_injective _ h ▸ hb)⟩

/-! ## The operations before the region -/

/-- Each touches TensorCore references only. -/
theorem pre_sub : (preOpss (F := F)).Forall fun ops => ops.Forall fun op => op.bufs ⊆ StableHlo.tcRefs τ sig :=
  ⟨hostOps0_sub, hostOps0_1_sub, hostOps0_2_sub, hostOps0_3_sub, hostOps0_4_sub, hostOps0_5_sub⟩

/-- Each determines every buffer it writes. -/
theorem pre_fresh : (preOpss (F := F)).Forall fun ops => ops.Forall fun op => op.fresh = ∅ := by
  simp only [List.Forall]; repeat' apply And.intro
  all_goals rfl

/-- Every operation before the region: its written set is its result reference by computation, which is compared
    with the four arguments. -/
theorem pre_quiet : (preOpss (F := F)).Forall fun ops => ops.Forall (Quiet args) := by
  simp only [List.Forall]; repeat' apply And.intro
  all_goals exact quiet_of _ rfl rfl (by decide)

/-- They write no argument of @main. -/
theorem pre_keep_args : ∀ ops ∈ (preOpss (F := F)), ∀ op ∈ ops, ∀ b ∈ [main_arg0, main_arg1, main_arg2, main_arg3],
    Proc.devRef (τ := τ) .tc b ∉ op.writes := fun ops hops op hop =>
  ((List.forall_iff_forall_mem.mp ((List.forall_iff_forall_mem.mp pre_quiet) ops hops)) op hop).keep

/-! ## The operations after the region -/

/-- Every operation after the region: its written set is its result reference by computation, which is compared with
    the four arrays and the four arguments. -/
theorem tail_quiet : (tailOpss (F := F)).Forall fun ops => ops.Forall (Quiet (arrs ++ args)) := by
  simp only [List.Forall]; repeat' apply And.intro
  all_goals exact quiet_of _ rfl rfl (by decide)

/-- Each touches TensorCore references only. -/
theorem tail_tc : (tailOpss (F := F)).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub,
   hostOps1_8_sub, hostOps1_9_sub, hostOps1_10_sub, hostOps1_11_sub, hostOps1_12_sub, hostOps1_13_sub, hostOps1_14_sub, hostOps1_15_sub,
   hostOps1_16_sub, hostOps1_17_sub, hostOps1_18_sub, hostOps1_19_sub, hostOps1_20_sub, hostOps1_21_sub, hostOps1_22_sub, hostOps1_23_sub,
   hostOps1_24_sub, hostOps1_25_sub, hostOps1_26_sub, hostOps1_27_sub, hostOps1_28_sub, hostOps1_29_sub, hostOps1_30_sub, hostOps1_31_sub,
   hostOps1_32_sub, hostOps1_33_sub, hostOps1_34_sub, hostOps1_35_sub, hostOps1_36_sub, hostOps1_37_sub, hostOps1_38_sub, hostOps1_39_sub,
   hostOps1_40_sub, hostOps1_41_sub, hostOps1_42_sub, hostOps1_43_sub, hostOps1_44_sub, hostOps1_45_sub, hostOps1_46_sub, hostOps1_47_sub,
   hostOps1_48_sub, hostOps1_49_sub, hostOps1_50_sub⟩

/-- They touch the pipeline's arrays and the bypassing buffers only: with nothing prefetched and the arrays unscoped,
    these are all the unscoped TensorCore references. -/
theorem tail_sub : ∀ ops ∈ (tailOpss (F := F)), ∀ op ∈ ops, op.bufs ⊆ Pipeline.tailRefs sig Pipeline.Prefetch.none (cfgs 0).spec := by
  rw [Pipeline.tailRefs_none (cfgs 0).spec launch0.win.arr_unscoped]
  intro ops hops op hop
  exact Pipeline.sub_ucRefs op
    ((List.forall_iff_forall_mem.mp ((List.forall_iff_forall_mem.mp tail_tc) ops hops)) op hop)

/-- They determine every buffer they write. -/
theorem tail_fresh : ∀ ops ∈ (tailOpss (F := F)), ∀ op ∈ ops, op.fresh = ∅ := fun ops hops op hop =>
  ((List.forall_iff_forall_mem.mp ((List.forall_iff_forall_mem.mp tail_quiet) ops hops)) op hop).fresh

/-- They write no array of the pipeline. -/
theorem tail_keep : ∀ ops ∈ (tailOpss (F := F)), ∀ op ∈ ops, ∀ w,
    Proc.devRef .tc (Pipeline.arrRef (cfgs 0).spec w) ∉ op.writes := fun ops hops op hop w =>
  ((List.forall_iff_forall_mem.mp ((List.forall_iff_forall_mem.mp tail_quiet) ops hops)) op hop).keep _
    (List.mem_append_left _ (arrRef_mem w))

/-- They write no argument of @main. -/
theorem tail_keep_args : ∀ ops ∈ (tailOpss (F := F)), ∀ op ∈ ops, ∀ b ∈ [main_arg0, main_arg1, main_arg2, main_arg3],
    Proc.devRef (τ := τ) .tc b ∉ op.writes := fun ops hops op hop b hb =>
  ((List.forall_iff_forall_mem.mp ((List.forall_iff_forall_mem.mp tail_quiet) ops hops)) op hop).keep b
    (List.mem_append_right _ hb)

/-! ## The frame's reduction of @main -/

/-- Core `c`'s TensorCore buffer contents when the region is entered, from the launch contents `m`: after the
    operations before the region. -/
abbrev V₀ (m : (ℓ : Loc nD τ sig) → Buf (Elt F) ℓ) (c : Dev nD) : Valuation τ sig (Elt F) :=
  StableHlo.after (preOpss (F := F)).flatten (fun b => m (c, b))

/-- @main reduces to the region continued by the later stretches, holding the unscoped buffers at `V₀`. -/
theorem hmain (m : (ℓ : Loc nD τ sig) → Buf (Elt F) ℓ) (𝒱₀ : Variants) :
    Pipeline.HMainK (Ix := Unit) (Name := ℕ) (U := UR sig nD τ) (Lvl := ℕ) cfgs (0 : Fin 1) defs₀ 𝒱₀ m (main (F := F))
      (fun c b => V₀ m c (Proc.devRef .tc b)) (fun _ => Pipeline.chain ((tailOpss (F := F)).map StableHlo.seq)) :=
  Pipeline.hmain_around cfgs 0 defs₀ 𝒱₀ m main preOpss tailOpss pre_sub pre_fresh main_around

end Cert.KernelIdeal.Hand

end
-- ==== Proof.KI.Kit.lean ====
/-
  The frame kit of the rank kernel's program: the region's entry contents read at a TensorCore reference, the input
  windows' blocks, that each input's current staging buffer holds its block at every point (fetched there or not),
  and the step from the frame run's post to the frame claim's: the four arguments of @main are no window's array and
  no host operation writes them, so after the operations that follow the region they hold the launch contents.
-/
import proofs.«408099_j23811298689264_3_alg».proof.Proof.KI.Tail
import proofs.«408099_j23811298689264_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The region's entry contents -/

/-- Core `c`'s TensorCore buffer contents when the region is entered, read at a TensorCore reference. -/
abbrev V (c : Dev nD) (b : Ref sig .tc) : Buf (Elt F) ((c : Thread nD τ).loc b) := V₀ m c (Proc.devRef .tc b)

/-- No host operation before the region writes an argument array: at the region's entry it holds the launch contents. -/
theorem V_arg (c : Dev nD) (b : Ref sig .tc) (hb : b ∈ [main_arg0, main_arg1, main_arg2, main_arg3]) :
    V m c b = m ((c : Thread nD τ).loc b) := by
  show StableHlo.after (preOpss (F := F)).flatten (fun b => m (c, b)) (Proc.devRef .tc b) = _
  rw [StableHlo.after_of_forall_not_mem _ _ fun op hop => ?_]
  obtain ⟨ops, hops, hop'⟩ := List.mem_flatten.mp hop
  exact pre_keep_args ops hops op hop' b hb

/-! ## The input windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tokens' staging buffer holds the tokens' block at every point (it is fetched at every point), for any proof data
    whose array is the entry contents and whose body leaves the block in place. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The triangular matrix's staging buffer holds its one block at every point, although it is fetched at the first point
    only: its block index never moves, and the body leaves the block in place. -/
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- An argument array after the host operations that follow the region: it is no window's array and no host operation
    writes it, so it holds what it held at the region's entry, which is the launch contents. -/
theorem afterTail_arg (dats : (p : Fin 1) → (c : Dev nD) → Dat τ (Elt F) Unit ℕ (UR sig nD τ) ℕ (cfgs p) c) (c : Dev nD)
    (b : Ref sig .tc) (hb : b ∈ [main_arg0, main_arg1, main_arg2, main_arg3]) (harr : ∀ w, Pipeline.arrRef spec0 w ≠ b) :
    Pipeline.afterTail₀ cfgs dats 0 (V₀ m) tailOpss c b = m ((c : Thread nD τ).loc b) := by
  unfold Pipeline.afterTail₀
  rw [StableHlo.after_of_forall_not_mem _ _ fun op hop => ?_, Pipeline.withArrays_of_ne _ c (V₀ m c) _ b harr]
  · exact V_arg m c b hb
  · obtain ⟨ops, hops, hop'⟩ := List.mem_flatten.mp hop
    exact tail_keep_args ops hops op hop' b hb

/-- THE FRAME from a frame run: a run to the library's frame post, read at the four argument arrays — none is a window's
    array, so each is among the buffers that bypass the region — is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V₀ m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (afterTail_arg m dats c main_arg0 (by simp) (by decide)),
     ((h c).2 main_arg1 (Pipeline.mem_restRefs_of main_arg1 (by decide) (by decide))).trans (afterTail_arg m dats c main_arg1 (by simp) (by decide)),
     ((h c).2 main_arg2 (Pipeline.mem_restRefs_of main_arg2 (by decide) (by decide))).trans (afterTail_arg m dats c main_arg2 (by simp) (by decide)),
     ((h c).2 main_arg3 (Pipeline.mem_restRefs_of main_arg3 (by decide) (by decide))).trans (afterTail_arg m dats c main_arg3 (by simp) (by decide))⟩) h

end Cert.KernelIdeal.Hand

end
-- ==== Proof.KI.Body.lean ====
/-
  What the three runs of the rank kernel's body share.

  The body is straight-line but for two conditionals on the grid coordinate: the first (taken at the first grid
  point only) zeroes the carried count vector, the last (taken at the last grid point only) copies the carried
  count vector into the counts window. Over the 64 grid points this gives three control cases: the first point
  (first conditional taken, last not), the interior points (neither), the last point (last taken, first not).
  Here: the two conditions as the body spells them, their closed forms over the grid, the staging memrefs the
  pipeline passes the body at a point, the views through which the outputs' and the carried vector's contents are
  stated, and where the counts window is idle and not written back.
-/
import proofs.«408099_j23811298689264_3_alg».proof.Proof.Gen.KernelIdeal.Launch
import proofs.«408099_j23811298689264_3_alg».proof.Proof.Gen.KernelIdeal.Skeleton
import proofs.«408099_j23811298689264_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The condition of the body's first conditional (grid coordinate = 0), spelled as the body computes it from the
    grid coordinates: `ne (extui (eq i 0)) 0`. -/
abbrev cond_first (i : grid0.Coords) : Prop :=
  (Scalar.cmpi .ne (Scalar.extui (Scalar.cmpi .eq (BitVec.ofNat 32 (i 0).val) 0#32)) 0#32) = 1#1
/-- It holds at the first grid point only. -/
theorem hcond_first : ∀ t : Fin cfg0.N, cond_first (grid0.coords t) ↔ t.val % 64 = 0 :=
  (by decide +kernel : ∀ t : Fin grid0.N, cond_first (grid0.coords t) ↔ t.val % 64 = 0)

/-- The condition of the body's last conditional (grid coordinate = 63). -/
abbrev cond_last (i : grid0.Coords) : Prop := k0_cond2 i = 1#1
/-- It holds at the last grid point only. -/
theorem hcond_last : ∀ t : Fin cfg0.N, cond_last (grid0.coords t) ↔ t.val % 64 = 63 :=
  (by decide +kernel : ∀ t : Fin grid0.N, cond_last (grid0.coords t) ↔ t.val % 64 = 63)

/-- The two conditions never hold together: 0 ≠ 63. -/
theorem not_first_and_last : ∀ t : Fin cfg0.N, cond_first (grid0.coords t) → ¬cond_last (grid0.coords t) :=
  (by decide +kernel : ∀ t : Fin grid0.N, cond_first (grid0.coords t) → ¬cond_last (grid0.coords t))

/-! ## Where the windows are idle -/

/-- The token window is never idle (an input). -/
theorem liveAt_0 : ∀ t : Fin cfg0.N, cfg0.idle 0 (grid0.coords t) = false := by decide +kernel
/-- The triangular-matrix window is never idle (an input). -/
theorem liveAt_1 : ∀ t : Fin cfg0.N, cfg0.idle 1 (grid0.coords t) = false := by decide +kernel
/-- The ranks window is never idle: every point stores its whole block. -/
theorem liveAt_2 : ∀ t : Fin cfg0.N, cfg0.idle 2 (grid0.coords t) = false := by decide +kernel
/-- Where the last conditional is not taken the counts window is idle: nothing is stored into it there. -/
theorem idleAt_3 : ∀ t : Fin cfg0.N, ¬cond_last (grid0.coords t) → cfg0.idle 3 (grid0.coords t) = true := by decide +kernel
/-- And it is not written back there. -/
theorem noFlush_3 : ∀ t : Fin cfg0.N, ¬cond_last (grid0.coords t) → (cfg0.win 3).flush t = false := by decide +kernel
/-- Where the last conditional is taken the counts window is live. -/
theorem liveAt_3 : ∀ t : Fin cfg0.N, cond_last (grid0.coords t) → cfg0.idle 3 (grid0.coords t) = false := by decide +kernel
/-- And it is written back there. -/
theorem flush_3 : ∀ t : Fin cfg0.N, cond_last (grid0.coords t) → (cfg0.win 3).flush t = true := by decide +kernel

/-! ## The memrefs the body runs on, and the views its results are stated through -/

/-- Each window's current staging memref at point `t`, as the pipeline passes it to the body, and its wholeness. -/
abbrev ms_0 (t : Fin cfg0.N) : Memref sig .tc .vmem S1x1024 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1024 .i32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S528x1 .f32 := win0_3.stage (cfg0.slots t 3)
abbrev hs_3 (t : Fin cfg0.N) : (ms_3 t).IsWhole := hstage0_3 ((cfg0.slots t 3).cast nbuf0_3)
/-- The carried count vector: a whole scoped buffer of the kernel's own, passed beside the windows. -/
abbrev scM : Memref sig .tc .vmem S528x1 .f32 := Memref.whole cc0_scratch0
abbrev hscM : (scM).IsWhole := Memref.isWhole_whole _

/-- The body at point `t` is the kernel function on these memrefs. -/
theorem bodyAt_eq (t : Fin cfg0.N) :
    (bodyAt0 (F := F) t) = cc0__rank_kernel (grid0.coords t) (ms_0 t) (hs_0 t) (ms_1 t) (hs_1 t) (ms_2 t) (hs_2 t) (ms_3 t) (hs_3 t) scM hscM := rfl

/-- One staging buffer of the ranks window, through which its contents are stated (the choice does not matter:
    any whole memref of the shape reads a list of pieces alike). -/
abbrev VO_2 : View sig .tc .vmem S1x1024 .i32 := (Memref.whole cc0_stg2_0 : Memref sig .tc .vmem S1x1024 .i32).view
/-- The counts window's staging buffer, as a view. -/
abbrev VO_3 : View sig .tc .vmem S528x1 .f32 := (Memref.whole cc0_stg3_0 : Memref sig .tc .vmem S528x1 .f32).view
/-- The carried count vector, as a view: what it holds between points is stated through it. -/
abbrev VS : View sig .tc .vmem S528x1 .f32 := (scM).view

/-- The frame kit's invariant with the carried count vector as a memref owned at some contents: what the body
    obligation hands a run and takes back. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunB.lean ====
/-
  The rank kernel's body run at an interior grid point: neither conditional is taken. The body reads its two input
  blocks, reads the carried count vector eight times (once per 128-lane sub-tile), stores the eight sub-tiles of the
  ranks block, and stores the carried vector once, whole. What each buffer ends with is a list of pieces (last
  first) that the run finds; the statement is the body's triple over them.
-/
import proofs.«408099_j23811298689264_3_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run AT AN INTERIOR POINT (neither conditional taken). From the two inputs' staging memrefs at their
    blocks `x0`, `x1`, the ranks window's at anything, the counts window's at `xi3` and the carried count vector at
    what the point before left (`xs`), the body runs to its return holding the inputs as they were, the counts
    window's buffer untouched, the ranks window's buffer with the pieces `L2` written (eight stores of 128 lanes)
    and the carried vector with the pieces `LS` written (one whole store: the carry plus this block's counts).
    The pieces are the witness the run finds. -/
noncomputable def kernelRun_B (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) :
    Σ' (L2 : List (View.Piece (Elt F) S1x1024 .i32)) (L3 : List (View.Piece (Elt F) S528x1 .f32)), { LS : List (View.Piece (Elt F) S528x1 .f32) //
      ∀ (xi3 : Vec F S528x1 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ owns (c : Thread nD τ) arg5 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS)) -∗ K ⟨⟩))
          ⊢ wp frame (wpE (defs₀ (F := F)) Variants.none c none) E (cc0__rank_kernel i arg1 harg1 arg2 harg2 arg3 harg3 arg4 harg4 arg5 harg5) K } := by
  refine ⟨?_, [], ?_, fun xi3 E K => ?run⟩
  case run =>
    simp only [cc0__rank_kernel_eq_skeleton]; unfold cc0__rank_kernel_skel
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg1.eq_unread hf0; obtain rfl := harg2.eq_unread hf1; obtain rfl := harg4.eq_unread hf3; obtain rfl := harg5.eq_unread hfs
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; isplitr; · ipureintro; exact harg4.read_unread _
      iexact H3
    iexists _; iexact HS

end Cert.KernelIdeal.Hand

end
-- ==== Proof.KI.RunA.lean ====
/-
  The rank kernel's body run at the first grid point: the first conditional is taken (the carried count vector is
  zeroed before anything reads it), the last is not. Every later read of the carried vector in this run is covered
  by the zeroing store, so the run needs nothing of what the vector held before.
-/
import proofs.«408099_j23811298689264_3_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run AT THE FIRST POINT (first conditional taken, last not). From the two inputs' staging memrefs at
    their blocks `x0`, `x1`, the ranks window's at anything, the counts window's at `xi3` and the carried count
    vector at anything (the body zeroes it before it reads it), the body runs to its return holding the inputs as
    they were, the counts window's buffer untouched, the ranks window's buffer with the pieces `L2` written (eight
    stores of 128 lanes) and the carried vector with the pieces `LS` written (the zeroing store, then the whole
    store of this block's counts). The pieces are the witness the run finds. -/
noncomputable def kernelRun_A (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) :
    Σ' (L2 : List (View.Piece (Elt F) S1x1024 .i32)) (L3 : List (View.Piece (Elt F) S528x1 .f32)), { LS : List (View.Piece (Elt F) S528x1 .f32) //
      ∀ (xi3 : Vec F S528x1 .f32) (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xi3 ∗ (∃ d, owns (c : Thread nD τ) arg5 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ owns (c : Thread nD τ) arg4 fullShare xi3
                ∗ (∃ f, arg5.view.loc (c : Thread nD τ) ↦[arg5.view.set]{fullShare} arg5.view.writes (Elt F) f LS)) -∗ K ⟨⟩))
          ⊢ wp frame (wpE (defs₀ (F := F)) Variants.none c none) E (cc0__rank_kernel i arg1 harg1 arg2 harg2 arg3 harg3 arg4 harg4 arg5 harg5) K } := by
  refine ⟨?_, [], ?_, fun xi3 E K => ?run⟩
  case run =>
    simp only [cc0__rank_kernel_eq_skeleton]; unfold cc0__rank_kernel_skel
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg1.eq_unread hf0; obtain rfl := harg2.eq_unread hf1; obtain rfl := harg4.eq_unread hf3
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; isplitr; · ipureintro; exact harg4.read_unread _
      iexact H3
    iexists _; iexact HS

end Cert.KernelIdeal.Hand

end
-- ==== Proof.KI.RunC.lean ====
/-
  The rank kernel's body run at the last grid point: the last conditional is taken (the carried count vector, after
  this block's counts are added, is copied whole into the counts window's buffer), the first is not.
-/
import proofs.«408099_j23811298689264_3_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run AT THE LAST POINT (last conditional taken, first not). From the two inputs' staging memrefs at
    their blocks `x0`, `x1`, the ranks window's and the counts window's at anything and the carried count vector
    at what the point before left (`xs`), the body runs to its return holding the inputs as they were, the ranks
    window's buffer with the pieces `L2` written (eight stores of 128 lanes), the carried vector with the pieces
    `LS` written (one whole store: the carry plus this block's counts) and the counts window's buffer with the
    pieces `L3` written (one whole store: the carried vector read back). The pieces are the witness the run finds. -/
noncomputable def kernelRun_C (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) :
    Σ' (L2 : List (View.Piece (Elt F) S1x1024 .i32)) (L3 : List (View.Piece (Elt F) S528x1 .f32)), { LS : List (View.Piece (Elt F) S528x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d) ∗ owns (c : Thread nD τ) arg5 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc0__rank_kernel i arg1 harg1 arg2 harg2 arg3 harg3 arg4 harg4 arg5 harg5) K } := by
  refine ⟨?_, ?_, ?_, fun E K => ?run⟩
  case run =>
    simp only [cc0__rank_kernel_eq_skeleton]; unfold cc0__rank_kernel_skel
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg1.eq_unread hf0; obtain rfl := harg2.eq_unread hf1; obtain rfl := harg5.eq_unread hfs
    sl_exec_parts (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    isplitl [H3]
    · iexists _; iexact H3
    iexists _; iexact HS

end Cert.KernelIdeal.Hand

end
-- ==== Proof.KI.Frame.lean ====
/-
  The frame certificate of the rank kernel's program.

  Per control case of the body (the first grid point, an interior point, the last point): what the ranks window's
  staging buffer, the counts window's staging buffer and the carried count vector end with, as the pieces that case's
  run found read back over junk, and that those pieces cover the buffer (the eight stores of 128 lanes tile the ranks
  block; every store into the counts window or the carried vector is whole). Point by point: what the three buffers hold
  after each grid point (`outsAt`, by recursion on the point), the invariant between points (the carried count vector at
  what the point before left), the pipeline's proof data, the body obligation at every point (by cases on the closed
  forms of the two conditions), and from it the run of @main and the frame claim: the four arguments end unchanged.
-/
import proofs.«408099_j23811298689264_3_alg».proof.Proof.KI.Kit
import proofs.«408099_j23811298689264_3_alg».proof.Proof.KI.RunC
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The first point (the first conditional taken, the last not) -/

/-- At the first point the eight stores of 128 lanes tile the ranks block, so the pieces the ranks buffer ends with cover it. -/
theorem cover_A_2 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) (y : S1x1024.Idx) :
    ∃ pc ∈ (kernelRun_A c i arg1 harg1 arg2 harg2 arg3 harg3 arg4 harg4 arg5 harg5 hc0 hc1 x0 x1).1, y ∈ pc.1.set :=
  View.cover_of_tiledL (kernelRun_A c i arg1 harg1 arg2 harg2 arg3 harg3 arg4 harg4 arg5 harg5 hc0 hc1 x0 x1).1 S1x128.size (by sl_kernel_rfl) y

/-- What the first point leaves in the ranks window's staging buffer: its pieces read back over junk. -/
def out_A_2 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) : Vec F S1x1024 .i32 :=
  VO_2.read (Elt F) (VO_2.writes (Elt F) VO_2.junk (kernelRun_A c i arg1 harg1 arg2 harg2 arg3 harg3 arg4 harg4 arg5 harg5 hc0 hc1 x0 x1).1)

/-- The first point stores nothing into the counts window (idle there and not written back): no pieces, a placeholder that nothing consults. -/
def out_A_3 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) : Vec F S528x1 .f32 :=
  VO_3.read (Elt F) (VO_3.writes (Elt F) VO_3.junk (kernelRun_A c i arg1 harg1 arg2 harg2 arg3 harg3 arg4 harg4 arg5 harg5 hc0 hc1 x0 x1).2.1)

/-- At the first point the pieces the carried count vector ends with cover it (each store into it is whole). -/
theorem scover_A (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) (y : S528x1.Idx) :
    ∃ pc ∈ (kernelRun_A c i arg1 harg1 arg2 harg2 arg3 harg3 arg4 harg4 arg5 harg5 hc0 hc1 x0 x1).2.2.1, y ∈ pc.1.set :=
  View.cover_of_tiledL (kernelRun_A c i arg1 harg1 arg2 harg2 arg3 harg3 arg4 harg4 arg5 harg5 hc0 hc1 x0 x1).2.2.1 S528x1.size (by sl_kernel_rfl) y

/-- What the first point leaves in the carried count vector: its pieces read back over junk. -/
def sout_A (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) : Vec F S528x1 .f32 :=
  VS.read (Elt F) (VS.writes (Elt F) VS.junk (kernelRun_A c i arg1 harg1 arg2 harg2 arg3 harg3 arg4 harg4 arg5 harg5 hc0 hc1 x0 x1).2.2.1)

/-! ### An interior point (neither conditional taken) -/

/-- At an interior point the eight stores of 128 lanes tile the ranks block, so the pieces the ranks buffer ends with cover it. -/
theorem cover_B_2 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) (y : S1x1024.Idx) :
    ∃ pc ∈ (kernelRun_B c i arg1 harg1 arg2 harg2 arg3 harg3 arg4 harg4 arg5 harg5 hc0 hc1 x0 x1 xs).1, y ∈ pc.1.set :=
  View.cover_of_tiledL (kernelRun_B c i arg1 harg1 arg2 harg2 arg3 harg3 arg4 harg4 arg5 harg5 hc0 hc1 x0 x1 xs).1 S1x128.size (by sl_kernel_rfl) y

/-- What an interior point leaves in the ranks window's staging buffer: its pieces read back over junk. -/
def out_B_2 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) : Vec F S1x1024 .i32 :=
  VO_2.read (Elt F) (VO_2.writes (Elt F) VO_2.junk (kernelRun_B c i arg1 harg1 arg2 harg2 arg3 harg3 arg4 harg4 arg5 harg5 hc0 hc1 x0 x1 xs).1)

/-- An interior point stores nothing into the counts window (idle there and not written back): no pieces, a placeholder that nothing consults. -/
def out_B_3 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) : Vec F S528x1 .f32 :=
  VO_3.read (Elt F) (VO_3.writes (Elt F) VO_3.junk (kernelRun_B c i arg1 harg1 arg2 harg2 arg3 harg3 arg4 harg4 arg5 harg5 hc0 hc1 x0 x1 xs).2.1)

/-- At an interior point the pieces the carried count vector ends with cover it (its one store is whole). -/
theorem scover_B (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) (y : S528x1.Idx) :
    ∃ pc ∈ (kernelRun_B c i arg1 harg1 arg2 harg2 arg3 harg3 arg4 harg4 arg5 harg5 hc0 hc1 x0 x1 xs).2.2.1, y ∈ pc.1.set :=
  View.cover_of_tiledL (kernelRun_B c i arg1 harg1 arg2 harg2 arg3 harg3 arg4 harg4 arg5 harg5 hc0 hc1 x0 x1 xs).2.2.1 S528x1.size (by sl_kernel_rfl) y

/-- What an interior point leaves in the carried count vector, from what the point before left (`xs`): its pieces read back over junk. -/
def sout_B (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) : Vec F S528x1 .f32 :=
  VS.read (Elt F) (VS.writes (Elt F) VS.junk (kernelRun_B c i arg1 harg1 arg2 harg2 arg3 harg3 arg4 harg4 arg5 harg5 hc0 hc1 x0 x1 xs).2.2.1)

/-! ### The last point (the last conditional taken, the first not) -/

/-- At the last point the eight stores of 128 lanes tile the ranks block, so the pieces the ranks buffer ends with cover it. -/
theorem cover_C_2 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) (y : S1x1024.Idx) :
    ∃ pc ∈ (kernelRun_C c i arg1 harg1 arg2 harg2 arg3 harg3 arg4 harg4 arg5 harg5 hc0 hc1 x0 x1 xs).1, y ∈ pc.1.set :=
  View.cover_of_tiledL (kernelRun_C c i arg1 harg1 arg2 harg2 arg3 harg3 arg4 harg4 arg5 harg5 hc0 hc1 x0 x1 xs).1 S1x128.size (by sl_kernel_rfl) y

/-- What the last point leaves in the ranks window's staging buffer: its pieces read back over junk. -/
def out_C_2 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) : Vec F S1x1024 .i32 :=
  VO_2.read (Elt F) (VO_2.writes (Elt F) VO_2.junk (kernelRun_C c i arg1 harg1 arg2 harg2 arg3 harg3 arg4 harg4 arg5 harg5 hc0 hc1 x0 x1 xs).1)

/-- At the last point the one whole store into the counts window covers its block. -/
theorem cover_C_3 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) (y : S528x1.Idx) :
    ∃ pc ∈ (kernelRun_C c i arg1 harg1 arg2 harg2 arg3 harg3 arg4 harg4 arg5 harg5 hc0 hc1 x0 x1 xs).2.1, y ∈ pc.1.set :=
  View.cover_of_tiledL (kernelRun_C c i arg1 harg1 arg2 harg2 arg3 harg3 arg4 harg4 arg5 harg5 hc0 hc1 x0 x1 xs).2.1 S528x1.size (by sl_kernel_rfl) y

/-- What the last point leaves in the counts window's staging buffer: its pieces read back over junk. -/
def out_C_3 (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) : Vec F S528x1 .f32 :=
  VO_3.read (Elt F) (VO_3.writes (Elt F) VO_3.junk (kernelRun_C c i arg1 harg1 arg2 harg2 arg3 harg3 arg4 harg4 arg5 harg5 hc0 hc1 x0 x1 xs).2.1)

/-- At the last point the pieces the carried count vector ends with cover it (its one store is whole). -/
theorem scover_C (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) (y : S528x1.Idx) :
    ∃ pc ∈ (kernelRun_C c i arg1 harg1 arg2 harg2 arg3 harg3 arg4 harg4 arg5 harg5 hc0 hc1 x0 x1 xs).2.2.1, y ∈ pc.1.set :=
  View.cover_of_tiledL (kernelRun_C c i arg1 harg1 arg2 harg2 arg3 harg3 arg4 harg4 arg5 harg5 hc0 hc1 x0 x1 xs).2.2.1 S528x1.size (by sl_kernel_rfl) y

/-- What the last point leaves in the carried count vector, from what the point before left (`xs`): its pieces read back over junk. -/
def sout_C (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) : Vec F S528x1 .f32 :=
  VS.read (Elt F) (VS.writes (Elt F) VS.junk (kernelRun_C c i arg1 harg1 arg2 harg2 arg3 harg3 arg4 harg4 arg5 harg5 hc0 hc1 x0 x1 xs).2.2.1)

/-! ## Each case at a point of the grid -/

/-- The grid has 64 points: a position below its count is below 64. -/
theorem lt_64 (t : Fin cfg0.N) : t.val < 64 := lt_of_lt_of_eq t.isLt (show cfg0.N = 64 from N_0)

/-- What the three buffers (ranks window, counts window, carried count vector) hold after the body at the first point:
    the first case run on the point's staging memrefs and input blocks. -/
abbrev atA (c : Dev nD) (t : Fin cfg0.N) (h0 : t.val % 64 = 0) (h1 : ¬t.val % 64 = 63) :
    Vec F S1x1024 .i32 × Vec F S528x1 .f32 × Vec F S528x1 .f32 :=
  (out_A_2 c (grid0.coords t) (ms_0 t) (hs_0 t) (ms_1 t) (hs_1 t) (ms_2 t) (hs_2 t) (ms_3 t) (hs_3 t) scM hscM ((hcond_first t).mpr h0) (fun h => h1 ((hcond_last t).mp h)) (iblk m c 0 t) (iblk m c 1 t),
   out_A_3 c (grid0.coords t) (ms_0 t) (hs_0 t) (ms_1 t) (hs_1 t) (ms_2 t) (hs_2 t) (ms_3 t) (hs_3 t) scM hscM ((hcond_first t).mpr h0) (fun h => h1 ((hcond_last t).mp h)) (iblk m c 0 t) (iblk m c 1 t),
   sout_A c (grid0.coords t) (ms_0 t) (hs_0 t) (ms_1 t) (hs_1 t) (ms_2 t) (hs_2 t) (ms_3 t) (hs_3 t) scM hscM ((hcond_first t).mpr h0) (fun h => h1 ((hcond_last t).mp h)) (iblk m c 0 t) (iblk m c 1 t))

/-- The same after an interior point, the carried count vector found at `xs`. -/
abbrev atB (c : Dev nD) (t : Fin cfg0.N) (h0 : ¬t.val % 64 = 0) (h1 : ¬t.val % 64 = 63) (xs : Vec F S528x1 .f32) :
    Vec F S1x1024 .i32 × Vec F S528x1 .f32 × Vec F S528x1 .f32 :=
  (out_B_2 c (grid0.coords t) (ms_0 t) (hs_0 t) (ms_1 t) (hs_1 t) (ms_2 t) (hs_2 t) (ms_3 t) (hs_3 t) scM hscM (fun h => h0 ((hcond_first t).mp h)) (fun h => h1 ((hcond_last t).mp h)) (iblk m c 0 t) (iblk m c 1 t) xs,
   out_B_3 c (grid0.coords t) (ms_0 t) (hs_0 t) (ms_1 t) (hs_1 t) (ms_2 t) (hs_2 t) (ms_3 t) (hs_3 t) scM hscM (fun h => h0 ((hcond_first t).mp h)) (fun h => h1 ((hcond_last t).mp h)) (iblk m c 0 t) (iblk m c 1 t) xs,
   sout_B c (grid0.coords t) (ms_0 t) (hs_0 t) (ms_1 t) (hs_1 t) (ms_2 t) (hs_2 t) (ms_3 t) (hs_3 t) scM hscM (fun h => h0 ((hcond_first t).mp h)) (fun h => h1 ((hcond_last t).mp h)) (iblk m c 0 t) (iblk m c 1 t) xs)

/-- The same after the last point, the carried count vector found at `xs`. -/
abbrev atC (c : Dev nD) (t : Fin cfg0.N) (h0 : ¬t.val % 64 = 0) (h1 : t.val % 64 = 63) (xs : Vec F S528x1 .f32) :
    Vec F S1x1024 .i32 × Vec F S528x1 .f32 × Vec F S528x1 .f32 :=
  (out_C_2 c (grid0.coords t) (ms_0 t) (hs_0 t) (ms_1 t) (hs_1 t) (ms_2 t) (hs_2 t) (ms_3 t) (hs_3 t) scM hscM (fun h => h0 ((hcond_first t).mp h)) ((hcond_last t).mpr h1) (iblk m c 0 t) (iblk m c 1 t) xs,
   out_C_3 c (grid0.coords t) (ms_0 t) (hs_0 t) (ms_1 t) (hs_1 t) (ms_2 t) (hs_2 t) (ms_3 t) (hs_3 t) scM hscM (fun h => h0 ((hcond_first t).mp h)) ((hcond_last t).mpr h1) (iblk m c 0 t) (iblk m c 1 t) xs,
   sout_C c (grid0.coords t) (ms_0 t) (hs_0 t) (ms_1 t) (hs_1 t) (ms_2 t) (hs_2 t) (ms_3 t) (hs_3 t) scM hscM (fun h => h0 ((hcond_first t).mp h)) ((hcond_last t).mpr h1) (iblk m c 0 t) (iblk m c 1 t) xs)

/-! ## What the buffers hold after each point -/

/-- THE ACCUMULATION. What the ranks window's staging buffer, the counts window's staging buffer and the carried count
    vector hold after the body at position `n`: position 0 is the first case; a later position is the last case if it
    is 63 and an interior one otherwise, run over what the position before left in the carried count vector. -/
def outsAt (c : Dev nD) : (n : ℕ) → n < cfg0.N → Vec F S1x1024 .i32 × Vec F S528x1 .f32 × Vec F S528x1 .f32
  | 0, hn => atA m c ⟨0, hn⟩ (Nat.zero_mod _) (by dsimp only; omega)
  | n + 1, hn =>
    if h1 : (n + 1) % 64 = 63 then
      atC m c ⟨n + 1, hn⟩ (by have := lt_64 ⟨n + 1, hn⟩; dsimp only at this ⊢; omega) h1 (outsAt c n (Nat.lt_of_succ_lt hn)).2.2
    else
      atB m c ⟨n + 1, hn⟩ (by have := lt_64 ⟨n + 1, hn⟩; dsimp only at this ⊢; omega) h1 (outsAt c n (Nat.lt_of_succ_lt hn)).2.2

/-- `outsAt` at the first point: the first case's contents. -/
theorem outsAt_A (c : Dev nD) (t : Fin cfg0.N) (h0 : t.val % 64 = 0) (h1 : ¬t.val % 64 = 63) :
    outsAt m c t.val t.isLt = atA m c t h0 h1 := by
  have hN := lt_64 t
  obtain ⟨n, hn⟩ := t
  cases n with
  | zero => exact rfl
  | succ n => exfalso; dsimp only at h0 hN; omega

/-- `outsAt` at an interior point: that case's contents, over what the point before left in the carried count vector. -/
theorem outsAt_B (c : Dev nD) (t : Fin cfg0.N) (h0 : ¬t.val % 64 = 0) (h1 : ¬t.val % 64 = 63) :
    outsAt m c t.val t.isLt = atB m c t h0 h1 (outsAt m c (t.val - 1) (Nat.lt_of_le_of_lt (Nat.sub_le _ _) t.isLt)).2.2 := by
  obtain ⟨n, hn⟩ := t
  cases n with
  | zero => exact absurd (Nat.zero_mod _) h0
  | succ n => exact (dif_neg h1).trans rfl

/-- `outsAt` at the last point: that case's contents, over what the point before left in the carried count vector. -/
theorem outsAt_C (c : Dev nD) (t : Fin cfg0.N) (h0 : ¬t.val % 64 = 0) (h1 : t.val % 64 = 63) :
    outsAt m c t.val t.isLt = atC m c t h0 h1 (outsAt m c (t.val - 1) (Nat.lt_of_le_of_lt (Nat.sub_le _ _) t.isLt)).2.2 := by
  obtain ⟨n, hn⟩ := t
  cases n with
  | zero => exact absurd (Nat.zero_mod _) h0
  | succ n => exact (dif_pos h1).trans rfl

/-! ## The invariant between points -/

/-- The region's invariant before position `n`: before the first point the launch's (the carried count vector at
    anything); afterwards the carried count vector at what the point before left in it, and the generator register at
    some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: the carried count vector at that point's contents. -/
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl

/-- Before a point that is not the first: the carried count vector at what the point before left. -/
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

/-- The proof data of the one pipeline on core `c`: the arrays as the region finds them; after the body at point `t`
    each input's buffer at its block, the ranks window's and the counts window's at `outsAt`'s components; the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

/-- Each input's current staging buffer holds its block at every point, fetched there or not. -/
theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The three windows that are never idle are left at what the proof data name. -/
theorem leaves_0 (c : Dev nD) (t : Fin cfg0.N) :
    (dats m 0 c).leavesExact 0 t = owns (c : Thread nD τ) (ms_0 t) fullShare (iblk m c 0 t) := by
  rw [show (dats m 0 c).leavesExact 0 t = owns (c : Thread nD τ) (ms_0 t) fullShare ((dats m 0 c).after 0 t) from by
    unfold Dat.leavesExact; rw [liveAt_0 t], after_0]
theorem leaves_1 (c : Dev nD) (t : Fin cfg0.N) :
    (dats m 0 c).leavesExact 1 t = owns (c : Thread nD τ) (ms_1 t) fullShare (iblk m c 1 t) := by
  rw [show (dats m 0 c).leavesExact 1 t = owns (c : Thread nD τ) (ms_1 t) fullShare ((dats m 0 c).after 1 t) from by
    unfold Dat.leavesExact; rw [liveAt_1 t], after_1]
theorem leaves_2 (c : Dev nD) (t : Fin cfg0.N) :
    (dats m 0 c).leavesExact 2 t = owns (c : Thread nD τ) (ms_2 t) fullShare (outsAt m c t.val t.isLt).1 := by
  rw [show (dats m 0 c).leavesExact 2 t = owns (c : Thread nD τ) (ms_2 t) fullShare ((dats m 0 c).after 2 t) from by
    unfold Dat.leavesExact; rw [liveAt_2 t], after_2]
/-- The counts window where the last conditional is taken: live, left at what the proof data name. -/
theorem leaves_3_last (c : Dev nD) (t : Fin cfg0.N) (h : cond_last (grid0.coords t)) :
    (dats m 0 c).leavesExact 3 t = owns (c : Thread nD τ) (ms_3 t) fullShare (outsAt m c t.val t.isLt).2.1 := by
  rw [show (dats m 0 c).leavesExact 3 t = owns (c : Thread nD τ) (ms_3 t) fullShare ((dats m 0 c).after 3 t) from by
    unfold Dat.leavesExact; rw [liveAt_3 t h], after_3]

set_option maxHeartbeats 4800000 in
/-- The body at any point. The inputs' memrefs hold their blocks; the closed forms of the two conditions say which of the
    three cases the point is in, and that case's run applies. The invariant hands the body the carried count vector — at
    anything at the first point, at what the point before left afterwards — and takes it back at this point's contents
    (its pieces cover it); the ranks window's buffer is taken at anything and returned at its eight pieces, which tile
    it; the counts window's buffer is handed back untouched except at the last point, where its one piece covers it; the
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2]
  have hN := lt_64 t
  by_cases h0 : t.val % 64 = 0
  · -- the first point
    have h1 : ¬t.val % 64 = 63 := by omega
    have hz : t.val = 0 := by omega
    have hc0 : cond_first (grid0.coords t) := (hcond_first t).mpr h0
    have hc1 : ¬cond_last (grid0.coords t) := fun h => h1 ((hcond_last t).mp h)
    rw [Dat.leavesExact_idle (dats m 0 c) 3 t (idleAt_3 t hc1) (noFlush_3 t hc1)]
    rw [outsAt_A m c t h0 h1]
    unfold atA out_A_2 sout_A; (try dsimp only)
    rw [PhiS_castSucc m c t, PhiS_zero m c _ _ hz, PhiA_eq]
    iintro ⟨⟨HS, Hg⟩, Ho, ⟨%d0, H0⟩, ⟨%d1, H1⟩, ⟨%d2, H2⟩, ⟨%d3, H3⟩⟩
    iapply ((kernelRun_A c (grid0.coords t) _ _ _ _ _ _ _ _ _ _ hc0 hc1 (iblk m c 0 t) (iblk m c 1 t)).2.2.2 _ Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, H3, ⟨%es, HS⟩⟩
    isplitl [HS Hg]
    · isplitl [HS]
      · unfold owns; iexists _; isplitr
        swap; · iexact HS
        ipureintro; exact View.read_writes_of_cover _ _ _ _ _ (scover_A c _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_A_2 c _ _ _ _ _ _ _ _ _ _ _ _ _ _ _)
    iexists _; iexact H3
  · have hz : t.val ≠ 0 := fun e => h0 (by rw [e])
    have hc0 : ¬cond_first (grid0.coords t) := fun h => h0 ((hcond_first t).mp h)
    by_cases h1 : t.val % 64 = 63
    · -- the last point
      have hc1 : cond_last (grid0.coords t) := (hcond_last t).mpr h1
      rw [leaves_3_last m c t hc1]
      rw [outsAt_C m c t h0 h1]
      unfold atC out_C_2 out_C_3 sout_C; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_C c (grid0.coords t) _ _ _ _ _ _ _ _ _ _ hc0 hc1 (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (scover_C c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_C_2 c _ _ _ _ _ _ _ _ _ _ _ _ _ _ _ _)
      unfold owns; iexists _; isplitr
      swap; · iexact H3
      ipureintro; exact View.read_writes_of_cover _ _ _ _ _ (cover_C_3 c _ _ _ _ _ _ _ _ _ _ _ _ _ _ _ _)
    · -- an interior point
      have hc1 : ¬cond_last (grid0.coords t) := fun h => h1 ((hcond_last t).mp h)
      rw [Dat.leavesExact_idle (dats m 0 c) 3 t (idleAt_3 t hc1) (noFlush_3 t hc1)]
      rw [outsAt_B m c t h0 h1]
      unfold atB out_B_2 sout_B; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((kernelRun_B c (grid0.coords t) _ _ _ _ _ _ _ _ _ _ hc0 hc1 (iblk m c 0 t) (iblk m c 1 t) _).2.2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (scover_B c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_B_2 c _ _ _ _ _ _ _ _ _ _ _ _ _ _ _ _)
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the carried count vector's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the host operations after the region leave it. -/
theorem run_main : θ_run defs (onTc (τ := τ) (main (F := F))) (s₀ m ρ) (Pipeline.FramePost cfgs (dats m) 0 (Pipeline.afterTail₀ cfgs (dats m) 0 (V₀ m) tailOpss)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V₀ m) (opss := tailOpss) (hsub := tail_sub) (hfresh := tail_fresh) (hkeep := tail_keep)
    (hmain := hmain m Variants.none) (hA := A_eq m) (hin := hin m) (hout := hout m)

/-- THE FRAME: the frame claim's statement at any `F` — @main runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

/-- info: 'Cert.KernelIdeal.Hand.frame' depends on axioms: [propext, Classical.choice, Quot.sound] -/
#guard_msgs in #print axioms frame

end Cert.KernelIdeal.Hand

end
-- ==== Proof.Ref.Ops.lean ====
/- The reference program's operations as a table. @main is printed in 5 consecutive windows; window k's
   operations, in order, are the list opsPk (70 + 99 + 67 + 90 + 84 operations; 410 in all). An outlined function's
   operations stand at its call site over that call's record of buffers, its parameters replaced by the call's
   operands at the parameters' types; a function called from an outlined function stands likewise over the
   inner record. ops is the five lists in order. -/
import proofs.«408099_j23811298689264_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: its 70 operations, in order. -/
abbrev opsP0 : List (HloOp τ sig (Elt F)) :=
  [ StableHlo.nullary main_c (constantI S_ 32 4294967295#32),
    StableHlo.nullary main_c_0 (constantI S_ 32 0#32),
    StableHlo.unary main_c_0 main_v0 (broadcastInDim S65536 ![] bcast_S_S65536 : (⟨S_, .i32⟩ : BufTy).Contents (Elt F) → (⟨S65536, .i32⟩ : BufTy).Contents (Elt F)),
    StableHlo.binary main_arg0 main_v0 main_v1 (cmpi .slt : (⟨S65536, .i32⟩ : BufTy).Contents (Elt F) → (⟨S65536, .i32⟩ : BufTy).Contents (Elt F) → (⟨S65536, .i1⟩ : BufTy).Contents (Elt F)),
    StableHlo.nullary main_c_1 (constantI S_ 32 512#32),
    StableHlo.TRef.unary (.of main_c_1 : StableHlo.TRef sig ⟨S_, .i32⟩) main_call0.v0 id,
    StableHlo.TRef.unary main_call0.v0 main_call0.v1 (broadcastInDim S65536 ![] bcast_S_S65536),
    StableHlo.TRef.ternary (.of main_v1 : StableHlo.TRef sig ⟨S65536, .i1⟩) main_call0.v1 (.of main_arg0 : StableHlo.TRef sig ⟨S65536, .i32⟩) main_call0.v2 select,
    StableHlo.nullary main_c_2 (constantI S_ 32 0#32),
    StableHlo.unary main_c_2 main_v3 (broadcastInDim S513 ![] bcast_S_S513 : (⟨S_, .i32⟩ : BufTy).Contents (Elt F) → (⟨S513, .i32⟩ : BufTy).Contents (Elt F)),
    StableHlo.nullary main_c_3 (constantI S_ 32 0#32),
    StableHlo.unary main_c_3 main_v4 (broadcastInDim S65536 ![] bcast_S_S65536 : (⟨S_, .i32⟩ : BufTy).Contents (Elt F) → (⟨S65536, .i32⟩ : BufTy).Contents (Elt F)),
    StableHlo.binary main_v2 main_v4 main_v5 (cmpi .slt : (⟨S65536, .i32⟩ : BufTy).Contents (Elt F) → (⟨S65536, .i32⟩ : BufTy).Contents (Elt F) → (⟨S65536, .i1⟩ : BufTy).Contents (Elt F)),
    StableHlo.nullary main_c_4 (constantI S_ 32 513#32),
    StableHlo.unary main_c_4 main_v6 (broadcastInDim S65536 ![] bcast_S_S65536 : (⟨S_, .i32⟩ : BufTy).Contents (Elt F) → (⟨S65536, .i32⟩ : BufTy).Contents (Elt F)),
    StableHlo.binary main_v2 main_v6 main_v7 (addi : (⟨S65536, .i32⟩ : BufTy).Contents (Elt F) → (⟨S65536, .i32⟩ : BufTy).Contents (Elt F) → (⟨S65536, .i32⟩ : BufTy).Contents (Elt F)),
    StableHlo.ternary main_v5 main_v7 main_v2 main_v8 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v8 main_v9 (broadcastInDim S65536x1 ![0] bcast_S65536_S65536x1_0 : (⟨S65536, .i32⟩ : BufTy).Contents (Elt F) → (⟨S65536x1, .i32⟩ : BufTy).Contents (Elt F)),
    StableHlo.nullary main_c_5 (constantI S_ 32 1#32),
    StableHlo.unary main_c_5 main_v10 (broadcastInDim S65536 ![] bcast_S_S65536 : (⟨S_, .i32⟩ : BufTy).Contents (Elt F) → (⟨S65536, .i32⟩ : BufTy).Contents (Elt F)),
    StableHlo.ternary main_v3 main_v9 main_v10 main_v11 ((fun x i u => Host.scatter scatter_S513_S65536x1_S65536_n_0_0_1 IntOp.addi x i u) : (⟨S513, .i32⟩ : BufTy).Contents (Elt F) → (⟨S65536x1, .i32⟩ : BufTy).Contents (Elt F) → (⟨S65536, .i32⟩ : BufTy).Contents (Elt F) → (⟨S513, .i32⟩ : BufTy).Contents (Elt F)),
    StableHlo.nullary main_v12 (iotaInDim S513 32 0),
    StableHlo.nullary main_c_6 (constantI S_ 32 0#32),
    StableHlo.unary main_c_6 main_v13 (broadcastInDim S513 ![] bcast_S_S513 : (⟨S_, .i32⟩ : BufTy).Contents (Elt F) → (⟨S513, .i32⟩ : BufTy).Contents (Elt F)),
    StableHlo.binary main_v11 main_v13 main_v14 (cmpi .sgt : (⟨S513, .i32⟩ : BufTy).Contents (Elt F) → (⟨S513, .i32⟩ : BufTy).Contents (Elt F) → (⟨S513, .i1⟩ : BufTy).Contents (Elt F)),
    StableHlo.nullary main_c_7 (constantI S_ 32 1073741824#32),
    StableHlo.TRef.unary (.of main_c_7 : StableHlo.TRef sig ⟨S_, .i32⟩) main_call1.v0 (broadcastInDim S513 ![] bcast_S_S513),
    StableHlo.TRef.ternary (.of main_v14 : StableHlo.TRef sig ⟨S513, .i1⟩) (.of main_v12 : StableHlo.TRef sig ⟨S513, .i32⟩) main_call1.v0 main_call1.v1 select,
    StableHlo.TRef.unary (.of main_v15 : StableHlo.TRef sig ⟨S513, .i32⟩) main_call2.v0 (fun x => Host.sort S513 0 comparator_i32_d0 x),
    StableHlo.unary main_v16 main_v17 ((extractStridedSlice S512 ![0] · slices_S513_S512_0) : (⟨S513, .i32⟩ : BufTy).Contents (Elt F) → (⟨S512, .i32⟩ : BufTy).Contents (Elt F)),
    StableHlo.nullary main_c_8 (constantI S_ 32 1073741824#32),
    StableHlo.unary main_c_8 main_v18 (broadcastInDim S512 ![] bcast_S_S512 : (⟨S_, .i32⟩ : BufTy).Contents (Elt F) → (⟨S512, .i32⟩ : BufTy).Contents (Elt F)),
    StableHlo.binary main_v17 main_v18 main_v19 (cmpi .sge : (⟨S512, .i32⟩ : BufTy).Contents (Elt F) → (⟨S512, .i32⟩ : BufTy).Contents (Elt F) → (⟨S512, .i1⟩ : BufTy).Contents (Elt F)),
    StableHlo.TRef.unary (.of main_c : StableHlo.TRef sig ⟨S_, .i32⟩) main_call3.v0 (broadcastInDim S512 ![] bcast_S_S512),
    StableHlo.TRef.ternary (.of main_v19 : StableHlo.TRef sig ⟨S512, .i1⟩) main_call3.v0 (.of main_v17 : StableHlo.TRef sig ⟨S512, .i32⟩) main_call3.v1 select,
    StableHlo.nullary main_c_9 (constantI S_ 32 0#32),
    StableHlo.unary main_c_9 main_v21 (broadcastInDim S512 ![] bcast_S_S512 : (⟨S_, .i32⟩ : BufTy).Contents (Elt F) → (⟨S512, .i32⟩ : BufTy).Contents (Elt F)),
    StableHlo.binary main_v20 main_v21 main_v22 (cmpi .sge : (⟨S512, .i32⟩ : BufTy).Contents (Elt F) → (⟨S512, .i32⟩ : BufTy).Contents (Elt F) → (⟨S512, .i1⟩ : BufTy).Contents (Elt F)),
    StableHlo.nullary main_c_10 (constantI S_ 32 512#32),
    StableHlo.unary main_c_10 main_v23 (broadcastInDim S512 ![] bcast_S_S512 : (⟨S_, .i32⟩ : BufTy).Contents (Elt F) → (⟨S512, .i32⟩ : BufTy).Contents (Elt F)),
    StableHlo.binary main_v20 main_v23 main_v24 (cmpi .slt : (⟨S512, .i32⟩ : BufTy).Contents (Elt F) → (⟨S512, .i32⟩ : BufTy).Contents (Elt F) → (⟨S512, .i1⟩ : BufTy).Contents (Elt F)),
    StableHlo.binary main_v22 main_v24 main_v25 (andi : (⟨S512, .i1⟩ : BufTy).Contents (Elt F) → (⟨S512, .i1⟩ : BufTy).Contents (Elt F) → (⟨S512, .i1⟩ : BufTy).Contents (Elt F)),
    StableHlo.nullary main_c_11 (constantI S_ 32 0#32),
    StableHlo.TRef.unary (.of main_c_11 : StableHlo.TRef sig ⟨S_, .i32⟩) main_call4.v0 id,
    StableHlo.TRef.unary main_call4.v0 main_call4.v1 (broadcastInDim S512 ![] bcast_S_S512),
    StableHlo.TRef.ternary (.of main_v25 : StableHlo.TRef sig ⟨S512, .i1⟩) (.of main_v20 : StableHlo.TRef sig ⟨S512, .i32⟩) main_call4.v1 main_call4.v2 select,
    StableHlo.nullary main_c_12 (constantI S_ 32 0#32),
    StableHlo.unary main_c_12 main_v27 (broadcastInDim S512 ![] bcast_S_S512 : (⟨S_, .i32⟩ : BufTy).Contents (Elt F) → (⟨S512, .i32⟩ : BufTy).Contents (Elt F)),
    StableHlo.binary main_v26 main_v27 main_v28 (cmpi .slt : (⟨S512, .i32⟩ : BufTy).Contents (Elt F) → (⟨S512, .i32⟩ : BufTy).Contents (Elt F) → (⟨S512, .i1⟩ : BufTy).Contents (Elt F)),
    StableHlo.nullary main_c_13 (constantI S_ 32 513#32),
    StableHlo.unary main_c_13 main_v29 (broadcastInDim S512 ![] bcast_S_S512 : (⟨S_, .i32⟩ : BufTy).Contents (Elt F) → (⟨S512, .i32⟩ : BufTy).Contents (Elt F)),
    StableHlo.binary main_v26 main_v29 main_v30 (addi : (⟨S512, .i32⟩ : BufTy).Contents (Elt F) → (⟨S512, .i32⟩ : BufTy).Contents (Elt F) → (⟨S512, .i32⟩ : BufTy).Contents (Elt F)),
    StableHlo.ternary main_v28 main_v30 main_v26 main_v31 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v31 main_v32 (broadcastInDim S512x1 ![0] bcast_S512_S512x1_0 : (⟨S512, .i32⟩ : BufTy).Contents (Elt F) → (⟨S512x1, .i32⟩ : BufTy).Contents (Elt F)),
    StableHlo.binary main_v11 main_v32 main_v33 ((fun x i => Host.gather gather_S513_S512x1_S512_n_0_n_n_0_1_1 x i) : (⟨S513, .i32⟩ : BufTy).Contents (Elt F) → (⟨S512x1, .i32⟩ : BufTy).Contents (Elt F) → (⟨S512, .i32⟩ : BufTy).Contents (Elt F)),
    StableHlo.nullary main_c_14 (constantI S_ 32 0#32),
    StableHlo.TRef.unary (.of main_c_14 : StableHlo.TRef sig ⟨S_, .i32⟩) main_call5.v0 id,
    StableHlo.TRef.unary main_call5.v0 main_call5.v1 (broadcastInDim S512 ![] bcast_S_S512),
    StableHlo.TRef.ternary (.of main_v25 : StableHlo.TRef sig ⟨S512, .i1⟩) (.of main_v33 : StableHlo.TRef sig ⟨S512, .i32⟩) main_call5.v1 main_call5.v2 select,
    StableHlo.nullary main_c_15 (constantI S_ 32 0#32),
    StableHlo.unary main_c_15 main_v35 (broadcastInDim S512 ![] bcast_S_S512 : (⟨S_, .i32⟩ : BufTy).Contents (Elt F) → (⟨S512, .i32⟩ : BufTy).Contents (Elt F)),
    StableHlo.binary main_arg1 main_v35 main_v36 (cmpi .slt : (⟨S512, .i32⟩ : BufTy).Contents (Elt F) → (⟨S512, .i32⟩ : BufTy).Contents (Elt F) → (⟨S512, .i1⟩ : BufTy).Contents (Elt F)),
    StableHlo.nullary main_c_16 (constantI S_ 32 0#32),
    StableHlo.TRef.unary (.of main_c_16 : StableHlo.TRef sig ⟨S_, .i32⟩) main_call6.v0 id,
    StableHlo.TRef.unary main_call6.v0 main_call6.v1 (broadcastInDim S512 ![] bcast_S_S512),
    StableHlo.TRef.ternary (.of main_v36 : StableHlo.TRef sig ⟨S512, .i1⟩) main_call6.v1 (.of main_arg1 : StableHlo.TRef sig ⟨S512, .i32⟩) main_call6.v2 select,
    StableHlo.unary main_v11 main_v38 ((extractStridedSlice S512 ![0] · slices_S513_S512_0) : (⟨S513, .i32⟩ : BufTy).Contents (Elt F) → (⟨S512, .i32⟩ : BufTy).Contents (Elt F)),
    StableHlo.binary main_v37 main_v38 main_v39 (addi : (⟨S512, .i32⟩ : BufTy).Contents (Elt F) → (⟨S512, .i32⟩ : BufTy).Contents (Elt F) → (⟨S512, .i32⟩ : BufTy).Contents (Elt F)),
    StableHlo.nullary main_c_17 (constantI S_ 32 0#32),
    StableHlo.unary main_c_17 main_v40 (broadcastInDim S512 ![] bcast_S_S512 : (⟨S_, .i32⟩ : BufTy).Contents (Elt F) → (⟨S512, .i32⟩ : BufTy).Contents (Elt F)) ]

/-- Window 1 of @main: its 99 operations, in order. -/
abbrev opsP1 : List (HloOp τ sig (Elt F)) :=
  [ StableHlo.binary main_arg1 main_v40 main_v41 (cmpi .sge : (⟨S512, .i32⟩ : BufTy).Contents (Elt F) → (⟨S512, .i32⟩ : BufTy).Contents (Elt F) → (⟨S512, .i1⟩ : BufTy).Contents (Elt F)),
    StableHlo.TRef.unary (.of main_c : StableHlo.TRef sig ⟨S_, .i32⟩) main_call7.v0 (broadcastInDim S512 ![] bcast_S_S512),
    StableHlo.TRef.ternary (.of main_v41 : StableHlo.TRef sig ⟨S512, .i1⟩) (.of main_v39 : StableHlo.TRef sig ⟨S512, .i32⟩) main_call7.v0 main_call7.v1 select,
    StableHlo.nullary main_c_18 (constantI S_ 32 128#32),
    StableHlo.unary main_c_18 main_v43 (broadcastInDim S512 ![] bcast_S_S512 : (⟨S_, .i32⟩ : BufTy).Contents (Elt F) → (⟨S512, .i32⟩ : BufTy).Contents (Elt F)),
    StableHlo.binary main_v42 main_v43 main_v44 (addi : (⟨S512, .i32⟩ : BufTy).Contents (Elt F) → (⟨S512, .i32⟩ : BufTy).Contents (Elt F) → (⟨S512, .i32⟩ : BufTy).Contents (Elt F)),
    StableHlo.nullary main_c_19 (constantI S_ 32 1#32),
    StableHlo.unary main_c_19 main_v45 (broadcastInDim S512 ![] bcast_S_S512 : (⟨S_, .i32⟩ : BufTy).Contents (Elt F) → (⟨S512, .i32⟩ : BufTy).Contents (Elt F)),
    StableHlo.binary main_v44 main_v45 main_v46 (subi : (⟨S512, .i32⟩ : BufTy).Contents (Elt F) → (⟨S512, .i32⟩ : BufTy).Contents (Elt F) → (⟨S512, .i32⟩ : BufTy).Contents (Elt F)),
    StableHlo.nullary main_c_20 (constantI S_ 32 128#32),
    StableHlo.TRef.unary (.of main_c_20 : StableHlo.TRef sig ⟨S_, .i32⟩) main_call8.v0 id,
    StableHlo.TRef.unary main_call8.v0 main_call8.v1 (broadcastInDim S512 ![] bcast_S_S512),
    StableHlo.TRef.binary (.of main_v46 : StableHlo.TRef sig ⟨S512, .i32⟩) main_call8.v1 main_call8.v2 Host.divsi,
    StableHlo.TRef.unary (.of main_v46 : StableHlo.TRef sig ⟨S512, .i32⟩) main_call8.v3 signi,
    StableHlo.TRef.unary main_call8.v0 main_call8.v4 signi,
    StableHlo.TRef.unary main_call8.v4 main_call8.v5 (broadcastInDim S512 ![] bcast_S_S512),
    StableHlo.TRef.binary main_call8.v3 main_call8.v5 main_call8.v6 (cmpi .ne),
    StableHlo.TRef.unary main_call8.v0 main_call8.v7 (broadcastInDim S512 ![] bcast_S_S512),
    StableHlo.TRef.binary (.of main_v46 : StableHlo.TRef sig ⟨S512, .i32⟩) main_call8.v7 main_call8.v8 Host.remsi,
    StableHlo.TRef.nullary main_call8.c (constantI S_ 32 0#32),
    StableHlo.TRef.unary main_call8.c main_call8.v9 (broadcastInDim S512 ![] bcast_S_S512),
    StableHlo.TRef.binary main_call8.v8 main_call8.v9 main_call8.v10 (cmpi .ne),
    StableHlo.TRef.binary main_call8.v6 main_call8.v10 main_call8.v11 andi,
    StableHlo.TRef.nullary main_call8.c_0 (constantI S_ 32 1#32),
    StableHlo.TRef.unary main_call8.c_0 main_call8.v12 (broadcastInDim S512 ![] bcast_S_S512),
    StableHlo.TRef.binary main_call8.v2 main_call8.v12 main_call8.v13 subi,
    StableHlo.TRef.ternary main_call8.v11 main_call8.v13 main_call8.v2 main_call8.call0.v0 select,
    StableHlo.nullary main_c_21 (constantI S_ 32 128#32),
    StableHlo.unary main_c_21 main_v48 (broadcastInDim S512 ![] bcast_S_S512 : (⟨S_, .i32⟩ : BufTy).Contents (Elt F) → (⟨S512, .i32⟩ : BufTy).Contents (Elt F)),
    StableHlo.binary main_arg1 main_v48 main_v49 (addi : (⟨S512, .i32⟩ : BufTy).Contents (Elt F) → (⟨S512, .i32⟩ : BufTy).Contents (Elt F) → (⟨S512, .i32⟩ : BufTy).Contents (Elt F)),
    StableHlo.nullary main_c_22 (constantI S_ 32 1#32),
    StableHlo.unary main_c_22 main_v50 (broadcastInDim S512 ![] bcast_S_S512 : (⟨S_, .i32⟩ : BufTy).Contents (Elt F) → (⟨S512, .i32⟩ : BufTy).Contents (Elt F)),
    StableHlo.binary main_v49 main_v50 main_v51 (subi : (⟨S512, .i32⟩ : BufTy).Contents (Elt F) → (⟨S512, .i32⟩ : BufTy).Contents (Elt F) → (⟨S512, .i32⟩ : BufTy).Contents (Elt F)),
    StableHlo.nullary main_c_23 (constantI S_ 32 128#32),
    StableHlo.TRef.unary (.of main_c_23 : StableHlo.TRef sig ⟨S_, .i32⟩) main_call9.v0 id,
    StableHlo.TRef.unary main_call9.v0 main_call9.v1 (broadcastInDim S512 ![] bcast_S_S512),
    StableHlo.TRef.binary (.of main_v51 : StableHlo.TRef sig ⟨S512, .i32⟩) main_call9.v1 main_call9.v2 Host.divsi,
    StableHlo.TRef.unary (.of main_v51 : StableHlo.TRef sig ⟨S512, .i32⟩) main_call9.v3 signi,
    StableHlo.TRef.unary main_call9.v0 main_call9.v4 signi,
    StableHlo.TRef.unary main_call9.v4 main_call9.v5 (broadcastInDim S512 ![] bcast_S_S512),
    StableHlo.TRef.binary main_call9.v3 main_call9.v5 main_call9.v6 (cmpi .ne),
    StableHlo.TRef.unary main_call9.v0 main_call9.v7 (broadcastInDim S512 ![] bcast_S_S512),
    StableHlo.TRef.binary (.of main_v51 : StableHlo.TRef sig ⟨S512, .i32⟩) main_call9.v7 main_call9.v8 Host.remsi,
    StableHlo.TRef.nullary main_call9.c (constantI S_ 32 0#32),
    StableHlo.TRef.unary main_call9.c main_call9.v9 (broadcastInDim S512 ![] bcast_S_S512),
    StableHlo.TRef.binary main_call9.v8 main_call9.v9 main_call9.v10 (cmpi .ne),
    StableHlo.TRef.binary main_call9.v6 main_call9.v10 main_call9.v11 andi,
    StableHlo.TRef.nullary main_call9.c_0 (constantI S_ 32 1#32),
    StableHlo.TRef.unary main_call9.c_0 main_call9.v12 (broadcastInDim S512 ![] bcast_S_S512),
    StableHlo.TRef.binary main_call9.v2 main_call9.v12 main_call9.v13 subi,
    StableHlo.TRef.ternary main_call9.v11 main_call9.v13 main_call9.v2 main_call9.call0.v0 select,
    StableHlo.nullary main_c_24 (constantI S_ 32 0#32),
    StableHlo.unary main_c_24 main_v53 (broadcastInDim S512 ![] bcast_S_S512 : (⟨S_, .i32⟩ : BufTy).Contents (Elt F) → (⟨S512, .i32⟩ : BufTy).Contents (Elt F)),
    StableHlo.binary main_v26 main_v53 main_v54 (cmpi .slt : (⟨S512, .i32⟩ : BufTy).Contents (Elt F) → (⟨S512, .i32⟩ : BufTy).Contents (Elt F) → (⟨S512, .i1⟩ : BufTy).Contents (Elt F)),
    StableHlo.nullary main_c_25 (constantI S_ 32 512#32),
    StableHlo.unary main_c_25 main_v55 (broadcastInDim S512 ![] bcast_S_S512 : (⟨S_, .i32⟩ : BufTy).Contents (Elt F) → (⟨S512, .i32⟩ : BufTy).Contents (Elt F)),
    StableHlo.binary main_v26 main_v55 main_v56 (addi : (⟨S512, .i32⟩ : BufTy).Contents (Elt F) → (⟨S512, .i32⟩ : BufTy).Contents (Elt F) → (⟨S512, .i32⟩ : BufTy).Contents (Elt F)),
    StableHlo.ternary main_v54 main_v56 main_v26 main_v57 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v57 main_v58 (broadcastInDim S512x1 ![0] bcast_S512_S512x1_0 : (⟨S512, .i32⟩ : BufTy).Contents (Elt F) → (⟨S512x1, .i32⟩ : BufTy).Contents (Elt F)),
    StableHlo.binary main_v52 main_v58 main_v59 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.nullary main_c_26 (constantI S_ 32 0#32),
    StableHlo.unary main_c_26 main_v60 (broadcastInDim S512 ![] bcast_S_S512 : (⟨S_, .i32⟩ : BufTy).Contents (Elt F) → (⟨S512, .i32⟩ : BufTy).Contents (Elt F)),
    StableHlo.binary main_v26 main_v60 main_v61 (cmpi .slt : (⟨S512, .i32⟩ : BufTy).Contents (Elt F) → (⟨S512, .i32⟩ : BufTy).Contents (Elt F) → (⟨S512, .i1⟩ : BufTy).Contents (Elt F)),
    StableHlo.nullary main_c_27 (constantI S_ 32 512#32),
    StableHlo.unary main_c_27 main_v62 (broadcastInDim S512 ![] bcast_S_S512 : (⟨S_, .i32⟩ : BufTy).Contents (Elt F) → (⟨S512, .i32⟩ : BufTy).Contents (Elt F)),
    StableHlo.binary main_v26 main_v62 main_v63 (addi : (⟨S512, .i32⟩ : BufTy).Contents (Elt F) → (⟨S512, .i32⟩ : BufTy).Contents (Elt F) → (⟨S512, .i32⟩ : BufTy).Contents (Elt F)),
    StableHlo.ternary main_v61 main_v63 main_v26 main_v64 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v64 main_v65 (broadcastInDim S512x1 ![0] bcast_S512_S512x1_0 : (⟨S512, .i32⟩ : BufTy).Contents (Elt F) → (⟨S512x1, .i32⟩ : BufTy).Contents (Elt F)),
    StableHlo.binary main_v47 main_v65 main_v66 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.binary main_v66 main_v59 main_v67 (subi : (⟨S512, .i32⟩ : BufTy).Contents (Elt F) → (⟨S512, .i32⟩ : BufTy).Contents (Elt F) → (⟨S512, .i32⟩ : BufTy).Contents (Elt F)),
    StableHlo.nullary main_c_28 (constantI S_ 32 0#32),
    StableHlo.unary main_c_28 main_v68 (broadcastInDim S512 ![] bcast_S_S512 : (⟨S_, .i32⟩ : BufTy).Contents (Elt F) → (⟨S512, .i32⟩ : BufTy).Contents (Elt F)),
    StableHlo.binary main_v67 main_v68 main_v69 (maxsi : (⟨S512, .i32⟩ : BufTy).Contents (Elt F) → (⟨S512, .i32⟩ : BufTy).Contents (Elt F) → (⟨S512, .i32⟩ : BufTy).Contents (Elt F)),
    StableHlo.nullary main_c_29 (constantI S_ 32 0#32),
    StableHlo.TRef.unary (.of main_c_29 : StableHlo.TRef sig ⟨S_, .i32⟩) main_call10.v0 id,
    StableHlo.TRef.unary main_call10.v0 main_call10.v1 (broadcastInDim S512 ![] bcast_S_S512),
    StableHlo.TRef.ternary (.of main_v25 : StableHlo.TRef sig ⟨S512, .i1⟩) (.of main_v69 : StableHlo.TRef sig ⟨S512, .i32⟩) main_call10.v1 main_call10.v2 select,
    StableHlo.TRef.nullary main_call11.call0.c (constantI S_ 32 0#32),
    StableHlo.TRef.unary main_call11.call0.c main_call11.call0.v0 (broadcastInDim S_ ![] bcast_S_S_),
    StableHlo.TRef.binary (.of main_v70 : StableHlo.TRef sig ⟨S512, .i32⟩) main_call11.call0.v0 main_call11.call0.v1 (fun x v => Host.reduceWindow IntOp.addi ![512] ![1] ![511] ![0] x v reduceWindows_S512_S512_w512s1p511_0 h_S_),
    StableHlo.binary main_v71 main_v70 main_v72 (subi : (⟨S512, .i32⟩ : BufTy).Contents (Elt F) → (⟨S512, .i32⟩ : BufTy).Contents (Elt F) → (⟨S512, .i32⟩ : BufTy).Contents (Elt F)),
    StableHlo.nullary main_v73 (iotaInDim S65536 32 0),
    StableHlo.nullary main_c_30 (constantI S_ 32 0#32),
    StableHlo.unary main_c_30 main_v74 (broadcastInDim S65536 ![] bcast_S_S65536 : (⟨S_, .i32⟩ : BufTy).Contents (Elt F) → (⟨S65536, .i32⟩ : BufTy).Contents (Elt F)),
    StableHlo.binary main_arg3 main_v74 main_v75 (cmpi .eq : (⟨S65536, .i32⟩ : BufTy).Contents (Elt F) → (⟨S65536, .i32⟩ : BufTy).Contents (Elt F) → (⟨S65536, .i1⟩ : BufTy).Contents (Elt F)),
    StableHlo.nullary main_c_31 (constantI S_ 32 65536#32),
    StableHlo.unary main_c_31 main_v76 (broadcastInDim S65536 ![] bcast_S_S65536 : (⟨S_, .i32⟩ : BufTy).Contents (Elt F) → (⟨S65536, .i32⟩ : BufTy).Contents (Elt F)),
    StableHlo.binary main_v76 main_v73 main_v77 (addi : (⟨S65536, .i32⟩ : BufTy).Contents (Elt F) → (⟨S65536, .i32⟩ : BufTy).Contents (Elt F) → (⟨S65536, .i32⟩ : BufTy).Contents (Elt F)),
    StableHlo.TRef.ternary (.of main_v75 : StableHlo.TRef sig ⟨S65536, .i1⟩) (.of main_v73 : StableHlo.TRef sig ⟨S65536, .i32⟩) (.of main_v77 : StableHlo.TRef sig ⟨S65536, .i32⟩) main_call12.v0 select,
    StableHlo.TRef.nullary main_call13.v0 (iotaInDim S65536 32 0),
    StableHlo.TRef.binary (.of main_v78 : StableHlo.TRef sig ⟨S65536, .i32⟩) main_call13.v0 main_call13.v1_0 (fun x y => (Host.sort2 S65536 0 comparator_i32_i32_d0 x y).1),
    StableHlo.TRef.binary (.of main_v78 : StableHlo.TRef sig ⟨S65536, .i32⟩) main_call13.v0 main_call13.v1_1 (fun x y => (Host.sort2 S65536 0 comparator_i32_i32_d0 x y).2),
    StableHlo.nullary main_v80 (iotaInDim S256 32 0),
    StableHlo.unary main_v80 main_v81 (broadcastInDim S1x256 ![1] bcast_S256_S1x256_1 : (⟨S256, .i32⟩ : BufTy).Contents (Elt F) → (⟨S1x256, .i32⟩ : BufTy).Contents (Elt F)),
    StableHlo.unary main_v25 main_v82 (broadcastInDim S512x1 ![0] bcast_S512_S512x1_0 : (⟨S512, .i1⟩ : BufTy).Contents (Elt F) → (⟨S512x1, .i1⟩ : BufTy).Contents (Elt F)),
    StableHlo.unary main_v59 main_v83 (broadcastInDim S512x1 ![0] bcast_S512_S512x1_0 : (⟨S512, .i32⟩ : BufTy).Contents (Elt F) → (⟨S512x1, .i32⟩ : BufTy).Contents (Elt F)),
    StableHlo.unary main_v81 main_v84 (broadcastInDim S512x256 ![0, 1] bcast_S1x256_S512x256_0_1 : (⟨S1x256, .i32⟩ : BufTy).Contents (Elt F) → (⟨S512x256, .i32⟩ : BufTy).Contents (Elt F)),
    StableHlo.unary main_v83 main_v85 (broadcastInDim S512x256 ![0, 1] bcast_S512x1_S512x256_0_1 : (⟨S512x1, .i32⟩ : BufTy).Contents (Elt F) → (⟨S512x256, .i32⟩ : BufTy).Contents (Elt F)),
    StableHlo.binary main_v84 main_v85 main_v86 (cmpi .sge : (⟨S512x256, .i32⟩ : BufTy).Contents (Elt F) → (⟨S512x256, .i32⟩ : BufTy).Contents (Elt F) → (⟨S512x256, .i1⟩ : BufTy).Contents (Elt F)) ]

/-- Window 2 of @main: its 67 operations, in order. -/
abbrev opsP2 : List (HloOp τ sig (Elt F)) :=
  [ StableHlo.unary main_v82 main_v87 (broadcastInDim S512x256 ![0, 1] bcast_S512x1_S512x256_0_1 : (⟨S512x1, .i1⟩ : BufTy).Contents (Elt F) → (⟨S512x256, .i1⟩ : BufTy).Contents (Elt F)),
    StableHlo.binary main_v87 main_v86 main_v88 (andi : (⟨S512x256, .i1⟩ : BufTy).Contents (Elt F) → (⟨S512x256, .i1⟩ : BufTy).Contents (Elt F) → (⟨S512x256, .i1⟩ : BufTy).Contents (Elt F)),
    StableHlo.unary main_v66 main_v89 (broadcastInDim S512x1 ![0] bcast_S512_S512x1_0 : (⟨S512, .i32⟩ : BufTy).Contents (Elt F) → (⟨S512x1, .i32⟩ : BufTy).Contents (Elt F)),
    StableHlo.unary main_v81 main_v90 (broadcastInDim S512x256 ![0, 1] bcast_S1x256_S512x256_0_1 : (⟨S1x256, .i32⟩ : BufTy).Contents (Elt F) → (⟨S512x256, .i32⟩ : BufTy).Contents (Elt F)),
    StableHlo.unary main_v89 main_v91 (broadcastInDim S512x256 ![0, 1] bcast_S512x1_S512x256_0_1 : (⟨S512x1, .i32⟩ : BufTy).Contents (Elt F) → (⟨S512x256, .i32⟩ : BufTy).Contents (Elt F)),
    StableHlo.binary main_v90 main_v91 main_v92 (cmpi .slt : (⟨S512x256, .i32⟩ : BufTy).Contents (Elt F) → (⟨S512x256, .i32⟩ : BufTy).Contents (Elt F) → (⟨S512x256, .i1⟩ : BufTy).Contents (Elt F)),
    StableHlo.binary main_v88 main_v92 main_v93 (andi : (⟨S512x256, .i1⟩ : BufTy).Contents (Elt F) → (⟨S512x256, .i1⟩ : BufTy).Contents (Elt F) → (⟨S512x256, .i1⟩ : BufTy).Contents (Elt F)),
    StableHlo.unary main_v72 main_v94 (broadcastInDim S512x1 ![0] bcast_S512_S512x1_0 : (⟨S512, .i32⟩ : BufTy).Contents (Elt F) → (⟨S512x1, .i32⟩ : BufTy).Contents (Elt F)),
    StableHlo.unary main_v94 main_v95 (broadcastInDim S512x256 ![0, 1] bcast_S512x1_S512x256_0_1 : (⟨S512x1, .i32⟩ : BufTy).Contents (Elt F) → (⟨S512x256, .i32⟩ : BufTy).Contents (Elt F)),
    StableHlo.unary main_v81 main_v96 (broadcastInDim S512x256 ![0, 1] bcast_S1x256_S512x256_0_1 : (⟨S1x256, .i32⟩ : BufTy).Contents (Elt F) → (⟨S512x256, .i32⟩ : BufTy).Contents (Elt F)),
    StableHlo.binary main_v95 main_v96 main_v97 (addi : (⟨S512x256, .i32⟩ : BufTy).Contents (Elt F) → (⟨S512x256, .i32⟩ : BufTy).Contents (Elt F) → (⟨S512x256, .i32⟩ : BufTy).Contents (Elt F)),
    StableHlo.unary main_v59 main_v98 (broadcastInDim S512x1 ![0] bcast_S512_S512x1_0 : (⟨S512, .i32⟩ : BufTy).Contents (Elt F) → (⟨S512x1, .i32⟩ : BufTy).Contents (Elt F)),
    StableHlo.unary main_v98 main_v99 (broadcastInDim S512x256 ![0, 1] bcast_S512x1_S512x256_0_1 : (⟨S512x1, .i32⟩ : BufTy).Contents (Elt F) → (⟨S512x256, .i32⟩ : BufTy).Contents (Elt F)),
    StableHlo.binary main_v97 main_v99 main_v100 (subi : (⟨S512x256, .i32⟩ : BufTy).Contents (Elt F) → (⟨S512x256, .i32⟩ : BufTy).Contents (Elt F) → (⟨S512x256, .i32⟩ : BufTy).Contents (Elt F)),
    StableHlo.nullary main_c_32 (constantI S_ 32 0#32),
    StableHlo.TRef.unary (.of main_c_32 : StableHlo.TRef sig ⟨S_, .i32⟩) main_call14.v0 id,
    StableHlo.TRef.unary main_call14.v0 main_call14.v1 (broadcastInDim S512x256 ![] bcast_S_S512x256),
    StableHlo.TRef.ternary (.of main_v93 : StableHlo.TRef sig ⟨S512x256, .i1⟩) (.of main_v100 : StableHlo.TRef sig ⟨S512x256, .i32⟩) main_call14.v1 main_call14.v2 select,
    StableHlo.nullary main_c_33 (constantI S_ 32 0#32),
    StableHlo.unary main_c_33 main_v102 (broadcastInDim S512x256 ![] bcast_S_S512x256 : (⟨S_, .i32⟩ : BufTy).Contents (Elt F) → (⟨S512x256, .i32⟩ : BufTy).Contents (Elt F)),
    StableHlo.binary main_v101 main_v102 main_v103 (cmpi .slt : (⟨S512x256, .i32⟩ : BufTy).Contents (Elt F) → (⟨S512x256, .i32⟩ : BufTy).Contents (Elt F) → (⟨S512x256, .i1⟩ : BufTy).Contents (Elt F)),
    StableHlo.nullary main_c_34 (constantI S_ 32 65536#32),
    StableHlo.unary main_c_34 main_v104 (broadcastInDim S512x256 ![] bcast_S_S512x256 : (⟨S_, .i32⟩ : BufTy).Contents (Elt F) → (⟨S512x256, .i32⟩ : BufTy).Contents (Elt F)),
    StableHlo.binary main_v101 main_v104 main_v105 (addi : (⟨S512x256, .i32⟩ : BufTy).Contents (Elt F) → (⟨S512x256, .i32⟩ : BufTy).Contents (Elt F) → (⟨S512x256, .i32⟩ : BufTy).Contents (Elt F)),
    StableHlo.ternary main_v103 main_v105 main_v101 main_v106 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v106 main_v107 (broadcastInDim S512x256x1 ![0, 1] bcast_S512x256_S512x256x1_0_1 : (⟨S512x256, .i32⟩ : BufTy).Contents (Elt F) → (⟨S512x256x1, .i32⟩ : BufTy).Contents (Elt F)),
    StableHlo.binary main_v79 main_v107 main_v108 ((fun x i => Host.gather gather_S65536_S512x256x1_S512x256_n_0_n_n_0_2_1 x i) : (⟨S65536, .i32⟩ : BufTy).Contents (Elt F) → (⟨S512x256x1, .i32⟩ : BufTy).Contents (Elt F) → (⟨S512x256, .i32⟩ : BufTy).Contents (Elt F)),
    StableHlo.unary main_v26 main_v109 (broadcastInDim S512x1 ![0] bcast_S512_S512x1_0 : (⟨S512, .i32⟩ : BufTy).Contents (Elt F) → (⟨S512x1, .i32⟩ : BufTy).Contents (Elt F)),
    StableHlo.nullary main_c_35 (constantI S_ 32 512#32),
    StableHlo.TRef.unary (.of main_c_35 : StableHlo.TRef sig ⟨S_, .i32⟩) main_call15.v0 id,
    StableHlo.TRef.unary (.of main_v109 : StableHlo.TRef sig ⟨S512x1, .i32⟩) main_call15.v1 (broadcastInDim S512x256 ![0, 1] bcast_S512x1_S512x256_0_1),
    StableHlo.TRef.unary main_call15.v0 main_call15.v2 (broadcastInDim S512x256 ![] bcast_S_S512x256),
    StableHlo.TRef.ternary (.of main_v93 : StableHlo.TRef sig ⟨S512x256, .i1⟩) main_call15.v1 main_call15.v2 main_call15.v3 select,
    StableHlo.unary main_v81 main_v111 (broadcastInDim S512x256 ![0, 1] bcast_S1x256_S512x256_0_1 : (⟨S1x256, .i32⟩ : BufTy).Contents (Elt F) → (⟨S512x256, .i32⟩ : BufTy).Contents (Elt F)),
    StableHlo.nullary main_c_36 (constantI S_ 32 0#32),
    StableHlo.unary main_c_36 main_v112 (broadcastInDim S512x256 ![] bcast_S_S512x256 : (⟨S_, .i32⟩ : BufTy).Contents (Elt F) → (⟨S512x256, .i32⟩ : BufTy).Contents (Elt F)),
    StableHlo.binary main_v110 main_v112 main_v113 (cmpi .slt : (⟨S512x256, .i32⟩ : BufTy).Contents (Elt F) → (⟨S512x256, .i32⟩ : BufTy).Contents (Elt F) → (⟨S512x256, .i1⟩ : BufTy).Contents (Elt F)),
    StableHlo.nullary main_c_37 (constantI S_ 32 512#32),
    StableHlo.unary main_c_37 main_v114 (broadcastInDim S512x256 ![] bcast_S_S512x256 : (⟨S_, .i32⟩ : BufTy).Contents (Elt F) → (⟨S512x256, .i32⟩ : BufTy).Contents (Elt F)),
    StableHlo.binary main_v110 main_v114 main_v115 (addi : (⟨S512x256, .i32⟩ : BufTy).Contents (Elt F) → (⟨S512x256, .i32⟩ : BufTy).Contents (Elt F) → (⟨S512x256, .i32⟩ : BufTy).Contents (Elt F)),
    StableHlo.ternary main_v113 main_v115 main_v110 main_v116 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.nullary main_c_38 (constantI S_ 32 0#32),
    StableHlo.unary main_c_38 main_v117 (broadcastInDim S512x256 ![] bcast_S_S512x256 : (⟨S_, .i32⟩ : BufTy).Contents (Elt F) → (⟨S512x256, .i32⟩ : BufTy).Contents (Elt F)),
    StableHlo.binary main_v111 main_v117 main_v118 (cmpi .slt : (⟨S512x256, .i32⟩ : BufTy).Contents (Elt F) → (⟨S512x256, .i32⟩ : BufTy).Contents (Elt F) → (⟨S512x256, .i1⟩ : BufTy).Contents (Elt F)),
    StableHlo.nullary main_c_39 (constantI S_ 32 256#32),
    StableHlo.unary main_c_39 main_v119 (broadcastInDim S512x256 ![] bcast_S_S512x256 : (⟨S_, .i32⟩ : BufTy).Contents (Elt F) → (⟨S512x256, .i32⟩ : BufTy).Contents (Elt F)),
    StableHlo.binary main_v111 main_v119 main_v120 (addi : (⟨S512x256, .i32⟩ : BufTy).Contents (Elt F) → (⟨S512x256, .i32⟩ : BufTy).Contents (Elt F) → (⟨S512x256, .i32⟩ : BufTy).Contents (Elt F)),
    StableHlo.ternary main_v118 main_v120 main_v111 main_v121 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v116 main_v122 (broadcastInDim S512x256x1 ![0, 1] bcast_S512x256_S512x256x1_0_1 : (⟨S512x256, .i32⟩ : BufTy).Contents (Elt F) → (⟨S512x256x1, .i32⟩ : BufTy).Contents (Elt F)),
    StableHlo.unary main_v121 main_v123 (broadcastInDim S512x256x1 ![0, 1] bcast_S512x256_S512x256x1_0_1 : (⟨S512x256, .i32⟩ : BufTy).Contents (Elt F) → (⟨S512x256x1, .i32⟩ : BufTy).Contents (Elt F)),
    StableHlo.binary main_v122 main_v123 main_v124 ((fun a b => concatenate S512x256x2 2 [⟨S512x256x1, a⟩, ⟨S512x256x1, b⟩] concatenates_S512x256x1_S512x256x1_S512x256x2_d2) : (⟨S512x256x1, .i32⟩ : BufTy).Contents (Elt F) → (⟨S512x256x1, .i32⟩ : BufTy).Contents (Elt F) → (⟨S512x256x2, .i32⟩ : BufTy).Contents (Elt F)),
    StableHlo.ternary main_arg2 main_v124 main_v108 main_v125 ((fun x i u => Host.scatter scatter_S512x256_S512x256x2_S512x256_n_01_01_2 (fun _ b => b) x i u) : (⟨S512x256, .i32⟩ : BufTy).Contents (Elt F) → (⟨S512x256x2, .i32⟩ : BufTy).Contents (Elt F) → (⟨S512x256, .i32⟩ : BufTy).Contents (Elt F) → (⟨S512x256, .i32⟩ : BufTy).Contents (Elt F)),
    StableHlo.nullary main_c_40 (constantI S_ 32 65536#32),
    StableHlo.TRef.unary (.of main_c_40 : StableHlo.TRef sig ⟨S_, .i32⟩) main_call16.v0 id,
    StableHlo.TRef.unary main_call16.v0 main_call16.v1 (broadcastInDim S512x256 ![] bcast_S_S512x256),
    StableHlo.TRef.ternary (.of main_v93 : StableHlo.TRef sig ⟨S512x256, .i1⟩) (.of main_v108 : StableHlo.TRef sig ⟨S512x256, .i32⟩) main_call16.v1 main_call16.v2 select,
    StableHlo.nullary main_c_41 (constantI S_ 32 0#32),
    StableHlo.unary main_c_41 main_v127 (broadcastInDim S512x256 ![] bcast_S_S512x256 : (⟨S_, .i32⟩ : BufTy).Contents (Elt F) → (⟨S512x256, .i32⟩ : BufTy).Contents (Elt F)),
    StableHlo.binary main_v126 main_v127 main_v128 (cmpi .slt : (⟨S512x256, .i32⟩ : BufTy).Contents (Elt F) → (⟨S512x256, .i32⟩ : BufTy).Contents (Elt F) → (⟨S512x256, .i1⟩ : BufTy).Contents (Elt F)),
    StableHlo.nullary main_c_42 (constantI S_ 32 65536#32),
    StableHlo.unary main_c_42 main_v129 (broadcastInDim S512x256 ![] bcast_S_S512x256 : (⟨S_, .i32⟩ : BufTy).Contents (Elt F) → (⟨S512x256, .i32⟩ : BufTy).Contents (Elt F)),
    StableHlo.binary main_v126 main_v129 main_v130 (addi : (⟨S512x256, .i32⟩ : BufTy).Contents (Elt F) → (⟨S512x256, .i32⟩ : BufTy).Contents (Elt F) → (⟨S512x256, .i32⟩ : BufTy).Contents (Elt F)),
    StableHlo.ternary main_v128 main_v130 main_v126 main_v131 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v131 main_v132 (broadcastInDim S512x256x1 ![0, 1] bcast_S512x256_S512x256x1_0_1 : (⟨S512x256, .i32⟩ : BufTy).Contents (Elt F) → (⟨S512x256x1, .i32⟩ : BufTy).Contents (Elt F)),
    StableHlo.nullary main_c_43 (constantI S_ 32 1#32),
    StableHlo.unary main_c_43 main_v133 (broadcastInDim S512x256 ![] bcast_S_S512x256 : (⟨S_, .i32⟩ : BufTy).Contents (Elt F) → (⟨S512x256, .i32⟩ : BufTy).Contents (Elt F)),
    StableHlo.ternary main_arg3 main_v132 main_v133 main_v134 ((fun x i u => Host.scatter scatter_S65536_S512x256x1_S512x256_n_0_0_2 IntOp.addi x i u) : (⟨S65536, .i32⟩ : BufTy).Contents (Elt F) → (⟨S512x256x1, .i32⟩ : BufTy).Contents (Elt F) → (⟨S512x256, .i32⟩ : BufTy).Contents (Elt F) → (⟨S65536, .i32⟩ : BufTy).Contents (Elt F)) ]

/-- Window 3 of @main: its 90 operations, in order. -/
abbrev opsP3 : List (HloOp τ sig (Elt F)) :=
  [ StableHlo.nullary main_c_44 (constantI S_ 32 0#32),
    StableHlo.unary main_c_44 main_v135 (broadcastInDim S512 ![] bcast_S_S512 : (⟨S_, .i32⟩ : BufTy).Contents (Elt F) → (⟨S512, .i32⟩ : BufTy).Contents (Elt F)),
    StableHlo.binary main_v20 main_v135 main_v136 (cmpi .sge : (⟨S512, .i32⟩ : BufTy).Contents (Elt F) → (⟨S512, .i32⟩ : BufTy).Contents (Elt F) → (⟨S512, .i1⟩ : BufTy).Contents (Elt F)),
    StableHlo.unary main_v136 main_v137 (broadcastInDim S512x1 ![0] bcast_S512_S512x1_0 : (⟨S512, .i1⟩ : BufTy).Contents (Elt F) → (⟨S512x1, .i1⟩ : BufTy).Contents (Elt F)),
    StableHlo.nullary main_c_45 (constantI S_ 32 0#32),
    StableHlo.unary main_c_45 main_v138 (broadcastInDim S512 ![] bcast_S_S512 : (⟨S_, .i32⟩ : BufTy).Contents (Elt F) → (⟨S512, .i32⟩ : BufTy).Contents (Elt F)),
    StableHlo.binary main_v26 main_v138 main_v139 (cmpi .slt : (⟨S512, .i32⟩ : BufTy).Contents (Elt F) → (⟨S512, .i32⟩ : BufTy).Contents (Elt F) → (⟨S512, .i1⟩ : BufTy).Contents (Elt F)),
    StableHlo.nullary main_c_46 (constantI S_ 32 512#32),
    StableHlo.unary main_c_46 main_v140 (broadcastInDim S512 ![] bcast_S_S512 : (⟨S_, .i32⟩ : BufTy).Contents (Elt F) → (⟨S512, .i32⟩ : BufTy).Contents (Elt F)),
    StableHlo.binary main_v26 main_v140 main_v141 (addi : (⟨S512, .i32⟩ : BufTy).Contents (Elt F) → (⟨S512, .i32⟩ : BufTy).Contents (Elt F) → (⟨S512, .i32⟩ : BufTy).Contents (Elt F)),
    StableHlo.ternary main_v139 main_v141 main_v26 main_v142 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v142 main_v143 (broadcastInDim S512x1 ![0] bcast_S512_S512x1_0 : (⟨S512, .i32⟩ : BufTy).Contents (Elt F) → (⟨S512x1, .i32⟩ : BufTy).Contents (Elt F)),
    StableHlo.binary main_v125 main_v143 main_v144 ((fun x i => Host.gather gather_S512x256_S512x1_S512x256_1_0_n_n_0_1_1256 x i) : (⟨S512x256, .i32⟩ : BufTy).Contents (Elt F) → (⟨S512x1, .i32⟩ : BufTy).Contents (Elt F) → (⟨S512x256, .i32⟩ : BufTy).Contents (Elt F)),
    StableHlo.TRef.unary (.of main_v137 : StableHlo.TRef sig ⟨S512x1, .i1⟩) main_call17.v0 (broadcastInDim S512x256 ![0, 1] bcast_S512x1_S512x256_0_1),
    StableHlo.TRef.unary (.of main_c : StableHlo.TRef sig ⟨S_, .i32⟩) main_call17.v1 (broadcastInDim S512x256 ![] bcast_S_S512x256),
    StableHlo.TRef.ternary main_call17.v0 (.of main_v144 : StableHlo.TRef sig ⟨S512x256, .i32⟩) main_call17.v1 main_call17.v2 select,
    StableHlo.nullary main_c_47 (constantI S_ 32 0#32),
    StableHlo.unary main_c_47 main_v146 (broadcastInDim S512 ![] bcast_S_S512 : (⟨S_, .i32⟩ : BufTy).Contents (Elt F) → (⟨S512, .i32⟩ : BufTy).Contents (Elt F)),
    StableHlo.binary main_v26 main_v146 main_v147 (cmpi .slt : (⟨S512, .i32⟩ : BufTy).Contents (Elt F) → (⟨S512, .i32⟩ : BufTy).Contents (Elt F) → (⟨S512, .i1⟩ : BufTy).Contents (Elt F)),
    StableHlo.nullary main_c_48 (constantI S_ 32 512#32),
    StableHlo.unary main_c_48 main_v148 (broadcastInDim S512 ![] bcast_S_S512 : (⟨S_, .i32⟩ : BufTy).Contents (Elt F) → (⟨S512, .i32⟩ : BufTy).Contents (Elt F)),
    StableHlo.binary main_v26 main_v148 main_v149 (addi : (⟨S512, .i32⟩ : BufTy).Contents (Elt F) → (⟨S512, .i32⟩ : BufTy).Contents (Elt F) → (⟨S512, .i32⟩ : BufTy).Contents (Elt F)),
    StableHlo.ternary main_v147 main_v149 main_v26 main_v150 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v150 main_v151 (broadcastInDim S512x1 ![0] bcast_S512_S512x1_0 : (⟨S512, .i32⟩ : BufTy).Contents (Elt F) → (⟨S512x1, .i32⟩ : BufTy).Contents (Elt F)),
    StableHlo.binary main_v42 main_v151 main_v152 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.TRef.unary (.of main_c : StableHlo.TRef sig ⟨S_, .i32⟩) main_call18.v0 (broadcastInDim S512 ![] bcast_S_S512),
    StableHlo.TRef.ternary (.of main_v136 : StableHlo.TRef sig ⟨S512, .i1⟩) (.of main_v152 : StableHlo.TRef sig ⟨S512, .i32⟩) main_call18.v0 main_call18.v1 select,
    StableHlo.unary main_v136 main_v154 ((extui 32 · natLt_1_32) : (⟨S512, .i1⟩ : BufTy).Contents (Elt F) → (⟨S512, .i32⟩ : BufTy).Contents (Elt F)),
    StableHlo.nullary main_c_49 (constantI S_ 32 0#32),
    StableHlo.binary main_v154 main_c_49 main_v155 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    StableHlo.unary main_v2 main_v156 (broadcastInDim S65536x1 ![0] bcast_S65536_S65536x1_0 : (⟨S65536, .i32⟩ : BufTy).Contents (Elt F) → (⟨S65536x1, .i32⟩ : BufTy).Contents (Elt F)),
    StableHlo.nullary main_v157 (iotaInDim S513 32 0),
    StableHlo.unary main_v157 main_v158 (broadcastInDim S1x513 ![1] bcast_S513_S1x513_1 : (⟨S513, .i32⟩ : BufTy).Contents (Elt F) → (⟨S1x513, .i32⟩ : BufTy).Contents (Elt F)),
    StableHlo.unary main_v156 main_v159 (broadcastInDim S65536x513 ![0, 1] bcast_S65536x1_S65536x513_0_1 : (⟨S65536x1, .i32⟩ : BufTy).Contents (Elt F) → (⟨S65536x513, .i32⟩ : BufTy).Contents (Elt F)),
    StableHlo.unary main_v158 main_v160 (broadcastInDim S65536x513 ![0, 1] bcast_S1x513_S65536x513_0_1 : (⟨S1x513, .i32⟩ : BufTy).Contents (Elt F) → (⟨S65536x513, .i32⟩ : BufTy).Contents (Elt F)),
    StableHlo.binary main_v159 main_v160 main_v161 (cmpi .eq : (⟨S65536x513, .i32⟩ : BufTy).Contents (Elt F) → (⟨S65536x513, .i32⟩ : BufTy).Contents (Elt F) → (⟨S65536x513, .i1⟩ : BufTy).Contents (Elt F)),
    StableHlo.unary main_v161 main_v162 ((extui 32 · natLt_1_32) : (⟨S65536x513, .i1⟩ : BufTy).Contents (Elt F) → (⟨S65536x513, .i32⟩ : BufTy).Contents (Elt F)),
    StableHlo.TRef.nullary main_call19.call0.c (constantI S_ 32 0#32),
    StableHlo.TRef.unary main_call19.call0.c main_call19.call0.v0 (broadcastInDim S_ ![] bcast_S_S_),
    StableHlo.TRef.binary (.of main_v162 : StableHlo.TRef sig ⟨S65536x513, .i32⟩) main_call19.call0.v0 main_call19.call0.v1 (fun x v => Host.reduceWindow IntOp.addi ![65536, 1] ![1, 1] ![65535, 0] ![0, 0] x v reduceWindows_S65536x513_S65536x513_w65536s1p65535_0_w1s1p0_0 h_S_),
    StableHlo.unary main_v2 main_v164 (broadcastInDim S65536x1 ![0] bcast_S65536_S65536x1_0 : (⟨S65536, .i32⟩ : BufTy).Contents (Elt F) → (⟨S65536x1, .i32⟩ : BufTy).Contents (Elt F)),
    StableHlo.TRef.nullary main_call20.c (constantI S_ 32 0#32),
    StableHlo.TRef.unary main_call20.c main_call20.v0 (broadcastInDim S65536x1 ![] bcast_S_S65536x1),
    StableHlo.TRef.binary (.of main_v164 : StableHlo.TRef sig ⟨S65536x1, .i32⟩) main_call20.v0 main_call20.v1 (cmpi .slt),
    StableHlo.TRef.nullary main_call20.c_0 (constantI S_ 32 513#32),
    StableHlo.TRef.unary main_call20.c_0 main_call20.v2 (broadcastInDim S65536x1 ![] bcast_S_S65536x1),
    StableHlo.TRef.binary (.of main_v164 : StableHlo.TRef sig ⟨S65536x1, .i32⟩) main_call20.v2 main_call20.v3 addi,
    StableHlo.TRef.ternary main_call20.v1 main_call20.v3 (.of main_v164 : StableHlo.TRef sig ⟨S65536x1, .i32⟩) main_call20.v4 select,
    StableHlo.TRef.reshape main_call20.v4 main_call20.v5 rfl shapeCasts_S65536x1_S65536x1x1,
    StableHlo.TRef.nullary main_call20.c_1 (constantI S1 32 512#32),
    StableHlo.TRef.nullary main_call20.c_2 (constantI S_ 32 0#32),
    StableHlo.TRef.unary main_call20.c_2 main_call20.v6 (broadcastInDim S65536x1x1 ![] bcast_S_S65536x1x1),
    StableHlo.TRef.binary main_call20.v5 main_call20.v6 main_call20.v7 (cmpi .sge),
    StableHlo.TRef.unary main_call20.c_1 main_call20.v8 (broadcastInDim S1x1x1 ![2] bcast_S1_S1x1x1_2),
    StableHlo.TRef.unary main_call20.v8 main_call20.v9 (broadcastInDim S65536x1x1 ![0, 1, 2] bcast_S1x1x1_S65536x1x1_0_1_2),
    StableHlo.TRef.binary main_call20.v5 main_call20.v9 main_call20.v10 (cmpi .sle),
    StableHlo.TRef.binary main_call20.v7 main_call20.v10 main_call20.v11 andi,
    StableHlo.TRef.nullary main_call20.c_3 (constantI S_ 1 1#1),
    StableHlo.TRef.binary main_call20.v11 main_call20.c_3 main_call20.v12 (fun x v => Host.reduce IntOp.andi x v reducesTo_S65536x1x1_S65536x1_d2 h_S_),
    StableHlo.TRef.binary (.of main_v163 : StableHlo.TRef sig ⟨S65536x513, .i32⟩) main_call20.v5 main_call20.v13 (fun x i => Host.gather gather_S65536x513_S65536x1x1_S65536x1_n_1_0_0_1_2_11 x i),
    StableHlo.TRef.nullary main_call20.c_4 (constantI S_ 32 2147483648#32),
    StableHlo.TRef.unary main_call20.c_4 main_call20.v14 (broadcastInDim S65536x1 ![] bcast_S_S65536x1),
    StableHlo.TRef.ternary main_call20.v12 main_call20.v13 main_call20.v14 main_call20.v15 select,
    StableHlo.reshape main_v165 main_v166 rfl shapeCasts_S65536x1_S65536,
    StableHlo.nullary main_c_50 (constantI S_ 32 1#32),
    StableHlo.unary main_c_50 main_v167 (broadcastInDim S65536 ![] bcast_S_S65536 : (⟨S_, .i32⟩ : BufTy).Contents (Elt F) → (⟨S65536, .i32⟩ : BufTy).Contents (Elt F)),
    StableHlo.binary main_v166 main_v167 main_v168 (subi : (⟨S65536, .i32⟩ : BufTy).Contents (Elt F) → (⟨S65536, .i32⟩ : BufTy).Contents (Elt F) → (⟨S65536, .i32⟩ : BufTy).Contents (Elt F)),
    StableHlo.nullary main_c_51 (constantI S_ 32 0#32),
    StableHlo.unary main_c_51 main_v169 (broadcastInDim S512 ![] bcast_S_S512 : (⟨S_, .i32⟩ : BufTy).Contents (Elt F) → (⟨S512, .i32⟩ : BufTy).Contents (Elt F)),
    StableHlo.binary main_arg1 main_v169 main_v170 (cmpi .slt : (⟨S512, .i32⟩ : BufTy).Contents (Elt F) → (⟨S512, .i32⟩ : BufTy).Contents (Elt F) → (⟨S512, .i1⟩ : BufTy).Contents (Elt F)),
    StableHlo.nullary main_c_52 (constantI S_ 32 0#32),
    StableHlo.TRef.unary (.of main_c_52 : StableHlo.TRef sig ⟨S_, .i32⟩) main_call21.v0 id,
    StableHlo.TRef.unary main_call21.v0 main_call21.v1 (broadcastInDim S512 ![] bcast_S_S512),
    StableHlo.TRef.ternary (.of main_v170 : StableHlo.TRef sig ⟨S512, .i1⟩) main_call21.v1 (.of main_arg1 : StableHlo.TRef sig ⟨S512, .i32⟩) main_call21.v2 select,
    StableHlo.nullary main_c_53 (constantI S_ 32 512#32),
    StableHlo.unary main_c_53 main_v172 (broadcastInDim S65536 ![] bcast_S_S65536 : (⟨S_, .i32⟩ : BufTy).Contents (Elt F) → (⟨S65536, .i32⟩ : BufTy).Contents (Elt F)),
    StableHlo.binary main_v2 main_v172 main_v173 (cmpi .slt : (⟨S65536, .i32⟩ : BufTy).Contents (Elt F) → (⟨S65536, .i32⟩ : BufTy).Contents (Elt F) → (⟨S65536, .i1⟩ : BufTy).Contents (Elt F)),
    StableHlo.nullary main_c_54 (constantI S_ 32 0#32),
    StableHlo.TRef.unary (.of main_c_54 : StableHlo.TRef sig ⟨S_, .i32⟩) main_call22.v0 id,
    StableHlo.TRef.unary main_call22.v0 main_call22.v1 (broadcastInDim S65536 ![] bcast_S_S65536),
    StableHlo.TRef.ternary (.of main_v173 : StableHlo.TRef sig ⟨S65536, .i1⟩) (.of main_v2 : StableHlo.TRef sig ⟨S65536, .i32⟩) main_call22.v1 main_call22.v2 select,
    StableHlo.nullary main_c_55 (constantI S_ 32 0#32),
    StableHlo.unary main_c_55 main_v175 (broadcastInDim S65536 ![] bcast_S_S65536 : (⟨S_, .i32⟩ : BufTy).Contents (Elt F) → (⟨S65536, .i32⟩ : BufTy).Contents (Elt F)),
    StableHlo.binary main_v174 main_v175 main_v176 (cmpi .slt : (⟨S65536, .i32⟩ : BufTy).Contents (Elt F) → (⟨S65536, .i32⟩ : BufTy).Contents (Elt F) → (⟨S65536, .i1⟩ : BufTy).Contents (Elt F)),
    StableHlo.nullary main_c_56 (constantI S_ 32 512#32),
    StableHlo.unary main_c_56 main_v177 (broadcastInDim S65536 ![] bcast_S_S65536 : (⟨S_, .i32⟩ : BufTy).Contents (Elt F) → (⟨S65536, .i32⟩ : BufTy).Contents (Elt F)),
    StableHlo.binary main_v174 main_v177 main_v178 (addi : (⟨S65536, .i32⟩ : BufTy).Contents (Elt F) → (⟨S65536, .i32⟩ : BufTy).Contents (Elt F) → (⟨S65536, .i32⟩ : BufTy).Contents (Elt F)),
    StableHlo.ternary main_v176 main_v178 main_v174 main_v179 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v179 main_v180 (broadcastInDim S65536x1 ![0] bcast_S65536_S65536x1_0 : (⟨S65536, .i32⟩ : BufTy).Contents (Elt F) → (⟨S65536x1, .i32⟩ : BufTy).Contents (Elt F)),
    StableHlo.binary main_v171 main_v180 main_v181 ((fun x i => Host.gather gather_S512_S65536x1_S65536_n_0_n_n_0_1_1 x i) : (⟨S512, .i32⟩ : BufTy).Contents (Elt F) → (⟨S65536x1, .i32⟩ : BufTy).Contents (Elt F) → (⟨S65536, .i32⟩ : BufTy).Contents (Elt F)) ]

/-- Window 4 of @main: its 84 operations, in order. -/
abbrev opsP4 : List (HloOp τ sig (Elt F)) :=
  [ StableHlo.binary main_v181 main_v168 main_v182 (addi : (⟨S65536, .i32⟩ : BufTy).Contents (Elt F) → (⟨S65536, .i32⟩ : BufTy).Contents (Elt F) → (⟨S65536, .i32⟩ : BufTy).Contents (Elt F)),
    StableHlo.nullary main_c_57 (constantI S_ 32 128#32),
    StableHlo.TRef.unary (.of main_c_57 : StableHlo.TRef sig ⟨S_, .i32⟩) main_call23.v0 id,
    StableHlo.TRef.unary main_call23.v0 main_call23.v1 (broadcastInDim S65536 ![] bcast_S_S65536),
    StableHlo.TRef.binary (.of main_v182 : StableHlo.TRef sig ⟨S65536, .i32⟩) main_call23.v1 main_call23.v2 Host.divsi,
    StableHlo.TRef.unary (.of main_v182 : StableHlo.TRef sig ⟨S65536, .i32⟩) main_call23.v3 signi,
    StableHlo.TRef.unary main_call23.v0 main_call23.v4 signi,
    StableHlo.TRef.unary main_call23.v4 main_call23.v5 (broadcastInDim S65536 ![] bcast_S_S65536),
    StableHlo.TRef.binary main_call23.v3 main_call23.v5 main_call23.v6 (cmpi .ne),
    StableHlo.TRef.unary main_call23.v0 main_call23.v7 (broadcastInDim S65536 ![] bcast_S_S65536),
    StableHlo.TRef.binary (.of main_v182 : StableHlo.TRef sig ⟨S65536, .i32⟩) main_call23.v7 main_call23.v8 Host.remsi,
    StableHlo.TRef.nullary main_call23.c (constantI S_ 32 0#32),
    StableHlo.TRef.unary main_call23.c main_call23.v9 (broadcastInDim S65536 ![] bcast_S_S65536),
    StableHlo.TRef.binary main_call23.v8 main_call23.v9 main_call23.v10 (cmpi .ne),
    StableHlo.TRef.binary main_call23.v6 main_call23.v10 main_call23.v11 andi,
    StableHlo.TRef.nullary main_call23.c_0 (constantI S_ 32 1#32),
    StableHlo.TRef.unary main_call23.c_0 main_call23.v12 (broadcastInDim S65536 ![] bcast_S_S65536),
    StableHlo.TRef.binary main_call23.v2 main_call23.v12 main_call23.v13 subi,
    StableHlo.TRef.ternary main_call23.v11 main_call23.v13 main_call23.v2 main_call23.call0.v0 select,
    StableHlo.nullary main_c_58 (constantI S_ 32 0#32),
    StableHlo.nullary main_c_59 (constantI S_ 32 255#32),
    StableHlo.TRef.unary (.of main_c_58 : StableHlo.TRef sig ⟨S_, .i32⟩) main_call24.v0 id,
    StableHlo.TRef.unary main_call24.v0 main_call24.v1 (broadcastInDim S65536 ![] bcast_S_S65536),
    StableHlo.TRef.binary main_call24.v1 (.of main_v183 : StableHlo.TRef sig ⟨S65536, .i32⟩) main_call24.v2 maxsi,
    StableHlo.TRef.unary (.of main_c_59 : StableHlo.TRef sig ⟨S_, .i32⟩) main_call24.v3 id,
    StableHlo.TRef.unary main_call24.v3 main_call24.v4 (broadcastInDim S65536 ![] bcast_S_S65536),
    StableHlo.TRef.binary main_call24.v4 main_call24.v2 main_call24.v5 minsi,
    StableHlo.nullary main_c_60 (constantI S_ 32 128#32),
    StableHlo.TRef.unary (.of main_c_60 : StableHlo.TRef sig ⟨S_, .i32⟩) main_call25.v0 id,
    StableHlo.TRef.nullary main_call25.c (constantI S_ 32 0#32),
    StableHlo.TRef.binary main_call25.v0 main_call25.c main_call25.v1 (cmpi .eq),
    StableHlo.TRef.nullary main_call25.c_0 (constantI S_ 32 1#32),
    StableHlo.TRef.ternary main_call25.v1 main_call25.c_0 main_call25.v0 main_call25.call0.v0 select,
    StableHlo.TRef.unary main_call25.call0.v0 main_call25.v3 (broadcastInDim S65536 ![] bcast_S_S65536),
    StableHlo.TRef.binary (.of main_v182 : StableHlo.TRef sig ⟨S65536, .i32⟩) main_call25.v3 main_call25.v4 Host.remsi,
    StableHlo.TRef.nullary main_call25.c_1 (constantI S_ 32 0#32),
    StableHlo.TRef.unary main_call25.c_1 main_call25.v5 (broadcastInDim S65536 ![] bcast_S_S65536),
    StableHlo.TRef.binary main_call25.v4 main_call25.v5 main_call25.v6 (cmpi .ne),
    StableHlo.TRef.nullary main_call25.c_2 (constantI S_ 32 0#32),
    StableHlo.TRef.unary main_call25.c_2 main_call25.v7 (broadcastInDim S65536 ![] bcast_S_S65536),
    StableHlo.TRef.binary main_call25.v4 main_call25.v7 main_call25.v8 (cmpi .slt),
    StableHlo.TRef.nullary main_call25.c_3 (constantI S_ 32 0#32),
    StableHlo.TRef.binary main_call25.call0.v0 main_call25.c_3 main_call25.v9 (cmpi .slt),
    StableHlo.TRef.unary main_call25.v9 main_call25.v10 (broadcastInDim S65536 ![] bcast_S_S65536),
    StableHlo.TRef.binary main_call25.v8 main_call25.v10 main_call25.v11 (cmpi .ne),
    StableHlo.TRef.binary main_call25.v11 main_call25.v6 main_call25.v12 andi,
    StableHlo.TRef.unary main_call25.call0.v0 main_call25.v13 (broadcastInDim S65536 ![] bcast_S_S65536),
    StableHlo.TRef.binary main_call25.v4 main_call25.v13 main_call25.v14 addi,
    StableHlo.TRef.ternary main_call25.v12 main_call25.v14 main_call25.v4 main_call25.v15 select,
    StableHlo.nullary main_c_61 (constantI S_ 32 0#32),
    StableHlo.unary main_c_61 main_v186 (broadcastInDim S65536 ![] bcast_S_S65536 : (⟨S_, .i32⟩ : BufTy).Contents (Elt F) → (⟨S65536, .i32⟩ : BufTy).Contents (Elt F)),
    StableHlo.binary main_v174 main_v186 main_v187 (cmpi .slt : (⟨S65536, .i32⟩ : BufTy).Contents (Elt F) → (⟨S65536, .i32⟩ : BufTy).Contents (Elt F) → (⟨S65536, .i1⟩ : BufTy).Contents (Elt F)),
    StableHlo.nullary main_c_62 (constantI S_ 32 512#32),
    StableHlo.unary main_c_62 main_v188 (broadcastInDim S65536 ![] bcast_S_S65536 : (⟨S_, .i32⟩ : BufTy).Contents (Elt F) → (⟨S65536, .i32⟩ : BufTy).Contents (Elt F)),
    StableHlo.binary main_v174 main_v188 main_v189 (addi : (⟨S65536, .i32⟩ : BufTy).Contents (Elt F) → (⟨S65536, .i32⟩ : BufTy).Contents (Elt F) → (⟨S65536, .i32⟩ : BufTy).Contents (Elt F)),
    StableHlo.ternary main_v187 main_v189 main_v174 main_v190 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_63 (constantI S_ 32 0#32),
    StableHlo.unary main_c_63 main_v191 (broadcastInDim S65536 ![] bcast_S_S65536 : (⟨S_, .i32⟩ : BufTy).Contents (Elt F) → (⟨S65536, .i32⟩ : BufTy).Contents (Elt F)),
    StableHlo.binary main_v184 main_v191 main_v192 (cmpi .slt : (⟨S65536, .i32⟩ : BufTy).Contents (Elt F) → (⟨S65536, .i32⟩ : BufTy).Contents (Elt F) → (⟨S65536, .i1⟩ : BufTy).Contents (Elt F)),
    StableHlo.nullary main_c_64 (constantI S_ 32 256#32),
    StableHlo.unary main_c_64 main_v193 (broadcastInDim S65536 ![] bcast_S_S65536 : (⟨S_, .i32⟩ : BufTy).Contents (Elt F) → (⟨S65536, .i32⟩ : BufTy).Contents (Elt F)),
    StableHlo.binary main_v184 main_v193 main_v194 (addi : (⟨S65536, .i32⟩ : BufTy).Contents (Elt F) → (⟨S65536, .i32⟩ : BufTy).Contents (Elt F) → (⟨S65536, .i32⟩ : BufTy).Contents (Elt F)),
    StableHlo.ternary main_v192 main_v194 main_v184 main_v195 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v190 main_v196 (broadcastInDim S65536x1 ![0] bcast_S65536_S65536x1_0 : (⟨S65536, .i32⟩ : BufTy).Contents (Elt F) → (⟨S65536x1, .i32⟩ : BufTy).Contents (Elt F)),
    StableHlo.unary main_v195 main_v197 (broadcastInDim S65536x1 ![0] bcast_S65536_S65536x1_0 : (⟨S65536, .i32⟩ : BufTy).Contents (Elt F) → (⟨S65536x1, .i32⟩ : BufTy).Contents (Elt F)),
    StableHlo.binary main_v196 main_v197 main_v198 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_v125 main_v198 main_v199 ((fun x i => Host.gather gather_S512x256_S65536x2_S65536_n_01_n_n_01_1_11 x i) : (⟨S512x256, .i32⟩ : BufTy).Contents (Elt F) → (⟨S65536x2, .i32⟩ : BufTy).Contents (Elt F) → (⟨S65536, .i32⟩ : BufTy).Contents (Elt F)),
    StableHlo.nullary main_c_65 (constantI S_ 32 0#32),
    StableHlo.unary main_c_65 main_v200 (broadcastInDim S65536 ![] bcast_S_S65536 : (⟨S_, .i32⟩ : BufTy).Contents (Elt F) → (⟨S65536, .i32⟩ : BufTy).Contents (Elt F)),
    StableHlo.binary main_v199 main_v200 main_v201 (cmpi .slt : (⟨S65536, .i32⟩ : BufTy).Contents (Elt F) → (⟨S65536, .i32⟩ : BufTy).Contents (Elt F) → (⟨S65536, .i1⟩ : BufTy).Contents (Elt F)),
    StableHlo.unary main_v173 main_v202 (noti : (⟨S65536, .i1⟩ : BufTy).Contents (Elt F) → (⟨S65536, .i1⟩ : BufTy).Contents (Elt F)),
    StableHlo.binary main_v201 main_v202 main_v203 (ori : (⟨S65536, .i1⟩ : BufTy).Contents (Elt F) → (⟨S65536, .i1⟩ : BufTy).Contents (Elt F) → (⟨S65536, .i1⟩ : BufTy).Contents (Elt F)),
    StableHlo.nullary main_c_66 (constantI S_ 32 128#32),
    StableHlo.unary main_c_66 main_v204 (broadcastInDim S65536 ![] bcast_S_S65536 : (⟨S_, .i32⟩ : BufTy).Contents (Elt F) → (⟨S65536, .i32⟩ : BufTy).Contents (Elt F)),
    StableHlo.binary main_v199 main_v204 main_v205 (muli : (⟨S65536, .i32⟩ : BufTy).Contents (Elt F) → (⟨S65536, .i32⟩ : BufTy).Contents (Elt F) → (⟨S65536, .i32⟩ : BufTy).Contents (Elt F)),
    StableHlo.binary main_v205 main_v185 main_v206 (addi : (⟨S65536, .i32⟩ : BufTy).Contents (Elt F) → (⟨S65536, .i32⟩ : BufTy).Contents (Elt F) → (⟨S65536, .i32⟩ : BufTy).Contents (Elt F)),
    StableHlo.TRef.unary (.of main_c : StableHlo.TRef sig ⟨S_, .i32⟩) main_call26.v0 (broadcastInDim S65536 ![] bcast_S_S65536),
    StableHlo.TRef.ternary (.of main_v203 : StableHlo.TRef sig ⟨S65536, .i1⟩) main_call26.v0 (.of main_v206 : StableHlo.TRef sig ⟨S65536, .i32⟩) main_call26.v1 select,
    StableHlo.nullary main_c_67 (constantI S_ 32 0#32),
    StableHlo.unary main_c_67 main_v208 (broadcastInDim S1 ![] bcast_S_S1 : (⟨S_, .i32⟩ : BufTy).Contents (Elt F) → (⟨S1, .i32⟩ : BufTy).Contents (Elt F)),
    StableHlo.TRef.nullary main_call27.call0.c (constantI S_ 32 0#32),
    StableHlo.TRef.unary main_call27.call0.c main_call27.call0.v0 (broadcastInDim S_ ![] bcast_S_S_),
    StableHlo.TRef.binary (.of main_v34 : StableHlo.TRef sig ⟨S512, .i32⟩) main_call27.call0.v0 main_call27.call0.v1 (fun x v => Host.reduceWindow IntOp.addi ![512] ![1] ![511] ![0] x v reduceWindows_S512_S512_w512s1p511_0 h_S_),
    StableHlo.binary main_v208 main_v209 main_v210 ((fun a b => concatenate S513 0 [⟨S1, a⟩, ⟨S512, b⟩] concatenates_S1_S512_S513_d0) : (⟨S1, .i32⟩ : BufTy).Contents (Elt F) → (⟨S512, .i32⟩ : BufTy).Contents (Elt F) → (⟨S513, .i32⟩ : BufTy).Contents (Elt F)) ]

/-- @main's operations, in order: the windows' lists one after the other. -/
abbrev ops : List (HloOp τ sig (Elt F)) := opsP0 ++ opsP1 ++ opsP2 ++ opsP3 ++ opsP4

end Cert.ReferenceIdeal.Hand

end
-- ==== Proof.Ref.Run.lean ====
/- The reference program's run. @main is five printed windows run in order; each window, its outlined functions
   opened at their calls, is the straight line of its table of operations (Ops.lean), so @main is the straight line
   of all 410. A straight line on a signature that scopes nothing terminates from any memory with zero counters, and
   leaves every TensorCore buffer at the fold of the operations' results over the launch contents. No operation
   writes an argument buffer: window by window the fold at an argument is the launch contents there, hence the frame. -/
import proofs.«408099_j23811298689264_3_alg».proof.Proof.Ref.Ops
import proofs.«408099_j23811298689264_3_alg».proof.Proof.Gen.Pre_any_inputs
import proofs.«408099_j23811298689264_3_alg».proof.Defs

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## Folds over a line cut in two -/

section General

variable {τ' : Topo} {sig' : RefSig} {Val : EltTy → Type}

/-- The fold over two lines one after the other is the second line's fold over the first's. -/
theorem after_append (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- A buffer both lines keep is kept by the two run in order. -/
theorem kept_append {l₁ l₂ : List (HloOp τ' sig' Val)} {b : DevRef τ' sig'}
    (h₁ : ∀ V : Valuation τ' sig' Val, after l₁ V b = V b) (h₂ : ∀ V : Valuation τ' sig' Val, after l₂ V b = V b)
    (V : Valuation τ' sig' Val) : after (l₁ ++ l₂) V b = V b := by
  rw [after_append, h₂, h₁]

end General

variable {F : FTy → Type} [FloatOps F]

/-! ## Each window is its table's straight line

Both sides are chains of the same steps: a call is its function's body, whose steps are the table's entries at the
call's operands and record, and sequencing on both sides grafts the rest onto the last step; the two chains agree
step by step by computation. -/

set_option maxRecDepth 8192 in
set_option maxHeartbeats 4000000 in
theorem mainP0_eq (c : Dev nD) : main_part0 (F := F) c = seq opsP0 := rfl

set_option maxRecDepth 8192 in
set_option maxHeartbeats 4000000 in
theorem mainP1_eq (c : Dev nD) : main_part1 (F := F) c = seq opsP1 := rfl

set_option maxRecDepth 8192 in
set_option maxHeartbeats 4000000 in
theorem mainP2_eq (c : Dev nD) : main_part2 (F := F) c = seq opsP2 := rfl

set_option maxRecDepth 8192 in
set_option maxHeartbeats 4000000 in
theorem mainP3_eq (c : Dev nD) : main_part3 (F := F) c = seq opsP3 := rfl

set_option maxRecDepth 8192 in
set_option maxHeartbeats 4000000 in
theorem mainP4_eq (c : Dev nD) : main_part4 (F := F) c = seq opsP4 := rfl

/-- @main runs its windows in order, and lines run in order are their concatenation run as one. -/
theorem main_eq (c : Dev nD) : main (F := F) c = seq ops := by
  show main (F := F) c = seq (opsP0 ++ opsP1 ++ opsP2 ++ opsP3 ++ opsP4)
  rw [seq_append, seq_append, seq_append, seq_append,
    ← mainP0_eq c, ← mainP1_eq c, ← mainP2_eq c, ← mainP3_eq c, ← mainP4_eq c]
  simp only [main, bind_assoc]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines what it writes -/

theorem opsP0_sub : (opsP0 (F := F)).Forall fun op => op.bufs ⊆ tcRefs τ sig := by
  simp only [List.Forall, nullary_bufs_sub, unary_bufs_sub, binary_bufs_sub, ternary_bufs_sub, reshape_bufs_sub, and_self]
theorem opsP1_sub : (opsP1 (F := F)).Forall fun op => op.bufs ⊆ tcRefs τ sig := by
  simp only [List.Forall, nullary_bufs_sub, unary_bufs_sub, binary_bufs_sub, ternary_bufs_sub, reshape_bufs_sub, and_self]
theorem opsP2_sub : (opsP2 (F := F)).Forall fun op => op.bufs ⊆ tcRefs τ sig := by
  simp only [List.Forall, nullary_bufs_sub, unary_bufs_sub, binary_bufs_sub, ternary_bufs_sub, reshape_bufs_sub, and_self]
theorem opsP3_sub : (opsP3 (F := F)).Forall fun op => op.bufs ⊆ tcRefs τ sig := by
  simp only [List.Forall, nullary_bufs_sub, unary_bufs_sub, binary_bufs_sub, ternary_bufs_sub, reshape_bufs_sub, and_self]
theorem opsP4_sub : (opsP4 (F := F)).Forall fun op => op.bufs ⊆ tcRefs τ sig := by
  simp only [List.Forall, nullary_bufs_sub, unary_bufs_sub, binary_bufs_sub, ternary_bufs_sub, reshape_bufs_sub, and_self]

theorem ops_sub : (ops (F := F)).Forall fun op => op.bufs ⊆ tcRefs τ sig := by
  show List.Forall (fun op : HloOp τ sig (Elt F) => op.bufs ⊆ tcRefs τ sig) (opsP0 ++ opsP1 ++ opsP2 ++ opsP3 ++ opsP4)
  simp only [List.forall_append]
  exact ⟨⟨⟨⟨opsP0_sub, opsP1_sub⟩, opsP2_sub⟩, opsP3_sub⟩, opsP4_sub⟩

theorem opsP0_fresh : ∀ op ∈ opsP0 (F := F), op.fresh = ∅ := by
  intro _ h; (repeat (cases h with | head => rfl | tail _ h => ?_)); exact nomatch h
theorem opsP1_fresh : ∀ op ∈ opsP1 (F := F), op.fresh = ∅ := by
  intro _ h; (repeat (cases h with | head => rfl | tail _ h => ?_)); exact nomatch h
theorem opsP2_fresh : ∀ op ∈ opsP2 (F := F), op.fresh = ∅ := by
  intro _ h; (repeat (cases h with | head => rfl | tail _ h => ?_)); exact nomatch h
theorem opsP3_fresh : ∀ op ∈ opsP3 (F := F), op.fresh = ∅ := by
  intro _ h; (repeat (cases h with | head => rfl | tail _ h => ?_)); exact nomatch h
theorem opsP4_fresh : ∀ op ∈ opsP4 (F := F), op.fresh = ∅ := by
  intro _ h; (repeat (cases h with | head => rfl | tail _ h => ?_)); exact nomatch h

theorem ops_fresh : ∀ op ∈ ops (F := F), op.fresh = ∅ := by
  intro op h
  have h' : op ∈ opsP0 (F := F) ++ opsP1 ++ opsP2 ++ opsP3 ++ opsP4 := h
  simp only [List.mem_append] at h'
  rcases h' with (((h | h) | h) | h) | h
  · exact opsP0_fresh op h
  · exact opsP1_fresh op h
  · exact opsP2_fresh op h
  · exact opsP3_fresh op h
  · exact opsP4_fresh op h

/-! ## The run -/

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = StableHlo.after (ops (F := F)) (StableHlo.launchContents m d) (Proc.devRef .tc b) :=
  run_seq scopedRefs_eq scopedSems_eq defs main (fun _ => ops) main_eq (fun _ => ops_sub) m ρ (fun _ => ops_fresh)

/-! ## No operation writes an argument

Window by window: at an argument's buffer each operation's result is what was there, its own result buffer being
another reference. -/

theorem keptP0 (V : Valuation τ sig (Elt F)) :
    after (opsP0 (F := F)) V (Proc.devRef .tc main_arg0) = V (Proc.devRef .tc main_arg0)
    ∧ after (opsP0 (F := F)) V (Proc.devRef .tc main_arg1) = V (Proc.devRef .tc main_arg1)
    ∧ after (opsP0 (F := F)) V (Proc.devRef .tc main_arg2) = V (Proc.devRef .tc main_arg2)
    ∧ after (opsP0 (F := F)) V (Proc.devRef .tc main_arg3) = V (Proc.devRef .tc main_arg3) := by
  refine ⟨?_, ?_, ?_, ?_⟩ <;> after_results_simp

theorem keptP1 (V : Valuation τ sig (Elt F)) :
    after (opsP1 (F := F)) V (Proc.devRef .tc main_arg0) = V (Proc.devRef .tc main_arg0)
    ∧ after (opsP1 (F := F)) V (Proc.devRef .tc main_arg1) = V (Proc.devRef .tc main_arg1)
    ∧ after (opsP1 (F := F)) V (Proc.devRef .tc main_arg2) = V (Proc.devRef .tc main_arg2)
    ∧ after (opsP1 (F := F)) V (Proc.devRef .tc main_arg3) = V (Proc.devRef .tc main_arg3) := by
  refine ⟨?_, ?_, ?_, ?_⟩ <;> after_results_simp

theorem keptP2 (V : Valuation τ sig (Elt F)) :
    after (opsP2 (F := F)) V (Proc.devRef .tc main_arg0) = V (Proc.devRef .tc main_arg0)
    ∧ after (opsP2 (F := F)) V (Proc.devRef .tc main_arg1) = V (Proc.devRef .tc main_arg1)
    ∧ after (opsP2 (F := F)) V (Proc.devRef .tc main_arg2) = V (Proc.devRef .tc main_arg2)
    ∧ after (opsP2 (F := F)) V (Proc.devRef .tc main_arg3) = V (Proc.devRef .tc main_arg3) := by
  refine ⟨?_, ?_, ?_, ?_⟩ <;> after_results_simp

theorem keptP3 (V : Valuation τ sig (Elt F)) :
    after (opsP3 (F := F)) V (Proc.devRef .tc main_arg0) = V (Proc.devRef .tc main_arg0)
    ∧ after (opsP3 (F := F)) V (Proc.devRef .tc main_arg1) = V (Proc.devRef .tc main_arg1)
    ∧ after (opsP3 (F := F)) V (Proc.devRef .tc main_arg2) = V (Proc.devRef .tc main_arg2)
    ∧ after (opsP3 (F := F)) V (Proc.devRef .tc main_arg3) = V (Proc.devRef .tc main_arg3) := by
  refine ⟨?_, ?_, ?_, ?_⟩ <;> after_results_simp

theorem keptP4 (V : Valuation τ sig (Elt F)) :
    after (opsP4 (F := F)) V (Proc.devRef .tc main_arg0) = V (Proc.devRef .tc main_arg0)
    ∧ after (opsP4 (F := F)) V (Proc.devRef .tc main_arg1) = V (Proc.devRef .tc main_arg1)
    ∧ after (opsP4 (F := F)) V (Proc.devRef .tc main_arg2) = V (Proc.devRef .tc main_arg2)
    ∧ after (opsP4 (F := F)) V (Proc.devRef .tc main_arg3) = V (Proc.devRef .tc main_arg3) := by
  refine ⟨?_, ?_, ?_, ?_⟩ <;> after_results_simp

theorem kept_arg0 (V : Valuation τ sig (Elt F)) :
    StableHlo.after (ops (F := F)) V (Proc.devRef .tc main_arg0) = V (Proc.devRef .tc main_arg0) :=
  kept_append (kept_append (kept_append (kept_append (fun V => (keptP0 V).1) (fun V => (keptP1 V).1))
    (fun V => (keptP2 V).1)) (fun V => (keptP3 V).1)) (fun V => (keptP4 V).1) V

theorem kept_arg1 (V : Valuation τ sig (Elt F)) :
    StableHlo.after (ops (F := F)) V (Proc.devRef .tc main_arg1) = V (Proc.devRef .tc main_arg1) :=
  kept_append (kept_append (kept_append (kept_append (fun V => (keptP0 V).2.1) (fun V => (keptP1 V).2.1))
    (fun V => (keptP2 V).2.1)) (fun V => (keptP3 V).2.1)) (fun V => (keptP4 V).2.1) V

theorem kept_arg2 (V : Valuation τ sig (Elt F)) :
    StableHlo.after (ops (F := F)) V (Proc.devRef .tc main_arg2) = V (Proc.devRef .tc main_arg2) :=
  kept_append (kept_append (kept_append (kept_append (fun V => (keptP0 V).2.2.1) (fun V => (keptP1 V).2.2.1))
    (fun V => (keptP2 V).2.2.1)) (fun V => (keptP3 V).2.2.1)) (fun V => (keptP4 V).2.2.1) V

theorem kept_arg3 (V : Valuation τ sig (Elt F)) :
    StableHlo.after (ops (F := F)) V (Proc.devRef .tc main_arg3) = V (Proc.devRef .tc main_arg3) :=
  kept_append (kept_append (kept_append (kept_append (fun V => (keptP0 V).2.2.2) (fun V => (keptP1 V).2.2.2))
    (fun V => (keptP2 V).2.2.2)) (fun V => (keptP3 V).2.2.2)) (fun V => (keptP4 V).2.2.2) V

/-! ## The frame -/

/-- The reference runs, and its four argument arrays end as they began. -/
theorem frame : Cert.frame_ReferenceIdeal := fun m g _ =>
  (θ_run _ _ _).mono
    (fun _ h c => ⟨(h c main_arg0).trans (kept_arg0 _), (h c main_arg1).trans (kept_arg1 _),
      (h c main_arg2).trans (kept_arg2 _), (h c main_arg3).trans (kept_arg3 _)⟩)
    (run_all (F := Ideal) m g)

end Cert.ReferenceIdeal.Hand

end
-- ==== Proof.KI.Results.lean ====
/-
  The rank kernel's program run, stated at its result buffers.

  After the region the pipeline's four arrays hold what the library computes from the proof data (`arrsAt`: an input's
  array its contents at the region's entry, an output's those overwritten by what the body left at each write-back), and
  every other unscoped buffer what the host operations after the region compute from there (`VK`). The eight results
  of @main are unscoped and no window's array, so the frame run's post reads each of them at `VK`; the four
  arguments end unchanged.
-/
import proofs.«408099_j23811298689264_3_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents after the region and after @main -/

/-- The pipeline's arrays after the region: what the library computes from the proof data after the last point. -/
abbrev arrsAt (c : Dev nD) : (w : Fin cfg0.W) → Buf (Elt F) (((cfgs 0).spec w).arr.view.loc (c.tc : Thread nD τ)) :=
  fun w => (dats m 0 c).arrAt w (cfgs 0).N

/-- Core `c`'s TensorCore buffer contents after @main: the host operations that follow the region, from the region's
    exit contents — the four arrays at `arrsAt`, every other buffer at the region's entry contents. -/
abbrev VK (c : Dev nD) : Valuation τ sig (Elt F) :=
  StableHlo.after (tailOpss (F := F)).flatten (Pipeline.withArrays (cfgs 0).spec c (V₀ m c) (arrsAt m c))

/-- The frame run's contents after the later host operations are `VK`. -/
theorem afterTail_eq (c : Dev nD) (b : Ref sig .tc) :
    Pipeline.afterTail₀ cfgs (dats m) 0 (V₀ m) tailOpss c b = VK m c (Proc.devRef .tc b) := rfl

/-! ## The inputs' arrays -/

/-- The tokens' array is not written by the region: after it, it holds its entry contents. -/
theorem arrsAt_in0 (c : Dev nD) : arrsAt m c 0 = V m c main_v6 :=
  ((dats m 0 c).arrAt_in 0 rfl _).trans (A_eq m c 0)

/-- The triangular matrix's array is not written by the region: after it, it holds its entry contents. -/
theorem arrsAt_in1 (c : Dev nD) : arrsAt m c 1 = V m c main_v8 :=
  ((dats m 0 c).arrAt_in 1 rfl _).trans (A_eq m c 1)

/-! ## The run at the results -/

/-- The eight results of @main. -/
abbrev results : List (Ref sig .tc) := [main_v144, main_v153, main_v44, main_v164, main_v172, main_v216, main_v174, main_v213]

/-- Each result is an unscoped buffer and no window's array: it bypasses the region. -/
theorem results_rest : ∀ b ∈ results, b ∈ Pipeline.restRefs sig (cfgs 0).spec := by
  intro b hb
  have h : ∀ b ∈ results, b.isScoped = false ∧ ∀ w, ((cfgs 0).spec w).arr.view.ref ≠ b := by decide
  exact Pipeline.mem_restRefs_of b (h b hb).1 (h b hb).2

/-- At the compiled mesh, for any values, from any memory with zero counters: every weakly fair execution of @main on the
    TensorCores terminates, and in every final state each result buffer holds `VK` and the four arguments are unchanged. -/
theorem run_results : θ_run defs (onTc (τ := τ) (main (F := F))) ⟨m, fun _ => 0, ρ⟩ (fun r => ∀ c : Dev nD,
      (∀ b ∈ [main_v144, main_v153, main_v44, main_v164, main_v172, main_v216, main_v174, main_v213],
        r.2.mem ((c.tc : Thread nD τ).loc b) = VK m c (Proc.devRef .tc b))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨fun b hb => ((h c).2 b (results_rest b hb)).trans (afterTail_eq m c b),
     ((h c).2 main_arg0 (Pipeline.mem_restRefs_of main_arg0 (by decide) (by decide))).trans (afterTail_arg m (dats m) c main_arg0 (by simp) (by decide)),
     ((h c).2 main_arg1 (Pipeline.mem_restRefs_of main_arg1 (by decide) (by decide))).trans (afterTail_arg m (dats m) c main_arg1 (by simp) (by decide)),
     ((h c).2 main_arg2 (Pipeline.mem_restRefs_of main_arg2 (by decide) (by decide))).trans (afterTail_arg m (dats m) c main_arg2 (by simp) (by decide)),
     ((h c).2 main_arg3 (Pipeline.mem_restRefs_of main_arg3 (by decide) (by decide))).trans (afterTail_arg m (dats m) c main_arg3 (by simp) (by decide))⟩)
    (run_main m ρ)

/-- info: 'Cert.KernelIdeal.Hand.run_results' depends on axioms: [propext, Classical.choice, Quot.sound] -/
#guard_msgs in #print axioms run_results

end Cert.KernelIdeal.Hand

end
-- ==== Proof.KI.PreRead.lean ====
import proofs.«408099_j23811298689264_3_alg».proof.Proof.KI.Tail
import Idealize.ShloMosaic.PureOps.Ideal
import Idealize.ShloMosaic.Lib.ValueIdx

/-!
  What the buffers hold when the region is entered, from the launch contents: the operations before the region read
  at the buffers the region and the frame use.

  * no operation before the region writes an argument of @main (`V₀_arg0` … `V₀_arg3`);
  * `main_v2` holds the tokens — the first argument with each negative word replaced by 512 (`V₀_tokens`), none
    negative as a signed integer (`tokens_nonneg`);
  * `main_v6`, the first window's array, holds the token row — each token above 512 replaced by 528, the vector read
    as one row (`V₀_tokRow`);
  * `main_v8`, the second window's array, holds the triangle (`V₀_triTerm`): at the ideal values, one where the row is
    at most the column and zero elsewhere (`V₀_tri`). The function that builds it compares `row - 1 ≥ column` in 32-bit
    signed words: for a row and a column below 128, `row - 1` wraps to `-1` at row zero only, and the comparison holds
    exactly when the row is above the column (`sge_pred`).
-/

set_option maxRecDepth 4096

noncomputable section

namespace Cert.KernelIdeal.Hand

open Cert.KernelIdeal Cert.KernelIdeal.Gen Idealize.ShloMosaic Idealize.ShloMosaic.TcCoe Idealize.SL.Sem

/-! ## Words and patterns -/

/-- A word below 128 is itself as a signed integer. -/
theorem toInt_small (q : Nat) (hq : q < 128) : (BitVec.ofNat 32 q).toInt = (q : Int) := by
  rw [BitVec.toInt_eq_toNat_cond, BitVec.toNat_ofNat]
  have e : q % 2 ^ 32 = q := Nat.mod_eq_of_lt (by omega)
  rw [e, if_pos (by omega)]

/-- A word below 128 plus the all-ones word is, as a signed integer, the number minus one. -/
theorem toInt_pred (r : Nat) (hr : r < 128) : (BitVec.ofNat 32 r + 4294967295#32).toInt = (r : Int) - 1 := by
  rw [BitVec.toInt_eq_toNat_cond, BitVec.toNat_add, BitVec.toNat_ofNat, BitVec.toNat_ofNat]
  rcases Nat.eq_zero_or_pos r with h0 | hpos
  · subst h0
    decide
  · have e : (r % 2 ^ 32 + 4294967295 % 2 ^ 32) % 2 ^ 32 = r - 1 := by omega
    rw [e, if_pos (by omega)]
    omega

/-- Row minus one, as a 32-bit signed word, is at least the column exactly when the row is above the column. -/
theorem sge_pred (r q : Fin 128) :
    IntOp.cmpi .sge (IntOp.addi (BitVec.ofNat 32 r.val) 4294967295#32) (BitVec.ofNat 32 q.val)
      = if r.val ≤ q.val then 0#1 else 1#1 := by
  have e : (BitVec.ofNat 32 q.val).sle (IntOp.addi (BitVec.ofNat 32 r.val) 4294967295#32) = decide (¬ r.val ≤ q.val) := by
    unfold IntOp.addi
    rw [BitVec.sle, toInt_small q.val q.isLt, toInt_pred r.val r.isLt]
    apply decide_eq_decide.mpr
    omega
  show BitVec.ofBool ((BitVec.ofNat 32 q.val).sle (IntOp.addi (BitVec.ofNat 32 r.val) 4294967295#32)) = _
  rw [e]
  by_cases h : r.val ≤ q.val
  · rw [if_pos h]; simp [h]
  · rw [if_neg h]; simp [h]

/-- A word kept unless negative, then replaced by 512, is not negative. -/
theorem sel_nonneg (x : BitVec 32) : 0 ≤ (Scalar.select (IntOp.cmpi .slt x 0#32) 512#32 x).toInt := by
  unfold Scalar.select IntOp.cmpi
  by_cases h : x.slt 0#32 = true
  · simp only [h, BitVec.ofBool_true, if_true]
    decide
  · have h' : x.slt 0#32 = false := by simpa using h
    simp only [h', BitVec.ofBool_false]
    rw [if_neg (by decide)]
    have : ¬ x.toInt < (0#32).toInt := by
      intro hlt; exact h (by simp only [BitVec.slt, hlt, decide_true])
    simpa using this

/-- The bf16 pattern of zero denotes 0. -/
theorem ofBits_bf16_zero : Ideal.ofBits .bf16 0x0000#16 = 0 := by
  simp [Ideal.ofBits, Ideal.ieee]

/-- The bf16 pattern `0x3F80` denotes 1. -/
theorem ofBits_bf16_one : Ideal.ofBits .bf16 0x3F80#16 = 1 := by
  simp [Ideal.ofBits, Ideal.ieee, -EReal.coe_mul]; norm_num

variable {F : FTy → Type} [FloatOps F]

/-! ## The values the operations before the region compute -/

/-- The tokens, from the first argument `a0`: each negative word replaced by 512. -/
abbrev tokens (a0 : IVec S65536 32) : IVec S65536 32 :=
  select (cmpi .slt a0 (broadcastInDim S65536 ![] bcast_S_S65536 (constantI S_ 32 0#32)))
    (broadcastInDim S65536 ![] bcast_S_S65536 (id (constantI S_ 32 512#32))) a0

/-- The token row: each token above 512 replaced by 528, the vector then read as one row. -/
abbrev tokRow (a0 : IVec S65536 32) : IVec S1x65536 32 :=
  shapeCast S1x65536
    (select (cmpi .sgt (tokens a0) (broadcastInDim S65536 ![] bcast_S_S65536 (constantI S_ 32 512#32)))
      (broadcastInDim S65536 ![] bcast_S_S65536 (constantI S_ 32 528#32)) (tokens a0))
    shapeCasts_S65536_S1x65536

/-- The triangle: where `row - 1 ≥ column` (32-bit signed) the pattern of zero, elsewhere the pattern of one. -/
abbrev tri : FVec F S128x128 .bf16 :=
  select
    (cmpi .sge (addi (iotaInDim S128x128 32 0) (broadcastInDim S128x128 ![] bcast_S_S128x128 (constantI S_ 32 4294967295#32)))
      (iotaInDim S128x128 32 1))
    (broadcastInDim S128x128 ![] bcast_S_S128x128 (constant (F := F) S_ .bf16 0x0000#16))
    (broadcastInDim S128x128 ![] bcast_S_S128x128 (constant (F := F) S_ .bf16 0x3F80#16))

/-- No token is negative as a signed integer. -/
theorem tokens_nonneg (a0 : IVec S65536 32) (j : S65536.Idx) : 0 ≤ (tokens a0 j).toInt :=
  sel_nonneg (a0 j)

/-! ## The triangle's function, at the plain builders -/

/-- The nine operations of the function that builds the triangle, each at the plain builder over its references. -/
abbrev triuOps : List (HloOp τ sig (Elt F)) :=
  [ StableHlo.nullary main_call2_v0 (iotaInDim S128x128 32 0 : (⟨S128x128, .i32⟩ : BufTy).Contents (Elt F)),
    StableHlo.nullary main_call2_c (constantI S_ 32 4294967295#32 : (⟨S_, .i32⟩ : BufTy).Contents (Elt F)),
    StableHlo.unary main_call2_c main_call2_v1 (broadcastInDim S128x128 ![] bcast_S_S128x128 : (⟨S_, .i32⟩ : BufTy).Contents (Elt F) → (⟨S128x128, .i32⟩ : BufTy).Contents (Elt F)),
    StableHlo.binary main_call2_v0 main_call2_v1 main_call2_v2 (addi : (⟨S128x128, .i32⟩ : BufTy).Contents (Elt F) → (⟨S128x128, .i32⟩ : BufTy).Contents (Elt F) → (⟨S128x128, .i32⟩ : BufTy).Contents (Elt F)),
    StableHlo.nullary main_call2_v3 (iotaInDim S128x128 32 1 : (⟨S128x128, .i32⟩ : BufTy).Contents (Elt F)),
    StableHlo.binary main_call2_v2 main_call2_v3 main_call2_v4 (cmpi .sge : (⟨S128x128, .i32⟩ : BufTy).Contents (Elt F) → (⟨S128x128, .i32⟩ : BufTy).Contents (Elt F) → (⟨S128x128, .i1⟩ : BufTy).Contents (Elt F)),
    StableHlo.nullary main_call2_cst (constant S_ .bf16 0x0000#16 : (⟨S_, .bf16⟩ : BufTy).Contents (Elt F)),
    StableHlo.unary main_call2_cst main_call2_v5 (broadcastInDim S128x128 ![] bcast_S_S128x128 : (⟨S_, .bf16⟩ : BufTy).Contents (Elt F) → (⟨S128x128, .bf16⟩ : BufTy).Contents (Elt F)),
    StableHlo.ternary main_call2_v4 main_call2_v5 main_v7 main_v8 (select : (⟨S128x128, .i1⟩ : BufTy).Contents (Elt F) → (⟨S128x128, .bf16⟩ : BufTy).Contents (Elt F) → (⟨S128x128, .bf16⟩ : BufTy).Contents (Elt F) → (⟨S128x128, .bf16⟩ : BufTy).Contents (Elt F)) ]

/-- The function's operations over typed references are these: each transport along a reference's type is the
    identity, the type being the reference's own. -/
theorem hostOps0_5_eq : (hostOps0_5 : List (HloOp τ sig (Elt F))) = triuOps := rfl

/-- After the function, from any contents `W`: `main_v8` holds the triangle's comparison selecting between the
    pattern of zero and what `main_v7` held. -/
theorem triu_v8 (W : Valuation τ sig (Elt F)) :
    StableHlo.after (triuOps (F := F)) W (Proc.devRef .tc main_v8)
      = select
          (cmpi .sge (addi (iotaInDim S128x128 32 0) (broadcastInDim S128x128 ![] bcast_S_S128x128 (constantI S_ 32 4294967295#32)))
            (iotaInDim S128x128 32 1))
          (broadcastInDim S128x128 ![] bcast_S_S128x128 (constant (F := F) S_ .bf16 0x0000#16)) (W (Proc.devRef .tc main_v7)) := by
  after_results

/-- After the stretch before it, from any contents `W`: `main_v7` holds the pattern of one at every cell. -/
theorem ops4_v7 (W : Valuation τ sig (Elt F)) :
    StableHlo.after (hostOps0_4 (F := F)) W (Proc.devRef .tc main_v7)
      = broadcastInDim S128x128 ![] bcast_S_S128x128 (constant (F := F) S_ .bf16 0x3F80#16) := by
  after_results

/-! ## The buffers at the region's entry -/

section Read

variable (m : (ℓ : Loc nD τ sig) → Buf (Elt F) ℓ) (c : Dev nD)

/-- The contents at the region's entry, stretch after stretch. -/
theorem V₀_split : V₀ m c
    = StableHlo.after hostOps0_5 (StableHlo.after hostOps0_4 (StableHlo.after hostOps0_3 (StableHlo.after hostOps0_2
        (StableHlo.after hostOps0_1 (StableHlo.after hostOps0 (fun b => m (c, b))))))) := by
  dsimp only [V₀, preOpss]
  simp only [List.flatten_cons, List.flatten_nil, List.append_nil, StableHlo.after_append]

/-- No operation before the region writes an argument: each is at its launch contents. -/
theorem V₀_arg0 : V₀ m c (Proc.devRef .tc main_arg0) = m ((c.tc : Thread nD τ).loc main_arg0) := by
  dsimp only [V₀, preOpss]
  simp only [hostOps0, hostOps0_1, hostOps0_2, hostOps0_3, hostOps0_4, hostOps0_5, List.flatten_cons, List.flatten_nil,
    List.append_nil, List.cons_append, List.nil_append]
  after_results
theorem V₀_arg1 : V₀ m c (Proc.devRef .tc main_arg1) = m ((c.tc : Thread nD τ).loc main_arg1) := by
  dsimp only [V₀, preOpss]
  simp only [hostOps0, hostOps0_1, hostOps0_2, hostOps0_3, hostOps0_4, hostOps0_5, List.flatten_cons, List.flatten_nil,
    List.append_nil, List.cons_append, List.nil_append]
  after_results
theorem V₀_arg2 : V₀ m c (Proc.devRef .tc main_arg2) = m ((c.tc : Thread nD τ).loc main_arg2) := by
  dsimp only [V₀, preOpss]
  simp only [hostOps0, hostOps0_1, hostOps0_2, hostOps0_3, hostOps0_4, hostOps0_5, List.flatten_cons, List.flatten_nil,
    List.append_nil, List.cons_append, List.nil_append]
  after_results
theorem V₀_arg3 : V₀ m c (Proc.devRef .tc main_arg3) = m ((c.tc : Thread nD τ).loc main_arg3) := by
  dsimp only [V₀, preOpss]
  simp only [hostOps0, hostOps0_1, hostOps0_2, hostOps0_3, hostOps0_4, hostOps0_5, List.flatten_cons, List.flatten_nil,
    List.append_nil, List.cons_append, List.nil_append]
  after_results

/-- `main_v2` holds the tokens of the first argument. -/
theorem V₀_tokens : V₀ m c (Proc.devRef .tc main_v2) = tokens (m ((c.tc : Thread nD τ).loc main_arg0)) := by
  dsimp only [V₀, preOpss]
  simp only [hostOps0, hostOps0_1, hostOps0_2, hostOps0_3, hostOps0_4, hostOps0_5, List.flatten_cons, List.flatten_nil,
    List.append_nil, List.cons_append, List.nil_append]
  after_results
  rfl

/-- `main_v6`, the first window's array, holds the token row of the first argument. -/
theorem V₀_tokRow : V₀ m c (Proc.devRef .tc main_v6) = tokRow (m ((c.tc : Thread nD τ).loc main_arg0)) := by
  dsimp only [V₀, preOpss]
  simp only [hostOps0, hostOps0_1, hostOps0_2, hostOps0_3, hostOps0_4, hostOps0_5, List.flatten_cons, List.flatten_nil,
    List.append_nil, List.cons_append, List.nil_append]
  after_results
  rfl

/-- `main_v8`, the second window's array, holds the triangle: the last stretch is the triangle's function, and the
    stretch before it left the pattern of one in `main_v7`. -/
theorem V₀_triTerm : V₀ m c (Proc.devRef .tc main_v8) = tri (F := F) := by
  rw [V₀_split, hostOps0_5_eq, triu_v8, ops4_v7]

end Read

/-- At the ideal values the triangle is one where the row is at most the column, zero elsewhere. -/
theorem V₀_tri (m : (ℓ : Loc nD τ sig) → Buf (Elt Ideal) ℓ) (c : Dev nD) (r q : Fin 128) :
    (V₀ (F := Ideal) m c (Proc.devRef .tc main_v8) : S128x128.Idx → EReal) (ValueIdx.ix2 r q)
      = (if r.val ≤ q.val then (1 : EReal) else 0) := by
  rw [V₀_triTerm]
  show Scalar.select (IntOp.cmpi .sge (IntOp.addi (BitVec.ofNat 32 r.val) 4294967295#32) (BitVec.ofNat 32 q.val))
      (Ideal.ofBits .bf16 0x0000#16) (Ideal.ofBits .bf16 0x3F80#16) = _
  rw [sge_pred, ofBits_bf16_zero, ofBits_bf16_one]
  unfold Scalar.select
  by_cases h : r.val ≤ q.val
  · rw [if_pos h, if_pos h, if_neg (by decide)]
  · rw [if_neg h, if_neg h, if_pos (by decide)]

end Cert.KernelIdeal.Hand

end
-- ==== Proof.KI.Pieces.lean ====
/-
  What the pieces the body's runs found ARE, in terms of the body's payloads over the values the point loads.

  A grid point handles a block of 1024 tokens as eight sub-tiles of 128 lanes. Sub-tile q reads its 128 tokens, the
  triangular matrix, and the carried count vector as the point found it; it writes the ranks of its 128 tokens, and
  the counts of its tokens are carried in registers to the next sub-tile. After the eighth sub-tile the carried
  count vector is stored once: the vector the point found plus the block's counts. (At the first point the vector
  the point "found" is the zero vector it has just stored; at the last point the new vector is also copied into the
  counts window.) Here that chain is named value by value, and each found piece list is shown to be it.
-/
import proofs.«408099_j23811298689264_3_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values of one point -/

/-- The zero offsets, however spelt. -/
theorem hz2 : (![0, 0] : Fin 2 → Nat) = fun _ => 0 := funext fun a => by fin_cases a <;> rfl

/-- A run of 128 lanes starting at lane `k` lies in the block of 1024 when `k + 128 ≤ 1024`. -/
theorem lane_inb (k : ℕ) (h : k + 128 ≤ 1024) : ∀ a, (![0, k] : Fin 2 → Nat) a + S1x128.size a ≤ S1x1024.size a := by
  intro a; fin_cases a
  · exact Nat.le_refl 1
  · exact h
/-- The rectangle of the 128 lanes starting at lane `k`. -/
abbrev laneRect (k : ℕ) (h : k + 128 ≤ 1024) : Rect S1x1024 := Rect.unit ![0, k] S1x128.size (lane_inb k h)
/-- The 128 tokens starting at lane `k` of the point's token block. -/
abbrev tok (x0 : Vec F S1x1024 .i32) (k : ℕ) (h : k + 128 ≤ 1024) : Vec F S1x128 .i32 := View.ld x0 (laneRect k h)
/-- The row index of every entry of a 528 × 128 tile. -/
abbrev iotaV : IVec S528x128 32 := iota .tc S528x128 32 [0] iota_S528x128_d0_w32

variable (x0 : Vec F S1x1024 .i32) (x1 : Vec F S128x128 .bf16) (xs : Vec F S528x1 .f32)

/-- The counts carried in registers after sub-tile 0, 1, 2, 4, 5 (the body carries sub-tiles 2–3 and 5–6 as the
    pair of the running counts and the next sub-tile's prefix counts), and the intermediate values the later
    sub-tiles share: the body's payloads, applied as the body applies them. -/
abbrev c1 : FVec F S528x1 .f32 := k0_pay7 (tok x0 0 (by decide)) x1
abbrev c2 : FVec F S528x1 .f32 := k0_pay11 iotaV (c1 x0 x1) (tok x0 128 (by decide)) x1
abbrev o2 : FVec F S528x128 .f32 := k0_pay12 iotaV (tok x0 256 (by decide))
abbrev m2 : FVec F S528x128 .f32 := k0_pay13 iotaV (tok x0 256 (by decide)) x1
abbrev c3 : FVec F S528x1 .f32 := k0_pay15 (c2 x0 x1) (m2 x0 x1)
abbrev m3 : FVec F S528x128 .f32 := k0_pay17 iotaV (tok x0 384 (by decide)) x1
abbrev c5 : FVec F S528x1 .f32 := k0_pay23 iotaV (c3 x0 x1) (m3 x0 x1) (tok x0 512 (by decide)) x1
abbrev o5 : FVec F S528x128 .f32 := k0_pay24 iotaV (tok x0 640 (by decide))
abbrev t5 : FVec F S528x128 .bf16 := k0_pay25 iotaV (tok x0 640 (by decide))
abbrev c6 : FVec F S528x1 .f32 := k0_pay28 (c5 x0 x1) (t5 x0) x1
abbrev m6 : FVec F S528x128 .f32 := k0_pay30 iotaV (tok x0 768 (by decide)) x1
abbrev r6 : FVec F S128 .f32 := k0_pay31 iotaV (c5 x0 x1) (t5 x0) x1 (tok x0 768 (by decide)) x1 xs
/-- The carried count vector the point stores: the vector it found (`xs`) plus the block's counts. -/
abbrev newCarry : FVec F S528x1 .f32 := k0_pay37 iotaV (c6 x0 x1) (m6 x0 x1) (tok x0 896 (by decide)) x1 xs

/-- The ranks each sub-tile stores (`xs`: the carried count vector as the point found it, which every sub-tile loads). -/
abbrev p0 : IVec S1x128 32 := k0_pay6 (tok x0 0 (by decide)) x1 xs
abbrev p1 : IVec S1x128 32 := k0_pay10 iotaV (c1 x0 x1) (tok x0 128 (by decide)) x1 xs
abbrev p2 : IVec S1x128 32 := k0_pay14 (c2 x0 x1) (o2 x0) (m2 x0 x1) xs
abbrev p3 : IVec S1x128 32 := k0_pay18 iotaV (c2 x0 x1) (m2 x0 x1) (tok x0 384 (by decide)) x1 xs
abbrev p4 : IVec S1x128 32 := k0_pay22 iotaV (c3 x0 x1) (m3 x0 x1) (tok x0 512 (by decide)) x1 xs
abbrev p5 : IVec S1x128 32 := k0_pay27 (c5 x0 x1) (o5 x0) (t5 x0) x1 xs
abbrev p6 : IVec S1x128 32 := k0_pay32 (r6 x0 x1 xs) (Scalar.ofBits .f32 0x3F800000#32)
abbrev p7 : IVec S1x128 32 := k0_pay36 iotaV (c6 x0 x1) (m6 x0 x1) (tok x0 896 (by decide)) x1 xs

/-- The eight stores into the ranks block, last first: sub-tile q's ranks on lanes 128 q … 128 q + 127. -/
abbrev rankPieces : List (View.Piece (Elt F) S1x1024 .i32) :=
  [⟨laneRect 896 (by decide), p7 x0 x1 xs⟩, ⟨laneRect 768 (by decide), p6 x0 x1 xs⟩, ⟨laneRect 640 (by decide), p5 x0 x1 xs⟩,
   ⟨laneRect 512 (by decide), p4 x0 x1 xs⟩, ⟨laneRect 384 (by decide), p3 x0 x1 xs⟩, ⟨laneRect 256 (by decide), p2 x0 x1 xs⟩,
   ⟨laneRect 128 (by decide), p1 x0 x1 xs⟩, ⟨laneRect 0 (by decide), p0 x0 x1 xs⟩]

omit x0 x1 xs

/-! ## The first point -/

/-- The ranks buffer's pieces at the first point are the eight sub-tiles' ranks over the zero vector the point has
    just stored (every sub-tile's read of the carried vector is covered by that store). -/
theorem pieces2_A (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) :
    (kernelRun_A c i arg1 harg1 arg2 harg2 arg3 harg3 arg4 harg4 arg5 harg5 hc0 hc1 x0 x1).1 = rankPieces x0 x1 (k0_pay2 (F := F)) := by
  unfold kernelRun_A
  dsimp only
  sl_unfold_words
  simp only [View.readAt_eq_ld, harg1.read_unread, harg2.read_unread, View.ld_unit_zero (S := S128x128) hz2, View.readCov_unit_zero (S := S528x1) _ hz2]

/-- So the ranks window's buffer holds their canonical contents. -/
theorem out_A_2_eq (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) :
    out_A_2 c i arg1 harg1 arg2 harg2 arg3 harg3 arg4 harg4 arg5 harg5 hc0 hc1 x0 x1 = View.canon (rankPieces x0 x1 (k0_pay2 (F := F))) := by
  unfold out_A_2
  rw [View.read_writes_eq_canon _ _ _ (cover_A_2 c i arg1 harg1 arg2 harg2 arg3 harg3 arg4 harg4 arg5 harg5 hc0 hc1 x0 x1), pieces2_A]

/-- The carried count vector after the first point: the zero vector plus the block's counts. -/
theorem sout_A_eq (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : cond_first i) (hc1 : ¬cond_last i)
    (x0 : Vec F S1x1024 .i32) (x1 : Vec F S128x128 .bf16) :
    sout_A c i arg1 harg1 arg2 harg2 arg3 harg3 arg4 harg4 arg5 harg5 hc0 hc1 x0 x1 = k0_pay1 (newCarry x0 x1 (k0_pay2 (F := F))) := by
  unfold sout_A
  rw [View.read_writes_eq_canon _ _ _ (scover_A c i arg1 harg1 arg2 harg2 arg3 harg3 arg4 harg4 arg5 harg5 hc0 hc1 x0 x1)]
  unfold kernelRun_A
  dsimp only
  sl_unfold_words
  rw [View.canon_cons_unit_zero (S := S528x1) hz2]
  simp only [View.readAt_eq_ld, harg1.read_unread, harg2.read_unread, View.ld_unit_zero (S := S128x128) hz2, View.readCov_unit_zero (S := S528x1) _ hz2]

/-! ## An interior point -/

/-- The ranks buffer's pieces at an interior point are the eight sub-tiles' ranks over the carried vector found. -/
theorem pieces2_B (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) :
    (kernelRun_B c i arg1 harg1 arg2 harg2 arg3 harg3 arg4 harg4 arg5 harg5 hc0 hc1 x0 x1 xs).1 = rankPieces x0 x1 xs := by
  unfold kernelRun_B
  dsimp only
  sl_unfold_words
  simp only [View.readAt_eq_ld, harg1.read_unread, harg2.read_unread, harg5.read_unread, View.ld_unit_zero (S := S128x128) hz2, View.ld_unit_zero (S := S528x1) hz2]

/-- So the ranks window's buffer holds their canonical contents. -/
theorem out_B_2_eq (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) :
    out_B_2 c i arg1 harg1 arg2 harg2 arg3 harg3 arg4 harg4 arg5 harg5 hc0 hc1 x0 x1 xs = View.canon (rankPieces x0 x1 xs) := by
  unfold out_B_2
  rw [View.read_writes_eq_canon _ _ _ (cover_B_2 c i arg1 harg1 arg2 harg2 arg3 harg3 arg4 harg4 arg5 harg5 hc0 hc1 x0 x1 xs), pieces2_B]

/-- The carried count vector after an interior point: the vector found plus the block's counts. -/
theorem sout_B_eq (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : ¬cond_last i)
    (x0 : Vec F S1x1024 .i32) (x1 : Vec F S128x128 .bf16) (xs : Vec F S528x1 .f32) :
    sout_B c i arg1 harg1 arg2 harg2 arg3 harg3 arg4 harg4 arg5 harg5 hc0 hc1 x0 x1 xs = k0_pay1 (newCarry x0 x1 xs) := by
  unfold sout_B
  rw [View.read_writes_eq_canon _ _ _ (scover_B c i arg1 harg1 arg2 harg2 arg3 harg3 arg4 harg4 arg5 harg5 hc0 hc1 x0 x1 xs)]
  unfold kernelRun_B
  dsimp only
  sl_unfold_words
  rw [View.canon_unit_zero hz2]
  simp only [View.readAt_eq_ld, harg1.read_unread, harg2.read_unread, harg5.read_unread, View.ld_unit_zero (S := S128x128) hz2, View.ld_unit_zero (S := S528x1) hz2]

/-! ## The last point -/

/-- The ranks buffer's pieces at the last point are the eight sub-tiles' ranks over the carried vector found. -/
theorem pieces2_C (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) :
    (kernelRun_C c i arg1 harg1 arg2 harg2 arg3 harg3 arg4 harg4 arg5 harg5 hc0 hc1 x0 x1 xs).1 = rankPieces x0 x1 xs := by
  unfold kernelRun_C
  dsimp only
  sl_unfold_words
  simp only [View.readAt_eq_ld, harg1.read_unread, harg2.read_unread, harg5.read_unread, View.ld_unit_zero (S := S128x128) hz2, View.ld_unit_zero (S := S528x1) hz2]

/-- So the ranks window's buffer holds their canonical contents. -/
theorem out_C_2_eq (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) :
    out_C_2 c i arg1 harg1 arg2 harg2 arg3 harg3 arg4 harg4 arg5 harg5 hc0 hc1 x0 x1 xs = View.canon (rankPieces x0 x1 xs) := by
  unfold out_C_2
  rw [View.read_writes_eq_canon _ _ _ (cover_C_2 c i arg1 harg1 arg2 harg2 arg3 harg3 arg4 harg4 arg5 harg5 hc0 hc1 x0 x1 xs), pieces2_C]

/-- The carried count vector after the last point: the vector found plus the block's counts. -/
theorem sout_C_eq (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) :
    sout_C c i arg1 harg1 arg2 harg2 arg3 harg3 arg4 harg4 arg5 harg5 hc0 hc1 x0 x1 xs = k0_pay1 (newCarry x0 x1 xs) := by
  unfold sout_C
  rw [View.read_writes_eq_canon _ _ _ (scover_C c i arg1 harg1 arg2 harg2 arg3 harg3 arg4 harg4 arg5 harg5 hc0 hc1 x0 x1 xs)]
  unfold kernelRun_C
  dsimp only
  sl_unfold_words
  rw [View.canon_unit_zero hz2]
  simp only [View.readAt_eq_ld, harg1.read_unread, harg2.read_unread, harg5.read_unread, View.ld_unit_zero (S := S128x128) hz2, View.ld_unit_zero (S := S528x1) hz2]

/-- The counts window's buffer after the last point: the carried count vector just stored, read back. -/
theorem out_C_3_eq (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole) (hc0 : ¬cond_first i) (hc1 : cond_last i)
    (x0 : Vec F S1x1024 .i32) (x1 : Vec F S128x128 .bf16) (xs : Vec F S528x1 .f32) :
    out_C_3 c i arg1 harg1 arg2 harg2 arg3 harg3 arg4 harg4 arg5 harg5 hc0 hc1 x0 x1 xs = k0_pay1 (newCarry x0 x1 xs) := by
  unfold out_C_3
  rw [View.read_writes_eq_canon _ _ _ (cover_C_3 c i arg1 harg1 arg2 harg2 arg3 harg3 arg4 harg4 arg5 harg5 hc0 hc1 x0 x1 xs)]
  unfold kernelRun_C
  dsimp only
  sl_unfold_words
  rw [View.canon_unit_zero hz2]
  simp only [View.readAt_eq_ld, harg1.read_unread, harg2.read_unread, harg5.read_unread, View.ld_unit_zero (S := S128x128) hz2, View.ld_unit_zero (S := S528x1) hz2, View.readCov_unit_zero (S := S528x1) _ hz2]

end Cert.KernelIdeal.Hand

end
-- ==== Proof.Spec.lean ====
/-
  What the kernel's two result arrays hold, as functions of the token row alone.

  The tokens are one row of 65536 words. For an id `s` and a bound `n`, `cntBelow tok s n` counts the positions
  `j < n` whose token is `s`. The rank of position `i` is the number of EARLIER positions that hold the same
  token — the inclusive running count at `i`, less one — when the token is one of the 528 ids the kernel's
  one-hot rows range over, and `-1` (an empty one-hot column summed, less one) otherwise. The count of id
  `s` is the number of all positions holding `s`, as an extended real (the kernel accumulates it in f32).
-/
import Idealize.ShloMosaic.PureOps
import Idealize.ShloMosaic.PureOps.Ideal
import Idealize.ShloMosaic.Lib.ValueIdx

noncomputable section

namespace Cert.Spec

open Idealize.ShloMosaic

abbrev S1x65536 : Shape := ⟨2, ![1, 65536]⟩
abbrev S528x1 : Shape := ⟨2, ![528, 1]⟩

/-- The token at position `j` of the row. -/
def tokAt (tok : IVec S1x65536 32) (j : Fin 65536) : BitVec 32 := tok (ValueIdx.ix2 (0 : Fin 1) j)

/-- How many positions below `n` hold the id `s`. -/
def cntBelow (tok : IVec S1x65536 32) (s : BitVec 32) (n : ℕ) : ℕ :=
  (Finset.univ.filter fun j : Fin 65536 => j.val < n ∧ tokAt tok j = s).card

/-- The rank row: at position `i`, the number of earlier positions with the same token when the token is an
    id below 528, and `-1` otherwise. -/
def rankArr (tok : IVec S1x65536 32) : IVec S1x65536 32 := fun i =>
  if (tok i).toNat < 528 then BitVec.ofNat 32 (cntBelow tok (tok i) (i 1).val) else 0xFFFFFFFF#32

/-- The count column: row `s` holds the number of positions whose token is `s`, as an extended real. -/
def countsArr (tok : IVec S1x65536 32) : FVec Ideal S528x1 .f32 := fun i =>
  ((cntBelow tok (BitVec.ofNat 32 (i 0).val) 65536 : ℕ) : EReal)

end Cert.Spec

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.SubTile.lean ====
/-
  One sub-tile step, read at the extended reals.

  A sub-tile is a row of 128 tokens. Against the 528 ids (row `s` of the id array holds the word of `s`) the
  step forms the indicator array `[token j = id s]`, multiplies it on the right by the upper-triangular array of
  ones (`u r c = 1` when `r ≤ c`), which makes of each row its inclusive running count, adds a column of totals
  carried from before, and reads the rank of lane `j` as the sum down the column `j` of indicator × running total,
  less one, converted to a 32-bit integer. The last column of the running count is the number of positions of the
  sub-tile holding each id.

  Every quantity is a natural number, so no finiteness is asked of anything: `0 * x = 0` and `1 * x = x` hold on
  all the extended reals, and the only subtraction is of `1` from a natural number.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«408099_j23811298689264_3_alg».proof.Proof.LibTileSums

noncomputable section

namespace Cert.SubTile

open Idealize.ShloMosaic Idealize.ShloMosaic.ValueIdx
open scoped BigOperators

abbrev S1x128 : Shape := ⟨2, ![1, 128]⟩
abbrev S128 : Shape := ⟨1, ![128]⟩
abbrev S528x128 : Shape := ⟨2, ![528, 128]⟩
abbrev S128x128 : Shape := ⟨2, ![128, 128]⟩
abbrev S528x1 : Shape := ⟨2, ![528, 1]⟩

/-! ## The counts -/

/-- The token at lane `j` of the sub-tile. -/
def tokAt (x : IVec S1x128 32) (j : Fin 128) : BitVec 32 := x (ix2 (0 : Fin 1) j)

/-- How many lanes below `n` of the sub-tile hold the id `s`. -/
def cnt (x : IVec S1x128 32) (s : BitVec 32) (n : ℕ) : ℕ :=
  (Finset.univ.filter fun j : Fin 128 => j.val < n ∧ tokAt x j = s).card

/-! ## The step's terms, operation by operation -/

/-- The indicator array: row `s`, lane `j` holds `1` when the token at `j` is the id of row `s`, else `0`. -/
def onehot (x : IVec S1x128 32) (ids : IVec S528x128 32)
    (h1 : S1x128.ShapeCasts S128) (h2 : S128.ShapeCasts S1x128) (h3 : S1x128.ShapeCasts S1x128)
    (hb : S1x128.Broadcasts S528x128) (hw : 1 < 32) : FVec Ideal S528x128 .f32 :=
  sitofp .f32 (extui 32 (cmpi .eq
    (broadcastTo S528x128 (shapeCast S1x128 (shapeCast S1x128 (shapeCast S128 x h1) h2) h3) hb) ids) hw)

/-- The running count: the indicator array times the upper-triangular array of ones, from a zero accumulator. -/
def cum (oh : FVec Ideal S528x128 .f32) (u : FVec Ideal S128x128 .bf16) (d : DotDims S528x128 S128x128 S528x128)
    (hbits : FTy.bf16.bits < FTy.f32.bits) (hsc : S128x128.ShapeCasts S128x128) : FVec Ideal S528x128 .f32 :=
  matmul d none (truncf .bf16 oh hbits) (shapeCast S128x128 u hsc) (constant S528x128 .f32 0x00000000#32)

/-- The rank row of the sub-tile: down each column, the sum of indicator × (running count + carried total),
    less one, as a 32-bit integer. -/
def rankPiece (oh cumv : FVec Ideal S528x128 .f32) (tot : FVec Ideal S528x1 .f32)
    (hb : S528x1.Broadcasts S528x128) (hr : S528x128.Reduces [0] S128) (hφ : FKind.Formats .f32)
    (hacc : (0x00000000#32 : BitVec FTy.f32.bits) = FKind.neutral .add .f32 hφ)
    (hsc : S128.ShapeCasts S1x128) : IVec S1x128 32 :=
  shapeCast S1x128 (fptosi 32 (subf
    (multiReduction .add [0] S128 (mulf oh (addf cumv (broadcastTo S528x128 tot hb))) 0x00000000#32 hr hφ hacc)
    (broadcast S128 (Scalar.ofBits (F := Ideal) .f32 0x3F800000#32)))) hsc

/-- The last column of the running count. -/
def lastCol (cumv : FVec Ideal S528x128 .f32) (hs : S528x128.Slices ![0, 127] S528x1) : FVec Ideal S528x1 .f32 :=
  extractStridedSlice S528x1 ![0, 127] cumv hs

/-! ## Words and conversions at the extended reals -/

/-- The comparison bit of two words, widened and converted, is `1` where they are equal and `0` where not. -/
theorem sitofp_extui_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    simp [IntOp.cmpi]
  · have hb : (a == b) = false := by simpa using h
    simp [IntOp.cmpi, hb, h]

/-- The word `0x3F800000` reads as `1`. -/
theorem one_f32 : Ideal.ofBits .f32 0x3F800000#32 = 1 := IdealRules.sign_bit.ideal_onePat .f32

/-- A natural number is its real number, as an extended real. -/
theorem natCast_eq_coe (m : ℕ) : ((m : ℕ) : EReal) = ((m : ℝ) : EReal) := by
  induction m with
  | zero => simp
  | succ m ih => rw [Nat.cast_succ, ih, Nat.cast_succ, EReal.coe_add, EReal.coe_one]

/-- A natural number below `2 ^ 31`, converted to a signed 32-bit integer, is its word. -/
theorem fptosi_natCast (m : ℕ) (hm : m < 2 ^ 31) : Ideal.fptosi 32 ((m : ℕ) : EReal) = BitVec.ofNat 32 m := by
  rw [natCast_eq_coe]
  unfold Ideal.fptosi
  rw [Ideal.toIntClamped_coe, if_pos (Nat.cast_nonneg m), Int.floor_natCast]
  have h1 : min (((2 ^ (32 - 1) : ℕ) : ℤ) - 1) (m : ℤ) = m := by
    apply min_eq_right; norm_num <;> omega
  have h2 : max (-((2 ^ (32 - 1) : ℕ) : ℤ)) (m : ℤ) = m := by
    apply max_eq_right; norm_num <;> omega
  rw [h1, h2]
  exact BitVec.ofInt_natCast _ _

/-- `-1` converted to a signed 32-bit integer is the all-ones word. -/
theorem fptosi_neg_one : Ideal.fptosi 32 (-1 : EReal) = 0xFFFFFFFF#32 := by
  have : (-1 : EReal) = ((-1 : ℝ) : EReal) := by simp
  rw [this]
  unfold Ideal.fptosi
  rw [Ideal.toIntClamped_coe]
  norm_num
  decide

/-- The sum of an indicator over a finite type is the number of points where it holds. -/
theorem sum_indicator {ι : Type*} [Fintype ι] (p : ι → Prop) [DecidablePred p] :
    ∑ i : ι, (if p i then (1 : EReal) else 0) = (((Finset.univ.filter p).card : ℕ) : EReal) := by
  rw [Finset.card_eq_sum_ones, Nat.cast_sum, Finset.sum_filter]
  exact Finset.sum_congr rfl fun i _ => by split <;> simp

/-! ## Layout: a column broadcast along the lanes -/

/-- A `[528, 1]` column broadcast to `[528, 128]` reads, at `(s, j)`, the column at `s`. -/
theorem broadcastTo_col_apply {α : Type} (v : S528x1.Idx → α) (h : S528x1.Broadcasts S528x128) (s : Fin 528) (j : Fin 128) :
    broadcastTo S528x128 v h (ix2 s j) = v (ix2 s (0 : Fin 1)) := by
  refine broadcastTo_apply v h (ix2 s j) (ix2 s (0 : Fin 1)) fun ax => ?_
  match ax with
  | ⟨0, _⟩ => rfl
  | ⟨1, _⟩ => rfl

/-! ## The dot's operand indices -/

section Dot
variable (d : DotDims S528x128 S128x128 S528x128)
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := by rw [d.rank_contr, hlc]; rfl

include hlc in
theorem contr_size : d.contr.size ⟨0, by rw [contr_rank d hlc]; exact Nat.one_pos⟩ = 128 := by
  have hp : 0 < d.lhsContracting.length := by rw [hlc]; exact Nat.one_pos
  rw [d.size_contr 0 hp]
  have : d.lhsContracting[0]'hp = 1 := by simp [hlc]
  rw [this]; rfl

include hlc in
theorem lhs_axis1 (j : S528x128.Idx) (k : d.contr.Idx) :
    (d.lhsIdx j k 1).val = (k ⟨0, by rw [contr_rank d hlc]; exact Nat.one_pos⟩).val :=
  d.lhsIdx_val_of_single hlc j k

include hrc in
theorem rhs_axis0 (j : S528x128.Idx) (k : d.contr.Idx) :
    (d.rhsIdx j k 0).val = (k ⟨0, by rw [d.rank_contr, ← d.length_contracting, hrc]; exact Nat.one_pos⟩).val :=
  d.rhsIdx_val_of_single hrc j k

include hln hlb in
theorem lhs_axis0 (j : S528x128.Idx) (k : d.contr.Idx) : (d.lhsIdx j k 0).val = (j 0).val := by
  have hb : (0 : Fin S528x128.rank) ∉ d.lhsBatch := by rw [hlb]; exact List.not_mem_nil
  have hn : (0 : Fin S528x128.rank) ∈ d.lhsNonContracting := by rw [hln]; exact List.mem_singleton.mpr rfl
  unfold DotDims.lhsIdx
  rw [dif_neg hb, dif_pos hn]
  simp only [Fin.val_cast]
  have key : ∀ (p q : Nat) (hp : p < S528x128.rank) (hq : q < S528x128.rank), p = q → (j ⟨p, hp⟩).val = (j ⟨q, hq⟩).val :=
    fun p q hp hq h => by subst h; rfl
  exact key _ _ _ _ (by simp [hlb, hln])

include hln hlb hrn hrb in
theorem rhs_axis1 (j : S528x128.Idx) (k : d.contr.Idx) : (d.rhsIdx j k 1).val = (j 1).val := by
  have hb : (1 : Fin S128x128.rank) ∉ d.rhsBatch := by rw [hrb]; exact List.not_mem_nil
  have hn : (1 : Fin S128x128.rank) ∈ d.rhsNonContracting := by rw [hrn]; exact List.mem_singleton.mpr rfl
  unfold DotDims.rhsIdx
  rw [dif_neg hb, dif_pos hn]
  simp only [Fin.val_cast]
  have key : ∀ (p q : Nat) (hp : p < S528x128.rank) (hq : q < S528x128.rank), p = q → (j ⟨p, hp⟩).val = (j ⟨q, hq⟩).val :=
    fun p q hp hq h => by subst h; rfl
  exact key _ _ _ _ (by simp [hlb, hln, hrn])

end Dot

/-! ## The indicator array at an index -/

section Step
variable (x : IVec S1x128 32) (ids : IVec S528x128 32)
  (hids : ∀ (s : Fin 528) (j : Fin 128), ids (ix2 s j) = BitVec.ofNat 32 s.val)
  (h1 : S1x128.ShapeCasts S128) (h2 : S128.ShapeCasts S1x128) (h3 : S1x128.ShapeCasts S1x128)
  (hb : S1x128.Broadcasts S528x128) (hw : 1 < 32)

include hids in
/-- The indicator array at `(s, j)`: `1` when the token at lane `j` is the word of `s`, else `0`. -/
theorem onehot_apply (s : Fin 528) (j : Fin 128) :
    onehot x ids h1 h2 h3 hb hw (ix2 s j) = if tokAt x j = BitVec.ofNat 32 s.val then (1 : EReal) else 0 := by
  unfold onehot
  rw [sitofp_apply, extui_apply]
  show FloatOps.sitofp (F := Ideal) .f32 ((IntOp.cmpi .eq (broadcastTo S528x128 _ hb (ix2 s j)) (ids (ix2 s j))).setWidth 32) = _
  rw [broadcastTo_1b_ab_apply, shapeCast_self, shapeCast_a_1a_apply, shapeCast_1a_a_apply, hids]
  exact sitofp_extui_cmpi_eq _ _

/-! ## The running count at an index -/

variable (u : FVec Ideal S128x128 .bf16)
  (hu : ∀ r c : Fin 128, u (ix2 r c) = if r.val ≤ c.val then (1 : EReal) else 0)
  (d : DotDims S528x128 S128x128 S528x128)
  (hlc : d.lhsContracting = [1]) (hrc : d.rhsContracting = [0])
  (hln : d.lhsNonContracting = [0]) (hrn : d.rhsNonContracting = [1])
  (hlb : d.lhsBatch = []) (hrb : d.rhsBatch = [])
  (hbits : FTy.bf16.bits < FTy.f32.bits) (hsc : S128x128.ShapeCasts S128x128)

include hlc hrc hln hrn hlb hrb in
/-- The product at `(s, j)` is the sum over the lanes `k` of the left array at `(s, k)` times the right at `(k, j)`. -/
theorem cum_eq_sum (oh : FVec Ideal S528x128 .f32) (s : Fin 528) (j : Fin 128) :
    cum oh u d hbits hsc (ix2 s j) = ∑ k : Fin 128, oh (ix2 s k) * u (ix2 k j) := by
  unfold cum
  simp only [matmul]
  rw [Ideal.matmul_constant_zero_apply,
    ← Equiv.sum_comp (contrEquiv1 d 128 (contr_rank d hlc) (contr_size d hlc)).symm]
  refine Finset.sum_congr rfl fun k _ => ?_
  rw [truncf_apply, shapeCast_self]
  have hk := contrEquiv1_symm_val d 128 (contr_rank d hlc) (contr_size d hlc) k
  congr 1
  · refine congrArg oh (Shape.idx_ext₂ ?_ ?_)
    · exact lhs_axis0 d hln hlb _ _
    · exact (lhs_axis1 d hlc _ _).trans hk
  · refine congrArg u (Shape.idx_ext₂ ?_ ?_)
    · exact (rhs_axis0 d hrc _ _).trans hk
    · exact rhs_axis1 d hln hrn hlb hrb _ _

include hids hu hlc hrc hln hrn hlb hrb in
/-- The running count at `(s, j)`: the number of lanes up to and including `j` that hold the word of `s`. -/
theorem cum_apply (s : Fin 528) (j : Fin 128) :
    cum (onehot x ids h1 h2 h3 hb hw) u d hbits hsc (ix2 s j)
      = ((cnt x (BitVec.ofNat 32 s.val) (j.val + 1) : ℕ) : EReal) := by
  rw [cum_eq_sum u d hlc hrc hln hrn hlb hrb hbits hsc, cnt, ← sum_indicator]
  refine Finset.sum_congr rfl fun k _ => ?_
  rw [onehot_apply x ids hids h1 h2 h3 hb hw, hu]
  by_cases hk : k.val ≤ j.val
  · have hk' : k.val < j.val + 1 := Nat.lt_succ_of_le hk
    by_cases ht : tokAt x k = BitVec.ofNat 32 s.val
    · rw [if_pos ht, if_pos hk, if_pos ⟨hk', ht⟩, one_mul]
    · have hnot : ¬(k.val < j.val + 1 ∧ tokAt x k = BitVec.ofNat 32 s.val) := fun h => ht h.2
      rw [if_neg ht, if_neg hnot, zero_mul]
  · have hnot : ¬(k.val < j.val + 1 ∧ tokAt x k = BitVec.ofNat 32 s.val) := fun h => hk (Nat.le_of_lt_succ h.1)
    rw [if_neg hk, if_neg hnot, mul_zero]

/-! ## The last column -/

variable (hs : S528x128.Slices ![0, 127] S528x1)

include hids hu hlc hrc hln hrn hlb hrb in
/-- The last column at row `s`: the number of lanes of the sub-tile that hold the word of `s`. -/
theorem lastCol_apply (s : Fin 528) (z : Fin 1) :
    lastCol (cum (onehot x ids h1 h2 h3 hb hw) u d hbits hsc) hs (ix2 s z)
      = ((cnt x (BitVec.ofNat 32 s.val) 128 : ℕ) : EReal) := by
  unfold lastCol
  rw [extractStridedSlice_apply ![0, 127] _ hs (ix2 s z) (ix2 s (⟨127, by decide⟩ : Fin 128)) (fun a => by
    match a with
    | ⟨0, _⟩ => show s.val = 0 + s.val; omega
    | ⟨1, _⟩ => show 127 = 127 + z.val; omega)]
  exact cum_apply x ids hids h1 h2 h3 hb hw u hu d hlc hrc hln hrn hlb hrb hbits hsc s _

/-! ## The rank row -/

variable (tot : FVec Ideal S528x1 .f32) (n : ℕ → ℕ)
  (htot : ∀ s : Fin 528, tot (ix2 s (0 : Fin 1)) = ((n s.val : ℕ) : EReal))
  (hn : ∀ s : Fin 528, n s.val + 128 < 2 ^ 31)
  (hbc : S528x1.Broadcasts S528x128) (hr : S528x128.Reduces [0] S128) (hφ : FKind.Formats .f32)
  (hacc : (0x00000000#32 : BitVec FTy.f32.bits) = FKind.neutral .add .f32 hφ)
  (hsc' : S128.ShapeCasts S1x128)

/-- The count below `j + 1` of the token at `j` itself is one more than the count below `j`. -/
theorem cnt_succ_self (j : Fin 128) : cnt x (tokAt x j) (j.val + 1) = cnt x (tokAt x j) j.val + 1 := by
  unfold cnt
  have hsplit : (Finset.univ.filter fun k : Fin 128 => k.val < j.val + 1 ∧ tokAt x k = tokAt x j)
      = insert j (Finset.univ.filter fun k : Fin 128 => k.val < j.val ∧ tokAt x k = tokAt x j) := by
    ext k
    simp only [Finset.mem_filter, Finset.mem_univ, true_and, Finset.mem_insert]
    constructor
    · rintro ⟨hk, ht⟩
      by_cases hkj : k = j
      · exact Or.inl hkj
      · exact Or.inr ⟨by have : k.val ≠ j.val := fun h => hkj (Fin.ext h); omega, ht⟩
    · rintro (rfl | ⟨hk, ht⟩)
      · exact ⟨Nat.lt_succ_self _, rfl⟩
      · exact ⟨Nat.lt_succ_of_lt hk, ht⟩
  rw [hsplit, Finset.card_insert_of_notMem]
  simp

/-- A count over the sub-tile is at most `128`. -/
theorem cnt_le (s : BitVec 32) (m : ℕ) : cnt x s m ≤ 128 := by
  unfold cnt
  exact (Finset.card_filter_le _ _).trans (by simp)

include hids hu hlc hrc hln hrn hlb hrb htot hn in
/-- The rank at lane `j`: when the token is one of the 528 ids, the total carried in for it plus the number
    of earlier lanes of the sub-tile holding it; otherwise the all-ones word. -/
theorem rankPiece_apply (z : Fin 1) (j : Fin 128) :
    rankPiece (onehot x ids h1 h2 h3 hb hw) (cum (onehot x ids h1 h2 h3 hb hw) u d hbits hsc) tot hbc hr hφ hacc hsc'
        (ix2 z j)
      = if (tokAt x j).toNat < 528 then BitVec.ofNat 32 (n (tokAt x j).toNat + cnt x (tokAt x j) j.val)
        else 0xFFFFFFFF#32 := by
  unfold rankPiece
  rw [shapeCast_a_1a_apply]
  show Ideal.fptosi 32 ((multiReduction (F := Ideal) .add [0] S128 _ 0x00000000#32 hr hφ hacc (ix1 j) : EReal)
    - Ideal.ofBits .f32 0x3F800000#32) = _
  rw [Ideal.multiReduction_add_single, one_f32]
  have hterm : ∀ k : Fin 528,
      (mulf (onehot x ids h1 h2 h3 hb hw)
          (addf (cum (onehot x ids h1 h2 h3 hb hw) u d hbits hsc) (broadcastTo S528x128 tot hbc)))
        (hr.lift (ix1 j) k)
      = (if tokAt x j = BitVec.ofNat 32 k.val then (1 : EReal) else 0)
          * (((cnt x (BitVec.ofNat 32 k.val) (j.val + 1) : ℕ) : EReal) + ((n k.val : ℕ) : EReal)) := by
    intro k
    have hl : hr.lift (ix1 j) k = ix2 k j := Shape.idx_ext₂ rfl rfl
    rw [hl, mulf_apply, addf_apply, onehot_apply x ids hids h1 h2 h3 hb hw,
      cum_apply x ids hids h1 h2 h3 hb hw u hu d hlc hrc hln hrn hlb hrb hbits hsc,
      broadcastTo_col_apply, htot]
  have hsum : (∑ k : Fin (S528x128.size 0),
        (mulf (onehot x ids h1 h2 h3 hb hw)
          (addf (cum (onehot x ids h1 h2 h3 hb hw) u d hbits hsc) (broadcastTo S528x128 tot hbc)))
        (hr.lift (ix1 j) k))
      = if hw' : (tokAt x j).toNat < 528 then
          (((cnt x (BitVec.ofNat 32 (tokAt x j).toNat) (j.val + 1) : ℕ) : EReal) + ((n (tokAt x j).toNat : ℕ) : EReal))
        else 0 := by
    rw [← Cert.LibTileSums.onehot_sum (n := 528) (by norm_num) (tokAt x j)
      (fun k => ((cnt x (BitVec.ofNat 32 k.val) (j.val + 1) : ℕ) : EReal) + ((n k.val : ℕ) : EReal))]
    exact Finset.sum_congr rfl fun k _ => hterm k
  rw [hsum]
  by_cases hw' : (tokAt x j).toNat < 528
  · rw [dif_pos hw', if_pos hw', BitVec.ofNat_toNat, BitVec.setWidth_eq, cnt_succ_self]
    have hcast : (((cnt x (tokAt x j) j.val + 1 : ℕ) : EReal) + ((n (tokAt x j).toNat : ℕ) : EReal)) - 1
        = (((n (tokAt x j).toNat + cnt x (tokAt x j) j.val : ℕ) : ℕ) : EReal) := by
      rw [natCast_eq_coe, natCast_eq_coe, natCast_eq_coe, ← EReal.coe_add, ← EReal.coe_one, ← EReal.coe_sub]
      congr 1
      push_cast
      ring
    rw [hcast]
    refine fptosi_natCast _ ?_
    have hn' : n (tokAt x j).toNat + 128 < 2 ^ 31 := hn ⟨(tokAt x j).toNat, hw'⟩
    have := cnt_le x (tokAt x j) j.val
    omega
  · rw [dif_neg hw', if_neg hw', zero_sub]
    exact fptosi_neg_one

end Step

end Cert.SubTile

end
-- ==== Proof.KI.Chain.lean ====
/-
  One block of 1024 tokens through its eight sub-tiles.

  A block is worked in eight sub-tiles of 128 lanes. Each sub-tile forms its indicator array against the 528 ids,
  its inclusive running count along the lanes (the product with the upper-triangular array of ones), and its rank
  row from the carried count vector plus the per-id totals of the sub-tiles before it; the last column of the
  running count is added to those totals. After the eighth sub-tile the carried vector becomes what it held plus
  the block's totals. The body spells each sub-tile with its own operands; all eight are instances of one chain,
  `sb` (the totals before sub-tile `k`, by recursion on `k`), `rk` (the rank row of sub-tile `k`) and `carryOut`,
  and each spelled term equals its instance by unfolding. At the extended reals the chain's values are natural
  numbers: counts of tokens.
-/
import proofs.«408099_j23811298689264_3_alg».proof.Proof.Gen.KernelIdeal.Skeleton
import proofs.«408099_j23811298689264_3_alg».proof.Proof.Spec
import proofs.«408099_j23811298689264_3_alg».proof.Proof.SubTile
import Idealize.ShloMosaic.Lib.Pipeline.Value
import Idealize.ShloMosaic.Lib.ValueLayout
import Idealize.ShloMosaic.Lib.ValueIdx

set_option maxRecDepth 16384

noncomputable section

namespace Cert.KernelIdeal.HandValue

open Cert.KernelIdeal Cert.KernelIdeal.Gen
open Idealize.ShloMosaic Idealize.ShloMosaic.ValueIdx
open scoped BigOperators

variable {F : FTy → Type} [FloatOps F]

/-- The id array: row `s` holds the word of `s` in every lane. -/
abbrev iota0 : IVec S528x128 32 := iota .tc S528x128 32 [0] iota_S528x128_d0_w32

/-- The indicator array of a sub-tile's 128 tokens against the 528 ids. -/
abbrev oh (t : Vec F S1x128 .i32) : FVec F S528x128 .f32 := k0_pay8 iota0 t
/-- Its inclusive running count along the lanes: the product with the triangular array. -/
abbrev cu (t : Vec F S1x128 .i32) (U : Vec F S128x128 .bf16) : FVec F S528x128 .f32 := k0_pay9 iota0 t U

/-- The per-id totals of the sub-tiles before sub-tile `k`: zero, then each sub-tile's last running-count column added. -/
def sb (ts : ℕ → Vec F S1x128 .i32) (U : Vec F S128x128 .bf16) : ℕ → FVec F S528x1 .f32
  | 0 => k0_pay3
  | k + 1 => k0_pay15 (sb ts U k) (cu (ts k) U)

theorem sb_zero (ts : ℕ → Vec F S1x128 .i32) (U : Vec F S128x128 .bf16) : sb ts U 0 = k0_pay3 := rfl
theorem sb_succ (ts : ℕ → Vec F S1x128 .i32) (U : Vec F S128x128 .bf16) (k : ℕ) : sb ts U (k + 1) = k0_pay15 (sb ts U k) (cu (ts k) U) := rfl

/-- The rank row of sub-tile `k`, from the carried count vector `cr` and the totals of the sub-tiles before it. -/
def rk (ts : ℕ → Vec F S1x128 .i32) (U : Vec F S128x128 .bf16) (cr : Vec F S528x1 .f32) (k : ℕ) : IVec S1x128 32 :=
  k0_pay14 (sb ts U k) (oh (ts k)) (cu (ts k) U) cr

/-- The carried count vector after the block: what it held plus the block's per-id totals. -/
def carryOut (ts : ℕ → Vec F S1x128 .i32) (U : Vec F S128x128 .bf16) (cr : Vec F S528x1 .f32) : FVec F S528x1 .f32 :=
  addf cr (sb ts U 8)

/-- Sub-tile `k` of a block of 1024 tokens lies inside the block. -/
theorem inb_sub (k : ℕ) : ∀ a, (![0, 128 * (k % 8)] : Fin 2 → ℕ) a + (![1, 128] : Fin 2 → ℕ) a ≤ S1x1024.size a := by
  intro a
  have := Nat.mod_lt k (by norm_num : 8 > 0)
  match a with
  | ⟨0, _⟩ => show 0 + 1 ≤ 1; omega
  | ⟨1, _⟩ => show 128 * (k % 8) + 128 ≤ 1024; omega

/-- The 128 tokens of sub-tile `k` of the block. -/
def subTok (x0 : Vec F S1x1024 .i32) (k : ℕ) : Vec F S1x128 .i32 := View.ld x0 (Rect.unit ![0, 128 * (k % 8)] ![1, 128] (inb_sub k))

section Normal
variable (x0 : Vec F S1x1024 .i32) (x1 : Vec F S128x128 .bf16) (xs : Vec F S528x1 .f32)
  (i0 : ∀ a, (![0, 0] : Fin 2 → ℕ) a + (![1, 128] : Fin 2 → ℕ) a ≤ S1x1024.size a)
  (i1 : ∀ a, (![0, 128] : Fin 2 → ℕ) a + (![1, 128] : Fin 2 → ℕ) a ≤ S1x1024.size a)
  (i2 : ∀ a, (![0, 256] : Fin 2 → ℕ) a + (![1, 128] : Fin 2 → ℕ) a ≤ S1x1024.size a)
  (i3 : ∀ a, (![0, 384] : Fin 2 → ℕ) a + (![1, 128] : Fin 2 → ℕ) a ≤ S1x1024.size a)
  (i4 : ∀ a, (![0, 512] : Fin 2 → ℕ) a + (![1, 128] : Fin 2 → ℕ) a ≤ S1x1024.size a)
  (i5 : ∀ a, (![0, 640] : Fin 2 → ℕ) a + (![1, 128] : Fin 2 → ℕ) a ≤ S1x1024.size a)
  (i6 : ∀ a, (![0, 768] : Fin 2 → ℕ) a + (![1, 128] : Fin 2 → ℕ) a ≤ S1x1024.size a)
  (i7 : ∀ a, (![0, 896] : Fin 2 → ℕ) a + (![1, 128] : Fin 2 → ℕ) a ≤ S1x1024.size a)

theorem norm0 : k0_pay6 (View.ld x0 (Rect.unit ![0, 0] ![1, 128] i0)) x1 xs = rk (subTok x0) x1 xs 0 := rfl
theorem nsb1 : k0_pay7 (View.ld x0 (Rect.unit ![0, 0] ![1, 128] i0)) x1 = sb (subTok x0) x1 1 := rfl
theorem norm1 : k0_pay10 iota0 (sb (subTok x0) x1 1) (View.ld x0 (Rect.unit ![0, 128] ![1, 128] i1)) x1 xs = rk (subTok x0) x1 xs 1 := rfl
theorem nsb2 : k0_pay11 iota0 (sb (subTok x0) x1 1) (View.ld x0 (Rect.unit ![0, 128] ![1, 128] i1)) x1 = sb (subTok x0) x1 2 := rfl
theorem norm2 : k0_pay14 (sb (subTok x0) x1 2) (k0_pay12 iota0 (View.ld x0 (Rect.unit ![0, 256] ![1, 128] i2))) (k0_pay13 iota0 (View.ld x0 (Rect.unit ![0, 256] ![1, 128] i2)) x1) xs = rk (subTok x0) x1 xs 2 := rfl
theorem nsb3 : k0_pay15 (sb (subTok x0) x1 2) (k0_pay13 iota0 (View.ld x0 (Rect.unit ![0, 256] ![1, 128] i2)) x1) = sb (subTok x0) x1 3 := rfl
theorem norm3 : k0_pay18 iota0 (sb (subTok x0) x1 2) (k0_pay13 iota0 (View.ld x0 (Rect.unit ![0, 256] ![1, 128] i2)) x1) (View.ld x0 (Rect.unit ![0, 384] ![1, 128] i3)) x1 xs = rk (subTok x0) x1 xs 3 := rfl
theorem nsb4 : k0_pay19 (sb (subTok x0) x1 3) (k0_pay17 iota0 (View.ld x0 (Rect.unit ![0, 384] ![1, 128] i3)) x1) = sb (subTok x0) x1 4 := rfl
theorem norm4 : k0_pay22 iota0 (sb (subTok x0) x1 3) (k0_pay17 iota0 (View.ld x0 (Rect.unit ![0, 384] ![1, 128] i3)) x1) (View.ld x0 (Rect.unit ![0, 512] ![1, 128] i4)) x1 xs = rk (subTok x0) x1 xs 4 := rfl
theorem nsb5 : k0_pay23 iota0 (sb (subTok x0) x1 3) (k0_pay17 iota0 (View.ld x0 (Rect.unit ![0, 384] ![1, 128] i3)) x1) (View.ld x0 (Rect.unit ![0, 512] ![1, 128] i4)) x1 = sb (subTok x0) x1 5 := rfl
theorem norm5 : k0_pay27 (sb (subTok x0) x1 5) (k0_pay24 iota0 (View.ld x0 (Rect.unit ![0, 640] ![1, 128] i5))) (k0_pay25 iota0 (View.ld x0 (Rect.unit ![0, 640] ![1, 128] i5))) x1 xs = rk (subTok x0) x1 xs 5 := rfl
theorem nsb6 : k0_pay28 (sb (subTok x0) x1 5) (k0_pay25 iota0 (View.ld x0 (Rect.unit ![0, 640] ![1, 128] i5))) x1 = sb (subTok x0) x1 6 := rfl
theorem norm6 : k0_pay32 (k0_pay31 iota0 (sb (subTok x0) x1 5) (k0_pay25 iota0 (View.ld x0 (Rect.unit ![0, 640] ![1, 128] i5))) x1 (View.ld x0 (Rect.unit ![0, 768] ![1, 128] i6)) x1 xs) (FloatOps.ofBits FTy.f32 1065353216#32) = rk (subTok x0) x1 xs 6 := rfl
theorem nsb7 : k0_pay33 (sb (subTok x0) x1 6) (k0_pay30 iota0 (View.ld x0 (Rect.unit ![0, 768] ![1, 128] i6)) x1) = sb (subTok x0) x1 7 := rfl
theorem norm7 : k0_pay36 iota0 (sb (subTok x0) x1 6) (k0_pay30 iota0 (View.ld x0 (Rect.unit ![0, 768] ![1, 128] i6)) x1) (View.ld x0 (Rect.unit ![0, 896] ![1, 128] i7)) x1 xs = rk (subTok x0) x1 xs 7 := rfl
theorem ncarry : k0_pay1 (k0_pay37 iota0 (sb (subTok x0) x1 6) (k0_pay30 iota0 (View.ld x0 (Rect.unit ![0, 768] ![1, 128] i6)) x1) (View.ld x0 (Rect.unit ![0, 896] ![1, 128] i7)) x1 xs) = shapeCast S528x1 (carryOut (subTok x0) x1 xs) shapeCasts_S528x1_S528x1 := rfl

end Normal

/-! ## The chain at the extended reals -/

section AtIdeal

abbrev D := dot_S528x128_S128x128_S528x128_1_0_0_1_n_n

theorem iota0_apply (s : Fin 528) (j : Fin 128) : iota0 (ix2 s j) = BitVec.ofNat 32 s.val := iota_single_apply _ _ _ _ _ _

variable (ts : ℕ → IVec S1x128 32) (U : FVec Ideal S128x128 .bf16)
  (hU : ∀ r c : Fin 128, U (ix2 r c) = if r.val ≤ c.val then (1 : EReal) else 0)

/-- How many tokens of the sub-tiles before sub-tile `k` hold the id `s`. -/
def subTot (k : ℕ) (s : ℕ) : ℕ := ∑ i ∈ Finset.range k, Cert.SubTile.cnt (ts i) (BitVec.ofNat 32 s) 128

theorem subTot_succ (k s : ℕ) : subTot ts (k + 1) s = subTot ts k s + Cert.SubTile.cnt (ts k) (BitVec.ofNat 32 s) 128 :=
  Finset.sum_range_succ _ _

include hU in
/-- The totals before sub-tile `k`, at row `s`: that many, as an extended real. -/
theorem sb_apply (k : ℕ) (s : Fin 528) (z : Fin 1) : sb (F := Ideal) ts U k (ix2 s z) = ((subTot ts k s.val : ℕ) : EReal) := by
  induction k with
  | zero =>
    show Ideal.ofBits .f32 0x00000000#32 = _
    rw [Ideal.ofBits_zero_f32]; simp [subTot]
  | succ k ih =>
    show sb (F := Ideal) ts U k (ix2 s z) + Cert.SubTile.lastCol (cu (F := Ideal) (ts k) U) slices_S528x128_o0_127_S528x1 (ix2 s z) = _
    rw [ih]
    have h := Cert.SubTile.lastCol_apply (ts k) iota0 iota0_apply shapeCasts_S1x128_S128 shapeCasts_S128_S1x128 shapeCasts_S1x128_S1x128
      broadcasts_S1x128_S528x128 natLt_1_32 U hU D rfl rfl rfl rfl rfl rfl bitsLt_bf16_f32 shapeCasts_S128x128_S128x128
      slices_S528x128_o0_127_S528x1 s z
    refine (congrArg (_ + ·) h).trans ?_
    rw [subTot_succ, Nat.cast_add]

variable (c : ℕ → ℕ) (cr : FVec Ideal S528x1 .f32)
  (hcr : ∀ s : Fin 528, cr (ix2 s (0 : Fin 1)) = ((c s.val : ℕ) : EReal))

include hU hcr in
/-- The rank row of sub-tile `k` at lane `j`: for a token that is one of the 528 ids, what the carried vector held for
    it, plus its occurrences in the sub-tiles before, plus its occurrences in the earlier lanes of this sub-tile;
    otherwise the all-ones word. -/
theorem rk_apply (k : ℕ) (hbk : ∀ s : Fin 528, c s.val + subTot ts k s.val + 128 < 2 ^ 31) (z : Fin 1) (j : Fin 128) :
    rk (F := Ideal) ts U cr k (ix2 z j)
      = if (Cert.SubTile.tokAt (ts k) j).toNat < 528 then
          BitVec.ofNat 32 (c (Cert.SubTile.tokAt (ts k) j).toNat + subTot ts k (Cert.SubTile.tokAt (ts k) j).toNat
            + Cert.SubTile.cnt (ts k) (Cert.SubTile.tokAt (ts k) j) j.val)
        else 0xFFFFFFFF#32 := by
  have htot : ∀ s : Fin 528, (addf cr (sb (F := Ideal) ts U k)) (ix2 s (0 : Fin 1))
      = (((fun s => c s + subTot ts k s) s.val : ℕ) : EReal) := by
    intro s
    show cr (ix2 s 0) + sb (F := Ideal) ts U k (ix2 s 0) = _
    rw [hcr, sb_apply ts U hU, Nat.cast_add]
  exact Cert.SubTile.rankPiece_apply (ts k) iota0 iota0_apply shapeCasts_S1x128_S128 shapeCasts_S128_S1x128 shapeCasts_S1x128_S1x128
      broadcasts_S1x128_S528x128 natLt_1_32 U hU D rfl rfl rfl rfl rfl rfl bitsLt_bf16_f32 shapeCasts_S128x128_S128x128
      (addf cr (sb (F := Ideal) ts U k)) (fun s => c s + subTot ts k s) htot hbk broadcasts_S528x1_S528x128 reduces_S528x128_S128 (.inl rfl) rfl
      shapeCasts_S128_S1x128 z j

include hU hcr in
/-- The carried vector after the block, at row `s`. -/
theorem carryOut_apply (s : Fin 528) (z : Fin 1) :
    carryOut (F := Ideal) ts U cr (ix2 s z) = ((c s.val + subTot ts 8 s.val : ℕ) : EReal) := by
  obtain rfl : z = 0 := Subsingleton.elim _ _
  show cr (ix2 s 0) + sb (F := Ideal) ts U 8 (ix2 s 0) = _
  rw [hcr, sb_apply ts U hU, Nat.cast_add]

end AtIdeal

end Cert.KernelIdeal.HandValue

end
-- ==== Proof.CountWindow.lean ====
/-
  Counting over the whole token row, window by window.

  A window of 128 consecutive positions starting at `a` holds the tokens of one sub-tile. The number of
  positions below `a + n` that hold an id is the number below `a` plus the number among the first `n`
  lanes of the window: the positions below `a + n` split into those below `a` and the image of the window's
  first `n` lanes under `j ↦ a + j`, which is injective.
-/
import proofs.«408099_j23811298689264_3_alg».proof.Proof.Spec
import proofs.«408099_j23811298689264_3_alg».proof.Proof.SubTile

noncomputable section

namespace Cert.CountWindow

open Idealize.ShloMosaic Idealize.ShloMosaic.ValueIdx

/-- No position lies below `0`. -/
theorem cntBelow_zero (tok : IVec Cert.Spec.S1x65536 32) (s : BitVec 32) : Cert.Spec.cntBelow tok s 0 = 0 := by
  unfold Cert.Spec.cntBelow
  rw [Finset.card_eq_zero, Finset.filter_eq_empty_iff]
  intro j _ h
  exact Nat.not_lt_zero _ h.1

/-- A count over the row is at most its length. -/
theorem cntBelow_le (tok : IVec Cert.Spec.S1x65536 32) (s : BitVec 32) (n : ℕ) : Cert.Spec.cntBelow tok s n ≤ 65536 := by
  unfold Cert.Spec.cntBelow
  exact (Finset.card_filter_le _ _).trans (by simp)

/-- The count grows with the bound. -/
theorem cntBelow_mono (tok : IVec Cert.Spec.S1x65536 32) (s : BitVec 32) {n n' : ℕ} (h : n ≤ n') :
    Cert.Spec.cntBelow tok s n ≤ Cert.Spec.cntBelow tok s n' := by
  unfold Cert.Spec.cntBelow
  refine Finset.card_le_card fun j hj => ?_
  simp only [Finset.mem_filter, Finset.mem_univ, true_and] at hj ⊢
  exact ⟨lt_of_lt_of_le hj.1 h, hj.2⟩

/-- The count below `a + n` is the count below `a` plus the count among the first `n` lanes of the window at `a`. -/
theorem cnt_window (tok : IVec Cert.Spec.S1x65536 32) (x : IVec Cert.SubTile.S1x128 32) (a : ℕ) (ha : a + 128 ≤ 65536)
    (hx : ∀ j : Fin 128, Cert.SubTile.tokAt x j = Cert.Spec.tokAt tok ⟨a + j.val, by omega⟩)
    (s : BitVec 32) (n : ℕ) (hn : n ≤ 128) :
    Cert.Spec.cntBelow tok s a + Cert.SubTile.cnt x s n = Cert.Spec.cntBelow tok s (a + n) := by
  unfold Cert.Spec.cntBelow Cert.SubTile.cnt
  let e : Fin 128 ↪ Fin 65536 :=
    ⟨fun j => ⟨a + j.val, by omega⟩, fun i j h => Fin.ext (by
      have h' : a + i.val = a + j.val := congrArg Fin.val h
      omega)⟩
  have he : ∀ k : Fin 128, (e k).val = a + k.val := fun _ => rfl
  have hsplit : (Finset.univ.filter fun j : Fin 65536 => j.val < a + n ∧ Cert.Spec.tokAt tok j = s)
      = (Finset.univ.filter fun j : Fin 65536 => j.val < a ∧ Cert.Spec.tokAt tok j = s)
        ∪ ((Finset.univ.filter fun j : Fin 128 => j.val < n ∧ Cert.SubTile.tokAt x j = s).map e) := by
    ext j
    simp only [Finset.mem_filter, Finset.mem_univ, true_and, Finset.mem_union, Finset.mem_map]
    constructor
    · rintro ⟨hj, ht⟩
      by_cases hja : j.val < a
      · exact Or.inl ⟨hja, ht⟩
      · have hk : j.val - a < 128 := by omega
        refine Or.inr ⟨⟨j.val - a, hk⟩, ⟨by show j.val - a < n; omega, ?_⟩, Fin.ext (by rw [he]; show a + (j.val - a) = j.val; omega)⟩
        rw [hx]
        have : (⟨a + (⟨j.val - a, hk⟩ : Fin 128).val, by omega⟩ : Fin 65536) = j :=
          Fin.ext (by show a + (j.val - a) = j.val; omega)
        rw [this]; exact ht
    · rintro (⟨hj, ht⟩ | ⟨k, ⟨hk, ht⟩, rfl⟩)
      · exact ⟨by omega, ht⟩
      · refine ⟨by rw [he]; omega, ?_⟩
        rw [← ht, hx]; rfl
  have hdisj : Disjoint (Finset.univ.filter fun j : Fin 65536 => j.val < a ∧ Cert.Spec.tokAt tok j = s)
      ((Finset.univ.filter fun j : Fin 128 => j.val < n ∧ Cert.SubTile.tokAt x j = s).map e) := by
    rw [Finset.disjoint_left]
    intro j hj1 hj2
    simp only [Finset.mem_filter, Finset.mem_univ, true_and, Finset.mem_map] at hj1 hj2
    obtain ⟨k, _, rfl⟩ := hj2
    have := hj1.1
    rw [he] at this
    omega
  rw [hsplit, Finset.card_union_of_disjoint hdisj, Finset.card_map]

end Cert.CountWindow

end
-- ==== Proof.KI.BlockValue.lean ====
/-
  A block of 1024 tokens as a stretch of the token row.

  When the block holds positions `a0 … a0 + 1023` of the row and the carried count vector holds, for each id, the
  number of positions before `a0` with that id, then: before sub-tile `k` the carried vector plus the totals so far
  counts the positions before `a0 + 128 k`; the rank row of sub-tile `k` at lane `j` is the row's rank at position
  `a0 + 128 k + j` (the number of earlier positions holding the same token, or the all-ones word for a token that is
  no id); and after the block the carried vector counts the positions before `a0 + 1024`.
-/
import proofs.«408099_j23811298689264_3_alg».proof.Proof.KI.Chain
import proofs.«408099_j23811298689264_3_alg».proof.Proof.CountWindow

set_option maxRecDepth 16384

noncomputable section

namespace Cert.KernelIdeal.HandValue

open Cert.KernelIdeal Cert.KernelIdeal.Gen
open Idealize.ShloMosaic Idealize.ShloMosaic.ValueIdx
open scoped BigOperators

/-- The count column after the first `n` positions of the row: row `s` holds the number of positions below `n` whose
    token is `s`, as an extended real. -/
def countsAt (tok : IVec Cert.Spec.S1x65536 32) (n : ℕ) : FVec Ideal S528x1 .f32 := fun y =>
  ((Cert.Spec.cntBelow tok (BitVec.ofNat 32 (y 0).val) n : ℕ) : EReal)

/-- The count column after the whole row is the specification's count column. -/
theorem countsAt_all (tok : IVec Cert.Spec.S1x65536 32) : countsAt tok 65536 = Cert.Spec.countsArr tok := rfl

/-- The count column before any position is zero. -/
theorem countsAt_zero (tok : IVec Cert.Spec.S1x65536 32) : countsAt tok 0 = fun _ => (0 : EReal) := by
  funext y; unfold countsAt; rw [Cert.CountWindow.cntBelow_zero]; simp

/-- The rank at position `p` of the row (a position outside the row reads `0`; none is ever asked). -/
def rankAt (tok : IVec Cert.Spec.S1x65536 32) (p : ℕ) : BitVec 32 :=
  if h : p < 65536 then Cert.Spec.rankArr tok (ix2 (0 : Fin 1) (⟨p, h⟩ : Fin 65536)) else 0

/-- The sub-tiles of a block of token words. -/
abbrev st (x0 : IVec S1x1024 32) : ℕ → IVec S1x128 32 := subTok (F := Ideal) x0

/-- For each id, the number of positions before `a0` holding it. -/
abbrev cB (tok : IVec Cert.Spec.S1x65536 32) (a0 : ℕ) : ℕ → ℕ := fun s => Cert.Spec.cntBelow tok (BitVec.ofNat 32 s) a0

section Block

variable (tok : IVec Cert.Spec.S1x65536 32) (a0 : ℕ) (ha0 : a0 + 1024 ≤ 65536) (x0 : IVec S1x1024 32)
  (hx0 : ∀ (q : Fin 1024) (h : a0 + q.val < 65536), x0 (ix2 (0 : Fin 1) q) = Cert.Spec.tokAt tok ⟨a0 + q.val, h⟩)

include ha0 hx0 in
/-- Lane `j` of sub-tile `k` of the block is position `a0 + 128 k + j` of the row. -/
theorem subTok_apply (k : ℕ) (hk : k < 8) (j : Fin 128) (h : a0 + 128 * k + j.val < 65536) :
    Cert.SubTile.tokAt (st x0 k) j = Cert.Spec.tokAt tok ⟨a0 + 128 * k + j.val, h⟩ := by
  have hj := j.isLt
  have hq : 128 * k + j.val < 1024 := by omega
  have e : (Rect.unit (s := S1x1024) ![0, 128 * (k % 8)] ![1, 128] (inb_sub k)).toLoadRect.idx (ix2 (0 : Fin 1) j)
      = ix2 (0 : Fin 1) (⟨128 * k + j.val, hq⟩ : Fin 1024) := by
    funext a
    apply Fin.ext
    match a with
    | ⟨0, _⟩ => show 0 + 1 * 0 = 0; rfl
    | ⟨1, _⟩ => show 128 * (k % 8) + 1 * j.val = 128 * k + j.val; rw [Nat.mod_eq_of_lt hk]; omega
  show x0 ((Rect.unit (s := S1x1024) ![0, 128 * (k % 8)] ![1, 128] (inb_sub k)).toLoadRect.idx (ix2 (0 : Fin 1) j)) = _
  rw [e, hx0 ⟨128 * k + j.val, hq⟩ (by show a0 + (128 * k + j.val) < 65536; omega)]
  exact congrArg (Cert.Spec.tokAt tok) (Fin.ext (by show a0 + (128 * k + j.val) = a0 + 128 * k + j.val; omega))

include ha0 hx0 in
/-- The positions before the block plus the sub-tiles before sub-tile `k` are the positions before `a0 + 128 k`. -/
theorem cnt_before (k : ℕ) (hk : k ≤ 8) (s : ℕ) :
    Cert.Spec.cntBelow tok (BitVec.ofNat 32 s) a0 + subTot (st x0) k s
      = Cert.Spec.cntBelow tok (BitVec.ofNat 32 s) (a0 + 128 * k) := by
  induction k with
  | zero => simp [subTot]
  | succ k ih =>
    rw [subTot_succ, ← Nat.add_assoc, ih (by omega)]
    have h := Cert.CountWindow.cnt_window tok (st x0 k) (a0 + 128 * k) (by omega)
      (fun j => subTok_apply tok a0 ha0 x0 hx0 k (by omega) j _) (BitVec.ofNat 32 s) 128 (le_refl _)
    rw [h]
    exact congrArg _ (by ring)

variable (U : FVec Ideal S128x128 .bf16)
  (hU : ∀ r c : Fin 128, U (ix2 r c) = if r.val ≤ c.val then (1 : EReal) else 0)
  (cr : FVec Ideal S528x1 .f32) (hcr : cr = countsAt tok a0)

include ha0 hx0 hU hcr in
/-- The rank row of sub-tile `k` at lane `j` is the row's rank at position `a0 + 128 k + j`. -/
theorem rk_block (k : ℕ) (hk : k < 8) (z : Fin 1) (j : Fin 128) :
    rk (F := Ideal) (st x0) U cr k (ix2 z j) = rankAt tok (a0 + 128 * k + j.val) := by
  have hj := j.isLt
  have hp : a0 + 128 * k + j.val < 65536 := by omega
  have hcr' : ∀ s : Fin 528, cr (ix2 s (0 : Fin 1))
      = ((cB tok a0 s.val : ℕ) : EReal) := by
    intro s; rw [hcr]; rfl
  have hbk : ∀ s : Fin 528, cB tok a0 s.val + subTot (st x0) k s.val + 128 < 2 ^ 31 := by
    intro s
    show Cert.Spec.cntBelow tok (BitVec.ofNat 32 s.val) a0 + subTot (st x0) k s.val + 128 < 2 ^ 31
    rw [cnt_before tok a0 ha0 x0 hx0 k (by omega)]
    have := Cert.CountWindow.cntBelow_le tok (BitVec.ofNat 32 s.val) (a0 + 128 * k)
    omega
  rw [rk_apply (st x0) U hU (cB tok a0) cr hcr' k hbk z j]
  have hw := subTok_apply tok a0 ha0 x0 hx0 k hk j hp
  unfold rankAt
  rw [dif_pos hp]
  show _ = if (Cert.Spec.tokAt tok ⟨a0 + 128 * k + j.val, hp⟩).toNat < 528 then
      BitVec.ofNat 32 (Cert.Spec.cntBelow tok (Cert.Spec.tokAt tok ⟨a0 + 128 * k + j.val, hp⟩) (a0 + 128 * k + j.val))
    else 0xFFFFFFFF#32
  rw [← hw]
  by_cases hlt : (Cert.SubTile.tokAt (st x0 k) j).toNat < 528
  · rw [if_pos hlt, if_pos hlt]
    refine congrArg (BitVec.ofNat 32) ?_
    have e1 := cnt_before tok a0 ha0 x0 hx0 k (by omega) (Cert.SubTile.tokAt (st x0 k) j).toNat
    rw [BitVec.ofNat_toNat, BitVec.setWidth_eq] at e1
    show Cert.Spec.cntBelow tok (BitVec.ofNat 32 (Cert.SubTile.tokAt (st x0 k) j).toNat) a0 + _ + _ = _
    rw [BitVec.ofNat_toNat, BitVec.setWidth_eq, e1]
    exact Cert.CountWindow.cnt_window tok (st x0 k) (a0 + 128 * k) (by omega)
      (fun j' => subTok_apply tok a0 ha0 x0 hx0 k hk j' _) _ j.val (by omega)
  · rw [if_neg hlt, if_neg hlt]

include ha0 hx0 hU hcr in
/-- After the block the carried vector counts the positions before `a0 + 1024`. -/
theorem carry_block : carryOut (F := Ideal) (st x0) U cr = countsAt tok (a0 + 1024) := by
  funext y
  obtain ⟨s, z, rfl⟩ : ∃ (s : Fin 528) (z : Fin 1), y = ix2 s z := ⟨y 0, y 1, eq_ix2 y⟩
  have hcr' : ∀ s : Fin 528, cr (ix2 s (0 : Fin 1))
      = ((cB tok a0 s.val : ℕ) : EReal) := by
    intro s; rw [hcr]; rfl
  rw [carryOut_apply (st x0) U hU (cB tok a0) cr hcr' s z]
  show ((Cert.Spec.cntBelow tok (BitVec.ofNat 32 s.val) a0 + subTot (st x0) 8 s.val : ℕ) : EReal) = _
  rw [cnt_before tok a0 ha0 x0 hx0 8 (le_refl _)]
  rfl

end Block

end Cert.KernelIdeal.HandValue

end
-- ==== Proof.KI.PieceValue.lean ====
/-
  What a block's stored ranks and its new carried count vector are, over the token row.

  The block holds positions a0 … a0 + 1023 of the row and the carried count vector found holds, for each id, the
  number of positions before a0 with that id.  The eight stores of the block put sub-tile k's rank row on lanes
  128 k … 128 k + 127; lane j of that row is the row's rank at position a0 + 128 k + j.  So the canonical contents of
  the eight stores hold, at lane y of the block, the rank at position a0 + y.  The vector stored after the eighth
  sub-tile is the vector found plus the block's totals: the counts of the positions before a0 + 1024.
-/
import proofs.«408099_j23811298689264_3_alg».proof.Proof.KI.Pieces
import proofs.«408099_j23811298689264_3_alg».proof.Proof.KI.BlockValue

set_option maxRecDepth 16384

noncomputable section

namespace Cert.KernelIdeal.HandValue

open Cert.KernelIdeal Cert.KernelIdeal.Gen
open Idealize.ShloMosaic Idealize.ShloMosaic.ValueIdx

variable (tok : IVec Cert.Spec.S1x65536 32) (a0 : ℕ) (ha0 : a0 + 1024 ≤ 65536) (x0 : IVec S1x1024 32)
  (hx0 : ∀ (q : Fin 1024) (h : a0 + q.val < 65536), x0 (ix2 (0 : Fin 1) q) = Cert.Spec.tokAt tok ⟨a0 + q.val, h⟩)
  (U : FVec Ideal S128x128 .bf16)
  (hU : ∀ r c : Fin 128, U (ix2 r c) = if r.val ≤ c.val then (1 : EReal) else 0)
  (cr : FVec Ideal S528x1 .f32) (hcr : cr = countsAt tok a0)

/-! ## Each stored rank row is its sub-tile's rank row of the chain -/

theorem p0_eq : Cert.KernelIdeal.Hand.p0 (F := Ideal) x0 U cr = rk (F := Ideal) (st x0) U cr 0 := rfl
theorem p1_eq : Cert.KernelIdeal.Hand.p1 (F := Ideal) x0 U cr = rk (F := Ideal) (st x0) U cr 1 := rfl
theorem p2_eq : Cert.KernelIdeal.Hand.p2 (F := Ideal) x0 U cr = rk (F := Ideal) (st x0) U cr 2 := rfl
theorem p3_eq : Cert.KernelIdeal.Hand.p3 (F := Ideal) x0 U cr = rk (F := Ideal) (st x0) U cr 3 := rfl
theorem p4_eq : Cert.KernelIdeal.Hand.p4 (F := Ideal) x0 U cr = rk (F := Ideal) (st x0) U cr 4 := rfl
theorem p5_eq : Cert.KernelIdeal.Hand.p5 (F := Ideal) x0 U cr = rk (F := Ideal) (st x0) U cr 5 := rfl
theorem p6_eq : Cert.KernelIdeal.Hand.p6 (F := Ideal) x0 U cr = rk (F := Ideal) (st x0) U cr 6 := rfl
theorem p7_eq : Cert.KernelIdeal.Hand.p7 (F := Ideal) x0 U cr = rk (F := Ideal) (st x0) U cr 7 := rfl

/-- The vector stored after the eighth sub-tile is the chain's carried vector after the block. -/
theorem newCarry_eq : k0_pay1 (Cert.KernelIdeal.Hand.newCarry (F := Ideal) x0 U cr)
    = shapeCast S528x1 (carryOut (F := Ideal) (st x0) U cr) shapeCasts_S528x1_S528x1 := rfl

/-! ## The stored ranks over the token row -/

include ha0 hx0 hU hcr in
/-- The rank row of sub-tile k, stored on the 128 lanes from lane o = 128 k, holds at its local index x the row's rank
    at the position under x: a0 plus the lane the rectangle sends x to. -/
theorem piece_val (k o : ℕ) (hk : k < 8) (ho : o = 128 * k) (h : o + 128 ≤ 1024) (pk : IVec S1x128 32)
    (hpk : pk = rk (F := Ideal) (st x0) U cr k) (x : (Cert.KernelIdeal.Hand.laneRect o h).shape.Idx) :
    pk x = rankAt tok (a0 + ((Cert.KernelIdeal.Hand.laneRect o h).emb x 1).val) := by
  subst ho hpk
  have hx : x = (ix2 (x 0) (x 1) : S1x128.Idx) := eq_ix2 (n0 := 1) (n1 := 128) x
  rw [hx, rk_block tok a0 ha0 x0 hx0 U hU cr hcr k hk (x 0) (x 1)]
  refine congrArg (rankAt tok) ?_
  show a0 + 128 * k + (x 1).val = a0 + (128 * k + 1 * (x 1).val)
  omega

include ha0 hx0 hU hcr in
/-- The canonical contents of the block's eight rank stores: lane y holds the row's rank at position a0 + y. -/
theorem canon_rankPieces
    (hcov : ∀ y : S1x1024.Idx, ∃ p ∈ Cert.KernelIdeal.Hand.rankPieces (F := Ideal) x0 U cr, y ∈ p.1.set) :
    View.canon (Cert.KernelIdeal.Hand.rankPieces (F := Ideal) x0 U cr)
      = fun y : S1x1024.Idx => rankAt tok (a0 + (y 1).val) := by
  funext y
  refine View.canon_apply_of_pieces (fun y : S1x1024.Idx => rankAt tok (a0 + (y 1).val)) _ ?_ y (hcov y)
  intro p hp x
  have hp' : p = ⟨Cert.KernelIdeal.Hand.laneRect 896 (by decide), Cert.KernelIdeal.Hand.p7 (F := Ideal) x0 U cr⟩
      ∨ p = ⟨Cert.KernelIdeal.Hand.laneRect 768 (by decide), Cert.KernelIdeal.Hand.p6 (F := Ideal) x0 U cr⟩
      ∨ p = ⟨Cert.KernelIdeal.Hand.laneRect 640 (by decide), Cert.KernelIdeal.Hand.p5 (F := Ideal) x0 U cr⟩
      ∨ p = ⟨Cert.KernelIdeal.Hand.laneRect 512 (by decide), Cert.KernelIdeal.Hand.p4 (F := Ideal) x0 U cr⟩
      ∨ p = ⟨Cert.KernelIdeal.Hand.laneRect 384 (by decide), Cert.KernelIdeal.Hand.p3 (F := Ideal) x0 U cr⟩
      ∨ p = ⟨Cert.KernelIdeal.Hand.laneRect 256 (by decide), Cert.KernelIdeal.Hand.p2 (F := Ideal) x0 U cr⟩
      ∨ p = ⟨Cert.KernelIdeal.Hand.laneRect 128 (by decide), Cert.KernelIdeal.Hand.p1 (F := Ideal) x0 U cr⟩
      ∨ p = ⟨Cert.KernelIdeal.Hand.laneRect 0 (by decide), Cert.KernelIdeal.Hand.p0 (F := Ideal) x0 U cr⟩ := by
    rcases List.mem_cons.1 hp with h | hp
    · exact Or.inl h
    rcases List.mem_cons.1 hp with h | hp
    · exact Or.inr (Or.inl h)
    rcases List.mem_cons.1 hp with h | hp
    · exact Or.inr (Or.inr (Or.inl h))
    rcases List.mem_cons.1 hp with h | hp
    · exact Or.inr (Or.inr (Or.inr (Or.inl h)))
    rcases List.mem_cons.1 hp with h | hp
    · exact Or.inr (Or.inr (Or.inr (Or.inr (Or.inl h))))
    rcases List.mem_cons.1 hp with h | hp
    · exact Or.inr (Or.inr (Or.inr (Or.inr (Or.inr (Or.inl h)))))
    rcases List.mem_cons.1 hp with h | hp
    · exact Or.inr (Or.inr (Or.inr (Or.inr (Or.inr (Or.inr (Or.inl h))))))
    rcases List.mem_cons.1 hp with h | hp
    · exact Or.inr (Or.inr (Or.inr (Or.inr (Or.inr (Or.inr (Or.inr h))))))
    · exact absurd hp List.not_mem_nil
  rcases hp' with rfl | rfl | rfl | rfl | rfl | rfl | rfl | rfl
  · exact piece_val tok a0 ha0 x0 hx0 U hU cr hcr 7 896 (by decide) rfl (by decide) _ (p7_eq x0 U cr) x
  · exact piece_val tok a0 ha0 x0 hx0 U hU cr hcr 6 768 (by decide) rfl (by decide) _ (p6_eq x0 U cr) x
  · exact piece_val tok a0 ha0 x0 hx0 U hU cr hcr 5 640 (by decide) rfl (by decide) _ (p5_eq x0 U cr) x
  · exact piece_val tok a0 ha0 x0 hx0 U hU cr hcr 4 512 (by decide) rfl (by decide) _ (p4_eq x0 U cr) x
  · exact piece_val tok a0 ha0 x0 hx0 U hU cr hcr 3 384 (by decide) rfl (by decide) _ (p3_eq x0 U cr) x
  · exact piece_val tok a0 ha0 x0 hx0 U hU cr hcr 2 256 (by decide) rfl (by decide) _ (p2_eq x0 U cr) x
  · exact piece_val tok a0 ha0 x0 hx0 U hU cr hcr 1 128 (by decide) rfl (by decide) _ (p1_eq x0 U cr) x
  · exact piece_val tok a0 ha0 x0 hx0 U hU cr hcr 0 0 (by decide) rfl (by decide) _ (p0_eq x0 U cr) x

/-! ## The new carried count vector over the token row -/

include ha0 hx0 hU hcr in
/-- The vector stored after the eighth sub-tile counts the positions before a0 + 1024. -/
theorem newCarry_value :
    k0_pay1 (Cert.KernelIdeal.Hand.newCarry (F := Ideal) x0 U cr) = countsAt tok (a0 + 1024) := by
  rw [newCarry_eq, shapeCast_self, carry_block tok a0 ha0 x0 hx0 U hU cr hcr]

end Cert.KernelIdeal.HandValue

end
-- ==== Proof.KI.BlockRead.lean ====
/-
  The input windows of the rank kernel read at an index.

  The token row is cut into 64 blocks of 1024 consecutive positions, block `t` starting at `1024 t`; the
  triangular matrix is one block, the whole array, at every grid point. So an array read through the tokens'
  block at point `t`, at lane `q`, is the array at position `1024 t + q`, and an array read through the
  matrix's block is the array itself. Both are said of an arbitrary array first and then of the contents the
  region finds.
-/
import proofs.«408099_j23811298689264_3_alg».proof.Proof.KI.Kit
import proofs.«408099_j23811298689264_3_alg».proof.Proof.Gen.KernelIdeal.Points
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-! ## The index maps, decided over the grid -/

/-- The tokens' block index at point `t` is `(0, t)`. -/
theorem idx0 : ∀ t : Fin cfg0.N, win0_0.index t 0 = 0 ∧ win0_0.index t 1 = t.val :=
  (by decide +kernel : ∀ t : Fin grid0.N, win0_0.index t 0 = 0 ∧ win0_0.index t 1 = t.val)

/-- The triangular matrix's block index is `(0, 0)` at every point. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The rank row's block index at point `t` is `(0, t)`. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- The count column's block index is `(0, 0)` at every point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- A grid point's number is below `64`. -/
theorem lt_N (t : Fin cfg0.N) : t.val < 64 := by
  have h := t.isLt
  have hN : cfg0.N = 64 := N_0
  omega

/-! ## An arbitrary array read through an input block -/

/-- Any row of 65536 words read through the tokens' block at point `t`, at lane `q`, is the row at `1024 t + q`. -/
theorem read_blk0 (c : Dev nD) (A : Buf (Elt F) ((c : Thread nD τ).loc (Pipeline.arrRef spec0 0))) (t : Fin cfg0.N)
    (q : Fin 1024) :
    (((cfg0.win 0).blk t).view.read (Elt F) A : Vec F S1x1024 .i32) (ix2 (0 : Fin 1) q)
      = (A : Vec F S1x65536 .i32) (ix2 (0 : Fin 1) ⟨1024 * t.val + q.val, by have := lt_N t; omega⟩) := by
  have hi := idx0 t
  rw [View.read_apply]
  refine congrArg A (funext fun a => Fin.ext ?_)
  match a with
  | ⟨0, _⟩ => show win0_0.index t 0 * 1 + 1 * 0 = 0; rw [hi.1]
  | ⟨1, _⟩ => show win0_0.index t 1 * 1024 + 1 * q.val = 1024 * t.val + q.val; rw [hi.2]; omega

/-- Any 128 × 128 array read through the triangular matrix's block is the array itself, at every point. -/
theorem read_blk1 (c : Dev nD) (A : Buf (Elt F) ((c : Thread nD τ).loc (Pipeline.arrRef spec0 1))) (t : Fin cfg0.N) :
    (((cfg0.win 1).blk t).view.read (Elt F) A : Vec F S128x128 .bf16) = (A : Vec F S128x128 .bf16) := by
  have hi := idx1 t
  funext j
  rw [View.read_apply]
  refine congrArg A (funext fun a => Fin.ext ?_)
  match a with
  | ⟨0, _⟩ => show win0_1.index t 0 * 128 + 1 * (j 0).val = (j 0).val; rw [hi.1]; omega
  | ⟨1, _⟩ => show win0_1.index t 1 * 128 + 1 * (j 1).val = (j 1).val; rw [hi.2]; omega

/-! ## The input blocks of the contents the region finds -/

/-- The tokens' block at point `t`, lane `q`, is the token row at position `1024 t + q`. -/
theorem iblk0_apply (c : Dev nD) (t : Fin cfg0.N) (q : Fin 1024) :
    (iblk m c 0 t : Vec F S1x1024 .i32) (ix2 (0 : Fin 1) q)
      = (V m c (Pipeline.arrRef spec0 0) : Vec F S1x65536 .i32)
          (ix2 (0 : Fin 1) ⟨1024 * t.val + q.val, by have := lt_N t; omega⟩) :=
  read_blk0 c (V m c (Pipeline.arrRef spec0 0)) t q

/-- The triangular matrix's one block is the whole array, at every point. -/
theorem iblk1_eq (c : Dev nD) (t : Fin cfg0.N) :
    (iblk m c 1 t : Vec F S128x128 .bf16) = (V m c (Pipeline.arrRef spec0 1) : Vec F S128x128 .bf16) :=
  read_blk1 c (V m c (Pipeline.arrRef spec0 1)) t

end Cert.KernelIdeal.HandValue

end
-- ==== Proof.KI.ArrAt.lean ====
/-
  From what the windows' staging buffers hold after each grid point to what the two result arrays hold after the
  run.

  The rank row is written back block by block: point `t` writes the 1024 positions starting at `1024 t`, and the 64
  blocks tile the row; so if after every point the ranks buffer holds the specification's ranks of that point's
  positions, the array ends as the specification's rank row. The count column is one block, written back by the last
  point only; so if after the last point the counts buffer holds the specification's count column, the array ends as it.
-/
import proofs.«408099_j23811298689264_3_alg».proof.Proof.KI.Frame
import proofs.«408099_j23811298689264_3_alg».proof.Proof.KI.BlockValue
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The output windows' index maps, decided over the grid -/

/-- The ranks window's block at point `t` is block `t` of the row. -/
theorem arr_idx2 : ∀ t : Fin cfg0.N, win0_2.index t 0 = 0 ∧ win0_2.index t 1 = t.val :=
  (by decide +kernel : ∀ t : Fin grid0.N, win0_2.index t 0 = 0 ∧ win0_2.index t 1 = t.val)
/-- The counts window's block is block zero at every point. -/
theorem arr_idx3 : ∀ t : Fin cfg0.N, win0_3.index t 0 = 0 ∧ win0_3.index t 1 = 0 :=
  (by decide +kernel : ∀ t : Fin grid0.N, win0_3.index t 0 = 0 ∧ win0_3.index t 1 = 0)

variable (m : (ℓ : Loc nD τ sig) → Buf (Elt Ideal) ℓ) (c : Dev nD) (tok : IVec Cert.Spec.S1x65536 32)

/-! ## The two result arrays as whole-array contents -/

/-- The specification's rank row, as contents of the ranks array. -/
abbrev rankBuf : Buf (Elt Ideal) ((cfg0.win 2).arr.view.loc (c.tc : Thread nD τ)) := Cert.Spec.rankArr tok
/-- The specification's count column, as contents of the counts array. -/
abbrev countsBuf : Buf (Elt Ideal) ((cfg0.win 3).arr.view.loc (c.tc : Thread nD τ)) := Cert.Spec.countsArr tok

/-! ## The output blocks -/

/-- The rank row read through the block that point `t` writes back: lane `q` of the block is position `1024 t + q`. -/
theorem arr2_read (t : Fin cfg0.N) :
    ((cfg0.win 2).blk t).view.read (Elt Ideal) (rankBuf c tok)
      = fun y : S1x1024.Idx => rankAt tok (1024 * t.val + (y 1).val) := by
  have hi := arr_idx2 t
  have hN := lt_64 t
  funext y
  have hy : (y 1).val < 1024 := (y 1).isLt
  have hy0 : (y 0).val < 1 := (y 0).isLt
  rw [View.read_apply]
  unfold rankAt
  rw [dif_pos (show 1024 * t.val + (y 1).val < 65536 by omega)]
  show Cert.Spec.rankArr tok _ = Cert.Spec.rankArr tok _
  congr 1
  funext a
  apply Fin.ext
  match a with
  | ⟨0, _⟩ => show win0_2.index t 0 * 1 + 1 * (y 0).val = 0; rw [hi.1]; omega
  | ⟨1, _⟩ => show win0_2.index t 1 * 1024 + 1 * (y 1).val = 1024 * t.val + (y 1).val; rw [hi.2]; omega

/-- Every position of the rank row lies in the block of the point that handles it: point `p / 1024`. -/
theorem arr2_cover (i : ((cfg0.win 2).arr.view.loc (c.tc : Thread nD τ)).2.ty.Idx) :
    ∃ t : Fin cfg0.N, (cfg0.win 2).flush t = true ∧ i ∈ ((cfg0.win 2).blk t).view.set := by
  have h0 : (i 0 : ℕ) < 1 := (i 0).isLt
  have h1 : (i 1 : ℕ) < 65536 := (i 1).isLt
  have hq : (i 1 : ℕ) / 1024 < cfg0.N := by rw [show cfg0.N = 64 from N_0]; omega
  refine ⟨⟨(i 1 : ℕ) / 1024, hq⟩, flush0_2 _, ?_⟩
  have hi := arr_idx2 ⟨(i 1 : ℕ) / 1024, hq⟩
  show i ∈ ((View.whole main_v9_0).slice (win0_2.rect ⟨(i 1 : ℕ) / 1024, hq⟩)).set
  rw [View.set_slice_whole, Rect.mem_set_unit]
  intro a
  match a with
  | ⟨0, _⟩ =>
    show win0_2.index ⟨(i 1 : ℕ) / 1024, hq⟩ 0 * 1 ≤ (i 0 : ℕ) ∧ (i 0 : ℕ) < win0_2.index ⟨(i 1 : ℕ) / 1024, hq⟩ 0 * 1 + 1
    rw [hi.1]; omega
  | ⟨1, _⟩ =>
    show win0_2.index ⟨(i 1 : ℕ) / 1024, hq⟩ 1 * 1024 ≤ (i 1 : ℕ) ∧ (i 1 : ℕ) < win0_2.index ⟨(i 1 : ℕ) / 1024, hq⟩ 1 * 1024 + 1024
    rw [hi.2]; dsimp only; omega

/-- The count column read through the counts window's one block is the count column. -/
theorem arr3_read (t : Fin cfg0.N) :
    ((cfg0.win 3).blk t).view.read (Elt Ideal) (countsBuf c tok) = (Cert.Spec.countsArr tok : FVec Ideal S528x1 .f32) := by
  have hi := arr_idx3 t
  funext y
  have hy0 : (y 0).val < 528 := (y 0).isLt
  have hy1 : (y 1).val < 1 := (y 1).isLt
  rw [View.read_apply]
  show Cert.Spec.countsArr tok _ = Cert.Spec.countsArr tok _
  congr 1
  funext a
  apply Fin.ext
  match a with
  | ⟨0, _⟩ => show win0_3.index t 0 * 528 + 1 * (y 0).val = (y 0).val; rw [hi.1]; omega
  | ⟨1, _⟩ => show win0_3.index t 1 * 1 + 1 * (y 1).val = (y 1).val; rw [hi.2]; omega

/-- Every row of the count column lies in the block the last point writes back: the whole array. -/
theorem arr3_cover (i : ((cfg0.win 3).arr.view.loc (c.tc : Thread nD τ)).2.ty.Idx) :
    ∃ t : Fin cfg0.N, (cfg0.win 3).flush t = true ∧ i ∈ ((cfg0.win 3).blk t).view.set := by
  have h0 : (i 0 : ℕ) < 528 := (i 0).isLt
  have h1 : (i 1 : ℕ) < 1 := (i 1).isLt
  have hq : 63 < cfg0.N := by rw [show cfg0.N = 64 from N_0]; omega
  refine ⟨⟨63, hq⟩, (flush0_3 _).mpr rfl, ?_⟩
  have hi := arr_idx3 ⟨63, hq⟩
  show i ∈ ((View.whole main_v9_1).slice (win0_3.rect ⟨63, hq⟩)).set
  rw [View.set_slice_whole, Rect.mem_set_unit]
  intro a
  match a with
  | ⟨0, _⟩ =>
    show win0_3.index ⟨63, hq⟩ 0 * 528 ≤ (i 0 : ℕ) ∧ (i 0 : ℕ) < win0_3.index ⟨63, hq⟩ 0 * 528 + 528
    rw [hi.1]; omega
  | ⟨1, _⟩ =>
    show win0_3.index ⟨63, hq⟩ 1 * 1 ≤ (i 1 : ℕ) ∧ (i 1 : ℕ) < win0_3.index ⟨63, hq⟩ 1 * 1 + 1
    rw [hi.2]; omega

/-! ## From the invariant between points to the result arrays -/

/-- If after every point the ranks window's buffer holds the specification's ranks of the point's 1024 positions,
    the ranks array ends as the specification's rank row: every point writes its block back, and the blocks tile the row. -/
theorem ranks_of_inv
    (hinv : ∀ t : Fin cfg0.N, (outsAt (F := Ideal) m c t.val t.isLt).1
      = fun y : S1x1024.Idx => rankAt tok (1024 * t.val + (y 1).val)) :
    (dats (F := Ideal) m 0 c).arrAt 2 cfg0.N = rankBuf c tok :=
  (dats (F := Ideal) m 0 c).arrAt_eq_of_cover 2 (rankBuf c tok)
    (fun t _ => by
      show (cfg0.win 2).cut (grid0.coords t) ((dats (F := Ideal) m 0 c).after 2 t) = _
      rw [after_2, hinv t, arr2_read]
      rfl)
    (arr2_cover c)

/-- If after the last point the counts window's buffer holds the specification's count column, the counts array ends
    as it: the last point writes the window's one block, the whole array, back. -/
theorem counts_of_inv
    (h63 : ∀ t : Fin cfg0.N, t.val % 64 = 63 → (outsAt (F := Ideal) m c t.val t.isLt).2.1 = countsAt tok 65536) :
    (dats (F := Ideal) m 0 c).arrAt 3 cfg0.N = countsBuf c tok :=
  (dats (F := Ideal) m 0 c).arrAt_eq_of_cover 3 (countsBuf c tok)
    (fun t hf => by
      show (cfg0.win 3).cut (grid0.coords t) ((dats (F := Ideal) m 0 c).after 3 t) = _
      rw [after_3, h63 t ((flush0_3 t).mp hf), arr3_read, countsAt_all]
      rfl)
    (arr3_cover c)

end Cert.KernelIdeal.HandValue

end
-- ==== Proof.KI.GridValue.lean ====
/-
  The rank kernel's two output arrays, read off the run over the 64 grid points.

  At each point the body leaves, in the ranks window's buffer, the eight rank rows of the point's block, and in the
  carried count vector what it held plus the block's per-id totals; the first point starts the carried vector at
  zero, and the last point copies it into the counts window's buffer. Given that the block at point `t` is positions
  `1024 t … 1024 t + 1023` of the token row and that the second input is the upper-triangular array of ones, an
  induction over the points shows: after point `t` the ranks buffer holds the row's ranks at block `t`'s positions
  and the carried vector counts the positions before `1024 (t + 1)`. The ranks array is written back block by block
  and the counts array once, at the last point; so the two arrays end holding the row's ranks and its counts.
-/
import proofs.«408099_j23811298689264_3_alg».proof.Proof.KI.PieceValue
import proofs.«408099_j23811298689264_3_alg».proof.Proof.KI.BlockRead
import proofs.«408099_j23811298689264_3_alg».proof.Proof.KI.ArrAt

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The zero column the first point stores is the count column before any position. -/
theorem pay2_eq (tok : IVec Cert.Spec.S1x65536 32) : k0_pay2 (F := Ideal) = countsAt tok 0 := by
  rw [countsAt_zero]
  funext y
  show Ideal.ofBits .f32 0x00000000#32 = 0
  exact Ideal.ofBits_zero_f32

section Cases

variable (tok : IVec Cert.Spec.S1x65536 32) (a0 : ℕ) (ha0 : a0 + 1024 ≤ 65536)
  (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole)
  (x0 : Vec Ideal S1x1024 .i32) (x1 : Vec Ideal S128x128 .bf16) (xs : Vec Ideal S528x1 .f32)
  (hx0 : ∀ (q : Fin 1024) (h : a0 + q.val < 65536), x0 (ix2 (0 : Fin 1) q) = Cert.Spec.tokAt tok ⟨a0 + q.val, h⟩)
  (hU : ∀ r q : Fin 128, x1 (ix2 r q) = if r.val ≤ q.val then (1 : EReal) else 0)
  (hxs : xs = countsAt tok a0)

include ha0 hx0 hU hxs in
theorem out_B_2_value (hc0 : ¬cond_first i) (hc1 : ¬cond_last i) :
    out_B_2 c i arg1 harg1 arg2 harg2 arg3 harg3 arg4 harg4 arg5 harg5 hc0 hc1 x0 x1 xs
      = fun y : S1x1024.Idx => rankAt tok (a0 + (y 1).val) := by
  rw [out_B_2_eq]
  exact canon_rankPieces tok a0 ha0 x0 hx0 x1 hU xs hxs (fun y => by
    have := cover_B_2 c i arg1 harg1 arg2 harg2 arg3 harg3 arg4 harg4 arg5 harg5 hc0 hc1 x0 x1 xs y
    rwa [pieces2_B] at this)

include ha0 hx0 hU hxs in
theorem sout_B_value (hc0 : ¬cond_first i) (hc1 : ¬cond_last i) :
    sout_B c i arg1 harg1 arg2 harg2 arg3 harg3 arg4 harg4 arg5 harg5 hc0 hc1 x0 x1 xs = countsAt tok (a0 + 1024) := by
  rw [sout_B_eq]
  exact newCarry_value tok a0 ha0 x0 hx0 x1 hU xs hxs

include ha0 hx0 hU hxs in
theorem out_C_2_value (hc0 : ¬cond_first i) (hc1 : cond_last i) :
    out_C_2 c i arg1 harg1 arg2 harg2 arg3 harg3 arg4 harg4 arg5 harg5 hc0 hc1 x0 x1 xs
      = fun y : S1x1024.Idx => rankAt tok (a0 + (y 1).val) := by
  rw [out_C_2_eq]
  exact canon_rankPieces tok a0 ha0 x0 hx0 x1 hU xs hxs (fun y => by
    have := cover_C_2 c i arg1 harg1 arg2 harg2 arg3 harg3 arg4 harg4 arg5 harg5 hc0 hc1 x0 x1 xs y
    rwa [pieces2_C] at this)

include ha0 hx0 hU hxs in
theorem sout_C_value (hc0 : ¬cond_first i) (hc1 : cond_last i) :
    sout_C c i arg1 harg1 arg2 harg2 arg3 harg3 arg4 harg4 arg5 harg5 hc0 hc1 x0 x1 xs = countsAt tok (a0 + 1024) := by
  rw [sout_C_eq]
  exact newCarry_value tok a0 ha0 x0 hx0 x1 hU xs hxs

include ha0 hx0 hU hxs in
theorem out_C_3_value (hc0 : ¬cond_first i) (hc1 : cond_last i) :
    out_C_3 c i arg1 harg1 arg2 harg2 arg3 harg3 arg4 harg4 arg5 harg5 hc0 hc1 x0 x1 xs = countsAt tok (a0 + 1024) := by
  rw [out_C_3_eq]
  exact newCarry_value tok a0 ha0 x0 hx0 x1 hU xs hxs

end Cases

section CaseA

variable (tok : IVec Cert.Spec.S1x65536 32)
  (c : Dev nD) (i : grid0.Coords) (arg1 : Memref sig .tc .vmem S1x1024 .i32) (harg1 : arg1.IsWhole) (arg2 : Memref sig .tc .vmem S128x128 .bf16) (harg2 : arg2.IsWhole) (arg3 : Memref sig .tc .vmem S1x1024 .i32) (harg3 : arg3.IsWhole) (arg4 : Memref sig .tc .vmem S528x1 .f32) (harg4 : arg4.IsWhole) (arg5 : Memref sig .tc .vmem S528x1 .f32) (harg5 : arg5.IsWhole)
  (x0 : Vec Ideal S1x1024 .i32) (x1 : Vec Ideal S128x128 .bf16)
  (hx0 : ∀ (q : Fin 1024) (h : 0 + q.val < 65536), x0 (ix2 (0 : Fin 1) q) = Cert.Spec.tokAt tok ⟨0 + q.val, h⟩)
  (hU : ∀ r q : Fin 128, x1 (ix2 r q) = if r.val ≤ q.val then (1 : EReal) else 0)

include hx0 hU in
theorem out_A_2_value (hc0 : cond_first i) (hc1 : ¬cond_last i) :
    out_A_2 c i arg1 harg1 arg2 harg2 arg3 harg3 arg4 harg4 arg5 harg5 hc0 hc1 x0 x1
      = fun y : S1x1024.Idx => rankAt tok (0 + (y 1).val) := by
  rw [out_A_2_eq]
  exact canon_rankPieces tok 0 (by norm_num) x0 hx0 x1 hU (k0_pay2 (F := Ideal)) (pay2_eq tok) (fun y => by
    have := cover_A_2 c i arg1 harg1 arg2 harg2 arg3 harg3 arg4 harg4 arg5 harg5 hc0 hc1 x0 x1 y
    rwa [pieces2_A] at this)

include hx0 hU in
theorem sout_A_value (hc0 : cond_first i) (hc1 : ¬cond_last i) :
    sout_A c i arg1 harg1 arg2 harg2 arg3 harg3 arg4 harg4 arg5 harg5 hc0 hc1 x0 x1 = countsAt tok (0 + 1024) := by
  rw [sout_A_eq]
  exact newCarry_value tok 0 (by norm_num) x0 hx0 x1 hU (k0_pay2 (F := Ideal)) (pay2_eq tok)

end CaseA

/-! ## Over the grid -/

section Grid

variable (m : (ℓ : Loc nD τ sig) → Buf (Elt Ideal) ℓ) (c : Dev nD)

/-- The token row as the region finds it. -/
abbrev tokArr : IVec Cert.Spec.S1x65536 32 := (V (F := Ideal) m c main_v6 : Vec Ideal S1x65536 .i32)

/-- The tokens' block at a point, and the triangular matrix's, at their literal types. -/
abbrev xblk (t : Fin cfg0.N) : Vec Ideal S1x1024 .i32 := iblk (F := Ideal) m c 0 t
abbrev ublk (t : Fin cfg0.N) : Vec Ideal S128x128 .bf16 := iblk (F := Ideal) m c 1 t

variable (hU : ∀ r q : Fin 128, (V (F := Ideal) m c main_v8 : Vec Ideal S128x128 .bf16) (ix2 r q) = if r.val ≤ q.val then (1 : EReal) else 0)

theorem xblk_apply (t : Fin cfg0.N) (q : Fin 1024) (h : 1024 * t.val + q.val < 65536) :
    xblk m c t (ix2 (0 : Fin 1) q) = Cert.Spec.tokAt (tokArr m c) ⟨1024 * t.val + q.val, h⟩ := iblk0_apply m c t q

include hU in
theorem ublk_apply (t : Fin cfg0.N) (r q : Fin 128) : ublk m c t (ix2 r q) = if r.val ≤ q.val then (1 : EReal) else 0 := by
  unfold ublk; rw [iblk1_eq]; exact hU r q

include hU in
/-- THE INVARIANT. After point `n` the ranks window's buffer holds the row's ranks at the positions of block `n`, the
    carried vector the counts of the positions before the end of block `n`, and at the last point the counts window's
    buffer holds the carried vector. -/
theorem inv : ∀ (n : ℕ) (h : n < cfg0.N),
    (outsAt (F := Ideal) m c n h).1 = (fun y : S1x1024.Idx => rankAt (tokArr m c) (1024 * n + (y 1).val))
    ∧ (outsAt (F := Ideal) m c n h).2.2 = countsAt (tokArr m c) (1024 * n + 1024)
    ∧ (n % 64 = 63 → (outsAt (F := Ideal) m c n h).2.1 = countsAt (tokArr m c) (1024 * n + 1024))
  | 0, h => by
    have h0 : (⟨0, h⟩ : Fin cfg0.N).val % 64 = 0 := rfl
    have h1 : ¬(⟨0, h⟩ : Fin cfg0.N).val % 64 = 63 := by dsimp only; omega
    rw [outsAt_A m c ⟨0, h⟩ h0 h1]
    dsimp only
    refine ⟨?_, ?_, fun h63 => absurd h63 (by omega)⟩
    · exact out_A_2_value (tokArr m c) c (grid0.coords ⟨0, h⟩) (ms_0 ⟨0, h⟩) (hs_0 ⟨0, h⟩) (ms_1 ⟨0, h⟩) (hs_1 ⟨0, h⟩) (ms_2 ⟨0, h⟩) (hs_2 ⟨0, h⟩) (ms_3 ⟨0, h⟩) (hs_3 ⟨0, h⟩) scM hscM
        (xblk m c ⟨0, h⟩) (ublk m c ⟨0, h⟩) (fun q hq => xblk_apply m c ⟨0, h⟩ q hq) (ublk_apply m c hU ⟨0, h⟩) _ _
    · exact sout_A_value (tokArr m c) c (grid0.coords ⟨0, h⟩) (ms_0 ⟨0, h⟩) (hs_0 ⟨0, h⟩) (ms_1 ⟨0, h⟩) (hs_1 ⟨0, h⟩) (ms_2 ⟨0, h⟩) (hs_2 ⟨0, h⟩) (ms_3 ⟨0, h⟩) (hs_3 ⟨0, h⟩) scM hscM
        (xblk m c ⟨0, h⟩) (ublk m c ⟨0, h⟩) (fun q hq => xblk_apply m c ⟨0, h⟩ q hq) (ublk_apply m c hU ⟨0, h⟩) _ _
  | n + 1, h => by
    have hN : n + 1 < 64 := lt_64 ⟨n + 1, h⟩
    have ih := inv n (Nat.lt_of_succ_lt h)
    have h0 : ¬(⟨n + 1, h⟩ : Fin cfg0.N).val % 64 = 0 := by dsimp only; omega
    have ha0 : 1024 * (n + 1) + 1024 ≤ 65536 := by omega
    have hxs : (outsAt (F := Ideal) m c n (Nat.lt_of_succ_lt h)).2.2 = countsAt (tokArr m c) (1024 * (n + 1)) := by
      rw [ih.2.1]; exact congrArg _ (by ring)
    by_cases h1 : (⟨n + 1, h⟩ : Fin cfg0.N).val % 64 = 63
    · rw [outsAt_C m c ⟨n + 1, h⟩ h0 h1]
      dsimp only
      refine ⟨?_, ?_, fun _ => ?_⟩
      · exact out_C_2_value (tokArr m c) (1024 * (n + 1)) ha0 c (grid0.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM hscM
          (xblk m c ⟨n + 1, h⟩) (ublk m c ⟨n + 1, h⟩) (outsAt (F := Ideal) m c n (Nat.lt_of_succ_lt h)).2.2
          (fun q hq => xblk_apply m c ⟨n + 1, h⟩ q hq) (ublk_apply m c hU ⟨n + 1, h⟩) hxs _ _
      · exact sout_C_value (tokArr m c) (1024 * (n + 1)) ha0 c (grid0.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM hscM
          (xblk m c ⟨n + 1, h⟩) (ublk m c ⟨n + 1, h⟩) (outsAt (F := Ideal) m c n (Nat.lt_of_succ_lt h)).2.2
          (fun q hq => xblk_apply m c ⟨n + 1, h⟩ q hq) (ublk_apply m c hU ⟨n + 1, h⟩) hxs _ _
      · exact out_C_3_value (tokArr m c) (1024 * (n + 1)) ha0 c (grid0.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM hscM
          (xblk m c ⟨n + 1, h⟩) (ublk m c ⟨n + 1, h⟩) (outsAt (F := Ideal) m c n (Nat.lt_of_succ_lt h)).2.2
          (fun q hq => xblk_apply m c ⟨n + 1, h⟩ q hq) (ublk_apply m c hU ⟨n + 1, h⟩) hxs _ _
    · rw [outsAt_B m c ⟨n + 1, h⟩ h0 h1]
      dsimp only
      refine ⟨?_, ?_, fun h63 => absurd h63 h1⟩
      · exact out_B_2_value (tokArr m c) (1024 * (n + 1)) ha0 c (grid0.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM hscM
          (xblk m c ⟨n + 1, h⟩) (ublk m c ⟨n + 1, h⟩) (outsAt (F := Ideal) m c n (Nat.lt_of_succ_lt h)).2.2
          (fun q hq => xblk_apply m c ⟨n + 1, h⟩ q hq) (ublk_apply m c hU ⟨n + 1, h⟩) hxs _ _
      · exact sout_B_value (tokArr m c) (1024 * (n + 1)) ha0 c (grid0.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) scM hscM
          (xblk m c ⟨n + 1, h⟩) (ublk m c ⟨n + 1, h⟩) (outsAt (F := Ideal) m c n (Nat.lt_of_succ_lt h)).2.2
          (fun q hq => xblk_apply m c ⟨n + 1, h⟩ q hq) (ublk_apply m c hU ⟨n + 1, h⟩) hxs _ _

include hU in
/-- The ranks array after the run: the token row's ranks. -/
theorem ranks_eq_of : (dats (F := Ideal) m 0 c).arrAt 2 cfg0.N = Cert.Spec.rankArr (tokArr m c) :=
  ranks_of_inv m c (tokArr m c) fun t => (inv m c hU t.val t.isLt).1

include hU in
/-- The counts array after the run: the token row's counts. -/
theorem counts_eq_of : (dats (F := Ideal) m 0 c).arrAt 3 cfg0.N = Cert.Spec.countsArr (tokArr m c) :=
  counts_of_inv m c (tokArr m c) fun t h63 => by
    have hN := lt_64 t
    rw [(inv m c hU t.val t.isLt).2.2 h63]
    exact congrArg _ (by omega)

end Grid

end Cert.KernelIdeal.HandValue

end
-- ==== Proof.KI.Value.lean ====
/-
  The rank kernel's two output arrays, in closed form.

  The second input of the kernel is the upper-triangular array of ones the program builds before the region, and the
  first is the token row it builds from its first argument. So after the run the ranks array holds, at each position,
  the number of earlier positions of the token row with the same token (or the all-ones word for a token that is no
  id), and the counts array holds, for each id, the number of positions of the token row holding it.
-/
import proofs.«408099_j23811298689264_3_alg».proof.Proof.KI.GridValue
import proofs.«408099_j23811298689264_3_alg».proof.Proof.KI.PreRead

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- The second input as the region finds it: one on and above the diagonal, zero below. -/
theorem triArr (r q : Fin 128) :
    (V (F := Ideal) m c main_v8 : Vec Ideal S128x128 .bf16) (ix2 r q) = if r.val ≤ q.val then (1 : EReal) else 0 :=
  V₀_tri m c r q

/-- The token row as the region finds it is the row the program builds from its first argument. -/
theorem tokArr_eq : tokArr m c = Cert.KernelIdeal.Hand.tokRow (m ((c.tc : Thread nD τ).loc main_arg0)) :=
  V₀_tokRow m c

/-- The ranks array after the run: the token row's ranks. -/
theorem ranks_eq : (dats (F := Ideal) m 0 c).arrAt 2 cfg0.N = Cert.Spec.rankArr (tokArr m c) :=
  ranks_eq_of m c (triArr m c)

/-- The counts array after the run: the token row's counts. -/
theorem counts_eq : (dats (F := Ideal) m 0 c).arrAt 3 cfg0.N = Cert.Spec.countsArr (tokArr m c) :=
  counts_eq_of m c (triArr m c)

end Cert.KernelIdeal.HandValue

end
-- ==== Proof.Bridge.SplitK.lean ====
/- The operations after the region, in order, cut into four consecutive stretches kS0 … kS3 (4 + 168 + 59 + 155 = 386),
   and that the four in order are the stretches after the region flattened. The cuts fall after the histogram's words,
   after the free list and after the new page table: each later stretch reads from the earlier ones a handful of
   values only. -/
import proofs.«408099_j23811298689264_3_alg».proof.Proof.KI.Tail

set_option maxRecDepth 8192

noncomputable section

namespace Cert.Bridge

open Cert.KernelIdeal Cert.KernelIdeal.Gen Cert.KernelIdeal.Hand Idealize.ShloMosaic Idealize.ShloMosaic.TcCoe Idealize.SL.Sem Idealize.ShloMosaic.StableHlo

variable {F : FTy → Type} [FloatOps F]

/-- The operations after the region up to the histogram's words (4). -/
abbrev kS0 : List (HloOp τ sig (Elt F)) :=
  [ StableHlo.reshape main_v9_0 main_v10 rfl shapeCasts_S1x65536_S65536,
    StableHlo.unary main_v9_1 main_v11 ((extractStridedSlice S513x1 ![0, 0] · slices_S528x1_S513x1_0_0) : (⟨S528x1, .f32⟩ : BufTy).Contents (Elt F) → (⟨S513x1, .f32⟩ : BufTy).Contents (Elt F)),
    StableHlo.reshape main_v11 main_v12 rfl shapeCasts_S513x1_S513,
    StableHlo.unary main_v12 main_v13 (fptosi 32 : (⟨S513, .f32⟩ : BufTy).Contents (Elt F) → (⟨S513, .i32⟩ : BufTy).Contents (Elt F)) ]

/-- From there up to the free list (168). -/
abbrev kS1 : List (HloOp τ sig (Elt F)) :=
  [ StableHlo.nullary main_v14 (iotaInDim S513 32 0),
    StableHlo.nullary main_c_3 (constantI S_ 32 0#32),
    StableHlo.unary main_c_3 main_v15 (broadcastInDim S513 ![] bcast_S_S513 : (⟨S_, .i32⟩ : BufTy).Contents (Elt F) → (⟨S513, .i32⟩ : BufTy).Contents (Elt F)),
    StableHlo.binary main_v13 main_v15 main_v16 (cmpi .sgt : (⟨S513, .i32⟩ : BufTy).Contents (Elt F) → (⟨S513, .i32⟩ : BufTy).Contents (Elt F) → (⟨S513, .i1⟩ : BufTy).Contents (Elt F)),
    StableHlo.nullary main_c_4 (constantI S_ 32 1073741824#32),
    StableHlo.TRef.unary (.of main_c_4 : StableHlo.TRef sig ⟨S_, .i32⟩) (.of main_call3_v0 : StableHlo.TRef sig ⟨S513, .i32⟩) (broadcastInDim S513 ![] bcast_S_S513),
    StableHlo.TRef.ternary (.of main_v16 : StableHlo.TRef sig ⟨S513, .i1⟩) (.of main_v14 : StableHlo.TRef sig ⟨S513, .i32⟩) (.of main_call3_v0 : StableHlo.TRef sig ⟨S513, .i32⟩) (.of main_v17 : StableHlo.TRef sig ⟨S513, .i32⟩) select,
    StableHlo.TRef.unary (.of main_v17 : StableHlo.TRef sig ⟨S513, .i32⟩) (.of main_v18 : StableHlo.TRef sig ⟨S513, .i32⟩) (fun x => Host.sort S513 0 comparator_i32_d0 x),
    StableHlo.unary main_v18 main_v19 ((extractStridedSlice S512 ![0] · slices_S513_S512_0) : (⟨S513, .i32⟩ : BufTy).Contents (Elt F) → (⟨S512, .i32⟩ : BufTy).Contents (Elt F)),
    StableHlo.nullary main_c_5 (constantI S_ 32 1073741824#32),
    StableHlo.unary main_c_5 main_v20 (broadcastInDim S512 ![] bcast_S_S512 : (⟨S_, .i32⟩ : BufTy).Contents (Elt F) → (⟨S512, .i32⟩ : BufTy).Contents (Elt F)),
    StableHlo.binary main_v19 main_v20 main_v21 (cmpi .sge : (⟨S512, .i32⟩ : BufTy).Contents (Elt F) → (⟨S512, .i32⟩ : BufTy).Contents (Elt F) → (⟨S512, .i1⟩ : BufTy).Contents (Elt F)),
    StableHlo.nullary main_c_6 (constantI S_ 32 4294967295#32),
    StableHlo.TRef.unary (.of main_c_6 : StableHlo.TRef sig ⟨S_, .i32⟩) (.of main_call5_v0 : StableHlo.TRef sig ⟨S512, .i32⟩) (broadcastInDim S512 ![] bcast_S_S512),
    StableHlo.TRef.ternary (.of main_v21 : StableHlo.TRef sig ⟨S512, .i1⟩) (.of main_call5_v0 : StableHlo.TRef sig ⟨S512, .i32⟩) (.of main_v19 : StableHlo.TRef sig ⟨S512, .i32⟩) (.of main_v22 : StableHlo.TRef sig ⟨S512, .i32⟩) select,
    StableHlo.nullary main_c_7 (constantI S_ 32 0#32),
    StableHlo.unary main_c_7 main_v23 (broadcastInDim S512 ![] bcast_S_S512 : (⟨S_, .i32⟩ : BufTy).Contents (Elt F) → (⟨S512, .i32⟩ : BufTy).Contents (Elt F)),
    StableHlo.binary main_v22 main_v23 main_v24 (cmpi .sge : (⟨S512, .i32⟩ : BufTy).Contents (Elt F) → (⟨S512, .i32⟩ : BufTy).Contents (Elt F) → (⟨S512, .i1⟩ : BufTy).Contents (Elt F)),
    StableHlo.nullary main_c_8 (constantI S_ 32 512#32),
    StableHlo.unary main_c_8 main_v25 (broadcastInDim S512 ![] bcast_S_S512 : (⟨S_, .i32⟩ : BufTy).Contents (Elt F) → (⟨S512, .i32⟩ : BufTy).Contents (Elt F)),
    StableHlo.binary main_v22 main_v25 main_v26 (cmpi .slt : (⟨S512, .i32⟩ : BufTy).Contents (Elt F) → (⟨S512, .i32⟩ : BufTy).Contents (Elt F) → (⟨S512, .i1⟩ : BufTy).Contents (Elt F)),
    StableHlo.binary main_v24 main_v26 main_v27 (andi : (⟨S512, .i1⟩ : BufTy).Contents (Elt F) → (⟨S512, .i1⟩ : BufTy).Contents (Elt F) → (⟨S512, .i1⟩ : BufTy).Contents (Elt F)),
    StableHlo.nullary main_c_9 (constantI S_ 32 0#32),
    StableHlo.TRef.unary (.of main_c_9 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S512, .i32⟩) (broadcastInDim S512 ![] bcast_S_S512),
    StableHlo.TRef.ternary (.of main_v27 : StableHlo.TRef sig ⟨S512, .i1⟩) (.of main_v22 : StableHlo.TRef sig ⟨S512, .i32⟩) (.of main_call6_v1 : StableHlo.TRef sig ⟨S512, .i32⟩) (.of main_v28 : StableHlo.TRef sig ⟨S512, .i32⟩) select,
    StableHlo.nullary main_c_10 (constantI S_ 32 0#32),
    StableHlo.unary main_c_10 main_v29 (broadcastInDim S512 ![] bcast_S_S512 : (⟨S_, .i32⟩ : BufTy).Contents (Elt F) → (⟨S512, .i32⟩ : BufTy).Contents (Elt F)),
    StableHlo.binary main_v28 main_v29 main_v30 (cmpi .slt : (⟨S512, .i32⟩ : BufTy).Contents (Elt F) → (⟨S512, .i32⟩ : BufTy).Contents (Elt F) → (⟨S512, .i1⟩ : BufTy).Contents (Elt F)),
    StableHlo.nullary main_c_11 (constantI S_ 32 513#32),
    StableHlo.unary main_c_11 main_v31 (broadcastInDim S512 ![] bcast_S_S512 : (⟨S_, .i32⟩ : BufTy).Contents (Elt F) → (⟨S512, .i32⟩ : BufTy).Contents (Elt F)),
    StableHlo.binary main_v28 main_v31 main_v32 (addi : (⟨S512, .i32⟩ : BufTy).Contents (Elt F) → (⟨S512, .i32⟩ : BufTy).Contents (Elt F) → (⟨S512, .i32⟩ : BufTy).Contents (Elt F)),
    StableHlo.ternary main_v30 main_v32 main_v28 main_v33 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v33 main_v34 (broadcastInDim S512x1 ![0] bcast_S512_S512x1_0 : (⟨S512, .i32⟩ : BufTy).Contents (Elt F) → (⟨S512x1, .i32⟩ : BufTy).Contents (Elt F)),
    StableHlo.binary main_v13 main_v34 main_v35 ((fun x i => Host.gather gather_S513_S512x1_S512_n_0_n_n_0_1_1 x i) : (⟨S513, .i32⟩ : BufTy).Contents (Elt F) → (⟨S512x1, .i32⟩ : BufTy).Contents (Elt F) → (⟨S512, .i32⟩ : BufTy).Contents (Elt F)),
    StableHlo.nullary main_c_12 (constantI S_ 32 0#32),
    StableHlo.TRef.unary (.of main_c_12 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S512, .i32⟩) (broadcastInDim S512 ![] bcast_S_S512),
    StableHlo.TRef.ternary (.of main_v27 : StableHlo.TRef sig ⟨S512, .i1⟩) (.of main_v35 : StableHlo.TRef sig ⟨S512, .i32⟩) (.of main_call7_v1 : StableHlo.TRef sig ⟨S512, .i32⟩) (.of main_v36 : StableHlo.TRef sig ⟨S512, .i32⟩) select,
    StableHlo.nullary main_c_13 (constantI S_ 32 0#32),
    StableHlo.unary main_c_13 main_v37 (broadcastInDim S512 ![] bcast_S_S512 : (⟨S_, .i32⟩ : BufTy).Contents (Elt F) → (⟨S512, .i32⟩ : BufTy).Contents (Elt F)),
    StableHlo.binary main_arg1 main_v37 main_v38 (cmpi .slt : (⟨S512, .i32⟩ : BufTy).Contents (Elt F) → (⟨S512, .i32⟩ : BufTy).Contents (Elt F) → (⟨S512, .i1⟩ : BufTy).Contents (Elt F)),
    StableHlo.nullary main_c_14 (constantI S_ 32 0#32),
    StableHlo.TRef.unary (.of main_c_14 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S512, .i32⟩) (broadcastInDim S512 ![] bcast_S_S512),
    StableHlo.TRef.ternary (.of main_v38 : StableHlo.TRef sig ⟨S512, .i1⟩) (.of main_call8_v1 : StableHlo.TRef sig ⟨S512, .i32⟩) (.of main_arg1 : StableHlo.TRef sig ⟨S512, .i32⟩) (.of main_v39 : StableHlo.TRef sig ⟨S512, .i32⟩) select,
    StableHlo.unary main_v13 main_v40 ((extractStridedSlice S512 ![0] · slices_S513_S512_0) : (⟨S513, .i32⟩ : BufTy).Contents (Elt F) → (⟨S512, .i32⟩ : BufTy).Contents (Elt F)),
    StableHlo.binary main_v39 main_v40 main_v41 (addi : (⟨S512, .i32⟩ : BufTy).Contents (Elt F) → (⟨S512, .i32⟩ : BufTy).Contents (Elt F) → (⟨S512, .i32⟩ : BufTy).Contents (Elt F)),
    StableHlo.nullary main_c_15 (constantI S_ 32 0#32),
    StableHlo.unary main_c_15 main_v42 (broadcastInDim S512 ![] bcast_S_S512 : (⟨S_, .i32⟩ : BufTy).Contents (Elt F) → (⟨S512, .i32⟩ : BufTy).Contents (Elt F)),
    StableHlo.binary main_arg1 main_v42 main_v43 (cmpi .sge : (⟨S512, .i32⟩ : BufTy).Contents (Elt F) → (⟨S512, .i32⟩ : BufTy).Contents (Elt F) → (⟨S512, .i1⟩ : BufTy).Contents (Elt F)),
    StableHlo.nullary main_c_16 (constantI S_ 32 4294967295#32),
    StableHlo.TRef.unary (.of main_c_16 : StableHlo.TRef sig ⟨S_, .i32⟩) (.of main_call9_v0 : StableHlo.TRef sig ⟨S512, .i32⟩) (broadcastInDim S512 ![] bcast_S_S512),
    StableHlo.TRef.ternary (.of main_v43 : StableHlo.TRef sig ⟨S512, .i1⟩) (.of main_v41 : StableHlo.TRef sig ⟨S512, .i32⟩) (.of main_call9_v0 : StableHlo.TRef sig ⟨S512, .i32⟩) (.of main_v44 : StableHlo.TRef sig ⟨S512, .i32⟩) select,
    StableHlo.nullary main_c_17 (constantI S_ 32 128#32),
    StableHlo.unary main_c_17 main_v45 (broadcastInDim S512 ![] bcast_S_S512 : (⟨S_, .i32⟩ : BufTy).Contents (Elt F) → (⟨S512, .i32⟩ : BufTy).Contents (Elt F)),
    StableHlo.binary main_v44 main_v45 main_v46 (addi : (⟨S512, .i32⟩ : BufTy).Contents (Elt F) → (⟨S512, .i32⟩ : BufTy).Contents (Elt F) → (⟨S512, .i32⟩ : BufTy).Contents (Elt F)),
    StableHlo.nullary main_c_18 (constantI S_ 32 1#32),
    StableHlo.unary main_c_18 main_v47 (broadcastInDim S512 ![] bcast_S_S512 : (⟨S_, .i32⟩ : BufTy).Contents (Elt F) → (⟨S512, .i32⟩ : BufTy).Contents (Elt F)),
    StableHlo.binary main_v46 main_v47 main_v48 (subi : (⟨S512, .i32⟩ : BufTy).Contents (Elt F) → (⟨S512, .i32⟩ : BufTy).Contents (Elt F) → (⟨S512, .i32⟩ : BufTy).Contents (Elt F)),
    StableHlo.nullary main_c_19 (constantI S_ 32 128#32),
    StableHlo.TRef.unary (.of main_c_19 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S512, .i32⟩) (broadcastInDim S512 ![] bcast_S_S512),
    StableHlo.TRef.binary (.of main_v48 : StableHlo.TRef sig ⟨S512, .i32⟩) (.of main_call10_v1 : StableHlo.TRef sig ⟨S512, .i32⟩) (.of main_call10_v2 : StableHlo.TRef sig ⟨S512, .i32⟩) Host.divsi,
    StableHlo.TRef.unary (.of main_v48 : StableHlo.TRef sig ⟨S512, .i32⟩) (.of main_call10_v3 : StableHlo.TRef sig ⟨S512, .i32⟩) signi,
    StableHlo.TRef.unary (.of main_call10_v0 : StableHlo.TRef sig ⟨S_, .i32⟩) (.of main_call10_v4 : StableHlo.TRef sig ⟨S_, .i32⟩) signi,
    StableHlo.TRef.unary (.of main_call10_v4 : StableHlo.TRef sig ⟨S_, .i32⟩) (.of main_call10_v5 : StableHlo.TRef sig ⟨S512, .i32⟩) (broadcastInDim S512 ![] bcast_S_S512),
    StableHlo.TRef.binary (.of main_call10_v3 : StableHlo.TRef sig ⟨S512, .i32⟩) (.of main_call10_v5 : StableHlo.TRef sig ⟨S512, .i32⟩) (.of main_call10_v6 : StableHlo.TRef sig ⟨S512, .i1⟩) (cmpi .ne),
    StableHlo.TRef.unary (.of main_call10_v0 : StableHlo.TRef sig ⟨S_, .i32⟩) (.of main_call10_v7 : StableHlo.TRef sig ⟨S512, .i32⟩) (broadcastInDim S512 ![] bcast_S_S512),
    StableHlo.TRef.binary (.of main_v48 : StableHlo.TRef sig ⟨S512, .i32⟩) (.of main_call10_v7 : StableHlo.TRef sig ⟨S512, .i32⟩) (.of main_call10_v8 : StableHlo.TRef sig ⟨S512, .i32⟩) Host.remsi,
    StableHlo.TRef.nullary (.of main_call10_c : StableHlo.TRef sig ⟨S_, .i32⟩) (constantI S_ 32 0#32),
    StableHlo.TRef.unary (.of main_call10_c : StableHlo.TRef sig ⟨S_, .i32⟩) (.of main_call10_v9 : StableHlo.TRef sig ⟨S512, .i32⟩) (broadcastInDim S512 ![] bcast_S_S512),
    StableHlo.TRef.binary (.of main_call10_v8 : StableHlo.TRef sig ⟨S512, .i32⟩) (.of main_call10_v9 : StableHlo.TRef sig ⟨S512, .i32⟩) (.of main_call10_v10 : StableHlo.TRef sig ⟨S512, .i1⟩) (cmpi .ne),
    StableHlo.TRef.binary (.of main_call10_v6 : StableHlo.TRef sig ⟨S512, .i1⟩) (.of main_call10_v10 : StableHlo.TRef sig ⟨S512, .i1⟩) (.of main_call10_v11 : StableHlo.TRef sig ⟨S512, .i1⟩) andi,
    StableHlo.TRef.nullary (.of main_call10_c_0 : StableHlo.TRef sig ⟨S_, .i32⟩) (constantI S_ 32 1#32),
    StableHlo.TRef.unary (.of main_call10_c_0 : StableHlo.TRef sig ⟨S_, .i32⟩) (.of main_call10_v12 : StableHlo.TRef sig ⟨S512, .i32⟩) (broadcastInDim S512 ![] bcast_S_S512),
    StableHlo.TRef.binary (.of main_call10_v2 : StableHlo.TRef sig ⟨S512, .i32⟩) (.of main_call10_v12 : StableHlo.TRef sig ⟨S512, .i32⟩) (.of main_call10_v13 : StableHlo.TRef sig ⟨S512, .i32⟩) subi,
    StableHlo.TRef.ternary (.of main_call10_v11 : StableHlo.TRef sig ⟨S512, .i1⟩) (.of main_call10_v13 : StableHlo.TRef sig ⟨S512, .i32⟩) (.of main_call10_v2 : StableHlo.TRef sig ⟨S512, .i32⟩) (.of main_v49 : StableHlo.TRef sig ⟨S512, .i32⟩) select,
    StableHlo.nullary main_c_20 (constantI S_ 32 128#32),
    StableHlo.unary main_c_20 main_v50 (broadcastInDim S512 ![] bcast_S_S512 : (⟨S_, .i32⟩ : BufTy).Contents (Elt F) → (⟨S512, .i32⟩ : BufTy).Contents (Elt F)),
    StableHlo.binary main_arg1 main_v50 main_v51 (addi : (⟨S512, .i32⟩ : BufTy).Contents (Elt F) → (⟨S512, .i32⟩ : BufTy).Contents (Elt F) → (⟨S512, .i32⟩ : BufTy).Contents (Elt F)),
    StableHlo.nullary main_c_21 (constantI S_ 32 1#32),
    StableHlo.unary main_c_21 main_v52 (broadcastInDim S512 ![] bcast_S_S512 : (⟨S_, .i32⟩ : BufTy).Contents (Elt F) → (⟨S512, .i32⟩ : BufTy).Contents (Elt F)),
    StableHlo.binary main_v51 main_v52 main_v53 (subi : (⟨S512, .i32⟩ : BufTy).Contents (Elt F) → (⟨S512, .i32⟩ : BufTy).Contents (Elt F) → (⟨S512, .i32⟩ : BufTy).Contents (Elt F)),
    StableHlo.nullary main_c_22 (constantI S_ 32 128#32),
    StableHlo.TRef.unary (.of main_c_22 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S512, .i32⟩) (broadcastInDim S512 ![] bcast_S_S512),
    StableHlo.TRef.binary (.of main_v53 : StableHlo.TRef sig ⟨S512, .i32⟩) (.of main_call11_v1 : StableHlo.TRef sig ⟨S512, .i32⟩) (.of main_call11_v2 : StableHlo.TRef sig ⟨S512, .i32⟩) Host.divsi,
    StableHlo.TRef.unary (.of main_v53 : StableHlo.TRef sig ⟨S512, .i32⟩) (.of main_call11_v3 : StableHlo.TRef sig ⟨S512, .i32⟩) signi,
    StableHlo.TRef.unary (.of main_call11_v0 : StableHlo.TRef sig ⟨S_, .i32⟩) (.of main_call11_v4 : StableHlo.TRef sig ⟨S_, .i32⟩) signi,
    StableHlo.TRef.unary (.of main_call11_v4 : StableHlo.TRef sig ⟨S_, .i32⟩) (.of main_call11_v5 : StableHlo.TRef sig ⟨S512, .i32⟩) (broadcastInDim S512 ![] bcast_S_S512),
    StableHlo.TRef.binary (.of main_call11_v3 : StableHlo.TRef sig ⟨S512, .i32⟩) (.of main_call11_v5 : StableHlo.TRef sig ⟨S512, .i32⟩) (.of main_call11_v6 : StableHlo.TRef sig ⟨S512, .i1⟩) (cmpi .ne),
    StableHlo.TRef.unary (.of main_call11_v0 : StableHlo.TRef sig ⟨S_, .i32⟩) (.of main_call11_v7 : StableHlo.TRef sig ⟨S512, .i32⟩) (broadcastInDim S512 ![] bcast_S_S512),
    StableHlo.TRef.binary (.of main_v53 : StableHlo.TRef sig ⟨S512, .i32⟩) (.of main_call11_v7 : StableHlo.TRef sig ⟨S512, .i32⟩) (.of main_call11_v8 : StableHlo.TRef sig ⟨S512, .i32⟩) Host.remsi,
    StableHlo.TRef.nullary (.of main_call11_c : StableHlo.TRef sig ⟨S_, .i32⟩) (constantI S_ 32 0#32),
    StableHlo.TRef.unary (.of main_call11_c : StableHlo.TRef sig ⟨S_, .i32⟩) (.of main_call11_v9 : StableHlo.TRef sig ⟨S512, .i32⟩) (broadcastInDim S512 ![] bcast_S_S512),
    StableHlo.TRef.binary (.of main_call11_v8 : StableHlo.TRef sig ⟨S512, .i32⟩) (.of main_call11_v9 : StableHlo.TRef sig ⟨S512, .i32⟩) (.of main_call11_v10 : StableHlo.TRef sig ⟨S512, .i1⟩) (cmpi .ne),
    StableHlo.TRef.binary (.of main_call11_v6 : StableHlo.TRef sig ⟨S512, .i1⟩) (.of main_call11_v10 : StableHlo.TRef sig ⟨S512, .i1⟩) (.of main_call11_v11 : StableHlo.TRef sig ⟨S512, .i1⟩) andi,
    StableHlo.TRef.nullary (.of main_call11_c_0 : StableHlo.TRef sig ⟨S_, .i32⟩) (constantI S_ 32 1#32),
    StableHlo.TRef.unary (.of main_call11_c_0 : StableHlo.TRef sig ⟨S_, .i32⟩) (.of main_call11_v12 : StableHlo.TRef sig ⟨S512, .i32⟩) (broadcastInDim S512 ![] bcast_S_S512),
    StableHlo.TRef.binary (.of main_call11_v2 : StableHlo.TRef sig ⟨S512, .i32⟩) (.of main_call11_v12 : StableHlo.TRef sig ⟨S512, .i32⟩) (.of main_call11_v13 : StableHlo.TRef sig ⟨S512, .i32⟩) subi,
    StableHlo.TRef.ternary (.of main_call11_v11 : StableHlo.TRef sig ⟨S512, .i1⟩) (.of main_call11_v13 : StableHlo.TRef sig ⟨S512, .i32⟩) (.of main_call11_v2 : StableHlo.TRef sig ⟨S512, .i32⟩) (.of main_v54 : StableHlo.TRef sig ⟨S512, .i32⟩) select,
    StableHlo.nullary main_c_23 (constantI S_ 32 0#32),
    StableHlo.unary main_c_23 main_v55 (broadcastInDim S512 ![] bcast_S_S512 : (⟨S_, .i32⟩ : BufTy).Contents (Elt F) → (⟨S512, .i32⟩ : BufTy).Contents (Elt F)),
    StableHlo.binary main_v28 main_v55 main_v56 (cmpi .slt : (⟨S512, .i32⟩ : BufTy).Contents (Elt F) → (⟨S512, .i32⟩ : BufTy).Contents (Elt F) → (⟨S512, .i1⟩ : BufTy).Contents (Elt F)),
    StableHlo.nullary main_c_24 (constantI S_ 32 512#32),
    StableHlo.unary main_c_24 main_v57 (broadcastInDim S512 ![] bcast_S_S512 : (⟨S_, .i32⟩ : BufTy).Contents (Elt F) → (⟨S512, .i32⟩ : BufTy).Contents (Elt F)),
    StableHlo.binary main_v28 main_v57 main_v58 (addi : (⟨S512, .i32⟩ : BufTy).Contents (Elt F) → (⟨S512, .i32⟩ : BufTy).Contents (Elt F) → (⟨S512, .i32⟩ : BufTy).Contents (Elt F)),
    StableHlo.ternary main_v56 main_v58 main_v28 main_v59 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v59 main_v60 (broadcastInDim S512x1 ![0] bcast_S512_S512x1_0 : (⟨S512, .i32⟩ : BufTy).Contents (Elt F) → (⟨S512x1, .i32⟩ : BufTy).Contents (Elt F)),
    StableHlo.binary main_v54 main_v60 main_v61 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.nullary main_c_25 (constantI S_ 32 0#32),
    StableHlo.unary main_c_25 main_v62 (broadcastInDim S512 ![] bcast_S_S512 : (⟨S_, .i32⟩ : BufTy).Contents (Elt F) → (⟨S512, .i32⟩ : BufTy).Contents (Elt F)),
    StableHlo.binary main_v28 main_v62 main_v63 (cmpi .slt : (⟨S512, .i32⟩ : BufTy).Contents (Elt F) → (⟨S512, .i32⟩ : BufTy).Contents (Elt F) → (⟨S512, .i1⟩ : BufTy).Contents (Elt F)),
    StableHlo.nullary main_c_26 (constantI S_ 32 512#32),
    StableHlo.unary main_c_26 main_v64 (broadcastInDim S512 ![] bcast_S_S512 : (⟨S_, .i32⟩ : BufTy).Contents (Elt F) → (⟨S512, .i32⟩ : BufTy).Contents (Elt F)),
    StableHlo.binary main_v28 main_v64 main_v65 (addi : (⟨S512, .i32⟩ : BufTy).Contents (Elt F) → (⟨S512, .i32⟩ : BufTy).Contents (Elt F) → (⟨S512, .i32⟩ : BufTy).Contents (Elt F)),
    StableHlo.ternary main_v63 main_v65 main_v28 main_v66 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v66 main_v67 (broadcastInDim S512x1 ![0] bcast_S512_S512x1_0 : (⟨S512, .i32⟩ : BufTy).Contents (Elt F) → (⟨S512x1, .i32⟩ : BufTy).Contents (Elt F)),
    StableHlo.binary main_v49 main_v67 main_v68 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.binary main_v68 main_v61 main_v69 (subi : (⟨S512, .i32⟩ : BufTy).Contents (Elt F) → (⟨S512, .i32⟩ : BufTy).Contents (Elt F) → (⟨S512, .i32⟩ : BufTy).Contents (Elt F)),
    StableHlo.nullary main_c_27 (constantI S_ 32 0#32),
    StableHlo.unary main_c_27 main_v70 (broadcastInDim S512 ![] bcast_S_S512 : (⟨S_, .i32⟩ : BufTy).Contents (Elt F) → (⟨S512, .i32⟩ : BufTy).Contents (Elt F)),
    StableHlo.binary main_v69 main_v70 main_v71 (maxsi : (⟨S512, .i32⟩ : BufTy).Contents (Elt F) → (⟨S512, .i32⟩ : BufTy).Contents (Elt F) → (⟨S512, .i32⟩ : BufTy).Contents (Elt F)),
    StableHlo.nullary main_c_28 (constantI S_ 32 0#32),
    StableHlo.TRef.unary (.of main_c_28 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S512, .i32⟩) (broadcastInDim S512 ![] bcast_S_S512),
    StableHlo.TRef.ternary (.of main_v27 : StableHlo.TRef sig ⟨S512, .i1⟩) (.of main_v71 : StableHlo.TRef sig ⟨S512, .i32⟩) (.of main_call12_v1 : StableHlo.TRef sig ⟨S512, .i32⟩) (.of main_v72 : StableHlo.TRef sig ⟨S512, .i32⟩) select,
    StableHlo.TRef.nullary (.of main_call13_call0_c : StableHlo.TRef sig ⟨S_, .i32⟩) (constantI S_ 32 0#32),
    StableHlo.TRef.unary (.of main_call13_call0_c : StableHlo.TRef sig ⟨S_, .i32⟩) (.of main_call13_call0_v0 : StableHlo.TRef sig ⟨S_, .i32⟩) (broadcastInDim S_ ![] bcast_S_S_),
    StableHlo.TRef.binary (.of main_v72 : StableHlo.TRef sig ⟨S512, .i32⟩) (.of main_call13_call0_v0 : StableHlo.TRef sig ⟨S_, .i32⟩) (.of main_v73 : StableHlo.TRef sig ⟨S512, .i32⟩) (fun x v => Host.reduceWindow IntOp.addi ![512] ![1] ![511] ![0] x v reduceWindows_S512_S512_w512s1p511_0 h_S_),
    StableHlo.binary main_v73 main_v72 main_v74 (subi : (⟨S512, .i32⟩ : BufTy).Contents (Elt F) → (⟨S512, .i32⟩ : BufTy).Contents (Elt F) → (⟨S512, .i32⟩ : BufTy).Contents (Elt F)),
    StableHlo.nullary main_v75 (iotaInDim S65536 32 0),
    StableHlo.nullary main_c_29 (constantI S_ 32 0#32),
    StableHlo.unary main_c_29 main_v76 (broadcastInDim S65536 ![] bcast_S_S65536 : (⟨S_, .i32⟩ : BufTy).Contents (Elt F) → (⟨S65536, .i32⟩ : BufTy).Contents (Elt F)),
    StableHlo.binary main_arg3 main_v76 main_v77 (cmpi .eq : (⟨S65536, .i32⟩ : BufTy).Contents (Elt F) → (⟨S65536, .i32⟩ : BufTy).Contents (Elt F) → (⟨S65536, .i1⟩ : BufTy).Contents (Elt F)),
    StableHlo.unary main_v77 main_v78 ((extui 32 · natLt_1_32) : (⟨S65536, .i1⟩ : BufTy).Contents (Elt F) → (⟨S65536, .i32⟩ : BufTy).Contents (Elt F)),
    StableHlo.nullary main_c_30 (constantI S_ 32 0#32),
    StableHlo.binary main_v78 main_c_30 main_v79 ((fun x v => Host.reduce IntOp.addi x v reducesTo_S65536_S_d0 h_S_) : (⟨S65536, .i32⟩ : BufTy).Contents (Elt F) → (⟨S_, .i32⟩ : BufTy).Contents (Elt F) → (⟨S_, .i32⟩ : BufTy).Contents (Elt F)),
    StableHlo.TRef.nullary (.of main_call14_call0_c : StableHlo.TRef sig ⟨S_, .i32⟩) (constantI S_ 32 0#32),
    StableHlo.TRef.unary (.of main_call14_call0_c : StableHlo.TRef sig ⟨S_, .i32⟩) (.of main_call14_call0_v0 : StableHlo.TRef sig ⟨S_, .i32⟩) (broadcastInDim S_ ![] bcast_S_S_),
    StableHlo.TRef.binary (.of main_v78 : StableHlo.TRef sig ⟨S65536, .i32⟩) (.of main_call14_call0_v0 : StableHlo.TRef sig ⟨S_, .i32⟩) (.of main_v80 : StableHlo.TRef sig ⟨S65536, .i32⟩) (fun x v => Host.reduceWindow IntOp.addi ![65536] ![1] ![65535] ![0] x v reduceWindows_S65536_S65536_w65536s1p65535_0 h_S_),
    StableHlo.nullary main_c_31 (constantI S_ 32 1#32),
    StableHlo.unary main_c_31 main_v81 (broadcastInDim S65536 ![] bcast_S_S65536 : (⟨S_, .i32⟩ : BufTy).Contents (Elt F) → (⟨S65536, .i32⟩ : BufTy).Contents (Elt F)),
    StableHlo.binary main_v80 main_v81 main_v82 (subi : (⟨S65536, .i32⟩ : BufTy).Contents (Elt F) → (⟨S65536, .i32⟩ : BufTy).Contents (Elt F) → (⟨S65536, .i32⟩ : BufTy).Contents (Elt F)),
    StableHlo.nullary main_c_32 (constantI S_ 32 1#32),
    StableHlo.unary main_c_32 main_v83 (broadcastInDim S65536 ![] bcast_S_S65536 : (⟨S_, .i32⟩ : BufTy).Contents (Elt F) → (⟨S65536, .i32⟩ : BufTy).Contents (Elt F)),
    StableHlo.binary main_v83 main_v78 main_v84 (subi : (⟨S65536, .i32⟩ : BufTy).Contents (Elt F) → (⟨S65536, .i32⟩ : BufTy).Contents (Elt F) → (⟨S65536, .i32⟩ : BufTy).Contents (Elt F)),
    StableHlo.TRef.nullary (.of main_call15_call0_c : StableHlo.TRef sig ⟨S_, .i32⟩) (constantI S_ 32 0#32),
    StableHlo.TRef.unary (.of main_call15_call0_c : StableHlo.TRef sig ⟨S_, .i32⟩) (.of main_call15_call0_v0 : StableHlo.TRef sig ⟨S_, .i32⟩) (broadcastInDim S_ ![] bcast_S_S_),
    StableHlo.TRef.binary (.of main_v84 : StableHlo.TRef sig ⟨S65536, .i32⟩) (.of main_call15_call0_v0 : StableHlo.TRef sig ⟨S_, .i32⟩) (.of main_v85 : StableHlo.TRef sig ⟨S65536, .i32⟩) (fun x v => Host.reduceWindow IntOp.addi ![65536] ![1] ![65535] ![0] x v reduceWindows_S65536_S65536_w65536s1p65535_0 h_S_),
    StableHlo.nullary main_c_33 (constantI S_ 32 1#32),
    StableHlo.unary main_c_33 main_v86 (broadcastInDim S65536 ![] bcast_S_S65536 : (⟨S_, .i32⟩ : BufTy).Contents (Elt F) → (⟨S65536, .i32⟩ : BufTy).Contents (Elt F)),
    StableHlo.binary main_v85 main_v86 main_v87 (subi : (⟨S65536, .i32⟩ : BufTy).Contents (Elt F) → (⟨S65536, .i32⟩ : BufTy).Contents (Elt F) → (⟨S65536, .i32⟩ : BufTy).Contents (Elt F)),
    StableHlo.unary main_v79 main_v88 (broadcastInDim S65536 ![] bcast_S_S65536 : (⟨S_, .i32⟩ : BufTy).Contents (Elt F) → (⟨S65536, .i32⟩ : BufTy).Contents (Elt F)),
    StableHlo.binary main_v88 main_v87 main_v89 (addi : (⟨S65536, .i32⟩ : BufTy).Contents (Elt F) → (⟨S65536, .i32⟩ : BufTy).Contents (Elt F) → (⟨S65536, .i32⟩ : BufTy).Contents (Elt F)),
    StableHlo.TRef.ternary (.of main_v77 : StableHlo.TRef sig ⟨S65536, .i1⟩) (.of main_v82 : StableHlo.TRef sig ⟨S65536, .i32⟩) (.of main_v89 : StableHlo.TRef sig ⟨S65536, .i32⟩) (.of main_v90 : StableHlo.TRef sig ⟨S65536, .i32⟩) select,
    StableHlo.nullary main_c_34 (constantI S_ 32 0#32),
    StableHlo.unary main_c_34 main_v91 (broadcastInDim S65536 ![] bcast_S_S65536 : (⟨S_, .i32⟩ : BufTy).Contents (Elt F) → (⟨S65536, .i32⟩ : BufTy).Contents (Elt F)),
    StableHlo.nullary main_c_35 (constantI S_ 32 0#32),
    StableHlo.unary main_c_35 main_v92 (broadcastInDim S65536 ![] bcast_S_S65536 : (⟨S_, .i32⟩ : BufTy).Contents (Elt F) → (⟨S65536, .i32⟩ : BufTy).Contents (Elt F)),
    StableHlo.binary main_v90 main_v92 main_v93 (cmpi .slt : (⟨S65536, .i32⟩ : BufTy).Contents (Elt F) → (⟨S65536, .i32⟩ : BufTy).Contents (Elt F) → (⟨S65536, .i1⟩ : BufTy).Contents (Elt F)),
    StableHlo.nullary main_c_36 (constantI S_ 32 65536#32),
    StableHlo.unary main_c_36 main_v94 (broadcastInDim S65536 ![] bcast_S_S65536 : (⟨S_, .i32⟩ : BufTy).Contents (Elt F) → (⟨S65536, .i32⟩ : BufTy).Contents (Elt F)),
    StableHlo.binary main_v90 main_v94 main_v95 (addi : (⟨S65536, .i32⟩ : BufTy).Contents (Elt F) → (⟨S65536, .i32⟩ : BufTy).Contents (Elt F) → (⟨S65536, .i32⟩ : BufTy).Contents (Elt F)),
    StableHlo.ternary main_v93 main_v95 main_v90 main_v96 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v96 main_v97 (broadcastInDim S65536x1 ![0] bcast_S65536_S65536x1_0 : (⟨S65536, .i32⟩ : BufTy).Contents (Elt F) → (⟨S65536x1, .i32⟩ : BufTy).Contents (Elt F)),
    StableHlo.ternary main_v91 main_v97 main_v75 main_v98 ((fun x i u => Host.scatter scatter_S65536_S65536x1_S65536_n_0_0_1 (fun _ b => b) x i u) : (⟨S65536, .i32⟩ : BufTy).Contents (Elt F) → (⟨S65536x1, .i32⟩ : BufTy).Contents (Elt F) → (⟨S65536, .i32⟩ : BufTy).Contents (Elt F) → (⟨S65536, .i32⟩ : BufTy).Contents (Elt F)) ]

/-- From there up to the new page table (59). -/
abbrev kS2 : List (HloOp τ sig (Elt F)) :=
  [ StableHlo.nullary main_v99 (iotaInDim S256 32 0),
    StableHlo.unary main_v99 main_v100 (broadcastInDim S1x256 ![1] bcast_S256_S1x256_1 : (⟨S256, .i32⟩ : BufTy).Contents (Elt F) → (⟨S1x256, .i32⟩ : BufTy).Contents (Elt F)),
    StableHlo.unary main_v27 main_v101 (broadcastInDim S512x1 ![0] bcast_S512_S512x1_0 : (⟨S512, .i1⟩ : BufTy).Contents (Elt F) → (⟨S512x1, .i1⟩ : BufTy).Contents (Elt F)),
    StableHlo.unary main_v61 main_v102 (broadcastInDim S512x1 ![0] bcast_S512_S512x1_0 : (⟨S512, .i32⟩ : BufTy).Contents (Elt F) → (⟨S512x1, .i32⟩ : BufTy).Contents (Elt F)),
    StableHlo.unary main_v100 main_v103 (broadcastInDim S512x256 ![0, 1] bcast_S1x256_S512x256_0_1 : (⟨S1x256, .i32⟩ : BufTy).Contents (Elt F) → (⟨S512x256, .i32⟩ : BufTy).Contents (Elt F)),
    StableHlo.unary main_v102 main_v104 (broadcastInDim S512x256 ![0, 1] bcast_S512x1_S512x256_0_1 : (⟨S512x1, .i32⟩ : BufTy).Contents (Elt F) → (⟨S512x256, .i32⟩ : BufTy).Contents (Elt F)),
    StableHlo.binary main_v103 main_v104 main_v105 (cmpi .sge : (⟨S512x256, .i32⟩ : BufTy).Contents (Elt F) → (⟨S512x256, .i32⟩ : BufTy).Contents (Elt F) → (⟨S512x256, .i1⟩ : BufTy).Contents (Elt F)),
    StableHlo.unary main_v101 main_v106 (broadcastInDim S512x256 ![0, 1] bcast_S512x1_S512x256_0_1 : (⟨S512x1, .i1⟩ : BufTy).Contents (Elt F) → (⟨S512x256, .i1⟩ : BufTy).Contents (Elt F)),
    StableHlo.binary main_v106 main_v105 main_v107 (andi : (⟨S512x256, .i1⟩ : BufTy).Contents (Elt F) → (⟨S512x256, .i1⟩ : BufTy).Contents (Elt F) → (⟨S512x256, .i1⟩ : BufTy).Contents (Elt F)),
    StableHlo.unary main_v68 main_v108 (broadcastInDim S512x1 ![0] bcast_S512_S512x1_0 : (⟨S512, .i32⟩ : BufTy).Contents (Elt F) → (⟨S512x1, .i32⟩ : BufTy).Contents (Elt F)),
    StableHlo.unary main_v100 main_v109 (broadcastInDim S512x256 ![0, 1] bcast_S1x256_S512x256_0_1 : (⟨S1x256, .i32⟩ : BufTy).Contents (Elt F) → (⟨S512x256, .i32⟩ : BufTy).Contents (Elt F)),
    StableHlo.unary main_v108 main_v110 (broadcastInDim S512x256 ![0, 1] bcast_S512x1_S512x256_0_1 : (⟨S512x1, .i32⟩ : BufTy).Contents (Elt F) → (⟨S512x256, .i32⟩ : BufTy).Contents (Elt F)),
    StableHlo.binary main_v109 main_v110 main_v111 (cmpi .slt : (⟨S512x256, .i32⟩ : BufTy).Contents (Elt F) → (⟨S512x256, .i32⟩ : BufTy).Contents (Elt F) → (⟨S512x256, .i1⟩ : BufTy).Contents (Elt F)),
    StableHlo.binary main_v107 main_v111 main_v112 (andi : (⟨S512x256, .i1⟩ : BufTy).Contents (Elt F) → (⟨S512x256, .i1⟩ : BufTy).Contents (Elt F) → (⟨S512x256, .i1⟩ : BufTy).Contents (Elt F)),
    StableHlo.unary main_v74 main_v113 (broadcastInDim S512x1 ![0] bcast_S512_S512x1_0 : (⟨S512, .i32⟩ : BufTy).Contents (Elt F) → (⟨S512x1, .i32⟩ : BufTy).Contents (Elt F)),
    StableHlo.unary main_v113 main_v114 (broadcastInDim S512x256 ![0, 1] bcast_S512x1_S512x256_0_1 : (⟨S512x1, .i32⟩ : BufTy).Contents (Elt F) → (⟨S512x256, .i32⟩ : BufTy).Contents (Elt F)),
    StableHlo.unary main_v100 main_v115 (broadcastInDim S512x256 ![0, 1] bcast_S1x256_S512x256_0_1 : (⟨S1x256, .i32⟩ : BufTy).Contents (Elt F) → (⟨S512x256, .i32⟩ : BufTy).Contents (Elt F)),
    StableHlo.binary main_v114 main_v115 main_v116 (addi : (⟨S512x256, .i32⟩ : BufTy).Contents (Elt F) → (⟨S512x256, .i32⟩ : BufTy).Contents (Elt F) → (⟨S512x256, .i32⟩ : BufTy).Contents (Elt F)),
    StableHlo.unary main_v61 main_v117 (broadcastInDim S512x1 ![0] bcast_S512_S512x1_0 : (⟨S512, .i32⟩ : BufTy).Contents (Elt F) → (⟨S512x1, .i32⟩ : BufTy).Contents (Elt F)),
    StableHlo.unary main_v117 main_v118 (broadcastInDim S512x256 ![0, 1] bcast_S512x1_S512x256_0_1 : (⟨S512x1, .i32⟩ : BufTy).Contents (Elt F) → (⟨S512x256, .i32⟩ : BufTy).Contents (Elt F)),
    StableHlo.binary main_v116 main_v118 main_v119 (subi : (⟨S512x256, .i32⟩ : BufTy).Contents (Elt F) → (⟨S512x256, .i32⟩ : BufTy).Contents (Elt F) → (⟨S512x256, .i32⟩ : BufTy).Contents (Elt F)),
    StableHlo.nullary main_c_37 (constantI S_ 32 0#32),
    StableHlo.TRef.unary (.of main_c_37 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S512x256, .i32⟩) (broadcastInDim S512x256 ![] bcast_S_S512x256),
    StableHlo.TRef.ternary (.of main_v112 : StableHlo.TRef sig ⟨S512x256, .i1⟩) (.of main_v119 : StableHlo.TRef sig ⟨S512x256, .i32⟩) (.of main_call17_v1 : StableHlo.TRef sig ⟨S512x256, .i32⟩) (.of main_v120 : StableHlo.TRef sig ⟨S512x256, .i32⟩) select,
    StableHlo.nullary main_c_38 (constantI S_ 32 0#32),
    StableHlo.unary main_c_38 main_v121 (broadcastInDim S512x256 ![] bcast_S_S512x256 : (⟨S_, .i32⟩ : BufTy).Contents (Elt F) → (⟨S512x256, .i32⟩ : BufTy).Contents (Elt F)),
    StableHlo.binary main_v120 main_v121 main_v122 (cmpi .slt : (⟨S512x256, .i32⟩ : BufTy).Contents (Elt F) → (⟨S512x256, .i32⟩ : BufTy).Contents (Elt F) → (⟨S512x256, .i1⟩ : BufTy).Contents (Elt F)),
    StableHlo.nullary main_c_39 (constantI S_ 32 65536#32),
    StableHlo.unary main_c_39 main_v123 (broadcastInDim S512x256 ![] bcast_S_S512x256 : (⟨S_, .i32⟩ : BufTy).Contents (Elt F) → (⟨S512x256, .i32⟩ : BufTy).Contents (Elt F)),
    StableHlo.binary main_v120 main_v123 main_v124 (addi : (⟨S512x256, .i32⟩ : BufTy).Contents (Elt F) → (⟨S512x256, .i32⟩ : BufTy).Contents (Elt F) → (⟨S512x256, .i32⟩ : BufTy).Contents (Elt F)),
    StableHlo.ternary main_v122 main_v124 main_v120 main_v125 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v125 main_v126 (broadcastInDim S512x256x1 ![0, 1] bcast_S512x256_S512x256x1_0_1 : (⟨S512x256, .i32⟩ : BufTy).Contents (Elt F) → (⟨S512x256x1, .i32⟩ : BufTy).Contents (Elt F)),
    StableHlo.binary main_v98 main_v126 main_v127 ((fun x i => Host.gather gather_S65536_S512x256x1_S512x256_n_0_n_n_0_2_1 x i) : (⟨S65536, .i32⟩ : BufTy).Contents (Elt F) → (⟨S512x256x1, .i32⟩ : BufTy).Contents (Elt F) → (⟨S512x256, .i32⟩ : BufTy).Contents (Elt F)),
    StableHlo.unary main_v28 main_v128 (broadcastInDim S512x1 ![0] bcast_S512_S512x1_0 : (⟨S512, .i32⟩ : BufTy).Contents (Elt F) → (⟨S512x1, .i32⟩ : BufTy).Contents (Elt F)),
    StableHlo.nullary main_c_40 (constantI S_ 32 512#32),
    StableHlo.TRef.unary (.of main_c_40 : StableHlo.TRef sig ⟨S_, .i32⟩) (.of main_call18_v0 : StableHlo.TRef sig ⟨S_, .i32⟩) id,
    StableHlo.TRef.unary (.of main_v128 : StableHlo.TRef sig ⟨S512x1, .i32⟩) (.of main_call18_v1 : StableHlo.TRef sig ⟨S512x256, .i32⟩) (broadcastInDim S512x256 ![0, 1] bcast_S512x1_S512x256_0_1),
    StableHlo.TRef.unary (.of main_call18_v0 : StableHlo.TRef sig ⟨S_, .i32⟩) (.of main_call18_v2 : StableHlo.TRef sig ⟨S512x256, .i32⟩) (broadcastInDim S512x256 ![] bcast_S_S512x256),
    StableHlo.TRef.ternary (.of main_v112 : StableHlo.TRef sig ⟨S512x256, .i1⟩) (.of main_call18_v1 : StableHlo.TRef sig ⟨S512x256, .i32⟩) (.of main_call18_v2 : StableHlo.TRef sig ⟨S512x256, .i32⟩) (.of main_v129 : StableHlo.TRef sig ⟨S512x256, .i32⟩) select,
    StableHlo.unary main_v100 main_v130 (broadcastInDim S512x256 ![0, 1] bcast_S1x256_S512x256_0_1 : (⟨S1x256, .i32⟩ : BufTy).Contents (Elt F) → (⟨S512x256, .i32⟩ : BufTy).Contents (Elt F)),
    StableHlo.nullary main_c_41 (constantI S_ 32 0#32),
    StableHlo.unary main_c_41 main_v131 (broadcastInDim S512x256 ![] bcast_S_S512x256 : (⟨S_, .i32⟩ : BufTy).Contents (Elt F) → (⟨S512x256, .i32⟩ : BufTy).Contents (Elt F)),
    StableHlo.binary main_v129 main_v131 main_v132 (cmpi .slt : (⟨S512x256, .i32⟩ : BufTy).Contents (Elt F) → (⟨S512x256, .i32⟩ : BufTy).Contents (Elt F) → (⟨S512x256, .i1⟩ : BufTy).Contents (Elt F)),
    StableHlo.nullary main_c_42 (constantI S_ 32 512#32),
    StableHlo.unary main_c_42 main_v133 (broadcastInDim S512x256 ![] bcast_S_S512x256 : (⟨S_, .i32⟩ : BufTy).Contents (Elt F) → (⟨S512x256, .i32⟩ : BufTy).Contents (Elt F)),
    StableHlo.binary main_v129 main_v133 main_v134 (addi : (⟨S512x256, .i32⟩ : BufTy).Contents (Elt F) → (⟨S512x256, .i32⟩ : BufTy).Contents (Elt F) → (⟨S512x256, .i32⟩ : BufTy).Contents (Elt F)),
    StableHlo.ternary main_v132 main_v134 main_v129 main_v135 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.nullary main_c_43 (constantI S_ 32 0#32),
    StableHlo.unary main_c_43 main_v136 (broadcastInDim S512x256 ![] bcast_S_S512x256 : (⟨S_, .i32⟩ : BufTy).Contents (Elt F) → (⟨S512x256, .i32⟩ : BufTy).Contents (Elt F)),
    StableHlo.binary main_v130 main_v136 main_v137 (cmpi .slt : (⟨S512x256, .i32⟩ : BufTy).Contents (Elt F) → (⟨S512x256, .i32⟩ : BufTy).Contents (Elt F) → (⟨S512x256, .i1⟩ : BufTy).Contents (Elt F)),
    StableHlo.nullary main_c_44 (constantI S_ 32 256#32),
    StableHlo.unary main_c_44 main_v138 (broadcastInDim S512x256 ![] bcast_S_S512x256 : (⟨S_, .i32⟩ : BufTy).Contents (Elt F) → (⟨S512x256, .i32⟩ : BufTy).Contents (Elt F)),
    StableHlo.binary main_v130 main_v138 main_v139 (addi : (⟨S512x256, .i32⟩ : BufTy).Contents (Elt F) → (⟨S512x256, .i32⟩ : BufTy).Contents (Elt F) → (⟨S512x256, .i32⟩ : BufTy).Contents (Elt F)),
    StableHlo.ternary main_v137 main_v139 main_v130 main_v140 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v135 main_v141 (broadcastInDim S512x256x1 ![0, 1] bcast_S512x256_S512x256x1_0_1 : (⟨S512x256, .i32⟩ : BufTy).Contents (Elt F) → (⟨S512x256x1, .i32⟩ : BufTy).Contents (Elt F)),
    StableHlo.unary main_v140 main_v142 (broadcastInDim S512x256x1 ![0, 1] bcast_S512x256_S512x256x1_0_1 : (⟨S512x256, .i32⟩ : BufTy).Contents (Elt F) → (⟨S512x256x1, .i32⟩ : BufTy).Contents (Elt F)),
    StableHlo.binary main_v141 main_v142 main_v143 ((fun a b => concatenate S512x256x2 2 [⟨S512x256x1, a⟩, ⟨S512x256x1, b⟩] concatenates_S512x256x1_S512x256x1_S512x256x2_d2) : (⟨S512x256x1, .i32⟩ : BufTy).Contents (Elt F) → (⟨S512x256x1, .i32⟩ : BufTy).Contents (Elt F) → (⟨S512x256x2, .i32⟩ : BufTy).Contents (Elt F)),
    StableHlo.ternary main_arg2 main_v143 main_v127 main_v144 ((fun x i u => Host.scatter scatter_S512x256_S512x256x2_S512x256_n_01_01_2 (fun _ b => b) x i u) : (⟨S512x256, .i32⟩ : BufTy).Contents (Elt F) → (⟨S512x256x2, .i32⟩ : BufTy).Contents (Elt F) → (⟨S512x256, .i32⟩ : BufTy).Contents (Elt F) → (⟨S512x256, .i32⟩ : BufTy).Contents (Elt F)) ]

/-- The remaining operations (155). -/
abbrev kS3 : List (HloOp τ sig (Elt F)) :=
  [ StableHlo.nullary main_c_45 (constantI S_ 32 65536#32),
    StableHlo.TRef.unary (.of main_c_45 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S512x256, .i32⟩) (broadcastInDim S512x256 ![] bcast_S_S512x256),
    StableHlo.TRef.ternary (.of main_v112 : StableHlo.TRef sig ⟨S512x256, .i1⟩) (.of main_v127 : StableHlo.TRef sig ⟨S512x256, .i32⟩) (.of main_call19_v1 : StableHlo.TRef sig ⟨S512x256, .i32⟩) (.of main_v145 : StableHlo.TRef sig ⟨S512x256, .i32⟩) select,
    StableHlo.nullary main_c_46 (constantI S_ 32 0#32),
    StableHlo.unary main_c_46 main_v146 (broadcastInDim S512x256 ![] bcast_S_S512x256 : (⟨S_, .i32⟩ : BufTy).Contents (Elt F) → (⟨S512x256, .i32⟩ : BufTy).Contents (Elt F)),
    StableHlo.binary main_v145 main_v146 main_v147 (cmpi .slt : (⟨S512x256, .i32⟩ : BufTy).Contents (Elt F) → (⟨S512x256, .i32⟩ : BufTy).Contents (Elt F) → (⟨S512x256, .i1⟩ : BufTy).Contents (Elt F)),
    StableHlo.nullary main_c_47 (constantI S_ 32 65536#32),
    StableHlo.unary main_c_47 main_v148 (broadcastInDim S512x256 ![] bcast_S_S512x256 : (⟨S_, .i32⟩ : BufTy).Contents (Elt F) → (⟨S512x256, .i32⟩ : BufTy).Contents (Elt F)),
    StableHlo.binary main_v145 main_v148 main_v149 (addi : (⟨S512x256, .i32⟩ : BufTy).Contents (Elt F) → (⟨S512x256, .i32⟩ : BufTy).Contents (Elt F) → (⟨S512x256, .i32⟩ : BufTy).Contents (Elt F)),
    StableHlo.ternary main_v147 main_v149 main_v145 main_v150 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v150 main_v151 (broadcastInDim S512x256x1 ![0, 1] bcast_S512x256_S512x256x1_0_1 : (⟨S512x256, .i32⟩ : BufTy).Contents (Elt F) → (⟨S512x256x1, .i32⟩ : BufTy).Contents (Elt F)),
    StableHlo.nullary main_c_48 (constantI S_ 32 1#32),
    StableHlo.unary main_c_48 main_v152 (broadcastInDim S512x256 ![] bcast_S_S512x256 : (⟨S_, .i32⟩ : BufTy).Contents (Elt F) → (⟨S512x256, .i32⟩ : BufTy).Contents (Elt F)),
    StableHlo.ternary main_arg3 main_v151 main_v152 main_v153 ((fun x i u => Host.scatter scatter_S65536_S512x256x1_S512x256_n_0_0_2 IntOp.addi x i u) : (⟨S65536, .i32⟩ : BufTy).Contents (Elt F) → (⟨S512x256x1, .i32⟩ : BufTy).Contents (Elt F) → (⟨S512x256, .i32⟩ : BufTy).Contents (Elt F) → (⟨S65536, .i32⟩ : BufTy).Contents (Elt F)),
    StableHlo.nullary main_c_49 (constantI S_ 32 0#32),
    StableHlo.unary main_c_49 main_v154 (broadcastInDim S512 ![] bcast_S_S512 : (⟨S_, .i32⟩ : BufTy).Contents (Elt F) → (⟨S512, .i32⟩ : BufTy).Contents (Elt F)),
    StableHlo.binary main_v22 main_v154 main_v155 (cmpi .sge : (⟨S512, .i32⟩ : BufTy).Contents (Elt F) → (⟨S512, .i32⟩ : BufTy).Contents (Elt F) → (⟨S512, .i1⟩ : BufTy).Contents (Elt F)),
    StableHlo.unary main_v155 main_v156 (broadcastInDim S512x1 ![0] bcast_S512_S512x1_0 : (⟨S512, .i1⟩ : BufTy).Contents (Elt F) → (⟨S512x1, .i1⟩ : BufTy).Contents (Elt F)),
    StableHlo.nullary main_c_50 (constantI S_ 32 0#32),
    StableHlo.unary main_c_50 main_v157 (broadcastInDim S512 ![] bcast_S_S512 : (⟨S_, .i32⟩ : BufTy).Contents (Elt F) → (⟨S512, .i32⟩ : BufTy).Contents (Elt F)),
    StableHlo.binary main_v28 main_v157 main_v158 (cmpi .slt : (⟨S512, .i32⟩ : BufTy).Contents (Elt F) → (⟨S512, .i32⟩ : BufTy).Contents (Elt F) → (⟨S512, .i1⟩ : BufTy).Contents (Elt F)),
    StableHlo.nullary main_c_51 (constantI S_ 32 512#32),
    StableHlo.unary main_c_51 main_v159 (broadcastInDim S512 ![] bcast_S_S512 : (⟨S_, .i32⟩ : BufTy).Contents (Elt F) → (⟨S512, .i32⟩ : BufTy).Contents (Elt F)),
    StableHlo.binary main_v28 main_v159 main_v160 (addi : (⟨S512, .i32⟩ : BufTy).Contents (Elt F) → (⟨S512, .i32⟩ : BufTy).Contents (Elt F) → (⟨S512, .i32⟩ : BufTy).Contents (Elt F)),
    StableHlo.ternary main_v158 main_v160 main_v28 main_v161 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v161 main_v162 (broadcastInDim S512x1 ![0] bcast_S512_S512x1_0 : (⟨S512, .i32⟩ : BufTy).Contents (Elt F) → (⟨S512x1, .i32⟩ : BufTy).Contents (Elt F)),
    StableHlo.binary main_v144 main_v162 main_v163 ((fun x i => Host.gather gather_S512x256_S512x1_S512x256_1_0_n_n_0_1_1256 x i) : (⟨S512x256, .i32⟩ : BufTy).Contents (Elt F) → (⟨S512x1, .i32⟩ : BufTy).Contents (Elt F) → (⟨S512x256, .i32⟩ : BufTy).Contents (Elt F)),
    StableHlo.nullary main_c_52 (constantI S_ 32 4294967295#32),
    StableHlo.TRef.unary (.of main_v156 : StableHlo.TRef sig ⟨S512x1, .i1⟩) (.of main_call20_v0 : StableHlo.TRef sig ⟨S512x256, .i1⟩) (broadcastInDim S512x256 ![0, 1] bcast_S512x1_S512x256_0_1),
    StableHlo.TRef.unary (.of main_c_52 : StableHlo.TRef sig ⟨S_, .i32⟩) (.of main_call20_v1 : StableHlo.TRef sig ⟨S512x256, .i32⟩) (broadcastInDim S512x256 ![] bcast_S_S512x256),
    StableHlo.TRef.ternary (.of main_call20_v0 : StableHlo.TRef sig ⟨S512x256, .i1⟩) (.of main_v163 : StableHlo.TRef sig ⟨S512x256, .i32⟩) (.of main_call20_v1 : StableHlo.TRef sig ⟨S512x256, .i32⟩) (.of main_v164 : StableHlo.TRef sig ⟨S512x256, .i32⟩) select,
    StableHlo.nullary main_c_53 (constantI S_ 32 0#32),
    StableHlo.unary main_c_53 main_v165 (broadcastInDim S512 ![] bcast_S_S512 : (⟨S_, .i32⟩ : BufTy).Contents (Elt F) → (⟨S512, .i32⟩ : BufTy).Contents (Elt F)),
    StableHlo.binary main_v28 main_v165 main_v166 (cmpi .slt : (⟨S512, .i32⟩ : BufTy).Contents (Elt F) → (⟨S512, .i32⟩ : BufTy).Contents (Elt F) → (⟨S512, .i1⟩ : BufTy).Contents (Elt F)),
    StableHlo.nullary main_c_54 (constantI S_ 32 512#32),
    StableHlo.unary main_c_54 main_v167 (broadcastInDim S512 ![] bcast_S_S512 : (⟨S_, .i32⟩ : BufTy).Contents (Elt F) → (⟨S512, .i32⟩ : BufTy).Contents (Elt F)),
    StableHlo.binary main_v28 main_v167 main_v168 (addi : (⟨S512, .i32⟩ : BufTy).Contents (Elt F) → (⟨S512, .i32⟩ : BufTy).Contents (Elt F) → (⟨S512, .i32⟩ : BufTy).Contents (Elt F)),
    StableHlo.ternary main_v166 main_v168 main_v28 main_v169 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v169 main_v170 (broadcastInDim S512x1 ![0] bcast_S512_S512x1_0 : (⟨S512, .i32⟩ : BufTy).Contents (Elt F) → (⟨S512x1, .i32⟩ : BufTy).Contents (Elt F)),
    StableHlo.binary main_v44 main_v170 main_v171 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.nullary main_c_55 (constantI S_ 32 4294967295#32),
    StableHlo.TRef.unary (.of main_c_55 : StableHlo.TRef sig ⟨S_, .i32⟩) (.of main_call21_v0 : StableHlo.TRef sig ⟨S512, .i32⟩) (broadcastInDim S512 ![] bcast_S_S512),
    StableHlo.TRef.ternary (.of main_v155 : StableHlo.TRef sig ⟨S512, .i1⟩) (.of main_v171 : StableHlo.TRef sig ⟨S512, .i32⟩) (.of main_call21_v0 : StableHlo.TRef sig ⟨S512, .i32⟩) (.of main_v172 : StableHlo.TRef sig ⟨S512, .i32⟩) select,
    StableHlo.unary main_v155 main_v173 ((extui 32 · natLt_1_32) : (⟨S512, .i1⟩ : BufTy).Contents (Elt F) → (⟨S512, .i32⟩ : BufTy).Contents (Elt F)),
    StableHlo.nullary main_c_56 (constantI S_ 32 0#32),
    StableHlo.binary main_v173 main_c_56 main_v174 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    StableHlo.nullary main_c_57 (constantI S_ 32 0#32),
    StableHlo.unary main_c_57 main_v175 (broadcastInDim S512 ![] bcast_S_S512 : (⟨S_, .i32⟩ : BufTy).Contents (Elt F) → (⟨S512, .i32⟩ : BufTy).Contents (Elt F)),
    StableHlo.binary main_arg1 main_v175 main_v176 (cmpi .slt : (⟨S512, .i32⟩ : BufTy).Contents (Elt F) → (⟨S512, .i32⟩ : BufTy).Contents (Elt F) → (⟨S512, .i1⟩ : BufTy).Contents (Elt F)),
    StableHlo.nullary main_c_58 (constantI S_ 32 0#32),
    StableHlo.TRef.unary (.of main_c_58 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S512, .i32⟩) (broadcastInDim S512 ![] bcast_S_S512),
    StableHlo.TRef.ternary (.of main_v176 : StableHlo.TRef sig ⟨S512, .i1⟩) (.of main_call22_v1 : StableHlo.TRef sig ⟨S512, .i32⟩) (.of main_arg1 : StableHlo.TRef sig ⟨S512, .i32⟩) (.of main_v177 : StableHlo.TRef sig ⟨S512, .i32⟩) select,
    StableHlo.nullary main_c_59 (constantI S_ 32 512#32),
    StableHlo.unary main_c_59 main_v178 (broadcastInDim S65536 ![] bcast_S_S65536 : (⟨S_, .i32⟩ : BufTy).Contents (Elt F) → (⟨S65536, .i32⟩ : BufTy).Contents (Elt F)),
    StableHlo.binary main_v2 main_v178 main_v179 (cmpi .slt : (⟨S65536, .i32⟩ : BufTy).Contents (Elt F) → (⟨S65536, .i32⟩ : BufTy).Contents (Elt F) → (⟨S65536, .i1⟩ : BufTy).Contents (Elt F)),
    StableHlo.nullary main_c_60 (constantI S_ 32 0#32),
    StableHlo.TRef.unary (.of main_c_60 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S65536, .i32⟩) (broadcastInDim S65536 ![] bcast_S_S65536),
    StableHlo.TRef.ternary (.of main_v179 : StableHlo.TRef sig ⟨S65536, .i1⟩) (.of main_v2 : StableHlo.TRef sig ⟨S65536, .i32⟩) (.of main_call23_v1 : StableHlo.TRef sig ⟨S65536, .i32⟩) (.of main_v180 : StableHlo.TRef sig ⟨S65536, .i32⟩) select,
    StableHlo.nullary main_c_61 (constantI S_ 32 0#32),
    StableHlo.unary main_c_61 main_v181 (broadcastInDim S65536 ![] bcast_S_S65536 : (⟨S_, .i32⟩ : BufTy).Contents (Elt F) → (⟨S65536, .i32⟩ : BufTy).Contents (Elt F)),
    StableHlo.binary main_v180 main_v181 main_v182 (cmpi .slt : (⟨S65536, .i32⟩ : BufTy).Contents (Elt F) → (⟨S65536, .i32⟩ : BufTy).Contents (Elt F) → (⟨S65536, .i1⟩ : BufTy).Contents (Elt F)),
    StableHlo.nullary main_c_62 (constantI S_ 32 512#32),
    StableHlo.unary main_c_62 main_v183 (broadcastInDim S65536 ![] bcast_S_S65536 : (⟨S_, .i32⟩ : BufTy).Contents (Elt F) → (⟨S65536, .i32⟩ : BufTy).Contents (Elt F)),
    StableHlo.binary main_v180 main_v183 main_v184 (addi : (⟨S65536, .i32⟩ : BufTy).Contents (Elt F) → (⟨S65536, .i32⟩ : BufTy).Contents (Elt F) → (⟨S65536, .i32⟩ : BufTy).Contents (Elt F)),
    StableHlo.ternary main_v182 main_v184 main_v180 main_v185 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v185 main_v186 (broadcastInDim S65536x1 ![0] bcast_S65536_S65536x1_0 : (⟨S65536, .i32⟩ : BufTy).Contents (Elt F) → (⟨S65536x1, .i32⟩ : BufTy).Contents (Elt F)),
    StableHlo.binary main_v177 main_v186 main_v187 ((fun x i => Host.gather gather_S512_S65536x1_S65536_n_0_n_n_0_1_1 x i) : (⟨S512, .i32⟩ : BufTy).Contents (Elt F) → (⟨S65536x1, .i32⟩ : BufTy).Contents (Elt F) → (⟨S65536, .i32⟩ : BufTy).Contents (Elt F)),
    StableHlo.binary main_v187 main_v10 main_v188 (addi : (⟨S65536, .i32⟩ : BufTy).Contents (Elt F) → (⟨S65536, .i32⟩ : BufTy).Contents (Elt F) → (⟨S65536, .i32⟩ : BufTy).Contents (Elt F)),
    StableHlo.nullary main_c_63 (constantI S_ 32 128#32),
    StableHlo.TRef.unary (.of main_c_63 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S65536, .i32⟩) (broadcastInDim S65536 ![] bcast_S_S65536),
    StableHlo.TRef.binary (.of main_v188 : StableHlo.TRef sig ⟨S65536, .i32⟩) (.of main_call24_v1 : StableHlo.TRef sig ⟨S65536, .i32⟩) (.of main_call24_v2 : StableHlo.TRef sig ⟨S65536, .i32⟩) Host.divsi,
    StableHlo.TRef.unary (.of main_v188 : StableHlo.TRef sig ⟨S65536, .i32⟩) (.of main_call24_v3 : StableHlo.TRef sig ⟨S65536, .i32⟩) signi,
    StableHlo.TRef.unary (.of main_call24_v0 : StableHlo.TRef sig ⟨S_, .i32⟩) (.of main_call24_v4 : StableHlo.TRef sig ⟨S_, .i32⟩) signi,
    StableHlo.TRef.unary (.of main_call24_v4 : StableHlo.TRef sig ⟨S_, .i32⟩) (.of main_call24_v5 : StableHlo.TRef sig ⟨S65536, .i32⟩) (broadcastInDim S65536 ![] bcast_S_S65536),
    StableHlo.TRef.binary (.of main_call24_v3 : StableHlo.TRef sig ⟨S65536, .i32⟩) (.of main_call24_v5 : StableHlo.TRef sig ⟨S65536, .i32⟩) (.of main_call24_v6 : StableHlo.TRef sig ⟨S65536, .i1⟩) (cmpi .ne),
    StableHlo.TRef.unary (.of main_call24_v0 : StableHlo.TRef sig ⟨S_, .i32⟩) (.of main_call24_v7 : StableHlo.TRef sig ⟨S65536, .i32⟩) (broadcastInDim S65536 ![] bcast_S_S65536),
    StableHlo.TRef.binary (.of main_v188 : StableHlo.TRef sig ⟨S65536, .i32⟩) (.of main_call24_v7 : StableHlo.TRef sig ⟨S65536, .i32⟩) (.of main_call24_v8 : StableHlo.TRef sig ⟨S65536, .i32⟩) Host.remsi,
    StableHlo.TRef.nullary (.of main_call24_c : StableHlo.TRef sig ⟨S_, .i32⟩) (constantI S_ 32 0#32),
    StableHlo.TRef.unary (.of main_call24_c : StableHlo.TRef sig ⟨S_, .i32⟩) (.of main_call24_v9 : StableHlo.TRef sig ⟨S65536, .i32⟩) (broadcastInDim S65536 ![] bcast_S_S65536),
    StableHlo.TRef.binary (.of main_call24_v8 : StableHlo.TRef sig ⟨S65536, .i32⟩) (.of main_call24_v9 : StableHlo.TRef sig ⟨S65536, .i32⟩) (.of main_call24_v10 : StableHlo.TRef sig ⟨S65536, .i1⟩) (cmpi .ne),
    StableHlo.TRef.binary (.of main_call24_v6 : StableHlo.TRef sig ⟨S65536, .i1⟩) (.of main_call24_v10 : StableHlo.TRef sig ⟨S65536, .i1⟩) (.of main_call24_v11 : StableHlo.TRef sig ⟨S65536, .i1⟩) andi,
    StableHlo.TRef.nullary (.of main_call24_c_0 : StableHlo.TRef sig ⟨S_, .i32⟩) (constantI S_ 32 1#32),
    StableHlo.TRef.unary (.of main_call24_c_0 : StableHlo.TRef sig ⟨S_, .i32⟩) (.of main_call24_v12 : StableHlo.TRef sig ⟨S65536, .i32⟩) (broadcastInDim S65536 ![] bcast_S_S65536),
    StableHlo.TRef.binary (.of main_call24_v2 : StableHlo.TRef sig ⟨S65536, .i32⟩) (.of main_call24_v12 : StableHlo.TRef sig ⟨S65536, .i32⟩) (.of main_call24_v13 : StableHlo.TRef sig ⟨S65536, .i32⟩) subi,
    StableHlo.TRef.ternary (.of main_call24_v11 : StableHlo.TRef sig ⟨S65536, .i1⟩) (.of main_call24_v13 : StableHlo.TRef sig ⟨S65536, .i32⟩) (.of main_call24_v2 : StableHlo.TRef sig ⟨S65536, .i32⟩) (.of main_v189 : StableHlo.TRef sig ⟨S65536, .i32⟩) select,
    StableHlo.nullary main_c_64 (constantI S_ 32 0#32),
    StableHlo.nullary main_c_65 (constantI S_ 32 255#32),
    StableHlo.TRef.unary (.of main_c_64 : StableHlo.TRef sig ⟨S_, .i32⟩) (.of main_call25_v0 : StableHlo.TRef sig ⟨S_, .i32⟩) id,
    StableHlo.TRef.unary (.of main_call25_v0 : StableHlo.TRef sig ⟨S_, .i32⟩) (.of main_call25_v1 : StableHlo.TRef sig ⟨S65536, .i32⟩) (broadcastInDim S65536 ![] bcast_S_S65536),
    StableHlo.TRef.binary (.of main_call25_v1 : StableHlo.TRef sig ⟨S65536, .i32⟩) (.of main_v189 : StableHlo.TRef sig ⟨S65536, .i32⟩) (.of main_call25_v2 : StableHlo.TRef sig ⟨S65536, .i32⟩) maxsi,
    StableHlo.TRef.unary (.of main_c_65 : StableHlo.TRef sig ⟨S_, .i32⟩) (.of main_call25_v3 : StableHlo.TRef sig ⟨S_, .i32⟩) id,
    StableHlo.TRef.unary (.of main_call25_v3 : StableHlo.TRef sig ⟨S_, .i32⟩) (.of main_call25_v4 : StableHlo.TRef sig ⟨S65536, .i32⟩) (broadcastInDim S65536 ![] bcast_S_S65536),
    StableHlo.TRef.binary (.of main_call25_v4 : StableHlo.TRef sig ⟨S65536, .i32⟩) (.of main_call25_v2 : StableHlo.TRef sig ⟨S65536, .i32⟩) (.of main_v190 : StableHlo.TRef sig ⟨S65536, .i32⟩) minsi,
    StableHlo.nullary main_c_66 (constantI S_ 32 128#32),
    StableHlo.TRef.unary (.of main_c_66 : StableHlo.TRef sig ⟨S_, .i32⟩) (.of main_call26_v0 : StableHlo.TRef sig ⟨S_, .i32⟩) id,
    StableHlo.TRef.nullary (.of main_call26_c : StableHlo.TRef sig ⟨S_, .i32⟩) (constantI S_ 32 0#32),
    StableHlo.TRef.binary (.of main_call26_v0 : StableHlo.TRef sig ⟨S_, .i32⟩) (.of main_call26_c : StableHlo.TRef sig ⟨S_, .i32⟩) (.of main_call26_v1 : StableHlo.TRef sig ⟨S_, .i1⟩) (cmpi .eq),
    StableHlo.TRef.nullary (.of main_call26_c_0 : StableHlo.TRef sig ⟨S_, .i32⟩) (constantI S_ 32 1#32),
    StableHlo.TRef.ternary (.of main_call26_v1 : StableHlo.TRef sig ⟨S_, .i1⟩) (.of main_call26_c_0 : StableHlo.TRef sig ⟨S_, .i32⟩) (.of main_call26_v0 : StableHlo.TRef sig ⟨S_, .i32⟩) (.of main_call26_v2 : StableHlo.TRef sig ⟨S_, .i32⟩) select,
    StableHlo.TRef.unary main_call26_call0.v0 (.of main_call26_v3 : StableHlo.TRef sig ⟨S65536, .i32⟩) (broadcastInDim S65536 ![] bcast_S_S65536),
    StableHlo.TRef.binary (.of main_v188 : StableHlo.TRef sig ⟨S65536, .i32⟩) (.of main_call26_v3 : StableHlo.TRef sig ⟨S65536, .i32⟩) (.of main_call26_v4 : StableHlo.TRef sig ⟨S65536, .i32⟩) Host.remsi,
    StableHlo.TRef.nullary (.of main_call26_c_1 : StableHlo.TRef sig ⟨S_, .i32⟩) (constantI S_ 32 0#32),
    StableHlo.TRef.unary (.of main_call26_c_1 : StableHlo.TRef sig ⟨S_, .i32⟩) (.of main_call26_v5 : StableHlo.TRef sig ⟨S65536, .i32⟩) (broadcastInDim S65536 ![] bcast_S_S65536),
    StableHlo.TRef.binary (.of main_call26_v4 : StableHlo.TRef sig ⟨S65536, .i32⟩) (.of main_call26_v5 : StableHlo.TRef sig ⟨S65536, .i32⟩) (.of main_call26_v6 : StableHlo.TRef sig ⟨S65536, .i1⟩) (cmpi .ne),
    StableHlo.TRef.nullary (.of main_call26_c_2 : StableHlo.TRef sig ⟨S_, .i32⟩) (constantI S_ 32 0#32),
    StableHlo.TRef.unary (.of main_call26_c_2 : StableHlo.TRef sig ⟨S_, .i32⟩) (.of main_call26_v7 : StableHlo.TRef sig ⟨S65536, .i32⟩) (broadcastInDim S65536 ![] bcast_S_S65536),
    StableHlo.TRef.binary (.of main_call26_v4 : StableHlo.TRef sig ⟨S65536, .i32⟩) (.of main_call26_v7 : StableHlo.TRef sig ⟨S65536, .i32⟩) (.of main_call26_v8 : StableHlo.TRef sig ⟨S65536, .i1⟩) (cmpi .slt),
    StableHlo.TRef.nullary (.of main_call26_c_3 : StableHlo.TRef sig ⟨S_, .i32⟩) (constantI S_ 32 0#32),
    StableHlo.TRef.binary main_call26_call0.v0 (.of main_call26_c_3 : StableHlo.TRef sig ⟨S_, .i32⟩) (.of main_call26_v9 : StableHlo.TRef sig ⟨S_, .i1⟩) (cmpi .slt),
    StableHlo.TRef.unary (.of main_call26_v9 : StableHlo.TRef sig ⟨S_, .i1⟩) (.of main_call26_v10 : StableHlo.TRef sig ⟨S65536, .i1⟩) (broadcastInDim S65536 ![] bcast_S_S65536),
    StableHlo.TRef.binary (.of main_call26_v8 : StableHlo.TRef sig ⟨S65536, .i1⟩) (.of main_call26_v10 : StableHlo.TRef sig ⟨S65536, .i1⟩) (.of main_call26_v11 : StableHlo.TRef sig ⟨S65536, .i1⟩) (cmpi .ne),
    StableHlo.TRef.binary (.of main_call26_v11 : StableHlo.TRef sig ⟨S65536, .i1⟩) (.of main_call26_v6 : StableHlo.TRef sig ⟨S65536, .i1⟩) (.of main_call26_v12 : StableHlo.TRef sig ⟨S65536, .i1⟩) andi,
    StableHlo.TRef.unary main_call26_call0.v0 (.of main_call26_v13 : StableHlo.TRef sig ⟨S65536, .i32⟩) (broadcastInDim S65536 ![] bcast_S_S65536),
    StableHlo.TRef.binary (.of main_call26_v4 : StableHlo.TRef sig ⟨S65536, .i32⟩) (.of main_call26_v13 : StableHlo.TRef sig ⟨S65536, .i32⟩) (.of main_call26_v14 : StableHlo.TRef sig ⟨S65536, .i32⟩) addi,
    StableHlo.TRef.ternary (.of main_call26_v12 : StableHlo.TRef sig ⟨S65536, .i1⟩) (.of main_call26_v14 : StableHlo.TRef sig ⟨S65536, .i32⟩) (.of main_call26_v4 : StableHlo.TRef sig ⟨S65536, .i32⟩) (.of main_v191 : StableHlo.TRef sig ⟨S65536, .i32⟩) select,
    StableHlo.nullary main_c_67 (constantI S_ 32 0#32),
    StableHlo.unary main_c_67 main_v192 (broadcastInDim S65536 ![] bcast_S_S65536 : (⟨S_, .i32⟩ : BufTy).Contents (Elt F) → (⟨S65536, .i32⟩ : BufTy).Contents (Elt F)),
    StableHlo.binary main_v180 main_v192 main_v193 (cmpi .slt : (⟨S65536, .i32⟩ : BufTy).Contents (Elt F) → (⟨S65536, .i32⟩ : BufTy).Contents (Elt F) → (⟨S65536, .i1⟩ : BufTy).Contents (Elt F)),
    StableHlo.nullary main_c_68 (constantI S_ 32 512#32),
    StableHlo.unary main_c_68 main_v194 (broadcastInDim S65536 ![] bcast_S_S65536 : (⟨S_, .i32⟩ : BufTy).Contents (Elt F) → (⟨S65536, .i32⟩ : BufTy).Contents (Elt F)),
    StableHlo.binary main_v180 main_v194 main_v195 (addi : (⟨S65536, .i32⟩ : BufTy).Contents (Elt F) → (⟨S65536, .i32⟩ : BufTy).Contents (Elt F) → (⟨S65536, .i32⟩ : BufTy).Contents (Elt F)),
    StableHlo.ternary main_v193 main_v195 main_v180 main_v196 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_69 (constantI S_ 32 0#32),
    StableHlo.unary main_c_69 main_v197 (broadcastInDim S65536 ![] bcast_S_S65536 : (⟨S_, .i32⟩ : BufTy).Contents (Elt F) → (⟨S65536, .i32⟩ : BufTy).Contents (Elt F)),
    StableHlo.binary main_v190 main_v197 main_v198 (cmpi .slt : (⟨S65536, .i32⟩ : BufTy).Contents (Elt F) → (⟨S65536, .i32⟩ : BufTy).Contents (Elt F) → (⟨S65536, .i1⟩ : BufTy).Contents (Elt F)),
    StableHlo.nullary main_c_70 (constantI S_ 32 256#32),
    StableHlo.unary main_c_70 main_v199 (broadcastInDim S65536 ![] bcast_S_S65536 : (⟨S_, .i32⟩ : BufTy).Contents (Elt F) → (⟨S65536, .i32⟩ : BufTy).Contents (Elt F)),
    StableHlo.binary main_v190 main_v199 main_v200 (addi : (⟨S65536, .i32⟩ : BufTy).Contents (Elt F) → (⟨S65536, .i32⟩ : BufTy).Contents (Elt F) → (⟨S65536, .i32⟩ : BufTy).Contents (Elt F)),
    StableHlo.ternary main_v198 main_v200 main_v190 main_v201 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v196 main_v202 (broadcastInDim S65536x1 ![0] bcast_S65536_S65536x1_0 : (⟨S65536, .i32⟩ : BufTy).Contents (Elt F) → (⟨S65536x1, .i32⟩ : BufTy).Contents (Elt F)),
    StableHlo.unary main_v201 main_v203 (broadcastInDim S65536x1 ![0] bcast_S65536_S65536x1_0 : (⟨S65536, .i32⟩ : BufTy).Contents (Elt F) → (⟨S65536x1, .i32⟩ : BufTy).Contents (Elt F)),
    StableHlo.binary main_v202 main_v203 main_v204 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_v144 main_v204 main_v205 ((fun x i => Host.gather gather_S512x256_S65536x2_S65536_n_01_n_n_01_1_11 x i) : (⟨S512x256, .i32⟩ : BufTy).Contents (Elt F) → (⟨S65536x2, .i32⟩ : BufTy).Contents (Elt F) → (⟨S65536, .i32⟩ : BufTy).Contents (Elt F)),
    StableHlo.nullary main_c_71 (constantI S_ 32 0#32),
    StableHlo.unary main_c_71 main_v206 (broadcastInDim S65536 ![] bcast_S_S65536 : (⟨S_, .i32⟩ : BufTy).Contents (Elt F) → (⟨S65536, .i32⟩ : BufTy).Contents (Elt F)),
    StableHlo.binary main_v205 main_v206 main_v207 (cmpi .slt : (⟨S65536, .i32⟩ : BufTy).Contents (Elt F) → (⟨S65536, .i32⟩ : BufTy).Contents (Elt F) → (⟨S65536, .i1⟩ : BufTy).Contents (Elt F)),
    StableHlo.unary main_v179 main_v208 (noti : (⟨S65536, .i1⟩ : BufTy).Contents (Elt F) → (⟨S65536, .i1⟩ : BufTy).Contents (Elt F)),
    StableHlo.binary main_v207 main_v208 main_v209 (ori : (⟨S65536, .i1⟩ : BufTy).Contents (Elt F) → (⟨S65536, .i1⟩ : BufTy).Contents (Elt F) → (⟨S65536, .i1⟩ : BufTy).Contents (Elt F)),
    StableHlo.nullary main_c_72 (constantI S_ 32 128#32),
    StableHlo.unary main_c_72 main_v210 (broadcastInDim S65536 ![] bcast_S_S65536 : (⟨S_, .i32⟩ : BufTy).Contents (Elt F) → (⟨S65536, .i32⟩ : BufTy).Contents (Elt F)),
    StableHlo.binary main_v205 main_v210 main_v211 (muli : (⟨S65536, .i32⟩ : BufTy).Contents (Elt F) → (⟨S65536, .i32⟩ : BufTy).Contents (Elt F) → (⟨S65536, .i32⟩ : BufTy).Contents (Elt F)),
    StableHlo.binary main_v211 main_v191 main_v212 (addi : (⟨S65536, .i32⟩ : BufTy).Contents (Elt F) → (⟨S65536, .i32⟩ : BufTy).Contents (Elt F) → (⟨S65536, .i32⟩ : BufTy).Contents (Elt F)),
    StableHlo.nullary main_c_73 (constantI S_ 32 4294967295#32),
    StableHlo.TRef.unary (.of main_c_73 : StableHlo.TRef sig ⟨S_, .i32⟩) (.of main_call27_v0 : StableHlo.TRef sig ⟨S65536, .i32⟩) (broadcastInDim S65536 ![] bcast_S_S65536),
    StableHlo.TRef.ternary (.of main_v209 : StableHlo.TRef sig ⟨S65536, .i1⟩) (.of main_call27_v0 : StableHlo.TRef sig ⟨S65536, .i32⟩) (.of main_v212 : StableHlo.TRef sig ⟨S65536, .i32⟩) (.of main_v213 : StableHlo.TRef sig ⟨S65536, .i32⟩) select,
    StableHlo.nullary main_c_74 (constantI S_ 32 0#32),
    StableHlo.unary main_c_74 main_v214 (broadcastInDim S1 ![] bcast_S_S1 : (⟨S_, .i32⟩ : BufTy).Contents (Elt F) → (⟨S1, .i32⟩ : BufTy).Contents (Elt F)),
    StableHlo.TRef.nullary (.of main_call28_call0_c : StableHlo.TRef sig ⟨S_, .i32⟩) (constantI S_ 32 0#32),
    StableHlo.TRef.unary (.of main_call28_call0_c : StableHlo.TRef sig ⟨S_, .i32⟩) (.of main_call28_call0_v0 : StableHlo.TRef sig ⟨S_, .i32⟩) (broadcastInDim S_ ![] bcast_S_S_),
    StableHlo.TRef.binary (.of main_v36 : StableHlo.TRef sig ⟨S512, .i32⟩) (.of main_call28_call0_v0 : StableHlo.TRef sig ⟨S_, .i32⟩) (.of main_v215 : StableHlo.TRef sig ⟨S512, .i32⟩) (fun x v => Host.reduceWindow IntOp.addi ![512] ![1] ![511] ![0] x v reduceWindows_S512_S512_w512s1p511_0 h_S_),
    StableHlo.binary main_v214 main_v215 main_v216 ((fun a b => concatenate S513 0 [⟨S1, a⟩, ⟨S512, b⟩] concatenates_S1_S512_S513_d0) : (⟨S1, .i32⟩ : BufTy).Contents (Elt F) → (⟨S512, .i32⟩ : BufTy).Contents (Elt F) → (⟨S513, .i32⟩ : BufTy).Contents (Elt F)) ]

/-- The four stretches in order are the operations after the region. -/
theorem kS_eq : (tailOpss (F := F)).flatten = kS0 ++ (kS1 ++ (kS2 ++ kS3)) := rfl

end Cert.Bridge

end
-- ==== Proof.Bridge.SplitR.lean ====
/- The reference's operations, in order, cut into four consecutive stretches rS0 … rS3 (21 + 141 + 59 + 189 = 410), and
   that the four in order are the whole list. The cuts fall after the histogram, after the sorted free list and after
   the new page table, as the kernel side's do. -/
import proofs.«408099_j23811298689264_3_alg».proof.Proof.Ref.Ops

set_option maxRecDepth 8192

noncomputable section

namespace Cert.Bridge

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- The reference's operations up to the histogram (21). -/
abbrev rS0 : List (HloOp τ sig (Elt F)) :=
  [ StableHlo.nullary main_c (constantI S_ 32 4294967295#32),
    StableHlo.nullary main_c_0 (constantI S_ 32 0#32),
    StableHlo.unary main_c_0 main_v0 (broadcastInDim S65536 ![] bcast_S_S65536 : (⟨S_, .i32⟩ : BufTy).Contents (Elt F) → (⟨S65536, .i32⟩ : BufTy).Contents (Elt F)),
    StableHlo.binary main_arg0 main_v0 main_v1 (cmpi .slt : (⟨S65536, .i32⟩ : BufTy).Contents (Elt F) → (⟨S65536, .i32⟩ : BufTy).Contents (Elt F) → (⟨S65536, .i1⟩ : BufTy).Contents (Elt F)),
    StableHlo.nullary main_c_1 (constantI S_ 32 512#32),
    StableHlo.TRef.unary (.of main_c_1 : StableHlo.TRef sig ⟨S_, .i32⟩) main_call0.v0 id,
    StableHlo.TRef.unary main_call0.v0 main_call0.v1 (broadcastInDim S65536 ![] bcast_S_S65536),
    StableHlo.TRef.ternary (.of main_v1 : StableHlo.TRef sig ⟨S65536, .i1⟩) main_call0.v1 (.of main_arg0 : StableHlo.TRef sig ⟨S65536, .i32⟩) main_call0.v2 select,
    StableHlo.nullary main_c_2 (constantI S_ 32 0#32),
    StableHlo.unary main_c_2 main_v3 (broadcastInDim S513 ![] bcast_S_S513 : (⟨S_, .i32⟩ : BufTy).Contents (Elt F) → (⟨S513, .i32⟩ : BufTy).Contents (Elt F)),
    StableHlo.nullary main_c_3 (constantI S_ 32 0#32),
    StableHlo.unary main_c_3 main_v4 (broadcastInDim S65536 ![] bcast_S_S65536 : (⟨S_, .i32⟩ : BufTy).Contents (Elt F) → (⟨S65536, .i32⟩ : BufTy).Contents (Elt F)),
    StableHlo.binary main_v2 main_v4 main_v5 (cmpi .slt : (⟨S65536, .i32⟩ : BufTy).Contents (Elt F) → (⟨S65536, .i32⟩ : BufTy).Contents (Elt F) → (⟨S65536, .i1⟩ : BufTy).Contents (Elt F)),
    StableHlo.nullary main_c_4 (constantI S_ 32 513#32),
    StableHlo.unary main_c_4 main_v6 (broadcastInDim S65536 ![] bcast_S_S65536 : (⟨S_, .i32⟩ : BufTy).Contents (Elt F) → (⟨S65536, .i32⟩ : BufTy).Contents (Elt F)),
    StableHlo.binary main_v2 main_v6 main_v7 (addi : (⟨S65536, .i32⟩ : BufTy).Contents (Elt F) → (⟨S65536, .i32⟩ : BufTy).Contents (Elt F) → (⟨S65536, .i32⟩ : BufTy).Contents (Elt F)),
    StableHlo.ternary main_v5 main_v7 main_v2 main_v8 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v8 main_v9 (broadcastInDim S65536x1 ![0] bcast_S65536_S65536x1_0 : (⟨S65536, .i32⟩ : BufTy).Contents (Elt F) → (⟨S65536x1, .i32⟩ : BufTy).Contents (Elt F)),
    StableHlo.nullary main_c_5 (constantI S_ 32 1#32),
    StableHlo.unary main_c_5 main_v10 (broadcastInDim S65536 ![] bcast_S_S65536 : (⟨S_, .i32⟩ : BufTy).Contents (Elt F) → (⟨S65536, .i32⟩ : BufTy).Contents (Elt F)),
    StableHlo.ternary main_v3 main_v9 main_v10 main_v11 ((fun x i u => Host.scatter scatter_S513_S65536x1_S65536_n_0_0_1 IntOp.addi x i u) : (⟨S513, .i32⟩ : BufTy).Contents (Elt F) → (⟨S65536x1, .i32⟩ : BufTy).Contents (Elt F) → (⟨S65536, .i32⟩ : BufTy).Contents (Elt F) → (⟨S513, .i32⟩ : BufTy).Contents (Elt F)) ]

/-- From there up to the sorted free list (141). -/
abbrev rS1 : List (HloOp τ sig (Elt F)) :=
  [ StableHlo.nullary main_v12 (iotaInDim S513 32 0),
    StableHlo.nullary main_c_6 (constantI S_ 32 0#32),
    StableHlo.unary main_c_6 main_v13 (broadcastInDim S513 ![] bcast_S_S513 : (⟨S_, .i32⟩ : BufTy).Contents (Elt F) → (⟨S513, .i32⟩ : BufTy).Contents (Elt F)),
    StableHlo.binary main_v11 main_v13 main_v14 (cmpi .sgt : (⟨S513, .i32⟩ : BufTy).Contents (Elt F) → (⟨S513, .i32⟩ : BufTy).Contents (Elt F) → (⟨S513, .i1⟩ : BufTy).Contents (Elt F)),
    StableHlo.nullary main_c_7 (constantI S_ 32 1073741824#32),
    StableHlo.TRef.unary (.of main_c_7 : StableHlo.TRef sig ⟨S_, .i32⟩) main_call1.v0 (broadcastInDim S513 ![] bcast_S_S513),
    StableHlo.TRef.ternary (.of main_v14 : StableHlo.TRef sig ⟨S513, .i1⟩) (.of main_v12 : StableHlo.TRef sig ⟨S513, .i32⟩) main_call1.v0 main_call1.v1 select,
    StableHlo.TRef.unary (.of main_v15 : StableHlo.TRef sig ⟨S513, .i32⟩) main_call2.v0 (fun x => Host.sort S513 0 comparator_i32_d0 x),
    StableHlo.unary main_v16 main_v17 ((extractStridedSlice S512 ![0] · slices_S513_S512_0) : (⟨S513, .i32⟩ : BufTy).Contents (Elt F) → (⟨S512, .i32⟩ : BufTy).Contents (Elt F)),
    StableHlo.nullary main_c_8 (constantI S_ 32 1073741824#32),
    StableHlo.unary main_c_8 main_v18 (broadcastInDim S512 ![] bcast_S_S512 : (⟨S_, .i32⟩ : BufTy).Contents (Elt F) → (⟨S512, .i32⟩ : BufTy).Contents (Elt F)),
    StableHlo.binary main_v17 main_v18 main_v19 (cmpi .sge : (⟨S512, .i32⟩ : BufTy).Contents (Elt F) → (⟨S512, .i32⟩ : BufTy).Contents (Elt F) → (⟨S512, .i1⟩ : BufTy).Contents (Elt F)),
    StableHlo.TRef.unary (.of main_c : StableHlo.TRef sig ⟨S_, .i32⟩) main_call3.v0 (broadcastInDim S512 ![] bcast_S_S512),
    StableHlo.TRef.ternary (.of main_v19 : StableHlo.TRef sig ⟨S512, .i1⟩) main_call3.v0 (.of main_v17 : StableHlo.TRef sig ⟨S512, .i32⟩) main_call3.v1 select,
    StableHlo.nullary main_c_9 (constantI S_ 32 0#32),
    StableHlo.unary main_c_9 main_v21 (broadcastInDim S512 ![] bcast_S_S512 : (⟨S_, .i32⟩ : BufTy).Contents (Elt F) → (⟨S512, .i32⟩ : BufTy).Contents (Elt F)),
    StableHlo.binary main_v20 main_v21 main_v22 (cmpi .sge : (⟨S512, .i32⟩ : BufTy).Contents (Elt F) → (⟨S512, .i32⟩ : BufTy).Contents (Elt F) → (⟨S512, .i1⟩ : BufTy).Contents (Elt F)),
    StableHlo.nullary main_c_10 (constantI S_ 32 512#32),
    StableHlo.unary main_c_10 main_v23 (broadcastInDim S512 ![] bcast_S_S512 : (⟨S_, .i32⟩ : BufTy).Contents (Elt F) → (⟨S512, .i32⟩ : BufTy).Contents (Elt F)),
    StableHlo.binary main_v20 main_v23 main_v24 (cmpi .slt : (⟨S512, .i32⟩ : BufTy).Contents (Elt F) → (⟨S512, .i32⟩ : BufTy).Contents (Elt F) → (⟨S512, .i1⟩ : BufTy).Contents (Elt F)),
    StableHlo.binary main_v22 main_v24 main_v25 (andi : (⟨S512, .i1⟩ : BufTy).Contents (Elt F) → (⟨S512, .i1⟩ : BufTy).Contents (Elt F) → (⟨S512, .i1⟩ : BufTy).Contents (Elt F)),
    StableHlo.nullary main_c_11 (constantI S_ 32 0#32),
    StableHlo.TRef.unary (.of main_c_11 : StableHlo.TRef sig ⟨S_, .i32⟩) main_call4.v0 id,
    StableHlo.TRef.unary main_call4.v0 main_call4.v1 (broadcastInDim S512 ![] bcast_S_S512),
    StableHlo.TRef.ternary (.of main_v25 : StableHlo.TRef sig ⟨S512, .i1⟩) (.of main_v20 : StableHlo.TRef sig ⟨S512, .i32⟩) main_call4.v1 main_call4.v2 select,
    StableHlo.nullary main_c_12 (constantI S_ 32 0#32),
    StableHlo.unary main_c_12 main_v27 (broadcastInDim S512 ![] bcast_S_S512 : (⟨S_, .i32⟩ : BufTy).Contents (Elt F) → (⟨S512, .i32⟩ : BufTy).Contents (Elt F)),
    StableHlo.binary main_v26 main_v27 main_v28 (cmpi .slt : (⟨S512, .i32⟩ : BufTy).Contents (Elt F) → (⟨S512, .i32⟩ : BufTy).Contents (Elt F) → (⟨S512, .i1⟩ : BufTy).Contents (Elt F)),
    StableHlo.nullary main_c_13 (constantI S_ 32 513#32),
    StableHlo.unary main_c_13 main_v29 (broadcastInDim S512 ![] bcast_S_S512 : (⟨S_, .i32⟩ : BufTy).Contents (Elt F) → (⟨S512, .i32⟩ : BufTy).Contents (Elt F)),
    StableHlo.binary main_v26 main_v29 main_v30 (addi : (⟨S512, .i32⟩ : BufTy).Contents (Elt F) → (⟨S512, .i32⟩ : BufTy).Contents (Elt F) → (⟨S512, .i32⟩ : BufTy).Contents (Elt F)),
    StableHlo.ternary main_v28 main_v30 main_v26 main_v31 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v31 main_v32 (broadcastInDim S512x1 ![0] bcast_S512_S512x1_0 : (⟨S512, .i32⟩ : BufTy).Contents (Elt F) → (⟨S512x1, .i32⟩ : BufTy).Contents (Elt F)),
    StableHlo.binary main_v11 main_v32 main_v33 ((fun x i => Host.gather gather_S513_S512x1_S512_n_0_n_n_0_1_1 x i) : (⟨S513, .i32⟩ : BufTy).Contents (Elt F) → (⟨S512x1, .i32⟩ : BufTy).Contents (Elt F) → (⟨S512, .i32⟩ : BufTy).Contents (Elt F)),
    StableHlo.nullary main_c_14 (constantI S_ 32 0#32),
    StableHlo.TRef.unary (.of main_c_14 : StableHlo.TRef sig ⟨S_, .i32⟩) main_call5.v0 id,
    StableHlo.TRef.unary main_call5.v0 main_call5.v1 (broadcastInDim S512 ![] bcast_S_S512),
    StableHlo.TRef.ternary (.of main_v25 : StableHlo.TRef sig ⟨S512, .i1⟩) (.of main_v33 : StableHlo.TRef sig ⟨S512, .i32⟩) main_call5.v1 main_call5.v2 select,
    StableHlo.nullary main_c_15 (constantI S_ 32 0#32),
    StableHlo.unary main_c_15 main_v35 (broadcastInDim S512 ![] bcast_S_S512 : (⟨S_, .i32⟩ : BufTy).Contents (Elt F) → (⟨S512, .i32⟩ : BufTy).Contents (Elt F)),
    StableHlo.binary main_arg1 main_v35 main_v36 (cmpi .slt : (⟨S512, .i32⟩ : BufTy).Contents (Elt F) → (⟨S512, .i32⟩ : BufTy).Contents (Elt F) → (⟨S512, .i1⟩ : BufTy).Contents (Elt F)),
    StableHlo.nullary main_c_16 (constantI S_ 32 0#32),
    StableHlo.TRef.unary (.of main_c_16 : StableHlo.TRef sig ⟨S_, .i32⟩) main_call6.v0 id,
    StableHlo.TRef.unary main_call6.v0 main_call6.v1 (broadcastInDim S512 ![] bcast_S_S512),
    StableHlo.TRef.ternary (.of main_v36 : StableHlo.TRef sig ⟨S512, .i1⟩) main_call6.v1 (.of main_arg1 : StableHlo.TRef sig ⟨S512, .i32⟩) main_call6.v2 select,
    StableHlo.unary main_v11 main_v38 ((extractStridedSlice S512 ![0] · slices_S513_S512_0) : (⟨S513, .i32⟩ : BufTy).Contents (Elt F) → (⟨S512, .i32⟩ : BufTy).Contents (Elt F)),
    StableHlo.binary main_v37 main_v38 main_v39 (addi : (⟨S512, .i32⟩ : BufTy).Contents (Elt F) → (⟨S512, .i32⟩ : BufTy).Contents (Elt F) → (⟨S512, .i32⟩ : BufTy).Contents (Elt F)),
    StableHlo.nullary main_c_17 (constantI S_ 32 0#32),
    StableHlo.unary main_c_17 main_v40 (broadcastInDim S512 ![] bcast_S_S512 : (⟨S_, .i32⟩ : BufTy).Contents (Elt F) → (⟨S512, .i32⟩ : BufTy).Contents (Elt F)),
    StableHlo.binary main_arg1 main_v40 main_v41 (cmpi .sge : (⟨S512, .i32⟩ : BufTy).Contents (Elt F) → (⟨S512, .i32⟩ : BufTy).Contents (Elt F) → (⟨S512, .i1⟩ : BufTy).Contents (Elt F)),
    StableHlo.TRef.unary (.of main_c : StableHlo.TRef sig ⟨S_, .i32⟩) main_call7.v0 (broadcastInDim S512 ![] bcast_S_S512),
    StableHlo.TRef.ternary (.of main_v41 : StableHlo.TRef sig ⟨S512, .i1⟩) (.of main_v39 : StableHlo.TRef sig ⟨S512, .i32⟩) main_call7.v0 main_call7.v1 select,
    StableHlo.nullary main_c_18 (constantI S_ 32 128#32),
    StableHlo.unary main_c_18 main_v43 (broadcastInDim S512 ![] bcast_S_S512 : (⟨S_, .i32⟩ : BufTy).Contents (Elt F) → (⟨S512, .i32⟩ : BufTy).Contents (Elt F)),
    StableHlo.binary main_v42 main_v43 main_v44 (addi : (⟨S512, .i32⟩ : BufTy).Contents (Elt F) → (⟨S512, .i32⟩ : BufTy).Contents (Elt F) → (⟨S512, .i32⟩ : BufTy).Contents (Elt F)),
    StableHlo.nullary main_c_19 (constantI S_ 32 1#32),
    StableHlo.unary main_c_19 main_v45 (broadcastInDim S512 ![] bcast_S_S512 : (⟨S_, .i32⟩ : BufTy).Contents (Elt F) → (⟨S512, .i32⟩ : BufTy).Contents (Elt F)),
    StableHlo.binary main_v44 main_v45 main_v46 (subi : (⟨S512, .i32⟩ : BufTy).Contents (Elt F) → (⟨S512, .i32⟩ : BufTy).Contents (Elt F) → (⟨S512, .i32⟩ : BufTy).Contents (Elt F)),
    StableHlo.nullary main_c_20 (constantI S_ 32 128#32),
    StableHlo.TRef.unary (.of main_c_20 : StableHlo.TRef sig ⟨S_, .i32⟩) main_call8.v0 id,
    StableHlo.TRef.unary main_call8.v0 main_call8.v1 (broadcastInDim S512 ![] bcast_S_S512),
    StableHlo.TRef.binary (.of main_v46 : StableHlo.TRef sig ⟨S512, .i32⟩) main_call8.v1 main_call8.v2 Host.divsi,
    StableHlo.TRef.unary (.of main_v46 : StableHlo.TRef sig ⟨S512, .i32⟩) main_call8.v3 signi,
    StableHlo.TRef.unary main_call8.v0 main_call8.v4 signi,
    StableHlo.TRef.unary main_call8.v4 main_call8.v5 (broadcastInDim S512 ![] bcast_S_S512),
    StableHlo.TRef.binary main_call8.v3 main_call8.v5 main_call8.v6 (cmpi .ne),
    StableHlo.TRef.unary main_call8.v0 main_call8.v7 (broadcastInDim S512 ![] bcast_S_S512),
    StableHlo.TRef.binary (.of main_v46 : StableHlo.TRef sig ⟨S512, .i32⟩) main_call8.v7 main_call8.v8 Host.remsi,
    StableHlo.TRef.nullary main_call8.c (constantI S_ 32 0#32),
    StableHlo.TRef.unary main_call8.c main_call8.v9 (broadcastInDim S512 ![] bcast_S_S512),
    StableHlo.TRef.binary main_call8.v8 main_call8.v9 main_call8.v10 (cmpi .ne),
    StableHlo.TRef.binary main_call8.v6 main_call8.v10 main_call8.v11 andi,
    StableHlo.TRef.nullary main_call8.c_0 (constantI S_ 32 1#32),
    StableHlo.TRef.unary main_call8.c_0 main_call8.v12 (broadcastInDim S512 ![] bcast_S_S512),
    StableHlo.TRef.binary main_call8.v2 main_call8.v12 main_call8.v13 subi,
    StableHlo.TRef.ternary main_call8.v11 main_call8.v13 main_call8.v2 main_call8.call0.v0 select,
    StableHlo.nullary main_c_21 (constantI S_ 32 128#32),
    StableHlo.unary main_c_21 main_v48 (broadcastInDim S512 ![] bcast_S_S512 : (⟨S_, .i32⟩ : BufTy).Contents (Elt F) → (⟨S512, .i32⟩ : BufTy).Contents (Elt F)),
    StableHlo.binary main_arg1 main_v48 main_v49 (addi : (⟨S512, .i32⟩ : BufTy).Contents (Elt F) → (⟨S512, .i32⟩ : BufTy).Contents (Elt F) → (⟨S512, .i32⟩ : BufTy).Contents (Elt F)),
    StableHlo.nullary main_c_22 (constantI S_ 32 1#32),
    StableHlo.unary main_c_22 main_v50 (broadcastInDim S512 ![] bcast_S_S512 : (⟨S_, .i32⟩ : BufTy).Contents (Elt F) → (⟨S512, .i32⟩ : BufTy).Contents (Elt F)),
    StableHlo.binary main_v49 main_v50 main_v51 (subi : (⟨S512, .i32⟩ : BufTy).Contents (Elt F) → (⟨S512, .i32⟩ : BufTy).Contents (Elt F) → (⟨S512, .i32⟩ : BufTy).Contents (Elt F)),
    StableHlo.nullary main_c_23 (constantI S_ 32 128#32),
    StableHlo.TRef.unary (.of main_c_23 : StableHlo.TRef sig ⟨S_, .i32⟩) main_call9.v0 id,
    StableHlo.TRef.unary main_call9.v0 main_call9.v1 (broadcastInDim S512 ![] bcast_S_S512),
    StableHlo.TRef.binary (.of main_v51 : StableHlo.TRef sig ⟨S512, .i32⟩) main_call9.v1 main_call9.v2 Host.divsi,
    StableHlo.TRef.unary (.of main_v51 : StableHlo.TRef sig ⟨S512, .i32⟩) main_call9.v3 signi,
    StableHlo.TRef.unary main_call9.v0 main_call9.v4 signi,
    StableHlo.TRef.unary main_call9.v4 main_call9.v5 (broadcastInDim S512 ![] bcast_S_S512),
    StableHlo.TRef.binary main_call9.v3 main_call9.v5 main_call9.v6 (cmpi .ne),
    StableHlo.TRef.unary main_call9.v0 main_call9.v7 (broadcastInDim S512 ![] bcast_S_S512),
    StableHlo.TRef.binary (.of main_v51 : StableHlo.TRef sig ⟨S512, .i32⟩) main_call9.v7 main_call9.v8 Host.remsi,
    StableHlo.TRef.nullary main_call9.c (constantI S_ 32 0#32),
    StableHlo.TRef.unary main_call9.c main_call9.v9 (broadcastInDim S512 ![] bcast_S_S512),
    StableHlo.TRef.binary main_call9.v8 main_call9.v9 main_call9.v10 (cmpi .ne),
    StableHlo.TRef.binary main_call9.v6 main_call9.v10 main_call9.v11 andi,
    StableHlo.TRef.nullary main_call9.c_0 (constantI S_ 32 1#32),
    StableHlo.TRef.unary main_call9.c_0 main_call9.v12 (broadcastInDim S512 ![] bcast_S_S512),
    StableHlo.TRef.binary main_call9.v2 main_call9.v12 main_call9.v13 subi,
    StableHlo.TRef.ternary main_call9.v11 main_call9.v13 main_call9.v2 main_call9.call0.v0 select,
    StableHlo.nullary main_c_24 (constantI S_ 32 0#32),
    StableHlo.unary main_c_24 main_v53 (broadcastInDim S512 ![] bcast_S_S512 : (⟨S_, .i32⟩ : BufTy).Contents (Elt F) → (⟨S512, .i32⟩ : BufTy).Contents (Elt F)),
    StableHlo.binary main_v26 main_v53 main_v54 (cmpi .slt : (⟨S512, .i32⟩ : BufTy).Contents (Elt F) → (⟨S512, .i32⟩ : BufTy).Contents (Elt F) → (⟨S512, .i1⟩ : BufTy).Contents (Elt F)),
    StableHlo.nullary main_c_25 (constantI S_ 32 512#32),
    StableHlo.unary main_c_25 main_v55 (broadcastInDim S512 ![] bcast_S_S512 : (⟨S_, .i32⟩ : BufTy).Contents (Elt F) → (⟨S512, .i32⟩ : BufTy).Contents (Elt F)),
    StableHlo.binary main_v26 main_v55 main_v56 (addi : (⟨S512, .i32⟩ : BufTy).Contents (Elt F) → (⟨S512, .i32⟩ : BufTy).Contents (Elt F) → (⟨S512, .i32⟩ : BufTy).Contents (Elt F)),
    StableHlo.ternary main_v54 main_v56 main_v26 main_v57 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v57 main_v58 (broadcastInDim S512x1 ![0] bcast_S512_S512x1_0 : (⟨S512, .i32⟩ : BufTy).Contents (Elt F) → (⟨S512x1, .i32⟩ : BufTy).Contents (Elt F)),
    StableHlo.binary main_v52 main_v58 main_v59 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.nullary main_c_26 (constantI S_ 32 0#32),
    StableHlo.unary main_c_26 main_v60 (broadcastInDim S512 ![] bcast_S_S512 : (⟨S_, .i32⟩ : BufTy).Contents (Elt F) → (⟨S512, .i32⟩ : BufTy).Contents (Elt F)),
    StableHlo.binary main_v26 main_v60 main_v61 (cmpi .slt : (⟨S512, .i32⟩ : BufTy).Contents (Elt F) → (⟨S512, .i32⟩ : BufTy).Contents (Elt F) → (⟨S512, .i1⟩ : BufTy).Contents (Elt F)),
    StableHlo.nullary main_c_27 (constantI S_ 32 512#32),
    StableHlo.unary main_c_27 main_v62 (broadcastInDim S512 ![] bcast_S_S512 : (⟨S_, .i32⟩ : BufTy).Contents (Elt F) → (⟨S512, .i32⟩ : BufTy).Contents (Elt F)),
    StableHlo.binary main_v26 main_v62 main_v63 (addi : (⟨S512, .i32⟩ : BufTy).Contents (Elt F) → (⟨S512, .i32⟩ : BufTy).Contents (Elt F) → (⟨S512, .i32⟩ : BufTy).Contents (Elt F)),
    StableHlo.ternary main_v61 main_v63 main_v26 main_v64 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v64 main_v65 (broadcastInDim S512x1 ![0] bcast_S512_S512x1_0 : (⟨S512, .i32⟩ : BufTy).Contents (Elt F) → (⟨S512x1, .i32⟩ : BufTy).Contents (Elt F)),
    StableHlo.binary main_v47 main_v65 main_v66 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.binary main_v66 main_v59 main_v67 (subi : (⟨S512, .i32⟩ : BufTy).Contents (Elt F) → (⟨S512, .i32⟩ : BufTy).Contents (Elt F) → (⟨S512, .i32⟩ : BufTy).Contents (Elt F)),
    StableHlo.nullary main_c_28 (constantI S_ 32 0#32),
    StableHlo.unary main_c_28 main_v68 (broadcastInDim S512 ![] bcast_S_S512 : (⟨S_, .i32⟩ : BufTy).Contents (Elt F) → (⟨S512, .i32⟩ : BufTy).Contents (Elt F)),
    StableHlo.binary main_v67 main_v68 main_v69 (maxsi : (⟨S512, .i32⟩ : BufTy).Contents (Elt F) → (⟨S512, .i32⟩ : BufTy).Contents (Elt F) → (⟨S512, .i32⟩ : BufTy).Contents (Elt F)),
    StableHlo.nullary main_c_29 (constantI S_ 32 0#32),
    StableHlo.TRef.unary (.of main_c_29 : StableHlo.TRef sig ⟨S_, .i32⟩) main_call10.v0 id,
    StableHlo.TRef.unary main_call10.v0 main_call10.v1 (broadcastInDim S512 ![] bcast_S_S512),
    StableHlo.TRef.ternary (.of main_v25 : StableHlo.TRef sig ⟨S512, .i1⟩) (.of main_v69 : StableHlo.TRef sig ⟨S512, .i32⟩) main_call10.v1 main_call10.v2 select,
    StableHlo.TRef.nullary main_call11.call0.c (constantI S_ 32 0#32),
    StableHlo.TRef.unary main_call11.call0.c main_call11.call0.v0 (broadcastInDim S_ ![] bcast_S_S_),
    StableHlo.TRef.binary (.of main_v70 : StableHlo.TRef sig ⟨S512, .i32⟩) main_call11.call0.v0 main_call11.call0.v1 (fun x v => Host.reduceWindow IntOp.addi ![512] ![1] ![511] ![0] x v reduceWindows_S512_S512_w512s1p511_0 h_S_),
    StableHlo.binary main_v71 main_v70 main_v72 (subi : (⟨S512, .i32⟩ : BufTy).Contents (Elt F) → (⟨S512, .i32⟩ : BufTy).Contents (Elt F) → (⟨S512, .i32⟩ : BufTy).Contents (Elt F)),
    StableHlo.nullary main_v73 (iotaInDim S65536 32 0),
    StableHlo.nullary main_c_30 (constantI S_ 32 0#32),
    StableHlo.unary main_c_30 main_v74 (broadcastInDim S65536 ![] bcast_S_S65536 : (⟨S_, .i32⟩ : BufTy).Contents (Elt F) → (⟨S65536, .i32⟩ : BufTy).Contents (Elt F)),
    StableHlo.binary main_arg3 main_v74 main_v75 (cmpi .eq : (⟨S65536, .i32⟩ : BufTy).Contents (Elt F) → (⟨S65536, .i32⟩ : BufTy).Contents (Elt F) → (⟨S65536, .i1⟩ : BufTy).Contents (Elt F)),
    StableHlo.nullary main_c_31 (constantI S_ 32 65536#32),
    StableHlo.unary main_c_31 main_v76 (broadcastInDim S65536 ![] bcast_S_S65536 : (⟨S_, .i32⟩ : BufTy).Contents (Elt F) → (⟨S65536, .i32⟩ : BufTy).Contents (Elt F)),
    StableHlo.binary main_v76 main_v73 main_v77 (addi : (⟨S65536, .i32⟩ : BufTy).Contents (Elt F) → (⟨S65536, .i32⟩ : BufTy).Contents (Elt F) → (⟨S65536, .i32⟩ : BufTy).Contents (Elt F)),
    StableHlo.TRef.ternary (.of main_v75 : StableHlo.TRef sig ⟨S65536, .i1⟩) (.of main_v73 : StableHlo.TRef sig ⟨S65536, .i32⟩) (.of main_v77 : StableHlo.TRef sig ⟨S65536, .i32⟩) main_call12.v0 select,
    StableHlo.TRef.nullary main_call13.v0 (iotaInDim S65536 32 0),
    StableHlo.TRef.binary (.of main_v78 : StableHlo.TRef sig ⟨S65536, .i32⟩) main_call13.v0 main_call13.v1_0 (fun x y => (Host.sort2 S65536 0 comparator_i32_i32_d0 x y).1),
    StableHlo.TRef.binary (.of main_v78 : StableHlo.TRef sig ⟨S65536, .i32⟩) main_call13.v0 main_call13.v1_1 (fun x y => (Host.sort2 S65536 0 comparator_i32_i32_d0 x y).2) ]

/-- From there up to the new page table (59). -/
abbrev rS2 : List (HloOp τ sig (Elt F)) :=
  [ StableHlo.nullary main_v80 (iotaInDim S256 32 0),
    StableHlo.unary main_v80 main_v81 (broadcastInDim S1x256 ![1] bcast_S256_S1x256_1 : (⟨S256, .i32⟩ : BufTy).Contents (Elt F) → (⟨S1x256, .i32⟩ : BufTy).Contents (Elt F)),
    StableHlo.unary main_v25 main_v82 (broadcastInDim S512x1 ![0] bcast_S512_S512x1_0 : (⟨S512, .i1⟩ : BufTy).Contents (Elt F) → (⟨S512x1, .i1⟩ : BufTy).Contents (Elt F)),
    StableHlo.unary main_v59 main_v83 (broadcastInDim S512x1 ![0] bcast_S512_S512x1_0 : (⟨S512, .i32⟩ : BufTy).Contents (Elt F) → (⟨S512x1, .i32⟩ : BufTy).Contents (Elt F)),
    StableHlo.unary main_v81 main_v84 (broadcastInDim S512x256 ![0, 1] bcast_S1x256_S512x256_0_1 : (⟨S1x256, .i32⟩ : BufTy).Contents (Elt F) → (⟨S512x256, .i32⟩ : BufTy).Contents (Elt F)),
    StableHlo.unary main_v83 main_v85 (broadcastInDim S512x256 ![0, 1] bcast_S512x1_S512x256_0_1 : (⟨S512x1, .i32⟩ : BufTy).Contents (Elt F) → (⟨S512x256, .i32⟩ : BufTy).Contents (Elt F)),
    StableHlo.binary main_v84 main_v85 main_v86 (cmpi .sge : (⟨S512x256, .i32⟩ : BufTy).Contents (Elt F) → (⟨S512x256, .i32⟩ : BufTy).Contents (Elt F) → (⟨S512x256, .i1⟩ : BufTy).Contents (Elt F)),
    StableHlo.unary main_v82 main_v87 (broadcastInDim S512x256 ![0, 1] bcast_S512x1_S512x256_0_1 : (⟨S512x1, .i1⟩ : BufTy).Contents (Elt F) → (⟨S512x256, .i1⟩ : BufTy).Contents (Elt F)),
    StableHlo.binary main_v87 main_v86 main_v88 (andi : (⟨S512x256, .i1⟩ : BufTy).Contents (Elt F) → (⟨S512x256, .i1⟩ : BufTy).Contents (Elt F) → (⟨S512x256, .i1⟩ : BufTy).Contents (Elt F)),
    StableHlo.unary main_v66 main_v89 (broadcastInDim S512x1 ![0] bcast_S512_S512x1_0 : (⟨S512, .i32⟩ : BufTy).Contents (Elt F) → (⟨S512x1, .i32⟩ : BufTy).Contents (Elt F)),
    StableHlo.unary main_v81 main_v90 (broadcastInDim S512x256 ![0, 1] bcast_S1x256_S512x256_0_1 : (⟨S1x256, .i32⟩ : BufTy).Contents (Elt F) → (⟨S512x256, .i32⟩ : BufTy).Contents (Elt F)),
    StableHlo.unary main_v89 main_v91 (broadcastInDim S512x256 ![0, 1] bcast_S512x1_S512x256_0_1 : (⟨S512x1, .i32⟩ : BufTy).Contents (Elt F) → (⟨S512x256, .i32⟩ : BufTy).Contents (Elt F)),
    StableHlo.binary main_v90 main_v91 main_v92 (cmpi .slt : (⟨S512x256, .i32⟩ : BufTy).Contents (Elt F) → (⟨S512x256, .i32⟩ : BufTy).Contents (Elt F) → (⟨S512x256, .i1⟩ : BufTy).Contents (Elt F)),
    StableHlo.binary main_v88 main_v92 main_v93 (andi : (⟨S512x256, .i1⟩ : BufTy).Contents (Elt F) → (⟨S512x256, .i1⟩ : BufTy).Contents (Elt F) → (⟨S512x256, .i1⟩ : BufTy).Contents (Elt F)),
    StableHlo.unary main_v72 main_v94 (broadcastInDim S512x1 ![0] bcast_S512_S512x1_0 : (⟨S512, .i32⟩ : BufTy).Contents (Elt F) → (⟨S512x1, .i32⟩ : BufTy).Contents (Elt F)),
    StableHlo.unary main_v94 main_v95 (broadcastInDim S512x256 ![0, 1] bcast_S512x1_S512x256_0_1 : (⟨S512x1, .i32⟩ : BufTy).Contents (Elt F) → (⟨S512x256, .i32⟩ : BufTy).Contents (Elt F)),
    StableHlo.unary main_v81 main_v96 (broadcastInDim S512x256 ![0, 1] bcast_S1x256_S512x256_0_1 : (⟨S1x256, .i32⟩ : BufTy).Contents (Elt F) → (⟨S512x256, .i32⟩ : BufTy).Contents (Elt F)),
    StableHlo.binary main_v95 main_v96 main_v97 (addi : (⟨S512x256, .i32⟩ : BufTy).Contents (Elt F) → (⟨S512x256, .i32⟩ : BufTy).Contents (Elt F) → (⟨S512x256, .i32⟩ : BufTy).Contents (Elt F)),
    StableHlo.unary main_v59 main_v98 (broadcastInDim S512x1 ![0] bcast_S512_S512x1_0 : (⟨S512, .i32⟩ : BufTy).Contents (Elt F) → (⟨S512x1, .i32⟩ : BufTy).Contents (Elt F)),
    StableHlo.unary main_v98 main_v99 (broadcastInDim S512x256 ![0, 1] bcast_S512x1_S512x256_0_1 : (⟨S512x1, .i32⟩ : BufTy).Contents (Elt F) → (⟨S512x256, .i32⟩ : BufTy).Contents (Elt F)),
    StableHlo.binary main_v97 main_v99 main_v100 (subi : (⟨S512x256, .i32⟩ : BufTy).Contents (Elt F) → (⟨S512x256, .i32⟩ : BufTy).Contents (Elt F) → (⟨S512x256, .i32⟩ : BufTy).Contents (Elt F)),
    StableHlo.nullary main_c_32 (constantI S_ 32 0#32),
    StableHlo.TRef.unary (.of main_c_32 : StableHlo.TRef sig ⟨S_, .i32⟩) main_call14.v0 id,
    StableHlo.TRef.unary main_call14.v0 main_call14.v1 (broadcastInDim S512x256 ![] bcast_S_S512x256),
    StableHlo.TRef.ternary (.of main_v93 : StableHlo.TRef sig ⟨S512x256, .i1⟩) (.of main_v100 : StableHlo.TRef sig ⟨S512x256, .i32⟩) main_call14.v1 main_call14.v2 select,
    StableHlo.nullary main_c_33 (constantI S_ 32 0#32),
    StableHlo.unary main_c_33 main_v102 (broadcastInDim S512x256 ![] bcast_S_S512x256 : (⟨S_, .i32⟩ : BufTy).Contents (Elt F) → (⟨S512x256, .i32⟩ : BufTy).Contents (Elt F)),
    StableHlo.binary main_v101 main_v102 main_v103 (cmpi .slt : (⟨S512x256, .i32⟩ : BufTy).Contents (Elt F) → (⟨S512x256, .i32⟩ : BufTy).Contents (Elt F) → (⟨S512x256, .i1⟩ : BufTy).Contents (Elt F)),
    StableHlo.nullary main_c_34 (constantI S_ 32 65536#32),
    StableHlo.unary main_c_34 main_v104 (broadcastInDim S512x256 ![] bcast_S_S512x256 : (⟨S_, .i32⟩ : BufTy).Contents (Elt F) → (⟨S512x256, .i32⟩ : BufTy).Contents (Elt F)),
    StableHlo.binary main_v101 main_v104 main_v105 (addi : (⟨S512x256, .i32⟩ : BufTy).Contents (Elt F) → (⟨S512x256, .i32⟩ : BufTy).Contents (Elt F) → (⟨S512x256, .i32⟩ : BufTy).Contents (Elt F)),
    StableHlo.ternary main_v103 main_v105 main_v101 main_v106 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v106 main_v107 (broadcastInDim S512x256x1 ![0, 1] bcast_S512x256_S512x256x1_0_1 : (⟨S512x256, .i32⟩ : BufTy).Contents (Elt F) → (⟨S512x256x1, .i32⟩ : BufTy).Contents (Elt F)),
    StableHlo.binary main_v79 main_v107 main_v108 ((fun x i => Host.gather gather_S65536_S512x256x1_S512x256_n_0_n_n_0_2_1 x i) : (⟨S65536, .i32⟩ : BufTy).Contents (Elt F) → (⟨S512x256x1, .i32⟩ : BufTy).Contents (Elt F) → (⟨S512x256, .i32⟩ : BufTy).Contents (Elt F)),
    StableHlo.unary main_v26 main_v109 (broadcastInDim S512x1 ![0] bcast_S512_S512x1_0 : (⟨S512, .i32⟩ : BufTy).Contents (Elt F) → (⟨S512x1, .i32⟩ : BufTy).Contents (Elt F)),
    StableHlo.nullary main_c_35 (constantI S_ 32 512#32),
    StableHlo.TRef.unary (.of main_c_35 : StableHlo.TRef sig ⟨S_, .i32⟩) main_call15.v0 id,
    StableHlo.TRef.unary (.of main_v109 : StableHlo.TRef sig ⟨S512x1, .i32⟩) main_call15.v1 (broadcastInDim S512x256 ![0, 1] bcast_S512x1_S512x256_0_1),
    StableHlo.TRef.unary main_call15.v0 main_call15.v2 (broadcastInDim S512x256 ![] bcast_S_S512x256),
    StableHlo.TRef.ternary (.of main_v93 : StableHlo.TRef sig ⟨S512x256, .i1⟩) main_call15.v1 main_call15.v2 main_call15.v3 select,
    StableHlo.unary main_v81 main_v111 (broadcastInDim S512x256 ![0, 1] bcast_S1x256_S512x256_0_1 : (⟨S1x256, .i32⟩ : BufTy).Contents (Elt F) → (⟨S512x256, .i32⟩ : BufTy).Contents (Elt F)),
    StableHlo.nullary main_c_36 (constantI S_ 32 0#32),
    StableHlo.unary main_c_36 main_v112 (broadcastInDim S512x256 ![] bcast_S_S512x256 : (⟨S_, .i32⟩ : BufTy).Contents (Elt F) → (⟨S512x256, .i32⟩ : BufTy).Contents (Elt F)),
    StableHlo.binary main_v110 main_v112 main_v113 (cmpi .slt : (⟨S512x256, .i32⟩ : BufTy).Contents (Elt F) → (⟨S512x256, .i32⟩ : BufTy).Contents (Elt F) → (⟨S512x256, .i1⟩ : BufTy).Contents (Elt F)),
    StableHlo.nullary main_c_37 (constantI S_ 32 512#32),
    StableHlo.unary main_c_37 main_v114 (broadcastInDim S512x256 ![] bcast_S_S512x256 : (⟨S_, .i32⟩ : BufTy).Contents (Elt F) → (⟨S512x256, .i32⟩ : BufTy).Contents (Elt F)),
    StableHlo.binary main_v110 main_v114 main_v115 (addi : (⟨S512x256, .i32⟩ : BufTy).Contents (Elt F) → (⟨S512x256, .i32⟩ : BufTy).Contents (Elt F) → (⟨S512x256, .i32⟩ : BufTy).Contents (Elt F)),
    StableHlo.ternary main_v113 main_v115 main_v110 main_v116 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.nullary main_c_38 (constantI S_ 32 0#32),
    StableHlo.unary main_c_38 main_v117 (broadcastInDim S512x256 ![] bcast_S_S512x256 : (⟨S_, .i32⟩ : BufTy).Contents (Elt F) → (⟨S512x256, .i32⟩ : BufTy).Contents (Elt F)),
    StableHlo.binary main_v111 main_v117 main_v118 (cmpi .slt : (⟨S512x256, .i32⟩ : BufTy).Contents (Elt F) → (⟨S512x256, .i32⟩ : BufTy).Contents (Elt F) → (⟨S512x256, .i1⟩ : BufTy).Contents (Elt F)),
    StableHlo.nullary main_c_39 (constantI S_ 32 256#32),
    StableHlo.unary main_c_39 main_v119 (broadcastInDim S512x256 ![] bcast_S_S512x256 : (⟨S_, .i32⟩ : BufTy).Contents (Elt F) → (⟨S512x256, .i32⟩ : BufTy).Contents (Elt F)),
    StableHlo.binary main_v111 main_v119 main_v120 (addi : (⟨S512x256, .i32⟩ : BufTy).Contents (Elt F) → (⟨S512x256, .i32⟩ : BufTy).Contents (Elt F) → (⟨S512x256, .i32⟩ : BufTy).Contents (Elt F)),
    StableHlo.ternary main_v118 main_v120 main_v111 main_v121 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v116 main_v122 (broadcastInDim S512x256x1 ![0, 1] bcast_S512x256_S512x256x1_0_1 : (⟨S512x256, .i32⟩ : BufTy).Contents (Elt F) → (⟨S512x256x1, .i32⟩ : BufTy).Contents (Elt F)),
    StableHlo.unary main_v121 main_v123 (broadcastInDim S512x256x1 ![0, 1] bcast_S512x256_S512x256x1_0_1 : (⟨S512x256, .i32⟩ : BufTy).Contents (Elt F) → (⟨S512x256x1, .i32⟩ : BufTy).Contents (Elt F)),
    StableHlo.binary main_v122 main_v123 main_v124 ((fun a b => concatenate S512x256x2 2 [⟨S512x256x1, a⟩, ⟨S512x256x1, b⟩] concatenates_S512x256x1_S512x256x1_S512x256x2_d2) : (⟨S512x256x1, .i32⟩ : BufTy).Contents (Elt F) → (⟨S512x256x1, .i32⟩ : BufTy).Contents (Elt F) → (⟨S512x256x2, .i32⟩ : BufTy).Contents (Elt F)),
    StableHlo.ternary main_arg2 main_v124 main_v108 main_v125 ((fun x i u => Host.scatter scatter_S512x256_S512x256x2_S512x256_n_01_01_2 (fun _ b => b) x i u) : (⟨S512x256, .i32⟩ : BufTy).Contents (Elt F) → (⟨S512x256x2, .i32⟩ : BufTy).Contents (Elt F) → (⟨S512x256, .i32⟩ : BufTy).Contents (Elt F) → (⟨S512x256, .i32⟩ : BufTy).Contents (Elt F)) ]

/-- The remaining operations (189). -/
abbrev rS3 : List (HloOp τ sig (Elt F)) :=
  [ StableHlo.nullary main_c_40 (constantI S_ 32 65536#32),
    StableHlo.TRef.unary (.of main_c_40 : StableHlo.TRef sig ⟨S_, .i32⟩) main_call16.v0 id,
    StableHlo.TRef.unary main_call16.v0 main_call16.v1 (broadcastInDim S512x256 ![] bcast_S_S512x256),
    StableHlo.TRef.ternary (.of main_v93 : StableHlo.TRef sig ⟨S512x256, .i1⟩) (.of main_v108 : StableHlo.TRef sig ⟨S512x256, .i32⟩) main_call16.v1 main_call16.v2 select,
    StableHlo.nullary main_c_41 (constantI S_ 32 0#32),
    StableHlo.unary main_c_41 main_v127 (broadcastInDim S512x256 ![] bcast_S_S512x256 : (⟨S_, .i32⟩ : BufTy).Contents (Elt F) → (⟨S512x256, .i32⟩ : BufTy).Contents (Elt F)),
    StableHlo.binary main_v126 main_v127 main_v128 (cmpi .slt : (⟨S512x256, .i32⟩ : BufTy).Contents (Elt F) → (⟨S512x256, .i32⟩ : BufTy).Contents (Elt F) → (⟨S512x256, .i1⟩ : BufTy).Contents (Elt F)),
    StableHlo.nullary main_c_42 (constantI S_ 32 65536#32),
    StableHlo.unary main_c_42 main_v129 (broadcastInDim S512x256 ![] bcast_S_S512x256 : (⟨S_, .i32⟩ : BufTy).Contents (Elt F) → (⟨S512x256, .i32⟩ : BufTy).Contents (Elt F)),
    StableHlo.binary main_v126 main_v129 main_v130 (addi : (⟨S512x256, .i32⟩ : BufTy).Contents (Elt F) → (⟨S512x256, .i32⟩ : BufTy).Contents (Elt F) → (⟨S512x256, .i32⟩ : BufTy).Contents (Elt F)),
    StableHlo.ternary main_v128 main_v130 main_v126 main_v131 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v131 main_v132 (broadcastInDim S512x256x1 ![0, 1] bcast_S512x256_S512x256x1_0_1 : (⟨S512x256, .i32⟩ : BufTy).Contents (Elt F) → (⟨S512x256x1, .i32⟩ : BufTy).Contents (Elt F)),
    StableHlo.nullary main_c_43 (constantI S_ 32 1#32),
    StableHlo.unary main_c_43 main_v133 (broadcastInDim S512x256 ![] bcast_S_S512x256 : (⟨S_, .i32⟩ : BufTy).Contents (Elt F) → (⟨S512x256, .i32⟩ : BufTy).Contents (Elt F)),
    StableHlo.ternary main_arg3 main_v132 main_v133 main_v134 ((fun x i u => Host.scatter scatter_S65536_S512x256x1_S512x256_n_0_0_2 IntOp.addi x i u) : (⟨S65536, .i32⟩ : BufTy).Contents (Elt F) → (⟨S512x256x1, .i32⟩ : BufTy).Contents (Elt F) → (⟨S512x256, .i32⟩ : BufTy).Contents (Elt F) → (⟨S65536, .i32⟩ : BufTy).Contents (Elt F)),
    StableHlo.nullary main_c_44 (constantI S_ 32 0#32),
    StableHlo.unary main_c_44 main_v135 (broadcastInDim S512 ![] bcast_S_S512 : (⟨S_, .i32⟩ : BufTy).Contents (Elt F) → (⟨S512, .i32⟩ : BufTy).Contents (Elt F)),
    StableHlo.binary main_v20 main_v135 main_v136 (cmpi .sge : (⟨S512, .i32⟩ : BufTy).Contents (Elt F) → (⟨S512, .i32⟩ : BufTy).Contents (Elt F) → (⟨S512, .i1⟩ : BufTy).Contents (Elt F)),
    StableHlo.unary main_v136 main_v137 (broadcastInDim S512x1 ![0] bcast_S512_S512x1_0 : (⟨S512, .i1⟩ : BufTy).Contents (Elt F) → (⟨S512x1, .i1⟩ : BufTy).Contents (Elt F)),
    StableHlo.nullary main_c_45 (constantI S_ 32 0#32),
    StableHlo.unary main_c_45 main_v138 (broadcastInDim S512 ![] bcast_S_S512 : (⟨S_, .i32⟩ : BufTy).Contents (Elt F) → (⟨S512, .i32⟩ : BufTy).Contents (Elt F)),
    StableHlo.binary main_v26 main_v138 main_v139 (cmpi .slt : (⟨S512, .i32⟩ : BufTy).Contents (Elt F) → (⟨S512, .i32⟩ : BufTy).Contents (Elt F) → (⟨S512, .i1⟩ : BufTy).Contents (Elt F)),
    StableHlo.nullary main_c_46 (constantI S_ 32 512#32),
    StableHlo.unary main_c_46 main_v140 (broadcastInDim S512 ![] bcast_S_S512 : (⟨S_, .i32⟩ : BufTy).Contents (Elt F) → (⟨S512, .i32⟩ : BufTy).Contents (Elt F)),
    StableHlo.binary main_v26 main_v140 main_v141 (addi : (⟨S512, .i32⟩ : BufTy).Contents (Elt F) → (⟨S512, .i32⟩ : BufTy).Contents (Elt F) → (⟨S512, .i32⟩ : BufTy).Contents (Elt F)),
    StableHlo.ternary main_v139 main_v141 main_v26 main_v142 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v142 main_v143 (broadcastInDim S512x1 ![0] bcast_S512_S512x1_0 : (⟨S512, .i32⟩ : BufTy).Contents (Elt F) → (⟨S512x1, .i32⟩ : BufTy).Contents (Elt F)),
    StableHlo.binary main_v125 main_v143 main_v144 ((fun x i => Host.gather gather_S512x256_S512x1_S512x256_1_0_n_n_0_1_1256 x i) : (⟨S512x256, .i32⟩ : BufTy).Contents (Elt F) → (⟨S512x1, .i32⟩ : BufTy).Contents (Elt F) → (⟨S512x256, .i32⟩ : BufTy).Contents (Elt F)),
    StableHlo.TRef.unary (.of main_v137 : StableHlo.TRef sig ⟨S512x1, .i1⟩) main_call17.v0 (broadcastInDim S512x256 ![0, 1] bcast_S512x1_S512x256_0_1),
    StableHlo.TRef.unary (.of main_c : StableHlo.TRef sig ⟨S_, .i32⟩) main_call17.v1 (broadcastInDim S512x256 ![] bcast_S_S512x256),
    StableHlo.TRef.ternary main_call17.v0 (.of main_v144 : StableHlo.TRef sig ⟨S512x256, .i32⟩) main_call17.v1 main_call17.v2 select,
    StableHlo.nullary main_c_47 (constantI S_ 32 0#32),
    StableHlo.unary main_c_47 main_v146 (broadcastInDim S512 ![] bcast_S_S512 : (⟨S_, .i32⟩ : BufTy).Contents (Elt F) → (⟨S512, .i32⟩ : BufTy).Contents (Elt F)),
    StableHlo.binary main_v26 main_v146 main_v147 (cmpi .slt : (⟨S512, .i32⟩ : BufTy).Contents (Elt F) → (⟨S512, .i32⟩ : BufTy).Contents (Elt F) → (⟨S512, .i1⟩ : BufTy).Contents (Elt F)),
    StableHlo.nullary main_c_48 (constantI S_ 32 512#32),
    StableHlo.unary main_c_48 main_v148 (broadcastInDim S512 ![] bcast_S_S512 : (⟨S_, .i32⟩ : BufTy).Contents (Elt F) → (⟨S512, .i32⟩ : BufTy).Contents (Elt F)),
    StableHlo.binary main_v26 main_v148 main_v149 (addi : (⟨S512, .i32⟩ : BufTy).Contents (Elt F) → (⟨S512, .i32⟩ : BufTy).Contents (Elt F) → (⟨S512, .i32⟩ : BufTy).Contents (Elt F)),
    StableHlo.ternary main_v147 main_v149 main_v26 main_v150 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v150 main_v151 (broadcastInDim S512x1 ![0] bcast_S512_S512x1_0 : (⟨S512, .i32⟩ : BufTy).Contents (Elt F) → (⟨S512x1, .i32⟩ : BufTy).Contents (Elt F)),
    StableHlo.binary main_v42 main_v151 main_v152 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.TRef.unary (.of main_c : StableHlo.TRef sig ⟨S_, .i32⟩) main_call18.v0 (broadcastInDim S512 ![] bcast_S_S512),
    StableHlo.TRef.ternary (.of main_v136 : StableHlo.TRef sig ⟨S512, .i1⟩) (.of main_v152 : StableHlo.TRef sig ⟨S512, .i32⟩) main_call18.v0 main_call18.v1 select,
    StableHlo.unary main_v136 main_v154 ((extui 32 · natLt_1_32) : (⟨S512, .i1⟩ : BufTy).Contents (Elt F) → (⟨S512, .i32⟩ : BufTy).Contents (Elt F)),
    StableHlo.nullary main_c_49 (constantI S_ 32 0#32),
    StableHlo.binary main_v154 main_c_49 main_v155 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    StableHlo.unary main_v2 main_v156 (broadcastInDim S65536x1 ![0] bcast_S65536_S65536x1_0 : (⟨S65536, .i32⟩ : BufTy).Contents (Elt F) → (⟨S65536x1, .i32⟩ : BufTy).Contents (Elt F)),
    StableHlo.nullary main_v157 (iotaInDim S513 32 0),
    StableHlo.unary main_v157 main_v158 (broadcastInDim S1x513 ![1] bcast_S513_S1x513_1 : (⟨S513, .i32⟩ : BufTy).Contents (Elt F) → (⟨S1x513, .i32⟩ : BufTy).Contents (Elt F)),
    StableHlo.unary main_v156 main_v159 (broadcastInDim S65536x513 ![0, 1] bcast_S65536x1_S65536x513_0_1 : (⟨S65536x1, .i32⟩ : BufTy).Contents (Elt F) → (⟨S65536x513, .i32⟩ : BufTy).Contents (Elt F)),
    StableHlo.unary main_v158 main_v160 (broadcastInDim S65536x513 ![0, 1] bcast_S1x513_S65536x513_0_1 : (⟨S1x513, .i32⟩ : BufTy).Contents (Elt F) → (⟨S65536x513, .i32⟩ : BufTy).Contents (Elt F)),
    StableHlo.binary main_v159 main_v160 main_v161 (cmpi .eq : (⟨S65536x513, .i32⟩ : BufTy).Contents (Elt F) → (⟨S65536x513, .i32⟩ : BufTy).Contents (Elt F) → (⟨S65536x513, .i1⟩ : BufTy).Contents (Elt F)),
    StableHlo.unary main_v161 main_v162 ((extui 32 · natLt_1_32) : (⟨S65536x513, .i1⟩ : BufTy).Contents (Elt F) → (⟨S65536x513, .i32⟩ : BufTy).Contents (Elt F)),
    StableHlo.TRef.nullary main_call19.call0.c (constantI S_ 32 0#32),
    StableHlo.TRef.unary main_call19.call0.c main_call19.call0.v0 (broadcastInDim S_ ![] bcast_S_S_),
    StableHlo.TRef.binary (.of main_v162 : StableHlo.TRef sig ⟨S65536x513, .i32⟩) main_call19.call0.v0 main_call19.call0.v1 (fun x v => Host.reduceWindow IntOp.addi ![65536, 1] ![1, 1] ![65535, 0] ![0, 0] x v reduceWindows_S65536x513_S65536x513_w65536s1p65535_0_w1s1p0_0 h_S_),
    StableHlo.unary main_v2 main_v164 (broadcastInDim S65536x1 ![0] bcast_S65536_S65536x1_0 : (⟨S65536, .i32⟩ : BufTy).Contents (Elt F) → (⟨S65536x1, .i32⟩ : BufTy).Contents (Elt F)),
    StableHlo.TRef.nullary main_call20.c (constantI S_ 32 0#32),
    StableHlo.TRef.unary main_call20.c main_call20.v0 (broadcastInDim S65536x1 ![] bcast_S_S65536x1),
    StableHlo.TRef.binary (.of main_v164 : StableHlo.TRef sig ⟨S65536x1, .i32⟩) main_call20.v0 main_call20.v1 (cmpi .slt),
    StableHlo.TRef.nullary main_call20.c_0 (constantI S_ 32 513#32),
    StableHlo.TRef.unary main_call20.c_0 main_call20.v2 (broadcastInDim S65536x1 ![] bcast_S_S65536x1),
    StableHlo.TRef.binary (.of main_v164 : StableHlo.TRef sig ⟨S65536x1, .i32⟩) main_call20.v2 main_call20.v3 addi,
    StableHlo.TRef.ternary main_call20.v1 main_call20.v3 (.of main_v164 : StableHlo.TRef sig ⟨S65536x1, .i32⟩) main_call20.v4 select,
    StableHlo.TRef.reshape main_call20.v4 main_call20.v5 rfl shapeCasts_S65536x1_S65536x1x1,
    StableHlo.TRef.nullary main_call20.c_1 (constantI S1 32 512#32),
    StableHlo.TRef.nullary main_call20.c_2 (constantI S_ 32 0#32),
    StableHlo.TRef.unary main_call20.c_2 main_call20.v6 (broadcastInDim S65536x1x1 ![] bcast_S_S65536x1x1),
    StableHlo.TRef.binary main_call20.v5 main_call20.v6 main_call20.v7 (cmpi .sge),
    StableHlo.TRef.unary main_call20.c_1 main_call20.v8 (broadcastInDim S1x1x1 ![2] bcast_S1_S1x1x1_2),
    StableHlo.TRef.unary main_call20.v8 main_call20.v9 (broadcastInDim S65536x1x1 ![0, 1, 2] bcast_S1x1x1_S65536x1x1_0_1_2),
    StableHlo.TRef.binary main_call20.v5 main_call20.v9 main_call20.v10 (cmpi .sle),
    StableHlo.TRef.binary main_call20.v7 main_call20.v10 main_call20.v11 andi,
    StableHlo.TRef.nullary main_call20.c_3 (constantI S_ 1 1#1),
    StableHlo.TRef.binary main_call20.v11 main_call20.c_3 main_call20.v12 (fun x v => Host.reduce IntOp.andi x v reducesTo_S65536x1x1_S65536x1_d2 h_S_),
    StableHlo.TRef.binary (.of main_v163 : StableHlo.TRef sig ⟨S65536x513, .i32⟩) main_call20.v5 main_call20.v13 (fun x i => Host.gather gather_S65536x513_S65536x1x1_S65536x1_n_1_0_0_1_2_11 x i),
    StableHlo.TRef.nullary main_call20.c_4 (constantI S_ 32 2147483648#32),
    StableHlo.TRef.unary main_call20.c_4 main_call20.v14 (broadcastInDim S65536x1 ![] bcast_S_S65536x1),
    StableHlo.TRef.ternary main_call20.v12 main_call20.v13 main_call20.v14 main_call20.v15 select,
    StableHlo.reshape main_v165 main_v166 rfl shapeCasts_S65536x1_S65536,
    StableHlo.nullary main_c_50 (constantI S_ 32 1#32),
    StableHlo.unary main_c_50 main_v167 (broadcastInDim S65536 ![] bcast_S_S65536 : (⟨S_, .i32⟩ : BufTy).Contents (Elt F) → (⟨S65536, .i32⟩ : BufTy).Contents (Elt F)),
    StableHlo.binary main_v166 main_v167 main_v168 (subi : (⟨S65536, .i32⟩ : BufTy).Contents (Elt F) → (⟨S65536, .i32⟩ : BufTy).Contents (Elt F) → (⟨S65536, .i32⟩ : BufTy).Contents (Elt F)),
    StableHlo.nullary main_c_51 (constantI S_ 32 0#32),
    StableHlo.unary main_c_51 main_v169 (broadcastInDim S512 ![] bcast_S_S512 : (⟨S_, .i32⟩ : BufTy).Contents (Elt F) → (⟨S512, .i32⟩ : BufTy).Contents (Elt F)),
    StableHlo.binary main_arg1 main_v169 main_v170 (cmpi .slt : (⟨S512, .i32⟩ : BufTy).Contents (Elt F) → (⟨S512, .i32⟩ : BufTy).Contents (Elt F) → (⟨S512, .i1⟩ : BufTy).Contents (Elt F)),
    StableHlo.nullary main_c_52 (constantI S_ 32 0#32),
    StableHlo.TRef.unary (.of main_c_52 : StableHlo.TRef sig ⟨S_, .i32⟩) main_call21.v0 id,
    StableHlo.TRef.unary main_call21.v0 main_call21.v1 (broadcastInDim S512 ![] bcast_S_S512),
    StableHlo.TRef.ternary (.of main_v170 : StableHlo.TRef sig ⟨S512, .i1⟩) main_call21.v1 (.of main_arg1 : StableHlo.TRef sig ⟨S512, .i32⟩) main_call21.v2 select,
    StableHlo.nullary main_c_53 (constantI S_ 32 512#32),
    StableHlo.unary main_c_53 main_v172 (broadcastInDim S65536 ![] bcast_S_S65536 : (⟨S_, .i32⟩ : BufTy).Contents (Elt F) → (⟨S65536, .i32⟩ : BufTy).Contents (Elt F)),
    StableHlo.binary main_v2 main_v172 main_v173 (cmpi .slt : (⟨S65536, .i32⟩ : BufTy).Contents (Elt F) → (⟨S65536, .i32⟩ : BufTy).Contents (Elt F) → (⟨S65536, .i1⟩ : BufTy).Contents (Elt F)),
    StableHlo.nullary main_c_54 (constantI S_ 32 0#32),
    StableHlo.TRef.unary (.of main_c_54 : StableHlo.TRef sig ⟨S_, .i32⟩) main_call22.v0 id,
    StableHlo.TRef.unary main_call22.v0 main_call22.v1 (broadcastInDim S65536 ![] bcast_S_S65536),
    StableHlo.TRef.ternary (.of main_v173 : StableHlo.TRef sig ⟨S65536, .i1⟩) (.of main_v2 : StableHlo.TRef sig ⟨S65536, .i32⟩) main_call22.v1 main_call22.v2 select,
    StableHlo.nullary main_c_55 (constantI S_ 32 0#32),
    StableHlo.unary main_c_55 main_v175 (broadcastInDim S65536 ![] bcast_S_S65536 : (⟨S_, .i32⟩ : BufTy).Contents (Elt F) → (⟨S65536, .i32⟩ : BufTy).Contents (Elt F)),
    StableHlo.binary main_v174 main_v175 main_v176 (cmpi .slt : (⟨S65536, .i32⟩ : BufTy).Contents (Elt F) → (⟨S65536, .i32⟩ : BufTy).Contents (Elt F) → (⟨S65536, .i1⟩ : BufTy).Contents (Elt F)),
    StableHlo.nullary main_c_56 (constantI S_ 32 512#32),
    StableHlo.unary main_c_56 main_v177 (broadcastInDim S65536 ![] bcast_S_S65536 : (⟨S_, .i32⟩ : BufTy).Contents (Elt F) → (⟨S65536, .i32⟩ : BufTy).Contents (Elt F)),
    StableHlo.binary main_v174 main_v177 main_v178 (addi : (⟨S65536, .i32⟩ : BufTy).Contents (Elt F) → (⟨S65536, .i32⟩ : BufTy).Contents (Elt F) → (⟨S65536, .i32⟩ : BufTy).Contents (Elt F)),
    StableHlo.ternary main_v176 main_v178 main_v174 main_v179 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v179 main_v180 (broadcastInDim S65536x1 ![0] bcast_S65536_S65536x1_0 : (⟨S65536, .i32⟩ : BufTy).Contents (Elt F) → (⟨S65536x1, .i32⟩ : BufTy).Contents (Elt F)),
    StableHlo.binary main_v171 main_v180 main_v181 ((fun x i => Host.gather gather_S512_S65536x1_S65536_n_0_n_n_0_1_1 x i) : (⟨S512, .i32⟩ : BufTy).Contents (Elt F) → (⟨S65536x1, .i32⟩ : BufTy).Contents (Elt F) → (⟨S65536, .i32⟩ : BufTy).Contents (Elt F)),
    StableHlo.binary main_v181 main_v168 main_v182 (addi : (⟨S65536, .i32⟩ : BufTy).Contents (Elt F) → (⟨S65536, .i32⟩ : BufTy).Contents (Elt F) → (⟨S65536, .i32⟩ : BufTy).Contents (Elt F)),
    StableHlo.nullary main_c_57 (constantI S_ 32 128#32),
    StableHlo.TRef.unary (.of main_c_57 : StableHlo.TRef sig ⟨S_, .i32⟩) main_call23.v0 id,
    StableHlo.TRef.unary main_call23.v0 main_call23.v1 (broadcastInDim S65536 ![] bcast_S_S65536),
    StableHlo.TRef.binary (.of main_v182 : StableHlo.TRef sig ⟨S65536, .i32⟩) main_call23.v1 main_call23.v2 Host.divsi,
    StableHlo.TRef.unary (.of main_v182 : StableHlo.TRef sig ⟨S65536, .i32⟩) main_call23.v3 signi,
    StableHlo.TRef.unary main_call23.v0 main_call23.v4 signi,
    StableHlo.TRef.unary main_call23.v4 main_call23.v5 (broadcastInDim S65536 ![] bcast_S_S65536),
    StableHlo.TRef.binary main_call23.v3 main_call23.v5 main_call23.v6 (cmpi .ne),
    StableHlo.TRef.unary main_call23.v0 main_call23.v7 (broadcastInDim S65536 ![] bcast_S_S65536),
    StableHlo.TRef.binary (.of main_v182 : StableHlo.TRef sig ⟨S65536, .i32⟩) main_call23.v7 main_call23.v8 Host.remsi,
    StableHlo.TRef.nullary main_call23.c (constantI S_ 32 0#32),
    StableHlo.TRef.unary main_call23.c main_call23.v9 (broadcastInDim S65536 ![] bcast_S_S65536),
    StableHlo.TRef.binary main_call23.v8 main_call23.v9 main_call23.v10 (cmpi .ne),
    StableHlo.TRef.binary main_call23.v6 main_call23.v10 main_call23.v11 andi,
    StableHlo.TRef.nullary main_call23.c_0 (constantI S_ 32 1#32),
    StableHlo.TRef.unary main_call23.c_0 main_call23.v12 (broadcastInDim S65536 ![] bcast_S_S65536),
    StableHlo.TRef.binary main_call23.v2 main_call23.v12 main_call23.v13 subi,
    StableHlo.TRef.ternary main_call23.v11 main_call23.v13 main_call23.v2 main_call23.call0.v0 select,
    StableHlo.nullary main_c_58 (constantI S_ 32 0#32),
    StableHlo.nullary main_c_59 (constantI S_ 32 255#32),
    StableHlo.TRef.unary (.of main_c_58 : StableHlo.TRef sig ⟨S_, .i32⟩) main_call24.v0 id,
    StableHlo.TRef.unary main_call24.v0 main_call24.v1 (broadcastInDim S65536 ![] bcast_S_S65536),
    StableHlo.TRef.binary main_call24.v1 (.of main_v183 : StableHlo.TRef sig ⟨S65536, .i32⟩) main_call24.v2 maxsi,
    StableHlo.TRef.unary (.of main_c_59 : StableHlo.TRef sig ⟨S_, .i32⟩) main_call24.v3 id,
    StableHlo.TRef.unary main_call24.v3 main_call24.v4 (broadcastInDim S65536 ![] bcast_S_S65536),
    StableHlo.TRef.binary main_call24.v4 main_call24.v2 main_call24.v5 minsi,
    StableHlo.nullary main_c_60 (constantI S_ 32 128#32),
    StableHlo.TRef.unary (.of main_c_60 : StableHlo.TRef sig ⟨S_, .i32⟩) main_call25.v0 id,
    StableHlo.TRef.nullary main_call25.c (constantI S_ 32 0#32),
    StableHlo.TRef.binary main_call25.v0 main_call25.c main_call25.v1 (cmpi .eq),
    StableHlo.TRef.nullary main_call25.c_0 (constantI S_ 32 1#32),
    StableHlo.TRef.ternary main_call25.v1 main_call25.c_0 main_call25.v0 main_call25.call0.v0 select,
    StableHlo.TRef.unary main_call25.call0.v0 main_call25.v3 (broadcastInDim S65536 ![] bcast_S_S65536),
    StableHlo.TRef.binary (.of main_v182 : StableHlo.TRef sig ⟨S65536, .i32⟩) main_call25.v3 main_call25.v4 Host.remsi,
    StableHlo.TRef.nullary main_call25.c_1 (constantI S_ 32 0#32),
    StableHlo.TRef.unary main_call25.c_1 main_call25.v5 (broadcastInDim S65536 ![] bcast_S_S65536),
    StableHlo.TRef.binary main_call25.v4 main_call25.v5 main_call25.v6 (cmpi .ne),
    StableHlo.TRef.nullary main_call25.c_2 (constantI S_ 32 0#32),
    StableHlo.TRef.unary main_call25.c_2 main_call25.v7 (broadcastInDim S65536 ![] bcast_S_S65536),
    StableHlo.TRef.binary main_call25.v4 main_call25.v7 main_call25.v8 (cmpi .slt),
    StableHlo.TRef.nullary main_call25.c_3 (constantI S_ 32 0#32),
    StableHlo.TRef.binary main_call25.call0.v0 main_call25.c_3 main_call25.v9 (cmpi .slt),
    StableHlo.TRef.unary main_call25.v9 main_call25.v10 (broadcastInDim S65536 ![] bcast_S_S65536),
    StableHlo.TRef.binary main_call25.v8 main_call25.v10 main_call25.v11 (cmpi .ne),
    StableHlo.TRef.binary main_call25.v11 main_call25.v6 main_call25.v12 andi,
    StableHlo.TRef.unary main_call25.call0.v0 main_call25.v13 (broadcastInDim S65536 ![] bcast_S_S65536),
    StableHlo.TRef.binary main_call25.v4 main_call25.v13 main_call25.v14 addi,
    StableHlo.TRef.ternary main_call25.v12 main_call25.v14 main_call25.v4 main_call25.v15 select,
    StableHlo.nullary main_c_61 (constantI S_ 32 0#32),
    StableHlo.unary main_c_61 main_v186 (broadcastInDim S65536 ![] bcast_S_S65536 : (⟨S_, .i32⟩ : BufTy).Contents (Elt F) → (⟨S65536, .i32⟩ : BufTy).Contents (Elt F)),
    StableHlo.binary main_v174 main_v186 main_v187 (cmpi .slt : (⟨S65536, .i32⟩ : BufTy).Contents (Elt F) → (⟨S65536, .i32⟩ : BufTy).Contents (Elt F) → (⟨S65536, .i1⟩ : BufTy).Contents (Elt F)),
    StableHlo.nullary main_c_62 (constantI S_ 32 512#32),
    StableHlo.unary main_c_62 main_v188 (broadcastInDim S65536 ![] bcast_S_S65536 : (⟨S_, .i32⟩ : BufTy).Contents (Elt F) → (⟨S65536, .i32⟩ : BufTy).Contents (Elt F)),
    StableHlo.binary main_v174 main_v188 main_v189 (addi : (⟨S65536, .i32⟩ : BufTy).Contents (Elt F) → (⟨S65536, .i32⟩ : BufTy).Contents (Elt F) → (⟨S65536, .i32⟩ : BufTy).Contents (Elt F)),
    StableHlo.ternary main_v187 main_v189 main_v174 main_v190 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_63 (constantI S_ 32 0#32),
    StableHlo.unary main_c_63 main_v191 (broadcastInDim S65536 ![] bcast_S_S65536 : (⟨S_, .i32⟩ : BufTy).Contents (Elt F) → (⟨S65536, .i32⟩ : BufTy).Contents (Elt F)),
    StableHlo.binary main_v184 main_v191 main_v192 (cmpi .slt : (⟨S65536, .i32⟩ : BufTy).Contents (Elt F) → (⟨S65536, .i32⟩ : BufTy).Contents (Elt F) → (⟨S65536, .i1⟩ : BufTy).Contents (Elt F)),
    StableHlo.nullary main_c_64 (constantI S_ 32 256#32),
    StableHlo.unary main_c_64 main_v193 (broadcastInDim S65536 ![] bcast_S_S65536 : (⟨S_, .i32⟩ : BufTy).Contents (Elt F) → (⟨S65536, .i32⟩ : BufTy).Contents (Elt F)),
    StableHlo.binary main_v184 main_v193 main_v194 (addi : (⟨S65536, .i32⟩ : BufTy).Contents (Elt F) → (⟨S65536, .i32⟩ : BufTy).Contents (Elt F) → (⟨S65536, .i32⟩ : BufTy).Contents (Elt F)),
    StableHlo.ternary main_v192 main_v194 main_v184 main_v195 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v190 main_v196 (broadcastInDim S65536x1 ![0] bcast_S65536_S65536x1_0 : (⟨S65536, .i32⟩ : BufTy).Contents (Elt F) → (⟨S65536x1, .i32⟩ : BufTy).Contents (Elt F)),
    StableHlo.unary main_v195 main_v197 (broadcastInDim S65536x1 ![0] bcast_S65536_S65536x1_0 : (⟨S65536, .i32⟩ : BufTy).Contents (Elt F) → (⟨S65536x1, .i32⟩ : BufTy).Contents (Elt F)),
    StableHlo.binary main_v196 main_v197 main_v198 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_v125 main_v198 main_v199 ((fun x i => Host.gather gather_S512x256_S65536x2_S65536_n_01_n_n_01_1_11 x i) : (⟨S512x256, .i32⟩ : BufTy).Contents (Elt F) → (⟨S65536x2, .i32⟩ : BufTy).Contents (Elt F) → (⟨S65536, .i32⟩ : BufTy).Contents (Elt F)),
    StableHlo.nullary main_c_65 (constantI S_ 32 0#32),
    StableHlo.unary main_c_65 main_v200 (broadcastInDim S65536 ![] bcast_S_S65536 : (⟨S_, .i32⟩ : BufTy).Contents (Elt F) → (⟨S65536, .i32⟩ : BufTy).Contents (Elt F)),
    StableHlo.binary main_v199 main_v200 main_v201 (cmpi .slt : (⟨S65536, .i32⟩ : BufTy).Contents (Elt F) → (⟨S65536, .i32⟩ : BufTy).Contents (Elt F) → (⟨S65536, .i1⟩ : BufTy).Contents (Elt F)),
    StableHlo.unary main_v173 main_v202 (noti : (⟨S65536, .i1⟩ : BufTy).Contents (Elt F) → (⟨S65536, .i1⟩ : BufTy).Contents (Elt F)),
    StableHlo.binary main_v201 main_v202 main_v203 (ori : (⟨S65536, .i1⟩ : BufTy).Contents (Elt F) → (⟨S65536, .i1⟩ : BufTy).Contents (Elt F) → (⟨S65536, .i1⟩ : BufTy).Contents (Elt F)),
    StableHlo.nullary main_c_66 (constantI S_ 32 128#32),
    StableHlo.unary main_c_66 main_v204 (broadcastInDim S65536 ![] bcast_S_S65536 : (⟨S_, .i32⟩ : BufTy).Contents (Elt F) → (⟨S65536, .i32⟩ : BufTy).Contents (Elt F)),
    StableHlo.binary main_v199 main_v204 main_v205 (muli : (⟨S65536, .i32⟩ : BufTy).Contents (Elt F) → (⟨S65536, .i32⟩ : BufTy).Contents (Elt F) → (⟨S65536, .i32⟩ : BufTy).Contents (Elt F)),
    StableHlo.binary main_v205 main_v185 main_v206 (addi : (⟨S65536, .i32⟩ : BufTy).Contents (Elt F) → (⟨S65536, .i32⟩ : BufTy).Contents (Elt F) → (⟨S65536, .i32⟩ : BufTy).Contents (Elt F)),
    StableHlo.TRef.unary (.of main_c : StableHlo.TRef sig ⟨S_, .i32⟩) main_call26.v0 (broadcastInDim S65536 ![] bcast_S_S65536),
    StableHlo.TRef.ternary (.of main_v203 : StableHlo.TRef sig ⟨S65536, .i1⟩) main_call26.v0 (.of main_v206 : StableHlo.TRef sig ⟨S65536, .i32⟩) main_call26.v1 select,
    StableHlo.nullary main_c_67 (constantI S_ 32 0#32),
    StableHlo.unary main_c_67 main_v208 (broadcastInDim S1 ![] bcast_S_S1 : (⟨S_, .i32⟩ : BufTy).Contents (Elt F) → (⟨S1, .i32⟩ : BufTy).Contents (Elt F)),
    StableHlo.TRef.nullary main_call27.call0.c (constantI S_ 32 0#32),
    StableHlo.TRef.unary main_call27.call0.c main_call27.call0.v0 (broadcastInDim S_ ![] bcast_S_S_),
    StableHlo.TRef.binary (.of main_v34 : StableHlo.TRef sig ⟨S512, .i32⟩) main_call27.call0.v0 main_call27.call0.v1 (fun x v => Host.reduceWindow IntOp.addi ![512] ![1] ![511] ![0] x v reduceWindows_S512_S512_w512s1p511_0 h_S_),
    StableHlo.binary main_v208 main_v209 main_v210 ((fun a b => concatenate S513 0 [⟨S1, a⟩, ⟨S512, b⟩] concatenates_S1_S512_S513_d0) : (⟨S1, .i32⟩ : BufTy).Contents (Elt F) → (⟨S512, .i32⟩ : BufTy).Contents (Elt F) → (⟨S513, .i32⟩ : BufTy).Contents (Elt F)) ]

/-- The four stretches in order are the reference's operations. -/
theorem rS_eq : (ops (F := F)) = rS0 ++ (rS1 ++ (rS2 ++ rS3)) := rfl

end Cert.Bridge

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.Histogram.lean ====
/-
  The reference's histogram is the kernel's count column.

  The reference adds a one into a row of 513 zeros at every token's index (an accumulating scatter): an update
  whose index word, read as a signed integer, is no row number of the operand is dropped, so row r < 513 ends up
  holding the number of positions whose index word reads r, as a 32-bit word. The tokens are nonnegative, so the
  wrap of negative indices (add 513 where the word is negative) changes nothing and the index word is the token.

  The kernel's count column holds, in row s < 528, the number of positions whose remapped token (528 where the
  token exceeds 512, the token otherwise) is s, as an extended real; the host takes its first 513 rows as a
  vector and converts each to a 32-bit word. A count is at most 65536, so the conversion is exact. For r < 513
  the remapped token is r exactly when the token is r, since the remap only moves tokens above 512 and moves
  them to 528. So both sides hold, at row r, the word of the number of positions whose token reads r.
-/
import proofs.«408099_j23811298689264_3_alg».proof.Proof.Spec
import proofs.«408099_j23811298689264_3_alg».proof.Proof.LibIndexMaps
import Idealize.ShloMosaic.Lib.ValueLayout
import Idealize.ShloMosaic.Lib.IdealHost
import Idealize.ShloMosaic.Lib.WordSum

noncomputable section

namespace Cert.Histogram

open Idealize.ShloMosaic Idealize.ShloMosaic.ValueIdx

abbrev S_ : Shape := ⟨0, ![]⟩
abbrev S65536 : Shape := ⟨1, ![65536]⟩
abbrev S513 : Shape := ⟨1, ![513]⟩
abbrev S65536x1 : Shape := ⟨2, ![65536, 1]⟩
abbrev S513x1 : Shape := ⟨2, ![513, 1]⟩

/-! ## An accumulating fold read at one element -/

/-- A left fold over a list of updates, each step adding the update to the one element it lands on (or
    doing nothing when it lands nowhere), read at element `i`: the start's element plus the updates that
    land on `i`. -/
theorem foldl_land_add_apply {ι κ : Type} [DecidableEq ι] (land : κ → Option ι) (upd : κ → BitVec 32)
    (step : (ι → BitVec 32) → κ → (ι → BitVec 32))
    (hsome : ∀ r n i₁, land n = some i₁ → step r n = fun i' => if i' = i₁ then r i₁ + upd n else r i')
    (hnone : ∀ r n, land n = none → step r n = r)
    (l : List κ) (x : ι → BitVec 32) (i : ι) :
    (l.foldl step x) i = x i + (l.map fun n => if land n = some i then upd n else 0).sum := by
  induction l generalizing x with
  | nil => simp
  | cons a l ih =>
    rw [List.foldl_cons, ih, List.map_cons, List.sum_cons, ← add_assoc]
    congr 1
    cases h : land a with
    | none => rw [hnone x a h, if_neg (by simp), add_zero]
    | some i₁ =>
      rw [hsome x a i₁ h]
      show (if i = i₁ then x i₁ + upd a else x i) = x i + if some i₁ = some i then upd a else 0
      by_cases hi : i = i₁
      · subst hi; rw [if_pos rfl, if_pos rfl]
      · rw [if_neg hi, if_neg (fun e => hi (Option.some.inj e).symm), add_zero]

/-- The accumulating scatter of words read at one element: the operand's element plus the sum of the
    updates that land on it. -/
theorem scatter_addi_apply {s si u : Shape} {w : ℕ} (d : ScatterDims s si u) (x : IVec s 32) (idx : IVec si w)
    (upd : IVec u 32) (i : s.Idx) :
    Host.scatter d IntOp.addi x idx upd i
      = x i + ∑ j : u.Idx, if d.resultIdx? j idx = some i then upd j else 0 := by
  unfold Host.scatter
  rw [foldl_land_add_apply (fun n => d.resultIdx? (u.rowMajor.symm n) idx) (fun n => upd (u.rowMajor.symm n))]
  · congr 1
    rw [← Fin.sum_univ_def]
    exact Equiv.sum_comp u.rowMajor.symm (fun j => if d.resultIdx? j idx = some i then upd j else 0)
  · intro r n i₁ h
    simp only [h]
    rfl
  · intro r n h
    simp only [h]

/-! ## Words and counts -/

/-- A sum of ones over the positions with a property is their number, as a word. -/
theorem sum_ite_one_eq_card {n : ℕ} (p : Fin n → Prop) [DecidablePred p] :
    (∑ j : Fin n, if p j then (1#32 : BitVec 32) else 0) = BitVec.ofNat 32 (Finset.univ.filter p).card := by
  show (∑ j : Fin n, if p j then (1 : BitVec 32) else 0) = _
  rw [Finset.sum_boole]
  rfl

/-- A natural number below `2 ^ 31`, as an extended real, converts to the word of that number. -/
theorem fptosi_natCast (n : ℕ) (h : n < 2 ^ 31) : Ideal.fptosi 32 ((n : ℕ) : EReal) = BitVec.ofNat 32 n := by
  have e : ((n : ℕ) : EReal) = ((n : ℝ) : EReal) := EReal.coe_natCast.symm
  rw [e]
  unfold Ideal.fptosi
  rw [Ideal.toIntClamped_coe, if_pos (Nat.cast_nonneg n), Int.floor_natCast]
  have h1 : ((2 ^ (32 - 1) : ℕ) : ℤ) = 2147483648 := by norm_num
  rw [h1, min_eq_right (by omega), max_eq_right (by omega)]
  exact BitVec.ofInt_natCast 32 n

/-- The signed comparison "less than zero" of a word is a one exactly when the word reads negative. -/
theorem cmpi_slt_zero (t : BitVec 32) : IntOp.cmpi .slt t 0#32 = 1#1 ↔ t.toInt < 0 := by
  unfold IntOp.cmpi
  show BitVec.ofBool (decide (t.toInt < (0#32 : BitVec 32).toInt)) = 1#1 ↔ _
  rw [show (0#32 : BitVec 32).toInt = 0 from rfl]
  by_cases h : t.toInt < 0 <;> simp [h]

/-- The signed comparison "greater than" of two words is a one exactly when the first reads larger. -/
theorem cmpi_sgt (t c : BitVec 32) : IntOp.cmpi .sgt t c = 1#1 ↔ c.toInt < t.toInt := by
  unfold IntOp.cmpi
  show BitVec.ofBool (decide (c.toInt < t.toInt)) = 1#1 ↔ _
  by_cases h : c.toInt < t.toInt <;> simp [h]

/-- A nonnegative word equals the word of a natural number below `2 ^ 31` exactly when it reads that number. -/
theorem eq_ofNat_iff_toInt (t : BitVec 32) (r : ℕ) (hr : r < 2 ^ 31) : t = BitVec.ofNat 32 r ↔ t.toInt = (r : ℤ) := by
  have hrr : (BitVec.ofNat 32 r).toInt = (r : ℤ) := by
    have hn : (BitVec.ofNat 32 r).toNat = r := by
      rw [BitVec.toNat_ofNat]; exact Nat.mod_eq_of_lt (by omega)
    rw [BitVec.toInt_eq_toNat_cond, hn, if_pos (by omega)]
  constructor
  · intro e; rw [e, hrr]
  · intro e; exact BitVec.eq_of_toInt_eq (by rw [e, hrr])

/-! ## The two programs' layout operations read at one element -/

/-- A column made of a vector reads, at row `p`, the vector's element `p`. -/
theorem column_apply {α : Type} (hbc : S65536.BroadcastsInDim S65536x1 (![0] : Fin 1 → Fin S65536x1.rank))
    (v : S65536.Idx → α) (p : Fin 65536) :
    broadcastInDim S65536x1 ![0] hbc v (ix2 p (0 : Fin 1)) = v (ix1 p) :=
  broadcastInDim_apply _ hbc v _ (ix1 p) (fun a => by
    obtain rfl : a = 0 := Subsingleton.elim _ _
    rw [if_neg (by decide)]
    rfl)

/-- A splat of a word reads that word everywhere. -/
theorem splat_apply {T : Shape} (h : S_.BroadcastsInDim T (![] : Fin 0 → Fin T.rank)) (b : BitVec 32) (j : T.Idx) :
    broadcastInDim T ![] h (constantI S_ 32 b) j = b :=
  broadcastInDim_scalar_apply h _ j

/-- The wrap of negative indices leaves a nonnegative word as it is. -/
theorem wrap_apply (tok : IVec S65536 32) (hb : S_.BroadcastsInDim S65536 (![] : Fin 0 → Fin S65536.rank))
    (j : S65536.Idx) (hnn : 0 ≤ (tok j).toInt) :
    select (cmpi .slt tok (broadcastInDim S65536 ![] hb (constantI S_ 32 0#32)))
      (addi tok (broadcastInDim S65536 ![] hb (constantI S_ 32 513#32))) tok j = tok j := by
  rw [select_apply]
  show Scalar.select (IntOp.cmpi .slt (tok j) (broadcastInDim S65536 ![] hb (constantI S_ 32 0#32) j)) _ _ = _
  rw [splat_apply]
  have h0 : IntOp.cmpi .slt (tok j) 0#32 = 0#1 :=
    eq_zero_of_ne_one (fun h => by have := (cmpi_slt_zero _).1 h; omega)
  rw [h0, select_zero]

/-- The remap of the words above 512 to 528, at one element. -/
theorem remap_apply (tok : IVec S65536 32) (hb : S_.BroadcastsInDim S65536 (![] : Fin 0 → Fin S65536.rank))
    (j : S65536.Idx) :
    select (cmpi .sgt tok (broadcastInDim S65536 ![] hb (constantI S_ 32 512#32)))
      (broadcastInDim S65536 ![] hb (constantI S_ 32 528#32)) tok j
      = if 512 < (tok j).toInt then 528#32 else tok j := by
  rw [select_apply]
  show Scalar.select (IntOp.cmpi .sgt (tok j) (broadcastInDim S65536 ![] hb (constantI S_ 32 512#32) j))
    (broadcastInDim S65536 ![] hb (constantI S_ 32 528#32) j) _ = _
  rw [splat_apply, splat_apply]
  by_cases h : 512 < (tok j).toInt
  · rw [if_pos h, (cmpi_sgt (tok j) 512#32).2 (by rw [show (512#32 : BitVec 32).toInt = 512 from rfl]; exact h), select_one]
  · rw [if_neg h]
    have h0 : IntOp.cmpi .sgt (tok j) 512#32 = 0#1 :=
      eq_zero_of_ne_one (fun e => h (by have := (cmpi_sgt _ _).1 e; rwa [show (512#32 : BitVec 32).toInt = 512 from rfl] at this))
    rw [h0, select_zero]

/-- The clamp of negative words to 512 leaves no negative word. -/
theorem clamp_nonneg (arg0 : IVec S65536 32) (hb : S_.BroadcastsInDim S65536 (![] : Fin 0 → Fin S65536.rank))
    (j : S65536.Idx) :
    0 ≤ (select (cmpi .slt arg0 (broadcastInDim S65536 ![] hb (constantI S_ 32 0#32)))
      (broadcastInDim S65536 ![] hb (constantI S_ 32 512#32)) arg0 j).toInt := by
  rw [select_apply]
  show 0 ≤ (Scalar.select (IntOp.cmpi .slt (arg0 j) (broadcastInDim S65536 ![] hb (constantI S_ 32 0#32) j))
    (broadcastInDim S65536 ![] hb (constantI S_ 32 512#32) j) (arg0 j)).toInt
  rw [splat_apply, splat_apply]
  by_cases h : (arg0 j).toInt < 0
  · rw [(cmpi_slt_zero _).2 h, select_one]; decide
  · have h0 : IntOp.cmpi .slt (arg0 j) 0#32 = 0#1 := eq_zero_of_ne_one (fun e => h ((cmpi_slt_zero _).1 e))
    rw [h0, select_zero]; omega

/-! ## The histogram -/

/-- For an id `r` below 513, a remapped nonnegative word is `r` exactly when the word itself reads `r`. -/
theorem remapped_eq_iff (t : BitVec 32) (r : ℕ) (hr : r < 513) :
    (if 512 < t.toInt then 528#32 else t) = BitVec.ofNat 32 r ↔ t.toInt = (r : ℤ) := by
  by_cases h : 512 < t.toInt
  · rw [if_pos h]
    constructor
    · intro e
      have hn : (BitVec.ofNat 32 r).toNat = r := by
        rw [BitVec.toNat_ofNat]; exact Nat.mod_eq_of_lt (by omega)
      have h528 : (528#32 : BitVec 32).toNat = 528 := rfl
      have := congrArg BitVec.toNat e
      rw [hn, h528] at this
      omega
    · intro e; omega
  · rw [if_neg h]; exact eq_ofNat_iff_toInt t r (by omega)

/-- The accumulating scatter of ones into zeros by a column of index words, read at row `r`: the number of
    positions whose index word reads `r`, as a word. -/
theorem scatter_ones_apply (d : ScatterDims S513 S65536x1 S65536)
    (huw : d.updateWindowDims = []) (hiw : d.insertedWindowDims = [0])
    (hsd : d.scatterDimsToOperandDims = [0]) (hivd : d.indexVectorDim = 1)
    (hb : S_.BroadcastsInDim S65536 (![] : Fin 0 → Fin S65536.rank))
    (hb513 : S_.BroadcastsInDim S513 (![] : Fin 0 → Fin S513.rank))
    (idx : IVec S65536x1 32) (r : Fin 513) :
    Host.scatter d IntOp.addi (broadcastInDim S513 ![] hb513 (constantI S_ 32 0#32)) idx
        (broadcastInDim S65536 ![] hb (constantI S_ 32 1#32)) (ix1 r)
      = BitVec.ofNat 32 (Finset.univ.filter fun p : Fin 65536 => (idx (ix2 p (0 : Fin 1))).toInt = ((r.val : ℕ) : ℤ)).card := by
  rw [scatter_addi_apply, Cert.Gcn.IndexMaps.sum_idx1]
  simp only [Cert.Gcn.IndexMaps.scatter1_resultIdx_ix_iff d huw hiw hsd hivd]
  rw [splat_apply hb513 0#32 (ix1 r)]
  have e1 : ∀ p : Fin 65536, broadcastInDim S65536 ![] hb (constantI S_ 32 1#32) (ix1 p) = 1#32 :=
    fun p => splat_apply hb 1#32 (ix1 p)
  simp only [e1]
  rw [show (0#32 : BitVec 32) = 0 from rfl, zero_add, sum_ite_one_eq_card]

/-- The first 513 rows of the kernel's count column, converted to words, are the reference's histogram of the
    tokens. -/
theorem counts_eq (tok : IVec S65536 32) (hnn : ∀ j, 0 ≤ (tok j).toInt)
    (hb : S_.BroadcastsInDim S65536 (![] : Fin 0 → Fin S65536.rank))
    (hb513 : S_.BroadcastsInDim S513 (![] : Fin 0 → Fin S513.rank))
    (hbc : S65536.BroadcastsInDim S65536x1 (![0] : Fin 1 → Fin S65536x1.rank))
    (hsc1 : S65536.ShapeCasts Cert.Spec.S1x65536)
    (hsl : Cert.Spec.S528x1.Slices ![0, 0] S513x1)
    (hsc2 : S513x1.ShapeCasts S513)
    (hwf : ScatterDims.WF S513 S65536x1 S65536 [] [0] [0] 1) :
    fptosi (F := Ideal) 32
        (shapeCast S513
          (extractStridedSlice S513x1 ![0, 0]
            (Cert.Spec.countsArr
              (shapeCast Cert.Spec.S1x65536
                (select (cmpi .sgt tok (broadcastInDim S65536 ![] hb (constantI S_ 32 512#32)))
                  (broadcastInDim S65536 ![] hb (constantI S_ 32 528#32)) tok) hsc1)) hsl) hsc2)
      = Host.scatter
          ({ updateWindowDims := [], insertedWindowDims := [0], scatterDimsToOperandDims := [0], indexVectorDim := 1, wf := hwf } :
            ScatterDims S513 S65536x1 S65536)
          IntOp.addi
          (broadcastInDim S513 ![] hb513 (constantI S_ 32 0#32))
          (broadcastInDim S65536x1 ![0] hbc
            (select (cmpi .slt tok (broadcastInDim S65536 ![] hb (constantI S_ 32 0#32)))
              (addi tok (broadcastInDim S65536 ![] hb (constantI S_ 32 513#32))) tok))
          (broadcastInDim S65536 ![] hb (constantI S_ 32 1#32)) := by
  funext i
  obtain ⟨r, rfl⟩ : ∃ r : Fin 513, i = ix1 r := ⟨i 0, eq_ix1 i⟩
  have hr : r.val < 513 := r.isLt
  -- the scatter's side: the number of positions whose index word reads r
  rw [scatter_ones_apply
    ({ updateWindowDims := [], insertedWindowDims := [0], scatterDimsToOperandDims := [0], indexVectorDim := 1, wf := hwf } :
      ScatterDims S513 S65536x1 S65536) rfl rfl rfl rfl hb hb513]
  -- the count column's side
  show Ideal.fptosi 32 _ = _
  rw [shapeCast_apply _ hsc2 (ix1 r) (ix2 r (0 : Fin 1)) (by
    rw [Shape.rowMajor_val_two, Shape.rowMajor_val_one]; show r.val * 1 + 0 = r.val; omega)]
  rw [extractStridedSlice_apply ![0, 0] _ hsl (ix2 r (0 : Fin 1)) (ix2 (⟨r.val, by omega⟩ : Fin 528) (0 : Fin 1)) (by
    intro a; fin_cases a <;> simp)]
  show Ideal.fptosi 32 ((Cert.Spec.cntBelow _ (BitVec.ofNat 32 r.val) 65536 : ℕ) : EReal) = _
  rw [fptosi_natCast _ (by
    unfold Cert.Spec.cntBelow
    calc _ ≤ (Finset.univ : Finset (Fin 65536)).card := Finset.card_filter_le _ _
      _ = 65536 := by rw [Finset.card_univ, Fintype.card_fin]
      _ < 2 ^ 31 := by norm_num)]
  -- both are the word of a count: the two sets of positions are one
  unfold Cert.Spec.cntBelow
  refine congrArg (BitVec.ofNat 32) (congrArg Finset.card (Finset.filter_congr fun p _ => ?_))
  unfold Cert.Spec.tokAt
  rw [shapeCast_a_1a_apply _ hsc1 (0 : Fin 1) p, remap_apply, column_apply hbc _ p,
    wrap_apply tok hb (ix1 p) (hnn _), remapped_eq_iff _ _ hr]
  exact ⟨fun h => h.2, fun h => ⟨p.isLt, h⟩⟩

end Cert.Histogram

end
-- ==== Proof.RankRef.lean ====
/-
  The reference's per-token rank equals the kernel's rank row at every valid token.

  The tokens are 65536 words t_0 … t_65535, each non-negative as a signed integer.  The reference forms the
  [65536 × 513] indicator array  e[q, s] = 1 if t_q = s else 0,  sums it down the token axis inclusively,
  c[p, s] = Σ_{q ≤ p} e[q, s],  reads  c[p, t_p]  (a gather along the id axis with the token itself as the
  start index, batched over the token axis) and subtracts one.  For 0 ≤ t_p ≤ 512 the start index is in range,
  so the in-bounds mask is set and the gathered word is kept; c[p, t_p] is the number of positions q ≤ p with
  t_q = t_p, which is at least one (q = p) and at most 65536, so the subtraction does not wrap and leaves the
  number of positions q < p with t_q = t_p.

  The kernel sees the tokens with every word above 512 replaced by 528; such a word never equals a word
  ≤ 512, and a word ≤ 512 is kept, so for t_p ≤ 512 the number of earlier positions holding the remapped
  t_p is the same number.  Its rank row holds exactly that count.
-/
import proofs.«408099_j23811298689264_3_alg».proof.Proof.Spec
import Idealize.ShloMosaic.PureOps
import Idealize.ShloMosaic.PureOps.Reduce
import Idealize.ShloMosaic.Lib.ValueIdx
import Idealize.ShloMosaic.Lib.ValueIdxCoords
import Idealize.ShloMosaic.Lib.StableHlo.Predicate
import Idealize.ShloMosaic.Lib.IndicatorCount
import Mathlib.Data.BitVec

noncomputable section

namespace Cert.RankRef

open Idealize.ShloMosaic Idealize.ShloMosaic.ValueIdx

abbrev S_ : Shape := ⟨0, ![]⟩
abbrev S1 : Shape := ⟨1, ![1]⟩
abbrev S513 : Shape := ⟨1, ![513]⟩
abbrev S65536 : Shape := ⟨1, ![65536]⟩
abbrev S1x513 : Shape := ⟨2, ![1, 513]⟩
abbrev S65536x1 : Shape := ⟨2, ![65536, 1]⟩
abbrev S65536x513 : Shape := ⟨2, ![65536, 513]⟩
abbrev S1x1x1 : Shape := ⟨3, ![1, 1, 1]⟩
abbrev S65536x1x1 : Shape := ⟨3, ![65536, 1, 1]⟩

/-- The shape facts both programs carry as proof-valued arguments, gathered so that every statement below holds
    for whatever proofs the printed programs pass. -/
structure Facts : Prop where
  b_S_S65536 : S_.BroadcastsInDim S65536 (![] : Fin 0 → Fin S65536.rank)
  b_S_S_ : S_.BroadcastsInDim S_ (![] : Fin 0 → Fin S_.rank)
  b_S_S65536x1 : S_.BroadcastsInDim S65536x1 (![] : Fin 0 → Fin S65536x1.rank)
  b_S_S65536x1x1 : S_.BroadcastsInDim S65536x1x1 (![] : Fin 0 → Fin S65536x1x1.rank)
  b_S65536_S65536x1 : S65536.BroadcastsInDim S65536x1 (![0] : Fin 1 → Fin S65536x1.rank)
  b_S513_S1x513 : S513.BroadcastsInDim S1x513 (![1] : Fin 1 → Fin S1x513.rank)
  b_S65536x1_S65536x513 : S65536x1.BroadcastsInDim S65536x513 (![0, 1] : Fin 2 → Fin S65536x513.rank)
  b_S1x513_S65536x513 : S1x513.BroadcastsInDim S65536x513 (![0, 1] : Fin 2 → Fin S65536x513.rank)
  b_S1_S1x1x1 : S1.BroadcastsInDim S1x1x1 (![2] : Fin 1 → Fin S1x1x1.rank)
  b_S1x1x1_S65536x1x1 : S1x1x1.BroadcastsInDim S65536x1x1 (![0, 1, 2] : Fin 3 → Fin S65536x1x1.rank)
  rw : S65536x513.ReduceWindows (![65536, 1] : Fin 2 → Nat) ![1, 1] ![65535, 0] ![0, 0] S65536x513
  red : S65536x1x1.ReducesTo [2] S65536x1
  c_S65536x1_S65536x1x1 : S65536x1.ShapeCasts S65536x1x1
  c_S65536x1_S65536 : S65536x1.ShapeCasts S65536
  c_S65536_S1x65536 : S65536.ShapeCasts Cert.Spec.S1x65536
  c_S1x65536_S65536 : Cert.Spec.S1x65536.ShapeCasts S65536
  h_S_ : 0 < S_.numel
  lt_1_32 : 1 < 32
  gwf : GatherDims.WF S65536x513 S65536x1x1 S65536x1 [] [1] [0] [1] [0] 2 ![1, 1]

/-! ## Sums -/

/-- A left fold by word addition over all positions below N, from v, is v plus the sum. -/
theorem foldl_addi_eq_sum {N : ℕ} (g : Fin N → BitVec 32) (v : BitVec 32) :
    (List.finRange N).foldl (fun r n => IntOp.addi r (g n)) v = v + ∑ n, g n := by
  have key : ∀ (l : List (Fin N)) (v : BitVec 32),
      l.foldl (fun r n => IntOp.addi r (g n)) v = v + (l.map g).sum := by
    intro l
    induction l with
    | nil => intro v; simp
    | cons a l ih =>
      intro v
      rw [List.foldl_cons, ih, List.map_cons, List.sum_cons]
      show v + g a + _ = _
      rw [add_assoc]
  rw [key, Fin.sum_univ_def]

/-- The window of N positions ending at p: position a of the window is operand position p + a - (N - 1), the
    positions before the operand's start being padding.  Summing over the window is summing over the operand
    positions up to p. -/
theorem sum_shift {M : Type*} [AddCommMonoid M] (N p : ℕ) (hp : p < N) (g : ℕ → M) :
    (∑ a ∈ Finset.range N, if N - 1 ≤ p + a then g (p + a - (N - 1)) else 0)
      = ∑ q ∈ Finset.range N, if q ≤ p then g q else 0 := by
  rw [← Finset.sum_filter, ← Finset.sum_filter]
  refine Finset.sum_nbij' (fun a => p + a - (N - 1)) (fun q => q + (N - 1) - p) ?_ ?_ ?_ ?_ ?_
  · intro a ha
    simp only [Finset.mem_filter, Finset.mem_range] at ha ⊢
    omega
  · intro a ha
    simp only [Finset.mem_filter, Finset.mem_range] at ha ⊢
    omega
  · intro a ha
    simp only [Finset.mem_filter, Finset.mem_range] at ha ⊢
    omega
  · intro a ha
    simp only [Finset.mem_filter, Finset.mem_range] at ha ⊢
    omega
  · intro a _
    rfl

/-- The operand read at row k when k is a row, zero past the end. -/
def colAt (x : IVec S65536x513 32) (s : Fin 513) (k : ℕ) : BitVec 32 :=
  if h : k < 65536 then x (ix2 ⟨k, h⟩ s) else 0#32

/-- The reduce-window of N × 1 windows, padded N − 1 rows above, with word addition from zero, is the inclusive
    running sum down each column: at (p, s) the sum of the operand's column s over the rows q ≤ p. -/
theorem reduceWindow_cumsum (x : IVec S65536x513 32) (init : IVec S_ 32)
    (h : S65536x513.ReduceWindows (![65536, 1] : Fin 2 → Nat) ![1, 1] ![65535, 0] ![0, 0] S65536x513)
    (hS : 0 < S_.numel) (hinit : init (Shape.Idx.first hS) = 0#32) (p : Fin 65536) (s : Fin 513) :
    Host.reduceWindow IntOp.addi ![65536, 1] ![1, 1] ![65535, 0] ![0, 0] x init h hS (ix2 p s)
      = ∑ q ∈ Finset.univ.filter (fun q : Fin 65536 => q.val ≤ p.val), x (ix2 q s) := by
  unfold Host.reduceWindow
  dsimp only
  rw [foldl_addi_eq_sum, hinit, BitVec.zero_add]
  refine (Equiv.sum_comp (Shape.rowMajor ⟨2, ![65536, 1]⟩) _).symm.trans ?_
  simp only [Equiv.symm_apply_apply]
  rw [sum_idx2]
  simp only [Fin.sum_univ_one]
  have hp := p.isLt
  have hs := s.isLt
  -- each window position: padding before the operand's first row, the operand's row p + a - 65535 from there on
  have hterm : ∀ a : Fin 65536,
      (if h_1 : ∀ (b : Fin 2),
          (![65535, 0] : Fin 2 → ℕ) b ≤ ((ix2 p s : S65536x513.Idx) (Fin.cast h.1.symm b)).val * (![1, 1] : Fin 2 → ℕ) b
              + ((ix2 a (0 : Fin 1) : (⟨2, ![65536, 1]⟩ : Shape).Idx) b).val ∧
            ((ix2 p s : S65536x513.Idx) (Fin.cast h.1.symm b)).val * (![1, 1] : Fin 2 → ℕ) b
              + ((ix2 a (0 : Fin 1) : (⟨2, ![65536, 1]⟩ : Shape).Idx) b).val - (![65535, 0] : Fin 2 → ℕ) b
              < (![65536, 513] : Fin 2 → ℕ) b then
        x fun b => ⟨((ix2 p s : S65536x513.Idx) (Fin.cast h.1.symm b)).val * (![1, 1] : Fin 2 → ℕ) b
              + ((ix2 a (0 : Fin 1) : (⟨2, ![65536, 1]⟩ : Shape).Idx) b).val - (![65535, 0] : Fin 2 → ℕ) b, (h_1 b).2⟩
      else 0#32)
      = if 65536 - 1 ≤ p.val + a.val then colAt x s (p.val + a.val - (65536 - 1)) else 0#32 := by
    intro a
    have ha := a.isLt
    by_cases hc : 65536 - 1 ≤ p.val + a.val
    · rw [if_pos hc]
      have hall : ∀ (b : Fin 2),
          (![65535, 0] : Fin 2 → ℕ) b ≤ ((ix2 p s : S65536x513.Idx) (Fin.cast h.1.symm b)).val * (![1, 1] : Fin 2 → ℕ) b
              + ((ix2 a (0 : Fin 1) : (⟨2, ![65536, 1]⟩ : Shape).Idx) b).val ∧
            ((ix2 p s : S65536x513.Idx) (Fin.cast h.1.symm b)).val * (![1, 1] : Fin 2 → ℕ) b
              + ((ix2 a (0 : Fin 1) : (⟨2, ![65536, 1]⟩ : Shape).Idx) b).val - (![65535, 0] : Fin 2 → ℕ) b
              < (![65536, 513] : Fin 2 → ℕ) b := by
        intro b
        match b with
        | ⟨0, _⟩ =>
          show 65535 ≤ p.val * 1 + a.val ∧ p.val * 1 + a.val - 65535 < 65536
          omega
        | ⟨1, _⟩ =>
          show 0 ≤ s.val * 1 + 0 ∧ s.val * 1 + 0 - 0 < 513
          omega
      rw [dif_pos hall]
      unfold colAt
      rw [dif_pos (by omega)]
      congr 1
      funext b
      apply Fin.ext
      match b with
      | ⟨0, _⟩ =>
        show p.val * 1 + a.val - 65535 = p.val + a.val - (65536 - 1)
        omega
      | ⟨1, _⟩ =>
        show s.val * 1 + 0 - 0 = s.val
        omega
    · rw [if_neg hc, dif_neg]
      intro hall
      apply hc
      have h0 := (hall ⟨0, by decide⟩).1
      change 65535 ≤ p.val * 1 + a.val at h0
      omega
  simp only [hterm]
  show (∑ a : Fin 65536, if 65536 - 1 ≤ p.val + a.val then colAt x s (p.val + a.val - (65536 - 1)) else (0 : BitVec 32)) = _
  rw [Fin.sum_univ_eq_sum_range (fun k => if 65536 - 1 ≤ p.val + k then colAt x s (p.val + k - (65536 - 1)) else (0 : BitVec 32)) 65536,
    sum_shift 65536 p.val hp (colAt x s),
    ← Fin.sum_univ_eq_sum_range (fun k => if k ≤ p.val then colAt x s k else (0 : BitVec 32)) 65536,
    ← Finset.sum_filter]
  refine Finset.sum_congr rfl fun q _ => ?_
  unfold colAt
  rw [dif_pos q.isLt]

/-- The gather's dimension numbers: no offset axes, the id axis collapsed and start-indexed, the token axis a
    batching axis of operand and start indices alike, the index vector on the start indices' last axis. -/
def gdims (wf : GatherDims.WF S65536x513 S65536x1x1 S65536x1 [] [1] [0] [1] [0] 2 ![1, 1]) :
    GatherDims S65536x513 S65536x1x1 S65536x1 where
  offsetDims := []
  collapsedSliceDims := [1]
  operandBatchingDims := [0]
  startIndicesBatchingDims := [0]
  startIndexMap := [1]
  indexVectorDim := 2
  sliceSizes := ![1, 1]
  wf := wf

/-- The gather read at row p: the token axis is a batching axis, so the operand row is p itself; the id axis is
    collapsed and start-indexed, so the operand column is the start index at (p, 0, 0) read signed and clamped into
    [0, 512]. -/
theorem gather_apply {α : Type} (wf : GatherDims.WF S65536x513 S65536x1x1 S65536x1 [] [1] [0] [1] [0] 2 ![1, 1])
    (x : S65536x513.Idx → α) (idx : IVec S65536x1x1 32) (p : Fin 65536) :
    Host.gather (gdims wf) x idx (ix2 p (0 : Fin 1))
      = x (ix2 p (⟨min (idx (ix3 p (0 : Fin 1) (0 : Fin 1))).toInt.toNat 512, by omega⟩ : Fin 513)) := by
  unfold Host.gather
  congr 1
  funext a
  apply Fin.ext
  show (gdims wf).start (ix2 p (0 : Fin 1)) idx a + (gdims wf).batchCoord (ix2 p (0 : Fin 1)) a
      + (gdims wf).offCoord (ix2 p (0 : Fin 1)) a = _
  match a with
  | ⟨0, _⟩ =>
    have hb : (0 : Fin 2) ∈ (gdims wf).operandBatchingDims := List.mem_singleton.2 rfl
    have hk : (0 : Fin 2) ∉ (gdims wf).sKept := by
      rw [GatherDims.mem_sKept]; intro hh; exact hh.2 hb
    show (gdims wf).start (ix2 p (0 : Fin 1)) idx 0 + (gdims wf).batchCoord (ix2 p (0 : Fin 1)) 0
      + (gdims wf).offCoord (ix2 p (0 : Fin 1)) 0 = p.val
    rw [GatherDims.start_batching _ _ _ _ hb, GatherDims.offCoord_eq_zero _ _ _ hk]
    show 0 + (gdims wf).batchCoord (ix2 p (0 : Fin 1)) 0 + 0 = p.val
    have hbc : (gdims wf).batchCoord (ix2 p (0 : Fin 1)) 0 = p.val := rfl
    omega
  | ⟨1, _⟩ =>
    have hb : (1 : Fin 2) ∉ (gdims wf).operandBatchingDims := by
      intro hh; exact absurd (List.mem_singleton.1 hh) (by decide)
    have hc : (1 : Fin 2) ∈ (gdims wf).collapsedSliceDims := List.mem_singleton.2 rfl
    have hk : (1 : Fin 2) ∉ (gdims wf).sKept := by
      rw [GatherDims.mem_sKept]; intro hh; exact hh.1 hc
    have hm : (1 : Fin 2) ∈ (gdims wf).startIndexMap := List.mem_singleton.2 rfl
    show (gdims wf).start (ix2 p (0 : Fin 1)) idx 1 + (gdims wf).batchCoord (ix2 p (0 : Fin 1)) 1
      + (gdims wf).offCoord (ix2 p (0 : Fin 1)) 1 = min (idx (ix3 p (0 : Fin 1) (0 : Fin 1))).toInt.toNat 512
    rw [GatherDims.batchCoord_eq_zero _ _ _ hb, GatherDims.offCoord_eq_zero _ _ _ hk]
    unfold GatherDims.start
    rw [dif_pos hm]
    have hsi : (gdims wf).siIdx (ix2 p (0 : Fin 1)) ⟨List.idxOf (1 : Fin 2) (gdims wf).startIndexMap, List.idxOf_lt_length_iff.2 hm⟩
        = ix3 p (0 : Fin 1) (0 : Fin 1) := by
      funext b
      apply Fin.ext
      match b with
      | ⟨0, _⟩ => rfl
      | ⟨1, _⟩ => rfl
      | ⟨2, _⟩ => rfl
    rw [hsi]
    rfl

/-! ## Coordinates -/

theorem ij_eq_ix2 {n m : ℕ} (p : Fin n) (q : Fin m) : StableHlo.Predicate.ij p q = ix2 p q := by
  funext b; match b with | ⟨0, _⟩ => rfl | ⟨1, _⟩ => rfl

theorem ofFin_eq_ix1 {n : ℕ} (p : Fin n) : Shape.Idx.ofFin p = ix1 p := by
  funext b; match b with | ⟨0, _⟩ => exact Fin.ext rfl

theorem ixP_eq_ix2 {n : ℕ} (p : Fin n) : StableHlo.Predicate.ixP p = ix2 p (0 : Fin 1) := by
  funext b; match b with | ⟨0, _⟩ => rfl | ⟨1, _⟩ => rfl

/-- Flattening a column: position p of the flat array is row p of the column. -/
theorem reshape_col_flat (h : S65536.numel = S65536x1.numel) (p : Fin 65536) :
    Shape.reshapeEquiv h (ix1 p) = (ix2 p (0 : Fin 1) : S65536x1.Idx) :=
  Shape.reshapeEquiv_eq_of_rowMajor h (by
    rw [Shape.rowMajor_val_two, Shape.rowMajor_val_one]
    show p.val * 1 + 0 = p.val
    omega)

/-- A column with one more unit axis: (p, 0, 0) is row p. -/
theorem reshape_col_cube (h : S65536x1x1.numel = S65536x1.numel) (p : Fin 65536) :
    Shape.reshapeEquiv h (ix3 p (0 : Fin 1) (0 : Fin 1)) = (ix2 p (0 : Fin 1) : S65536x1.Idx) :=
  Shape.reshapeEquiv_eq_of_rowMajor h (by
    rw [Shape.rowMajor_val_two, Shape.rowMajor_val_three]
    show p.val * 1 + 0 = (p.val * 1 + 0) * 1 + 0
    omega)

/-- A flat array as one row: position p is (0, p), -/
theorem reshape_flat_row (h : S65536.numel = Cert.Spec.S1x65536.numel) (p : Fin 65536) :
    Shape.reshapeEquiv h (ix1 p) = (ix2 (0 : Fin 1) p : Cert.Spec.S1x65536.Idx) :=
  Shape.reshapeEquiv_eq_of_rowMajor h (by
    rw [Shape.rowMajor_val_two, Shape.rowMajor_val_one]
    show 0 * 65536 + p.val = p.val
    omega)

/-- and back. -/
theorem reshape_row_flat (h : Cert.Spec.S1x65536.numel = S65536.numel) (p : Fin 65536) :
    Shape.reshapeEquiv h (ix2 (0 : Fin 1) p : Cert.Spec.S1x65536.Idx) = ix1 p :=
  Shape.reshapeEquiv_eq_of_rowMajor h (by
    rw [Shape.rowMajor_val_two, Shape.rowMajor_val_one]
    show p.val = 0 * 65536 + p.val
    omega)

/-! ## Words -/

/-- A word that is non-negative as a signed integer has that integer as its value. -/
theorem toNat_of_nonneg (w : BitVec 32) (h0 : 0 ≤ w.toInt) : ((w.toNat : ℕ) : ℤ) = w.toInt := by
  have h := BitVec.toInt_eq_toNat_cond w
  have hl := w.isLt
  split at h <;> omega

/-- The kernel's remap of one word: above 512 it becomes 528. -/
def remap (w : BitVec 32) : BitVec 32 := Scalar.select (IntOp.cmpi .sgt w 512#32) 528#32 w

/-- A remapped word is a given word ≤ 512 exactly when the word itself is. -/
theorem remap_eq_iff (w t : BitVec 32) (ht : t.toInt ≤ 512) : remap w = t ↔ w = t := by
  have h512 : (512#32 : BitVec 32).toInt = 512 := by decide
  have h528 : (528#32 : BitVec 32).toInt = 528 := by decide
  have hc : IntOp.cmpi .sgt w 512#32 = BitVec.ofBool (decide ((512#32 : BitVec 32).toInt < w.toInt)) := rfl
  unfold remap Scalar.select
  rw [hc, h512]
  by_cases hw : 512 < w.toInt
  · rw [decide_eq_true hw]
    show (if (1#1 : BitVec 1) = 1 then 528#32 else w) = t ↔ w = t
    rw [if_pos (show (1#1 : BitVec 1) = 1 from rfl)]
    constructor
    · intro e; rw [← e, h528] at ht; omega
    · intro e; rw [e] at hw; omega
  · rw [decide_eq_false hw]
    show (if (0#1 : BitVec 1) = 1 then 528#32 else w) = t ↔ w = t
    rw [if_neg (show ¬ (0#1 : BitVec 1) = 1 from by decide)]

/-- A non-negative start index is not moved. -/
theorem wrap_nonneg (w : BitVec 32) (h0 : 0 ≤ w.toInt) :
    Scalar.select (IntOp.cmpi .slt w 0#32) (IntOp.addi w 513#32) w = w := by
  have hz : (0#32 : BitVec 32).toInt = 0 := by decide
  have hc : IntOp.cmpi .slt w 0#32 = BitVec.ofBool (decide (w.toInt < (0#32 : BitVec 32).toInt)) := rfl
  unfold Scalar.select
  rw [hc, hz, decide_eq_false (by omega)]
  show (if (0#1 : BitVec 1) = 1 then _ else w) = w
  rw [if_neg (show ¬ (0#1 : BitVec 1) = 1 from by decide)]

/-- A start index within [0, 512] is in bounds. -/
theorem inb_word (w : BitVec 32) (h0 : 0 ≤ w.toInt) (h1 : w.toInt ≤ 512) :
    IntOp.andi (IntOp.cmpi .sge w 0#32) (IntOp.cmpi .sle w 512#32) = 1#1 := by
  have hz : (0#32 : BitVec 32).toInt = 0 := by decide
  have h512 : (512#32 : BitVec 32).toInt = 512 := by decide
  have ha : IntOp.cmpi .sge w 0#32 = BitVec.ofBool (decide ((0#32 : BitVec 32).toInt ≤ w.toInt)) := rfl
  have hb : IntOp.cmpi .sle w 512#32 = BitVec.ofBool (decide (w.toInt ≤ (512#32 : BitVec 32).toInt)) := rfl
  rw [ha, hb, hz, h512, decide_eq_true h0, decide_eq_true h1]
  decide

/-- The clamp of a start index within [0, 512] into [0, 512] is its value. -/
theorem clamp_word (w : BitVec 32) (h0 : 0 ≤ w.toInt) (h1 : w.toInt ≤ 512) : min w.toInt.toNat 512 = w.toNat := by
  have := toNat_of_nonneg w h0
  omega

/-- An and-fold from 1 over words that are all 1 is 1. -/
theorem fold_andi_one {ι : Type} (S : Finset ι) (x : ι → BitVec 1) (h : ∀ i ∈ S, x i = 1#1) :
    S.fold IntOp.andi 1#1 x = 1#1 := by
  induction S using Finset.cons_induction with
  | empty => rfl
  | cons a S ha ih =>
    rw [Finset.fold_cons, h a (Finset.mem_cons_self a S), ih fun i hi => h i (Finset.mem_cons_of_mem hi)]
    decide

variable (F : Facts) (tok : IVec S65536 32)

/-! ## The two sides, spelled as the programs spell them -/

/-- The kernel's tokens: every word above 512 replaced by 528. -/
def tokK : IVec S65536 32 :=
  select (cmpi .sgt tok (broadcastInDim S65536 ![] F.b_S_S65536 (constantI S_ 32 512#32)))
    (broadcastInDim S65536 ![] F.b_S_S65536 (constantI S_ 32 528#32)) tok

/-- The kernel's token row. -/
def tokRow : IVec Cert.Spec.S1x65536 32 := shapeCast Cert.Spec.S1x65536 (tokK F tok) F.c_S65536_S1x65536

/-- The kernel's ranks as the host reads them back: the rank row flattened. -/
def rankK : IVec S65536 32 := shapeCast S65536 (Cert.Spec.rankArr (tokRow F tok)) F.c_S1x65536_S65536

/-- The tokens as a column. -/
def tokCol : IVec S65536x1 32 := broadcastInDim S65536x1 ![0] F.b_S65536_S65536x1 tok

/-- The indicator array e[q, s]. -/
def onehot : IVec S65536x513 32 :=
  extui 32 (cmpi .eq (broadcastInDim S65536x513 ![0, 1] F.b_S65536x1_S65536x513 (tokCol F tok))
    (broadcastInDim S65536x513 ![0, 1] F.b_S1x513_S65536x513
      (broadcastInDim S1x513 ![1] F.b_S513_S1x513 (iotaInDim S513 32 0)))) F.lt_1_32

/-- The inclusive running sum of the indicator array down the token axis. -/
def csum : IVec S65536x513 32 :=
  Host.reduceWindow IntOp.addi ![65536, 1] ![1, 1] ![65535, 0] ![0, 0] (onehot F tok)
    (broadcastInDim S_ ![] F.b_S_S_ (constantI S_ 32 0#32)) F.rw F.h_S_

/-- The start indices: a negative token moved up by 513, as a [65536 × 1 × 1] array. -/
def startIdx : IVec S65536x1x1 32 :=
  shapeCast S65536x1x1
    (select (cmpi .slt (tokCol F tok) (broadcastInDim S65536x1 ![] F.b_S_S65536x1 (constantI S_ 32 0#32)))
      (addi (tokCol F tok) (broadcastInDim S65536x1 ![] F.b_S_S65536x1 (constantI S_ 32 513#32))) (tokCol F tok))
    F.c_S65536x1_S65536x1x1

/-- The in-bounds mask: the start index within [0, 512], and-reduced over the index vector's axis. -/
def inb : IVec S65536x1 1 :=
  Host.reduce IntOp.andi
    (andi (cmpi .sge (startIdx F tok) (broadcastInDim S65536x1x1 ![] F.b_S_S65536x1x1 (constantI S_ 32 0#32)))
      (cmpi .sle (startIdx F tok)
        (broadcastInDim S65536x1x1 ![0, 1, 2] F.b_S1x1x1_S65536x1x1
          (broadcastInDim S1x1x1 ![2] F.b_S1_S1x1x1 (constantI S1 32 512#32)))))
    (constantI S_ 1 1#1) F.red F.h_S_

/-- The running sum read at each token's own id, the out-of-bounds rows filled with the least integer. -/
def taken : IVec S65536x1 32 :=
  select (inb F tok) (Host.gather (gdims F.gwf) (csum F tok) (startIdx F tok))
    (broadcastInDim S65536x1 ![] F.b_S_S65536x1 (constantI S_ 32 2147483648#32))

/-- The reference's ranks. -/
def rankR : IVec S65536 32 :=
  subi (shapeCast S65536 (taken F tok) F.c_S65536x1_S65536)
    (broadcastInDim S65536 ![] F.b_S_S65536 (constantI S_ 32 1#32))

/-! ## The two sides read at one element -/

theorem tokCol_apply (p : Fin 65536) : tokCol F tok (ix2 p (0 : Fin 1)) = tok (ix1 p) := by
  have h := StableHlo.Predicate.bcast_col1 F.b_S65536_S65536x1 tok p
  rw [ixP_eq_ix2, ofFin_eq_ix1] at h
  exact h

/-- e[q, s] is the widened bit of "token q is s". -/
theorem onehot_apply (q : Fin 65536) (s : Fin 513) :
    onehot F tok (ix2 q s) = (IntOp.cmpi .eq (tok (ix1 q)) (BitVec.ofNat 32 s.val)).setWidth 32 := by
  have ha := StableHlo.Predicate.bcast_rows F.b_S65536_S65536x1 F.b_S65536x1_S65536x513 tok q s
  have hb := StableHlo.Predicate.bcast_cols F.b_S513_S1x513 F.b_S1x513_S65536x513 (iotaInDim S513 32 0) q s
  rw [ij_eq_ix2, ofFin_eq_ix1] at ha hb
  show (IntOp.cmpi .eq
      (broadcastInDim S65536x513 ![0, 1] F.b_S65536x1_S65536x513 (broadcastInDim S65536x1 ![0] F.b_S65536_S65536x1 tok) (ix2 q s))
      (broadcastInDim S65536x513 ![0, 1] F.b_S1x513_S65536x513
        (broadcastInDim S1x513 ![1] F.b_S513_S1x513 (iotaInDim S513 32 0)) (ix2 q s))).setWidth 32 = _
  rw [ha, hb]
  rfl

/-- c[p, s] is the number of positions q ≤ p holding s. -/
theorem csum_apply (p : Fin 65536) (s : Fin 513) :
    csum F tok (ix2 p s) = BitVec.ofNat 32
      (Finset.univ.filter fun q : Fin 65536 => q.val ≤ p.val ∧ tok (ix1 q) = BitVec.ofNat 32 s.val).card := by
  unfold csum
  rw [reduceWindow_cumsum _ _ F.rw F.h_S_ rfl p s,
    Finset.sum_congr rfl (fun q _ => onehot_apply F tok q s), Finset.sum_eq_fold]
  refine (IndicatorCount.fold_addi_setWidth_eq_card
    (fun q : Fin 65536 => IntOp.cmpi .eq (tok (ix1 q)) (BitVec.ofNat 32 s.val)) _).trans ?_
  rw [Finset.filter_filter]
  refine congrArg (fun S : Finset (Fin 65536) => BitVec.ofNat 32 S.card) ?_
  apply Finset.filter_congr
  intro q _
  rw [StableHlo.Predicate.cmpi_eq_iff]

/-- The start index of a non-negative token is the token. -/
theorem startIdx_apply (p : Fin 65536) (h0 : 0 ≤ (tok (ix1 p)).toInt) :
    startIdx F tok (ix3 p (0 : Fin 1) (0 : Fin 1)) = tok (ix1 p) := by
  unfold startIdx
  show (select (cmpi .slt (tokCol F tok) (broadcastInDim S65536x1 ![] F.b_S_S65536x1 (constantI S_ 32 0#32)))
      (addi (tokCol F tok) (broadcastInDim S65536x1 ![] F.b_S_S65536x1 (constantI S_ 32 513#32))) (tokCol F tok))
    (Shape.reshapeEquiv F.c_S65536x1_S65536x1x1 (ix3 p (0 : Fin 1) (0 : Fin 1))) = _
  rw [reshape_col_cube]
  show Scalar.select (IntOp.cmpi .slt (tokCol F tok (ix2 p (0 : Fin 1))) 0#32)
    (IntOp.addi (tokCol F tok (ix2 p (0 : Fin 1))) 513#32) (tokCol F tok (ix2 p (0 : Fin 1))) = _
  rw [tokCol_apply, wrap_nonneg _ h0]

/-- The in-bounds mask is set at a token within [0, 512]. -/
theorem inb_apply (p : Fin 65536) (h0 : 0 ≤ (tok (ix1 p)).toInt) (h1 : (tok (ix1 p)).toInt ≤ 512) :
    inb F tok (ix2 p (0 : Fin 1)) = 1#1 := by
  unfold inb
  rw [Host.reduce_eq_fold]
  show Finset.fold IntOp.andi 1#1 _ _ = 1#1
  apply fold_andi_one
  intro i hi
  have hd : F.red.drop i = ix2 p (0 : Fin 1) := (Finset.mem_filter.1 hi).2
  have hi0 : i = ix3 p (0 : Fin 1) (0 : Fin 1) := by
    funext b
    apply Fin.ext
    match b with
    | ⟨0, _⟩ =>
      have h := Shape.ReducesTo.drop_apply_val_of_eq F.red i (⟨0, by decide⟩ : Fin S65536x1.rank) (⟨0, by decide⟩ : Fin S65536x1x1.rank)
        (by decide) (by decide)
      rw [hd] at h
      exact h.symm
    | ⟨1, _⟩ =>
      have hl := (i ⟨1, by decide⟩).isLt
      change (i ⟨1, by decide⟩).val < 1 at hl
      show (i ⟨1, by decide⟩).val = 0
      omega
    | ⟨2, _⟩ =>
      have hl := (i ⟨2, by decide⟩).isLt
      change (i ⟨2, by decide⟩).val < 1 at hl
      show (i ⟨2, by decide⟩).val = 0
      omega
  rw [hi0]
  show IntOp.andi (IntOp.cmpi .sge (startIdx F tok (ix3 p (0 : Fin 1) (0 : Fin 1))) 0#32)
    (IntOp.cmpi .sle (startIdx F tok (ix3 p (0 : Fin 1) (0 : Fin 1))) 512#32) = 1#1
  rw [startIdx_apply F tok p h0]
  exact inb_word _ h0 h1

/-- A token within [0, 512] is an id. -/
theorem tok_lt (w : BitVec 32) (h0 : 0 ≤ w.toInt) (h1 : w.toInt ≤ 512) : w.toNat < 513 := by
  have := toNat_of_nonneg w h0
  omega

/-- At a token within [0, 512] the reference reads the running sum at (p, the token). -/
theorem taken_apply (p : Fin 65536) (h0 : 0 ≤ (tok (ix1 p)).toInt) (h1 : (tok (ix1 p)).toInt ≤ 512) :
    taken F tok (ix2 p (0 : Fin 1)) = csum F tok (ix2 p ⟨(tok (ix1 p)).toNat, tok_lt _ h0 h1⟩) := by
  unfold taken
  show Scalar.select (inb F tok (ix2 p (0 : Fin 1)))
    (Host.gather (gdims F.gwf) (csum F tok) (startIdx F tok) (ix2 p (0 : Fin 1))) _ = _
  rw [inb_apply F tok p h0 h1, select_one, gather_apply]
  refine congrArg (fun k : Fin 513 => csum F tok (ix2 p k)) (Fin.ext ?_)
  show min (startIdx F tok (ix3 p (0 : Fin 1) (0 : Fin 1))).toInt.toNat 512 = (tok (ix1 p)).toNat
  rw [startIdx_apply F tok p h0]
  exact clamp_word _ h0 h1

/-- The reference's rank at p is the gathered word less one. -/
theorem rankR_apply (p : Fin 65536) : rankR F tok (ix1 p) = taken F tok (ix2 p (0 : Fin 1)) - 1#32 := by
  unfold rankR
  show IntOp.subi (taken F tok (Shape.reshapeEquiv F.c_S65536x1_S65536 (ix1 p))) 1#32 = _
  rw [reshape_col_flat]
  rfl

/-- The kernel's token row holds the remapped tokens. -/
theorem tokRow_apply (q : Fin 65536) : Cert.Spec.tokAt (tokRow F tok) q = remap (tok (ix1 q)) := by
  unfold Cert.Spec.tokAt tokRow
  show tokK F tok (Shape.reshapeEquiv F.c_S65536_S1x65536 (ix2 (0 : Fin 1) q)) = _
  rw [reshape_row_flat]
  rfl

/-- The kernel's rank at a token within [0, 512]: the number of earlier positions holding that token. -/
theorem rankK_apply (p : Fin 65536) (h0 : 0 ≤ (tok (ix1 p)).toInt) (h1 : (tok (ix1 p)).toInt ≤ 512) :
    rankK F tok (ix1 p) = BitVec.ofNat 32
      (Finset.univ.filter fun q : Fin 65536 => q.val < p.val ∧ tok (ix1 q) = tok (ix1 p)).card := by
  unfold rankK
  show Cert.Spec.rankArr (tokRow F tok) (Shape.reshapeEquiv F.c_S1x65536_S65536 (ix1 p)) = _
  rw [reshape_flat_row]
  have ht : tokRow F tok (ix2 (0 : Fin 1) p) = tok (ix1 p) := by
    have h := tokRow_apply F tok p
    rw [(remap_eq_iff _ _ h1).2 rfl] at h
    exact h
  unfold Cert.Spec.rankArr
  dsimp only
  rw [ht, if_pos (by have := tok_lt _ h0 h1; omega)]
  refine congrArg (BitVec.ofNat 32) ?_
  unfold Cert.Spec.cntBelow
  show (Finset.univ.filter fun j : Fin 65536 => j.val < p.val ∧ Cert.Spec.tokAt (tokRow F tok) j = tok (ix1 p)).card = _
  refine congrArg Finset.card ?_
  apply Finset.filter_congr
  intro q _
  rw [tokRow_apply, remap_eq_iff _ _ h1]

/-! ## The two ranks agree -/

/-- At a token in [0, 512] (all tokens non-negative) the two ranks agree. -/
theorem rank_eq_of_le (hnn : ∀ j, 0 ≤ (tok j).toInt) (j : S65536.Idx) (hv : (tok j).toInt ≤ 512) :
    rankK F tok j = rankR F tok j := by
  obtain ⟨p, rfl⟩ : ∃ p : Fin 65536, j = ix1 p := ⟨j 0, eq_ix1 j⟩
  have h0 := hnn (ix1 p)
  rw [rankK_apply F tok p h0 hv, rankR_apply, taken_apply F tok p h0 hv, csum_apply]
  have hof : BitVec.ofNat 32 (tok (ix1 p)).toNat = tok (ix1 p) := by
    apply BitVec.eq_of_toNat_eq
    rw [BitVec.toNat_ofNat]
    exact Nat.mod_eq_of_lt (tok (ix1 p)).isLt
  show _ = BitVec.ofNat 32
    (Finset.univ.filter fun q : Fin 65536 => q.val ≤ p.val ∧ tok (ix1 q) = BitVec.ofNat 32 (tok (ix1 p)).toNat).card - 1#32
  rw [hof]
  -- the positions up to p holding the token are the earlier ones and p itself
  have hins : (Finset.univ.filter fun q : Fin 65536 => q.val ≤ p.val ∧ tok (ix1 q) = tok (ix1 p))
      = Finset.cons p (Finset.univ.filter fun q : Fin 65536 => q.val < p.val ∧ tok (ix1 q) = tok (ix1 p))
          (by simp) := by
    ext q
    simp only [Finset.mem_filter, Finset.mem_univ, true_and, Finset.mem_cons]
    constructor
    · rintro ⟨hle, he⟩
      rcases Nat.lt_or_eq_of_le hle with hlt | heq
      · exact Or.inr ⟨hlt, he⟩
      · exact Or.inl (Fin.ext heq)
    · rintro (rfl | ⟨hlt, he⟩)
      · exact ⟨le_refl _, rfl⟩
      · exact ⟨le_of_lt hlt, he⟩
  rw [hins, Finset.card_cons, BitVec.ofNat_add]
  exact (BitVec.add_sub_cancel _ _).symm

/-- At a valid token (below 512) the two ranks agree. -/
theorem rank_eq_of_valid (hnn : ∀ j, 0 ≤ (tok j).toInt) (j : S65536.Idx) (hv : (tok j).toInt < 512) :
    rankK F tok j = rankR F tok j :=
  rank_eq_of_le F tok hnn j (le_of_lt hv)

end Cert.RankRef

end
-- ==== Proof.Bridge.Stage0.lean ====
import proofs.«408099_j23811298689264_3_alg».proof.Proof.Bridge.SplitK
import proofs.«408099_j23811298689264_3_alg».proof.Proof.Bridge.SplitR
import Idealize.ShloMosaic.PureOps.Ideal
import proofs.«408099_j23811298689264_3_alg».proof.Proof.Histogram
import proofs.«408099_j23811298689264_3_alg».proof.Proof.RankRef
/-!
  The first stretch: the histogram. The kernel side converts the first 513 rows of the count column the region wrote to
  words; the reference adds a one at each token's position into 513 zeros. With the count column holding the number of
  positions of each id of the clamped token row, and the tokens being the argument's words with the negative ones
  replaced by 512, these are the same 513 words (the histogram lemma). The reference's tokens and its constant -1, both
  computed in this stretch, are read off as well, and so are the rank words: the rank row the region wrote, flattened.
-/

set_option maxRecDepth 8192

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- The tokens: the argument's words, the negative ones replaced by 512. -/
abbrev tokOf (a : IVec Cert.KernelIdeal.S65536 32) : IVec Cert.KernelIdeal.S65536 32 :=
  select (cmpi .slt a (broadcastInDim Cert.KernelIdeal.S65536 ![] Cert.KernelIdeal.Gen.bcast_S_S65536 (constantI Cert.KernelIdeal.S_ 32 0#32)))
    (broadcastInDim Cert.KernelIdeal.S65536 ![] Cert.KernelIdeal.Gen.bcast_S_S65536 (constantI Cert.KernelIdeal.S_ 32 512#32)) a

/-- The token row the region reads: the tokens with the words above 512 replaced by 528, as one row. -/
abbrev rowOf (a : IVec Cert.KernelIdeal.S65536 32) : IVec Cert.Spec.S1x65536 32 :=
  shapeCast Cert.Spec.S1x65536
    (select (cmpi .sgt (tokOf a) (broadcastInDim Cert.KernelIdeal.S65536 ![] Cert.KernelIdeal.Gen.bcast_S_S65536 (constantI Cert.KernelIdeal.S_ 32 512#32)))
      (broadcastInDim Cert.KernelIdeal.S65536 ![] Cert.KernelIdeal.Gen.bcast_S_S65536 (constantI Cert.KernelIdeal.S_ 32 528#32)) (tokOf a))
    Cert.KernelIdeal.Gen.shapeCasts_S65536_S1x65536

/-- counts_all: the kernel side's converted count rows are the reference's scatter-added histogram. -/
theorem s0_v13 (W : KV) (W' : RV)
    (ha0 : W k[Cert.KernelIdeal.main_arg0] = W' r[Cert.ReferenceIdeal.main_arg0])
    (hcnt : W k[Cert.KernelIdeal.main_v9_1] = Cert.Spec.countsArr (rowOf (W k[Cert.KernelIdeal.main_arg0]))) :
    StableHlo.after (kS0 (F := Ideal)) W k[Cert.KernelIdeal.main_v13] = StableHlo.after (rS0 (F := Ideal)) W' r[Cert.ReferenceIdeal.main_v11] := by
  after_results_simp
  rw [hcnt, ← ha0]
  exact Cert.Histogram.counts_eq (tokOf (W k[Cert.KernelIdeal.main_arg0]))
    (fun j => Cert.Histogram.clamp_nonneg (W k[Cert.KernelIdeal.main_arg0]) Cert.KernelIdeal.Gen.bcast_S_S65536 j)
    Cert.KernelIdeal.Gen.bcast_S_S65536 Cert.KernelIdeal.Gen.bcast_S_S513 Cert.ReferenceIdeal.Gen.bcast_S65536_S65536x1_0 Cert.KernelIdeal.Gen.shapeCasts_S65536_S1x65536
    Cert.KernelIdeal.Gen.slices_S528x1_S513x1_0_0 Cert.KernelIdeal.Gen.shapeCasts_S513x1_S513 _

/-- The reference's tokens are the kernel side's, which the region's entry contents already hold. -/
theorem s0_tok (W : KV) (W' : RV)
    (ha0 : W k[Cert.KernelIdeal.main_arg0] = W' r[Cert.ReferenceIdeal.main_arg0])
    (htok : W k[Cert.KernelIdeal.main_v2] = tokOf (W k[Cert.KernelIdeal.main_arg0])) :
    W k[Cert.KernelIdeal.main_v2] = StableHlo.after (rS0 (F := Ideal)) W' r[Cert.ReferenceIdeal.main_v2] := by
  after_results_simp
  rw [htok, ha0] <;> rfl

/-- The rank words: the region's rank row over the clamped token row, flattened. -/
theorem s0_v10 (W : KV) (Fk : Cert.RankRef.Facts)
    (htok : W k[Cert.KernelIdeal.main_v2] = tokOf (W k[Cert.KernelIdeal.main_arg0]))
    (hrank : W k[Cert.KernelIdeal.main_v9_0] = Cert.Spec.rankArr (rowOf (W k[Cert.KernelIdeal.main_arg0]))) :
    StableHlo.after (kS0 (F := Ideal)) W k[Cert.KernelIdeal.main_v10] = Cert.RankRef.rankK Fk (W k[Cert.KernelIdeal.main_v2]) := by
  after_results_simp
  rw [hrank, htok]
  rfl

/-- The reference's constant -1 is written in this stretch. -/
theorem s0_c (W' : RV) :
    StableHlo.after (rS0 (F := Ideal)) W' r[Cert.ReferenceIdeal.main_c] = constantI Cert.ReferenceIdeal.S_ 32 4294967295#32 := by
  after_results_simp

end Cert.Bridge

end
-- ==== Proof.Bridge.Stage1A.lean ====
import proofs.«408099_j23811298689264_3_alg».proof.Proof.Bridge.SplitK
import proofs.«408099_j23811298689264_3_alg».proof.Proof.Bridge.SplitR
import Idealize.ShloMosaic.PureOps.Ideal

/-!
  The second stretch, first part: from equal histograms and equal sequence lengths, the two programs compute equal
  sorted sequence ids (updated_seqs), in-range mask, safe ids and new lengths.

  Both sides are read down to the stretch's entry contents, operation by operation; the entry contents are replaced by
  the hypotheses; what is left on the two sides is the same composition of the same operations.
-/

set_option maxRecDepth 8192

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- updated_seqs: the sorted ids with the sentinel replaced by -1. -/
theorem s1_v22 (W : KV) (W' : RV) (h13 : W k[Cert.KernelIdeal.main_v13] = W' r[Cert.ReferenceIdeal.main_v11]) (hc : W' r[Cert.ReferenceIdeal.main_c] = constantI Cert.ReferenceIdeal.S_ 32 4294967295#32) :
    StableHlo.after (kS1 (F := Ideal)) W k[Cert.KernelIdeal.main_v22] = StableHlo.after (rS1 (F := Ideal)) W' r[Cert.ReferenceIdeal.main_v20] := by
  after_results_simp
  rw [h13, hc] <;> rfl

/-- in_range: 0 ≤ updated_seqs < 512. -/
theorem s1_v27 (W : KV) (W' : RV) (h13 : W k[Cert.KernelIdeal.main_v13] = W' r[Cert.ReferenceIdeal.main_v11]) (hc : W' r[Cert.ReferenceIdeal.main_c] = constantI Cert.ReferenceIdeal.S_ 32 4294967295#32) :
    StableHlo.after (kS1 (F := Ideal)) W k[Cert.KernelIdeal.main_v27] = StableHlo.after (rS1 (F := Ideal)) W' r[Cert.ReferenceIdeal.main_v25] := by
  after_results_simp
  rw [h13, hc] <;> rfl

/-- safe_upd: updated_seqs where in range, else 0. -/
theorem s1_v28 (W : KV) (W' : RV) (h13 : W k[Cert.KernelIdeal.main_v13] = W' r[Cert.ReferenceIdeal.main_v11]) (hc : W' r[Cert.ReferenceIdeal.main_c] = constantI Cert.ReferenceIdeal.S_ 32 4294967295#32) :
    StableHlo.after (kS1 (F := Ideal)) W k[Cert.KernelIdeal.main_v28] = StableHlo.after (rS1 (F := Ideal)) W' r[Cert.ReferenceIdeal.main_v26] := by
  after_results_simp
  rw [h13, hc] <;> rfl

/-- new_lens: the current lengths plus the histogram's first 512 words, -1 where the length was negative. -/
theorem s1_v44 (W : KV) (W' : RV) (h13 : W k[Cert.KernelIdeal.main_v13] = W' r[Cert.ReferenceIdeal.main_v11]) (ha1 : W k[Cert.KernelIdeal.main_arg1] = W' r[Cert.ReferenceIdeal.main_arg1]) (hc : W' r[Cert.ReferenceIdeal.main_c] = constantI Cert.ReferenceIdeal.S_ 32 4294967295#32) :
    StableHlo.after (kS1 (F := Ideal)) W k[Cert.KernelIdeal.main_v44] = StableHlo.after (rS1 (F := Ideal)) W' r[Cert.ReferenceIdeal.main_v42] := by
  after_results_simp
  rw [h13, ha1, hc] <;> rfl

end Cert.Bridge

end
-- ==== Proof.Bridge.Stage1B.lean ====
import proofs.«408099_j23811298689264_3_alg».proof.Proof.Bridge.SplitK
import proofs.«408099_j23811298689264_3_alg».proof.Proof.Bridge.SplitR
import Idealize.ShloMosaic.PureOps.Ideal

/-!
  The second stretch, second part: from equal histograms and equal sequence lengths, the two programs compute equal
  per-sequence token counts (new_counts) and equal old page counts at the safe ids (old_s).

  Both sides are read down to the stretch's entry contents, operation by operation; the entry contents are replaced by
  the hypotheses; what is left on the two sides is the same composition of the same operations.
-/

set_option maxRecDepth 8192
set_option maxHeartbeats 8000000

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- new_counts: the histogram gathered at the safe ids, 0 where out of range. -/
theorem s1_v36 (W : KV) (W' : RV) (h13 : W k[Cert.KernelIdeal.main_v13] = W' r[Cert.ReferenceIdeal.main_v11]) (hc : W' r[Cert.ReferenceIdeal.main_c] = constantI Cert.ReferenceIdeal.S_ 32 4294967295#32) :
    StableHlo.after (kS1 (F := Ideal)) W k[Cert.KernelIdeal.main_v36] = StableHlo.after (rS1 (F := Ideal)) W' r[Cert.ReferenceIdeal.main_v34] := by
  after_results_simp
  rw [h13, hc] <;> rfl

/-- old_s: the pages the old lengths fill, gathered at the safe ids. -/
theorem s1_v61 (W : KV) (W' : RV) (h13 : W k[Cert.KernelIdeal.main_v13] = W' r[Cert.ReferenceIdeal.main_v11]) (ha1 : W k[Cert.KernelIdeal.main_arg1] = W' r[Cert.ReferenceIdeal.main_arg1]) (hc : W' r[Cert.ReferenceIdeal.main_c] = constantI Cert.ReferenceIdeal.S_ 32 4294967295#32) :
    StableHlo.after (kS1 (F := Ideal)) W k[Cert.KernelIdeal.main_v61] = StableHlo.after (rS1 (F := Ideal)) W' r[Cert.ReferenceIdeal.main_v59] := by
  after_results_simp
  rw [h13, ha1, hc] <;> rfl

end Cert.Bridge

end
-- ==== Proof.Bridge.Stage1C.lean ====
import proofs.«408099_j23811298689264_3_alg».proof.Proof.Bridge.SplitK
import proofs.«408099_j23811298689264_3_alg».proof.Proof.Bridge.SplitR
import Idealize.ShloMosaic.PureOps.Ideal

/-!
  The second stretch, third part: from equal histograms and equal sequence lengths, the two programs compute equal
  new page counts at the safe ids (new_s) and equal exclusive running sums of the pages needed (offsets).

  Both sides are read down to the stretch's entry contents, operation by operation; the entry contents are replaced by
  the hypotheses; what is left on the two sides is the same composition of the same operations.
-/

set_option maxRecDepth 8192
set_option maxHeartbeats 8000000

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- new_s: the pages the new lengths fill, gathered at the safe ids. -/
theorem s1_v68 (W : KV) (W' : RV) (h13 : W k[Cert.KernelIdeal.main_v13] = W' r[Cert.ReferenceIdeal.main_v11]) (ha1 : W k[Cert.KernelIdeal.main_arg1] = W' r[Cert.ReferenceIdeal.main_arg1]) (hc : W' r[Cert.ReferenceIdeal.main_c] = constantI Cert.ReferenceIdeal.S_ 32 4294967295#32) :
    StableHlo.after (kS1 (F := Ideal)) W k[Cert.KernelIdeal.main_v68] = StableHlo.after (rS1 (F := Ideal)) W' r[Cert.ReferenceIdeal.main_v66] := by
  after_results_simp
  rw [h13, ha1, hc] <;> rfl

end Cert.Bridge

end
-- ==== Proof.Bridge.Stage1D.lean ====
import proofs.«408099_j23811298689264_3_alg».proof.Proof.Bridge.SplitK
import proofs.«408099_j23811298689264_3_alg».proof.Proof.Bridge.SplitR
import Idealize.ShloMosaic.PureOps.Ideal

/-!
  The second stretch, fourth part: from equal histograms and equal sequence lengths, the two programs compute equal
  exclusive running sums of the pages needed per updated sequence (offsets).

  Both sides are read down to the stretch's entry contents, operation by operation; the entry contents are replaced by
  the hypotheses; what is left on the two sides is the same composition of the same operations.
-/

set_option maxRecDepth 8192
set_option maxHeartbeats 8000000

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- offsets: the running sum of the pages needed, less the pages needed. -/
theorem s1_v74 (W : KV) (W' : RV) (h13 : W k[Cert.KernelIdeal.main_v13] = W' r[Cert.ReferenceIdeal.main_v11]) (ha1 : W k[Cert.KernelIdeal.main_arg1] = W' r[Cert.ReferenceIdeal.main_arg1]) (hc : W' r[Cert.ReferenceIdeal.main_c] = constantI Cert.ReferenceIdeal.S_ 32 4294967295#32) :
    StableHlo.after (kS1 (F := Ideal)) W k[Cert.KernelIdeal.main_v74] = StableHlo.after (rS1 (F := Ideal)) W' r[Cert.ReferenceIdeal.main_v72] := by
  after_results_simp
  rw [h13, ha1, hc] <;> rfl

end Cert.Bridge

end
-- ==== Proof.SortPartition.lean ====
/-
  An argsort of pairwise distinct keys is a partition by cumulative sums followed by a scatter.

  Over a 0/1 table `c` of the pages (1 = free), one program sorts the pages, stably, by the key "page number
  if free, page number plus the table's length if used" and keeps the permuted page numbers: the free pages in
  increasing order, then the used ones. The other computes each page's place in that listing directly — the
  number of free pages before a free page; the number of free pages, plus the number of used pages before it,
  for a used page — from an inclusive cumulative sum of `c`, one of `1 - c`, and the total of `c`, and then
  writes every page number at its place.

  The argument, in order: counting lemmas on `Fin n` (the place is below `n`, and a smaller key has a smaller
  place, so on distinct pages the key order and the place order agree and the place map is a bijection); a stable
  sort whose comparison agrees on distinct positions with the order a permutation's inverse induces reads the
  positions through that permutation; a window of `n` places over a table padded with `n - 1` zeros in front
  is the inclusive prefix sum, and a prefix sum of 0/1 words is a count; the words stay below 2³¹, so the
  subtraction of one, the addition of the total and the signed comparisons are those of the natural numbers;
  updates written one after the other at pairwise different places leave each update at its place.
-/
import Idealize.ShloMosaic.PureOps
import Idealize.ShloMosaic.Lib.SortFacts
import Idealize.ShloMosaic.Lib.IndicatorCount
import Idealize.ShloMosaic.Lib.ValueIdxRank1
import Mathlib.Data.BitVec
import proofs.«408099_j23811298689264_3_alg».proof.Proof.LibIndexMaps

noncomputable section

namespace Cert.SortPartition

open Idealize.ShloMosaic Idealize.ShloMosaic.ValueIdx
open scoped BigOperators

abbrev S65536 : Shape := ⟨1, ![65536]⟩
abbrev S65536x1 : Shape := ⟨2, ![65536, 1]⟩
abbrev S_ : Shape := ⟨0, ![]⟩

/-! ## Counting the positions that satisfy a predicate -/

section Count
variable {n : Nat} (P : Fin n → Prop) [DecidablePred P]

/-- How many positions up to and including `q` satisfy `P`. -/
def upto (q : Fin n) : Nat := (Finset.univ.filter fun i : Fin n => i ≤ q ∧ P i).card

/-- How many positions satisfy `P`. -/
def total : Nat := (Finset.univ.filter fun i : Fin n => P i).card

theorem upto_le_total (q : Fin n) : upto P q ≤ total P :=
  Finset.card_le_card fun i hi => by
    simp only [Finset.mem_filter, Finset.mem_univ, true_and] at hi ⊢
    exact hi.2

theorem upto_pos {q : Fin n} (h : P q) : 1 ≤ upto P q :=
  Finset.card_pos.2 ⟨q, by simp only [Finset.mem_filter, Finset.mem_univ, true_and]; exact ⟨le_refl q, h⟩⟩

/-- The count grows strictly at a position that satisfies `P`. -/
theorem upto_succ_le {q q' : Fin n} (hlt : q < q') (h : P q') : upto P q + 1 ≤ upto P q' := by
  have hsub : insert q' (Finset.univ.filter fun i : Fin n => i ≤ q ∧ P i)
      ⊆ Finset.univ.filter fun i : Fin n => i ≤ q' ∧ P i := by
    intro i hi
    rcases Finset.mem_insert.1 hi with rfl | hi
    · simp only [Finset.mem_filter, Finset.mem_univ, true_and]; exact ⟨le_refl _, h⟩
    · simp only [Finset.mem_filter, Finset.mem_univ, true_and] at hi ⊢
      exact ⟨le_trans hi.1 (le_of_lt hlt), hi.2⟩
  have hnot : q' ∉ Finset.univ.filter fun i : Fin n => i ≤ q ∧ P i := by
    simp only [Finset.mem_filter, Finset.mem_univ, true_and, not_and]
    intro hle; exact absurd hle (not_le.2 hlt)
  have hc := Finset.card_le_card hsub
  rwa [Finset.card_insert_of_notMem hnot] at hc

theorem total_add_total_not : total P + total (fun i => ¬ P i) = n := by
  unfold total
  rw [Finset.card_filter_add_card_filter_not, Finset.card_univ, Fintype.card_fin]

/-- The place of `q` when the positions that satisfy `P` are listed first, each group in increasing order. -/
def rank (q : Fin n) : Nat :=
  if P q then upto P q - 1 else total P + (upto (fun i => ¬ P i) q - 1)

/-- The sort key of that listing: the position itself where `P` holds, the position past `n` where not. -/
def keyN (q : Fin n) : Nat := if P q then q.val else n + q.val

theorem rank_lt (q : Fin n) : rank P q < n := by
  have h1 := upto_le_total P q
  have h2 := upto_le_total (fun i => ¬ P i) q
  have h3 := total_add_total_not P
  unfold rank
  split_ifs with h
  · have := upto_pos P h; omega
  · have := upto_pos (fun i => ¬ P i) (q := q) h; omega

/-- A smaller key has a smaller place. -/
theorem rank_lt_of_keyN_lt {q q' : Fin n} (hk : keyN P q < keyN P q') : rank P q < rank P q' := by
  have hq := q.isLt
  have hq' := q'.isLt
  unfold keyN at hk
  unfold rank
  by_cases h : P q <;> by_cases h' : P q'
  · rw [if_pos h, if_pos h'] at hk
    rw [if_pos h, if_pos h']
    have := upto_pos P h
    have := upto_succ_le P (q := q) (q' := q') (Fin.lt_def.2 hk) h'
    omega
  · rw [if_pos h, if_neg h']
    have := upto_pos P h
    have := upto_le_total P q
    omega
  · rw [if_neg h, if_pos h'] at hk
    omega
  · rw [if_neg h, if_neg h'] at hk
    rw [if_neg h, if_neg h']
    have := upto_pos (fun i => ¬ P i) (q := q) h
    have := upto_succ_le (fun i => ¬ P i) (q := q) (q' := q') (Fin.lt_def.2 (by omega)) h'
    omega

theorem keyN_injective : Function.Injective (keyN P) := by
  intro q q' he
  have hq := q.isLt
  have hq' := q'.isLt
  unfold keyN at he
  apply Fin.ext
  by_cases h : P q <;> by_cases h' : P q'
  · rwa [if_pos h, if_pos h'] at he
  · rw [if_pos h, if_neg h'] at he; omega
  · rw [if_neg h, if_pos h'] at he; omega
  · rw [if_neg h, if_neg h'] at he; omega

/-- Distinct positions: the key order and the place order agree. -/
theorem keyN_lt_iff_rank_lt {q q' : Fin n} (hne : q ≠ q') : keyN P q < keyN P q' ↔ rank P q < rank P q' := by
  constructor
  · exact rank_lt_of_keyN_lt P
  · intro hr
    rcases lt_trichotomy (keyN P q) (keyN P q') with hlt | heq | hgt
    · exact hlt
    · exact absurd (keyN_injective P heq) hne
    · have := rank_lt_of_keyN_lt P hgt; omega

/-- The place as a position. -/
def rankFin (q : Fin n) : Fin n := ⟨rank P q, rank_lt P q⟩

theorem rankFin_injective : Function.Injective (rankFin P) := by
  intro q q' he
  by_contra hne
  have hv : rank P q = rank P q' := congrArg Fin.val he
  rcases lt_or_gt_of_ne (fun h => hne (keyN_injective P h)) with hlt | hgt
  · have := rank_lt_of_keyN_lt P hlt; omega
  · have := rank_lt_of_keyN_lt P hgt; omega

/-- The listing itself: position `k` of the listing holds `place P k`; its inverse is `rankFin`. -/
def place : Equiv.Perm (Fin n) :=
  (Equiv.ofBijective (rankFin P) (Finite.injective_iff_bijective.1 (rankFin_injective P))).symm

theorem place_symm_apply (q : Fin n) : (place P).symm q = rankFin P q := rfl

theorem rankFin_place (k : Fin n) : rankFin P (place P k) = k := by
  show (place P).symm (place P k) = k
  exact Equiv.symm_apply_apply _ _

end Count

/-! ## The stable sort under an order that a permutation's inverse decides -/

/-- A stable sort whose comparison agrees, on distinct positions, with "`σ⁻¹ k < σ⁻¹ k'`" reads the
    positions in `σ`'s order. -/
theorem sortedFrom_eq_perm {n : Nat} (B : Fin n → Fin n → Bool) (σ : Equiv.Perm (Fin n))
    (h : ∀ k k', k ≠ k' → B k k' = decide (σ.symm k < σ.symm k')) : sortedFrom B = σ := by
  rw [sortedFrom_congr B _ h]
  funext k
  unfold sortedFrom
  rw [List.get_of_eq (sortPositions_of_perm σ)]
  simp

/-- The second operand of a two-operand sort of rank-1 tables, at a position. -/
theorem sort2_snd_rank1 {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-! ## Folds of additions are sums -/

theorem foldl_addi_eq_sum {N w : Nat} (g : Fin N → BitVec w) (v : BitVec w) :
    (List.finRange N).foldl (fun r k => IntOp.addi r (g k)) v = v + ∑ k : Fin N, g k := by
  rw [Fin.sum_univ_def]
  generalize List.finRange N = l
  induction l generalizing v with
  | nil => simp
  | cons a l ih =>
    simp only [List.foldl_cons, List.map_cons, List.sum_cons]
    rw [ih]
    unfold IntOp.addi
    rw [BitVec.add_assoc]

/-- A table on the positions below `n`, continued by zero. -/
def ext0 {n w : Nat} (x : (⟨1, ![n]⟩ : Shape).Idx → BitVec w) (a : Nat) : BitVec w :=
  if h : a < n then x (ix1 ⟨a, h⟩) else 0

theorem ext0_val {n w : Nat} (x : (⟨1, ![n]⟩ : Shape).Idx → BitVec w) (i : Fin n) : ext0 x i.val = x (ix1 i) := by
  unfold ext0
  rw [dif_pos i.isLt]

/-- The window of `n` places ending at `j`, the table padded with `n - 1` zeros in front, sums the table's
    entries up to and including `j`. -/
theorem sum_window_eq_prefix {n m w : Nat} (hm : m + 1 = n) (f : Nat → BitVec w) (j0 : Nat) (hj : j0 < n) :
    ∑ k ∈ Finset.range n, (if m ≤ j0 + k then f (j0 + k - m) else 0)
      = ∑ i ∈ Finset.range n, (if i ≤ j0 then f i else 0) := by
  rw [← Finset.sum_filter, ← Finset.sum_filter]
  refine Finset.sum_nbij' (fun k => j0 + k - m) (fun i => i + m - j0) ?_ ?_ ?_ ?_ ?_
  · intro k hk
    simp only [Finset.mem_filter, Finset.mem_range] at hk ⊢
    omega
  · intro i hi
    simp only [Finset.mem_filter, Finset.mem_range] at hi ⊢
    omega
  · intro k hk
    simp only [Finset.mem_filter, Finset.mem_range] at hk
    show j0 + k - m + m - j0 = k
    omega
  · intro i hi
    simp only [Finset.mem_filter, Finset.mem_range] at hi
    show j0 + (i + m - j0) - m = i
    omega
  · intro k _
    rfl

theorem sum_prefix_indicator {n : Nat} (c : Fin n → BitVec 1) (q : Fin n) :
    ∑ i : Fin n, (if i ≤ q then (c i).setWidth 32 else (0 : BitVec 32))
      = BitVec.ofNat 32 (upto (fun i => c i = 1#1) q) := by
  have hb : ∀ b : BitVec 1, b.setWidth 32 = if b = 1#1 then (1 : BitVec 32) else 0 := by decide
  simp only [hb, ← ite_and]
  rw [Finset.sum_boole, BitVec.natCast_eq_ofNat]
  rfl

theorem sum_prefix_coindicator {n : Nat} (c : Fin n → BitVec 1) (q : Fin n) :
    ∑ i : Fin n, (if i ≤ q then 1#32 - (c i).setWidth 32 else (0 : BitVec 32))
      = BitVec.ofNat 32 (upto (fun i => ¬ c i = 1#1) q) := by
  have hb : ∀ b : BitVec 1, 1#32 - b.setWidth 32 = if ¬ b = 1#1 then (1 : BitVec 32) else 0 := by decide
  simp only [hb, ← ite_and]
  rw [Finset.sum_boole, BitVec.natCast_eq_ofNat]
  rfl

/-- The cumulative sum as the programs write it: a window of `n` places, stride one, `n - 1` zeros of padding in
    front and none behind, over a table of `n` entries. At `j` it is the sum of the entries up to and including `j`. -/
theorem reduceWindow_prefix {n m : Nat} (hm : m + 1 = n) (x : IVec ⟨1, ![n]⟩ 32)
    (init : (⟨0, ![]⟩ : Shape).Idx → BitVec 32) (hinit : ∀ i, init i = 0#32)
    (hrw : (⟨1, ![n]⟩ : Shape).ReduceWindows (![n] : Fin 1 → Nat) ![1] ![m] ![0] ⟨1, ![n]⟩)
    (hS : 0 < (⟨0, ![]⟩ : Shape).numel) (j : (⟨1, ![n]⟩ : Shape).Idx) :
    Host.reduceWindow IntOp.addi ![n] ![1] ![m] ![0] x init hrw hS j
      = ∑ i : Fin n, (if i.val ≤ (j 0).val then x (ix1 i) else 0) := by
  unfold Host.reduceWindow
  dsimp only
  rw [hinit, foldl_addi_eq_sum, BitVec.zero_add]
  have hj : (j 0).val < n := (j 0).isLt
  calc _ = ∑ k : Fin n, (if m ≤ (j 0).val + k.val then ext0 x ((j 0).val + k.val - m) else 0) := by
        refine Fintype.sum_equiv ((Shape.rowMajor ⟨1, ![n]⟩).symm.trans idxEquiv1) _ _ (fun k => ?_)
        show _ = (if m ≤ (j 0).val + ((Shape.rowMajor ⟨1, ![n]⟩).symm k 0).val
          then ext0 x ((j 0).val + ((Shape.rowMajor ⟨1, ![n]⟩).symm k 0).val - m) else 0)
        have hw : ((Shape.rowMajor ⟨1, ![n]⟩).symm k 0).val < n := ((Shape.rowMajor ⟨1, ![n]⟩).symm k 0).isLt
        by_cases hc : m ≤ (j 0).val + ((Shape.rowMajor ⟨1, ![n]⟩).symm k 0).val
        · rw [if_pos hc, dif_pos]
          · unfold ext0
            rw [dif_pos (by omega)]
            congr 1
            funext a
            obtain rfl : a = 0 := Subsingleton.elim _ _
            apply Fin.ext
            simp
          · intro a
            obtain rfl : a = 0 := Subsingleton.elim _ _
            simp
            omega
        · rw [if_neg hc, dif_neg]
          · rfl
          · intro hin
            have h0 := (hin 0).1
            simp at h0
            omega
    _ = ∑ k ∈ Finset.range n, (if m ≤ (j 0).val + k then ext0 x ((j 0).val + k - m) else 0) :=
        Fin.sum_univ_eq_sum_range (fun k => if m ≤ (j 0).val + k then ext0 x ((j 0).val + k - m) else 0) n
    _ = ∑ i ∈ Finset.range n, (if i ≤ (j 0).val then ext0 x i else 0) := sum_window_eq_prefix hm _ _ hj
    _ = ∑ i : Fin n, (if i.val ≤ (j 0).val then ext0 x i.val else 0) :=
        (Fin.sum_univ_eq_sum_range (fun i => if i ≤ (j 0).val then ext0 x i else 0) n).symm
    _ = _ := by simp only [ext0_val]

/-- The sum of a 0/1 table over all positions counts the ones. -/
theorem reduce_total {n : Nat} (c : IVec ⟨1, ![n]⟩ 1) (init : (⟨0, ![]⟩ : Shape).Idx → BitVec 32)
    (hinit : ∀ i, init i = 0#32) (h132 : 1 < 32)
    (hred : (⟨1, ![n]⟩ : Shape).ReducesTo [0] ⟨0, ![]⟩) (hS : 0 < (⟨0, ![]⟩ : Shape).numel)
    (j : (⟨0, ![]⟩ : Shape).Idx) :
    Host.reduce IntOp.addi (extui 32 c h132) init hred hS j
      = BitVec.ofNat 32 (total (fun i : Fin n => c (ix1 i) = 1#1)) := by
  rw [Host.reduce_eq_fold, hinit]
  have hall : (Finset.univ.filter fun i => hred.drop i = j) = Finset.univ :=
    Finset.filter_true_of_mem fun i _ => funext fun a => a.elim0
  rw [hall]
  have h := IndicatorCount.fold_addi_setWidth_eq_card (w := 32) (fun i => c i)
    (Finset.univ : Finset (⟨1, ![n]⟩ : Shape).Idx)
  show Finset.fold IntOp.addi 0#32 (fun k => (c k).setWidth 32) Finset.univ = _
  rw [h]
  congr 1
  unfold total
  refine Finset.card_bij (fun k _ => idxEquiv1 k) ?_ ?_ ?_
  · intro k hk
    rw [Finset.mem_filter] at hk ⊢
    refine ⟨Finset.mem_univ _, ?_⟩
    exact (congrArg c (eq_ix1 k)).symm.trans hk.2
  · intro a _ b _ h; exact idxEquiv1.injective h
  · intro i hi
    rw [Finset.mem_filter] at hi
    exact ⟨ix1 i, Finset.mem_filter.2 ⟨Finset.mem_univ _, hi.2⟩, rfl⟩

/-! ## Words that count -/

theorem ofNat_sub_one {a : Nat} (h : 1 ≤ a) : BitVec.ofNat 32 a - 1#32 = BitVec.ofNat 32 (a - 1) := by
  apply BitVec.eq_of_toNat_eq
  rw [BitVec.toNat_sub, BitVec.toNat_ofNat, BitVec.toNat_ofNat, BitVec.toNat_ofNat]
  omega

theorem toInt_ofNat_small {a : Nat} (ha : a < 2 ^ 31) : (BitVec.ofNat 32 a).toInt = (a : Int) := by
  rw [BitVec.toInt_eq_toNat_of_lt (by rw [BitVec.toNat_ofNat]; omega), BitVec.toNat_ofNat]
  omega

theorem slt_ofNat_small {a b : Nat} (ha : a < 2 ^ 31) (hb : b < 2 ^ 31) :
    (BitVec.ofNat 32 a).slt (BitVec.ofNat 32 b) = decide (a < b) := by
  rw [BitVec.slt_eq_decide, toInt_ofNat_small ha, toInt_ofNat_small hb]
  simp

/-! ## Writing updates one after the other -/

/-- Updates written one after the other, each at the place `res` gives it (or nowhere): a place that some
    update writes, every update that writes it carrying the same value, holds that value at the end. -/
theorem foldl_write_hit {ι κ α : Type} (res : κ → Option ι) (upd : κ → α)
    (step : (ι → α) → κ → (ι → α))
    (hhit : ∀ r u' i', res u' = some i' → step r u' i' = upd u')
    (hmiss : ∀ r u' i' k, res u' = some i' → k ≠ i' → step r u' k = r k)
    (hnone : ∀ r u', res u' = none → step r u' = r)
    (l : List κ) (x : ι → α) (u : κ) (i : ι) (hu : u ∈ l) (hres : res u = some i)
    (hsame : ∀ u' ∈ l, res u' = some i → upd u' = upd u) :
    (l.foldl step x) i = upd u := by
  induction l using List.reverseRecOn with
  | nil => cases hu
  | append_singleton l a ih =>
    rw [List.foldl_append, List.foldl_cons, List.foldl_nil]
    cases hra : res a with
    | none =>
      rw [hnone _ _ hra]
      have hul : u ∈ l := by
        rcases List.mem_append.1 hu with h | h
        · exact h
        · rw [List.mem_singleton] at h; subst h; rw [hres] at hra; cases hra
      exact ih hul (fun u' hu' => hsame u' (List.mem_append_left _ hu'))
    | some i' =>
      by_cases hii : i = i'
      · subst hii
        rw [hhit _ _ _ hra]
        exact hsame a (List.mem_append_right _ (List.mem_singleton.2 rfl)) hra
      · rw [hmiss _ _ _ _ hra hii]
        have hul : u ∈ l := by
          rcases List.mem_append.1 hu with h | h
          · exact h
          · rw [List.mem_singleton] at h; subst h; rw [hres] at hra
            exact absurd (Option.some.inj hra) hii
        exact ih hul (fun u' hu' => hsame u' (List.mem_append_left _ hu'))

/-- A scatter that replaces (the body returns the update), rank-1 updates into a rank-1 operand, update `q`
    landing at `tgt q` with `tgt` one-to-one: the result at `tgt q` is update `q`. -/
theorem scatter_set_apply {n e w : Nat} {α : Type} (d : ScatterDims ⟨1, ![n]⟩ ⟨2, ![e, 1]⟩ ⟨1, ![e]⟩)
    (x : (⟨1, ![n]⟩ : Shape).Idx → α) (idx : IVec ⟨2, ![e, 1]⟩ w) (upd : (⟨1, ![e]⟩ : Shape).Idx → α)
    (tgt : Fin e → Fin n) (hinj : Function.Injective tgt)
    (hres : ∀ q : Fin e, d.resultIdx? (ix1 q) idx = some (ix1 (tgt q))) (q : Fin e) :
    Host.scatter d (fun _ b => b) x idx upd (ix1 (tgt q)) = upd (ix1 q) := by
  unfold Host.scatter
  refine (foldl_write_hit (fun k => d.resultIdx? ((Shape.rowMajor ⟨1, ![e]⟩).symm k) idx)
    (fun k => upd ((Shape.rowMajor ⟨1, ![e]⟩).symm k)) _ ?_ ?_ ?_ _ x ((Shape.rowMajor ⟨1, ![e]⟩) (ix1 q)) _
    (List.mem_finRange _) ?_ ?_).trans (congrArg upd (Equiv.symm_apply_apply _ _))
  · intro r u' i' h
    simp only [h, if_true]
  · intro r u' i' k h hk
    simp only [h, if_neg hk]
  · intro r u' h
    simp only [h]
  · show d.resultIdx? ((Shape.rowMajor ⟨1, ![e]⟩).symm ((Shape.rowMajor ⟨1, ![e]⟩) (ix1 q))) idx = _
    rw [Equiv.symm_apply_apply]
    exact hres q
  · intro u' _ hu'
    show upd ((Shape.rowMajor ⟨1, ![e]⟩).symm u') = upd ((Shape.rowMajor ⟨1, ![e]⟩).symm ((Shape.rowMajor ⟨1, ![e]⟩) (ix1 q)))
    rw [Equiv.symm_apply_apply]
    have hu'' : d.resultIdx? ((Shape.rowMajor ⟨1, ![e]⟩).symm u') idx = some (ix1 (tgt q)) := hu'
    obtain ⟨q', hq'⟩ : ∃ q' : Fin e, (Shape.rowMajor ⟨1, ![e]⟩).symm u' = ix1 q' := ⟨_, eq_ix1 _⟩
    rw [hq'] at hu'' ⊢
    rw [hres] at hu''
    have h1 : tgt q' = tgt q := congrFun (Option.some.inj hu'') 0
    rw [hinj h1]

/-! ## The programs' tables, read at a position -/

theorem ofFin_eq_ix1 {n : Nat} (k : Fin n) : Shape.Idx.ofFin k = ix1 k := by
  funext a
  obtain rfl : a = 0 := Subsingleton.elim _ _
  exact Fin.ext rfl

theorem keyN_lt {n : Nat} (P : Fin n → Prop) [DecidablePred P] (q : Fin n) : keyN P q < n + n := by
  have := q.isLt
  unfold keyN
  split_ifs <;> omega

/-- The sort key: the page number for a free page, the page number past the table's length for a used one. -/
theorem key_apply (hb : S_.BroadcastsInDim S65536 (![] : Fin 0 → Fin S65536.rank)) (c : IVec S65536 1) (q : Fin 65536) :
    select c (iotaInDim S65536 32 0)
        (addi (broadcastInDim S65536 ![] hb (constantI S_ 32 65536#32)) (iotaInDim S65536 32 0)) (ix1 q)
      = BitVec.ofNat 32 (keyN (fun i : Fin 65536 => c (ix1 i) = 1#1) q) := by
  show Scalar.select (c (ix1 q)) (BitVec.ofNat 32 q.val) (IntOp.addi 65536#32 (BitVec.ofNat 32 q.val)) = _
  unfold keyN
  by_cases h : c (ix1 q) = 1#1
  · rw [if_pos h, h, select_one]
  · rw [if_neg h, eq_zero_of_ne_one h, select_zero]
    unfold IntOp.addi
    rw [BitVec.ofNat_add_ofNat]

/-- The place the partition gives page `q`: among the free pages its number of free predecessors, among the
    used ones the number of free pages plus its number of used predecessors; no word overflows. -/
theorem pos_apply (hb : S_.BroadcastsInDim S65536 (![] : Fin 0 → Fin S65536.rank))
    (hb0 : S_.BroadcastsInDim S_ (![] : Fin 0 → Fin S_.rank)) (hS : 0 < S_.numel)
    (hred : S65536.ReducesTo [0] S_)
    (hrw : S65536.ReduceWindows (![65536] : Fin 1 → Nat) ![1] ![65535] ![0] S65536) (h132 : 1 < 32)
    (c : IVec S65536 1) (q : Fin 65536) :
    select c
        (subi
          (Host.reduceWindow IntOp.addi ![65536] ![1] ![65535] ![0] (extui 32 c h132)
            (broadcastInDim S_ ![] hb0 (constantI S_ 32 0#32)) hrw hS)
          (broadcastInDim S65536 ![] hb (constantI S_ 32 1#32)))
        (addi
          (broadcastInDim S65536 ![] hb
            (Host.reduce IntOp.addi (extui 32 c h132) (constantI S_ 32 0#32) hred hS))
          (subi
            (Host.reduceWindow IntOp.addi ![65536] ![1] ![65535] ![0]
              (subi (broadcastInDim S65536 ![] hb (constantI S_ 32 1#32)) (extui 32 c h132))
              (broadcastInDim S_ ![] hb0 (constantI S_ 32 0#32)) hrw hS)
            (broadcastInDim S65536 ![] hb (constantI S_ 32 1#32)))) (ix1 q)
      = BitVec.ofNat 32 (rank (fun i : Fin 65536 => c (ix1 i) = 1#1) q) := by
  have hc1 : Host.reduceWindow IntOp.addi ![65536] ![1] ![65535] ![0] (extui 32 c h132)
      (broadcastInDim S_ ![] hb0 (constantI S_ 32 0#32)) hrw hS (ix1 q)
      = BitVec.ofNat 32 (upto (fun i : Fin 65536 => c (ix1 i) = 1#1) q) := by
    exact (reduceWindow_prefix (n := 65536) (m := 65535) (by norm_num) (extui 32 c h132)
      (broadcastInDim S_ ![] hb0 (constantI S_ 32 0#32)) (fun _ => rfl) hrw hS (ix1 q)).trans
      (sum_prefix_indicator (fun i => c (ix1 i)) q)
  have hc2 : Host.reduceWindow IntOp.addi ![65536] ![1] ![65535] ![0]
      (subi (broadcastInDim S65536 ![] hb (constantI S_ 32 1#32)) (extui 32 c h132))
      (broadcastInDim S_ ![] hb0 (constantI S_ 32 0#32)) hrw hS (ix1 q)
      = BitVec.ofNat 32 (upto (fun i : Fin 65536 => ¬ c (ix1 i) = 1#1) q) := by
    exact (reduceWindow_prefix (n := 65536) (m := 65535) (by norm_num)
      (subi (broadcastInDim S65536 ![] hb (constantI S_ 32 1#32)) (extui 32 c h132))
      (broadcastInDim S_ ![] hb0 (constantI S_ 32 0#32)) (fun _ => rfl) hrw hS (ix1 q)).trans
      (sum_prefix_coindicator (fun i => c (ix1 i)) q)
  have hnf : ∀ j, Host.reduce IntOp.addi (extui 32 c h132) (constantI S_ 32 0#32) hred hS j
      = BitVec.ofNat 32 (total (fun i : Fin 65536 => c (ix1 i) = 1#1)) :=
    fun j => reduce_total c (constantI S_ 32 0#32) (fun _ => rfl) h132 hred hS j
  show Scalar.select (c (ix1 q))
      (IntOp.subi (Host.reduceWindow IntOp.addi ![65536] ![1] ![65535] ![0] (extui 32 c h132)
        (broadcastInDim S_ ![] hb0 (constantI S_ 32 0#32)) hrw hS (ix1 q)) 1#32)
      (IntOp.addi (Host.reduce IntOp.addi (extui 32 c h132) (constantI S_ 32 0#32) hred hS _)
        (IntOp.subi (Host.reduceWindow IntOp.addi ![65536] ![1] ![65535] ![0]
          (subi (broadcastInDim S65536 ![] hb (constantI S_ 32 1#32)) (extui 32 c h132))
          (broadcastInDim S_ ![] hb0 (constantI S_ 32 0#32)) hrw hS (ix1 q)) 1#32)) = _
  rw [hc1, hc2, hnf]
  unfold rank
  by_cases h : c (ix1 q) = 1#1
  · rw [if_pos h, h, select_one]
    unfold IntOp.subi
    exact ofNat_sub_one (upto_pos _ h)
  · rw [if_neg h, eq_zero_of_ne_one h, select_zero]
    unfold IntOp.addi IntOp.subi
    rw [ofNat_sub_one (upto_pos (fun i : Fin 65536 => ¬ c (ix1 i) = 1#1) (q := q) h), BitVec.ofNat_add_ofNat]

/-- The wrap of a negative index does nothing to a place: a place is not negative. -/
theorem wrap_apply (hb : S_.BroadcastsInDim S65536 (![] : Fin 0 → Fin S65536.rank)) (v : IVec S65536 32)
    (i : S65536.Idx) (r : Nat) (hr : r < 2 ^ 31) (hv : v i = BitVec.ofNat 32 r) :
    select (cmpi .slt v (broadcastInDim S65536 ![] hb (constantI S_ 32 0#32)))
        (addi v (broadcastInDim S65536 ![] hb (constantI S_ 32 65536#32))) v i = BitVec.ofNat 32 r := by
  show Scalar.select (IntOp.cmpi .slt (v i) 0#32) (IntOp.addi (v i) 65536#32) (v i) = _
  rw [hv]
  have h0 : IntOp.cmpi .slt (BitVec.ofNat 32 r) 0#32 = 0#1 := by
    show BitVec.ofBool ((BitVec.ofNat 32 r).slt (BitVec.ofNat 32 0)) = 0#1
    rw [slt_ofNat_small hr (by norm_num)]
    simp
  rw [h0, select_zero]

/-- The index column reads the index table. -/
theorem col_apply (hb1 : S65536.BroadcastsInDim S65536x1 (![0] : Fin 1 → Fin S65536x1.rank)) {w : Nat}
    (v : IVec S65536 w) (q : Fin 65536) :
    broadcastInDim S65536x1 ![0] hb1 v (ix2 q (0 : Fin 1)) = v (ix1 q) := by
  unfold broadcastInDim
  congr 1
  funext a
  obtain rfl : a = 0 := Subsingleton.elim _ _
  have h1 : ¬ (S65536.size 0 = 1) := by decide
  rw [dif_neg h1]
  rfl

/-! ## The argsort of the free-list key is the partition by cumulative sums, scattered -/

/-- The stable argsort of the key "page number if free, page number past the table's length if used" lists the
    free pages in increasing order and then the used ones. The other program computes, for each page, its place
    in that listing — for a free page the number of free pages before it, for a used one the number of free pages
    plus the number of used pages before it, both read off cumulative sums of the 0/1 table of free pages — and
    scatters the page numbers to their places. The keys are pairwise distinct, so the sort's entry at a place is
    the one page whose key has that many smaller keys; the places are a one-to-one map of the pages onto the
    places, no word overflows and no place is negative, so each place is written exactly once, with that page. -/
theorem argsort_eq_partition
    (cmp : BitVec 32 × BitVec 32 → BitVec 32 × BitVec 32 → BitVec 1)
    (hcmp : ∀ l r, cmp l r = IntOp.cmpi .slt l.1 r.1)
    (hb : S_.BroadcastsInDim S65536 (![] : Fin 0 → Fin S65536.rank))
    (hb0 : S_.BroadcastsInDim S_ (![] : Fin 0 → Fin S_.rank))
    (hb1 : S65536.BroadcastsInDim S65536x1 (![0] : Fin 1 → Fin S65536x1.rank))
    (hS : 0 < S_.numel)
    (hred : S65536.ReducesTo [0] S_)
    (hrw : S65536.ReduceWindows (![65536] : Fin 1 → Nat) ![1] ![65535] ![0] S65536)
    (h132 : 1 < 32)
    (hwf : ScatterDims.WF S65536 S65536x1 S65536 [] [0] [0] 1)
    (p : IVec S65536 32) :
    (Host.sort2 S65536 0 cmp
        (select (cmpi .eq p (broadcastInDim S65536 ![] hb (constantI S_ 32 0#32))) (iotaInDim S65536 32 0)
          (addi (broadcastInDim S65536 ![] hb (constantI S_ 32 65536#32)) (iotaInDim S65536 32 0)))
        (iotaInDim S65536 32 0)).2
      = Host.scatter
          ({ updateWindowDims := [], insertedWindowDims := [0], scatterDimsToOperandDims := [0],
             indexVectorDim := 1, wf := hwf } : ScatterDims S65536 S65536x1 S65536)
          (fun _ b => b)
          (broadcastInDim S65536 ![] hb (constantI S_ 32 0#32))
          (broadcastInDim S65536x1 ![0] hb1
            (select
              (cmpi .slt
                (select (cmpi .eq p (broadcastInDim S65536 ![] hb (constantI S_ 32 0#32)))
                  (subi
                    (Host.reduceWindow IntOp.addi ![65536] ![1] ![65535] ![0]
                      (extui 32 (cmpi .eq p (broadcastInDim S65536 ![] hb (constantI S_ 32 0#32))) h132)
                      (broadcastInDim S_ ![] hb0 (constantI S_ 32 0#32)) hrw hS)
                    (broadcastInDim S65536 ![] hb (constantI S_ 32 1#32)))
                  (addi
                    (broadcastInDim S65536 ![] hb
                      (Host.reduce IntOp.addi
                        (extui 32 (cmpi .eq p (broadcastInDim S65536 ![] hb (constantI S_ 32 0#32))) h132)
                        (constantI S_ 32 0#32) hred hS))
                    (subi
                      (Host.reduceWindow IntOp.addi ![65536] ![1] ![65535] ![0]
                        (subi (broadcastInDim S65536 ![] hb (constantI S_ 32 1#32))
                          (extui 32 (cmpi .eq p (broadcastInDim S65536 ![] hb (constantI S_ 32 0#32))) h132))
                        (broadcastInDim S_ ![] hb0 (constantI S_ 32 0#32)) hrw hS)
                      (broadcastInDim S65536 ![] hb (constantI S_ 32 1#32)))))
                (broadcastInDim S65536 ![] hb (constantI S_ 32 0#32)))
              (addi
                (select (cmpi .eq p (broadcastInDim S65536 ![] hb (constantI S_ 32 0#32)))
                  (subi
                    (Host.reduceWindow IntOp.addi ![65536] ![1] ![65535] ![0]
                      (extui 32 (cmpi .eq p (broadcastInDim S65536 ![] hb (constantI S_ 32 0#32))) h132)
                      (broadcastInDim S_ ![] hb0 (constantI S_ 32 0#32)) hrw hS)
                    (broadcastInDim S65536 ![] hb (constantI S_ 32 1#32)))
                  (addi
                    (broadcastInDim S65536 ![] hb
                      (Host.reduce IntOp.addi
                        (extui 32 (cmpi .eq p (broadcastInDim S65536 ![] hb (constantI S_ 32 0#32))) h132)
                        (constantI S_ 32 0#32) hred hS))
                    (subi
                      (Host.reduceWindow IntOp.addi ![65536] ![1] ![65535] ![0]
                        (subi (broadcastInDim S65536 ![] hb (constantI S_ 32 1#32))
                          (extui 32 (cmpi .eq p (broadcastInDim S65536 ![] hb (constantI S_ 32 0#32))) h132))
                        (broadcastInDim S_ ![] hb0 (constantI S_ 32 0#32)) hrw hS)
                      (broadcastInDim S65536 ![] hb (constantI S_ 32 1#32)))))
                (broadcastInDim S65536 ![] hb (constantI S_ 32 65536#32)))
              (select (cmpi .eq p (broadcastInDim S65536 ![] hb (constantI S_ 32 0#32)))
                (subi
                  (Host.reduceWindow IntOp.addi ![65536] ![1] ![65535] ![0]
                    (extui 32 (cmpi .eq p (broadcastInDim S65536 ![] hb (constantI S_ 32 0#32))) h132)
                    (broadcastInDim S_ ![] hb0 (constantI S_ 32 0#32)) hrw hS)
                  (broadcastInDim S65536 ![] hb (constantI S_ 32 1#32)))
                (addi
                  (broadcastInDim S65536 ![] hb
                    (Host.reduce IntOp.addi
                      (extui 32 (cmpi .eq p (broadcastInDim S65536 ![] hb (constantI S_ 32 0#32))) h132)
                      (constantI S_ 32 0#32) hred hS))
                  (subi
                    (Host.reduceWindow IntOp.addi ![65536] ![1] ![65535] ![0]
                      (subi (broadcastInDim S65536 ![] hb (constantI S_ 32 1#32))
                        (extui 32 (cmpi .eq p (broadcastInDim S65536 ![] hb (constantI S_ 32 0#32))) h132))
                      (broadcastInDim S_ ![] hb0 (constantI S_ 32 0#32)) hrw hS)
                    (broadcastInDim S65536 ![] hb (constantI S_ 32 1#32)))))))
          (iotaInDim S65536 32 0) := by
  generalize cmpi .eq p (broadcastInDim S65536 ![] hb (constantI S_ 32 0#32)) = c
  funext j
  rw [sort2_snd_rank1, sortedFrom_eq_perm _ (place (fun i : Fin 65536 => c (ix1 i) = 1#1))]
  · have hj : j = ix1 (rankFin (fun i : Fin 65536 => c (ix1 i) = 1#1)
        (place (fun i : Fin 65536 => c (ix1 i) = 1#1) (j 0))) :=
      (eq_ix1 j).trans (congrArg ix1 (rankFin_place _ (j 0)).symm)
    rw [ofFin_eq_ix1]
    conv_rhs => rw [hj]
    refine (scatter_set_apply _ _ _ _ (rankFin (fun i : Fin 65536 => c (ix1 i) = 1#1))
      (rankFin_injective _) ?_ (place (fun i : Fin 65536 => c (ix1 i) = 1#1) (j 0))).symm
    intro q
    rw [Cert.Gcn.IndexMaps.scatter1_resultIdx_iff _ rfl rfl rfl rfl]
    show BitVec.toInt (broadcastInDim (s := S65536) S65536x1 ![0] hb1 _ (ix2 q (0 : Fin 1)))
      = ((rank (fun i : Fin 65536 => c (ix1 i) = 1#1) q : ℕ) : Int)
    have hr := rank_lt (fun i : Fin 65536 => c (ix1 i) = 1#1) q
    rw [col_apply, wrap_apply hb _ _ (rank (fun i : Fin 65536 => c (ix1 i) = 1#1) q) (by omega)
      (pos_apply hb hb0 hS hred hrw h132 c q), toInt_ofNat_small (by omega)]
  · intro k k' hne
    rw [hcmp]
    dsimp only
    rw [ofFin_eq_ix1, ofFin_eq_ix1, key_apply, key_apply]
    have hk := keyN_lt (fun i : Fin 65536 => c (ix1 i) = 1#1) k
    have hk' := keyN_lt (fun i : Fin 65536 => c (ix1 i) = 1#1) k'
    show (BitVec.ofBool ((BitVec.ofNat 32 _).slt (BitVec.ofNat 32 _)) == 1#1) = _
    rw [slt_ofNat_small (by omega) (by omega)]
    have hbool : ∀ b : Bool, (BitVec.ofBool b == 1#1) = b := by decide
    rw [hbool]
    exact decide_eq_decide.2 (keyN_lt_iff_rank_lt _ hne)

end Cert.SortPartition
-- ==== Proof.Bridge.S1.lean ====
/- The free list (stage 1). The kernel side partitions the pages by cumulative sums and scatters the page numbers
   to their places; the reference argsorts the key "page number if free, page number plus the table's length if
   used". Equal reference counts at the stretch's entry give equal free lists: the argsort of pairwise distinct keys
   is that partition followed by that scatter. -/
import proofs.«408099_j23811298689264_3_alg».proof.Proof.Bridge.SplitK
import proofs.«408099_j23811298689264_3_alg».proof.Proof.Bridge.SplitR
import proofs.«408099_j23811298689264_3_alg».proof.Proof.SortPartition
import Idealize.ShloMosaic.PureOps.Ideal

set_option maxRecDepth 8192

noncomputable section

namespace Cert.Bridge

open Idealize.ShloMosaic Idealize.ShloMosaic.TcCoe Idealize.SL.Sem Idealize.ShloMosaic.StableHlo

set_option maxHeartbeats 4000000 in
theorem s1_v98
    (W : Valuation Cert.KernelIdeal.τ Cert.KernelIdeal.sig (Elt Ideal))
    (W' : Valuation Cert.ReferenceIdeal.τ Cert.ReferenceIdeal.sig (Elt Ideal))
    (ha3 : W (Proc.devRef .tc Cert.KernelIdeal.main_arg3) = W' (Proc.devRef .tc Cert.ReferenceIdeal.main_arg3)) :
    StableHlo.after (kS1 (F := Ideal)) W (Proc.devRef .tc Cert.KernelIdeal.main_v98)
      = StableHlo.after (rS1 (F := Ideal)) W' (Proc.devRef .tc Cert.ReferenceIdeal.main_v79) := by
  after_results_simp
  rw [ha3]
  simp only [TRef.ofBuf, TRef.toBuf, cast_eq]
  exact (Cert.SortPartition.argsort_eq_partition _ (fun _ _ => rfl) _ _ _ _ _ _ _ _ _).symm

end Cert.Bridge

end
-- ==== Proof.Bridge.Keep.lean ====
import proofs.«408099_j23811298689264_3_alg».proof.Proof.Bridge.SplitK
import proofs.«408099_j23811298689264_3_alg».proof.Proof.Bridge.SplitR
import Idealize.ShloMosaic.PureOps.Ideal

/-!
  What each of the first three stretches leaves alone, on either side: the arguments, the tokens, the rank row's
  words, and the values of an earlier stretch that a later one reads. No operation of the stretch writes the buffer, so
  reading it after the stretch, operation by operation, ends at its entry contents.
-/

set_option maxRecDepth 8192
set_option maxHeartbeats 8000000

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- The first stretch of the kernel side writes neither the arguments read later nor the tokens. -/
theorem s0_keepK (W : KV) :
    StableHlo.after (kS0 (F := Ideal)) W k[Cert.KernelIdeal.main_arg1] = W k[Cert.KernelIdeal.main_arg1]
    ∧ StableHlo.after (kS0 (F := Ideal)) W k[Cert.KernelIdeal.main_arg2] = W k[Cert.KernelIdeal.main_arg2]
    ∧ StableHlo.after (kS0 (F := Ideal)) W k[Cert.KernelIdeal.main_arg3] = W k[Cert.KernelIdeal.main_arg3]
    ∧ StableHlo.after (kS0 (F := Ideal)) W k[Cert.KernelIdeal.main_v2] = W k[Cert.KernelIdeal.main_v2] := by
  refine ⟨?_, ?_, ?_, ?_⟩ <;> after_results_simp

/-- The first stretch of the reference writes none of the arguments read later. -/
theorem s0_keepR (W' : RV) :
    StableHlo.after (rS0 (F := Ideal)) W' r[Cert.ReferenceIdeal.main_arg1] = W' r[Cert.ReferenceIdeal.main_arg1]
    ∧ StableHlo.after (rS0 (F := Ideal)) W' r[Cert.ReferenceIdeal.main_arg2] = W' r[Cert.ReferenceIdeal.main_arg2]
    ∧ StableHlo.after (rS0 (F := Ideal)) W' r[Cert.ReferenceIdeal.main_arg3] = W' r[Cert.ReferenceIdeal.main_arg3] := by
  refine ⟨?_, ?_, ?_⟩ <;> after_results_simp

/-- The second stretch of the kernel side writes neither the arguments, nor the tokens, nor the rank words. -/
theorem s1_keepK (W : KV) :
    StableHlo.after (kS1 (F := Ideal)) W k[Cert.KernelIdeal.main_arg1] = W k[Cert.KernelIdeal.main_arg1]
    ∧ StableHlo.after (kS1 (F := Ideal)) W k[Cert.KernelIdeal.main_arg2] = W k[Cert.KernelIdeal.main_arg2]
    ∧ StableHlo.after (kS1 (F := Ideal)) W k[Cert.KernelIdeal.main_arg3] = W k[Cert.KernelIdeal.main_arg3]
    ∧ StableHlo.after (kS1 (F := Ideal)) W k[Cert.KernelIdeal.main_v2] = W k[Cert.KernelIdeal.main_v2]
    ∧ StableHlo.after (kS1 (F := Ideal)) W k[Cert.KernelIdeal.main_v10] = W k[Cert.KernelIdeal.main_v10] := by
  refine ⟨?_, ?_, ?_, ?_, ?_⟩ <;> after_results_simp

/-- The second stretch of the reference writes neither the arguments, nor the constant -1, nor the tokens. -/
theorem s1_keepR (W' : RV) :
    StableHlo.after (rS1 (F := Ideal)) W' r[Cert.ReferenceIdeal.main_arg1] = W' r[Cert.ReferenceIdeal.main_arg1]
    ∧ StableHlo.after (rS1 (F := Ideal)) W' r[Cert.ReferenceIdeal.main_arg2] = W' r[Cert.ReferenceIdeal.main_arg2]
    ∧ StableHlo.after (rS1 (F := Ideal)) W' r[Cert.ReferenceIdeal.main_arg3] = W' r[Cert.ReferenceIdeal.main_arg3]
    ∧ StableHlo.after (rS1 (F := Ideal)) W' r[Cert.ReferenceIdeal.main_c] = W' r[Cert.ReferenceIdeal.main_c]
    ∧ StableHlo.after (rS1 (F := Ideal)) W' r[Cert.ReferenceIdeal.main_v2] = W' r[Cert.ReferenceIdeal.main_v2] := by
  refine ⟨?_, ?_, ?_, ?_, ?_⟩ <;> after_results_simp

/-- The third stretch of the kernel side writes neither the arguments read later, nor the tokens, nor the rank words, nor
    the second stretch's updated_seqs, safe_upd and new_counts. -/
theorem s2_keepK (W : KV) :
    StableHlo.after (kS2 (F := Ideal)) W k[Cert.KernelIdeal.main_arg1] = W k[Cert.KernelIdeal.main_arg1]
    ∧ StableHlo.after (kS2 (F := Ideal)) W k[Cert.KernelIdeal.main_arg3] = W k[Cert.KernelIdeal.main_arg3]
    ∧ StableHlo.after (kS2 (F := Ideal)) W k[Cert.KernelIdeal.main_v2] = W k[Cert.KernelIdeal.main_v2]
    ∧ StableHlo.after (kS2 (F := Ideal)) W k[Cert.KernelIdeal.main_v10] = W k[Cert.KernelIdeal.main_v10]
    ∧ StableHlo.after (kS2 (F := Ideal)) W k[Cert.KernelIdeal.main_v22] = W k[Cert.KernelIdeal.main_v22]
    ∧ StableHlo.after (kS2 (F := Ideal)) W k[Cert.KernelIdeal.main_v28] = W k[Cert.KernelIdeal.main_v28]
    ∧ StableHlo.after (kS2 (F := Ideal)) W k[Cert.KernelIdeal.main_v36] = W k[Cert.KernelIdeal.main_v36] := by
  refine ⟨?_, ?_, ?_, ?_, ?_, ?_, ?_⟩ <;> after_results_simp

/-- The third stretch of the reference writes neither the arguments read later, nor the constant -1, nor the tokens, nor
    the second stretch's updated_seqs, safe_upd and new_counts. -/
theorem s2_keepR (W' : RV) :
    StableHlo.after (rS2 (F := Ideal)) W' r[Cert.ReferenceIdeal.main_arg1] = W' r[Cert.ReferenceIdeal.main_arg1]
    ∧ StableHlo.after (rS2 (F := Ideal)) W' r[Cert.ReferenceIdeal.main_arg3] = W' r[Cert.ReferenceIdeal.main_arg3]
    ∧ StableHlo.after (rS2 (F := Ideal)) W' r[Cert.ReferenceIdeal.main_c] = W' r[Cert.ReferenceIdeal.main_c]
    ∧ StableHlo.after (rS2 (F := Ideal)) W' r[Cert.ReferenceIdeal.main_v2] = W' r[Cert.ReferenceIdeal.main_v2]
    ∧ StableHlo.after (rS2 (F := Ideal)) W' r[Cert.ReferenceIdeal.main_v20] = W' r[Cert.ReferenceIdeal.main_v20]
    ∧ StableHlo.after (rS2 (F := Ideal)) W' r[Cert.ReferenceIdeal.main_v26] = W' r[Cert.ReferenceIdeal.main_v26]
    ∧ StableHlo.after (rS2 (F := Ideal)) W' r[Cert.ReferenceIdeal.main_v34] = W' r[Cert.ReferenceIdeal.main_v34] := by
  refine ⟨?_, ?_, ?_, ?_, ?_, ?_, ?_⟩ <;> after_results_simp

end Cert.Bridge

end
-- ==== Proof.Bridge.SKeep.lean ====
/- Values a later stretch leaves alone: no operation of the stretch writes the buffer, so the value after the stretch
   is the value at its entry. The new page table and the new lengths across the last stretch, the new lengths across
   the one before it, on both programs. -/
import proofs.«408099_j23811298689264_3_alg».proof.Proof.Bridge.SplitK
import proofs.«408099_j23811298689264_3_alg».proof.Proof.Bridge.SplitR
import Idealize.ShloMosaic.PureOps.Ideal

set_option maxRecDepth 8192

noncomputable section

namespace Cert.Bridge

open Idealize.ShloMosaic Idealize.ShloMosaic.TcCoe Idealize.SL.Sem Idealize.ShloMosaic.StableHlo

set_option maxHeartbeats 4000000 in
theorem s3_keep_v144 (W : Valuation Cert.KernelIdeal.τ Cert.KernelIdeal.sig (Elt Ideal)) :
    StableHlo.after (kS3 (F := Ideal)) W (Proc.devRef .tc Cert.KernelIdeal.main_v144)
      = W (Proc.devRef .tc Cert.KernelIdeal.main_v144) := by
  after_results_simp

set_option maxHeartbeats 4000000 in
theorem s3_keep_r125 (W' : Valuation Cert.ReferenceIdeal.τ Cert.ReferenceIdeal.sig (Elt Ideal)) :
    StableHlo.after (rS3 (F := Ideal)) W' (Proc.devRef .tc Cert.ReferenceIdeal.main_v125)
      = W' (Proc.devRef .tc Cert.ReferenceIdeal.main_v125) := by
  after_results_simp

set_option maxHeartbeats 4000000 in
theorem s3_keep_v44 (W : Valuation Cert.KernelIdeal.τ Cert.KernelIdeal.sig (Elt Ideal)) :
    StableHlo.after (kS3 (F := Ideal)) W (Proc.devRef .tc Cert.KernelIdeal.main_v44)
      = W (Proc.devRef .tc Cert.KernelIdeal.main_v44) := by
  after_results_simp

set_option maxHeartbeats 4000000 in
theorem s3_keep_r42 (W' : Valuation Cert.ReferenceIdeal.τ Cert.ReferenceIdeal.sig (Elt Ideal)) :
    StableHlo.after (rS3 (F := Ideal)) W' (Proc.devRef .tc Cert.ReferenceIdeal.main_v42)
      = W' (Proc.devRef .tc Cert.ReferenceIdeal.main_v42) := by
  after_results_simp

set_option maxHeartbeats 4000000 in
theorem s2_keep_v44 (W : Valuation Cert.KernelIdeal.τ Cert.KernelIdeal.sig (Elt Ideal)) :
    StableHlo.after (kS2 (F := Ideal)) W (Proc.devRef .tc Cert.KernelIdeal.main_v44)
      = W (Proc.devRef .tc Cert.KernelIdeal.main_v44) := by
  after_results_simp

set_option maxHeartbeats 4000000 in
theorem s2_keep_r42 (W' : Valuation Cert.ReferenceIdeal.τ Cert.ReferenceIdeal.sig (Elt Ideal)) :
    StableHlo.after (rS2 (F := Ideal)) W' (Proc.devRef .tc Cert.ReferenceIdeal.main_v42)
      = W' (Proc.devRef .tc Cert.ReferenceIdeal.main_v42) := by
  after_results_simp

end Cert.Bridge

end
-- ==== Proof.Bridge.Stage2A.lean ====
import proofs.«408099_j23811298689264_3_alg».proof.Proof.Bridge.SplitK
import proofs.«408099_j23811298689264_3_alg».proof.Proof.Bridge.SplitR
import Idealize.ShloMosaic.PureOps.Ideal

/-!
  The third stretch, first part: from equal in-range masks, old and new page counts, offsets and free lists, the two
  programs compute equal allocation masks (alloc_mask) and equal newly allocated pages (pages_new).

  Both sides are read down to the stretch's entry contents, operation by operation; the entry contents are replaced by
  the hypotheses; what is left on the two sides is the same composition of the same operations.
-/

set_option maxRecDepth 8192
set_option maxHeartbeats 8000000

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- alloc_mask: in range, and the column at or past the old page count and before the new one. -/
theorem s2_v112 (W : KV) (W' : RV) (h27 : W k[Cert.KernelIdeal.main_v27] = W' r[Cert.ReferenceIdeal.main_v25]) (h61 : W k[Cert.KernelIdeal.main_v61] = W' r[Cert.ReferenceIdeal.main_v59])
    (h68 : W k[Cert.KernelIdeal.main_v68] = W' r[Cert.ReferenceIdeal.main_v66]) :
    StableHlo.after (kS2 (F := Ideal)) W k[Cert.KernelIdeal.main_v112] = StableHlo.after (rS2 (F := Ideal)) W' r[Cert.ReferenceIdeal.main_v93] := by
  after_results_simp
  rw [h27, h61, h68] <;> rfl

/-- pages_new: the free list gathered at offset + column - old page count where allocated, at 0 elsewhere. -/
theorem s2_v127 (W : KV) (W' : RV) (h27 : W k[Cert.KernelIdeal.main_v27] = W' r[Cert.ReferenceIdeal.main_v25]) (h61 : W k[Cert.KernelIdeal.main_v61] = W' r[Cert.ReferenceIdeal.main_v59])
    (h68 : W k[Cert.KernelIdeal.main_v68] = W' r[Cert.ReferenceIdeal.main_v66]) (h74 : W k[Cert.KernelIdeal.main_v74] = W' r[Cert.ReferenceIdeal.main_v72]) (h98 : W k[Cert.KernelIdeal.main_v98] = W' r[Cert.ReferenceIdeal.main_v79]) :
    StableHlo.after (kS2 (F := Ideal)) W k[Cert.KernelIdeal.main_v127] = StableHlo.after (rS2 (F := Ideal)) W' r[Cert.ReferenceIdeal.main_v108] := by
  after_results_simp
  rw [h27, h61, h68, h74, h98] <;> rfl

end Cert.Bridge

end
-- ==== Proof.Bridge.S2V144.lean ====
/- The new page table (stage 2). Both programs scatter the newly allocated pages into the entry page table at
   (sequence, page slot), the positions where the allocation mask is clear sent out of range; the pages are read from
   the free list at the flat allocation position. Equal ingredients of the mask, equal free lists and equal entry page
   tables give equal results, operation for operation. -/
import proofs.«408099_j23811298689264_3_alg».proof.Proof.Bridge.SplitK
import proofs.«408099_j23811298689264_3_alg».proof.Proof.Bridge.SplitR
import Idealize.ShloMosaic.PureOps.Ideal

set_option maxRecDepth 8192
set_option maxHeartbeats 8000000

noncomputable section

namespace Cert.Bridge

open Idealize.ShloMosaic Idealize.ShloMosaic.TcCoe Idealize.SL.Sem Idealize.ShloMosaic.StableHlo

/-- A concatenation of two operands with the operands as plain arguments: read under the list of shape-and-operand
    pairs, an operand cannot be rewritten in place (the pair's second component is typed by its first). -/
def concat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

theorem concatenate_pair {α : Type} (t : Shape) (a : Fin t.rank) (s1 s2 : Shape) (x : s1.Idx → α) (y : s2.Idx → α)
    (h : Shape.Concatenates [s1, s2] t a) :
    concatenate t a [⟨s1, x⟩, ⟨s2, y⟩] h = concat2 t a s1 s2 x y h := rfl

theorem s2_v144
    (W : Valuation Cert.KernelIdeal.τ Cert.KernelIdeal.sig (Elt Ideal))
    (W' : Valuation Cert.ReferenceIdeal.τ Cert.ReferenceIdeal.sig (Elt Ideal))
    (h27 : W (Proc.devRef .tc Cert.KernelIdeal.main_v27) = W' (Proc.devRef .tc Cert.ReferenceIdeal.main_v25))
    (h61 : W (Proc.devRef .tc Cert.KernelIdeal.main_v61) = W' (Proc.devRef .tc Cert.ReferenceIdeal.main_v59))
    (h68 : W (Proc.devRef .tc Cert.KernelIdeal.main_v68) = W' (Proc.devRef .tc Cert.ReferenceIdeal.main_v66))
    (h74 : W (Proc.devRef .tc Cert.KernelIdeal.main_v74) = W' (Proc.devRef .tc Cert.ReferenceIdeal.main_v72))
    (h98 : W (Proc.devRef .tc Cert.KernelIdeal.main_v98) = W' (Proc.devRef .tc Cert.ReferenceIdeal.main_v79))
    (h28 : W (Proc.devRef .tc Cert.KernelIdeal.main_v28) = W' (Proc.devRef .tc Cert.ReferenceIdeal.main_v26))
    (ha2 : W (Proc.devRef .tc Cert.KernelIdeal.main_arg2) = W' (Proc.devRef .tc Cert.ReferenceIdeal.main_arg2)) :
    StableHlo.after (kS2 (F := Ideal)) W (Proc.devRef .tc Cert.KernelIdeal.main_v144)
      = StableHlo.after (rS2 (F := Ideal)) W' (Proc.devRef .tc Cert.ReferenceIdeal.main_v125) := by
  simp (disch := decide) only [after_cons, after_nil, concatenate_pair,
      nullary_result', unary_result', binary_result', ternary_result', quaternary_result', reshape_result',
      nary4_result', nary_result', unaryIndexed_result', binaryIndexed_result',
      nullary_result_ne', unary_result_ne', binary_result_ne', ternary_result_ne', quaternary_result_ne',
      reshape_result_ne', nary_result_ne', unaryIndexed_result_ne', binaryIndexed_result_ne']
  rw [h27, h61, h68, h74, h98, h28, ha2]
  rfl

end Cert.Bridge

end
-- ==== Proof.Bridge.SResult1.lean ====
/- The new reference counts (the second result). Both programs add one, by an accumulating scatter into the entry
   reference counts, at every newly allocated page: the page where the allocation mask is set, the table's length
   (out of range, dropped) elsewhere, a negative index moved up by the table's length. Equal masks, equal new pages
   and equal reference counts at the stretch's entry give equal results, operation for operation. -/
import proofs.«408099_j23811298689264_3_alg».proof.Proof.Bridge.SplitK
import proofs.«408099_j23811298689264_3_alg».proof.Proof.Bridge.SplitR
import Idealize.ShloMosaic.PureOps.Ideal

set_option maxRecDepth 8192

noncomputable section

namespace Cert.Bridge

open Idealize.ShloMosaic Idealize.ShloMosaic.TcCoe Idealize.SL.Sem Idealize.ShloMosaic.StableHlo

set_option maxHeartbeats 4000000 in
theorem result1
    (W : Valuation Cert.KernelIdeal.τ Cert.KernelIdeal.sig (Elt Ideal))
    (W' : Valuation Cert.ReferenceIdeal.τ Cert.ReferenceIdeal.sig (Elt Ideal))
    (h112 : W (Proc.devRef .tc Cert.KernelIdeal.main_v112) = W' (Proc.devRef .tc Cert.ReferenceIdeal.main_v93))
    (h127 : W (Proc.devRef .tc Cert.KernelIdeal.main_v127) = W' (Proc.devRef .tc Cert.ReferenceIdeal.main_v108))
    (ha3 : W (Proc.devRef .tc Cert.KernelIdeal.main_arg3) = W' (Proc.devRef .tc Cert.ReferenceIdeal.main_arg3)) :
    StableHlo.after (kS3 (F := Ideal)) W (Proc.devRef .tc Cert.KernelIdeal.main_v153)
      = StableHlo.after (rS3 (F := Ideal)) W' (Proc.devRef .tc Cert.ReferenceIdeal.main_v134) := by
  after_results_simp
  rw [h112, h127, ha3]
  rfl

end Cert.Bridge

end
-- ==== Proof.Bridge.R3.lean ====
/- The batch's page rows (the fourth result). Both programs gather the new page table's rows at the wrapped safe
   identifiers and keep a row where the sorted identifier is nonnegative, minus one elsewhere; the reference reads its
   minus one from the constant buffer written first, the kernel writes a fresh one. Equal identifiers, safe identifiers
   and new page tables at the stretch's entry, and that constant buffer at minus one, give equal results. -/
import proofs.«408099_j23811298689264_3_alg».proof.Proof.Bridge.SplitK
import proofs.«408099_j23811298689264_3_alg».proof.Proof.Bridge.SplitR
import Idealize.ShloMosaic.PureOps.Ideal

set_option maxRecDepth 8192

noncomputable section

namespace Cert.Bridge

open Idealize.ShloMosaic Idealize.ShloMosaic.TcCoe Idealize.SL.Sem Idealize.ShloMosaic.StableHlo

set_option maxHeartbeats 4000000 in
theorem result3
    (W : Valuation Cert.KernelIdeal.τ Cert.KernelIdeal.sig (Elt Ideal))
    (W' : Valuation Cert.ReferenceIdeal.τ Cert.ReferenceIdeal.sig (Elt Ideal))
    (h22 : W (Proc.devRef .tc Cert.KernelIdeal.main_v22) = W' (Proc.devRef .tc Cert.ReferenceIdeal.main_v20))
    (h28 : W (Proc.devRef .tc Cert.KernelIdeal.main_v28) = W' (Proc.devRef .tc Cert.ReferenceIdeal.main_v26))
    (h144 : W (Proc.devRef .tc Cert.KernelIdeal.main_v144) = W' (Proc.devRef .tc Cert.ReferenceIdeal.main_v125))
    (hc : W' (Proc.devRef .tc Cert.ReferenceIdeal.main_c) = constantI Cert.ReferenceIdeal.S_ 32 4294967295#32) :
    StableHlo.after (kS3 (F := Ideal)) W (Proc.devRef .tc Cert.KernelIdeal.main_v164)
      = StableHlo.after (rS3 (F := Ideal)) W' (Proc.devRef .tc Cert.ReferenceIdeal.main_v145) := by
  after_results_simp
  rw [h22, h28, h144, hc] <;> rfl

end Cert.Bridge

end
-- ==== Proof.Bridge.R4.lean ====
/- The batch's sequence lengths (the fifth result). Both programs gather the new lengths at the wrapped safe identifiers
   and keep them where the sorted identifier is nonnegative, minus one elsewhere; the reference reads its minus one from
   the constant buffer written first, the kernel writes a fresh one. Equal identifiers, safe identifiers and new lengths
   at the stretch's entry, and that constant buffer at minus one, give equal results. -/
import proofs.«408099_j23811298689264_3_alg».proof.Proof.Bridge.SplitK
import proofs.«408099_j23811298689264_3_alg».proof.Proof.Bridge.SplitR
import Idealize.ShloMosaic.PureOps.Ideal

set_option maxRecDepth 8192

noncomputable section

namespace Cert.Bridge

open Idealize.ShloMosaic Idealize.ShloMosaic.TcCoe Idealize.SL.Sem Idealize.ShloMosaic.StableHlo

set_option maxHeartbeats 4000000 in
theorem result4
    (W : Valuation Cert.KernelIdeal.τ Cert.KernelIdeal.sig (Elt Ideal))
    (W' : Valuation Cert.ReferenceIdeal.τ Cert.ReferenceIdeal.sig (Elt Ideal))
    (h22 : W (Proc.devRef .tc Cert.KernelIdeal.main_v22) = W' (Proc.devRef .tc Cert.ReferenceIdeal.main_v20))
    (h28 : W (Proc.devRef .tc Cert.KernelIdeal.main_v28) = W' (Proc.devRef .tc Cert.ReferenceIdeal.main_v26))
    (h44 : W (Proc.devRef .tc Cert.KernelIdeal.main_v44) = W' (Proc.devRef .tc Cert.ReferenceIdeal.main_v42))
    (hc : W' (Proc.devRef .tc Cert.ReferenceIdeal.main_c) = constantI Cert.ReferenceIdeal.S_ 32 4294967295#32) :
    StableHlo.after (kS3 (F := Ideal)) W (Proc.devRef .tc Cert.KernelIdeal.main_v172)
      = StableHlo.after (rS3 (F := Ideal)) W' (Proc.devRef .tc Cert.ReferenceIdeal.main_v153) := by
  after_results_simp
  rw [h22, h28, h44, hc] <;> rfl

end Cert.Bridge

end
-- ==== Proof.Bridge.R5.lean ====
/- The cumulative query lengths (the sixth result). Both programs prepend a zero to the running sum (a window sum over
   512 with 511 of padding before) of the per-sequence counts: equal counts at the stretch's entry give equal results. -/
import proofs.«408099_j23811298689264_3_alg».proof.Proof.Bridge.SplitK
import proofs.«408099_j23811298689264_3_alg».proof.Proof.Bridge.SplitR
import Idealize.ShloMosaic.PureOps.Ideal

set_option maxRecDepth 8192

noncomputable section

namespace Cert.Bridge

open Idealize.ShloMosaic Idealize.ShloMosaic.TcCoe Idealize.SL.Sem Idealize.ShloMosaic.StableHlo

namespace R5

/-- A concatenation of two operands with the operands as plain arguments: under the list of shape-and-operand pairs
    an operand is typed by the pair's first component and is not rewritten in place; as an argument it is. -/
def concatTwo {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

theorem concatenate_two {α : Type} (t : Shape) (a : Fin t.rank) (s1 s2 : Shape) (x : s1.Idx → α) (y : s2.Idx → α)
    (h : Shape.Concatenates [s1, s2] t a) :
    concatenate t a [⟨s1, x⟩, ⟨s2, y⟩] h = concatTwo t a s1 s2 x y h := rfl

end R5

set_option maxHeartbeats 4000000 in
theorem result5
    (W : Valuation Cert.KernelIdeal.τ Cert.KernelIdeal.sig (Elt Ideal))
    (W' : Valuation Cert.ReferenceIdeal.τ Cert.ReferenceIdeal.sig (Elt Ideal))
    (h36 : W (Proc.devRef .tc Cert.KernelIdeal.main_v36) = W' (Proc.devRef .tc Cert.ReferenceIdeal.main_v34)) :
    StableHlo.after (kS3 (F := Ideal)) W (Proc.devRef .tc Cert.KernelIdeal.main_v216)
      = StableHlo.after (rS3 (F := Ideal)) W' (Proc.devRef .tc Cert.ReferenceIdeal.main_v210) := by
  simp (disch := decide) only [after_cons, after_nil, R5.concatenate_two,
      nullary_result', unary_result', binary_result', ternary_result', quaternary_result', reshape_result',
      nary4_result', nary_result', unaryIndexed_result', binaryIndexed_result',
      nullary_result_ne', unary_result_ne', binary_result_ne', ternary_result_ne', quaternary_result_ne',
      reshape_result_ne', nary_result_ne', unaryIndexed_result_ne', binaryIndexed_result_ne']
  rw [h36] <;> rfl

end Cert.Bridge

end
-- ==== Proof.Bridge.R6.lean ====
/- The count of updated sequences (the seventh result). After the new page table both programs compute it by the same
   operations — the sorted identifiers compared with zero, widened, summed — of the sorted identifiers alone: equal
   identifiers at the stretch's entry give equal counts. -/
import proofs.«408099_j23811298689264_3_alg».proof.Proof.Bridge.SplitK
import proofs.«408099_j23811298689264_3_alg».proof.Proof.Bridge.SplitR
import Idealize.ShloMosaic.PureOps.Ideal

set_option maxRecDepth 8192

noncomputable section

namespace Cert.Bridge

open Idealize.ShloMosaic Idealize.ShloMosaic.TcCoe Idealize.SL.Sem Idealize.ShloMosaic.StableHlo

set_option maxHeartbeats 4000000 in
theorem result6
    (W : Valuation Cert.KernelIdeal.τ Cert.KernelIdeal.sig (Elt Ideal))
    (W' : Valuation Cert.ReferenceIdeal.τ Cert.ReferenceIdeal.sig (Elt Ideal))
    (h22 : W (Proc.devRef .tc Cert.KernelIdeal.main_v22) = W' (Proc.devRef .tc Cert.ReferenceIdeal.main_v20)) :
    StableHlo.after (kS3 (F := Ideal)) W (Proc.devRef .tc Cert.KernelIdeal.main_v174)
      = StableHlo.after (rS3 (F := Ideal)) W' (Proc.devRef .tc Cert.ReferenceIdeal.main_v155) := by
  after_results_simp
  rw [h22]

end Cert.Bridge

end
-- ==== Proof.Bridge.DestSplitK.lean ====
/- The last stretch kS3 of the operations after the region, in order, cut into four consecutive pieces kD0 … kD3
   (54 + 81 + 14 + 6 = 155), and that the four in order are kS3. The cuts fall after the start offsets, after the two
   columns of the index array and after the new tokens' destinations. -/
import proofs.«408099_j23811298689264_3_alg».proof.Proof.Bridge.SplitK

set_option maxRecDepth 8192

noncomputable section

namespace Cert.Bridge

open Cert.KernelIdeal Cert.KernelIdeal.Gen Cert.KernelIdeal.Hand Idealize.ShloMosaic Idealize.ShloMosaic.TcCoe Idealize.SL.Sem Idealize.ShloMosaic.StableHlo

variable {F : FTy → Type} [FloatOps F]

/-- The last stretch's operations up to the start offsets (54). -/
abbrev kD0 : List (HloOp τ sig (Elt F)) :=
  [ StableHlo.nullary main_c_45 (constantI S_ 32 65536#32),
    StableHlo.TRef.unary (.of main_c_45 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S512x256, .i32⟩) (broadcastInDim S512x256 ![] bcast_S_S512x256),
    StableHlo.TRef.ternary (.of main_v112 : StableHlo.TRef sig ⟨S512x256, .i1⟩) (.of main_v127 : StableHlo.TRef sig ⟨S512x256, .i32⟩) (.of main_call19_v1 : StableHlo.TRef sig ⟨S512x256, .i32⟩) (.of main_v145 : StableHlo.TRef sig ⟨S512x256, .i32⟩) select,
    StableHlo.nullary main_c_46 (constantI S_ 32 0#32),
    StableHlo.unary main_c_46 main_v146 (broadcastInDim S512x256 ![] bcast_S_S512x256 : (⟨S_, .i32⟩ : BufTy).Contents (Elt F) → (⟨S512x256, .i32⟩ : BufTy).Contents (Elt F)),
    StableHlo.binary main_v145 main_v146 main_v147 (cmpi .slt : (⟨S512x256, .i32⟩ : BufTy).Contents (Elt F) → (⟨S512x256, .i32⟩ : BufTy).Contents (Elt F) → (⟨S512x256, .i1⟩ : BufTy).Contents (Elt F)),
    StableHlo.nullary main_c_47 (constantI S_ 32 65536#32),
    StableHlo.unary main_c_47 main_v148 (broadcastInDim S512x256 ![] bcast_S_S512x256 : (⟨S_, .i32⟩ : BufTy).Contents (Elt F) → (⟨S512x256, .i32⟩ : BufTy).Contents (Elt F)),
    StableHlo.binary main_v145 main_v148 main_v149 (addi : (⟨S512x256, .i32⟩ : BufTy).Contents (Elt F) → (⟨S512x256, .i32⟩ : BufTy).Contents (Elt F) → (⟨S512x256, .i32⟩ : BufTy).Contents (Elt F)),
    StableHlo.ternary main_v147 main_v149 main_v145 main_v150 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v150 main_v151 (broadcastInDim S512x256x1 ![0, 1] bcast_S512x256_S512x256x1_0_1 : (⟨S512x256, .i32⟩ : BufTy).Contents (Elt F) → (⟨S512x256x1, .i32⟩ : BufTy).Contents (Elt F)),
    StableHlo.nullary main_c_48 (constantI S_ 32 1#32),
    StableHlo.unary main_c_48 main_v152 (broadcastInDim S512x256 ![] bcast_S_S512x256 : (⟨S_, .i32⟩ : BufTy).Contents (Elt F) → (⟨S512x256, .i32⟩ : BufTy).Contents (Elt F)),
    StableHlo.ternary main_arg3 main_v151 main_v152 main_v153 ((fun x i u => Host.scatter scatter_S65536_S512x256x1_S512x256_n_0_0_2 IntOp.addi x i u) : (⟨S65536, .i32⟩ : BufTy).Contents (Elt F) → (⟨S512x256x1, .i32⟩ : BufTy).Contents (Elt F) → (⟨S512x256, .i32⟩ : BufTy).Contents (Elt F) → (⟨S65536, .i32⟩ : BufTy).Contents (Elt F)),
    StableHlo.nullary main_c_49 (constantI S_ 32 0#32),
    StableHlo.unary main_c_49 main_v154 (broadcastInDim S512 ![] bcast_S_S512 : (⟨S_, .i32⟩ : BufTy).Contents (Elt F) → (⟨S512, .i32⟩ : BufTy).Contents (Elt F)),
    StableHlo.binary main_v22 main_v154 main_v155 (cmpi .sge : (⟨S512, .i32⟩ : BufTy).Contents (Elt F) → (⟨S512, .i32⟩ : BufTy).Contents (Elt F) → (⟨S512, .i1⟩ : BufTy).Contents (Elt F)),
    StableHlo.unary main_v155 main_v156 (broadcastInDim S512x1 ![0] bcast_S512_S512x1_0 : (⟨S512, .i1⟩ : BufTy).Contents (Elt F) → (⟨S512x1, .i1⟩ : BufTy).Contents (Elt F)),
    StableHlo.nullary main_c_50 (constantI S_ 32 0#32),
    StableHlo.unary main_c_50 main_v157 (broadcastInDim S512 ![] bcast_S_S512 : (⟨S_, .i32⟩ : BufTy).Contents (Elt F) → (⟨S512, .i32⟩ : BufTy).Contents (Elt F)),
    StableHlo.binary main_v28 main_v157 main_v158 (cmpi .slt : (⟨S512, .i32⟩ : BufTy).Contents (Elt F) → (⟨S512, .i32⟩ : BufTy).Contents (Elt F) → (⟨S512, .i1⟩ : BufTy).Contents (Elt F)),
    StableHlo.nullary main_c_51 (constantI S_ 32 512#32),
    StableHlo.unary main_c_51 main_v159 (broadcastInDim S512 ![] bcast_S_S512 : (⟨S_, .i32⟩ : BufTy).Contents (Elt F) → (⟨S512, .i32⟩ : BufTy).Contents (Elt F)),
    StableHlo.binary main_v28 main_v159 main_v160 (addi : (⟨S512, .i32⟩ : BufTy).Contents (Elt F) → (⟨S512, .i32⟩ : BufTy).Contents (Elt F) → (⟨S512, .i32⟩ : BufTy).Contents (Elt F)),
    StableHlo.ternary main_v158 main_v160 main_v28 main_v161 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v161 main_v162 (broadcastInDim S512x1 ![0] bcast_S512_S512x1_0 : (⟨S512, .i32⟩ : BufTy).Contents (Elt F) → (⟨S512x1, .i32⟩ : BufTy).Contents (Elt F)),
    StableHlo.binary main_v144 main_v162 main_v163 ((fun x i => Host.gather gather_S512x256_S512x1_S512x256_1_0_n_n_0_1_1256 x i) : (⟨S512x256, .i32⟩ : BufTy).Contents (Elt F) → (⟨S512x1, .i32⟩ : BufTy).Contents (Elt F) → (⟨S512x256, .i32⟩ : BufTy).Contents (Elt F)),
    StableHlo.nullary main_c_52 (constantI S_ 32 4294967295#32),
    StableHlo.TRef.unary (.of main_v156 : StableHlo.TRef sig ⟨S512x1, .i1⟩) (.of main_call20_v0 : StableHlo.TRef sig ⟨S512x256, .i1⟩) (broadcastInDim S512x256 ![0, 1] bcast_S512x1_S512x256_0_1),
    StableHlo.TRef.unary (.of main_c_52 : StableHlo.TRef sig ⟨S_, .i32⟩) (.of main_call20_v1 : StableHlo.TRef sig ⟨S512x256, .i32⟩) (broadcastInDim S512x256 ![] bcast_S_S512x256),
    StableHlo.TRef.ternary (.of main_call20_v0 : StableHlo.TRef sig ⟨S512x256, .i1⟩) (.of main_v163 : StableHlo.TRef sig ⟨S512x256, .i32⟩) (.of main_call20_v1 : StableHlo.TRef sig ⟨S512x256, .i32⟩) (.of main_v164 : StableHlo.TRef sig ⟨S512x256, .i32⟩) select,
    StableHlo.nullary main_c_53 (constantI S_ 32 0#32),
    StableHlo.unary main_c_53 main_v165 (broadcastInDim S512 ![] bcast_S_S512 : (⟨S_, .i32⟩ : BufTy).Contents (Elt F) → (⟨S512, .i32⟩ : BufTy).Contents (Elt F)),
    StableHlo.binary main_v28 main_v165 main_v166 (cmpi .slt : (⟨S512, .i32⟩ : BufTy).Contents (Elt F) → (⟨S512, .i32⟩ : BufTy).Contents (Elt F) → (⟨S512, .i1⟩ : BufTy).Contents (Elt F)),
    StableHlo.nullary main_c_54 (constantI S_ 32 512#32),
    StableHlo.unary main_c_54 main_v167 (broadcastInDim S512 ![] bcast_S_S512 : (⟨S_, .i32⟩ : BufTy).Contents (Elt F) → (⟨S512, .i32⟩ : BufTy).Contents (Elt F)),
    StableHlo.binary main_v28 main_v167 main_v168 (addi : (⟨S512, .i32⟩ : BufTy).Contents (Elt F) → (⟨S512, .i32⟩ : BufTy).Contents (Elt F) → (⟨S512, .i32⟩ : BufTy).Contents (Elt F)),
    StableHlo.ternary main_v166 main_v168 main_v28 main_v169 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v169 main_v170 (broadcastInDim S512x1 ![0] bcast_S512_S512x1_0 : (⟨S512, .i32⟩ : BufTy).Contents (Elt F) → (⟨S512x1, .i32⟩ : BufTy).Contents (Elt F)),
    StableHlo.binary main_v44 main_v170 main_v171 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.nullary main_c_55 (constantI S_ 32 4294967295#32),
    StableHlo.TRef.unary (.of main_c_55 : StableHlo.TRef sig ⟨S_, .i32⟩) (.of main_call21_v0 : StableHlo.TRef sig ⟨S512, .i32⟩) (broadcastInDim S512 ![] bcast_S_S512),
    StableHlo.TRef.ternary (.of main_v155 : StableHlo.TRef sig ⟨S512, .i1⟩) (.of main_v171 : StableHlo.TRef sig ⟨S512, .i32⟩) (.of main_call21_v0 : StableHlo.TRef sig ⟨S512, .i32⟩) (.of main_v172 : StableHlo.TRef sig ⟨S512, .i32⟩) select,
    StableHlo.unary main_v155 main_v173 ((extui 32 · natLt_1_32) : (⟨S512, .i1⟩ : BufTy).Contents (Elt F) → (⟨S512, .i32⟩ : BufTy).Contents (Elt F)),
    StableHlo.nullary main_c_56 (constantI S_ 32 0#32),
    StableHlo.binary main_v173 main_c_56 main_v174 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    StableHlo.nullary main_c_57 (constantI S_ 32 0#32),
    StableHlo.unary main_c_57 main_v175 (broadcastInDim S512 ![] bcast_S_S512 : (⟨S_, .i32⟩ : BufTy).Contents (Elt F) → (⟨S512, .i32⟩ : BufTy).Contents (Elt F)),
    StableHlo.binary main_arg1 main_v175 main_v176 (cmpi .slt : (⟨S512, .i32⟩ : BufTy).Contents (Elt F) → (⟨S512, .i32⟩ : BufTy).Contents (Elt F) → (⟨S512, .i1⟩ : BufTy).Contents (Elt F)),
    StableHlo.nullary main_c_58 (constantI S_ 32 0#32),
    StableHlo.TRef.unary (.of main_c_58 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S512, .i32⟩) (broadcastInDim S512 ![] bcast_S_S512),
    StableHlo.TRef.ternary (.of main_v176 : StableHlo.TRef sig ⟨S512, .i1⟩) (.of main_call22_v1 : StableHlo.TRef sig ⟨S512, .i32⟩) (.of main_arg1 : StableHlo.TRef sig ⟨S512, .i32⟩) (.of main_v177 : StableHlo.TRef sig ⟨S512, .i32⟩) select ]

/-- From there up to the two columns of the index array (81). -/
abbrev kD1 : List (HloOp τ sig (Elt F)) :=
  [ StableHlo.nullary main_c_59 (constantI S_ 32 512#32),
    StableHlo.unary main_c_59 main_v178 (broadcastInDim S65536 ![] bcast_S_S65536 : (⟨S_, .i32⟩ : BufTy).Contents (Elt F) → (⟨S65536, .i32⟩ : BufTy).Contents (Elt F)),
    StableHlo.binary main_v2 main_v178 main_v179 (cmpi .slt : (⟨S65536, .i32⟩ : BufTy).Contents (Elt F) → (⟨S65536, .i32⟩ : BufTy).Contents (Elt F) → (⟨S65536, .i1⟩ : BufTy).Contents (Elt F)),
    StableHlo.nullary main_c_60 (constantI S_ 32 0#32),
    StableHlo.TRef.unary (.of main_c_60 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S65536, .i32⟩) (broadcastInDim S65536 ![] bcast_S_S65536),
    StableHlo.TRef.ternary (.of main_v179 : StableHlo.TRef sig ⟨S65536, .i1⟩) (.of main_v2 : StableHlo.TRef sig ⟨S65536, .i32⟩) (.of main_call23_v1 : StableHlo.TRef sig ⟨S65536, .i32⟩) (.of main_v180 : StableHlo.TRef sig ⟨S65536, .i32⟩) select,
    StableHlo.nullary main_c_61 (constantI S_ 32 0#32),
    StableHlo.unary main_c_61 main_v181 (broadcastInDim S65536 ![] bcast_S_S65536 : (⟨S_, .i32⟩ : BufTy).Contents (Elt F) → (⟨S65536, .i32⟩ : BufTy).Contents (Elt F)),
    StableHlo.binary main_v180 main_v181 main_v182 (cmpi .slt : (⟨S65536, .i32⟩ : BufTy).Contents (Elt F) → (⟨S65536, .i32⟩ : BufTy).Contents (Elt F) → (⟨S65536, .i1⟩ : BufTy).Contents (Elt F)),
    StableHlo.nullary main_c_62 (constantI S_ 32 512#32),
    StableHlo.unary main_c_62 main_v183 (broadcastInDim S65536 ![] bcast_S_S65536 : (⟨S_, .i32⟩ : BufTy).Contents (Elt F) → (⟨S65536, .i32⟩ : BufTy).Contents (Elt F)),
    StableHlo.binary main_v180 main_v183 main_v184 (addi : (⟨S65536, .i32⟩ : BufTy).Contents (Elt F) → (⟨S65536, .i32⟩ : BufTy).Contents (Elt F) → (⟨S65536, .i32⟩ : BufTy).Contents (Elt F)),
    StableHlo.ternary main_v182 main_v184 main_v180 main_v185 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v185 main_v186 (broadcastInDim S65536x1 ![0] bcast_S65536_S65536x1_0 : (⟨S65536, .i32⟩ : BufTy).Contents (Elt F) → (⟨S65536x1, .i32⟩ : BufTy).Contents (Elt F)),
    StableHlo.binary main_v177 main_v186 main_v187 ((fun x i => Host.gather gather_S512_S65536x1_S65536_n_0_n_n_0_1_1 x i) : (⟨S512, .i32⟩ : BufTy).Contents (Elt F) → (⟨S65536x1, .i32⟩ : BufTy).Contents (Elt F) → (⟨S65536, .i32⟩ : BufTy).Contents (Elt F)),
    StableHlo.binary main_v187 main_v10 main_v188 (addi : (⟨S65536, .i32⟩ : BufTy).Contents (Elt F) → (⟨S65536, .i32⟩ : BufTy).Contents (Elt F) → (⟨S65536, .i32⟩ : BufTy).Contents (Elt F)),
    StableHlo.nullary main_c_63 (constantI S_ 32 128#32),
    StableHlo.TRef.unary (.of main_c_63 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S65536, .i32⟩) (broadcastInDim S65536 ![] bcast_S_S65536),
    StableHlo.TRef.binary (.of main_v188 : StableHlo.TRef sig ⟨S65536, .i32⟩) (.of main_call24_v1 : StableHlo.TRef sig ⟨S65536, .i32⟩) (.of main_call24_v2 : StableHlo.TRef sig ⟨S65536, .i32⟩) Host.divsi,
    StableHlo.TRef.unary (.of main_v188 : StableHlo.TRef sig ⟨S65536, .i32⟩) (.of main_call24_v3 : StableHlo.TRef sig ⟨S65536, .i32⟩) signi,
    StableHlo.TRef.unary (.of main_call24_v0 : StableHlo.TRef sig ⟨S_, .i32⟩) (.of main_call24_v4 : StableHlo.TRef sig ⟨S_, .i32⟩) signi,
    StableHlo.TRef.unary (.of main_call24_v4 : StableHlo.TRef sig ⟨S_, .i32⟩) (.of main_call24_v5 : StableHlo.TRef sig ⟨S65536, .i32⟩) (broadcastInDim S65536 ![] bcast_S_S65536),
    StableHlo.TRef.binary (.of main_call24_v3 : StableHlo.TRef sig ⟨S65536, .i32⟩) (.of main_call24_v5 : StableHlo.TRef sig ⟨S65536, .i32⟩) (.of main_call24_v6 : StableHlo.TRef sig ⟨S65536, .i1⟩) (cmpi .ne),
    StableHlo.TRef.unary (.of main_call24_v0 : StableHlo.TRef sig ⟨S_, .i32⟩) (.of main_call24_v7 : StableHlo.TRef sig ⟨S65536, .i32⟩) (broadcastInDim S65536 ![] bcast_S_S65536),
    StableHlo.TRef.binary (.of main_v188 : StableHlo.TRef sig ⟨S65536, .i32⟩) (.of main_call24_v7 : StableHlo.TRef sig ⟨S65536, .i32⟩) (.of main_call24_v8 : StableHlo.TRef sig ⟨S65536, .i32⟩) Host.remsi,
    StableHlo.TRef.nullary (.of main_call24_c : StableHlo.TRef sig ⟨S_, .i32⟩) (constantI S_ 32 0#32),
    StableHlo.TRef.unary (.of main_call24_c : StableHlo.TRef sig ⟨S_, .i32⟩) (.of main_call24_v9 : StableHlo.TRef sig ⟨S65536, .i32⟩) (broadcastInDim S65536 ![] bcast_S_S65536),
    StableHlo.TRef.binary (.of main_call24_v8 : StableHlo.TRef sig ⟨S65536, .i32⟩) (.of main_call24_v9 : StableHlo.TRef sig ⟨S65536, .i32⟩) (.of main_call24_v10 : StableHlo.TRef sig ⟨S65536, .i1⟩) (cmpi .ne),
    StableHlo.TRef.binary (.of main_call24_v6 : StableHlo.TRef sig ⟨S65536, .i1⟩) (.of main_call24_v10 : StableHlo.TRef sig ⟨S65536, .i1⟩) (.of main_call24_v11 : StableHlo.TRef sig ⟨S65536, .i1⟩) andi,
    StableHlo.TRef.nullary (.of main_call24_c_0 : StableHlo.TRef sig ⟨S_, .i32⟩) (constantI S_ 32 1#32),
    StableHlo.TRef.unary (.of main_call24_c_0 : StableHlo.TRef sig ⟨S_, .i32⟩) (.of main_call24_v12 : StableHlo.TRef sig ⟨S65536, .i32⟩) (broadcastInDim S65536 ![] bcast_S_S65536),
    StableHlo.TRef.binary (.of main_call24_v2 : StableHlo.TRef sig ⟨S65536, .i32⟩) (.of main_call24_v12 : StableHlo.TRef sig ⟨S65536, .i32⟩) (.of main_call24_v13 : StableHlo.TRef sig ⟨S65536, .i32⟩) subi,
    StableHlo.TRef.ternary (.of main_call24_v11 : StableHlo.TRef sig ⟨S65536, .i1⟩) (.of main_call24_v13 : StableHlo.TRef sig ⟨S65536, .i32⟩) (.of main_call24_v2 : StableHlo.TRef sig ⟨S65536, .i32⟩) (.of main_v189 : StableHlo.TRef sig ⟨S65536, .i32⟩) select,
    StableHlo.nullary main_c_64 (constantI S_ 32 0#32),
    StableHlo.nullary main_c_65 (constantI S_ 32 255#32),
    StableHlo.TRef.unary (.of main_c_64 : StableHlo.TRef sig ⟨S_, .i32⟩) (.of main_call25_v0 : StableHlo.TRef sig ⟨S_, .i32⟩) id,
    StableHlo.TRef.unary (.of main_call25_v0 : StableHlo.TRef sig ⟨S_, .i32⟩) (.of main_call25_v1 : StableHlo.TRef sig ⟨S65536, .i32⟩) (broadcastInDim S65536 ![] bcast_S_S65536),
    StableHlo.TRef.binary (.of main_call25_v1 : StableHlo.TRef sig ⟨S65536, .i32⟩) (.of main_v189 : StableHlo.TRef sig ⟨S65536, .i32⟩) (.of main_call25_v2 : StableHlo.TRef sig ⟨S65536, .i32⟩) maxsi,
    StableHlo.TRef.unary (.of main_c_65 : StableHlo.TRef sig ⟨S_, .i32⟩) (.of main_call25_v3 : StableHlo.TRef sig ⟨S_, .i32⟩) id,
    StableHlo.TRef.unary (.of main_call25_v3 : StableHlo.TRef sig ⟨S_, .i32⟩) (.of main_call25_v4 : StableHlo.TRef sig ⟨S65536, .i32⟩) (broadcastInDim S65536 ![] bcast_S_S65536),
    StableHlo.TRef.binary (.of main_call25_v4 : StableHlo.TRef sig ⟨S65536, .i32⟩) (.of main_call25_v2 : StableHlo.TRef sig ⟨S65536, .i32⟩) (.of main_v190 : StableHlo.TRef sig ⟨S65536, .i32⟩) minsi,
    StableHlo.nullary main_c_66 (constantI S_ 32 128#32),
    StableHlo.TRef.unary (.of main_c_66 : StableHlo.TRef sig ⟨S_, .i32⟩) (.of main_call26_v0 : StableHlo.TRef sig ⟨S_, .i32⟩) id,
    StableHlo.TRef.nullary (.of main_call26_c : StableHlo.TRef sig ⟨S_, .i32⟩) (constantI S_ 32 0#32),
    StableHlo.TRef.binary (.of main_call26_v0 : StableHlo.TRef sig ⟨S_, .i32⟩) (.of main_call26_c : StableHlo.TRef sig ⟨S_, .i32⟩) (.of main_call26_v1 : StableHlo.TRef sig ⟨S_, .i1⟩) (cmpi .eq),
    StableHlo.TRef.nullary (.of main_call26_c_0 : StableHlo.TRef sig ⟨S_, .i32⟩) (constantI S_ 32 1#32),
    StableHlo.TRef.ternary (.of main_call26_v1 : StableHlo.TRef sig ⟨S_, .i1⟩) (.of main_call26_c_0 : StableHlo.TRef sig ⟨S_, .i32⟩) (.of main_call26_v0 : StableHlo.TRef sig ⟨S_, .i32⟩) (.of main_call26_v2 : StableHlo.TRef sig ⟨S_, .i32⟩) select,
    StableHlo.TRef.unary main_call26_call0.v0 (.of main_call26_v3 : StableHlo.TRef sig ⟨S65536, .i32⟩) (broadcastInDim S65536 ![] bcast_S_S65536),
    StableHlo.TRef.binary (.of main_v188 : StableHlo.TRef sig ⟨S65536, .i32⟩) (.of main_call26_v3 : StableHlo.TRef sig ⟨S65536, .i32⟩) (.of main_call26_v4 : StableHlo.TRef sig ⟨S65536, .i32⟩) Host.remsi,
    StableHlo.TRef.nullary (.of main_call26_c_1 : StableHlo.TRef sig ⟨S_, .i32⟩) (constantI S_ 32 0#32),
    StableHlo.TRef.unary (.of main_call26_c_1 : StableHlo.TRef sig ⟨S_, .i32⟩) (.of main_call26_v5 : StableHlo.TRef sig ⟨S65536, .i32⟩) (broadcastInDim S65536 ![] bcast_S_S65536),
    StableHlo.TRef.binary (.of main_call26_v4 : StableHlo.TRef sig ⟨S65536, .i32⟩) (.of main_call26_v5 : StableHlo.TRef sig ⟨S65536, .i32⟩) (.of main_call26_v6 : StableHlo.TRef sig ⟨S65536, .i1⟩) (cmpi .ne),
    StableHlo.TRef.nullary (.of main_call26_c_2 : StableHlo.TRef sig ⟨S_, .i32⟩) (constantI S_ 32 0#32),
    StableHlo.TRef.unary (.of main_call26_c_2 : StableHlo.TRef sig ⟨S_, .i32⟩) (.of main_call26_v7 : StableHlo.TRef sig ⟨S65536, .i32⟩) (broadcastInDim S65536 ![] bcast_S_S65536),
    StableHlo.TRef.binary (.of main_call26_v4 : StableHlo.TRef sig ⟨S65536, .i32⟩) (.of main_call26_v7 : StableHlo.TRef sig ⟨S65536, .i32⟩) (.of main_call26_v8 : StableHlo.TRef sig ⟨S65536, .i1⟩) (cmpi .slt),
    StableHlo.TRef.nullary (.of main_call26_c_3 : StableHlo.TRef sig ⟨S_, .i32⟩) (constantI S_ 32 0#32),
    StableHlo.TRef.binary main_call26_call0.v0 (.of main_call26_c_3 : StableHlo.TRef sig ⟨S_, .i32⟩) (.of main_call26_v9 : StableHlo.TRef sig ⟨S_, .i1⟩) (cmpi .slt),
    StableHlo.TRef.unary (.of main_call26_v9 : StableHlo.TRef sig ⟨S_, .i1⟩) (.of main_call26_v10 : StableHlo.TRef sig ⟨S65536, .i1⟩) (broadcastInDim S65536 ![] bcast_S_S65536),
    StableHlo.TRef.binary (.of main_call26_v8 : StableHlo.TRef sig ⟨S65536, .i1⟩) (.of main_call26_v10 : StableHlo.TRef sig ⟨S65536, .i1⟩) (.of main_call26_v11 : StableHlo.TRef sig ⟨S65536, .i1⟩) (cmpi .ne),
    StableHlo.TRef.binary (.of main_call26_v11 : StableHlo.TRef sig ⟨S65536, .i1⟩) (.of main_call26_v6 : StableHlo.TRef sig ⟨S65536, .i1⟩) (.of main_call26_v12 : StableHlo.TRef sig ⟨S65536, .i1⟩) andi,
    StableHlo.TRef.unary main_call26_call0.v0 (.of main_call26_v13 : StableHlo.TRef sig ⟨S65536, .i32⟩) (broadcastInDim S65536 ![] bcast_S_S65536),
    StableHlo.TRef.binary (.of main_call26_v4 : StableHlo.TRef sig ⟨S65536, .i32⟩) (.of main_call26_v13 : StableHlo.TRef sig ⟨S65536, .i32⟩) (.of main_call26_v14 : StableHlo.TRef sig ⟨S65536, .i32⟩) addi,
    StableHlo.TRef.ternary (.of main_call26_v12 : StableHlo.TRef sig ⟨S65536, .i1⟩) (.of main_call26_v14 : StableHlo.TRef sig ⟨S65536, .i32⟩) (.of main_call26_v4 : StableHlo.TRef sig ⟨S65536, .i32⟩) (.of main_v191 : StableHlo.TRef sig ⟨S65536, .i32⟩) select,
    StableHlo.nullary main_c_67 (constantI S_ 32 0#32),
    StableHlo.unary main_c_67 main_v192 (broadcastInDim S65536 ![] bcast_S_S65536 : (⟨S_, .i32⟩ : BufTy).Contents (Elt F) → (⟨S65536, .i32⟩ : BufTy).Contents (Elt F)),
    StableHlo.binary main_v180 main_v192 main_v193 (cmpi .slt : (⟨S65536, .i32⟩ : BufTy).Contents (Elt F) → (⟨S65536, .i32⟩ : BufTy).Contents (Elt F) → (⟨S65536, .i1⟩ : BufTy).Contents (Elt F)),
    StableHlo.nullary main_c_68 (constantI S_ 32 512#32),
    StableHlo.unary main_c_68 main_v194 (broadcastInDim S65536 ![] bcast_S_S65536 : (⟨S_, .i32⟩ : BufTy).Contents (Elt F) → (⟨S65536, .i32⟩ : BufTy).Contents (Elt F)),
    StableHlo.binary main_v180 main_v194 main_v195 (addi : (⟨S65536, .i32⟩ : BufTy).Contents (Elt F) → (⟨S65536, .i32⟩ : BufTy).Contents (Elt F) → (⟨S65536, .i32⟩ : BufTy).Contents (Elt F)),
    StableHlo.ternary main_v193 main_v195 main_v180 main_v196 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_69 (constantI S_ 32 0#32),
    StableHlo.unary main_c_69 main_v197 (broadcastInDim S65536 ![] bcast_S_S65536 : (⟨S_, .i32⟩ : BufTy).Contents (Elt F) → (⟨S65536, .i32⟩ : BufTy).Contents (Elt F)),
    StableHlo.binary main_v190 main_v197 main_v198 (cmpi .slt : (⟨S65536, .i32⟩ : BufTy).Contents (Elt F) → (⟨S65536, .i32⟩ : BufTy).Contents (Elt F) → (⟨S65536, .i1⟩ : BufTy).Contents (Elt F)),
    StableHlo.nullary main_c_70 (constantI S_ 32 256#32),
    StableHlo.unary main_c_70 main_v199 (broadcastInDim S65536 ![] bcast_S_S65536 : (⟨S_, .i32⟩ : BufTy).Contents (Elt F) → (⟨S65536, .i32⟩ : BufTy).Contents (Elt F)),
    StableHlo.binary main_v190 main_v199 main_v200 (addi : (⟨S65536, .i32⟩ : BufTy).Contents (Elt F) → (⟨S65536, .i32⟩ : BufTy).Contents (Elt F) → (⟨S65536, .i32⟩ : BufTy).Contents (Elt F)),
    StableHlo.ternary main_v198 main_v200 main_v190 main_v201 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v196 main_v202 (broadcastInDim S65536x1 ![0] bcast_S65536_S65536x1_0 : (⟨S65536, .i32⟩ : BufTy).Contents (Elt F) → (⟨S65536x1, .i32⟩ : BufTy).Contents (Elt F)),
    StableHlo.unary main_v201 main_v203 (broadcastInDim S65536x1 ![0] bcast_S65536_S65536x1_0 : (⟨S65536, .i32⟩ : BufTy).Contents (Elt F) → (⟨S65536x1, .i32⟩ : BufTy).Contents (Elt F)) ]

/-- From the index array up to the new tokens' destinations (14). -/
abbrev kD2 : List (HloOp τ sig (Elt F)) :=
  [ StableHlo.binary main_v202 main_v203 main_v204 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_v144 main_v204 main_v205 ((fun x i => Host.gather gather_S512x256_S65536x2_S65536_n_01_n_n_01_1_11 x i) : (⟨S512x256, .i32⟩ : BufTy).Contents (Elt F) → (⟨S65536x2, .i32⟩ : BufTy).Contents (Elt F) → (⟨S65536, .i32⟩ : BufTy).Contents (Elt F)),
    StableHlo.nullary main_c_71 (constantI S_ 32 0#32),
    StableHlo.unary main_c_71 main_v206 (broadcastInDim S65536 ![] bcast_S_S65536 : (⟨S_, .i32⟩ : BufTy).Contents (Elt F) → (⟨S65536, .i32⟩ : BufTy).Contents (Elt F)),
    StableHlo.binary main_v205 main_v206 main_v207 (cmpi .slt : (⟨S65536, .i32⟩ : BufTy).Contents (Elt F) → (⟨S65536, .i32⟩ : BufTy).Contents (Elt F) → (⟨S65536, .i1⟩ : BufTy).Contents (Elt F)),
    StableHlo.unary main_v179 main_v208 (noti : (⟨S65536, .i1⟩ : BufTy).Contents (Elt F) → (⟨S65536, .i1⟩ : BufTy).Contents (Elt F)),
    StableHlo.binary main_v207 main_v208 main_v209 (ori : (⟨S65536, .i1⟩ : BufTy).Contents (Elt F) → (⟨S65536, .i1⟩ : BufTy).Contents (Elt F) → (⟨S65536, .i1⟩ : BufTy).Contents (Elt F)),
    StableHlo.nullary main_c_72 (constantI S_ 32 128#32),
    StableHlo.unary main_c_72 main_v210 (broadcastInDim S65536 ![] bcast_S_S65536 : (⟨S_, .i32⟩ : BufTy).Contents (Elt F) → (⟨S65536, .i32⟩ : BufTy).Contents (Elt F)),
    StableHlo.binary main_v205 main_v210 main_v211 (muli : (⟨S65536, .i32⟩ : BufTy).Contents (Elt F) → (⟨S65536, .i32⟩ : BufTy).Contents (Elt F) → (⟨S65536, .i32⟩ : BufTy).Contents (Elt F)),
    StableHlo.binary main_v211 main_v191 main_v212 (addi : (⟨S65536, .i32⟩ : BufTy).Contents (Elt F) → (⟨S65536, .i32⟩ : BufTy).Contents (Elt F) → (⟨S65536, .i32⟩ : BufTy).Contents (Elt F)),
    StableHlo.nullary main_c_73 (constantI S_ 32 4294967295#32),
    StableHlo.TRef.unary (.of main_c_73 : StableHlo.TRef sig ⟨S_, .i32⟩) (.of main_call27_v0 : StableHlo.TRef sig ⟨S65536, .i32⟩) (broadcastInDim S65536 ![] bcast_S_S65536),
    StableHlo.TRef.ternary (.of main_v209 : StableHlo.TRef sig ⟨S65536, .i1⟩) (.of main_call27_v0 : StableHlo.TRef sig ⟨S65536, .i32⟩) (.of main_v212 : StableHlo.TRef sig ⟨S65536, .i32⟩) (.of main_v213 : StableHlo.TRef sig ⟨S65536, .i32⟩) select ]

/-- The remaining operations (6). -/
abbrev kD3 : List (HloOp τ sig (Elt F)) :=
  [ StableHlo.nullary main_c_74 (constantI S_ 32 0#32),
    StableHlo.unary main_c_74 main_v214 (broadcastInDim S1 ![] bcast_S_S1 : (⟨S_, .i32⟩ : BufTy).Contents (Elt F) → (⟨S1, .i32⟩ : BufTy).Contents (Elt F)),
    StableHlo.TRef.nullary (.of main_call28_call0_c : StableHlo.TRef sig ⟨S_, .i32⟩) (constantI S_ 32 0#32),
    StableHlo.TRef.unary (.of main_call28_call0_c : StableHlo.TRef sig ⟨S_, .i32⟩) (.of main_call28_call0_v0 : StableHlo.TRef sig ⟨S_, .i32⟩) (broadcastInDim S_ ![] bcast_S_S_),
    StableHlo.TRef.binary (.of main_v36 : StableHlo.TRef sig ⟨S512, .i32⟩) (.of main_call28_call0_v0 : StableHlo.TRef sig ⟨S_, .i32⟩) (.of main_v215 : StableHlo.TRef sig ⟨S512, .i32⟩) (fun x v => Host.reduceWindow IntOp.addi ![512] ![1] ![511] ![0] x v reduceWindows_S512_S512_w512s1p511_0 h_S_),
    StableHlo.binary main_v214 main_v215 main_v216 ((fun a b => concatenate S513 0 [⟨S1, a⟩, ⟨S512, b⟩] concatenates_S1_S512_S513_d0) : (⟨S1, .i32⟩ : BufTy).Contents (Elt F) → (⟨S512, .i32⟩ : BufTy).Contents (Elt F) → (⟨S513, .i32⟩ : BufTy).Contents (Elt F)) ]

/-- The four pieces in order are the last stretch of the operations after the region. -/
theorem kD_eq : (kS3 (F := F)) = kD0 ++ (kD1 ++ (kD2 ++ kD3)) := rfl

end Cert.Bridge

end
-- ==== Proof.Bridge.DestChain.lean ====
import proofs.«408099_j23811298689264_3_alg».proof.Proof.LibIndexMaps
import Idealize.ShloMosaic.Lib.Pipeline.Value

/-!
  The chain of integer operations that sends a token's sequence, the sequences' start positions, the page
  table and the token's rank to the token's destination slot, as one function `destOf`, and the one fact the
  comparison of two programs needs of it: it reads the rank array ONLY at valid tokens.

  For token position j with sequence word t = tokens j:
    valid    := t <ₛ 512
    s        := if valid then t else 0                      (then wrapped: s + 512 when s <ₛ 0)
    cursor   := start[s] + rank j
    p_idx    := clip (floor (cursor / 128)) 0 255           (then wrapped: + 256 when <ₛ 0)
    p_off    := cursor mod 128  (the sign of the divisor)
    page     := table[s, p_idx]
    dest j   := -1 if page <ₛ 0 or not valid, else page * 128 + p_off.
  Every step from the cursor on is elementwise in j, and the two table reads take row j of their index arrays
  only. So the result at j is -1 whenever t is not below 512, whatever the rank there, and otherwise it is a
  function of (t, start, table, rank j): two rank arrays that agree at the valid positions give one result.
-/

noncomputable section

namespace Cert.Bridge

open Idealize.ShloMosaic Idealize.ShloMosaic.ValueIdx Cert.Gcn.IndexMaps

/-! ## Shapes, their relations, the two table reads' dimension numbers -/

/-- A scalar. -/
abbrev T0 : Shape := ⟨0, ![]⟩
/-- One word per token. -/
abbrev TN : Shape := ⟨1, ![65536]⟩
/-- One column of words, a row per token. -/
abbrev TNx1 : Shape := ⟨2, ![65536, 1]⟩
/-- Two columns of words, a row per token. -/
abbrev TNx2 : Shape := ⟨2, ![65536, 2]⟩
/-- One word per sequence. -/
abbrev TS : Shape := ⟨1, ![512]⟩
/-- The page table: a row per sequence, 256 pages. -/
abbrev TSxP : Shape := ⟨2, ![512, 256]⟩

theorem bcN_h : T0.BroadcastsInDim TN (![] : Fin 0 → Fin TN.rank) := by decide
theorem col_h : TN.BroadcastsInDim TNx1 (![0] : Fin 1 → Fin TNx1.rank) := by decide
theorem cat_h : Shape.Concatenates [TNx1, TNx1] TNx2 1 := by decide
theorem bcS_h : T0.BroadcastsInDim TS (![] : Fin 0 → Fin TS.rank) := by decide

/-- `start[s]`: one index component per token, sent to the operand's one axis, which is collapsed. -/
def gd1 : GatherDims TS TNx1 TN where
  offsetDims := []
  collapsedSliceDims := [0]
  operandBatchingDims := []
  startIndicesBatchingDims := []
  startIndexMap := [0]
  indexVectorDim := 1
  sliceSizes := ![1]

/-- `table[s, p]`: two index components per token, sent to the operand's two axes, both collapsed. -/
def gd2 : GatherDims TSxP TNx2 TN where
  offsetDims := []
  collapsedSliceDims := [0, 1]
  operandBatchingDims := []
  startIndicesBatchingDims := []
  startIndexMap := [0, 1]
  indexVectorDim := 1
  sliceSizes := ![1, 1]

/-! ## The chain -/

/-- A scalar at every token. -/
def bcN {α : Type} (x : T0.Idx → α) : TN.Idx → α := broadcastInDim TN ![] bcN_h x
/-- A word per token as a one-column array. -/
def col (v : IVec TN 32) : IVec TNx1 32 := broadcastInDim TNx1 ![0] col_h v

/-- The sequences' start positions as the chain reads them: a negative word replaced by 0. -/
def startOf (a1 : IVec TS 32) : IVec TS 32 :=
  select (cmpi .slt a1 (broadcastInDim TS ![] bcS_h (constantI T0 32 0#32)))
    (broadcastInDim TS ![] bcS_h (constantI T0 32 0#32)) a1

/-- The token's sequence word is below 512 (signed). -/
def tokValid (tok : IVec TN 32) : IVec TN 1 := cmpi .slt tok (bcN (constantI T0 32 512#32))
/-- The sequence word at a valid token, 0 elsewhere. -/
def sSafe (tok : IVec TN 32) : IVec TN 32 := select (tokValid tok) tok (bcN (constantI T0 32 0#32))
/-- A negative index counted from the end: `s + k` when `s <ₛ 0`. -/
def wrapNeg (k : BitVec 32) (s : IVec TN 32) : IVec TN 32 :=
  select (cmpi .slt s (bcN (constantI T0 32 0#32))) (addi s (bcN (constantI T0 32 k))) s
/-- `start[s]` per token. -/
def startAt (tok : IVec TN 32) (start : IVec TS 32) : IVec TN 32 :=
  Host.gather gd1 start (col (wrapNeg 512#32 (sSafe tok)))
/-- The token's position in its sequence. -/
def cursor (tok : IVec TN 32) (start : IVec TS 32) (rank : IVec TN 32) : IVec TN 32 := addi (startAt tok start) rank

/-- Floor division by 128: the truncated quotient, less one when the signs differ and the remainder is not zero. -/
def floorDiv128 (c : IVec TN 32) : IVec TN 32 :=
  select
    (andi (cmpi .ne (signi c) (bcN (signi (constantI T0 32 128#32))))
      (cmpi .ne (Host.remsi c (bcN (constantI T0 32 128#32))) (bcN (constantI T0 32 0#32))))
    (subi (Host.divsi c (bcN (constantI T0 32 128#32))) (bcN (constantI T0 32 1#32)))
    (Host.divsi c (bcN (constantI T0 32 128#32)))
/-- Clipped to [0, 255]. -/
def clip255 (x : IVec TN 32) : IVec TN 32 :=
  minsi (bcN (constantI T0 32 255#32)) (maxsi (bcN (constantI T0 32 0#32)) x)
/-- The divisor of the remainder: 128, or 1 were it 0. -/
def remDiv : IVec T0 32 :=
  select (cmpi .eq (constantI T0 32 128#32) (constantI T0 32 0#32)) (constantI T0 32 1#32) (constantI T0 32 128#32)
/-- The remainder modulo 128 with the divisor's sign: the truncated remainder, plus the divisor when it is not
    zero and its sign differs from the divisor's. -/
def rem128 (c : IVec TN 32) : IVec TN 32 :=
  select
    (andi
      (cmpi .ne (cmpi .slt (Host.remsi c (bcN remDiv)) (bcN (constantI T0 32 0#32)))
        (bcN (cmpi .slt remDiv (constantI T0 32 0#32))))
      (cmpi .ne (Host.remsi c (bcN remDiv)) (bcN (constantI T0 32 0#32))))
    (addi (Host.remsi c (bcN remDiv)) (bcN remDiv))
    (Host.remsi c (bcN remDiv))

/-- The page table's index array: column 0 the sequence, column 1 the page number, both wrapped. -/
def pageIdx (tok pidx : IVec TN 32) : IVec TNx2 32 :=
  concatenate TNx2 1 [⟨TNx1, col (wrapNeg 512#32 (sSafe tok))⟩, ⟨TNx1, col (wrapNeg 256#32 pidx)⟩] cat_h
/-- `table[s, p]` per token. -/
def pageAt (tok : IVec TN 32) (npi : IVec TSxP 32) (pidx : IVec TN 32) : IVec TN 32 :=
  Host.gather gd2 npi (pageIdx tok pidx)
/-- The last step: -1 where the page is negative or the token is not valid, else `page * 128 + offset`. -/
def destSel (tv : IVec TN 1) (page poff : IVec TN 32) : IVec TN 32 :=
  select (ori (cmpi .slt page (bcN (constantI T0 32 0#32))) (noti tv)) (bcN (constantI T0 32 4294967295#32))
    (addi (muli page (bcN (constantI T0 32 128#32))) poff)

/-- The destination slot of every token, from the tokens' sequence words, the sequences' start positions, the
    page table and the tokens' ranks. -/
def destOf (tok : IVec TN 32) (start : IVec TS 32) (npi : IVec TSxP 32) (rank : IVec TN 32) : IVec TN 32 :=
  destSel (tokValid tok) (pageAt tok npi (clip255 (floorDiv128 (cursor tok start rank)))) (rem128 (cursor tok start rank))

/-! ## Each step reads its operand at the one position -/

theorem cursor_apply (tok : IVec TN 32) (start : IVec TS 32) (r : IVec TN 32) (j : TN.Idx) :
    cursor tok start r j = IntOp.addi (startAt tok start j) (r j) := rfl
theorem floorDiv128_local (c : IVec TN 32) (j : TN.Idx) : floorDiv128 c j = floorDiv128 (fun _ => c j) j := by
  simp only [floorDiv128, select, andi, cmpi, signi, Host.remsi, Host.divsi, subi]
theorem clip255_local (c : IVec TN 32) (j : TN.Idx) : clip255 c j = clip255 (fun _ => c j) j := by
  simp only [clip255, minsi, maxsi]
theorem rem128_local (c : IVec TN 32) (j : TN.Idx) : rem128 c j = rem128 (fun _ => c j) j := by
  simp only [rem128, select, andi, cmpi, Host.remsi, addi]
theorem wrapNeg_local (k : BitVec 32) (c : IVec TN 32) (j : TN.Idx) : wrapNeg k c j = wrapNeg k (fun _ => c j) j := by
  simp only [wrapNeg, select, cmpi, addi]
theorem destSel_local (tv : IVec TN 1) (pg po : IVec TN 32) (j : TN.Idx) :
    destSel tv pg po j = destSel tv (fun _ => pg j) (fun _ => po j) j := by
  simp only [destSel, select, ori, cmpi, addi, muli]

/-- The validity bit at a position is the signed comparison of the word there with 512. -/
theorem tokValid_apply (tok : IVec TN 32) (j : TN.Idx) : tokValid tok j = BitVec.ofBool ((tok j).slt 512#32) := rfl

/-- At a token that is not valid the destination is -1, whatever the page and the offset. -/
theorem destSel_invalid (tv : IVec TN 1) (pg po : IVec TN 32) (j : TN.Idx) (h : tv j = 0#1) :
    destSel tv pg po j = 4294967295#32 := by
  show Scalar.select (IntOp.ori (IntOp.cmpi .slt (pg j) 0#32) (~~~(tv j))) 4294967295#32 _ = _
  rw [h]
  have e : ∀ x : BitVec 1, IntOp.ori x (~~~(0#1)) = 1#1 := by decide
  rw [e, select_one]

/-- A column array read at (p, 0) is the word at p. -/
theorem col_apply (v : IVec TN 32) (p : Fin 65536) : col v (ix2 p (0 : Fin 1)) = v (ix1 p) :=
  broadcastInDim_apply _ _ _ (ix2 p (0 : Fin 1)) (ix1 p) (fun a => by
    obtain rfl : a = 0 := Subsingleton.elim _ _
    rfl)

/-- The page table's index array at (p, 0): the wrapped sequence word. -/
theorem pageIdx_apply0 (tok pidx : IVec TN 32) (p : Fin 65536) :
    pageIdx tok pidx (ix2 p (0 : Fin 2)) = wrapNeg 512#32 (sSafe tok) (ix1 p) := by
  unfold pageIdx
  rw [concatenate_pair_apply_left (t := TNx2) (s₁ := TNx1) (s₂ := TNx1) (1 : Fin 2) _ _ cat_h (ix2 p (0 : Fin 2)) rfl
    (ix2 p (0 : Fin 1)) (fun b => by rcases fin2_cases b with rfl | rfl <;> rfl)]
  exact col_apply _ p

/-- The page table's index array at (p, 1): the wrapped page number. -/
theorem pageIdx_apply1 (tok pidx : IVec TN 32) (p : Fin 65536) :
    pageIdx tok pidx (ix2 p (1 : Fin 2)) = wrapNeg 256#32 pidx (ix1 p) := by
  unfold pageIdx
  rw [concatenate_pair_apply_right (t := TNx2) (s₁ := TNx1) (s₂ := TNx1) (1 : Fin 2) _ _ cat_h (ix2 p (1 : Fin 2)) rfl rfl
    (ix2 p (0 : Fin 1))
    (fun b hb => by
      rcases fin2_cases b with rfl | rfl
      · rfl
      · exact absurd rfl hb)
    rfl]
  exact col_apply _ p

/-- A read of a two-axis table by an array of (row, column) pairs takes, for result position j, the pair at row
    j of the array only. -/
theorem gatherPair_congr {α : Type} {n m e w : ℕ} (d : GatherDims ⟨2, ![n, m]⟩ ⟨2, ![e, 2]⟩ ⟨1, ![e]⟩)
    (hsim : d.startIndexMap = [0, 1]) (hivd : d.indexVectorDim = 1)
    (x : (⟨2, ![n, m]⟩ : Shape).Idx → α) (idx idx' : IVec ⟨2, ![e, 2]⟩ w) (j : (⟨1, ![e]⟩ : Shape).Idx)
    (h0 : idx (ix2 (j 0) (0 : Fin 2)) = idx' (ix2 (j 0) (0 : Fin 2)))
    (h1 : idx (ix2 (j 0) (1 : Fin 2)) = idx' (ix2 (j 0) (1 : Fin 2))) :
    Host.gather d x idx j = Host.gather d x idx' j := by
  unfold Host.gather
  refine congrArg x ?_
  funext a
  apply Fin.ext
  show d.start j idx a + d.batchCoord j a + d.offCoord j a = d.start j idx' a + d.batchCoord j a + d.offCoord j a
  have hs : d.start j idx a = d.start j idx' a := by
    rcases fin2_cases a with rfl | rfl
    · have hm : (0 : Fin 2) ∈ d.startIndexMap := by rw [hsim]; simp
      have hi : List.idxOf (0 : Fin 2) d.startIndexMap = (0 : Fin 2).val := by rw [hsim]; simp
      unfold GatherDims.start
      rw [dif_pos hm, dif_pos hm, gather_siIdx_rank1 d hivd j _ _ (0 : Fin 2) hi, h0]
    · have hm : (1 : Fin 2) ∈ d.startIndexMap := by rw [hsim]; simp
      have hi : List.idxOf (1 : Fin 2) d.startIndexMap = (1 : Fin 2).val := by rw [hsim]; simp [List.idxOf_cons]
      unfold GatherDims.start
      rw [dif_pos hm, dif_pos hm, gather_siIdx_rank1 d hivd j _ _ (1 : Fin 2) hi, h1]
  rw [hs]

/-! ## The rank is read at the valid tokens only -/

/-- Two rank arrays that agree wherever the token's sequence word is below 512 (signed) give the same
    destinations. -/
theorem destOf_congr_rank (tok : IVec TN 32) (start : IVec TS 32) (npi : IVec TSxP 32) (r₁ r₂ : IVec TN 32)
    (h : ∀ j : TN.Idx, (tok j).toInt < 512 → r₁ j = r₂ j) :
    destOf tok start npi r₁ = destOf tok start npi r₂ := by
  funext j
  obtain ⟨p, rfl⟩ : ∃ p : Fin 65536, j = ix1 p := ⟨j 0, eq_ix1 j⟩
  unfold destOf
  by_cases hv : tokValid tok (ix1 p) = 1#1
  · -- a valid token: the two ranks agree here, and so does every step after the cursor
    have hlt : (tok (ix1 p)).toInt < 512 := by
      rw [tokValid_apply] at hv
      have hb : (tok (ix1 p)).slt 512#32 = true := by
        cases hslt : (tok (ix1 p)).slt 512#32
        · rw [hslt] at hv; exact absurd hv (by decide)
        · rfl
      have h512 : (512#32 : BitVec 32).toInt = 512 := by decide
      have := (BitVec.slt_iff_toInt_lt).mp hb
      omega
    have hr := h _ hlt
    have hc : cursor tok start r₁ (ix1 p) = cursor tok start r₂ (ix1 p) := by rw [cursor_apply, cursor_apply, hr]
    have hf : floorDiv128 (cursor tok start r₁) (ix1 p) = floorDiv128 (cursor tok start r₂) (ix1 p) := by
      rw [floorDiv128_local (cursor tok start r₁), floorDiv128_local (cursor tok start r₂), hc]
    have hp : clip255 (floorDiv128 (cursor tok start r₁)) (ix1 p) = clip255 (floorDiv128 (cursor tok start r₂)) (ix1 p) := by
      rw [clip255_local (floorDiv128 (cursor tok start r₁)), clip255_local (floorDiv128 (cursor tok start r₂)), hf]
    have ho : rem128 (cursor tok start r₁) (ix1 p) = rem128 (cursor tok start r₂) (ix1 p) := by
      rw [rem128_local (cursor tok start r₁), rem128_local (cursor tok start r₂), hc]
    have hw : wrapNeg 256#32 (clip255 (floorDiv128 (cursor tok start r₁))) (ix1 p)
        = wrapNeg 256#32 (clip255 (floorDiv128 (cursor tok start r₂))) (ix1 p) := by
      rw [wrapNeg_local 256#32 (clip255 (floorDiv128 (cursor tok start r₁))),
        wrapNeg_local 256#32 (clip255 (floorDiv128 (cursor tok start r₂))), hp]
    have hg : pageAt tok npi (clip255 (floorDiv128 (cursor tok start r₁))) (ix1 p)
        = pageAt tok npi (clip255 (floorDiv128 (cursor tok start r₂))) (ix1 p) := by
      unfold pageAt
      exact gatherPair_congr gd2 rfl rfl npi _ _ (ix1 p)
        (show pageIdx tok _ (ix2 p (0 : Fin 2)) = pageIdx tok _ (ix2 p (0 : Fin 2)) by
          rw [pageIdx_apply0, pageIdx_apply0])
        (show pageIdx tok _ (ix2 p (1 : Fin 2)) = pageIdx tok _ (ix2 p (1 : Fin 2)) by
          rw [pageIdx_apply1, pageIdx_apply1, hw])
    rw [destSel_local (tokValid tok) (pageAt tok npi (clip255 (floorDiv128 (cursor tok start r₁)))),
      destSel_local (tokValid tok) (pageAt tok npi (clip255 (floorDiv128 (cursor tok start r₂)))), hg, ho]
  · -- not valid: the destination is -1 on both sides
    have h0 : tokValid tok (ix1 p) = 0#1 := eq_zero_of_ne_one hv
    rw [destSel_invalid _ _ _ _ h0, destSel_invalid _ _ _ _ h0]

end Cert.Bridge

end
-- ==== Proof.Bridge.DestK.lean ====
import proofs.«408099_j23811298689264_3_alg».proof.Proof.Bridge.DestSplitK
import proofs.«408099_j23811298689264_3_alg».proof.Proof.Bridge.DestChain
import Idealize.ShloMosaic.Lib.StableHlo.Run

/-!
  The kernel program's last stretch of host operations, read at the new tokens' destinations.

  The stretch is cut in four consecutive pieces.  Piece 0 ends with the sequences' start positions (the
  second argument with its negative words replaced by 0) and writes neither the tokens, nor the ranks, nor
  the new page table.  Piece 1 computes, from the tokens, the start positions and the ranks, the validity
  bits, the two columns of the page table's index array (the wrapped sequence word; the wrapped page number
  of the cursor) and the cursor's offset in its page, and leaves the page table alone.  Piece 2 joins the two
  columns, reads the page table and selects the destination.  Piece 3 writes other results only.  Put
  together, from any contents W the destinations are `destOf` of W's tokens, the start positions of W's
  second argument, W's page table and W's ranks.
-/

set_option maxRecDepth 8192

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]

/-! ## Piece 0 -/

theorem kD0_v2 (V : Valuation τ sig (Elt F)) :
    after (kD0 (F := F)) V (Proc.devRef .tc main_v2) = V (Proc.devRef .tc main_v2) := by
  after_results_simp

theorem kD0_v10 (V : Valuation τ sig (Elt F)) :
    after (kD0 (F := F)) V (Proc.devRef .tc main_v10) = V (Proc.devRef .tc main_v10) := by
  after_results_simp

theorem kD0_v144 (V : Valuation τ sig (Elt F)) :
    after (kD0 (F := F)) V (Proc.devRef .tc main_v144) = V (Proc.devRef .tc main_v144) := by
  after_results_simp

/-- The start positions: the second argument, a negative word replaced by 0. -/
theorem kD0_v177 (V : Valuation τ sig (Elt F)) :
    after (kD0 (F := F)) V (Proc.devRef .tc main_v177) = startOf (V (Proc.devRef .tc main_arg1)) := by
  after_results_simp
  rfl

/-! ## Piece 1 -/

theorem kD1_v144 (V : Valuation τ sig (Elt F)) :
    after (kD1 (F := F)) V (Proc.devRef .tc main_v144) = V (Proc.devRef .tc main_v144) := by
  after_results_simp

/-- The validity bits. -/
theorem kD1_v179 (V : Valuation τ sig (Elt F)) :
    after (kD1 (F := F)) V (Proc.devRef .tc main_v179) = tokValid (V (Proc.devRef .tc main_v2)) := by
  after_results_simp
  rfl

/-- The index array's first column: the wrapped sequence word. -/
theorem kD1_v202 (V : Valuation τ sig (Elt F)) :
    after (kD1 (F := F)) V (Proc.devRef .tc main_v202) = col (wrapNeg 512#32 (sSafe (V (Proc.devRef .tc main_v2)))) := by
  after_results_simp
  rfl

/-- The index array's second column: the wrapped page number of the cursor. -/
theorem kD1_v203 (V : Valuation τ sig (Elt F)) :
    after (kD1 (F := F)) V (Proc.devRef .tc main_v203)
      = col (wrapNeg 256#32 (clip255 (floorDiv128
          (cursor (V (Proc.devRef .tc main_v2)) (V (Proc.devRef .tc main_v177)) (V (Proc.devRef .tc main_v10)))))) := by
  after_results_simp
  rfl

/-- The cursor's offset in its page. -/
theorem kD1_v191 (V : Valuation τ sig (Elt F)) :
    after (kD1 (F := F)) V (Proc.devRef .tc main_v191)
      = rem128 (cursor (V (Proc.devRef .tc main_v2)) (V (Proc.devRef .tc main_v177)) (V (Proc.devRef .tc main_v10))) := by
  after_results_simp
  rfl

/-! ## Piece 2 -/

/-- The destinations from the validity bits, the page table, the two columns and the offsets. -/
theorem kD2_v213 (V : Valuation τ sig (Elt F)) :
    after (kD2 (F := F)) V (Proc.devRef .tc main_v213)
      = destSel (V (Proc.devRef .tc main_v179))
          (Host.gather gd2 (V (Proc.devRef .tc main_v144))
            (concatenate TNx2 1 [⟨TNx1, V (Proc.devRef .tc main_v202)⟩, ⟨TNx1, V (Proc.devRef .tc main_v203)⟩] cat_h))
          (V (Proc.devRef .tc main_v191)) := by
  after_results_simp
  rfl

/-! ## Piece 3 -/

theorem kD3_v213 (V : Valuation τ sig (Elt F)) :
    after (kD3 (F := F)) V (Proc.devRef .tc main_v213) = V (Proc.devRef .tc main_v213) := by
  after_results_simp

/-! ## The stretch -/

/-- From any contents, the last stretch leaves at the new tokens' destinations `destOf` of the tokens, the start
    positions of the second argument, the new page table and the ranks. -/
theorem kernel_dest (W : Valuation τ sig (Elt F)) :
    after (kS3 (F := F)) W (Proc.devRef .tc main_v213)
      = destOf (W (Proc.devRef .tc main_v2)) (startOf (W (Proc.devRef .tc main_arg1)))
          (W (Proc.devRef .tc main_v144)) (W (Proc.devRef .tc main_v10)) := by
  rw [kD_eq, after_append, after_append, after_append, kD3_v213, kD2_v213, kD1_v179, kD1_v144, kD1_v202, kD1_v203,
    kD1_v191, kD0_v2, kD0_v10, kD0_v144, kD0_v177]
  rfl

end Cert.Bridge

end
-- ==== Proof.Bridge.DestSplitR.lean ====
/- The last stretch rS3 of the reference's operations, in order, cut into four consecutive pieces rD0 … rD3
   (89 + 81 + 13 + 6 = 189), and that the four in order are rS3. The cuts fall after the start offsets, after the two
   columns of the index array and after the new tokens' destinations, as the kernel side's do. -/
import proofs.«408099_j23811298689264_3_alg».proof.Proof.Bridge.SplitR

set_option maxRecDepth 8192

noncomputable section

namespace Cert.Bridge

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- The reference's last stretch up to the start offsets (89). -/
abbrev rD0 : List (HloOp τ sig (Elt F)) :=
  [ StableHlo.nullary main_c_40 (constantI S_ 32 65536#32),
    StableHlo.TRef.unary (.of main_c_40 : StableHlo.TRef sig ⟨S_, .i32⟩) main_call16.v0 id,
    StableHlo.TRef.unary main_call16.v0 main_call16.v1 (broadcastInDim S512x256 ![] bcast_S_S512x256),
    StableHlo.TRef.ternary (.of main_v93 : StableHlo.TRef sig ⟨S512x256, .i1⟩) (.of main_v108 : StableHlo.TRef sig ⟨S512x256, .i32⟩) main_call16.v1 main_call16.v2 select,
    StableHlo.nullary main_c_41 (constantI S_ 32 0#32),
    StableHlo.unary main_c_41 main_v127 (broadcastInDim S512x256 ![] bcast_S_S512x256 : (⟨S_, .i32⟩ : BufTy).Contents (Elt F) → (⟨S512x256, .i32⟩ : BufTy).Contents (Elt F)),
    StableHlo.binary main_v126 main_v127 main_v128 (cmpi .slt : (⟨S512x256, .i32⟩ : BufTy).Contents (Elt F) → (⟨S512x256, .i32⟩ : BufTy).Contents (Elt F) → (⟨S512x256, .i1⟩ : BufTy).Contents (Elt F)),
    StableHlo.nullary main_c_42 (constantI S_ 32 65536#32),
    StableHlo.unary main_c_42 main_v129 (broadcastInDim S512x256 ![] bcast_S_S512x256 : (⟨S_, .i32⟩ : BufTy).Contents (Elt F) → (⟨S512x256, .i32⟩ : BufTy).Contents (Elt F)),
    StableHlo.binary main_v126 main_v129 main_v130 (addi : (⟨S512x256, .i32⟩ : BufTy).Contents (Elt F) → (⟨S512x256, .i32⟩ : BufTy).Contents (Elt F) → (⟨S512x256, .i32⟩ : BufTy).Contents (Elt F)),
    StableHlo.ternary main_v128 main_v130 main_v126 main_v131 (select : (⟨S512x256, .i1⟩ : BufTy).Contents (Elt F) → (⟨S512x256, .i32⟩ : BufTy).Contents (Elt F) → (⟨S512x256, .i32⟩ : BufTy).Contents (Elt F) → (⟨S512x256, .i32⟩ : BufTy).Contents (Elt F)),
    StableHlo.unary main_v131 main_v132 (broadcastInDim S512x256x1 ![0, 1] bcast_S512x256_S512x256x1_0_1 : (⟨S512x256, .i32⟩ : BufTy).Contents (Elt F) → (⟨S512x256x1, .i32⟩ : BufTy).Contents (Elt F)),
    StableHlo.nullary main_c_43 (constantI S_ 32 1#32),
    StableHlo.unary main_c_43 main_v133 (broadcastInDim S512x256 ![] bcast_S_S512x256 : (⟨S_, .i32⟩ : BufTy).Contents (Elt F) → (⟨S512x256, .i32⟩ : BufTy).Contents (Elt F)),
    StableHlo.ternary main_arg3 main_v132 main_v133 main_v134 ((fun x i u => Host.scatter scatter_S65536_S512x256x1_S512x256_n_0_0_2 IntOp.addi x i u) : (⟨S65536, .i32⟩ : BufTy).Contents (Elt F) → (⟨S512x256x1, .i32⟩ : BufTy).Contents (Elt F) → (⟨S512x256, .i32⟩ : BufTy).Contents (Elt F) → (⟨S65536, .i32⟩ : BufTy).Contents (Elt F)),
    StableHlo.nullary main_c_44 (constantI S_ 32 0#32),
    StableHlo.unary main_c_44 main_v135 (broadcastInDim S512 ![] bcast_S_S512 : (⟨S_, .i32⟩ : BufTy).Contents (Elt F) → (⟨S512, .i32⟩ : BufTy).Contents (Elt F)),
    StableHlo.binary main_v20 main_v135 main_v136 (cmpi .sge : (⟨S512, .i32⟩ : BufTy).Contents (Elt F) → (⟨S512, .i32⟩ : BufTy).Contents (Elt F) → (⟨S512, .i1⟩ : BufTy).Contents (Elt F)),
    StableHlo.unary main_v136 main_v137 (broadcastInDim S512x1 ![0] bcast_S512_S512x1_0 : (⟨S512, .i1⟩ : BufTy).Contents (Elt F) → (⟨S512x1, .i1⟩ : BufTy).Contents (Elt F)),
    StableHlo.nullary main_c_45 (constantI S_ 32 0#32),
    StableHlo.unary main_c_45 main_v138 (broadcastInDim S512 ![] bcast_S_S512 : (⟨S_, .i32⟩ : BufTy).Contents (Elt F) → (⟨S512, .i32⟩ : BufTy).Contents (Elt F)),
    StableHlo.binary main_v26 main_v138 main_v139 (cmpi .slt : (⟨S512, .i32⟩ : BufTy).Contents (Elt F) → (⟨S512, .i32⟩ : BufTy).Contents (Elt F) → (⟨S512, .i1⟩ : BufTy).Contents (Elt F)),
    StableHlo.nullary main_c_46 (constantI S_ 32 512#32),
    StableHlo.unary main_c_46 main_v140 (broadcastInDim S512 ![] bcast_S_S512 : (⟨S_, .i32⟩ : BufTy).Contents (Elt F) → (⟨S512, .i32⟩ : BufTy).Contents (Elt F)),
    StableHlo.binary main_v26 main_v140 main_v141 (addi : (⟨S512, .i32⟩ : BufTy).Contents (Elt F) → (⟨S512, .i32⟩ : BufTy).Contents (Elt F) → (⟨S512, .i32⟩ : BufTy).Contents (Elt F)),
    StableHlo.ternary main_v139 main_v141 main_v26 main_v142 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v142 main_v143 (broadcastInDim S512x1 ![0] bcast_S512_S512x1_0 : (⟨S512, .i32⟩ : BufTy).Contents (Elt F) → (⟨S512x1, .i32⟩ : BufTy).Contents (Elt F)),
    StableHlo.binary main_v125 main_v143 main_v144 ((fun x i => Host.gather gather_S512x256_S512x1_S512x256_1_0_n_n_0_1_1256 x i) : (⟨S512x256, .i32⟩ : BufTy).Contents (Elt F) → (⟨S512x1, .i32⟩ : BufTy).Contents (Elt F) → (⟨S512x256, .i32⟩ : BufTy).Contents (Elt F)),
    StableHlo.TRef.unary (.of main_v137 : StableHlo.TRef sig ⟨S512x1, .i1⟩) main_call17.v0 (broadcastInDim S512x256 ![0, 1] bcast_S512x1_S512x256_0_1),
    StableHlo.TRef.unary (.of main_c : StableHlo.TRef sig ⟨S_, .i32⟩) main_call17.v1 (broadcastInDim S512x256 ![] bcast_S_S512x256),
    StableHlo.TRef.ternary main_call17.v0 (.of main_v144 : StableHlo.TRef sig ⟨S512x256, .i32⟩) main_call17.v1 main_call17.v2 select,
    StableHlo.nullary main_c_47 (constantI S_ 32 0#32),
    StableHlo.unary main_c_47 main_v146 (broadcastInDim S512 ![] bcast_S_S512 : (⟨S_, .i32⟩ : BufTy).Contents (Elt F) → (⟨S512, .i32⟩ : BufTy).Contents (Elt F)),
    StableHlo.binary main_v26 main_v146 main_v147 (cmpi .slt : (⟨S512, .i32⟩ : BufTy).Contents (Elt F) → (⟨S512, .i32⟩ : BufTy).Contents (Elt F) → (⟨S512, .i1⟩ : BufTy).Contents (Elt F)),
    StableHlo.nullary main_c_48 (constantI S_ 32 512#32),
    StableHlo.unary main_c_48 main_v148 (broadcastInDim S512 ![] bcast_S_S512 : (⟨S_, .i32⟩ : BufTy).Contents (Elt F) → (⟨S512, .i32⟩ : BufTy).Contents (Elt F)),
    StableHlo.binary main_v26 main_v148 main_v149 (addi : (⟨S512, .i32⟩ : BufTy).Contents (Elt F) → (⟨S512, .i32⟩ : BufTy).Contents (Elt F) → (⟨S512, .i32⟩ : BufTy).Contents (Elt F)),
    StableHlo.ternary main_v147 main_v149 main_v26 main_v150 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v150 main_v151 (broadcastInDim S512x1 ![0] bcast_S512_S512x1_0 : (⟨S512, .i32⟩ : BufTy).Contents (Elt F) → (⟨S512x1, .i32⟩ : BufTy).Contents (Elt F)),
    StableHlo.binary main_v42 main_v151 main_v152 ((fun x i => Host.gather gather_S512_S512x1_S512_n_0_n_n_0_1_1 x i) : (⟨S512, .i32⟩ : BufTy).Contents (Elt F) → (⟨S512x1, .i32⟩ : BufTy).Contents (Elt F) → (⟨S512, .i32⟩ : BufTy).Contents (Elt F)),
    StableHlo.TRef.unary (.of main_c : StableHlo.TRef sig ⟨S_, .i32⟩) main_call18.v0 (broadcastInDim S512 ![] bcast_S_S512),
    StableHlo.TRef.ternary (.of main_v136 : StableHlo.TRef sig ⟨S512, .i1⟩) (.of main_v152 : StableHlo.TRef sig ⟨S512, .i32⟩) main_call18.v0 main_call18.v1 select,
    StableHlo.unary main_v136 main_v154 ((extui 32 · natLt_1_32) : (⟨S512, .i1⟩ : BufTy).Contents (Elt F) → (⟨S512, .i32⟩ : BufTy).Contents (Elt F)),
    StableHlo.nullary main_c_49 (constantI S_ 32 0#32),
    StableHlo.binary main_v154 main_c_49 main_v155 ((fun x v => Host.reduce IntOp.addi x v reducesTo_S512_S_d0 h_S_) : (⟨S512, .i32⟩ : BufTy).Contents (Elt F) → (⟨S_, .i32⟩ : BufTy).Contents (Elt F) → (⟨S_, .i32⟩ : BufTy).Contents (Elt F)),
    StableHlo.unary main_v2 main_v156 (broadcastInDim S65536x1 ![0] bcast_S65536_S65536x1_0 : (⟨S65536, .i32⟩ : BufTy).Contents (Elt F) → (⟨S65536x1, .i32⟩ : BufTy).Contents (Elt F)),
    StableHlo.nullary main_v157 (iotaInDim S513 32 0),
    StableHlo.unary main_v157 main_v158 (broadcastInDim S1x513 ![1] bcast_S513_S1x513_1 : (⟨S513, .i32⟩ : BufTy).Contents (Elt F) → (⟨S1x513, .i32⟩ : BufTy).Contents (Elt F)),
    StableHlo.unary main_v156 main_v159 (broadcastInDim S65536x513 ![0, 1] bcast_S65536x1_S65536x513_0_1 : (⟨S65536x1, .i32⟩ : BufTy).Contents (Elt F) → (⟨S65536x513, .i32⟩ : BufTy).Contents (Elt F)),
    StableHlo.unary main_v158 main_v160 (broadcastInDim S65536x513 ![0, 1] bcast_S1x513_S65536x513_0_1 : (⟨S1x513, .i32⟩ : BufTy).Contents (Elt F) → (⟨S65536x513, .i32⟩ : BufTy).Contents (Elt F)),
    StableHlo.binary main_v159 main_v160 main_v161 (cmpi .eq : (⟨S65536x513, .i32⟩ : BufTy).Contents (Elt F) → (⟨S65536x513, .i32⟩ : BufTy).Contents (Elt F) → (⟨S65536x513, .i1⟩ : BufTy).Contents (Elt F)),
    StableHlo.unary main_v161 main_v162 ((extui 32 · natLt_1_32) : (⟨S65536x513, .i1⟩ : BufTy).Contents (Elt F) → (⟨S65536x513, .i32⟩ : BufTy).Contents (Elt F)),
    StableHlo.TRef.nullary main_call19.call0.c (constantI S_ 32 0#32),
    StableHlo.TRef.unary main_call19.call0.c main_call19.call0.v0 (broadcastInDim S_ ![] bcast_S_S_),
    StableHlo.TRef.binary (.of main_v162 : StableHlo.TRef sig ⟨S65536x513, .i32⟩) main_call19.call0.v0 main_call19.call0.v1 (fun x v => Host.reduceWindow IntOp.addi ![65536, 1] ![1, 1] ![65535, 0] ![0, 0] x v reduceWindows_S65536x513_S65536x513_w65536s1p65535_0_w1s1p0_0 h_S_),
    StableHlo.unary main_v2 main_v164 (broadcastInDim S65536x1 ![0] bcast_S65536_S65536x1_0 : (⟨S65536, .i32⟩ : BufTy).Contents (Elt F) → (⟨S65536x1, .i32⟩ : BufTy).Contents (Elt F)),
    StableHlo.TRef.nullary main_call20.c (constantI S_ 32 0#32),
    StableHlo.TRef.unary main_call20.c main_call20.v0 (broadcastInDim S65536x1 ![] bcast_S_S65536x1),
    StableHlo.TRef.binary (.of main_v164 : StableHlo.TRef sig ⟨S65536x1, .i32⟩) main_call20.v0 main_call20.v1 (cmpi .slt),
    StableHlo.TRef.nullary main_call20.c_0 (constantI S_ 32 513#32),
    StableHlo.TRef.unary main_call20.c_0 main_call20.v2 (broadcastInDim S65536x1 ![] bcast_S_S65536x1),
    StableHlo.TRef.binary (.of main_v164 : StableHlo.TRef sig ⟨S65536x1, .i32⟩) main_call20.v2 main_call20.v3 addi,
    StableHlo.TRef.ternary main_call20.v1 main_call20.v3 (.of main_v164 : StableHlo.TRef sig ⟨S65536x1, .i32⟩) main_call20.v4 select,
    StableHlo.TRef.reshape main_call20.v4 main_call20.v5 rfl shapeCasts_S65536x1_S65536x1x1,
    StableHlo.TRef.nullary main_call20.c_1 (constantI S1 32 512#32),
    StableHlo.TRef.nullary main_call20.c_2 (constantI S_ 32 0#32),
    StableHlo.TRef.unary main_call20.c_2 main_call20.v6 (broadcastInDim S65536x1x1 ![] bcast_S_S65536x1x1),
    StableHlo.TRef.binary main_call20.v5 main_call20.v6 main_call20.v7 (cmpi .sge),
    StableHlo.TRef.unary main_call20.c_1 main_call20.v8 (broadcastInDim S1x1x1 ![2] bcast_S1_S1x1x1_2),
    StableHlo.TRef.unary main_call20.v8 main_call20.v9 (broadcastInDim S65536x1x1 ![0, 1, 2] bcast_S1x1x1_S65536x1x1_0_1_2),
    StableHlo.TRef.binary main_call20.v5 main_call20.v9 main_call20.v10 (cmpi .sle),
    StableHlo.TRef.binary main_call20.v7 main_call20.v10 main_call20.v11 andi,
    StableHlo.TRef.nullary main_call20.c_3 (constantI S_ 1 1#1),
    StableHlo.TRef.binary main_call20.v11 main_call20.c_3 main_call20.v12 (fun x v => Host.reduce IntOp.andi x v reducesTo_S65536x1x1_S65536x1_d2 h_S_),
    StableHlo.TRef.binary (.of main_v163 : StableHlo.TRef sig ⟨S65536x513, .i32⟩) main_call20.v5 main_call20.v13 (fun x i => Host.gather gather_S65536x513_S65536x1x1_S65536x1_n_1_0_0_1_2_11 x i),
    StableHlo.TRef.nullary main_call20.c_4 (constantI S_ 32 2147483648#32),
    StableHlo.TRef.unary main_call20.c_4 main_call20.v14 (broadcastInDim S65536x1 ![] bcast_S_S65536x1),
    StableHlo.TRef.ternary main_call20.v12 main_call20.v13 main_call20.v14 main_call20.v15 select,
    StableHlo.reshape main_v165 main_v166 rfl shapeCasts_S65536x1_S65536,
    StableHlo.nullary main_c_50 (constantI S_ 32 1#32),
    StableHlo.unary main_c_50 main_v167 (broadcastInDim S65536 ![] bcast_S_S65536 : (⟨S_, .i32⟩ : BufTy).Contents (Elt F) → (⟨S65536, .i32⟩ : BufTy).Contents (Elt F)),
    StableHlo.binary main_v166 main_v167 main_v168 (subi : (⟨S65536, .i32⟩ : BufTy).Contents (Elt F) → (⟨S65536, .i32⟩ : BufTy).Contents (Elt F) → (⟨S65536, .i32⟩ : BufTy).Contents (Elt F)),
    StableHlo.nullary main_c_51 (constantI S_ 32 0#32),
    StableHlo.unary main_c_51 main_v169 (broadcastInDim S512 ![] bcast_S_S512 : (⟨S_, .i32⟩ : BufTy).Contents (Elt F) → (⟨S512, .i32⟩ : BufTy).Contents (Elt F)),
    StableHlo.binary main_arg1 main_v169 main_v170 (cmpi .slt : (⟨S512, .i32⟩ : BufTy).Contents (Elt F) → (⟨S512, .i32⟩ : BufTy).Contents (Elt F) → (⟨S512, .i1⟩ : BufTy).Contents (Elt F)),
    StableHlo.nullary main_c_52 (constantI S_ 32 0#32),
    StableHlo.TRef.unary (.of main_c_52 : StableHlo.TRef sig ⟨S_, .i32⟩) main_call21.v0 id,
    StableHlo.TRef.unary main_call21.v0 main_call21.v1 (broadcastInDim S512 ![] bcast_S_S512),
    StableHlo.TRef.ternary (.of main_v170 : StableHlo.TRef sig ⟨S512, .i1⟩) main_call21.v1 (.of main_arg1 : StableHlo.TRef sig ⟨S512, .i32⟩) main_call21.v2 select ]

/-- From there up to the two columns of the index array (81). -/
abbrev rD1 : List (HloOp τ sig (Elt F)) :=
  [ StableHlo.nullary main_c_53 (constantI S_ 32 512#32),
    StableHlo.unary main_c_53 main_v172 (broadcastInDim S65536 ![] bcast_S_S65536 : (⟨S_, .i32⟩ : BufTy).Contents (Elt F) → (⟨S65536, .i32⟩ : BufTy).Contents (Elt F)),
    StableHlo.binary main_v2 main_v172 main_v173 (cmpi .slt : (⟨S65536, .i32⟩ : BufTy).Contents (Elt F) → (⟨S65536, .i32⟩ : BufTy).Contents (Elt F) → (⟨S65536, .i1⟩ : BufTy).Contents (Elt F)),
    StableHlo.nullary main_c_54 (constantI S_ 32 0#32),
    StableHlo.TRef.unary (.of main_c_54 : StableHlo.TRef sig ⟨S_, .i32⟩) main_call22.v0 id,
    StableHlo.TRef.unary main_call22.v0 main_call22.v1 (broadcastInDim S65536 ![] bcast_S_S65536),
    StableHlo.TRef.ternary (.of main_v173 : StableHlo.TRef sig ⟨S65536, .i1⟩) (.of main_v2 : StableHlo.TRef sig ⟨S65536, .i32⟩) main_call22.v1 main_call22.v2 select,
    StableHlo.nullary main_c_55 (constantI S_ 32 0#32),
    StableHlo.unary main_c_55 main_v175 (broadcastInDim S65536 ![] bcast_S_S65536 : (⟨S_, .i32⟩ : BufTy).Contents (Elt F) → (⟨S65536, .i32⟩ : BufTy).Contents (Elt F)),
    StableHlo.binary main_v174 main_v175 main_v176 (cmpi .slt : (⟨S65536, .i32⟩ : BufTy).Contents (Elt F) → (⟨S65536, .i32⟩ : BufTy).Contents (Elt F) → (⟨S65536, .i1⟩ : BufTy).Contents (Elt F)),
    StableHlo.nullary main_c_56 (constantI S_ 32 512#32),
    StableHlo.unary main_c_56 main_v177 (broadcastInDim S65536 ![] bcast_S_S65536 : (⟨S_, .i32⟩ : BufTy).Contents (Elt F) → (⟨S65536, .i32⟩ : BufTy).Contents (Elt F)),
    StableHlo.binary main_v174 main_v177 main_v178 (addi : (⟨S65536, .i32⟩ : BufTy).Contents (Elt F) → (⟨S65536, .i32⟩ : BufTy).Contents (Elt F) → (⟨S65536, .i32⟩ : BufTy).Contents (Elt F)),
    StableHlo.ternary main_v176 main_v178 main_v174 main_v179 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v179 main_v180 (broadcastInDim S65536x1 ![0] bcast_S65536_S65536x1_0 : (⟨S65536, .i32⟩ : BufTy).Contents (Elt F) → (⟨S65536x1, .i32⟩ : BufTy).Contents (Elt F)),
    StableHlo.binary main_v171 main_v180 main_v181 ((fun x i => Host.gather gather_S512_S65536x1_S65536_n_0_n_n_0_1_1 x i) : (⟨S512, .i32⟩ : BufTy).Contents (Elt F) → (⟨S65536x1, .i32⟩ : BufTy).Contents (Elt F) → (⟨S65536, .i32⟩ : BufTy).Contents (Elt F)),
    StableHlo.binary main_v181 main_v168 main_v182 (addi : (⟨S65536, .i32⟩ : BufTy).Contents (Elt F) → (⟨S65536, .i32⟩ : BufTy).Contents (Elt F) → (⟨S65536, .i32⟩ : BufTy).Contents (Elt F)),
    StableHlo.nullary main_c_57 (constantI S_ 32 128#32),
    StableHlo.TRef.unary (.of main_c_57 : StableHlo.TRef sig ⟨S_, .i32⟩) main_call23.v0 id,
    StableHlo.TRef.unary main_call23.v0 main_call23.v1 (broadcastInDim S65536 ![] bcast_S_S65536),
    StableHlo.TRef.binary (.of main_v182 : StableHlo.TRef sig ⟨S65536, .i32⟩) main_call23.v1 main_call23.v2 Host.divsi,
    StableHlo.TRef.unary (.of main_v182 : StableHlo.TRef sig ⟨S65536, .i32⟩) main_call23.v3 signi,
    StableHlo.TRef.unary main_call23.v0 main_call23.v4 signi,
    StableHlo.TRef.unary main_call23.v4 main_call23.v5 (broadcastInDim S65536 ![] bcast_S_S65536),
    StableHlo.TRef.binary main_call23.v3 main_call23.v5 main_call23.v6 (cmpi .ne),
    StableHlo.TRef.unary main_call23.v0 main_call23.v7 (broadcastInDim S65536 ![] bcast_S_S65536),
    StableHlo.TRef.binary (.of main_v182 : StableHlo.TRef sig ⟨S65536, .i32⟩) main_call23.v7 main_call23.v8 Host.remsi,
    StableHlo.TRef.nullary main_call23.c (constantI S_ 32 0#32),
    StableHlo.TRef.unary main_call23.c main_call23.v9 (broadcastInDim S65536 ![] bcast_S_S65536),
    StableHlo.TRef.binary main_call23.v8 main_call23.v9 main_call23.v10 (cmpi .ne),
    StableHlo.TRef.binary main_call23.v6 main_call23.v10 main_call23.v11 andi,
    StableHlo.TRef.nullary main_call23.c_0 (constantI S_ 32 1#32),
    StableHlo.TRef.unary main_call23.c_0 main_call23.v12 (broadcastInDim S65536 ![] bcast_S_S65536),
    StableHlo.TRef.binary main_call23.v2 main_call23.v12 main_call23.v13 subi,
    StableHlo.TRef.ternary main_call23.v11 main_call23.v13 main_call23.v2 main_call23.call0.v0 select,
    StableHlo.nullary main_c_58 (constantI S_ 32 0#32),
    StableHlo.nullary main_c_59 (constantI S_ 32 255#32),
    StableHlo.TRef.unary (.of main_c_58 : StableHlo.TRef sig ⟨S_, .i32⟩) main_call24.v0 id,
    StableHlo.TRef.unary main_call24.v0 main_call24.v1 (broadcastInDim S65536 ![] bcast_S_S65536),
    StableHlo.TRef.binary main_call24.v1 (.of main_v183 : StableHlo.TRef sig ⟨S65536, .i32⟩) main_call24.v2 maxsi,
    StableHlo.TRef.unary (.of main_c_59 : StableHlo.TRef sig ⟨S_, .i32⟩) main_call24.v3 id,
    StableHlo.TRef.unary main_call24.v3 main_call24.v4 (broadcastInDim S65536 ![] bcast_S_S65536),
    StableHlo.TRef.binary main_call24.v4 main_call24.v2 main_call24.v5 minsi,
    StableHlo.nullary main_c_60 (constantI S_ 32 128#32),
    StableHlo.TRef.unary (.of main_c_60 : StableHlo.TRef sig ⟨S_, .i32⟩) main_call25.v0 id,
    StableHlo.TRef.nullary main_call25.c (constantI S_ 32 0#32),
    StableHlo.TRef.binary main_call25.v0 main_call25.c main_call25.v1 (cmpi .eq),
    StableHlo.TRef.nullary main_call25.c_0 (constantI S_ 32 1#32),
    StableHlo.TRef.ternary main_call25.v1 main_call25.c_0 main_call25.v0 main_call25.call0.v0 select,
    StableHlo.TRef.unary main_call25.call0.v0 main_call25.v3 (broadcastInDim S65536 ![] bcast_S_S65536),
    StableHlo.TRef.binary (.of main_v182 : StableHlo.TRef sig ⟨S65536, .i32⟩) main_call25.v3 main_call25.v4 Host.remsi,
    StableHlo.TRef.nullary main_call25.c_1 (constantI S_ 32 0#32),
    StableHlo.TRef.unary main_call25.c_1 main_call25.v5 (broadcastInDim S65536 ![] bcast_S_S65536),
    StableHlo.TRef.binary main_call25.v4 main_call25.v5 main_call25.v6 (cmpi .ne),
    StableHlo.TRef.nullary main_call25.c_2 (constantI S_ 32 0#32),
    StableHlo.TRef.unary main_call25.c_2 main_call25.v7 (broadcastInDim S65536 ![] bcast_S_S65536),
    StableHlo.TRef.binary main_call25.v4 main_call25.v7 main_call25.v8 (cmpi .slt),
    StableHlo.TRef.nullary main_call25.c_3 (constantI S_ 32 0#32),
    StableHlo.TRef.binary main_call25.call0.v0 main_call25.c_3 main_call25.v9 (cmpi .slt),
    StableHlo.TRef.unary main_call25.v9 main_call25.v10 (broadcastInDim S65536 ![] bcast_S_S65536),
    StableHlo.TRef.binary main_call25.v8 main_call25.v10 main_call25.v11 (cmpi .ne),
    StableHlo.TRef.binary main_call25.v11 main_call25.v6 main_call25.v12 andi,
    StableHlo.TRef.unary main_call25.call0.v0 main_call25.v13 (broadcastInDim S65536 ![] bcast_S_S65536),
    StableHlo.TRef.binary main_call25.v4 main_call25.v13 main_call25.v14 addi,
    StableHlo.TRef.ternary main_call25.v12 main_call25.v14 main_call25.v4 main_call25.v15 select,
    StableHlo.nullary main_c_61 (constantI S_ 32 0#32),
    StableHlo.unary main_c_61 main_v186 (broadcastInDim S65536 ![] bcast_S_S65536 : (⟨S_, .i32⟩ : BufTy).Contents (Elt F) → (⟨S65536, .i32⟩ : BufTy).Contents (Elt F)),
    StableHlo.binary main_v174 main_v186 main_v187 (cmpi .slt : (⟨S65536, .i32⟩ : BufTy).Contents (Elt F) → (⟨S65536, .i32⟩ : BufTy).Contents (Elt F) → (⟨S65536, .i1⟩ : BufTy).Contents (Elt F)),
    StableHlo.nullary main_c_62 (constantI S_ 32 512#32),
    StableHlo.unary main_c_62 main_v188 (broadcastInDim S65536 ![] bcast_S_S65536 : (⟨S_, .i32⟩ : BufTy).Contents (Elt F) → (⟨S65536, .i32⟩ : BufTy).Contents (Elt F)),
    StableHlo.binary main_v174 main_v188 main_v189 (addi : (⟨S65536, .i32⟩ : BufTy).Contents (Elt F) → (⟨S65536, .i32⟩ : BufTy).Contents (Elt F) → (⟨S65536, .i32⟩ : BufTy).Contents (Elt F)),
    StableHlo.ternary main_v187 main_v189 main_v174 main_v190 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.nullary main_c_63 (constantI S_ 32 0#32),
    StableHlo.unary main_c_63 main_v191 (broadcastInDim S65536 ![] bcast_S_S65536 : (⟨S_, .i32⟩ : BufTy).Contents (Elt F) → (⟨S65536, .i32⟩ : BufTy).Contents (Elt F)),
    StableHlo.binary main_v184 main_v191 main_v192 (cmpi .slt : (⟨S65536, .i32⟩ : BufTy).Contents (Elt F) → (⟨S65536, .i32⟩ : BufTy).Contents (Elt F) → (⟨S65536, .i1⟩ : BufTy).Contents (Elt F)),
    StableHlo.nullary main_c_64 (constantI S_ 32 256#32),
    StableHlo.unary main_c_64 main_v193 (broadcastInDim S65536 ![] bcast_S_S65536 : (⟨S_, .i32⟩ : BufTy).Contents (Elt F) → (⟨S65536, .i32⟩ : BufTy).Contents (Elt F)),
    StableHlo.binary main_v184 main_v193 main_v194 (addi : (⟨S65536, .i32⟩ : BufTy).Contents (Elt F) → (⟨S65536, .i32⟩ : BufTy).Contents (Elt F) → (⟨S65536, .i32⟩ : BufTy).Contents (Elt F)),
    StableHlo.ternary main_v192 main_v194 main_v184 main_v195 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v190 main_v196 (broadcastInDim S65536x1 ![0] bcast_S65536_S65536x1_0 : (⟨S65536, .i32⟩ : BufTy).Contents (Elt F) → (⟨S65536x1, .i32⟩ : BufTy).Contents (Elt F)),
    StableHlo.unary main_v195 main_v197 (broadcastInDim S65536x1 ![0] bcast_S65536_S65536x1_0 : (⟨S65536, .i32⟩ : BufTy).Contents (Elt F) → (⟨S65536x1, .i32⟩ : BufTy).Contents (Elt F)) ]

/-- From the index array up to the new tokens' destinations (13). -/
abbrev rD2 : List (HloOp τ sig (Elt F)) :=
  [ StableHlo.binary main_v196 main_v197 main_v198 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    StableHlo.binary main_v125 main_v198 main_v199 ((fun x i => Host.gather gather_S512x256_S65536x2_S65536_n_01_n_n_01_1_11 x i) : (⟨S512x256, .i32⟩ : BufTy).Contents (Elt F) → (⟨S65536x2, .i32⟩ : BufTy).Contents (Elt F) → (⟨S65536, .i32⟩ : BufTy).Contents (Elt F)),
    StableHlo.nullary main_c_65 (constantI S_ 32 0#32),
    StableHlo.unary main_c_65 main_v200 (broadcastInDim S65536 ![] bcast_S_S65536 : (⟨S_, .i32⟩ : BufTy).Contents (Elt F) → (⟨S65536, .i32⟩ : BufTy).Contents (Elt F)),
    StableHlo.binary main_v199 main_v200 main_v201 (cmpi .slt : (⟨S65536, .i32⟩ : BufTy).Contents (Elt F) → (⟨S65536, .i32⟩ : BufTy).Contents (Elt F) → (⟨S65536, .i1⟩ : BufTy).Contents (Elt F)),
    StableHlo.unary main_v173 main_v202 (noti : (⟨S65536, .i1⟩ : BufTy).Contents (Elt F) → (⟨S65536, .i1⟩ : BufTy).Contents (Elt F)),
    StableHlo.binary main_v201 main_v202 main_v203 (ori : (⟨S65536, .i1⟩ : BufTy).Contents (Elt F) → (⟨S65536, .i1⟩ : BufTy).Contents (Elt F) → (⟨S65536, .i1⟩ : BufTy).Contents (Elt F)),
    StableHlo.nullary main_c_66 (constantI S_ 32 128#32),
    StableHlo.unary main_c_66 main_v204 (broadcastInDim S65536 ![] bcast_S_S65536 : (⟨S_, .i32⟩ : BufTy).Contents (Elt F) → (⟨S65536, .i32⟩ : BufTy).Contents (Elt F)),
    StableHlo.binary main_v199 main_v204 main_v205 (muli : (⟨S65536, .i32⟩ : BufTy).Contents (Elt F) → (⟨S65536, .i32⟩ : BufTy).Contents (Elt F) → (⟨S65536, .i32⟩ : BufTy).Contents (Elt F)),
    StableHlo.binary main_v205 main_v185 main_v206 (addi : (⟨S65536, .i32⟩ : BufTy).Contents (Elt F) → (⟨S65536, .i32⟩ : BufTy).Contents (Elt F) → (⟨S65536, .i32⟩ : BufTy).Contents (Elt F)),
    StableHlo.TRef.unary (.of main_c : StableHlo.TRef sig ⟨S_, .i32⟩) main_call26.v0 (broadcastInDim S65536 ![] bcast_S_S65536),
    StableHlo.TRef.ternary (.of main_v203 : StableHlo.TRef sig ⟨S65536, .i1⟩) main_call26.v0 (.of main_v206 : StableHlo.TRef sig ⟨S65536, .i32⟩) main_call26.v1 select ]

/-- The remaining operations (6). -/
abbrev rD3 : List (HloOp τ sig (Elt F)) :=
  [ StableHlo.nullary main_c_67 (constantI S_ 32 0#32),
    StableHlo.unary main_c_67 main_v208 (broadcastInDim S1 ![] bcast_S_S1 : (⟨S_, .i32⟩ : BufTy).Contents (Elt F) → (⟨S1, .i32⟩ : BufTy).Contents (Elt F)),
    StableHlo.TRef.nullary main_call27.call0.c (constantI S_ 32 0#32),
    StableHlo.TRef.unary main_call27.call0.c main_call27.call0.v0 (broadcastInDim S_ ![] bcast_S_S_),
    StableHlo.TRef.binary (.of main_v34 : StableHlo.TRef sig ⟨S512, .i32⟩) main_call27.call0.v0 main_call27.call0.v1 (fun x v => Host.reduceWindow IntOp.addi ![512] ![1] ![511] ![0] x v reduceWindows_S512_S512_w512s1p511_0 h_S_),
    StableHlo.binary main_v208 main_v209 main_v210 ((fun a b => concatenate S513 0 [⟨S1, a⟩, ⟨S512, b⟩] concatenates_S1_S512_S513_d0) : (⟨S1, .i32⟩ : BufTy).Contents (Elt F) → (⟨S512, .i32⟩ : BufTy).Contents (Elt F) → (⟨S513, .i32⟩ : BufTy).Contents (Elt F)) ]

/-- The four pieces in order are the last stretch of the reference's operations. -/
theorem rD_eq : (rS3 (F := F)) = rD0 ++ (rD1 ++ (rD2 ++ rD3)) := rfl

end Cert.Bridge

end
-- ==== Proof.Bridge.DestR.lean ====
import proofs.«408099_j23811298689264_3_alg».proof.Proof.Bridge.DestSplitR
import proofs.«408099_j23811298689264_3_alg».proof.Proof.Bridge.DestChain
import proofs.«408099_j23811298689264_3_alg».proof.Proof.RankRef
import Idealize.ShloMosaic.Lib.StableHlo.Run

/-!
  The reference program's last stretch of operations, read at the new tokens' destinations.

  The stretch is cut in four consecutive pieces, as the kernel program's is.  Piece 0 computes the ranks from the
  tokens (the indicator array, its running sum down the token axis, the sum read at each token's own id, less
  one) and the sequences' start positions (the second argument with its negative words replaced by 0), and
  writes neither the tokens, nor the new page table, nor the constant -1.  Piece 1 computes the validity bits,
  the two columns of the page table's index array and the cursor's offset in its page.  Piece 2 joins the
  columns, reads the page table and selects the destination, its fill word read from the buffer of the
  constant -1.  Piece 3 writes other results only.  Put together, from any contents W' whose constant buffer
  holds -1, the destinations are `destOf` of its tokens, the start positions of its second argument, its page
  table and the reference's ranks of its tokens.
-/

set_option maxRecDepth 8192

noncomputable section

namespace Cert.Bridge

open Cert.ReferenceIdeal Cert.ReferenceIdeal.Gen Idealize.ShloMosaic Idealize.ShloMosaic.TcCoe Idealize.SL.Sem Idealize.ShloMosaic.StableHlo

variable {F : FTy → Type} [FloatOps F]

/-- The shape relations the ranks' two spellings take as arguments: each holds by computation. -/
theorem rankFacts : Cert.RankRef.Facts := by constructor <;> decide

/-! ## Piece 0 -/

theorem rD0_v2 (V : Valuation τ sig (Elt F)) :
    after (rD0 (F := F)) V (Proc.devRef .tc main_v2) = V (Proc.devRef .tc main_v2) := by
  after_results_simp

theorem rD0_v125 (V : Valuation τ sig (Elt F)) :
    after (rD0 (F := F)) V (Proc.devRef .tc main_v125) = V (Proc.devRef .tc main_v125) := by
  after_results_simp

theorem rD0_c (V : Valuation τ sig (Elt F)) :
    after (rD0 (F := F)) V (Proc.devRef .tc main_c) = V (Proc.devRef .tc main_c) := by
  after_results_simp

/-- The start positions: the second argument, a negative word replaced by 0. -/
theorem rD0_v171 (V : Valuation τ sig (Elt F)) :
    after (rD0 (F := F)) V (Proc.devRef .tc main_v171) = startOf (V (Proc.devRef .tc main_arg1)) := by
  after_results_simp
  rfl

/-- The ranks, from the tokens. -/
theorem rD0_v168 (V : Valuation τ sig (Elt F)) :
    after (rD0 (F := F)) V (Proc.devRef .tc main_v168) = Cert.RankRef.rankR rankFacts (V (Proc.devRef .tc main_v2)) := by
  after_results_simp
  simp only [TRef.ofBuf, TRef.toBuf, cast_eq, id]
  rfl

/-! ## Piece 1 -/

theorem rD1_v125 (V : Valuation τ sig (Elt F)) :
    after (rD1 (F := F)) V (Proc.devRef .tc main_v125) = V (Proc.devRef .tc main_v125) := by
  after_results_simp

theorem rD1_c (V : Valuation τ sig (Elt F)) :
    after (rD1 (F := F)) V (Proc.devRef .tc main_c) = V (Proc.devRef .tc main_c) := by
  after_results_simp

/-- The validity bits. -/
theorem rD1_v173 (V : Valuation τ sig (Elt F)) :
    after (rD1 (F := F)) V (Proc.devRef .tc main_v173) = tokValid (V (Proc.devRef .tc main_v2)) := by
  after_results_simp
  rfl

/-- The index array's first column: the wrapped sequence word. -/
theorem rD1_v196 (V : Valuation τ sig (Elt F)) :
    after (rD1 (F := F)) V (Proc.devRef .tc main_v196) = col (wrapNeg 512#32 (sSafe (V (Proc.devRef .tc main_v2)))) := by
  after_results_simp
  rfl

/-- The index array's second column: the wrapped page number of the cursor. -/
theorem rD1_v197 (V : Valuation τ sig (Elt F)) :
    after (rD1 (F := F)) V (Proc.devRef .tc main_v197)
      = col (wrapNeg 256#32 (clip255 (floorDiv128
          (cursor (V (Proc.devRef .tc main_v2)) (V (Proc.devRef .tc main_v171)) (V (Proc.devRef .tc main_v168)))))) := by
  after_results_simp
  rfl

/-- The cursor's offset in its page. -/
theorem rD1_v185 (V : Valuation τ sig (Elt F)) :
    after (rD1 (F := F)) V (Proc.devRef .tc main_v185)
      = rem128 (cursor (V (Proc.devRef .tc main_v2)) (V (Proc.devRef .tc main_v171)) (V (Proc.devRef .tc main_v168))) := by
  after_results_simp
  rfl

/-! ## Piece 2 -/

/-- The destinations from the validity bits, the page table, the two columns and the offsets, when the constant's
    buffer holds -1. -/
theorem rD2_v207 (V : Valuation τ sig (Elt F)) (hc : V (Proc.devRef .tc main_c) = constantI S_ 32 4294967295#32) :
    after (rD2 (F := F)) V (Proc.devRef .tc main_v207)
      = destSel (V (Proc.devRef .tc main_v173))
          (Host.gather gd2 (V (Proc.devRef .tc main_v125))
            (concatenate TNx2 1 [⟨TNx1, V (Proc.devRef .tc main_v196)⟩, ⟨TNx1, V (Proc.devRef .tc main_v197)⟩] cat_h))
          (V (Proc.devRef .tc main_v185)) := by
  after_results_simp
  rw [hc]
  rfl

/-! ## Piece 3 -/

theorem rD3_v207 (V : Valuation τ sig (Elt F)) :
    after (rD3 (F := F)) V (Proc.devRef .tc main_v207) = V (Proc.devRef .tc main_v207) := by
  after_results_simp

/-! ## The stretch -/

/-- From any contents whose constant buffer holds -1, the last stretch leaves at the new tokens' destinations
    `destOf` of the tokens, the start positions of the second argument, the new page table and the reference's
    ranks of the tokens. -/
theorem ref_dest (W : Valuation τ sig (Elt F)) (hc : W (Proc.devRef .tc main_c) = constantI S_ 32 4294967295#32) :
    after (rS3 (F := F)) W (Proc.devRef .tc main_v207)
      = destOf (W (Proc.devRef .tc main_v2)) (startOf (W (Proc.devRef .tc main_arg1)))
          (W (Proc.devRef .tc main_v125)) (Cert.RankRef.rankR rankFacts (W (Proc.devRef .tc main_v2))) := by
  rw [rD_eq, after_append, after_append, after_append, rD3_v207,
    rD2_v207 _ (by rw [rD1_c, rD0_c]; exact hc),
    rD1_v173, rD1_v125, rD1_v196, rD1_v197, rD1_v185, rD0_v2, rD0_v125, rD0_v171, rD0_v168]
  rfl

end Cert.Bridge

end
-- ==== Proof.Bridge.Result7.lean ====
import proofs.«408099_j23811298689264_3_alg».proof.Proof.Bridge.DestK
import proofs.«408099_j23811298689264_3_alg».proof.Proof.Bridge.DestR
import proofs.«408099_j23811298689264_3_alg».proof.Proof.RankRef
import Idealize.ShloMosaic.PureOps.Ideal

/-!
  The eighth result, the new tokens' destinations: the two programs' last stretches leave the same array.

  Both stretches leave `destOf` of the tokens, the start positions, the new page table and a rank array
  (the kernel program's is the rank row its region wrote, flattened; the reference's is computed from the
  tokens by a running sum).  The tokens, the second argument and the new page table agree on entry.  The two
  rank arrays agree at every token whose sequence word is below 512, the tokens having no negative word; and
  `destOf` reads the ranks at those tokens only.
-/

set_option maxRecDepth 8192

noncomputable section

namespace Cert.Bridge

open Idealize.ShloMosaic Idealize.SL.Sem Idealize.ShloMosaic.StableHlo

/-- From contents that agree on the tokens, the second argument and the new page table, the reference's constant
    buffer holding -1, the kernel's ranks being the rank row of its tokens and no token being negative, the two
    last stretches leave the same destinations. -/
theorem result7
    (W : Valuation Cert.KernelIdeal.τ Cert.KernelIdeal.sig (Elt Ideal))
    (W' : Valuation Cert.ReferenceIdeal.τ Cert.ReferenceIdeal.sig (Elt Ideal))
    (htok : W (Proc.devRef .tc Cert.KernelIdeal.main_v2) = W' (Proc.devRef .tc Cert.ReferenceIdeal.main_v2))
    (ha1 : W (Proc.devRef .tc Cert.KernelIdeal.main_arg1) = W' (Proc.devRef .tc Cert.ReferenceIdeal.main_arg1))
    (h144 : W (Proc.devRef .tc Cert.KernelIdeal.main_v144) = W' (Proc.devRef .tc Cert.ReferenceIdeal.main_v125))
    (hc : W' (Proc.devRef .tc Cert.ReferenceIdeal.main_c) = constantI Cert.ReferenceIdeal.S_ 32 4294967295#32)
    (Fk : Cert.RankRef.Facts)
    (hrank : W (Proc.devRef .tc Cert.KernelIdeal.main_v10)
      = Cert.RankRef.rankK Fk (W (Proc.devRef .tc Cert.KernelIdeal.main_v2)))
    (hnn : ∀ j : TN.Idx, 0 ≤ ((W (Proc.devRef .tc Cert.KernelIdeal.main_v2) : IVec TN 32) j).toInt) :
    after (kS3 (F := Ideal)) W (Proc.devRef .tc Cert.KernelIdeal.main_v213)
      = after (rS3 (F := Ideal)) W' (Proc.devRef .tc Cert.ReferenceIdeal.main_v207) := by
  rw [kernel_dest, ref_dest W' hc, hrank, ← htok, ← ha1, ← h144]
  exact destOf_congr_rank _ _ _ _ _ fun j hv => Cert.RankRef.rank_eq_of_valid Fk _ hnn j hv

end Cert.Bridge

end
-- ==== Proof.Bridge.Main.lean ====
import proofs.«408099_j23811298689264_3_alg».proof.Proof.Bridge.SplitK
import proofs.«408099_j23811298689264_3_alg».proof.Proof.Bridge.SplitR
import proofs.«408099_j23811298689264_3_alg».proof.Proof.Bridge.Stage0
import proofs.«408099_j23811298689264_3_alg».proof.Proof.Bridge.Stage1A
import proofs.«408099_j23811298689264_3_alg».proof.Proof.Bridge.Stage1B
import proofs.«408099_j23811298689264_3_alg».proof.Proof.Bridge.Stage1C
import proofs.«408099_j23811298689264_3_alg».proof.Proof.Bridge.Stage1D
import proofs.«408099_j23811298689264_3_alg».proof.Proof.Bridge.S1
import proofs.«408099_j23811298689264_3_alg».proof.Proof.Bridge.Keep
import proofs.«408099_j23811298689264_3_alg».proof.Proof.Bridge.SKeep
import proofs.«408099_j23811298689264_3_alg».proof.Proof.Bridge.Stage2A
import proofs.«408099_j23811298689264_3_alg».proof.Proof.Bridge.S2V144
import proofs.«408099_j23811298689264_3_alg».proof.Proof.Bridge.SResult1
import proofs.«408099_j23811298689264_3_alg».proof.Proof.Bridge.R3
import proofs.«408099_j23811298689264_3_alg».proof.Proof.Bridge.R4
import proofs.«408099_j23811298689264_3_alg».proof.Proof.Bridge.R5
import proofs.«408099_j23811298689264_3_alg».proof.Proof.Bridge.R6
import proofs.«408099_j23811298689264_3_alg».proof.Proof.Bridge.Result7
import Idealize.ShloMosaic.PureOps.Ideal

/-!
  The eight results of the two programs are equal.

  Both programs' operation lists are cut at the same three points: after the histogram, after the free list, after the
  new page table. Over abstract contents W (kernel side, at the region's exit) and W' (reference, at its launch) that
  agree on the four arguments, with the tokens, the count column and the rank row on the kernel side as the region and
  the operations before it leave them, the values each stretch hands to the next are equal on the two sides: the
  histogram after the first stretch (the histogram lemma), nine values after the second (the free list by the
  sort-partition lemma, the rest operation for operation), the allocation mask, the new pages and the new page table
  after the third, and the results after the fourth (the token destinations by the rank lemma at the valid tokens). A
  value an intermediate stretch does not write is carried across it unchanged on either side.
-/

set_option maxRecDepth 8192

noncomputable section

namespace Cert.Bridge

open Idealize.ShloMosaic Idealize.ShloMosaic.TcCoe Idealize.SL.Sem Idealize.ShloMosaic.StableHlo

local notation "KV" => Valuation Cert.KernelIdeal.τ Cert.KernelIdeal.sig (Elt Ideal)
local notation "RV" => Valuation Cert.ReferenceIdeal.τ Cert.ReferenceIdeal.sig (Elt Ideal)
local notation "k[" x "]" => Proc.devRef (τ := Cert.KernelIdeal.τ) (sig := Cert.KernelIdeal.sig) Proc.tc x
local notation "r[" x "]" => Proc.devRef (τ := Cert.ReferenceIdeal.τ) (sig := Cert.ReferenceIdeal.sig) Proc.tc x

/-- The kernel side's operations after the region, stretch by stretch. -/
theorem after_tail (W : KV) : StableHlo.after (Cert.KernelIdeal.Hand.tailOpss (F := Ideal)).flatten W
    = StableHlo.after kS3 (StableHlo.after kS2 (StableHlo.after kS1 (StableHlo.after kS0 W))) := by
  rw [kS_eq, StableHlo.after_append, StableHlo.after_append, StableHlo.after_append]

/-- The reference's operations, stretch by stretch. -/
theorem after_ops (W' : RV) : StableHlo.after (Cert.ReferenceIdeal.Hand.ops (F := Ideal)) W'
    = StableHlo.after rS3 (StableHlo.after rS2 (StableHlo.after rS1 (StableHlo.after rS0 W'))) := by
  rw [rS_eq, StableHlo.after_append, StableHlo.after_append, StableHlo.after_append]

/-- The eight results are equal, position by position. -/
theorem results_eq (W : KV) (W' : RV)
    (ha0 : W (Proc.devRef .tc Cert.KernelIdeal.main_arg0) = W' (Proc.devRef .tc Cert.ReferenceIdeal.main_arg0))
    (ha1 : W (Proc.devRef .tc Cert.KernelIdeal.main_arg1) = W' (Proc.devRef .tc Cert.ReferenceIdeal.main_arg1))
    (ha2 : W (Proc.devRef .tc Cert.KernelIdeal.main_arg2) = W' (Proc.devRef .tc Cert.ReferenceIdeal.main_arg2))
    (ha3 : W (Proc.devRef .tc Cert.KernelIdeal.main_arg3) = W' (Proc.devRef .tc Cert.ReferenceIdeal.main_arg3))
    (htok : W (Proc.devRef .tc Cert.KernelIdeal.main_v2)
      = select (cmpi .slt (W (Proc.devRef .tc Cert.KernelIdeal.main_arg0)) (broadcastInDim Cert.KernelIdeal.S65536 ![] Cert.KernelIdeal.Gen.bcast_S_S65536 (constantI Cert.KernelIdeal.S_ 32 0#32)))
          (broadcastInDim Cert.KernelIdeal.S65536 ![] Cert.KernelIdeal.Gen.bcast_S_S65536 (constantI Cert.KernelIdeal.S_ 32 512#32)) (W (Proc.devRef .tc Cert.KernelIdeal.main_arg0)))
    (hcnt : W (Proc.devRef .tc Cert.KernelIdeal.main_v9_1) = Cert.Spec.countsArr (shapeCast Cert.Spec.S1x65536
        (select (cmpi .sgt (W (Proc.devRef .tc Cert.KernelIdeal.main_v2)) (broadcastInDim Cert.KernelIdeal.S65536 ![] Cert.KernelIdeal.Gen.bcast_S_S65536 (constantI Cert.KernelIdeal.S_ 32 512#32)))
          (broadcastInDim Cert.KernelIdeal.S65536 ![] Cert.KernelIdeal.Gen.bcast_S_S65536 (constantI Cert.KernelIdeal.S_ 32 528#32)) (W (Proc.devRef .tc Cert.KernelIdeal.main_v2)))
        Cert.KernelIdeal.Gen.shapeCasts_S65536_S1x65536))
    (hrank : W (Proc.devRef .tc Cert.KernelIdeal.main_v9_0) = Cert.Spec.rankArr (shapeCast Cert.Spec.S1x65536
        (select (cmpi .sgt (W (Proc.devRef .tc Cert.KernelIdeal.main_v2)) (broadcastInDim Cert.KernelIdeal.S65536 ![] Cert.KernelIdeal.Gen.bcast_S_S65536 (constantI Cert.KernelIdeal.S_ 32 512#32)))
          (broadcastInDim Cert.KernelIdeal.S65536 ![] Cert.KernelIdeal.Gen.bcast_S_S65536 (constantI Cert.KernelIdeal.S_ 32 528#32)) (W (Proc.devRef .tc Cert.KernelIdeal.main_v2)))
        Cert.KernelIdeal.Gen.shapeCasts_S65536_S1x65536)) :
    (StableHlo.after (Cert.KernelIdeal.Hand.tailOpss (F := Ideal)).flatten W (Proc.devRef .tc Cert.KernelIdeal.main_v144)
        = StableHlo.after (Cert.ReferenceIdeal.Hand.ops (F := Ideal)) W' (Proc.devRef .tc Cert.ReferenceIdeal.main_v125))
    ∧ (StableHlo.after (Cert.KernelIdeal.Hand.tailOpss (F := Ideal)).flatten W (Proc.devRef .tc Cert.KernelIdeal.main_v153)
        = StableHlo.after (Cert.ReferenceIdeal.Hand.ops (F := Ideal)) W' (Proc.devRef .tc Cert.ReferenceIdeal.main_v134))
    ∧ (StableHlo.after (Cert.KernelIdeal.Hand.tailOpss (F := Ideal)).flatten W (Proc.devRef .tc Cert.KernelIdeal.main_v44)
        = StableHlo.after (Cert.ReferenceIdeal.Hand.ops (F := Ideal)) W' (Proc.devRef .tc Cert.ReferenceIdeal.main_v42))
    ∧ (StableHlo.after (Cert.KernelIdeal.Hand.tailOpss (F := Ideal)).flatten W (Proc.devRef .tc Cert.KernelIdeal.main_v164)
        = StableHlo.after (Cert.ReferenceIdeal.Hand.ops (F := Ideal)) W' (Proc.devRef .tc Cert.ReferenceIdeal.main_v145))
    ∧ (StableHlo.after (Cert.KernelIdeal.Hand.tailOpss (F := Ideal)).flatten W (Proc.devRef .tc Cert.KernelIdeal.main_v172)
        = StableHlo.after (Cert.ReferenceIdeal.Hand.ops (F := Ideal)) W' (Proc.devRef .tc Cert.ReferenceIdeal.main_v153))
    ∧ (StableHlo.after (Cert.KernelIdeal.Hand.tailOpss (F := Ideal)).flatten W (Proc.devRef .tc Cert.KernelIdeal.main_v216)
        = StableHlo.after (Cert.ReferenceIdeal.Hand.ops (F := Ideal)) W' (Proc.devRef .tc Cert.ReferenceIdeal.main_v210))
    ∧ (StableHlo.after (Cert.KernelIdeal.Hand.tailOpss (F := Ideal)).flatten W (Proc.devRef .tc Cert.KernelIdeal.main_v174)
        = StableHlo.after (Cert.ReferenceIdeal.Hand.ops (F := Ideal)) W' (Proc.devRef .tc Cert.ReferenceIdeal.main_v155))
    ∧ (StableHlo.after (Cert.KernelIdeal.Hand.tailOpss (F := Ideal)).flatten W (Proc.devRef .tc Cert.KernelIdeal.main_v213)
        = StableHlo.after (Cert.ReferenceIdeal.Hand.ops (F := Ideal)) W' (Proc.devRef .tc Cert.ReferenceIdeal.main_v207)) := by
  -- the count column and the rank row over the argument's words
  have htok' : W k[Cert.KernelIdeal.main_v2] = tokOf (W k[Cert.KernelIdeal.main_arg0]) := htok
  have hcnt' : W k[Cert.KernelIdeal.main_v9_1] = Cert.Spec.countsArr (rowOf (W k[Cert.KernelIdeal.main_arg0])) := by
    rw [htok] at hcnt; exact hcnt
  have hrank' : W k[Cert.KernelIdeal.main_v9_0] = Cert.Spec.rankArr (rowOf (W k[Cert.KernelIdeal.main_arg0])) := by
    rw [htok] at hrank; exact hrank
  rw [after_tail, after_ops]
  -- after the first stretch
  have e13 := s0_v13 W W' ha0 hcnt'
  have ec1 := s0_c W'
  have ea1_1 := (s0_keepK W).1.trans (ha1.trans (s0_keepR W').1.symm)
  have ea2_1 := (s0_keepK W).2.1.trans (ha2.trans (s0_keepR W').2.1.symm)
  have ea3_1 := (s0_keepK W).2.2.1.trans (ha3.trans (s0_keepR W').2.2.symm)
  have etok1 := (s0_keepK W).2.2.2.trans (s0_tok W W' ha0 htok')
  have erank1 := s0_v10 W rankFacts htok' hrank'
  have ev2_1 := (s0_keepK W).2.2.2
  generalize StableHlo.after (kS0 (F := Ideal)) W = W1 at *
  generalize StableHlo.after (rS0 (F := Ideal)) W' = W1' at *
  -- after the second stretch
  have e22 := s1_v22 W1 W1' e13 ec1
  have e27 := s1_v27 W1 W1' e13 ec1
  have e28 := s1_v28 W1 W1' e13 ec1
  have e44 := s1_v44 W1 W1' e13 ea1_1 ec1
  have e36 := s1_v36 W1 W1' e13 ec1
  have e61 := s1_v61 W1 W1' e13 ea1_1 ec1
  have e68 := s1_v68 W1 W1' e13 ea1_1 ec1
  have e74 := s1_v74 W1 W1' e13 ea1_1 ec1
  have e98 := s1_v98 W1 W1' ea3_1
  have ea1_2 := (s1_keepK W1).1.trans (ea1_1.trans (s1_keepR W1').1.symm)
  have ea2_2 := (s1_keepK W1).2.1.trans (ea2_1.trans (s1_keepR W1').2.1.symm)
  have ea3_2 := (s1_keepK W1).2.2.1.trans (ea3_1.trans (s1_keepR W1').2.2.1.symm)
  have ec2 := (s1_keepR W1').2.2.2.1.trans ec1
  have etok2 := (s1_keepK W1).2.2.2.1.trans (etok1.trans (s1_keepR W1').2.2.2.2.symm)
  have erank2 := (s1_keepK W1).2.2.2.2.trans erank1
  have ev2_2 := (s1_keepK W1).2.2.2.1.trans ev2_1
  generalize StableHlo.after (kS1 (F := Ideal)) W1 = W2 at *
  generalize StableHlo.after (rS1 (F := Ideal)) W1' = W2' at *
  -- after the third stretch
  have e112 := s2_v112 W2 W2' e27 e61 e68
  have e127 := s2_v127 W2 W2' e27 e61 e68 e74 e98
  have e144 := s2_v144 W2 W2' e27 e61 e68 e74 e98 e28 ea2_2
  have ea1_3 := (s2_keepK W2).1.trans (ea1_2.trans (s2_keepR W2').1.symm)
  have ea3_3 := (s2_keepK W2).2.1.trans (ea3_2.trans (s2_keepR W2').2.1.symm)
  have ec3 := (s2_keepR W2').2.2.1.trans ec2
  have etok3 := (s2_keepK W2).2.2.1.trans (etok2.trans (s2_keepR W2').2.2.2.1.symm)
  have erank3 := (s2_keepK W2).2.2.2.1.trans erank2
  have ev2_3 := (s2_keepK W2).2.2.1.trans ev2_2
  have e22_3 := (s2_keepK W2).2.2.2.2.1.trans (e22.trans (s2_keepR W2').2.2.2.2.1.symm)
  have e28_3 := (s2_keepK W2).2.2.2.2.2.1.trans (e28.trans (s2_keepR W2').2.2.2.2.2.1.symm)
  have e36_3 := (s2_keepK W2).2.2.2.2.2.2.trans (e36.trans (s2_keepR W2').2.2.2.2.2.2.symm)
  have e44_3 := (s2_keep_v44 W2).trans (e44.trans (s2_keep_r42 W2').symm)
  generalize StableHlo.after (kS2 (F := Ideal)) W2 = W3 at *
  generalize StableHlo.after (rS2 (F := Ideal)) W2' = W3' at *
  -- the tokens at the last stretch's entry are still the region's: the rank words over them, and no negative word
  have hv2 : W3 k[Cert.KernelIdeal.main_v2] = W k[Cert.KernelIdeal.main_v2] := ev2_3
  have hrank3 : W3 k[Cert.KernelIdeal.main_v10] = Cert.RankRef.rankK rankFacts (W3 k[Cert.KernelIdeal.main_v2]) := by
    rw [hv2]; exact erank3
  have hnn3 : ∀ j : TN.Idx, 0 ≤ ((W3 k[Cert.KernelIdeal.main_v2] : IVec TN 32) j).toInt := by
    intro j
    rw [hv2, htok']
    exact Cert.Histogram.clamp_nonneg (W k[Cert.KernelIdeal.main_arg0]) Cert.KernelIdeal.Gen.bcast_S_S65536 j
  exact ⟨(s3_keep_v144 W3).trans (e144.trans (s3_keep_r125 W3').symm),
    result1 W3 W3' e112 e127 ea3_3,
    (s3_keep_v44 W3).trans (e44_3.trans (s3_keep_r42 W3').symm),
    result3 W3 W3' e22_3 e28_3 e144 ec3,
    result4 W3 W3' e22_3 e28_3 e44_3 ec3,
    result5 W3 W3' e36_3,
    result6 W3 W3' e22_3,
    result7 W3 W3' etok3 ea1_3 e144 ec3 rankFacts hrank3 hnn3⟩

end Cert.Bridge

end
-- ==== Proof.Algebraic.lean ====
/-
  The algebraic conjunct, assembled: at the ideal instance the rank kernel's program and the reference program, from
  memories agreeing on the four arguments, both run; each result of the kernel's program holds the contents the host
  operations after the region compute from the region's exit, each result of the reference the fold of its operations
  over the launch contents, and these agree pairwise (the bridge); the arguments end unchanged in both.
-/
import proofs.«408099_j23811298689264_3_alg».proof.Proof.KI.Results
import proofs.«408099_j23811298689264_3_alg».proof.Proof.KI.PreRead
import proofs.«408099_j23811298689264_3_alg».proof.Proof.KI.Value
import proofs.«408099_j23811298689264_3_alg».proof.Proof.Bridge.Main
import proofs.«408099_j23811298689264_3_alg».proof.Proof.Ref.Run

set_option maxRecDepth 16384

noncomputable section

namespace Cert.Proof

open Idealize.ShloMosaic Idealize.ShloMosaic.TcCoe Idealize.SL.Sem

/-- The bridge between the two programs' results, at launch memories `m`, `m'`: on every core each result of the
    kernel's program, as the host operations after the region leave it, is the reference's paired result. -/
def Bridge (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    Cert.KernelIdeal.Hand.VK m c (Proc.devRef .tc Cert.KernelIdeal.main_v144)
        = StableHlo.after (Cert.ReferenceIdeal.Hand.ops (F := Ideal)) (StableHlo.launchContents m' c) (Proc.devRef .tc Cert.ReferenceIdeal.main_v125)
    ∧ Cert.KernelIdeal.Hand.VK m c (Proc.devRef .tc Cert.KernelIdeal.main_v153)
        = StableHlo.after (Cert.ReferenceIdeal.Hand.ops (F := Ideal)) (StableHlo.launchContents m' c) (Proc.devRef .tc Cert.ReferenceIdeal.main_v134)
    ∧ Cert.KernelIdeal.Hand.VK m c (Proc.devRef .tc Cert.KernelIdeal.main_v44)
        = StableHlo.after (Cert.ReferenceIdeal.Hand.ops (F := Ideal)) (StableHlo.launchContents m' c) (Proc.devRef .tc Cert.ReferenceIdeal.main_v42)
    ∧ Cert.KernelIdeal.Hand.VK m c (Proc.devRef .tc Cert.KernelIdeal.main_v164)
        = StableHlo.after (Cert.ReferenceIdeal.Hand.ops (F := Ideal)) (StableHlo.launchContents m' c) (Proc.devRef .tc Cert.ReferenceIdeal.main_v145)
    ∧ Cert.KernelIdeal.Hand.VK m c (Proc.devRef .tc Cert.KernelIdeal.main_v172)
        = StableHlo.after (Cert.ReferenceIdeal.Hand.ops (F := Ideal)) (StableHlo.launchContents m' c) (Proc.devRef .tc Cert.ReferenceIdeal.main_v153)
    ∧ Cert.KernelIdeal.Hand.VK m c (Proc.devRef .tc Cert.KernelIdeal.main_v216)
        = StableHlo.after (Cert.ReferenceIdeal.Hand.ops (F := Ideal)) (StableHlo.launchContents m' c) (Proc.devRef .tc Cert.ReferenceIdeal.main_v210)
    ∧ Cert.KernelIdeal.Hand.VK m c (Proc.devRef .tc Cert.KernelIdeal.main_v174)
        = StableHlo.after (Cert.ReferenceIdeal.Hand.ops (F := Ideal)) (StableHlo.launchContents m' c) (Proc.devRef .tc Cert.ReferenceIdeal.main_v155)
    ∧ Cert.KernelIdeal.Hand.VK m c (Proc.devRef .tc Cert.KernelIdeal.main_v213)
        = StableHlo.after (Cert.ReferenceIdeal.Hand.ops (F := Ideal)) (StableHlo.launchContents m' c) (Proc.devRef .tc Cert.ReferenceIdeal.main_v207)

/-- From the bridge, the algebraic conjunct at one pair of launch memories: the common values are the kernel's program's
    results; its run reads them off the frame run's post, the reference's run meets them through the bridge. -/
theorem algebraic_at (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hb : Bridge m m') :
    ∃ (v0 : (c : Dev Cert.KernelIdeal.nD) → Buf (Elt Ideal) ((c.tc : Thread Cert.KernelIdeal.nD Cert.KernelIdeal.τ).loc Cert.KernelIdeal.main_v144)) (v1 : (c : Dev Cert.KernelIdeal.nD) → Buf (Elt Ideal) ((c.tc : Thread Cert.KernelIdeal.nD Cert.KernelIdeal.τ).loc Cert.KernelIdeal.main_v153)) (v2 : (c : Dev Cert.KernelIdeal.nD) → Buf (Elt Ideal) ((c.tc : Thread Cert.KernelIdeal.nD Cert.KernelIdeal.τ).loc Cert.KernelIdeal.main_v44)) (v3 : (c : Dev Cert.KernelIdeal.nD) → Buf (Elt Ideal) ((c.tc : Thread Cert.KernelIdeal.nD Cert.KernelIdeal.τ).loc Cert.KernelIdeal.main_v164)) (v4 : (c : Dev Cert.KernelIdeal.nD) → Buf (Elt Ideal) ((c.tc : Thread Cert.KernelIdeal.nD Cert.KernelIdeal.τ).loc Cert.KernelIdeal.main_v172)) (v5 : (c : Dev Cert.KernelIdeal.nD) → Buf (Elt Ideal) ((c.tc : Thread Cert.KernelIdeal.nD Cert.KernelIdeal.τ).loc Cert.KernelIdeal.main_v216)) (v6 : (c : Dev Cert.KernelIdeal.nD) → Buf (Elt Ideal) ((c.tc : Thread Cert.KernelIdeal.nD Cert.KernelIdeal.τ).loc Cert.KernelIdeal.main_v174)) (v7 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_v153) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_v164) = v3 c
          ∧ r.2.mem ((c.tc : Thread Cert.KernelIdeal.nD Cert.KernelIdeal.τ).loc Cert.KernelIdeal.main_v172) = v4 c
          ∧ r.2.mem ((c.tc : Thread Cert.KernelIdeal.nD Cert.KernelIdeal.τ).loc Cert.KernelIdeal.main_v216) = v5 c
          ∧ r.2.mem ((c.tc : Thread Cert.KernelIdeal.nD Cert.KernelIdeal.τ).loc Cert.KernelIdeal.main_v174) = v6 c
          ∧ r.2.mem ((c.tc : Thread Cert.KernelIdeal.nD Cert.KernelIdeal.τ).loc Cert.KernelIdeal.main_v213) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_v153) = v4 c
          ∧ r.2.mem ((c.tc : Thread Cert.ReferenceIdeal.nD Cert.ReferenceIdeal.τ).loc Cert.ReferenceIdeal.main_v210) = v5 c
          ∧ r.2.mem ((c.tc : Thread Cert.ReferenceIdeal.nD Cert.ReferenceIdeal.τ).loc Cert.ReferenceIdeal.main_v155) = v6 c
          ∧ r.2.mem ((c.tc : Thread Cert.ReferenceIdeal.nD Cert.ReferenceIdeal.τ).loc Cert.ReferenceIdeal.main_v207) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  ⟨fun c => Cert.KernelIdeal.Hand.VK m c (Proc.devRef .tc Cert.KernelIdeal.main_v144),
   fun c => Cert.KernelIdeal.Hand.VK m c (Proc.devRef .tc Cert.KernelIdeal.main_v153),
   fun c => Cert.KernelIdeal.Hand.VK m c (Proc.devRef .tc Cert.KernelIdeal.main_v44),
   fun c => Cert.KernelIdeal.Hand.VK m c (Proc.devRef .tc Cert.KernelIdeal.main_v164),
   fun c => Cert.KernelIdeal.Hand.VK m c (Proc.devRef .tc Cert.KernelIdeal.main_v172),
   fun c => Cert.KernelIdeal.Hand.VK m c (Proc.devRef .tc Cert.KernelIdeal.main_v216),
   fun c => Cert.KernelIdeal.Hand.VK m c (Proc.devRef .tc Cert.KernelIdeal.main_v174),
   fun c => Cert.KernelIdeal.Hand.VK m c (Proc.devRef .tc Cert.KernelIdeal.main_v213),
   (θ_run _ _ _).mono (fun _ h c =>
      ⟨(h c).1 _ (by simp), (h c).1 _ (by simp), (h c).1 _ (by simp), (h c).1 _ (by simp),
       (h c).1 _ (by simp), (h c).1 _ (by simp), (h c).1 _ (by simp), (h c).1 _ (by simp), (h c).2⟩)
     (Cert.KernelIdeal.Hand.run_results (F := Ideal) m g),
   (θ_run _ _ _).mono (fun _ h c =>
      ⟨(h c Cert.ReferenceIdeal.main_v125).trans (hb c).1.symm,
       (h c Cert.ReferenceIdeal.main_v134).trans (hb c).2.1.symm,
       (h c Cert.ReferenceIdeal.main_v42).trans (hb c).2.2.1.symm,
       (h c Cert.ReferenceIdeal.main_v145).trans (hb c).2.2.2.1.symm,
       (h c Cert.ReferenceIdeal.main_v153).trans (hb c).2.2.2.2.1.symm,
       (h c Cert.ReferenceIdeal.main_v210).trans (hb c).2.2.2.2.2.1.symm,
       (h c Cert.ReferenceIdeal.main_v155).trans (hb c).2.2.2.2.2.2.1.symm,
       (h c Cert.ReferenceIdeal.main_v207).trans (hb c).2.2.2.2.2.2.2.symm,
       (h c Cert.ReferenceIdeal.main_arg0).trans (Cert.ReferenceIdeal.Hand.kept_arg0 _),
       (h c Cert.ReferenceIdeal.main_arg1).trans (Cert.ReferenceIdeal.Hand.kept_arg1 _),
       (h c Cert.ReferenceIdeal.main_arg2).trans (Cert.ReferenceIdeal.Hand.kept_arg2 _),
       (h c Cert.ReferenceIdeal.main_arg3).trans (Cert.ReferenceIdeal.Hand.kept_arg3 _)⟩)
     (Cert.ReferenceIdeal.Hand.run_all (F := Ideal) m' g')⟩

/-! ## The kernel's program's contents at the region's exit -/

/-- Core `c`'s TensorCore buffer contents when the region is left: the four arrays at what the library computes from
    the proof data, every other buffer at its contents at the region's entry. The contents after @main are the later
    host operations' fold over these. -/
abbrev WK (m : (ℓ : Loc Cert.KernelIdeal.nD Cert.KernelIdeal.τ Cert.KernelIdeal.sig) → Buf (Elt Ideal) ℓ) (c : Dev Cert.KernelIdeal.nD) : Valuation Cert.KernelIdeal.τ Cert.KernelIdeal.sig (Elt Ideal) :=
  Pipeline.withArrays (Cert.KernelIdeal.cfgs 0).spec c (Cert.KernelIdeal.Hand.V₀ m c) (Cert.KernelIdeal.Hand.arrsAt m c)

/-- A buffer that is no window's array holds, at the region's exit, its contents at the region's entry. -/
theorem WK_of_ne (m : (ℓ : Loc Cert.KernelIdeal.nD Cert.KernelIdeal.τ Cert.KernelIdeal.sig) → Buf (Elt Ideal) ℓ) (c : Dev Cert.KernelIdeal.nD) (b : Ref Cert.KernelIdeal.sig .tc) (hb : ∀ w, Pipeline.arrRef (Cert.KernelIdeal.cfgs 0).spec w ≠ b) :
    WK m c (Proc.devRef .tc b) = Cert.KernelIdeal.Hand.V₀ m c (Proc.devRef .tc b) :=
  Pipeline.withArrays_of_ne _ c _ _ b hb

/-- A window's array holds, at the region's exit, what the library computes from the proof data. -/
theorem WK_arr (m : (ℓ : Loc Cert.KernelIdeal.nD Cert.KernelIdeal.τ Cert.KernelIdeal.sig) → Buf (Elt Ideal) ℓ) (c : Dev Cert.KernelIdeal.nD) (w : Fin Cert.KernelIdeal.cfg0.W) :
    WK m c (Proc.devRef .tc (Pipeline.arrRef (Cert.KernelIdeal.cfgs 0).spec w)) = Cert.KernelIdeal.Hand.arrsAt m c w :=
  Pipeline.withArrays_arr _ Cert.KernelIdeal.Gen.launch0.win.arr_inj c _ _ w

/-- An argument of @main holds, at the region's exit, the launch contents. -/
theorem WK_arg (m : (ℓ : Loc Cert.KernelIdeal.nD Cert.KernelIdeal.τ Cert.KernelIdeal.sig) → Buf (Elt Ideal) ℓ) (c : Dev Cert.KernelIdeal.nD) (b : Ref Cert.KernelIdeal.sig .tc)
    (hb : b ∈ [Cert.KernelIdeal.main_arg0, Cert.KernelIdeal.main_arg1, Cert.KernelIdeal.main_arg2, Cert.KernelIdeal.main_arg3]) (harr : ∀ w, Pipeline.arrRef (Cert.KernelIdeal.cfgs 0).spec w ≠ b) :
    WK m c (Proc.devRef .tc b) = m ((c.tc : Thread Cert.KernelIdeal.nD Cert.KernelIdeal.τ).loc b) :=
  (WK_of_ne m c b harr).trans (Cert.KernelIdeal.Hand.V_arg m c b hb)

/-- The contents after @main are the later host operations' fold over the contents at the region's exit. -/
theorem VK_eq (m : (ℓ : Loc Cert.KernelIdeal.nD Cert.KernelIdeal.τ Cert.KernelIdeal.sig) → Buf (Elt Ideal) ℓ) (c : Dev Cert.KernelIdeal.nD) :
    Cert.KernelIdeal.Hand.VK m c = StableHlo.after (Cert.KernelIdeal.Hand.tailOpss (F := Ideal)).flatten (WK m c) := rfl

/-! ## The arguments agree at the two programs' starting contents -/

section Agree
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
  (hag : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)))
include hag

theorem agree0 (c : Dev Cert.KernelIdeal.nD) : WK m c (Proc.devRef .tc Cert.KernelIdeal.main_arg0) = StableHlo.launchContents m' c (Proc.devRef .tc Cert.ReferenceIdeal.main_arg0) :=
  (WK_arg m c Cert.KernelIdeal.main_arg0 (by simp) (by decide)).trans (hag c).1.symm
theorem agree1 (c : Dev Cert.KernelIdeal.nD) : WK m c (Proc.devRef .tc Cert.KernelIdeal.main_arg1) = StableHlo.launchContents m' c (Proc.devRef .tc Cert.ReferenceIdeal.main_arg1) :=
  (WK_arg m c Cert.KernelIdeal.main_arg1 (by simp) (by decide)).trans (hag c).2.1.symm
theorem agree2 (c : Dev Cert.KernelIdeal.nD) : WK m c (Proc.devRef .tc Cert.KernelIdeal.main_arg2) = StableHlo.launchContents m' c (Proc.devRef .tc Cert.ReferenceIdeal.main_arg2) :=
  (WK_arg m c Cert.KernelIdeal.main_arg2 (by simp) (by decide)).trans (hag c).2.2.1.symm
theorem agree3 (c : Dev Cert.KernelIdeal.nD) : WK m c (Proc.devRef .tc Cert.KernelIdeal.main_arg3) = StableHlo.launchContents m' c (Proc.devRef .tc Cert.ReferenceIdeal.main_arg3) :=
  (WK_arg m c Cert.KernelIdeal.main_arg3 (by simp) (by decide)).trans (hag c).2.2.2.symm

end Agree

/-! ## What the bridge asks of the contents at the region's exit -/

/-- The clamped tokens: at the region's exit the buffer of the tokens with the negative ones replaced holds them, as a
    function of the first argument there. -/
theorem WK_tokens (m : (ℓ : Loc Cert.KernelIdeal.nD Cert.KernelIdeal.τ Cert.KernelIdeal.sig) → Buf (Elt Ideal) ℓ) (c : Dev Cert.KernelIdeal.nD) :
    WK m c (Proc.devRef .tc Cert.KernelIdeal.main_v2) = Cert.KernelIdeal.Hand.tokens (WK m c (Proc.devRef .tc Cert.KernelIdeal.main_arg0)) := by
  rw [WK_of_ne m c Cert.KernelIdeal.main_v2 (by decide), WK_arg m c Cert.KernelIdeal.main_arg0 (by simp) (by decide)]
  exact Cert.KernelIdeal.Hand.V₀_tokens m c

/-- The row of tokens the region reads (window 0's array at the region's entry), as a function of the first argument. -/
theorem tokRow_eq (m : (ℓ : Loc Cert.KernelIdeal.nD Cert.KernelIdeal.τ Cert.KernelIdeal.sig) → Buf (Elt Ideal) ℓ) (c : Dev Cert.KernelIdeal.nD) :
    Cert.KernelIdeal.HandValue.tokArr m c = Cert.KernelIdeal.Hand.tokRow (WK m c (Proc.devRef .tc Cert.KernelIdeal.main_arg0)) := by
  rw [WK_arg m c Cert.KernelIdeal.main_arg0 (by simp) (by decide)]
  exact Cert.KernelIdeal.HandValue.tokArr_eq m c

/-- The counts array at the region's exit is the specification's counts of that row. -/
theorem WK_counts (m : (ℓ : Loc Cert.KernelIdeal.nD Cert.KernelIdeal.τ Cert.KernelIdeal.sig) → Buf (Elt Ideal) ℓ) (c : Dev Cert.KernelIdeal.nD) :
    WK m c (Proc.devRef .tc Cert.KernelIdeal.main_v9_1) = Cert.Spec.countsArr (Cert.KernelIdeal.Hand.tokRow (WK m c (Proc.devRef .tc Cert.KernelIdeal.main_arg0))) :=
  (WK_arr m c 3).trans ((Cert.KernelIdeal.HandValue.counts_eq m c).trans (congrArg Cert.Spec.countsArr (tokRow_eq m c)))

/-- The ranks array at the region's exit is the specification's ranks of that row. -/
theorem WK_ranks (m : (ℓ : Loc Cert.KernelIdeal.nD Cert.KernelIdeal.τ Cert.KernelIdeal.sig) → Buf (Elt Ideal) ℓ) (c : Dev Cert.KernelIdeal.nD) :
    WK m c (Proc.devRef .tc Cert.KernelIdeal.main_v9_0) = Cert.Spec.rankArr (Cert.KernelIdeal.Hand.tokRow (WK m c (Proc.devRef .tc Cert.KernelIdeal.main_arg0))) :=
  (WK_arr m c 2).trans ((Cert.KernelIdeal.HandValue.ranks_eq m c).trans (congrArg Cert.Spec.rankArr (tokRow_eq m c)))

/-- THE BRIDGE at launch memories agreeing on the arguments: the two programs' starting contents agree on the arguments,
    and the kernel's program's contents at the region's exit hold the clamped tokens and the specification's ranks and
    counts of the token row. -/
theorem bridge (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hag : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))) : Bridge m m' := fun c =>
  Cert.Bridge.results_eq (WK m c) (StableHlo.launchContents m' c)
    (agree0 m m' hag c) (agree1 m m' hag c) (agree2 m m' hag c) (agree3 m m' hag c)
    (WK_tokens m c)
    (by rw [WK_tokens m c]; exact WK_counts m c)
    (by rw [WK_tokens m c]; exact WK_ranks m c)

/-- THE ALGEBRAIC CONJUNCT: at the ideal instance, from memories agreeing on the arguments, both programs run, end with
    equal results and unchanged arguments. -/
theorem algebraic : @Cert.algebraic_KernelIdeal_ReferenceIdeal Cert.KernelIdeal.Gen.facts Cert.ReferenceIdeal.Gen.facts Cert.Pre_any_inputs.Gen.facts :=
  fun m g m' g' _ hag => algebraic_at m g m' g' (bridge m m' hag)

/-- info: 'Cert.Proof.algebraic' depends on axioms: [propext, Classical.choice, Quot.sound] -/
#guard_msgs in #print axioms algebraic

end Cert.Proof

end
-- ==== Proof.lean ====
/-
  The page-table update: a Pallas kernel for the per-token occurrence rank and the per-id histogram, inside the
  host program that allocates pages, against the plain host reference.

  Both programs map four integer arrays (the token ids, the sequence lengths, the page table, the pages' reference
  counts) to eight integer results. They differ in three places only.
  * The histogram of the token ids. The reference adds one at each token's row of a 513-row vector (tokens above
    512 fall outside and are dropped). The kernel carries, across its 64 grid points, a column of running counts
    over 528 ids — per block of 1024 tokens, in eight sub-tiles of 128, the one-hot matrix of the sub-tile
    multiplied by the upper-triangular matrix of ones is the inclusive prefix count along the sub-tile, and its
    last column the sub-tile's count — and hands the column out at the last point; tokens above 512 are first
    moved to the id 528, which no row counts. Rows 0..512, converted to words, are the reference's histogram.
  * The rank of a token: the number of earlier tokens with the same id. The reference reads it off the cumulative
    sum, down the token axis, of the one-hot matrix; the kernel sums the one-hot column against the running count.
    The two agree at every token below 512, and the rank reaches only the last result, whose final selection
    writes -1 wherever the token is not below 512.
  * The free list: the reference sorts the pages by a key that puts the free pages first; the kernel's program
    places page q at the number of keys below q's, computed by two cumulative sums. The keys are distinct, so
    the sort is that placement.
  Everything else is operation for operation the same function on both sides, read out of the two programs'
  host operations stage by stage over equal live values.

  The three frames: each kernel program is its host prefix, the region, the host tail, run by the frame rule for a
  region with a carried scratch column and host lines around it (three control cases of the body over the grid:
  the first point, which clears the column, the interior points, the last point, which stores the counts); the
  reference is a straight line of host operations. The idealization's ledger is eight round trips f32 → bf16 → f32
  of the one-hot matrix, the identity on extended reals.
-/
import proofs.«408099_j23811298689264_3_alg».proof.Defs
import proofs.«408099_j23811298689264_3_alg».proof.Proof.Gen.Kernel
import proofs.«408099_j23811298689264_3_alg».proof.Proof.Gen.KernelIdeal
import proofs.«408099_j23811298689264_3_alg».proof.Proof.Gen.ReferenceIdeal
import proofs.«408099_j23811298689264_3_alg».proof.Proof.Gen.Pre_any_inputs
import proofs.«408099_j23811298689264_3_alg».proof.Proof.K.Frame
import proofs.«408099_j23811298689264_3_alg».proof.Proof.KI.Frame
import proofs.«408099_j23811298689264_3_alg».proof.Proof.Ref.Run
import proofs.«408099_j23811298689264_3_alg».proof.Proof.Algebraic

noncomputable section

namespace Cert.Proof

open Idealize.ShloMosaic Idealize.SL.Sem

/-- The word-level kernel program runs to the end, faults nowhere, and leaves its four arguments as they were. -/
theorem frame_kernel : @Cert.frame_Kernel Cert.Kernel.Gen.facts Cert.Pre_any_inputs.Gen.facts :=
  fun m ρ _ => Cert.Kernel.Hand.frame m ρ

/-- The same for its idealization. -/
theorem frame_kernelIdeal : @Cert.frame_KernelIdeal Cert.KernelIdeal.Gen.facts Cert.Pre_any_inputs.Gen.facts :=
  fun m ρ _ => Cert.KernelIdeal.Hand.frame m ρ

/-- The reference is a straight line of host operations, none of which writes an argument. -/
theorem frame_referenceIdeal : @Cert.frame_ReferenceIdeal Cert.ReferenceIdeal.Gen.facts Cert.Pre_any_inputs.Gen.facts :=
  Cert.ReferenceIdeal.Hand.frame

/-- The ledger's eight entries: a value narrowed to bf16 and widened back is itself on the extended reals, and
    the rounding through bf16 on words. -/
theorem preserves : Cert.preserves_Kernel_KernelIdeal :=
  ⟨IdealRules.truncf_extf.statement _ _ _, IdealRules.truncf_extf.statement _ _ _, IdealRules.truncf_extf.statement _ _ _,
   IdealRules.truncf_extf.statement _ _ _, IdealRules.truncf_extf.statement _ _ _, IdealRules.truncf_extf.statement _ _ _,
   IdealRules.truncf_extf.statement _ _ _, IdealRules.truncf_extf.statement _ _ _⟩

theorem claim : Cert.Claim :=
  ⟨Cert.Kernel.Gen.facts, Cert.KernelIdeal.Gen.facts, Cert.ReferenceIdeal.Gen.facts, Cert.Pre_any_inputs.Gen.facts,
   frame_kernel, frame_kernelIdeal, frame_referenceIdeal, preserves, algebraic⟩

end Cert.Proof

end
